-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v241)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v241) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v546) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x2 : Shape := ⟨2, ![40000, 2]⟩
abbrev S2x640000 : Shape := ⟨2, ![2, 640000]⟩
abbrev S640000x1 : Shape := ⟨2, ![640000, 1]⟩
abbrev S2x128 : Shape := ⟨2, ![2, 128]⟩
abbrev S128 : Shape := ⟨1, ![128]⟩
abbrev S3x128x128 : Shape := ⟨3, ![3, 128, 128]⟩
abbrev S3x128 : Shape := ⟨2, ![3, 128]⟩
abbrev S3x1x128 : Shape := ⟨3, ![3, 1, 128]⟩
abbrev S_ : Shape := ⟨0, ![]⟩

class Facts : Prop where
  bcast_S_S40000x2 : S_.BroadcastsInDim S40000x2 (![] : Fin 0 → Fin S40000x2.rank)
  reducesTo_S40000x2_S_d0_1 : S40000x2.ReducesTo [0, 1] S_
  h_S_ : 0 < S_.numel
  bcast_S_S640000x1 : S_.BroadcastsInDim S640000x1 (![] : Fin 0 → Fin S640000x1.rank)
  reducesTo_S640000x1_S_d0_1 : S640000x1.ReducesTo [0, 1] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x1x128 : S_.BroadcastsInDim S3x1x128 (![] : Fin 0 → Fin S3x1x128.rank)
  reducesTo_S3x1x128_S_d0_1_2 : S3x1x128.ReducesTo [0, 1, 2] S_

variable [Facts]

def fn_part7 {F : FTy → Type} [FloatOps F] (main_arg26 : FVec F S3x128 .f32) (main_v118 : IVec S_ 1) (main_v119 : FVec F S3x128 .f32) : IVec S_ 1 :=
  let main_cst_46 : FVec F S_ .f32 := constant S_ .f32 0x7F800000#32
  let main_v120 : FVec F S3x128 .f32 := broadcastInDim S3x128 ![] bcast_S_S3x128 main_cst_46
  let main_v121 : IVec S3x128 1 := cmpf .olt main_v119 main_v120
  let main_c_47 : IVec S_ 1 := constantI S_ 1 1#1
  let main_v122 : IVec S_ 1 := (fun x v => Host.reduce IntOp.andi x v reducesTo_S3x128_S_d0_1 h_S_) main_v121 main_c_47
  let main_v123 : IVec S_ 1 := andi main_v118 main_v122
  let main_v124 : FVec F S3x128 .f32 := Host.absf main_arg26
  let main_cst_48 : FVec F S_ .f32 := constant S_ .f32 0x7F800000#32
  let main_v125 : FVec F S3x128 .f32 := broadcastInDim S3x128 ![] bcast_S_S3x128 main_cst_48
  let main_v126 : IVec S3x128 1 := cmpf .olt main_v124 main_v125
  let main_c_49 : IVec S_ 1 := constantI S_ 1 1#1
  let main_v127 : IVec S_ 1 := (fun x v => Host.reduce IntOp.andi x v reducesTo_S3x128_S_d0_1 h_S_) main_v126 main_c_49
  let main_v128 : IVec S_ 1 := andi main_v123 main_v127
  main_v128

def fn_part6 {F : FTy → Type} [FloatOps F] (main_arg22 : FVec F S3x128 .f32) (main_arg23 : FVec F S3x128x128 .f32) (main_arg24 : FVec F S3x128 .f32) (main_arg25 : FVec F S3x128 .f32) (main_arg26 : FVec F S3x128 .f32) (main_v98 : IVec S_ 1) (main_v101 : IVec S3x128 1) (main_c_39 : IVec S_ 1) : IVec S_ 1 :=
  let main_v102 : IVec S_ 1 := (fun x v => Host.reduce IntOp.andi x v reducesTo_S3x128_S_d0_1 h_S_) main_v101 main_c_39
  let main_v103 : IVec S_ 1 := andi main_v98 main_v102
  let main_v104 : FVec F S3x128 .f32 := Host.absf main_arg22
  let main_cst_40 : FVec F S_ .f32 := constant S_ .f32 0x7F800000#32
  let main_v105 : FVec F S3x128 .f32 := broadcastInDim S3x128 ![] bcast_S_S3x128 main_cst_40
  let main_v106 : IVec S3x128 1 := cmpf .olt main_v104 main_v105
  let main_c_41 : IVec S_ 1 := constantI S_ 1 1#1
  let main_v107 : IVec S_ 1 := (fun x v => Host.reduce IntOp.andi x v reducesTo_S3x128_S_d0_1 h_S_) main_v106 main_c_41
  let main_v108 : IVec S_ 1 := andi main_v103 main_v107
  let main_v109 : FVec F S3x128x128 .f32 := Host.absf main_arg23
  let main_cst_42 : FVec F S_ .f32 := constant S_ .f32 0x7F800000#32
  let main_v110 : FVec F S3x128x128 .f32 := broadcastInDim S3x128x128 ![] bcast_S_S3x128x128 main_cst_42
  let main_v111 : IVec S3x128x128 1 := cmpf .olt main_v109 main_v110
  let main_c_43 : IVec S_ 1 := constantI S_ 1 1#1
  let main_v112 : IVec S_ 1 := (fun x v => Host.reduce IntOp.andi x v reducesTo_S3x128x128_S_d0_1_2 h_S_) main_v111 main_c_43
  let main_v113 : IVec S_ 1 := andi main_v108 main_v112
  let main_v114 : FVec F S3x128 .f32 := Host.absf main_arg24
  let main_cst_44 : FVec F S_ .f32 := constant S_ .f32 0x7F800000#32
  let main_v115 : FVec F S3x128 .f32 := broadcastInDim S3x128 ![] bcast_S_S3x128 main_cst_44
  let main_v116 : IVec S3x128 1 := cmpf .olt main_v114 main_v115
  let main_c_45 : IVec S_ 1 := constantI S_ 1 1#1
  let main_v117 : IVec S_ 1 := (fun x v => Host.reduce IntOp.andi x v reducesTo_S3x128_S_d0_1 h_S_) main_v116 main_c_45
  let main_v118 : IVec S_ 1 := andi main_v113 main_v117
  let main_v119 : FVec F S3x128 .f32 := Host.absf main_arg25
  fn_part7 (F := F) main_arg26 main_v118 main_v119

def fn_part5 {F : FTy → Type} [FloatOps F] (main_arg19 : FVec F S3x128x128 .f32) (main_arg20 : FVec F S3x128 .f32) (main_arg21 : FVec F S3x128 .f32) (main_arg22 : FVec F S3x128 .f32) (main_arg23 : FVec F S3x128x128 .f32) (main_arg24 : FVec F S3x128 .f32) (main_arg25 : FVec F S3x128 .f32) (main_arg26 : FVec F S3x128 .f32) (main_v83 : IVec S_ 1) (main_v84 : FVec F S3x128 .f32) (main_cst_32 : FVec F S_ .f32) : IVec S_ 1 :=
  let main_v85 : FVec F S3x128 .f32 := broadcastInDim S3x128 ![] bcast_S_S3x128 main_cst_32
  let main_v86 : IVec S3x128 1 := cmpf .olt main_v84 main_v85
  let main_c_33 : IVec S_ 1 := constantI S_ 1 1#1
  let main_v87 : IVec S_ 1 := (fun x v => Host.reduce IntOp.andi x v reducesTo_S3x128_S_d0_1 h_S_) main_v86 main_c_33
  let main_v88 : IVec S_ 1 := andi main_v83 main_v87
  let main_v89 : FVec F S3x128x128 .f32 := Host.absf main_arg19
  let main_cst_34 : FVec F S_ .f32 := constant S_ .f32 0x7F800000#32
  let main_v90 : FVec F S3x128x128 .f32 := broadcastInDim S3x128x128 ![] bcast_S_S3x128x128 main_cst_34
  let main_v91 : IVec S3x128x128 1 := cmpf .olt main_v89 main_v90
  let main_c_35 : IVec S_ 1 := constantI S_ 1 1#1
  let main_v92 : IVec S_ 1 := (fun x v => Host.reduce IntOp.andi x v reducesTo_S3x128x128_S_d0_1_2 h_S_) main_v91 main_c_35
  let main_v93 : IVec S_ 1 := andi main_v88 main_v92
  let main_v94 : FVec F S3x128 .f32 := Host.absf main_arg20
  let main_cst_36 : FVec F S_ .f32 := constant S_ .f32 0x7F800000#32
  let main_v95 : FVec F S3x128 .f32 := broadcastInDim S3x128 ![] bcast_S_S3x128 main_cst_36
  let main_v96 : IVec S3x128 1 := cmpf .olt main_v94 main_v95
  let main_c_37 : IVec S_ 1 := constantI S_ 1 1#1
  let main_v97 : IVec S_ 1 := (fun x v => Host.reduce IntOp.andi x v reducesTo_S3x128_S_d0_1 h_S_) main_v96 main_c_37
  let main_v98 : IVec S_ 1 := andi main_v93 main_v97
  let main_v99 : FVec F S3x128 .f32 := Host.absf main_arg21
  let main_cst_38 : FVec F S_ .f32 := constant S_ .f32 0x7F800000#32
  let main_v100 : FVec F S3x128 .f32 := broadcastInDim S3x128 ![] bcast_S_S3x128 main_cst_38
  let main_v101 : IVec S3x128 1 := cmpf .olt main_v99 main_v100
  let main_c_39 : IVec S_ 1 := constantI S_ 1 1#1
  fn_part6 (F := F) main_arg22 main_arg23 main_arg24 main_arg25 main_arg26 main_v98 main_v101 main_c_39

def fn_part4 {F : FTy → Type} [FloatOps F] (main_arg15 : FVec F S3x128 .f32) (main_arg16 : FVec F S3x128 .f32) (main_arg17 : FVec F S3x128 .f32) (main_arg18 : FVec F S3x128 .f32) (main_arg19 : FVec F S3x128x128 .f32) (main_arg20 : FVec F S3x128 .f32) (main_arg21 : FVec F S3x128 .f32) (main_arg22 : FVec F S3x128 .f32) (main_arg23 : FVec F S3x128x128 .f32) (main_arg24 : FVec F S3x128 .f32) (main_arg25 : FVec F S3x128 .f32) (main_arg26 : FVec F S3x128 .f32) (main_v63 : IVec S_ 1) (main_v67 : IVec S_ 1) : IVec S_ 1 :=
  let main_v68 : IVec S_ 1 := andi main_v63 main_v67
  let main_v69 : FVec F S3x128 .f32 := Host.absf main_arg15
  let main_cst_26 : FVec F S_ .f32 := constant S_ .f32 0x7F800000#32
  let main_v70 : FVec F S3x128 .f32 := broadcastInDim S3x128 ![] bcast_S_S3x128 main_cst_26
  let main_v71 : IVec S3x128 1 := cmpf .olt main_v69 main_v70
  let main_c_27 : IVec S_ 1 := constantI S_ 1 1#1
  let main_v72 : IVec S_ 1 := (fun x v => Host.reduce IntOp.andi x v reducesTo_S3x128_S_d0_1 h_S_) main_v71 main_c_27
  let main_v73 : IVec S_ 1 := andi main_v68 main_v72
  let main_v74 : FVec F S3x128 .f32 := Host.absf main_arg16
  let main_cst_28 : FVec F S_ .f32 := constant S_ .f32 0x7F800000#32
  let main_v75 : FVec F S3x128 .f32 := broadcastInDim S3x128 ![] bcast_S_S3x128 main_cst_28
  let main_v76 : IVec S3x128 1 := cmpf .olt main_v74 main_v75
  let main_c_29 : IVec S_ 1 := constantI S_ 1 1#1
  let main_v77 : IVec S_ 1 := (fun x v => Host.reduce IntOp.andi x v reducesTo_S3x128_S_d0_1 h_S_) main_v76 main_c_29
  let main_v78 : IVec S_ 1 := andi main_v73 main_v77
  let main_v79 : FVec F S3x128 .f32 := Host.absf main_arg17
  let main_cst_30 : FVec F S_ .f32 := constant S_ .f32 0x7F800000#32
  let main_v80 : FVec F S3x128 .f32 := broadcastInDim S3x128 ![] bcast_S_S3x128 main_cst_30
  let main_v81 : IVec S3x128 1 := cmpf .olt main_v79 main_v80
  let main_c_31 : IVec S_ 1 := constantI S_ 1 1#1
  let main_v82 : IVec S_ 1 := (fun x v => Host.reduce IntOp.andi x v reducesTo_S3x128_S_d0_1 h_S_) main_v81 main_c_31
  let main_v83 : IVec S_ 1 := andi main_v78 main_v82
  let main_v84 : FVec F S3x128 .f32 := Host.absf main_arg18
  let main_cst_32 : FVec F S_ .f32 := constant S_ .f32 0x7F800000#32
  fn_part5 (F := F) main_arg19 main_arg20 main_arg21 main_arg22 main_arg23 main_arg24 main_arg25 main_arg26 main_v83 main_v84 main_cst_32

def fn_part3 {F : FTy → Type} [FloatOps F] (main_arg12 : FVec F S3x128 .f32) (main_arg13 : FVec F S3x128 .f32) (main_arg14 : FVec F S3x128 .f32) (main_arg15 : FVec F S3x128 .f32) (main_arg16 : FVec F S3x128 .f32) (main_arg17 : FVec F S3x128 .f32) (main_arg18 : FVec F S3x128 .f32) (main_arg19 : FVec F S3x128x128 .f32) (main_arg20 : FVec F S3x128 .f32) (main_arg21 : FVec F S3x128 .f32) (main_arg22 : FVec F S3x128 .f32) (main_arg23 : FVec F S3x128x128 .f32) (main_arg24 : FVec F S3x128 .f32) (main_arg25 : FVec F S3x128 .f32) (main_arg26 : FVec F S3x128 .f32) (main_v48 : IVec S_ 1) (main_v49 : FVec F S3x128x128 .f32) (main_v50 : FVec F S3x128x128 .f32) : IVec S_ 1 :=
  let main_v51 : IVec S3x128x128 1 := cmpf .olt main_v49 main_v50
  let main_c_19 : IVec S_ 1 := constantI S_ 1 1#1
  let main_v52 : IVec S_ 1 := (fun x v => Host.reduce IntOp.andi x v reducesTo_S3x128x128_S_d0_1_2 h_S_) main_v51 main_c_19
  let main_v53 : IVec S_ 1 := andi main_v48 main_v52
  let main_v54 : FVec F S3x128 .f32 := Host.absf main_arg12
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128 .f32 := Host.absf main_arg13
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  let main_v64 : FVec F S3x128 .f32 := Host.absf main_arg14
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg15 main_arg16 main_arg17 main_arg18 main_arg19 main_arg20 main_arg21 main_arg22 main_arg23 main_arg24 main_arg25 main_arg26 main_v63 main_v67

def fn_part2 {F : FTy → Type} [FloatOps F] (main_arg8 : FVec F S3x128 .f32) (main_arg9 : FVec F S3x1x128 .f32) (main_arg10 : FVec F S3x128 .f32) (main_arg11 : FVec F S3x128x128 .f32) (main_arg12 : FVec F S3x128 .f32) (main_arg13 : FVec F S3x128 .f32) (main_arg14 : FVec F S3x128 .f32) (main_arg15 : FVec F S3x128 .f32) (main_arg16 : FVec F S3x128 .f32) (main_arg17 : FVec F S3x128 .f32) (main_arg18 : FVec F S3x128 .f32) (main_arg19 : FVec F S3x128x128 .f32) (main_arg20 : FVec F S3x128 .f32) (main_arg21 : FVec F S3x128 .f32) (main_arg22 : FVec F S3x128 .f32) (main_arg23 : FVec F S3x128x128 .f32) (main_arg24 : FVec F S3x128 .f32) (main_arg25 : FVec F S3x128 .f32) (main_arg26 : FVec F S3x128 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x1x128 .f32 := Host.absf main_arg9
  let main_cst_14 : FVec F S_ .f32 := constant S_ .f32 0x7F800000#32
  let main_v40 : FVec F S3x1x128 .f32 := broadcastInDim S3x1x128 ![] bcast_S_S3x1x128 main_cst_14
  let main_v41 : IVec S3x1x128 1 := cmpf .olt main_v39 main_v40
  let main_c_15 : IVec S_ 1 := constantI S_ 1 1#1
  let main_v42 : IVec S_ 1 := (fun x v => Host.reduce IntOp.andi x v reducesTo_S3x1x128_S_d0_1_2 h_S_) main_v41 main_c_15
  let main_v43 : IVec S_ 1 := andi main_v38 main_v42
  let main_v44 : FVec F S3x128 .f32 := Host.absf main_arg10
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128x128 .f32 := Host.absf main_arg11
  let main_cst_18 : FVec F S_ .f32 := constant S_ .f32 0x7F800000#32
  let main_v50 : FVec F S3x128x128 .f32 := broadcastInDim S3x128x128 ![] bcast_S_S3x128x128 main_cst_18
  fn_part3 (F := F) main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg5 : FVec F S128 .f32) (main_arg6 : FVec F S128 .f32) (main_arg7 : FVec F S3x128x128 .f32) (main_arg8 : FVec F S3x128 .f32) (main_arg9 : FVec F S3x1x128 .f32) (main_arg10 : FVec F S3x128 .f32) (main_arg11 : FVec F S3x128x128 .f32) (main_arg12 : FVec F S3x128 .f32) (main_arg13 : FVec F S3x128 .f32) (main_arg14 : FVec F S3x128 .f32) (main_arg15 : FVec F S3x128 .f32) (main_arg16 : FVec F S3x128 .f32) (main_arg17 : FVec F S3x128 .f32) (main_arg18 : FVec F S3x128 .f32) (main_arg19 : FVec F S3x128x128 .f32) (main_arg20 : FVec F S3x128 .f32) (main_arg21 : FVec F S3x128 .f32) (main_arg22 : FVec F S3x128 .f32) (main_arg23 : FVec F S3x128x128 .f32) (main_arg24 : FVec F S3x128 .f32) (main_arg25 : FVec F S3x128 .f32) (main_arg26 : FVec F S3x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg7
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S40000x2 .f32) (main_arg1 : IVec S2x640000 32) (main_arg2 : FVec F S640000x1 .f32) (main_arg3 : FVec F S2x128 .f32) (main_arg4 : FVec F S128 .f32) (main_arg5 : FVec F S128 .f32) (main_arg6 : FVec F S128 .f32) (main_arg7 : FVec F S3x128x128 .f32) (main_arg8 : FVec F S3x128 .f32) (main_arg9 : FVec F S3x1x128 .f32) (main_arg10 : FVec F S3x128 .f32) (main_arg11 : FVec F S3x128x128 .f32) (main_arg12 : FVec F S3x128 .f32) (main_arg13 : FVec F S3x128 .f32) (main_arg14 : FVec F S3x128 .f32) (main_arg15 : FVec F S3x128 .f32) (main_arg16 : FVec F S3x128 .f32) (main_arg17 : FVec F S3x128 .f32) (main_arg18 : FVec F S3x128 .f32) (main_arg19 : FVec F S3x128x128 .f32) (main_arg20 : FVec F S3x128 .f32) (main_arg21 : FVec F S3x128 .f32) (main_arg22 : FVec F S3x128 .f32) (main_arg23 : FVec F S3x128x128 .f32) (main_arg24 : FVec F S3x128 .f32) (main_arg25 : FVec F S3x128 .f32) (main_arg26 : FVec F S3x128 .f32) : IVec S_ 1 :=
  let main_v0 : FVec F S40000x2 .f32 := Host.absf main_arg0
  let main_cst : FVec F S_ .f32 := constant S_ .f32 0x7F800000#32
  let main_v1 : FVec F S40000x2 .f32 := broadcastInDim S40000x2 ![] bcast_S_S40000x2 main_cst
  let main_v2 : IVec S40000x2 1 := cmpf .olt main_v0 main_v1
  let main_c : IVec S_ 1 := constantI S_ 1 1#1
  let main_v3 : IVec S_ 1 := (fun x v => Host.reduce IntOp.andi x v reducesTo_S40000x2_S_d0_1 h_S_) main_v2 main_c
  let main_v4 : FVec F S640000x1 .f32 := Host.absf main_arg2
  let main_cst_0 : FVec F S_ .f32 := constant S_ .f32 0x7F800000#32
  let main_v5 : FVec F S640000x1 .f32 := broadcastInDim S640000x1 ![] bcast_S_S640000x1 main_cst_0
  let main_v6 : IVec S640000x1 1 := cmpf .olt main_v4 main_v5
  let main_c_1 : IVec S_ 1 := constantI S_ 1 1#1
  let main_v7 : IVec S_ 1 := (fun x v => Host.reduce IntOp.andi x v reducesTo_S640000x1_S_d0_1 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S40000x2 : Shape := ⟨2, ![40000, 2]⟩
abbrev S2x640000 : Shape := ⟨2, ![2, 640000]⟩
abbrev S640000x1 : Shape := ⟨2, ![640000, 1]⟩
abbrev S2x128 : Shape := ⟨2, ![2, 128]⟩
abbrev S128 : Shape := ⟨1, ![128]⟩
abbrev S3x128x128 : Shape := ⟨3, ![3, 128, 128]⟩
abbrev S3x128 : Shape := ⟨2, ![3, 128]⟩
abbrev S3x1x128 : Shape := ⟨3, ![3, 1, 128]⟩
abbrev S1x640000 : Shape := ⟨2, ![1, 640000]⟩
abbrev S640000 : Shape := ⟨1, ![640000]⟩
abbrev S_ : Shape := ⟨0, ![]⟩
abbrev S40000 : Shape := ⟨1, ![40000]⟩
abbrev S40000x1 : Shape := ⟨2, ![40000, 1]⟩
abbrev S40000x128 : Shape := ⟨2, ![40000, 128]⟩
abbrev S5000x2 : Shape := ⟨2, ![5000, 2]⟩
abbrev S5000x128 : Shape := ⟨2, ![5000, 128]⟩
abbrev S1x128 : Shape := ⟨2, ![1, 128]⟩
abbrev S1x1x128 : Shape := ⟨3, ![1, 1, 128]⟩
abbrev S5000x1 : Shape := ⟨2, ![5000, 1]⟩
abbrev S1x128x128 : Shape := ⟨3, ![1, 128, 128]⟩
abbrev S128x128 : Shape := ⟨2, ![128, 128]⟩
abbrev S640000x128 : Shape := ⟨2, ![640000, 128]⟩

abbrev nBuf : Space → Nat
  | .hbm => 668
  | .vmem => 176
  | .smem => 0
  | _ => 0

abbrev hbmTy0_0 (i : Nat) : BufTy := match i % 128 with
  | 0 => ⟨S40000x2, .f32⟩
  | 1 => ⟨S2x640000, .i32⟩
  | 2 => ⟨S640000x1, .f32⟩
  | 3 => ⟨S2x128, .f32⟩
  | 4 => ⟨S128, .f32⟩
  | 5 => ⟨S128, .f32⟩
  | 6 => ⟨S128, .f32⟩
  | 7 => ⟨S3x128x128, .f32⟩
  | 8 => ⟨S3x128, .f32⟩
  | 9 => ⟨S3x1x128, .f32⟩
  | 10 => ⟨S3x128, .f32⟩
  | 11 => ⟨S3x128x128, .f32⟩
  | 12 => ⟨S3x128, .f32⟩
  | 13 => ⟨S3x128, .f32⟩
  | 14 => ⟨S3x128, .f32⟩
  | 15 => ⟨S3x128, .f32⟩
  | 16 => ⟨S3x128, .f32⟩
  | 17 => ⟨S3x128, .f32⟩
  | 18 => ⟨S3x128, .f32⟩
  | 19 => ⟨S3x128x128, .f32⟩
  | 20 => ⟨S3x128, .f32⟩
  | 21 => ⟨S3x128, .f32⟩
  | 22 => ⟨S3x128, .f32⟩
  | 23 => ⟨S3x128x128, .f32⟩
  | 24 => ⟨S3x128, .f32⟩
  | 25 => ⟨S3x128, .f32⟩
  | 26 => ⟨S3x128, .f32⟩
  | 27 => ⟨S1x640000, .i32⟩
  | 28 => ⟨S640000, .i32⟩
  | 29 => ⟨S1x640000, .i32⟩
  | 30 => ⟨S640000, .i32⟩
  | 31 => ⟨S_, .f32⟩
  | 32 => ⟨S640000, .f32⟩
  | 33 => ⟨S_, .f32⟩
  | 34 => ⟨S40000, .f32⟩
  | 35 => ⟨S640000x1, .i32⟩
  | 36 => ⟨S40000, .f32⟩
  | 37 => ⟨S640000, .f32⟩
  | 38 => ⟨S_, .f32⟩
  | 39 => ⟨S40000, .f32⟩
  | 40 => ⟨S640000x1, .i32⟩
  | 41 => ⟨S40000, .f32⟩
  | 42 => ⟨S40000x1, .f32⟩
  | 43 => ⟨S40000x1, .f32⟩
  | 44 => ⟨S40000x128, .f32⟩
  | 45 => ⟨S_, .f32⟩
  | 46 => ⟨S128, .f32⟩
  | 47 => ⟨S_, .f32⟩
  | 48 => ⟨S128, .f32⟩
  | 49 => ⟨S128, .f32⟩
  | 50 => ⟨S_, .i32⟩
  | 51 => ⟨S_, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S40000x128, .f32⟩
  | 58 => ⟨S40000x128, .f32⟩
  | 59 => ⟨S40000x128, .f32⟩
  | 60 => ⟨S_, .f32⟩
  | 61 => ⟨S_, .f32⟩
  | 62 => ⟨S_, .f32⟩
  | 63 => ⟨S_, .f32⟩
  | 64 => ⟨S128, .f32⟩
  | 65 => ⟨S128, .f32⟩
  | 66 => ⟨S128, .f32⟩
  | 67 => ⟨S_, .f32⟩
  | 68 => ⟨S_, .i1⟩
  | 69 => ⟨S_, .f32⟩
  | 70 => ⟨S_, .f32⟩
  | 71 => ⟨S128, .f32⟩
  | 72 => ⟨S128, .f32⟩
  | 73 => ⟨S1x1x128, .f32⟩
  | 74 => ⟨S1x128, .f32⟩
  | 75 => ⟨S1x128, .f32⟩
  | 76 => ⟨S128, .f32⟩
  | 77 => ⟨S40000x128, .f32⟩
  | 78 => ⟨S_, .f32⟩
  | 79 => ⟨S128, .f32⟩
  | 80 => ⟨S_, .f32⟩
  | 81 => ⟨S128, .f32⟩
  | 82 => ⟨S128, .f32⟩
  | 83 => ⟨S_, .i32⟩
  | 84 => ⟨S_, .f32⟩
  | 85 => ⟨S128, .f32⟩
  | 86 => ⟨S1x128, .f32⟩
  | 87 => ⟨S_, .f32⟩
  | 88 => ⟨S1x128, .f32⟩
  | 89 => ⟨S1x128, .f32⟩
  | 90 => ⟨S40000x128, .f32⟩
  | 91 => ⟨S40000x128, .f32⟩
  | 92 => ⟨S40000x128, .f32⟩
  | 93 => ⟨S_, .f32⟩
  | 94 => ⟨S_, .f32⟩
  | 95 => ⟨S_, .f32⟩
  | 96 => ⟨S_, .f32⟩
  | 97 => ⟨S128, .f32⟩
  | 98 => ⟨S128, .f32⟩
  | 99 => ⟨S128, .f32⟩
  | 100 => ⟨S_, .f32⟩
  | 101 => ⟨S_, .i1⟩
  | 102 => ⟨S_, .f32⟩
  | 103 => ⟨S_, .f32⟩
  | 104 => ⟨S128, .f32⟩
  | 105 => ⟨S128, .f32⟩
  | 106 => ⟨S1x128x128, .f32⟩
  | 107 => ⟨S128x128, .f32⟩
  | 108 => ⟨S1x128, .f32⟩
  | 109 => ⟨S128, .f32⟩
  | 110 => ⟨S1x128x128, .f32⟩
  | 111 => ⟨S128x128, .f32⟩
  | 112 => ⟨S1x128, .f32⟩
  | 113 => ⟨S128, .f32⟩
  | 114 => ⟨S40000x128, .f32⟩
  | 115 => ⟨S40000x128, .f32⟩
  | 116 => ⟨S_, .f32⟩
  | 117 => ⟨S128, .f32⟩
  | 118 => ⟨S_, .f32⟩
  | 119 => ⟨S128, .f32⟩
  | 120 => ⟨S128, .f32⟩
  | 121 => ⟨S_, .i32⟩
  | 122 => ⟨S_, .f32⟩
  | 123 => ⟨S128, .f32⟩
  | 124 => ⟨S1x128, .f32⟩
  | 125 => ⟨S_, .f32⟩
  | 126 => ⟨S1x128, .f32⟩
  | 127 => ⟨S1x128, .f32⟩
  | _ => ⟨S40000x2, .f32⟩

abbrev hbmTy0_1 (i : Nat) : BufTy := match i % 128 with
  | 0 => ⟨S40000x128, .f32⟩
  | 1 => ⟨S40000x128, .f32⟩
  | 2 => ⟨S40000x128, .f32⟩
  | 3 => ⟨S_, .f32⟩
  | 4 => ⟨S_, .f32⟩
  | 5 => ⟨S_, .f32⟩
  | 6 => ⟨S_, .f32⟩
  | 7 => ⟨S128, .f32⟩
  | 8 => ⟨S128, .f32⟩
  | 9 => ⟨S128, .f32⟩
  | 10 => ⟨S_, .f32⟩
  | 11 => ⟨S_, .i1⟩
  | 12 => ⟨S_, .f32⟩
  | 13 => ⟨S_, .f32⟩
  | 14 => ⟨S128, .f32⟩
  | 15 => ⟨S128, .f32⟩
  | 16 => ⟨S_, .i32⟩
  | 17 => ⟨S640000, .i32⟩
  | 18 => ⟨S640000, .i1⟩
  | 19 => ⟨S_, .i32⟩
  | 20 => ⟨S640000, .i32⟩
  | 21 => ⟨S640000, .i32⟩
  | 22 => ⟨S640000, .i32⟩
  | 23 => ⟨S640000x1, .i32⟩
  | 24 => ⟨S640000x128, .f32⟩
  | 25 => ⟨S_, .f32⟩
  | 26 => ⟨S40000x128, .f32⟩
  | 27 => ⟨S640000x1, .i32⟩
  | 28 => ⟨S40000x128, .f32⟩
  | 29 => ⟨S_, .f32⟩
  | 30 => ⟨S128, .f32⟩
  | 31 => ⟨S_, .f32⟩
  | 32 => ⟨S128, .f32⟩
  | 33 => ⟨S128, .f32⟩
  | 34 => ⟨S_, .i32⟩
  | 35 => ⟨S_, .f32⟩
  | 36 => ⟨S128, .f32⟩
  | 37 => ⟨S1x128, .f32⟩
  | 38 => ⟨S_, .f32⟩
  | 39 => ⟨S1x128, .f32⟩
  | 40 => ⟨S1x128, .f32⟩
  | 41 => ⟨S40000x128, .f32⟩
  | 42 => ⟨S40000x128, .f32⟩
  | 43 => ⟨S40000x128, .f32⟩
  | 44 => ⟨S_, .f32⟩
  | 45 => ⟨S_, .f32⟩
  | 46 => ⟨S_, .f32⟩
  | 47 => ⟨S_, .f32⟩
  | 48 => ⟨S128, .f32⟩
  | 49 => ⟨S128, .f32⟩
  | 50 => ⟨S128, .f32⟩
  | 51 => ⟨S_, .f32⟩
  | 52 => ⟨S_, .i1⟩
  | 53 => ⟨S_, .f32⟩
  | 54 => ⟨S_, .f32⟩
  | 55 => ⟨S128, .f32⟩
  | 56 => ⟨S128, .f32⟩
  | 57 => ⟨S1x128, .f32⟩
  | 58 => ⟨S128, .f32⟩
  | 59 => ⟨S1x128, .f32⟩
  | 60 => ⟨S128, .f32⟩
  | 61 => ⟨S1x128, .f32⟩
  | 62 => ⟨S128, .f32⟩
  | 63 => ⟨S1x128, .f32⟩
  | 64 => ⟨S128, .f32⟩
  | 65 => ⟨S1x128, .f32⟩
  | 66 => ⟨S128, .f32⟩
  | 67 => ⟨S1x128, .f32⟩
  | 68 => ⟨S128, .f32⟩
  | 69 => ⟨S1x128x128, .f32⟩
  | 70 => ⟨S128x128, .f32⟩
  | 71 => ⟨S1x128, .f32⟩
  | 72 => ⟨S128, .f32⟩
  | 73 => ⟨S40000x128, .f32⟩
  | 74 => ⟨S_, .f32⟩
  | 75 => ⟨S128, .f32⟩
  | 76 => ⟨S_, .f32⟩
  | 77 => ⟨S128, .f32⟩
  | 78 => ⟨S128, .f32⟩
  | 79 => ⟨S_, .i32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S40000x128, .f32⟩
  | 87 => ⟨S40000x128, .f32⟩
  | 88 => ⟨S40000x128, .f32⟩
  | 89 => ⟨S_, .f32⟩
  | 90 => ⟨S_, .f32⟩
  | 91 => ⟨S_, .f32⟩
  | 92 => ⟨S_, .f32⟩
  | 93 => ⟨S128, .f32⟩
  | 94 => ⟨S128, .f32⟩
  | 95 => ⟨S128, .f32⟩
  | 96 => ⟨S_, .f32⟩
  | 97 => ⟨S_, .i1⟩
  | 98 => ⟨S_, .f32⟩
  | 99 => ⟨S_, .f32⟩
  | 100 => ⟨S128, .f32⟩
  | 101 => ⟨S128, .f32⟩
  | 102 => ⟨S1x128, .f32⟩
  | 103 => ⟨S128, .f32⟩
  | 104 => ⟨S1x128, .f32⟩
  | 105 => ⟨S128, .f32⟩
  | 106 => ⟨S1x128x128, .f32⟩
  | 107 => ⟨S128x128, .f32⟩
  | 108 => ⟨S1x128, .f32⟩
  | 109 => ⟨S128, .f32⟩
  | 110 => ⟨S40000x128, .f32⟩
  | 111 => ⟨S_, .f32⟩
  | 112 => ⟨S128, .f32⟩
  | 113 => ⟨S_, .f32⟩
  | 114 => ⟨S128, .f32⟩
  | 115 => ⟨S128, .f32⟩
  | 116 => ⟨S_, .i32⟩
  | 117 => ⟨S_, .f32⟩
  | 118 => ⟨S128, .f32⟩
  | 119 => ⟨S1x128, .f32⟩
  | 120 => ⟨S_, .f32⟩
  | 121 => ⟨S1x128, .f32⟩
  | 122 => ⟨S1x128, .f32⟩
  | 123 => ⟨S40000x128, .f32⟩
  | 124 => ⟨S40000x128, .f32⟩
  | 125 => ⟨S40000x128, .f32⟩
  | 126 => ⟨S_, .f32⟩
  | 127 => ⟨S_, .f32⟩
  | _ => ⟨S40000x2, .f32⟩

abbrev hbmTy0_2 (i : Nat) : BufTy := match i % 128 with
  | 0 => ⟨S_, .f32⟩
  | 1 => ⟨S_, .f32⟩
  | 2 => ⟨S128, .f32⟩
  | 3 => ⟨S128, .f32⟩
  | 4 => ⟨S128, .f32⟩
  | 5 => ⟨S_, .f32⟩
  | 6 => ⟨S_, .i1⟩
  | 7 => ⟨S_, .f32⟩
  | 8 => ⟨S_, .f32⟩
  | 9 => ⟨S128, .f32⟩
  | 10 => ⟨S128, .f32⟩
  | 11 => ⟨S1x128, .f32⟩
  | 12 => ⟨S128, .f32⟩
  | 13 => ⟨S1x128, .f32⟩
  | 14 => ⟨S128, .f32⟩
  | 15 => ⟨S1x1x128, .f32⟩
  | 16 => ⟨S1x128, .f32⟩
  | 17 => ⟨S1x128, .f32⟩
  | 18 => ⟨S128, .f32⟩
  | 19 => ⟨S40000x128, .f32⟩
  | 20 => ⟨S_, .f32⟩
  | 21 => ⟨S128, .f32⟩
  | 22 => ⟨S_, .f32⟩
  | 23 => ⟨S128, .f32⟩
  | 24 => ⟨S128, .f32⟩
  | 25 => ⟨S_, .i32⟩
  | 26 => ⟨S_, .f32⟩
  | 27 => ⟨S128, .f32⟩
  | 28 => ⟨S1x128, .f32⟩
  | 29 => ⟨S_, .f32⟩
  | 30 => ⟨S1x128, .f32⟩
  | 31 => ⟨S1x128, .f32⟩
  | 32 => ⟨S40000x128, .f32⟩
  | 33 => ⟨S40000x128, .f32⟩
  | 34 => ⟨S40000x128, .f32⟩
  | 35 => ⟨S_, .f32⟩
  | 36 => ⟨S_, .f32⟩
  | 37 => ⟨S_, .f32⟩
  | 38 => ⟨S_, .f32⟩
  | 39 => ⟨S128, .f32⟩
  | 40 => ⟨S128, .f32⟩
  | 41 => ⟨S128, .f32⟩
  | 42 => ⟨S_, .f32⟩
  | 43 => ⟨S_, .i1⟩
  | 44 => ⟨S_, .f32⟩
  | 45 => ⟨S_, .f32⟩
  | 46 => ⟨S128, .f32⟩
  | 47 => ⟨S128, .f32⟩
  | 48 => ⟨S1x128x128, .f32⟩
  | 49 => ⟨S128x128, .f32⟩
  | 50 => ⟨S1x128, .f32⟩
  | 51 => ⟨S128, .f32⟩
  | 52 => ⟨S1x128x128, .f32⟩
  | 53 => ⟨S128x128, .f32⟩
  | 54 => ⟨S1x128, .f32⟩
  | 55 => ⟨S128, .f32⟩
  | 56 => ⟨S40000x128, .f32⟩
  | 57 => ⟨S40000x128, .f32⟩
  | 58 => ⟨S_, .f32⟩
  | 59 => ⟨S128, .f32⟩
  | 60 => ⟨S_, .f32⟩
  | 61 => ⟨S128, .f32⟩
  | 62 => ⟨S128, .f32⟩
  | 63 => ⟨S_, .i32⟩
  | 64 => ⟨S_, .f32⟩
  | 65 => ⟨S128, .f32⟩
  | 66 => ⟨S1x128, .f32⟩
  | 67 => ⟨S_, .f32⟩
  | 68 => ⟨S1x128, .f32⟩
  | 69 => ⟨S1x128, .f32⟩
  | 70 => ⟨S40000x128, .f32⟩
  | 71 => ⟨S40000x128, .f32⟩
  | 72 => ⟨S40000x128, .f32⟩
  | 73 => ⟨S_, .f32⟩
  | 74 => ⟨S_, .f32⟩
  | 75 => ⟨S_, .f32⟩
  | 76 => ⟨S_, .f32⟩
  | 77 => ⟨S128, .f32⟩
  | 78 => ⟨S128, .f32⟩
  | 79 => ⟨S128, .f32⟩
  | 80 => ⟨S_, .f32⟩
  | 81 => ⟨S_, .i1⟩
  | 82 => ⟨S_, .f32⟩
  | 83 => ⟨S_, .f32⟩
  | 84 => ⟨S128, .f32⟩
  | 85 => ⟨S128, .f32⟩
  | 86 => ⟨S_, .i32⟩
  | 87 => ⟨S640000, .i32⟩
  | 88 => ⟨S640000, .i1⟩
  | 89 => ⟨S_, .i32⟩
  | 90 => ⟨S640000, .i32⟩
  | 91 => ⟨S640000, .i32⟩
  | 92 => ⟨S640000, .i32⟩
  | 93 => ⟨S640000x1, .i32⟩
  | 94 => ⟨S640000x128, .f32⟩
  | 95 => ⟨S_, .f32⟩
  | 96 => ⟨S40000x128, .f32⟩
  | 97 => ⟨S640000x1, .i32⟩
  | 98 => ⟨S40000x128, .f32⟩
  | 99 => ⟨S_, .f32⟩
  | 100 => ⟨S128, .f32⟩
  | 101 => ⟨S_, .f32⟩
  | 102 => ⟨S128, .f32⟩
  | 103 => ⟨S128, .f32⟩
  | 104 => ⟨S_, .i32⟩
  | 105 => ⟨S_, .f32⟩
  | 106 => ⟨S128, .f32⟩
  | 107 => ⟨S1x128, .f32⟩
  | 108 => ⟨S_, .f32⟩
  | 109 => ⟨S1x128, .f32⟩
  | 110 => ⟨S1x128, .f32⟩
  | 111 => ⟨S40000x128, .f32⟩
  | 112 => ⟨S40000x128, .f32⟩
  | 113 => ⟨S40000x128, .f32⟩
  | 114 => ⟨S_, .f32⟩
  | 115 => ⟨S_, .f32⟩
  | 116 => ⟨S_, .f32⟩
  | 117 => ⟨S_, .f32⟩
  | 118 => ⟨S128, .f32⟩
  | 119 => ⟨S128, .f32⟩
  | 120 => ⟨S128, .f32⟩
  | 121 => ⟨S_, .f32⟩
  | 122 => ⟨S_, .i1⟩
  | 123 => ⟨S_, .f32⟩
  | 124 => ⟨S_, .f32⟩
  | 125 => ⟨S128, .f32⟩
  | 126 => ⟨S128, .f32⟩
  | 127 => ⟨S1x128, .f32⟩
  | _ => ⟨S40000x2, .f32⟩

abbrev hbmTy0_3 (i : Nat) : BufTy := match i % 128 with
  | 0 => ⟨S128, .f32⟩
  | 1 => ⟨S1x128, .f32⟩
  | 2 => ⟨S128, .f32⟩
  | 3 => ⟨S1x128, .f32⟩
  | 4 => ⟨S128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S128, .f32⟩
  | 11 => ⟨S1x128x128, .f32⟩
  | 12 => ⟨S128x128, .f32⟩
  | 13 => ⟨S1x128, .f32⟩
  | 14 => ⟨S128, .f32⟩
  | 15 => ⟨S40000x128, .f32⟩
  | 16 => ⟨S_, .f32⟩
  | 17 => ⟨S128, .f32⟩
  | 18 => ⟨S_, .f32⟩
  | 19 => ⟨S128, .f32⟩
  | 20 => ⟨S128, .f32⟩
  | 21 => ⟨S_, .i32⟩
  | 22 => ⟨S_, .f32⟩
  | 23 => ⟨S128, .f32⟩
  | 24 => ⟨S1x128, .f32⟩
  | 25 => ⟨S_, .f32⟩
  | 26 => ⟨S1x128, .f32⟩
  | 27 => ⟨S1x128, .f32⟩
  | 28 => ⟨S40000x128, .f32⟩
  | 29 => ⟨S40000x128, .f32⟩
  | 30 => ⟨S40000x128, .f32⟩
  | 31 => ⟨S_, .f32⟩
  | 32 => ⟨S_, .f32⟩
  | 33 => ⟨S_, .f32⟩
  | 34 => ⟨S_, .f32⟩
  | 35 => ⟨S128, .f32⟩
  | 36 => ⟨S128, .f32⟩
  | 37 => ⟨S128, .f32⟩
  | 38 => ⟨S_, .f32⟩
  | 39 => ⟨S_, .i1⟩
  | 40 => ⟨S_, .f32⟩
  | 41 => ⟨S_, .f32⟩
  | 42 => ⟨S128, .f32⟩
  | 43 => ⟨S128, .f32⟩
  | 44 => ⟨S1x128, .f32⟩
  | 45 => ⟨S128, .f32⟩
  | 46 => ⟨S1x128, .f32⟩
  | 47 => ⟨S128, .f32⟩
  | 48 => ⟨S1x128x128, .f32⟩
  | 49 => ⟨S128x128, .f32⟩
  | 50 => ⟨S1x128, .f32⟩
  | 51 => ⟨S128, .f32⟩
  | 52 => ⟨S40000x128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S40000x128, .f32⟩
  | 66 => ⟨S40000x128, .f32⟩
  | 67 => ⟨S40000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S128, .f32⟩
  | 83 => ⟨S1x128, .f32⟩
  | 84 => ⟨S128, .f32⟩
  | 85 => ⟨S1x1x128, .f32⟩
  | 86 => ⟨S1x128, .f32⟩
  | 87 => ⟨S1x128, .f32⟩
  | 88 => ⟨S128, .f32⟩
  | 89 => ⟨S40000x128, .f32⟩
  | 90 => ⟨S_, .f32⟩
  | 91 => ⟨S128, .f32⟩
  | 92 => ⟨S_, .f32⟩
  | 93 => ⟨S128, .f32⟩
  | 94 => ⟨S128, .f32⟩
  | 95 => ⟨S_, .i32⟩
  | 96 => ⟨S_, .f32⟩
  | 97 => ⟨S128, .f32⟩
  | 98 => ⟨S1x128, .f32⟩
  | 99 => ⟨S_, .f32⟩
  | 100 => ⟨S1x128, .f32⟩
  | 101 => ⟨S1x128, .f32⟩
  | 102 => ⟨S40000x128, .f32⟩
  | 103 => ⟨S40000x128, .f32⟩
  | 104 => ⟨S40000x128, .f32⟩
  | 105 => ⟨S_, .f32⟩
  | 106 => ⟨S_, .f32⟩
  | 107 => ⟨S_, .f32⟩
  | 108 => ⟨S_, .f32⟩
  | 109 => ⟨S128, .f32⟩
  | 110 => ⟨S128, .f32⟩
  | 111 => ⟨S128, .f32⟩
  | 112 => ⟨S_, .f32⟩
  | 113 => ⟨S_, .i1⟩
  | 114 => ⟨S_, .f32⟩
  | 115 => ⟨S_, .f32⟩
  | 116 => ⟨S128, .f32⟩
  | 117 => ⟨S128, .f32⟩
  | 118 => ⟨S1x128x128, .f32⟩
  | 119 => ⟨S128x128, .f32⟩
  | 120 => ⟨S1x128, .f32⟩
  | 121 => ⟨S128, .f32⟩
  | 122 => ⟨S1x128x128, .f32⟩
  | 123 => ⟨S128x128, .f32⟩
  | 124 => ⟨S1x128, .f32⟩
  | 125 => ⟨S128, .f32⟩
  | 126 => ⟨S40000x128, .f32⟩
  | 127 => ⟨S40000x128, .f32⟩
  | _ => ⟨S40000x2, .f32⟩

abbrev hbmTy0_4 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S_, .i32⟩
  | 6 => ⟨S_, .f32⟩
  | 7 => ⟨S128, .f32⟩
  | 8 => ⟨S1x128, .f32⟩
  | 9 => ⟨S_, .f32⟩
  | 10 => ⟨S1x128, .f32⟩
  | 11 => ⟨S1x128, .f32⟩
  | 12 => ⟨S40000x128, .f32⟩
  | 13 => ⟨S40000x128, .f32⟩
  | 14 => ⟨S40000x128, .f32⟩
  | 15 => ⟨S_, .f32⟩
  | 16 => ⟨S_, .f32⟩
  | 17 => ⟨S_, .f32⟩
  | 18 => ⟨S_, .f32⟩
  | 19 => ⟨S128, .f32⟩
  | 20 => ⟨S128, .f32⟩
  | 21 => ⟨S128, .f32⟩
  | 22 => ⟨S_, .f32⟩
  | 23 => ⟨S_, .i1⟩
  | 24 => ⟨S_, .f32⟩
  | 25 => ⟨S_, .f32⟩
  | 26 => ⟨S128, .f32⟩
  | 27 => ⟨S128, .f32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S640000x128, .f32⟩
  | 37 => ⟨S_, .f32⟩
  | 38 => ⟨S40000x128, .f32⟩
  | 39 => ⟨S640000x1, .i32⟩
  | 40 => ⟨S40000x128, .f32⟩
  | 41 => ⟨S_, .f32⟩
  | 42 => ⟨S128, .f32⟩
  | 43 => ⟨S_, .f32⟩
  | 44 => ⟨S128, .f32⟩
  | 45 => ⟨S128, .f32⟩
  | 46 => ⟨S_, .i32⟩
  | 47 => ⟨S_, .f32⟩
  | 48 => ⟨S128, .f32⟩
  | 49 => ⟨S1x128, .f32⟩
  | 50 => ⟨S_, .f32⟩
  | 51 => ⟨S1x128, .f32⟩
  | 52 => ⟨S1x128, .f32⟩
  | 53 => ⟨S40000x128, .f32⟩
  | 54 => ⟨S40000x128, .f32⟩
  | 55 => ⟨S40000x128, .f32⟩
  | 56 => ⟨S_, .f32⟩
  | 57 => ⟨S_, .f32⟩
  | 58 => ⟨S_, .f32⟩
  | 59 => ⟨S_, .f32⟩
  | 60 => ⟨S128, .f32⟩
  | 61 => ⟨S128, .f32⟩
  | 62 => ⟨S128, .f32⟩
  | 63 => ⟨S_, .f32⟩
  | 64 => ⟨S_, .i1⟩
  | 65 => ⟨S_, .f32⟩
  | 66 => ⟨S_, .f32⟩
  | 67 => ⟨S128, .f32⟩
  | 68 => ⟨S128, .f32⟩
  | 69 => ⟨S1x128, .f32⟩
  | 70 => ⟨S128, .f32⟩
  | 71 => ⟨S1x128, .f32⟩
  | 72 => ⟨S128, .f32⟩
  | 73 => ⟨S1x128, .f32⟩
  | 74 => ⟨S128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S128, .f32⟩
  | 81 => ⟨S1x128x128, .f32⟩
  | 82 => ⟨S128x128, .f32⟩
  | 83 => ⟨S1x128, .f32⟩
  | 84 => ⟨S128, .f32⟩
  | 85 => ⟨S40000x128, .f32⟩
  | 86 => ⟨S_, .f32⟩
  | 87 => ⟨S128, .f32⟩
  | 88 => ⟨S_, .f32⟩
  | 89 => ⟨S128, .f32⟩
  | 90 => ⟨S128, .f32⟩
  | 91 => ⟨S_, .i32⟩
  | 92 => ⟨S_, .f32⟩
  | 93 => ⟨S128, .f32⟩
  | 94 => ⟨S1x128, .f32⟩
  | 95 => ⟨S_, .f32⟩
  | 96 => ⟨S1x128, .f32⟩
  | 97 => ⟨S1x128, .f32⟩
  | 98 => ⟨S40000x128, .f32⟩
  | 99 => ⟨S40000x128, .f32⟩
  | 100 => ⟨S40000x128, .f32⟩
  | 101 => ⟨S_, .f32⟩
  | 102 => ⟨S_, .f32⟩
  | 103 => ⟨S_, .f32⟩
  | 104 => ⟨S_, .f32⟩
  | 105 => ⟨S128, .f32⟩
  | 106 => ⟨S128, .f32⟩
  | 107 => ⟨S128, .f32⟩
  | 108 => ⟨S_, .f32⟩
  | 109 => ⟨S_, .i1⟩
  | 110 => ⟨S_, .f32⟩
  | 111 => ⟨S_, .f32⟩
  | 112 => ⟨S128, .f32⟩
  | 113 => ⟨S128, .f32⟩
  | 114 => ⟨S1x128, .f32⟩
  | 115 => ⟨S128, .f32⟩
  | 116 => ⟨S1x128, .f32⟩
  | 117 => ⟨S128, .f32⟩
  | 118 => ⟨S1x128x128, .f32⟩
  | 119 => ⟨S128x128, .f32⟩
  | 120 => ⟨S1x128, .f32⟩
  | 121 => ⟨S128, .f32⟩
  | 122 => ⟨S40000x128, .f32⟩
  | 123 => ⟨S_, .f32⟩
  | 124 => ⟨S128, .f32⟩
  | 125 => ⟨S_, .f32⟩
  | 126 => ⟨S128, .f32⟩
  | 127 => ⟨S128, .f32⟩
  | _ => ⟨S40000x2, .f32⟩

abbrev hbmTy0_5 (i : Nat) : BufTy := match i % 128 with
  | 0 => ⟨S_, .i32⟩
  | 1 => ⟨S_, .f32⟩
  | 2 => ⟨S128, .f32⟩
  | 3 => ⟨S1x128, .f32⟩
  | 4 => ⟨S_, .f32⟩
  | 5 => ⟨S1x128, .f32⟩
  | 6 => ⟨S1x128, .f32⟩
  | 7 => ⟨S40000x128, .f32⟩
  | 8 => ⟨S40000x128, .f32⟩
  | 9 => ⟨S40000x128, .f32⟩
  | 10 => ⟨S_, .f32⟩
  | 11 => ⟨S_, .f32⟩
  | 12 => ⟨S_, .f32⟩
  | 13 => ⟨S_, .f32⟩
  | 14 => ⟨S128, .f32⟩
  | 15 => ⟨S128, .f32⟩
  | 16 => ⟨S128, .f32⟩
  | 17 => ⟨S_, .f32⟩
  | 18 => ⟨S_, .i1⟩
  | 19 => ⟨S_, .f32⟩
  | 20 => ⟨S_, .f32⟩
  | 21 => ⟨S128, .f32⟩
  | 22 => ⟨S128, .f32⟩
  | 23 => ⟨S1x128, .f32⟩
  | 24 => ⟨S128, .f32⟩
  | 25 => ⟨S1x128, .f32⟩
  | 26 => ⟨S128, .f32⟩
  | 27 => ⟨S40000x128, .f32⟩
  | _ => ⟨S40000x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S40000x2, .f32⟩

abbrev vmemTy0_0 (i : Nat) : BufTy := match i % 128 with
  | 0 => ⟨S5000x2, .f32⟩
  | 1 => ⟨S5000x2, .f32⟩
  | 2 => ⟨S2x128, .f32⟩
  | 3 => ⟨S128, .f32⟩
  | 4 => ⟨S5000x128, .f32⟩
  | 5 => ⟨S5000x128, .f32⟩
  | 6 => ⟨S5000x1, .f32⟩
  | 7 => ⟨S5000x1, .f32⟩
  | 8 => ⟨S5000x1, .f32⟩
  | 9 => ⟨S5000x1, .f32⟩
  | 10 => ⟨S1x128, .f32⟩
  | 11 => ⟨S128, .f32⟩
  | 12 => ⟨S5000x128, .f32⟩
  | 13 => ⟨S5000x128, .f32⟩
  | 14 => ⟨S5000x128, .f32⟩
  | 15 => ⟨S5000x128, .f32⟩
  | 16 => ⟨S128, .f32⟩
  | 17 => ⟨S128, .f32⟩
  | 18 => ⟨S128, .f32⟩
  | 19 => ⟨S128, .f32⟩
  | 20 => ⟨S128x128, .f32⟩
  | 21 => ⟨S128, .f32⟩
  | 22 => ⟨S128x128, .f32⟩
  | 23 => ⟨S128, .f32⟩
  | 24 => ⟨S5000x128, .f32⟩
  | 25 => ⟨S5000x128, .f32⟩
  | 26 => ⟨S5000x128, .f32⟩
  | 27 => ⟨S5000x128, .f32⟩
  | 28 => ⟨S5000x128, .f32⟩
  | 29 => ⟨S5000x128, .f32⟩
  | 30 => ⟨S128, .f32⟩
  | 31 => ⟨S128, .f32⟩
  | 32 => ⟨S128, .f32⟩
  | 33 => ⟨S128, .f32⟩
  | 34 => ⟨S5000x128, .f32⟩
  | 35 => ⟨S5000x128, .f32⟩
  | 36 => ⟨S128, .f32⟩
  | 37 => ⟨S128, .f32⟩
  | 38 => ⟨S128, .f32⟩
  | 39 => ⟨S128, .f32⟩
  | 40 => ⟨S5000x128, .f32⟩
  | 41 => ⟨S5000x128, .f32⟩
  | 42 => ⟨S128, .f32⟩
  | 43 => ⟨S128, .f32⟩
  | 44 => ⟨S128, .f32⟩
  | 45 => ⟨S128, .f32⟩
  | 46 => ⟨S128x128, .f32⟩
  | 47 => ⟨S128, .f32⟩
  | 48 => ⟨S5000x128, .f32⟩
  | 49 => ⟨S5000x128, .f32⟩
  | 50 => ⟨S5000x128, .f32⟩
  | 51 => ⟨S5000x128, .f32⟩
  | 52 => ⟨S128, .f32⟩
  | 53 => ⟨S128, .f32⟩
  | 54 => ⟨S128, .f32⟩
  | 55 => ⟨S128, .f32⟩
  | 56 => ⟨S128x128, .f32⟩
  | 57 => ⟨S128, .f32⟩
  | 58 => ⟨S5000x128, .f32⟩
  | 59 => ⟨S5000x128, .f32⟩
  | 60 => ⟨S5000x1, .f32⟩
  | 61 => ⟨S5000x1, .f32⟩
  | 62 => ⟨S5000x1, .f32⟩
  | 63 => ⟨S5000x1, .f32⟩
  | 64 => ⟨S1x128, .f32⟩
  | 65 => ⟨S128, .f32⟩
  | 66 => ⟨S5000x128, .f32⟩
  | 67 => ⟨S5000x128, .f32⟩
  | 68 => ⟨S5000x128, .f32⟩
  | 69 => ⟨S5000x128, .f32⟩
  | 70 => ⟨S128, .f32⟩
  | 71 => ⟨S128, .f32⟩
  | 72 => ⟨S128, .f32⟩
  | 73 => ⟨S128, .f32⟩
  | 74 => ⟨S128x128, .f32⟩
  | 75 => ⟨S128, .f32⟩
  | 76 => ⟨S128x128, .f32⟩
  | 77 => ⟨S128, .f32⟩
  | 78 => ⟨S5000x128, .f32⟩
  | 79 => ⟨S5000x128, .f32⟩
  | 80 => ⟨S5000x128, .f32⟩
  | 81 => ⟨S5000x128, .f32⟩
  | 82 => ⟨S5000x128, .f32⟩
  | 83 => ⟨S5000x128, .f32⟩
  | 84 => ⟨S128, .f32⟩
  | 85 => ⟨S128, .f32⟩
  | 86 => ⟨S128, .f32⟩
  | 87 => ⟨S128, .f32⟩
  | 88 => ⟨S5000x128, .f32⟩
  | 89 => ⟨S5000x128, .f32⟩
  | 90 => ⟨S128, .f32⟩
  | 91 => ⟨S128, .f32⟩
  | 92 => ⟨S128, .f32⟩
  | 93 => ⟨S128, .f32⟩
  | 94 => ⟨S5000x128, .f32⟩
  | 95 => ⟨S5000x128, .f32⟩
  | 96 => ⟨S128, .f32⟩
  | 97 => ⟨S128, .f32⟩
  | 98 => ⟨S128, .f32⟩
  | 99 => ⟨S128, .f32⟩
  | 100 => ⟨S128x128, .f32⟩
  | 101 => ⟨S128, .f32⟩
  | 102 => ⟨S5000x128, .f32⟩
  | 103 => ⟨S5000x128, .f32⟩
  | 104 => ⟨S5000x128, .f32⟩
  | 105 => ⟨S5000x128, .f32⟩
  | 106 => ⟨S128, .f32⟩
  | 107 => ⟨S128, .f32⟩
  | 108 => ⟨S128, .f32⟩
  | 109 => ⟨S128, .f32⟩
  | 110 => ⟨S128x128, .f32⟩
  | 111 => ⟨S128, .f32⟩
  | 112 => ⟨S5000x128, .f32⟩
  | 113 => ⟨S5000x128, .f32⟩
  | 114 => ⟨S5000x1, .f32⟩
  | 115 => ⟨S5000x1, .f32⟩
  | 116 => ⟨S5000x1, .f32⟩
  | 117 => ⟨S5000x1, .f32⟩
  | 118 => ⟨S1x128, .f32⟩
  | 119 => ⟨S128, .f32⟩
  | 120 => ⟨S5000x128, .f32⟩
  | 121 => ⟨S5000x128, .f32⟩
  | 122 => ⟨S5000x128, .f32⟩
  | 123 => ⟨S5000x128, .f32⟩
  | 124 => ⟨S128, .f32⟩
  | 125 => ⟨S128, .f32⟩
  | 126 => ⟨S128, .f32⟩
  | 127 => ⟨S128, .f32⟩
  | _ => ⟨S40000x2, .f32⟩

abbrev vmemTy0_1 (i : Nat) : BufTy := match i % 128 with
  | 0 => ⟨S128x128, .f32⟩
  | 1 => ⟨S128, .f32⟩
  | 2 => ⟨S128x128, .f32⟩
  | 3 => ⟨S128, .f32⟩
  | 4 => ⟨S5000x128, .f32⟩
  | 5 => ⟨S5000x128, .f32⟩
  | 6 => ⟨S5000x128, .f32⟩
  | 7 => ⟨S5000x128, .f32⟩
  | 8 => ⟨S5000x128, .f32⟩
  | 9 => ⟨S5000x128, .f32⟩
  | 10 => ⟨S128, .f32⟩
  | 11 => ⟨S128, .f32⟩
  | 12 => ⟨S128, .f32⟩
  | 13 => ⟨S128, .f32⟩
  | 14 => ⟨S5000x128, .f32⟩
  | 15 => ⟨S5000x128, .f32⟩
  | 16 => ⟨S128, .f32⟩
  | 17 => ⟨S128, .f32⟩
  | 18 => ⟨S128, .f32⟩
  | 19 => ⟨S128, .f32⟩
  | 20 => ⟨S5000x128, .f32⟩
  | 21 => ⟨S5000x128, .f32⟩
  | 22 => ⟨S128, .f32⟩
  | 23 => ⟨S128, .f32⟩
  | 24 => ⟨S128, .f32⟩
  | 25 => ⟨S128, .f32⟩
  | 26 => ⟨S128x128, .f32⟩
  | 27 => ⟨S128, .f32⟩
  | 28 => ⟨S5000x128, .f32⟩
  | 29 => ⟨S5000x128, .f32⟩
  | 30 => ⟨S5000x128, .f32⟩
  | 31 => ⟨S5000x128, .f32⟩
  | 32 => ⟨S128, .f32⟩
  | 33 => ⟨S128, .f32⟩
  | 34 => ⟨S128, .f32⟩
  | 35 => ⟨S128, .f32⟩
  | 36 => ⟨S128x128, .f32⟩
  | 37 => ⟨S128, .f32⟩
  | 38 => ⟨S5000x128, .f32⟩
  | 39 => ⟨S5000x128, .f32⟩
  | 40 => ⟨S5000x128, .f32⟩
  | 41 => ⟨S5000x128, .f32⟩
  | 42 => ⟨S128, .f32⟩
  | 43 => ⟨S128, .f32⟩
  | 44 => ⟨S128, .f32⟩
  | 45 => ⟨S128, .f32⟩
  | 46 => ⟨S5000x128, .f32⟩
  | 47 => ⟨S5000x128, .f32⟩
  | _ => ⟨S40000x2, .f32⟩

abbrev vmemTy (i : Nat) : BufTy := match i / 128 with
  | 0 => vmemTy0_0 i
  | 1 => vmemTy0_1 i
  | _ => ⟨S40000x2, .f32⟩

abbrev bufTy : (tb : Table) → Fin (tcTables nBuf tb) → BufTy
  | .hbm, ⟨i, _⟩ => hbmTy i
  | .local _ .vmem, ⟨i, _⟩ => vmemTy i
  | _, _ => ⟨S40000x2, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 176 → Bool
  | ⟨i, _⟩ => dmaSemScopedAt i

abbrev sig : RefSig :=
  ofTc nBuf bufTy 0 176 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_v4 : Ref sig .tc := ⟨.hbm, 32, rfl⟩
abbrev main_cst_0 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_cst_3 : Ref sig .tc := ⟨.hbm, 47, rfl⟩
abbrev main_v16 : Ref sig .tc := ⟨.hbm, 48, rfl⟩
abbrev main_v17 : Ref sig .tc := ⟨.hbm, 49, rfl⟩
abbrev main_c : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_cst_3 : Ref sig .tc := ⟨.hbm, 67, rfl⟩
abbrev main_call0_v12 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_cst_4 : Ref sig .tc := ⟨.hbm, 78, rfl⟩
abbrev main_v24 : Ref sig .tc := ⟨.hbm, 79, rfl⟩
abbrev main_cst_5 : Ref sig .tc := ⟨.hbm, 80, rfl⟩
abbrev main_v25 : Ref sig .tc := ⟨.hbm, 81, rfl⟩
abbrev main_v26 : Ref sig .tc := ⟨.hbm, 82, rfl⟩
abbrev main_c_6 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_cst_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_cst_1 : Ref sig .tc := ⟨.hbm, 94, rfl⟩
abbrev main_call1_v8 : Ref sig .tc := ⟨.hbm, 95, rfl⟩
abbrev main_call1_cst_2 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_cst_3 : Ref sig .tc := ⟨.hbm, 100, rfl⟩
abbrev main_call1_v12 : Ref sig .tc := ⟨.hbm, 101, rfl⟩
abbrev main_call1_cst_4 : Ref sig .tc := ⟨.hbm, 102, rfl⟩
abbrev main_call1_call0_v0 : Ref sig .tc := ⟨.hbm, 103, rfl⟩
abbrev main_call1_call0_v1 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_v36_0 : Ref sig .tc := ⟨.hbm, 114, rfl⟩
abbrev main_v36_1 : Ref sig .tc := ⟨.hbm, 115, rfl⟩
abbrev main_cst_7 : Ref sig .tc := ⟨.hbm, 116, rfl⟩
abbrev main_v37 : Ref sig .tc := ⟨.hbm, 117, rfl⟩
abbrev main_cst_8 : Ref sig .tc := ⟨.hbm, 118, rfl⟩
abbrev main_v38 : Ref sig .tc := ⟨.hbm, 119, rfl⟩
abbrev main_v39 : Ref sig .tc := ⟨.hbm, 120, rfl⟩
abbrev main_c_9 : Ref sig .tc := ⟨.hbm, 121, rfl⟩
abbrev main_call2_cst : Ref sig .tc := ⟨.hbm, 122, rfl⟩
abbrev main_call2_v0 : Ref sig .tc := ⟨.hbm, 123, rfl⟩
abbrev main_call2_v1 : Ref sig .tc := ⟨.hbm, 124, rfl⟩
abbrev main_call2_cst_0 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_call2_v5 : Ref sig .tc := ⟨.hbm, 129, rfl⟩
abbrev main_call2_v6 : Ref sig .tc := ⟨.hbm, 130, rfl⟩
abbrev main_call2_v7 : Ref sig .tc := ⟨.hbm, 131, rfl⟩
abbrev main_call2_cst_1 : Ref sig .tc := ⟨.hbm, 132, rfl⟩
abbrev main_call2_v8 : Ref sig .tc := ⟨.hbm, 133, rfl⟩
abbrev main_call2_cst_2 : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_call2_cst_3 : Ref sig .tc := ⟨.hbm, 138, rfl⟩
abbrev main_call2_v12 : Ref sig .tc := ⟨.hbm, 139, rfl⟩
abbrev main_call2_cst_4 : Ref sig .tc := ⟨.hbm, 140, rfl⟩
abbrev main_call2_call0_v0 : Ref sig .tc := ⟨.hbm, 141, rfl⟩
abbrev main_call2_call0_v1 : Ref sig .tc := ⟨.hbm, 142, rfl⟩
abbrev main_v40 : Ref sig .tc := ⟨.hbm, 143, rfl⟩
abbrev main_c_10 : Ref sig .tc := ⟨.hbm, 144, rfl⟩
abbrev main_v41 : Ref sig .tc := ⟨.hbm, 145, rfl⟩
abbrev main_v42 : Ref sig .tc := ⟨.hbm, 146, rfl⟩
abbrev main_c_11 : Ref sig .tc := ⟨.hbm, 147, rfl⟩
abbrev main_v43 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev main_cst_12 : Ref sig .tc := ⟨.hbm, 153, rfl⟩
abbrev main_v48 : Ref sig .tc := ⟨.hbm, 154, rfl⟩
abbrev main_v49 : Ref sig .tc := ⟨.hbm, 155, rfl⟩
abbrev main_v50 : Ref sig .tc := ⟨.hbm, 156, rfl⟩
abbrev main_cst_13 : Ref sig .tc := ⟨.hbm, 157, rfl⟩
abbrev main_v51 : Ref sig .tc := ⟨.hbm, 158, rfl⟩
abbrev main_cst_14 : Ref sig .tc := ⟨.hbm, 159, rfl⟩
abbrev main_v52 : Ref sig .tc := ⟨.hbm, 160, rfl⟩
abbrev main_v53 : Ref sig .tc := ⟨.hbm, 161, rfl⟩
abbrev main_c_15 : Ref sig .tc := ⟨.hbm, 162, rfl⟩
abbrev main_call3_cst : Ref sig .tc := ⟨.hbm, 163, rfl⟩
abbrev main_call3_v0 : Ref sig .tc := ⟨.hbm, 164, rfl⟩
abbrev main_call3_v1 : Ref sig .tc := ⟨.hbm, 165, rfl⟩
abbrev main_call3_cst_0 : Ref sig .tc := ⟨.hbm, 166, rfl⟩
abbrev main_call3_v2 : Ref sig .tc := ⟨.hbm, 167, rfl⟩
abbrev main_call3_v3 : Ref sig .tc := ⟨.hbm, 168, rfl⟩
abbrev main_call3_v4 : Ref sig .tc := ⟨.hbm, 169, rfl⟩
abbrev main_call3_v5 : Ref sig .tc := ⟨.hbm, 170, rfl⟩
abbrev main_call3_v6 : Ref sig .tc := ⟨.hbm, 171, rfl⟩
abbrev main_call3_v7 : Ref sig .tc := ⟨.hbm, 172, rfl⟩
abbrev main_call3_cst_1 : Ref sig .tc := ⟨.hbm, 173, rfl⟩
abbrev main_call3_v8 : Ref sig .tc := ⟨.hbm, 174, rfl⟩
abbrev main_call3_cst_2 : Ref sig .tc := ⟨.hbm, 175, rfl⟩
abbrev main_call3_v9 : Ref sig .tc := ⟨.hbm, 176, rfl⟩
abbrev main_call3_v10 : Ref sig .tc := ⟨.hbm, 177, rfl⟩
abbrev main_call3_v11 : Ref sig .tc := ⟨.hbm, 178, rfl⟩
abbrev main_call3_cst_3 : Ref sig .tc := ⟨.hbm, 179, rfl⟩
abbrev main_call3_v12 : Ref sig .tc := ⟨.hbm, 180, rfl⟩
abbrev main_call3_cst_4 : Ref sig .tc := ⟨.hbm, 181, rfl⟩
abbrev main_call3_call0_v0 : Ref sig .tc := ⟨.hbm, 182, rfl⟩
abbrev main_call3_call0_v1 : Ref sig .tc := ⟨.hbm, 183, rfl⟩
abbrev main_v54 : Ref sig .tc := ⟨.hbm, 184, rfl⟩
abbrev main_v55 : Ref sig .tc := ⟨.hbm, 185, rfl⟩
abbrev main_v56 : Ref sig .tc := ⟨.hbm, 186, rfl⟩
abbrev main_v57 : Ref sig .tc := ⟨.hbm, 187, rfl⟩
abbrev main_v58 : Ref sig .tc := ⟨.hbm, 188, rfl⟩
abbrev main_v59 : Ref sig .tc := ⟨.hbm, 189, rfl⟩
abbrev main_v60 : Ref sig .tc := ⟨.hbm, 190, rfl⟩
abbrev main_v61 : Ref sig .tc := ⟨.hbm, 191, rfl⟩
abbrev main_v62 : Ref sig .tc := ⟨.hbm, 192, rfl⟩
abbrev main_v63 : Ref sig .tc := ⟨.hbm, 193, rfl⟩
abbrev main_v64 : Ref sig .tc := ⟨.hbm, 194, rfl⟩
abbrev main_v65 : Ref sig .tc := ⟨.hbm, 195, rfl⟩
abbrev main_v66 : Ref sig .tc := ⟨.hbm, 196, rfl⟩
abbrev main_v67 : Ref sig .tc := ⟨.hbm, 197, rfl⟩
abbrev main_v68 : Ref sig .tc := ⟨.hbm, 198, rfl⟩
abbrev main_v69 : Ref sig .tc := ⟨.hbm, 199, rfl⟩
abbrev main_v70 : Ref sig .tc := ⟨.hbm, 200, rfl⟩
abbrev main_v71 : Ref sig .tc := ⟨.hbm, 201, rfl⟩
abbrev main_cst_16 : Ref sig .tc := ⟨.hbm, 202, rfl⟩
abbrev main_v72 : Ref sig .tc := ⟨.hbm, 203, rfl⟩
abbrev main_cst_17 : Ref sig .tc := ⟨.hbm, 204, rfl⟩
abbrev main_v73 : Ref sig .tc := ⟨.hbm, 205, rfl⟩
abbrev main_v74 : Ref sig .tc := ⟨.hbm, 206, rfl⟩
abbrev main_c_18 : Ref sig .tc := ⟨.hbm, 207, rfl⟩
abbrev main_call4_cst : Ref sig .tc := ⟨.hbm, 208, rfl⟩
abbrev main_call4_v0 : Ref sig .tc := ⟨.hbm, 209, rfl⟩
abbrev main_call4_v1 : Ref sig .tc := ⟨.hbm, 210, rfl⟩
abbrev main_call4_cst_0 : Ref sig .tc := ⟨.hbm, 211, rfl⟩
abbrev main_call4_v2 : Ref sig .tc := ⟨.hbm, 212, rfl⟩
abbrev main_call4_v3 : Ref sig .tc := ⟨.hbm, 213, rfl⟩
abbrev main_call4_v4 : Ref sig .tc := ⟨.hbm, 214, rfl⟩
abbrev main_call4_v5 : Ref sig .tc := ⟨.hbm, 215, rfl⟩
abbrev main_call4_v6 : Ref sig .tc := ⟨.hbm, 216, rfl⟩
abbrev main_call4_v7 : Ref sig .tc := ⟨.hbm, 217, rfl⟩
abbrev main_call4_cst_1 : Ref sig .tc := ⟨.hbm, 218, rfl⟩
abbrev main_call4_v8 : Ref sig .tc := ⟨.hbm, 219, rfl⟩
abbrev main_call4_cst_2 : Ref sig .tc := ⟨.hbm, 220, rfl⟩
abbrev main_call4_v9 : Ref sig .tc := ⟨.hbm, 221, rfl⟩
abbrev main_call4_v10 : Ref sig .tc := ⟨.hbm, 222, rfl⟩
abbrev main_call4_v11 : Ref sig .tc := ⟨.hbm, 223, rfl⟩
abbrev main_call4_cst_3 : Ref sig .tc := ⟨.hbm, 224, rfl⟩
abbrev main_call4_v12 : Ref sig .tc := ⟨.hbm, 225, rfl⟩
abbrev main_call4_cst_4 : Ref sig .tc := ⟨.hbm, 226, rfl⟩
abbrev main_call4_call0_v0 : Ref sig .tc := ⟨.hbm, 227, rfl⟩
abbrev main_call4_call0_v1 : Ref sig .tc := ⟨.hbm, 228, rfl⟩
abbrev main_v75 : Ref sig .tc := ⟨.hbm, 229, rfl⟩
abbrev main_v76 : Ref sig .tc := ⟨.hbm, 230, rfl⟩
abbrev main_v77 : Ref sig .tc := ⟨.hbm, 231, rfl⟩
abbrev main_v78 : Ref sig .tc := ⟨.hbm, 232, rfl⟩
abbrev main_v79 : Ref sig .tc := ⟨.hbm, 233, rfl⟩
abbrev main_v80 : Ref sig .tc := ⟨.hbm, 234, rfl⟩
abbrev main_v81 : Ref sig .tc := ⟨.hbm, 235, rfl⟩
abbrev main_v82 : Ref sig .tc := ⟨.hbm, 236, rfl⟩
abbrev main_v83 : Ref sig .tc := ⟨.hbm, 237, rfl⟩
abbrev main_v84 : Ref sig .tc := ⟨.hbm, 238, rfl⟩
abbrev main_cst_19 : Ref sig .tc := ⟨.hbm, 239, rfl⟩
abbrev main_v85 : Ref sig .tc := ⟨.hbm, 240, rfl⟩
abbrev main_cst_20 : Ref sig .tc := ⟨.hbm, 241, rfl⟩
abbrev main_v86 : Ref sig .tc := ⟨.hbm, 242, rfl⟩
abbrev main_v87 : Ref sig .tc := ⟨.hbm, 243, rfl⟩
abbrev main_c_21 : Ref sig .tc := ⟨.hbm, 244, rfl⟩
abbrev main_call5_cst : Ref sig .tc := ⟨.hbm, 245, rfl⟩
abbrev main_call5_v0 : Ref sig .tc := ⟨.hbm, 246, rfl⟩
abbrev main_call5_v1 : Ref sig .tc := ⟨.hbm, 247, rfl⟩
abbrev main_call5_cst_0 : Ref sig .tc := ⟨.hbm, 248, rfl⟩
abbrev main_call5_v2 : Ref sig .tc := ⟨.hbm, 249, rfl⟩
abbrev main_call5_v3 : Ref sig .tc := ⟨.hbm, 250, rfl⟩
abbrev main_call5_v4 : Ref sig .tc := ⟨.hbm, 251, rfl⟩
abbrev main_call5_v5 : Ref sig .tc := ⟨.hbm, 252, rfl⟩
abbrev main_call5_v6 : Ref sig .tc := ⟨.hbm, 253, rfl⟩
abbrev main_call5_v7 : Ref sig .tc := ⟨.hbm, 254, rfl⟩
abbrev main_call5_cst_1 : Ref sig .tc := ⟨.hbm, 255, rfl⟩
abbrev main_call5_v8 : Ref sig .tc := ⟨.hbm, 256, rfl⟩
abbrev main_call5_cst_2 : Ref sig .tc := ⟨.hbm, 257, rfl⟩
abbrev main_call5_v9 : Ref sig .tc := ⟨.hbm, 258, rfl⟩
abbrev main_call5_v10 : Ref sig .tc := ⟨.hbm, 259, rfl⟩
abbrev main_call5_v11 : Ref sig .tc := ⟨.hbm, 260, rfl⟩
abbrev main_call5_cst_3 : Ref sig .tc := ⟨.hbm, 261, rfl⟩
abbrev main_call5_v12 : Ref sig .tc := ⟨.hbm, 262, rfl⟩
abbrev main_call5_cst_4 : Ref sig .tc := ⟨.hbm, 263, rfl⟩
abbrev main_call5_call0_v0 : Ref sig .tc := ⟨.hbm, 264, rfl⟩
abbrev main_call5_call0_v1 : Ref sig .tc := ⟨.hbm, 265, rfl⟩
abbrev main_v88 : Ref sig .tc := ⟨.hbm, 266, rfl⟩
abbrev main_v89 : Ref sig .tc := ⟨.hbm, 267, rfl⟩
abbrev main_v90 : Ref sig .tc := ⟨.hbm, 268, rfl⟩
abbrev main_v91 : Ref sig .tc := ⟨.hbm, 269, rfl⟩
abbrev main_v92 : Ref sig .tc := ⟨.hbm, 270, rfl⟩
abbrev main_v93 : Ref sig .tc := ⟨.hbm, 271, rfl⟩
abbrev main_v94 : Ref sig .tc := ⟨.hbm, 272, rfl⟩
abbrev main_v95 : Ref sig .tc := ⟨.hbm, 273, rfl⟩
abbrev main_v96 : Ref sig .tc := ⟨.hbm, 274, rfl⟩
abbrev main_v97 : Ref sig .tc := ⟨.hbm, 275, rfl⟩
abbrev main_cst_22 : Ref sig .tc := ⟨.hbm, 276, rfl⟩
abbrev main_v98 : Ref sig .tc := ⟨.hbm, 277, rfl⟩
abbrev main_cst_23 : Ref sig .tc := ⟨.hbm, 278, rfl⟩
abbrev main_v99 : Ref sig .tc := ⟨.hbm, 279, rfl⟩
abbrev main_v100 : Ref sig .tc := ⟨.hbm, 280, rfl⟩
abbrev main_c_24 : Ref sig .tc := ⟨.hbm, 281, rfl⟩
abbrev main_call6_cst : Ref sig .tc := ⟨.hbm, 282, rfl⟩
abbrev main_call6_v0 : Ref sig .tc := ⟨.hbm, 283, rfl⟩
abbrev main_call6_v1 : Ref sig .tc := ⟨.hbm, 284, rfl⟩
abbrev main_call6_cst_0 : Ref sig .tc := ⟨.hbm, 285, rfl⟩
abbrev main_call6_v2 : Ref sig .tc := ⟨.hbm, 286, rfl⟩
abbrev main_call6_v3 : Ref sig .tc := ⟨.hbm, 287, rfl⟩
abbrev main_call6_v4 : Ref sig .tc := ⟨.hbm, 288, rfl⟩
abbrev main_call6_v5 : Ref sig .tc := ⟨.hbm, 289, rfl⟩
abbrev main_call6_v6 : Ref sig .tc := ⟨.hbm, 290, rfl⟩
abbrev main_call6_v7 : Ref sig .tc := ⟨.hbm, 291, rfl⟩
abbrev main_call6_cst_1 : Ref sig .tc := ⟨.hbm, 292, rfl⟩
abbrev main_call6_v8 : Ref sig .tc := ⟨.hbm, 293, rfl⟩
abbrev main_call6_cst_2 : Ref sig .tc := ⟨.hbm, 294, rfl⟩
abbrev main_call6_v9 : Ref sig .tc := ⟨.hbm, 295, rfl⟩
abbrev main_call6_v10 : Ref sig .tc := ⟨.hbm, 296, rfl⟩
abbrev main_call6_v11 : Ref sig .tc := ⟨.hbm, 297, rfl⟩
abbrev main_call6_cst_3 : Ref sig .tc := ⟨.hbm, 298, rfl⟩
abbrev main_call6_v12 : Ref sig .tc := ⟨.hbm, 299, rfl⟩
abbrev main_call6_cst_4 : Ref sig .tc := ⟨.hbm, 300, rfl⟩
abbrev main_call6_call0_v0 : Ref sig .tc := ⟨.hbm, 301, rfl⟩
abbrev main_call6_call0_v1 : Ref sig .tc := ⟨.hbm, 302, rfl⟩
abbrev main_v101 : Ref sig .tc := ⟨.hbm, 303, rfl⟩
abbrev main_v102 : Ref sig .tc := ⟨.hbm, 304, rfl⟩
abbrev main_v103 : Ref sig .tc := ⟨.hbm, 305, rfl⟩
abbrev main_v104 : Ref sig .tc := ⟨.hbm, 306, rfl⟩
abbrev main_v105 : Ref sig .tc := ⟨.hbm, 307, rfl⟩
abbrev main_v106 : Ref sig .tc := ⟨.hbm, 308, rfl⟩
abbrev main_v107 : Ref sig .tc := ⟨.hbm, 309, rfl⟩
abbrev main_v108 : Ref sig .tc := ⟨.hbm, 310, rfl⟩
abbrev main_v109 : Ref sig .tc := ⟨.hbm, 311, rfl⟩
abbrev main_v110_0 : Ref sig .tc := ⟨.hbm, 312, rfl⟩
abbrev main_v110_1 : Ref sig .tc := ⟨.hbm, 313, rfl⟩
abbrev main_cst_25 : Ref sig .tc := ⟨.hbm, 314, rfl⟩
abbrev main_v111 : Ref sig .tc := ⟨.hbm, 315, rfl⟩
abbrev main_cst_26 : Ref sig .tc := ⟨.hbm, 316, rfl⟩
abbrev main_v112 : Ref sig .tc := ⟨.hbm, 317, rfl⟩
abbrev main_v113 : Ref sig .tc := ⟨.hbm, 318, rfl⟩
abbrev main_c_27 : Ref sig .tc := ⟨.hbm, 319, rfl⟩
abbrev main_call7_cst : Ref sig .tc := ⟨.hbm, 320, rfl⟩
abbrev main_call7_v0 : Ref sig .tc := ⟨.hbm, 321, rfl⟩
abbrev main_call7_v1 : Ref sig .tc := ⟨.hbm, 322, rfl⟩
abbrev main_call7_cst_0 : Ref sig .tc := ⟨.hbm, 323, rfl⟩
abbrev main_call7_v2 : Ref sig .tc := ⟨.hbm, 324, rfl⟩
abbrev main_call7_v3 : Ref sig .tc := ⟨.hbm, 325, rfl⟩
abbrev main_call7_v4 : Ref sig .tc := ⟨.hbm, 326, rfl⟩
abbrev main_call7_v5 : Ref sig .tc := ⟨.hbm, 327, rfl⟩
abbrev main_call7_v6 : Ref sig .tc := ⟨.hbm, 328, rfl⟩
abbrev main_call7_v7 : Ref sig .tc := ⟨.hbm, 329, rfl⟩
abbrev main_call7_cst_1 : Ref sig .tc := ⟨.hbm, 330, rfl⟩
abbrev main_call7_v8 : Ref sig .tc := ⟨.hbm, 331, rfl⟩
abbrev main_call7_cst_2 : Ref sig .tc := ⟨.hbm, 332, rfl⟩
abbrev main_call7_v9 : Ref sig .tc := ⟨.hbm, 333, rfl⟩
abbrev main_call7_v10 : Ref sig .tc := ⟨.hbm, 334, rfl⟩
abbrev main_call7_v11 : Ref sig .tc := ⟨.hbm, 335, rfl⟩
abbrev main_call7_cst_3 : Ref sig .tc := ⟨.hbm, 336, rfl⟩
abbrev main_call7_v12 : Ref sig .tc := ⟨.hbm, 337, rfl⟩
abbrev main_call7_cst_4 : Ref sig .tc := ⟨.hbm, 338, rfl⟩
abbrev main_call7_call0_v0 : Ref sig .tc := ⟨.hbm, 339, rfl⟩
abbrev main_call7_call0_v1 : Ref sig .tc := ⟨.hbm, 340, rfl⟩
abbrev main_v114 : Ref sig .tc := ⟨.hbm, 341, rfl⟩
abbrev main_c_28 : Ref sig .tc := ⟨.hbm, 342, rfl⟩
abbrev main_v115 : Ref sig .tc := ⟨.hbm, 343, rfl⟩
abbrev main_v116 : Ref sig .tc := ⟨.hbm, 344, rfl⟩
abbrev main_c_29 : Ref sig .tc := ⟨.hbm, 345, rfl⟩
abbrev main_v117 : Ref sig .tc := ⟨.hbm, 346, rfl⟩
abbrev main_v118 : Ref sig .tc := ⟨.hbm, 347, rfl⟩
abbrev main_v119 : Ref sig .tc := ⟨.hbm, 348, rfl⟩
abbrev main_v120 : Ref sig .tc := ⟨.hbm, 349, rfl⟩
abbrev main_v121 : Ref sig .tc := ⟨.hbm, 350, rfl⟩
abbrev main_cst_30 : Ref sig .tc := ⟨.hbm, 351, rfl⟩
abbrev main_v122 : Ref sig .tc := ⟨.hbm, 352, rfl⟩
abbrev main_v123 : Ref sig .tc := ⟨.hbm, 353, rfl⟩
abbrev main_v124 : Ref sig .tc := ⟨.hbm, 354, rfl⟩
abbrev main_cst_31 : Ref sig .tc := ⟨.hbm, 355, rfl⟩
abbrev main_v125 : Ref sig .tc := ⟨.hbm, 356, rfl⟩
abbrev main_cst_32 : Ref sig .tc := ⟨.hbm, 357, rfl⟩
abbrev main_v126 : Ref sig .tc := ⟨.hbm, 358, rfl⟩
abbrev main_v127 : Ref sig .tc := ⟨.hbm, 359, rfl⟩
abbrev main_c_33 : Ref sig .tc := ⟨.hbm, 360, rfl⟩
abbrev main_call8_cst : Ref sig .tc := ⟨.hbm, 361, rfl⟩
abbrev main_call8_v0 : Ref sig .tc := ⟨.hbm, 362, rfl⟩
abbrev main_call8_v1 : Ref sig .tc := ⟨.hbm, 363, rfl⟩
abbrev main_call8_cst_0 : Ref sig .tc := ⟨.hbm, 364, rfl⟩
abbrev main_call8_v2 : Ref sig .tc := ⟨.hbm, 365, rfl⟩
abbrev main_call8_v3 : Ref sig .tc := ⟨.hbm, 366, rfl⟩
abbrev main_call8_v4 : Ref sig .tc := ⟨.hbm, 367, rfl⟩
abbrev main_call8_v5 : Ref sig .tc := ⟨.hbm, 368, rfl⟩
abbrev main_call8_v6 : Ref sig .tc := ⟨.hbm, 369, rfl⟩
abbrev main_call8_v7 : Ref sig .tc := ⟨.hbm, 370, rfl⟩
abbrev main_call8_cst_1 : Ref sig .tc := ⟨.hbm, 371, rfl⟩
abbrev main_call8_v8 : Ref sig .tc := ⟨.hbm, 372, rfl⟩
abbrev main_call8_cst_2 : Ref sig .tc := ⟨.hbm, 373, rfl⟩
abbrev main_call8_v9 : Ref sig .tc := ⟨.hbm, 374, rfl⟩
abbrev main_call8_v10 : Ref sig .tc := ⟨.hbm, 375, rfl⟩
abbrev main_call8_v11 : Ref sig .tc := ⟨.hbm, 376, rfl⟩
abbrev main_call8_cst_3 : Ref sig .tc := ⟨.hbm, 377, rfl⟩
abbrev main_call8_v12 : Ref sig .tc := ⟨.hbm, 378, rfl⟩
abbrev main_call8_cst_4 : Ref sig .tc := ⟨.hbm, 379, rfl⟩
abbrev main_call8_call0_v0 : Ref sig .tc := ⟨.hbm, 380, rfl⟩
abbrev main_call8_call0_v1 : Ref sig .tc := ⟨.hbm, 381, rfl⟩
abbrev main_v128 : Ref sig .tc := ⟨.hbm, 382, rfl⟩
abbrev main_v129 : Ref sig .tc := ⟨.hbm, 383, rfl⟩
abbrev main_v130 : Ref sig .tc := ⟨.hbm, 384, rfl⟩
abbrev main_v131 : Ref sig .tc := ⟨.hbm, 385, rfl⟩
abbrev main_v132 : Ref sig .tc := ⟨.hbm, 386, rfl⟩
abbrev main_v133 : Ref sig .tc := ⟨.hbm, 387, rfl⟩
abbrev main_v134 : Ref sig .tc := ⟨.hbm, 388, rfl⟩
abbrev main_v135 : Ref sig .tc := ⟨.hbm, 389, rfl⟩
abbrev main_v136 : Ref sig .tc := ⟨.hbm, 390, rfl⟩
abbrev main_v137 : Ref sig .tc := ⟨.hbm, 391, rfl⟩
abbrev main_v138 : Ref sig .tc := ⟨.hbm, 392, rfl⟩
abbrev main_v139 : Ref sig .tc := ⟨.hbm, 393, rfl⟩
abbrev main_v140 : Ref sig .tc := ⟨.hbm, 394, rfl⟩
abbrev main_v141 : Ref sig .tc := ⟨.hbm, 395, rfl⟩
abbrev main_v142 : Ref sig .tc := ⟨.hbm, 396, rfl⟩
abbrev main_v143 : Ref sig .tc := ⟨.hbm, 397, rfl⟩
abbrev main_v144 : Ref sig .tc := ⟨.hbm, 398, rfl⟩
abbrev main_v145 : Ref sig .tc := ⟨.hbm, 399, rfl⟩
abbrev main_cst_34 : Ref sig .tc := ⟨.hbm, 400, rfl⟩
abbrev main_v146 : Ref sig .tc := ⟨.hbm, 401, rfl⟩
abbrev main_cst_35 : Ref sig .tc := ⟨.hbm, 402, rfl⟩
abbrev main_v147 : Ref sig .tc := ⟨.hbm, 403, rfl⟩
abbrev main_v148 : Ref sig .tc := ⟨.hbm, 404, rfl⟩
abbrev main_c_36 : Ref sig .tc := ⟨.hbm, 405, rfl⟩
abbrev main_call9_cst : Ref sig .tc := ⟨.hbm, 406, rfl⟩
abbrev main_call9_v0 : Ref sig .tc := ⟨.hbm, 407, rfl⟩
abbrev main_call9_v1 : Ref sig .tc := ⟨.hbm, 408, rfl⟩
abbrev main_call9_cst_0 : Ref sig .tc := ⟨.hbm, 409, rfl⟩
abbrev main_call9_v2 : Ref sig .tc := ⟨.hbm, 410, rfl⟩
abbrev main_call9_v3 : Ref sig .tc := ⟨.hbm, 411, rfl⟩
abbrev main_call9_v4 : Ref sig .tc := ⟨.hbm, 412, rfl⟩
abbrev main_call9_v5 : Ref sig .tc := ⟨.hbm, 413, rfl⟩
abbrev main_call9_v6 : Ref sig .tc := ⟨.hbm, 414, rfl⟩
abbrev main_call9_v7 : Ref sig .tc := ⟨.hbm, 415, rfl⟩
abbrev main_call9_cst_1 : Ref sig .tc := ⟨.hbm, 416, rfl⟩
abbrev main_call9_v8 : Ref sig .tc := ⟨.hbm, 417, rfl⟩
abbrev main_call9_cst_2 : Ref sig .tc := ⟨.hbm, 418, rfl⟩
abbrev main_call9_v9 : Ref sig .tc := ⟨.hbm, 419, rfl⟩
abbrev main_call9_v10 : Ref sig .tc := ⟨.hbm, 420, rfl⟩
abbrev main_call9_v11 : Ref sig .tc := ⟨.hbm, 421, rfl⟩
abbrev main_call9_cst_3 : Ref sig .tc := ⟨.hbm, 422, rfl⟩
abbrev main_call9_v12 : Ref sig .tc := ⟨.hbm, 423, rfl⟩
abbrev main_call9_cst_4 : Ref sig .tc := ⟨.hbm, 424, rfl⟩
abbrev main_call9_call0_v0 : Ref sig .tc := ⟨.hbm, 425, rfl⟩
abbrev main_call9_call0_v1 : Ref sig .tc := ⟨.hbm, 426, rfl⟩
abbrev main_v149 : Ref sig .tc := ⟨.hbm, 427, rfl⟩
abbrev main_v150 : Ref sig .tc := ⟨.hbm, 428, rfl⟩
abbrev main_v151 : Ref sig .tc := ⟨.hbm, 429, rfl⟩
abbrev main_v152 : Ref sig .tc := ⟨.hbm, 430, rfl⟩
abbrev main_v153 : Ref sig .tc := ⟨.hbm, 431, rfl⟩
abbrev main_v154 : Ref sig .tc := ⟨.hbm, 432, rfl⟩
abbrev main_v155 : Ref sig .tc := ⟨.hbm, 433, rfl⟩
abbrev main_v156 : Ref sig .tc := ⟨.hbm, 434, rfl⟩
abbrev main_v157 : Ref sig .tc := ⟨.hbm, 435, rfl⟩
abbrev main_v158 : Ref sig .tc := ⟨.hbm, 436, rfl⟩
abbrev main_cst_37 : Ref sig .tc := ⟨.hbm, 437, rfl⟩
abbrev main_v159 : Ref sig .tc := ⟨.hbm, 438, rfl⟩
abbrev main_cst_38 : Ref sig .tc := ⟨.hbm, 439, rfl⟩
abbrev main_v160 : Ref sig .tc := ⟨.hbm, 440, rfl⟩
abbrev main_v161 : Ref sig .tc := ⟨.hbm, 441, rfl⟩
abbrev main_c_39 : Ref sig .tc := ⟨.hbm, 442, rfl⟩
abbrev main_call10_cst : Ref sig .tc := ⟨.hbm, 443, rfl⟩
abbrev main_call10_v0 : Ref sig .tc := ⟨.hbm, 444, rfl⟩
abbrev main_call10_v1 : Ref sig .tc := ⟨.hbm, 445, rfl⟩
abbrev main_call10_cst_0 : Ref sig .tc := ⟨.hbm, 446, rfl⟩
abbrev main_call10_v2 : Ref sig .tc := ⟨.hbm, 447, rfl⟩
abbrev main_call10_v3 : Ref sig .tc := ⟨.hbm, 448, rfl⟩
abbrev main_call10_v4 : Ref sig .tc := ⟨.hbm, 449, rfl⟩
abbrev main_call10_v5 : Ref sig .tc := ⟨.hbm, 450, rfl⟩
abbrev main_call10_v6 : Ref sig .tc := ⟨.hbm, 451, rfl⟩
abbrev main_call10_v7 : Ref sig .tc := ⟨.hbm, 452, rfl⟩
abbrev main_call10_cst_1 : Ref sig .tc := ⟨.hbm, 453, rfl⟩
abbrev main_call10_v8 : Ref sig .tc := ⟨.hbm, 454, rfl⟩
abbrev main_call10_cst_2 : Ref sig .tc := ⟨.hbm, 455, rfl⟩
abbrev main_call10_v9 : Ref sig .tc := ⟨.hbm, 456, rfl⟩
abbrev main_call10_v10 : Ref sig .tc := ⟨.hbm, 457, rfl⟩
abbrev main_call10_v11 : Ref sig .tc := ⟨.hbm, 458, rfl⟩
abbrev main_call10_cst_3 : Ref sig .tc := ⟨.hbm, 459, rfl⟩
abbrev main_call10_v12 : Ref sig .tc := ⟨.hbm, 460, rfl⟩
abbrev main_call10_cst_4 : Ref sig .tc := ⟨.hbm, 461, rfl⟩
abbrev main_call10_call0_v0 : Ref sig .tc := ⟨.hbm, 462, rfl⟩
abbrev main_call10_call0_v1 : Ref sig .tc := ⟨.hbm, 463, rfl⟩
abbrev main_v162 : Ref sig .tc := ⟨.hbm, 464, rfl⟩
abbrev main_v163 : Ref sig .tc := ⟨.hbm, 465, rfl⟩
abbrev main_v164 : Ref sig .tc := ⟨.hbm, 466, rfl⟩
abbrev main_v165 : Ref sig .tc := ⟨.hbm, 467, rfl⟩
abbrev main_v166 : Ref sig .tc := ⟨.hbm, 468, rfl⟩
abbrev main_v167 : Ref sig .tc := ⟨.hbm, 469, rfl⟩
abbrev main_v168 : Ref sig .tc := ⟨.hbm, 470, rfl⟩
abbrev main_v169 : Ref sig .tc := ⟨.hbm, 471, rfl⟩
abbrev main_v170 : Ref sig .tc := ⟨.hbm, 472, rfl⟩
abbrev main_v171 : Ref sig .tc := ⟨.hbm, 473, rfl⟩
abbrev main_cst_40 : Ref sig .tc := ⟨.hbm, 474, rfl⟩
abbrev main_v172 : Ref sig .tc := ⟨.hbm, 475, rfl⟩
abbrev main_cst_41 : Ref sig .tc := ⟨.hbm, 476, rfl⟩
abbrev main_v173 : Ref sig .tc := ⟨.hbm, 477, rfl⟩
abbrev main_v174 : Ref sig .tc := ⟨.hbm, 478, rfl⟩
abbrev main_c_42 : Ref sig .tc := ⟨.hbm, 479, rfl⟩
abbrev main_call11_cst : Ref sig .tc := ⟨.hbm, 480, rfl⟩
abbrev main_call11_v0 : Ref sig .tc := ⟨.hbm, 481, rfl⟩
abbrev main_call11_v1 : Ref sig .tc := ⟨.hbm, 482, rfl⟩
abbrev main_call11_cst_0 : Ref sig .tc := ⟨.hbm, 483, rfl⟩
abbrev main_call11_v2 : Ref sig .tc := ⟨.hbm, 484, rfl⟩
abbrev main_call11_v3 : Ref sig .tc := ⟨.hbm, 485, rfl⟩
abbrev main_call11_v4 : Ref sig .tc := ⟨.hbm, 486, rfl⟩
abbrev main_call11_v5 : Ref sig .tc := ⟨.hbm, 487, rfl⟩
abbrev main_call11_v6 : Ref sig .tc := ⟨.hbm, 488, rfl⟩
abbrev main_call11_v7 : Ref sig .tc := ⟨.hbm, 489, rfl⟩
abbrev main_call11_cst_1 : Ref sig .tc := ⟨.hbm, 490, rfl⟩
abbrev main_call11_v8 : Ref sig .tc := ⟨.hbm, 491, rfl⟩
abbrev main_call11_cst_2 : Ref sig .tc := ⟨.hbm, 492, rfl⟩
abbrev main_call11_v9 : Ref sig .tc := ⟨.hbm, 493, rfl⟩
abbrev main_call11_v10 : Ref sig .tc := ⟨.hbm, 494, rfl⟩
abbrev main_call11_v11 : Ref sig .tc := ⟨.hbm, 495, rfl⟩
abbrev main_call11_cst_3 : Ref sig .tc := ⟨.hbm, 496, rfl⟩
abbrev main_call11_v12 : Ref sig .tc := ⟨.hbm, 497, rfl⟩
abbrev main_call11_cst_4 : Ref sig .tc := ⟨.hbm, 498, rfl⟩
abbrev main_call11_call0_v0 : Ref sig .tc := ⟨.hbm, 499, rfl⟩
abbrev main_call11_call0_v1 : Ref sig .tc := ⟨.hbm, 500, rfl⟩
abbrev main_v175 : Ref sig .tc := ⟨.hbm, 501, rfl⟩
abbrev main_v176 : Ref sig .tc := ⟨.hbm, 502, rfl⟩
abbrev main_v177 : Ref sig .tc := ⟨.hbm, 503, rfl⟩
abbrev main_v178 : Ref sig .tc := ⟨.hbm, 504, rfl⟩
abbrev main_v179 : Ref sig .tc := ⟨.hbm, 505, rfl⟩
abbrev main_v180 : Ref sig .tc := ⟨.hbm, 506, rfl⟩
abbrev main_v181 : Ref sig .tc := ⟨.hbm, 507, rfl⟩
abbrev main_v182 : Ref sig .tc := ⟨.hbm, 508, rfl⟩
abbrev main_v183 : Ref sig .tc := ⟨.hbm, 509, rfl⟩
abbrev main_v184_0 : Ref sig .tc := ⟨.hbm, 510, rfl⟩
abbrev main_v184_1 : Ref sig .tc := ⟨.hbm, 511, rfl⟩
abbrev main_cst_43 : Ref sig .tc := ⟨.hbm, 512, rfl⟩
abbrev main_v185 : Ref sig .tc := ⟨.hbm, 513, rfl⟩
abbrev main_cst_44 : Ref sig .tc := ⟨.hbm, 514, rfl⟩
abbrev main_v186 : Ref sig .tc := ⟨.hbm, 515, rfl⟩
abbrev main_v187 : Ref sig .tc := ⟨.hbm, 516, rfl⟩
abbrev main_c_45 : Ref sig .tc := ⟨.hbm, 517, rfl⟩
abbrev main_call12_cst : Ref sig .tc := ⟨.hbm, 518, rfl⟩
abbrev main_call12_v0 : Ref sig .tc := ⟨.hbm, 519, rfl⟩
abbrev main_call12_v1 : Ref sig .tc := ⟨.hbm, 520, rfl⟩
abbrev main_call12_cst_0 : Ref sig .tc := ⟨.hbm, 521, rfl⟩
abbrev main_call12_v2 : Ref sig .tc := ⟨.hbm, 522, rfl⟩
abbrev main_call12_v3 : Ref sig .tc := ⟨.hbm, 523, rfl⟩
abbrev main_call12_v4 : Ref sig .tc := ⟨.hbm, 524, rfl⟩
abbrev main_call12_v5 : Ref sig .tc := ⟨.hbm, 525, rfl⟩
abbrev main_call12_v6 : Ref sig .tc := ⟨.hbm, 526, rfl⟩
abbrev main_call12_v7 : Ref sig .tc := ⟨.hbm, 527, rfl⟩
abbrev main_call12_cst_1 : Ref sig .tc := ⟨.hbm, 528, rfl⟩
abbrev main_call12_v8 : Ref sig .tc := ⟨.hbm, 529, rfl⟩
abbrev main_call12_cst_2 : Ref sig .tc := ⟨.hbm, 530, rfl⟩
abbrev main_call12_v9 : Ref sig .tc := ⟨.hbm, 531, rfl⟩
abbrev main_call12_v10 : Ref sig .tc := ⟨.hbm, 532, rfl⟩
abbrev main_call12_v11 : Ref sig .tc := ⟨.hbm, 533, rfl⟩
abbrev main_call12_cst_3 : Ref sig .tc := ⟨.hbm, 534, rfl⟩
abbrev main_call12_v12 : Ref sig .tc := ⟨.hbm, 535, rfl⟩
abbrev main_call12_cst_4 : Ref sig .tc := ⟨.hbm, 536, rfl⟩
abbrev main_call12_call0_v0 : Ref sig .tc := ⟨.hbm, 537, rfl⟩
abbrev main_call12_call0_v1 : Ref sig .tc := ⟨.hbm, 538, rfl⟩
abbrev main_v188 : Ref sig .tc := ⟨.hbm, 539, rfl⟩
abbrev main_c_46 : Ref sig .tc := ⟨.hbm, 540, rfl⟩
abbrev main_v189 : Ref sig .tc := ⟨.hbm, 541, rfl⟩
abbrev main_v190 : Ref sig .tc := ⟨.hbm, 542, rfl⟩
abbrev main_c_47 : Ref sig .tc := ⟨.hbm, 543, rfl⟩
abbrev main_v191 : Ref sig .tc := ⟨.hbm, 544, rfl⟩
abbrev main_v192 : Ref sig .tc := ⟨.hbm, 545, rfl⟩
abbrev main_v193 : Ref sig .tc := ⟨.hbm, 546, rfl⟩
abbrev main_v194 : Ref sig .tc := ⟨.hbm, 547, rfl⟩
abbrev main_v195 : Ref sig .tc := ⟨.hbm, 548, rfl⟩
abbrev main_cst_48 : Ref sig .tc := ⟨.hbm, 549, rfl⟩
abbrev main_v196 : Ref sig .tc := ⟨.hbm, 550, rfl⟩
abbrev main_v197 : Ref sig .tc := ⟨.hbm, 551, rfl⟩
abbrev main_v198 : Ref sig .tc := ⟨.hbm, 552, rfl⟩
abbrev main_cst_49 : Ref sig .tc := ⟨.hbm, 553, rfl⟩
abbrev main_v199 : Ref sig .tc := ⟨.hbm, 554, rfl⟩
abbrev main_cst_50 : Ref sig .tc := ⟨.hbm, 555, rfl⟩
abbrev main_v200 : Ref sig .tc := ⟨.hbm, 556, rfl⟩
abbrev main_v201 : Ref sig .tc := ⟨.hbm, 557, rfl⟩
abbrev main_c_51 : Ref sig .tc := ⟨.hbm, 558, rfl⟩
abbrev main_call13_cst : Ref sig .tc := ⟨.hbm, 559, rfl⟩
abbrev main_call13_v0 : Ref sig .tc := ⟨.hbm, 560, rfl⟩
abbrev main_call13_v1 : Ref sig .tc := ⟨.hbm, 561, rfl⟩
abbrev main_call13_cst_0 : Ref sig .tc := ⟨.hbm, 562, rfl⟩
abbrev main_call13_v2 : Ref sig .tc := ⟨.hbm, 563, rfl⟩
abbrev main_call13_v3 : Ref sig .tc := ⟨.hbm, 564, rfl⟩
abbrev main_call13_v4 : Ref sig .tc := ⟨.hbm, 565, rfl⟩
abbrev main_call13_v5 : Ref sig .tc := ⟨.hbm, 566, rfl⟩
abbrev main_call13_v6 : Ref sig .tc := ⟨.hbm, 567, rfl⟩
abbrev main_call13_v7 : Ref sig .tc := ⟨.hbm, 568, rfl⟩
abbrev main_call13_cst_1 : Ref sig .tc := ⟨.hbm, 569, rfl⟩
abbrev main_call13_v8 : Ref sig .tc := ⟨.hbm, 570, rfl⟩
abbrev main_call13_cst_2 : Ref sig .tc := ⟨.hbm, 571, rfl⟩
abbrev main_call13_v9 : Ref sig .tc := ⟨.hbm, 572, rfl⟩
abbrev main_call13_v10 : Ref sig .tc := ⟨.hbm, 573, rfl⟩
abbrev main_call13_v11 : Ref sig .tc := ⟨.hbm, 574, rfl⟩
abbrev main_call13_cst_3 : Ref sig .tc := ⟨.hbm, 575, rfl⟩
abbrev main_call13_v12 : Ref sig .tc := ⟨.hbm, 576, rfl⟩
abbrev main_call13_cst_4 : Ref sig .tc := ⟨.hbm, 577, rfl⟩
abbrev main_call13_call0_v0 : Ref sig .tc := ⟨.hbm, 578, rfl⟩
abbrev main_call13_call0_v1 : Ref sig .tc := ⟨.hbm, 579, rfl⟩
abbrev main_v202 : Ref sig .tc := ⟨.hbm, 580, rfl⟩
abbrev main_v203 : Ref sig .tc := ⟨.hbm, 581, rfl⟩
abbrev main_v204 : Ref sig .tc := ⟨.hbm, 582, rfl⟩
abbrev main_v205 : Ref sig .tc := ⟨.hbm, 583, rfl⟩
abbrev main_v206 : Ref sig .tc := ⟨.hbm, 584, rfl⟩
abbrev main_v207 : Ref sig .tc := ⟨.hbm, 585, rfl⟩
abbrev main_v208 : Ref sig .tc := ⟨.hbm, 586, rfl⟩
abbrev main_v209 : Ref sig .tc := ⟨.hbm, 587, rfl⟩
abbrev main_v210 : Ref sig .tc := ⟨.hbm, 588, rfl⟩
abbrev main_v211 : Ref sig .tc := ⟨.hbm, 589, rfl⟩
abbrev main_v212 : Ref sig .tc := ⟨.hbm, 590, rfl⟩
abbrev main_v213 : Ref sig .tc := ⟨.hbm, 591, rfl⟩
abbrev main_v214 : Ref sig .tc := ⟨.hbm, 592, rfl⟩
abbrev main_v215 : Ref sig .tc := ⟨.hbm, 593, rfl⟩
abbrev main_v216 : Ref sig .tc := ⟨.hbm, 594, rfl⟩
abbrev main_v217 : Ref sig .tc := ⟨.hbm, 595, rfl⟩
abbrev main_v218 : Ref sig .tc := ⟨.hbm, 596, rfl⟩
abbrev main_v219 : Ref sig .tc := ⟨.hbm, 597, rfl⟩
abbrev main_cst_52 : Ref sig .tc := ⟨.hbm, 598, rfl⟩
abbrev main_v220 : Ref sig .tc := ⟨.hbm, 599, rfl⟩
abbrev main_cst_53 : Ref sig .tc := ⟨.hbm, 600, rfl⟩
abbrev main_v221 : Ref sig .tc := ⟨.hbm, 601, rfl⟩
abbrev main_v222 : Ref sig .tc := ⟨.hbm, 602, rfl⟩
abbrev main_c_54 : Ref sig .tc := ⟨.hbm, 603, rfl⟩
abbrev main_call14_cst : Ref sig .tc := ⟨.hbm, 604, rfl⟩
abbrev main_call14_v0 : Ref sig .tc := ⟨.hbm, 605, rfl⟩
abbrev main_call14_v1 : Ref sig .tc := ⟨.hbm, 606, rfl⟩
abbrev main_call14_cst_0 : Ref sig .tc := ⟨.hbm, 607, rfl⟩
abbrev main_call14_v2 : Ref sig .tc := ⟨.hbm, 608, rfl⟩
abbrev main_call14_v3 : Ref sig .tc := ⟨.hbm, 609, rfl⟩
abbrev main_call14_v4 : Ref sig .tc := ⟨.hbm, 610, rfl⟩
abbrev main_call14_v5 : Ref sig .tc := ⟨.hbm, 611, rfl⟩
abbrev main_call14_v6 : Ref sig .tc := ⟨.hbm, 612, rfl⟩
abbrev main_call14_v7 : Ref sig .tc := ⟨.hbm, 613, rfl⟩
abbrev main_call14_cst_1 : Ref sig .tc := ⟨.hbm, 614, rfl⟩
abbrev main_call14_v8 : Ref sig .tc := ⟨.hbm, 615, rfl⟩
abbrev main_call14_cst_2 : Ref sig .tc := ⟨.hbm, 616, rfl⟩
abbrev main_call14_v9 : Ref sig .tc := ⟨.hbm, 617, rfl⟩
abbrev main_call14_v10 : Ref sig .tc := ⟨.hbm, 618, rfl⟩
abbrev main_call14_v11 : Ref sig .tc := ⟨.hbm, 619, rfl⟩
abbrev main_call14_cst_3 : Ref sig .tc := ⟨.hbm, 620, rfl⟩
abbrev main_call14_v12 : Ref sig .tc := ⟨.hbm, 621, rfl⟩
abbrev main_call14_cst_4 : Ref sig .tc := ⟨.hbm, 622, rfl⟩
abbrev main_call14_call0_v0 : Ref sig .tc := ⟨.hbm, 623, rfl⟩
abbrev main_call14_call0_v1 : Ref sig .tc := ⟨.hbm, 624, rfl⟩
abbrev main_v223 : Ref sig .tc := ⟨.hbm, 625, rfl⟩
abbrev main_v224 : Ref sig .tc := ⟨.hbm, 626, rfl⟩
abbrev main_v225 : Ref sig .tc := ⟨.hbm, 627, rfl⟩
abbrev main_v226 : Ref sig .tc := ⟨.hbm, 628, rfl⟩
abbrev main_v227 : Ref sig .tc := ⟨.hbm, 629, rfl⟩
abbrev main_v228 : Ref sig .tc := ⟨.hbm, 630, rfl⟩
abbrev main_v229 : Ref sig .tc := ⟨.hbm, 631, rfl⟩
abbrev main_v230 : Ref sig .tc := ⟨.hbm, 632, rfl⟩
abbrev main_v231 : Ref sig .tc := ⟨.hbm, 633, rfl⟩
abbrev main_v232 : Ref sig .tc := ⟨.hbm, 634, rfl⟩
abbrev main_cst_55 : Ref sig .tc := ⟨.hbm, 635, rfl⟩
abbrev main_v233 : Ref sig .tc := ⟨.hbm, 636, rfl⟩
abbrev main_cst_56 : Ref sig .tc := ⟨.hbm, 637, rfl⟩
abbrev main_v234 : Ref sig .tc := ⟨.hbm, 638, rfl⟩
abbrev main_v235 : Ref sig .tc := ⟨.hbm, 639, rfl⟩
abbrev main_c_57 : Ref sig .tc := ⟨.hbm, 640, rfl⟩
abbrev main_call15_cst : Ref sig .tc := ⟨.hbm, 641, rfl⟩
abbrev main_call15_v0 : Ref sig .tc := ⟨.hbm, 642, rfl⟩
abbrev main_call15_v1 : Ref sig .tc := ⟨.hbm, 643, rfl⟩
abbrev main_call15_cst_0 : Ref sig .tc := ⟨.hbm, 644, rfl⟩
abbrev main_call15_v2 : Ref sig .tc := ⟨.hbm, 645, rfl⟩
abbrev main_call15_v3 : Ref sig .tc := ⟨.hbm, 646, rfl⟩
abbrev main_call15_v4 : Ref sig .tc := ⟨.hbm, 647, rfl⟩
abbrev main_call15_v5 : Ref sig .tc := ⟨.hbm, 648, rfl⟩
abbrev main_call15_v6 : Ref sig .tc := ⟨.hbm, 649, rfl⟩
abbrev main_call15_v7 : Ref sig .tc := ⟨.hbm, 650, rfl⟩
abbrev main_call15_cst_1 : Ref sig .tc := ⟨.hbm, 651, rfl⟩
abbrev main_call15_v8 : Ref sig .tc := ⟨.hbm, 652, rfl⟩
abbrev main_call15_cst_2 : Ref sig .tc := ⟨.hbm, 653, rfl⟩
abbrev main_call15_v9 : Ref sig .tc := ⟨.hbm, 654, rfl⟩
abbrev main_call15_v10 : Ref sig .tc := ⟨.hbm, 655, rfl⟩
abbrev main_call15_v11 : Ref sig .tc := ⟨.hbm, 656, rfl⟩
abbrev main_call15_cst_3 : Ref sig .tc := ⟨.hbm, 657, rfl⟩
abbrev main_call15_v12 : Ref sig .tc := ⟨.hbm, 658, rfl⟩
abbrev main_call15_cst_4 : Ref sig .tc := ⟨.hbm, 659, rfl⟩
abbrev main_call15_call0_v0 : Ref sig .tc := ⟨.hbm, 660, rfl⟩
abbrev main_call15_call0_v1 : Ref sig .tc := ⟨.hbm, 661, rfl⟩
abbrev main_v236 : Ref sig .tc := ⟨.hbm, 662, rfl⟩
abbrev main_v237 : Ref sig .tc := ⟨.hbm, 663, rfl⟩
abbrev main_v238 : Ref sig .tc := ⟨.hbm, 664, rfl⟩
abbrev main_v239 : Ref sig .tc := ⟨.hbm, 665, rfl⟩
abbrev main_v240 : Ref sig .tc := ⟨.hbm, 666, rfl⟩
abbrev main_v241 : Ref sig .tc := ⟨.hbm, 667, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg9_1 : Ref sig .tc := ⟨.vmem, 25, rfl⟩
abbrev cc2_stg10_0 : Ref sig .tc := ⟨.vmem, 26, rfl⟩
abbrev cc2_stg10_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg9_0 : Ref sig .tc := ⟨.vmem, 39, rfl⟩
abbrev cc3_stg10_0 : Ref sig .tc := ⟨.vmem, 40, rfl⟩
abbrev cc3_stg10_1 : Ref sig .tc := ⟨.vmem, 41, rfl⟩
abbrev cc3_stg11_0 : Ref sig .tc := ⟨.vmem, 42, rfl⟩
abbrev cc3_stg12_0 : Ref sig .tc := ⟨.vmem, 43, rfl⟩
abbrev cc3_stg13_0 : Ref sig .tc := ⟨.vmem, 44, rfl⟩
abbrev cc3_stg14_0 : Ref sig .tc := ⟨.vmem, 45, rfl⟩
abbrev cc3_stg15_0 : Ref sig .tc := ⟨.vmem, 46, rfl⟩
abbrev cc3_stg16_0 : Ref sig .tc := ⟨.vmem, 47, rfl⟩
abbrev cc3_stg17_0 : Ref sig .tc := ⟨.vmem, 48, rfl⟩
abbrev cc3_stg17_1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg2_0 : Ref sig .tc := ⟨.vmem, 53, rfl⟩
abbrev cc4_stg3_0 : Ref sig .tc := ⟨.vmem, 54, rfl⟩
abbrev cc4_stg4_0 : Ref sig .tc := ⟨.vmem, 55, rfl⟩
abbrev cc4_stg5_0 : Ref sig .tc := ⟨.vmem, 56, rfl⟩
abbrev cc4_stg6_0 : Ref sig .tc := ⟨.vmem, 57, rfl⟩
abbrev cc4_stg7_0 : Ref sig .tc := ⟨.vmem, 58, rfl⟩
abbrev cc4_stg7_1 : Ref sig .tc := ⟨.vmem, 59, rfl⟩
abbrev cc5_stg0_0 : Ref sig .tc := ⟨.vmem, 60, rfl⟩
abbrev cc5_stg0_1 : Ref sig .tc := ⟨.vmem, 61, rfl⟩
abbrev cc5_stg1_0 : Ref sig .tc := ⟨.vmem, 62, rfl⟩
abbrev cc5_stg1_1 : Ref sig .tc := ⟨.vmem, 63, rfl⟩
abbrev cc5_stg2_0 : Ref sig .tc := ⟨.vmem, 64, rfl⟩
abbrev cc5_stg3_0 : Ref sig .tc := ⟨.vmem, 65, rfl⟩
abbrev cc5_stg4_0 : Ref sig .tc := ⟨.vmem, 66, rfl⟩
abbrev cc5_stg4_1 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg2_0 : Ref sig .tc := ⟨.vmem, 71, rfl⟩
abbrev cc6_stg3_0 : Ref sig .tc := ⟨.vmem, 72, rfl⟩
abbrev cc6_stg4_0 : Ref sig .tc := ⟨.vmem, 73, rfl⟩
abbrev cc6_stg5_0 : Ref sig .tc := ⟨.vmem, 74, rfl⟩
abbrev cc6_stg6_0 : Ref sig .tc := ⟨.vmem, 75, rfl⟩
abbrev cc6_stg7_0 : Ref sig .tc := ⟨.vmem, 76, rfl⟩
abbrev cc6_stg8_0 : Ref sig .tc := ⟨.vmem, 77, rfl⟩
abbrev cc6_stg9_0 : Ref sig .tc := ⟨.vmem, 78, rfl⟩
abbrev cc6_stg9_1 : Ref sig .tc := ⟨.vmem, 79, rfl⟩
abbrev cc6_stg10_0 : Ref sig .tc := ⟨.vmem, 80, rfl⟩
abbrev cc6_stg10_1 : Ref sig .tc := ⟨.vmem, 81, rfl⟩
abbrev cc7_stg0_0 : Ref sig .tc := ⟨.vmem, 82, rfl⟩
abbrev cc7_stg0_1 : Ref sig .tc := ⟨.vmem, 83, rfl⟩
abbrev cc7_stg1_0 : Ref sig .tc := ⟨.vmem, 84, rfl⟩
abbrev cc7_stg2_0 : Ref sig .tc := ⟨.vmem, 85, rfl⟩
abbrev cc7_stg3_0 : Ref sig .tc := ⟨.vmem, 86, rfl⟩
abbrev cc7_stg4_0 : Ref sig .tc := ⟨.vmem, 87, rfl⟩
abbrev cc7_stg5_0 : Ref sig .tc := ⟨.vmem, 88, rfl⟩
abbrev cc7_stg5_1 : Ref sig .tc := ⟨.vmem, 89, rfl⟩
abbrev cc7_stg6_0 : Ref sig .tc := ⟨.vmem, 90, rfl⟩
abbrev cc7_stg7_0 : Ref sig .tc := ⟨.vmem, 91, rfl⟩
abbrev cc7_stg8_0 : Ref sig .tc := ⟨.vmem, 92, rfl⟩
abbrev cc7_stg9_0 : Ref sig .tc := ⟨.vmem, 93, rfl⟩
abbrev cc7_stg10_0 : Ref sig .tc := ⟨.vmem, 94, rfl⟩
abbrev cc7_stg10_1 : Ref sig .tc := ⟨.vmem, 95, rfl⟩
abbrev cc7_stg11_0 : Ref sig .tc := ⟨.vmem, 96, rfl⟩
abbrev cc7_stg12_0 : Ref sig .tc := ⟨.vmem, 97, rfl⟩
abbrev cc7_stg13_0 : Ref sig .tc := ⟨.vmem, 98, rfl⟩
abbrev cc7_stg14_0 : Ref sig .tc := ⟨.vmem, 99, rfl⟩
abbrev cc7_stg15_0 : Ref sig .tc := ⟨.vmem, 100, rfl⟩
abbrev cc7_stg16_0 : Ref sig .tc := ⟨.vmem, 101, rfl⟩
abbrev cc7_stg17_0 : Ref sig .tc := ⟨.vmem, 102, rfl⟩
abbrev cc7_stg17_1 : Ref sig .tc := ⟨.vmem, 103, rfl⟩
abbrev cc8_stg0_0 : Ref sig .tc := ⟨.vmem, 104, rfl⟩
abbrev cc8_stg0_1 : Ref sig .tc := ⟨.vmem, 105, rfl⟩
abbrev cc8_stg1_0 : Ref sig .tc := ⟨.vmem, 106, rfl⟩
abbrev cc8_stg2_0 : Ref sig .tc := ⟨.vmem, 107, rfl⟩
abbrev cc8_stg3_0 : Ref sig .tc := ⟨.vmem, 108, rfl⟩
abbrev cc8_stg4_0 : Ref sig .tc := ⟨.vmem, 109, rfl⟩
abbrev cc8_stg5_0 : Ref sig .tc := ⟨.vmem, 110, rfl⟩
abbrev cc8_stg6_0 : Ref sig .tc := ⟨.vmem, 111, rfl⟩
abbrev cc8_stg7_0 : Ref sig .tc := ⟨.vmem, 112, rfl⟩
abbrev cc8_stg7_1 : Ref sig .tc := ⟨.vmem, 113, rfl⟩
abbrev cc9_stg0_0 : Ref sig .tc := ⟨.vmem, 114, rfl⟩
abbrev cc9_stg0_1 : Ref sig .tc := ⟨.vmem, 115, rfl⟩
abbrev cc9_stg1_0 : Ref sig .tc := ⟨.vmem, 116, rfl⟩
abbrev cc9_stg1_1 : Ref sig .tc := ⟨.vmem, 117, rfl⟩
abbrev cc9_stg2_0 : Ref sig .tc := ⟨.vmem, 118, rfl⟩
abbrev cc9_stg3_0 : Ref sig .tc := ⟨.vmem, 119, rfl⟩
abbrev cc9_stg4_0 : Ref sig .tc := ⟨.vmem, 120, rfl⟩
abbrev cc9_stg4_1 : Ref sig .tc := ⟨.vmem, 121, rfl⟩
abbrev cc10_stg0_0 : Ref sig .tc := ⟨.vmem, 122, rfl⟩
abbrev cc10_stg0_1 : Ref sig .tc := ⟨.vmem, 123, rfl⟩
abbrev cc10_stg1_0 : Ref sig .tc := ⟨.vmem, 124, rfl⟩
abbrev cc10_stg2_0 : Ref sig .tc := ⟨.vmem, 125, rfl⟩
abbrev cc10_stg3_0 : Ref sig .tc := ⟨.vmem, 126, rfl⟩
abbrev cc10_stg4_0 : Ref sig .tc := ⟨.vmem, 127, rfl⟩
abbrev cc10_stg5_0 : Ref sig .tc := ⟨.vmem, 128, rfl⟩
abbrev cc10_stg6_0 : Ref sig .tc := ⟨.vmem, 129, rfl⟩
abbrev cc10_stg7_0 : Ref sig .tc := ⟨.vmem, 130, rfl⟩
abbrev cc10_stg8_0 : Ref sig .tc := ⟨.vmem, 131, rfl⟩
abbrev cc10_stg9_0 : Ref sig .tc := ⟨.vmem, 132, rfl⟩
abbrev cc10_stg9_1 : Ref sig .tc := ⟨.vmem, 133, rfl⟩
abbrev cc10_stg10_0 : Ref sig .tc := ⟨.vmem, 134, rfl⟩
abbrev cc10_stg10_1 : Ref sig .tc := ⟨.vmem, 135, rfl⟩
abbrev cc11_stg0_0 : Ref sig .tc := ⟨.vmem, 136, rfl⟩
abbrev cc11_stg0_1 : Ref sig .tc := ⟨.vmem, 137, rfl⟩
abbrev cc11_stg1_0 : Ref sig .tc := ⟨.vmem, 138, rfl⟩
abbrev cc11_stg2_0 : Ref sig .tc := ⟨.vmem, 139, rfl⟩
abbrev cc11_stg3_0 : Ref sig .tc := ⟨.vmem, 140, rfl⟩
abbrev cc11_stg4_0 : Ref sig .tc := ⟨.vmem, 141, rfl⟩
abbrev cc11_stg5_0 : Ref sig .tc := ⟨.vmem, 142, rfl⟩
abbrev cc11_stg5_1 : Ref sig .tc := ⟨.vmem, 143, rfl⟩
abbrev cc11_stg6_0 : Ref sig .tc := ⟨.vmem, 144, rfl⟩
abbrev cc11_stg7_0 : Ref sig .tc := ⟨.vmem, 145, rfl⟩
abbrev cc11_stg8_0 : Ref sig .tc := ⟨.vmem, 146, rfl⟩
abbrev cc11_stg9_0 : Ref sig .tc := ⟨.vmem, 147, rfl⟩
abbrev cc11_stg10_0 : Ref sig .tc := ⟨.vmem, 148, rfl⟩
abbrev cc11_stg10_1 : Ref sig .tc := ⟨.vmem, 149, rfl⟩
abbrev cc11_stg11_0 : Ref sig .tc := ⟨.vmem, 150, rfl⟩
abbrev cc11_stg12_0 : Ref sig .tc := ⟨.vmem, 151, rfl⟩
abbrev cc11_stg13_0 : Ref sig .tc := ⟨.vmem, 152, rfl⟩
abbrev cc11_stg14_0 : Ref sig .tc := ⟨.vmem, 153, rfl⟩
abbrev cc11_stg15_0 : Ref sig .tc := ⟨.vmem, 154, rfl⟩
abbrev cc11_stg16_0 : Ref sig .tc := ⟨.vmem, 155, rfl⟩
abbrev cc11_stg17_0 : Ref sig .tc := ⟨.vmem, 156, rfl⟩
abbrev cc11_stg17_1 : Ref sig .tc := ⟨.vmem, 157, rfl⟩
abbrev cc12_stg0_0 : Ref sig .tc := ⟨.vmem, 158, rfl⟩
abbrev cc12_stg0_1 : Ref sig .tc := ⟨.vmem, 159, rfl⟩
abbrev cc12_stg1_0 : Ref sig .tc := ⟨.vmem, 160, rfl⟩
abbrev cc12_stg2_0 : Ref sig .tc := ⟨.vmem, 161, rfl⟩
abbrev cc12_stg3_0 : Ref sig .tc := ⟨.vmem, 162, rfl⟩
abbrev cc12_stg4_0 : Ref sig .tc := ⟨.vmem, 163, rfl⟩
abbrev cc12_stg5_0 : Ref sig .tc := ⟨.vmem, 164, rfl⟩
abbrev cc12_stg6_0 : Ref sig .tc := ⟨.vmem, 165, rfl⟩
abbrev cc12_stg7_0 : Ref sig .tc := ⟨.vmem, 166, rfl⟩
abbrev cc12_stg7_1 : Ref sig .tc := ⟨.vmem, 167, rfl⟩
abbrev cc13_stg0_0 : Ref sig .tc := ⟨.vmem, 168, rfl⟩
abbrev cc13_stg0_1 : Ref sig .tc := ⟨.vmem, 169, rfl⟩
abbrev cc13_stg1_0 : Ref sig .tc := ⟨.vmem, 170, rfl⟩
abbrev cc13_stg2_0 : Ref sig .tc := ⟨.vmem, 171, rfl⟩
abbrev cc13_stg3_0 : Ref sig .tc := ⟨.vmem, 172, rfl⟩
abbrev cc13_stg4_0 : Ref sig .tc := ⟨.vmem, 173, rfl⟩
abbrev cc13_stg5_0 : Ref sig .tc := ⟨.vmem, 174, rfl⟩
abbrev cc13_stg5_1 : Ref sig .tc := ⟨.vmem, 175, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem9_1 : DmaSem sig := 25
abbrev cc2_sem10_0 : DmaSem sig := 26
abbrev cc2_sem10_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc3_sem6_0 : DmaSem sig := 36
abbrev cc3_sem7_0 : DmaSem sig := 37
abbrev cc3_sem8_0 : DmaSem sig := 38
abbrev cc3_sem9_0 : DmaSem sig := 39
abbrev cc3_sem10_0 : DmaSem sig := 40
abbrev cc3_sem10_1 : DmaSem sig := 41
abbrev cc3_sem11_0 : DmaSem sig := 42
abbrev cc3_sem12_0 : DmaSem sig := 43
abbrev cc3_sem13_0 : DmaSem sig := 44
abbrev cc3_sem14_0 : DmaSem sig := 45
abbrev cc3_sem15_0 : DmaSem sig := 46
abbrev cc3_sem16_0 : DmaSem sig := 47
abbrev cc3_sem17_0 : DmaSem sig := 48
abbrev cc3_sem17_1 : DmaSem sig := 49
abbrev cc4_sem0_0 : DmaSem sig := 50
abbrev cc4_sem0_1 : DmaSem sig := 51
abbrev cc4_sem1_0 : DmaSem sig := 52
abbrev cc4_sem2_0 : DmaSem sig := 53
abbrev cc4_sem3_0 : DmaSem sig := 54
abbrev cc4_sem4_0 : DmaSem sig := 55
abbrev cc4_sem5_0 : DmaSem sig := 56
abbrev cc4_sem6_0 : DmaSem sig := 57
abbrev cc4_sem7_0 : DmaSem sig := 58
abbrev cc4_sem7_1 : DmaSem sig := 59
abbrev cc5_sem0_0 : DmaSem sig := 60
abbrev cc5_sem0_1 : DmaSem sig := 61
abbrev cc5_sem1_0 : DmaSem sig := 62
abbrev cc5_sem1_1 : DmaSem sig := 63
abbrev cc5_sem2_0 : DmaSem sig := 64
abbrev cc5_sem3_0 : DmaSem sig := 65
abbrev cc5_sem4_0 : DmaSem sig := 66
abbrev cc5_sem4_1 : DmaSem sig := 67
abbrev cc6_sem0_0 : DmaSem sig := 68
abbrev cc6_sem0_1 : DmaSem sig := 69
abbrev cc6_sem1_0 : DmaSem sig := 70
abbrev cc6_sem2_0 : DmaSem sig := 71
abbrev cc6_sem3_0 : DmaSem sig := 72
abbrev cc6_sem4_0 : DmaSem sig := 73
abbrev cc6_sem5_0 : DmaSem sig := 74
abbrev cc6_sem6_0 : DmaSem sig := 75
abbrev cc6_sem7_0 : DmaSem sig := 76
abbrev cc6_sem8_0 : DmaSem sig := 77
abbrev cc6_sem9_0 : DmaSem sig := 78
abbrev cc6_sem9_1 : DmaSem sig := 79
abbrev cc6_sem10_0 : DmaSem sig := 80
abbrev cc6_sem10_1 : DmaSem sig := 81
abbrev cc7_sem0_0 : DmaSem sig := 82
abbrev cc7_sem0_1 : DmaSem sig := 83
abbrev cc7_sem1_0 : DmaSem sig := 84
abbrev cc7_sem2_0 : DmaSem sig := 85
abbrev cc7_sem3_0 : DmaSem sig := 86
abbrev cc7_sem4_0 : DmaSem sig := 87
abbrev cc7_sem5_0 : DmaSem sig := 88
abbrev cc7_sem5_1 : DmaSem sig := 89
abbrev cc7_sem6_0 : DmaSem sig := 90
abbrev cc7_sem7_0 : DmaSem sig := 91
abbrev cc7_sem8_0 : DmaSem sig := 92
abbrev cc7_sem9_0 : DmaSem sig := 93
abbrev cc7_sem10_0 : DmaSem sig := 94
abbrev cc7_sem10_1 : DmaSem sig := 95
abbrev cc7_sem11_0 : DmaSem sig := 96
abbrev cc7_sem12_0 : DmaSem sig := 97
abbrev cc7_sem13_0 : DmaSem sig := 98
abbrev cc7_sem14_0 : DmaSem sig := 99
abbrev cc7_sem15_0 : DmaSem sig := 100
abbrev cc7_sem16_0 : DmaSem sig := 101
abbrev cc7_sem17_0 : DmaSem sig := 102
abbrev cc7_sem17_1 : DmaSem sig := 103
abbrev cc8_sem0_0 : DmaSem sig := 104
abbrev cc8_sem0_1 : DmaSem sig := 105
abbrev cc8_sem1_0 : DmaSem sig := 106
abbrev cc8_sem2_0 : DmaSem sig := 107
abbrev cc8_sem3_0 : DmaSem sig := 108
abbrev cc8_sem4_0 : DmaSem sig := 109
abbrev cc8_sem5_0 : DmaSem sig := 110
abbrev cc8_sem6_0 : DmaSem sig := 111
abbrev cc8_sem7_0 : DmaSem sig := 112
abbrev cc8_sem7_1 : DmaSem sig := 113
abbrev cc9_sem0_0 : DmaSem sig := 114
abbrev cc9_sem0_1 : DmaSem sig := 115
abbrev cc9_sem1_0 : DmaSem sig := 116
abbrev cc9_sem1_1 : DmaSem sig := 117
abbrev cc9_sem2_0 : DmaSem sig := 118
abbrev cc9_sem3_0 : DmaSem sig := 119
abbrev cc9_sem4_0 : DmaSem sig := 120
abbrev cc9_sem4_1 : DmaSem sig := 121
abbrev cc10_sem0_0 : DmaSem sig := 122
abbrev cc10_sem0_1 : DmaSem sig := 123
abbrev cc10_sem1_0 : DmaSem sig := 124
abbrev cc10_sem2_0 : DmaSem sig := 125
abbrev cc10_sem3_0 : DmaSem sig := 126
abbrev cc10_sem4_0 : DmaSem sig := 127
abbrev cc10_sem5_0 : DmaSem sig := 128
abbrev cc10_sem6_0 : DmaSem sig := 129
abbrev cc10_sem7_0 : DmaSem sig := 130
abbrev cc10_sem8_0 : DmaSem sig := 131
abbrev cc10_sem9_0 : DmaSem sig := 132
abbrev cc10_sem9_1 : DmaSem sig := 133
abbrev cc10_sem10_0 : DmaSem sig := 134
abbrev cc10_sem10_1 : DmaSem sig := 135
abbrev cc11_sem0_0 : DmaSem sig := 136
abbrev cc11_sem0_1 : DmaSem sig := 137
abbrev cc11_sem1_0 : DmaSem sig := 138
abbrev cc11_sem2_0 : DmaSem sig := 139
abbrev cc11_sem3_0 : DmaSem sig := 140
abbrev cc11_sem4_0 : DmaSem sig := 141
abbrev cc11_sem5_0 : DmaSem sig := 142
abbrev cc11_sem5_1 : DmaSem sig := 143
abbrev cc11_sem6_0 : DmaSem sig := 144
abbrev cc11_sem7_0 : DmaSem sig := 145
abbrev cc11_sem8_0 : DmaSem sig := 146
abbrev cc11_sem9_0 : DmaSem sig := 147
abbrev cc11_sem10_0 : DmaSem sig := 148
abbrev cc11_sem10_1 : DmaSem sig := 149
abbrev cc11_sem11_0 : DmaSem sig := 150
abbrev cc11_sem12_0 : DmaSem sig := 151
abbrev cc11_sem13_0 : DmaSem sig := 152
abbrev cc11_sem14_0 : DmaSem sig := 153
abbrev cc11_sem15_0 : DmaSem sig := 154
abbrev cc11_sem16_0 : DmaSem sig := 155
abbrev cc11_sem17_0 : DmaSem sig := 156
abbrev cc11_sem17_1 : DmaSem sig := 157
abbrev cc12_sem0_0 : DmaSem sig := 158
abbrev cc12_sem0_1 : DmaSem sig := 159
abbrev cc12_sem1_0 : DmaSem sig := 160
abbrev cc12_sem2_0 : DmaSem sig := 161
abbrev cc12_sem3_0 : DmaSem sig := 162
abbrev cc12_sem4_0 : DmaSem sig := 163
abbrev cc12_sem5_0 : DmaSem sig := 164
abbrev cc12_sem6_0 : DmaSem sig := 165
abbrev cc12_sem7_0 : DmaSem sig := 166
abbrev cc12_sem7_1 : DmaSem sig := 167
abbrev cc13_sem0_0 : DmaSem sig := 168
abbrev cc13_sem0_1 : DmaSem sig := 169
abbrev cc13_sem1_0 : DmaSem sig := 170
abbrev cc13_sem2_0 : DmaSem sig := 171
abbrev cc13_sem3_0 : DmaSem sig := 172
abbrev cc13_sem4_0 : DmaSem sig := 173
abbrev cc13_sem5_0 : DmaSem sig := 174
abbrev cc13_sem5_1 : DmaSem sig := 175

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S5000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_12 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_13 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_14 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_17 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S5000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 1 → Memref sig .tc .vmem S128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S128 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S128x128 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S128 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 2 → Memref sig .tc .vmem S5000x128 .f32 := fun | 0 => Memref.whole cc3_stg17_0 | 1 => Memref.whole cc3_stg17_1 | ⟨_ + 2, h⟩ => absurd h (Nat.not_lt.2 (Nat.le_add_left _ _))
abbrev sem3_17 : Fin 2 → DmaSem sig := fun | 0 => cc3_sem17_0 | 1 => cc3_sem17_1 | ⟨_ + 2, h⟩ => absurd h (Nat.not_lt.2 (Nat.le_add_left _ _))
abbrev reads3_17 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S5000x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 2 → Memref sig .tc .vmem S5000x128 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_7 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_8 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_9 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_10 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_11 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_12 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_13 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_14 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_15 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_16 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_17 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S128 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 2 → Memref sig .tc .vmem S5000x128 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true]

abbrev stage7_11 : Fin 1 → Memref sig .tc .vmem S128 .f32 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false]

abbrev stage7_12 : Fin 1 → Memref sig .tc .vmem S128 .f32 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![false]

abbrev stage7_13 : Fin 1 → Memref sig .tc .vmem S128 .f32 := fun | 0 => Memref.whole cc7_stg13_0 | ⟨_ + 1, h⟩ => absurd h (Nat.not_lt.2 (Nat.le_add_left _ _))
abbrev sem7_13 : Fin 1 → DmaSem sig := fun | 0 => cc7_sem13_0 | ⟨_ + 1, h⟩ => absurd h (Nat.not_lt.2 (Nat.le_add_left _ _))
abbrev reads7_13 : Fin grid7.rank → Bool := ![false]

abbrev stage7_14 : Fin 1 → Memref sig .tc .vmem S128 .f32 := fun | 0 => Memref.whole cc7_stg14_0 | ⟨_ + 1, h⟩ => absurd h (Nat.not_lt.2 (Nat.le_add_left _ _))
abbrev sem7_14 : Fin 1 → DmaSem sig := fun | 0 => cc7_sem14_0 | ⟨_ + 1, h⟩ => absurd h (Nat.not_lt.2 (Nat.le_add_left _ _))
abbrev reads7_14 : Fin grid7.rank → Bool := ![false]

abbrev stage7_15 : Fin 1 → Memref sig .tc .vmem S128x128 .f32 := fun | 0 => Memref.whole cc7_stg15_0 | ⟨_ + 1, h⟩ => absurd h (Nat.not_lt.2 (Nat.le_add_left _ _))
abbrev sem7_15 : Fin 1 → DmaSem sig := fun | 0 => cc7_sem15_0 | ⟨_ + 1, h⟩ => absurd h (Nat.not_lt.2 (Nat.le_add_left _ _))
abbrev reads7_15 : Fin grid7.rank → Bool := ![false]

abbrev stage7_16 : Fin 1 → Memref sig .tc .vmem S128 .f32 := fun | 0 => Memref.whole cc7_stg16_0 | ⟨_ + 1, h⟩ => absurd h (Nat.not_lt.2 (Nat.le_add_left _ _))
abbrev sem7_16 : Fin 1 → DmaSem sig := fun | 0 => cc7_sem16_0 | ⟨_ + 1, h⟩ => absurd h (Nat.not_lt.2 (Nat.le_add_left _ _))
abbrev reads7_16 : Fin grid7.rank → Bool := ![false]

abbrev stage7_17 : Fin 2 → Memref sig .tc .vmem S5000x128 .f32 := fun | 0 => Memref.whole cc7_stg17_0 | 1 => Memref.whole cc7_stg17_1 | ⟨_ + 2, h⟩ => absurd h (Nat.not_lt.2 (Nat.le_add_left _ _))
abbrev sem7_17 : Fin 2 → DmaSem sig := fun | 0 => cc7_sem17_0 | 1 => cc7_sem17_1 | ⟨_ + 2, h⟩ => absurd h (Nat.not_lt.2 (Nat.le_add_left _ _))
abbrev reads7_17 : Fin grid7.rank → Bool := ![true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S5000x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x1 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_2 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_3 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_4 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_9 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_10 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S128x128 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S128 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 2 → Memref sig .tc .vmem S5000x128 .f32 := fun | 0 => Memref.whole cc10_stg9_0 | 1 => Memref.whole cc10_stg9_1 | ⟨_ + 2, h⟩ => absurd h (Nat.not_lt.2 (Nat.le_add_left _ _))
abbrev sem10_9 : Fin 2 → DmaSem sig := fun | 0 => cc10_sem9_0 | 1 => cc10_sem9_1 | ⟨_ + 2, h⟩ => absurd h (Nat.not_lt.2 (Nat.le_add_left _ _))
abbrev reads10_9 : Fin grid10.rank → Bool := ![true]

abbrev stage10_10 : Fin 2 → Memref sig .tc .vmem S5000x128 .f32 := fun | 0 => Memref.whole cc10_stg10_0 | 1 => Memref.whole cc10_stg10_1 | ⟨_ + 2, h⟩ => absurd h (Nat.not_lt.2 (Nat.le_add_left _ _))
abbrev sem10_10 : Fin 2 → DmaSem sig := fun | 0 => cc10_sem10_0 | 1 => cc10_sem10_1 | ⟨_ + 2, h⟩ => absurd h (Nat.not_lt.2 (Nat.le_add_left _ _))
abbrev reads10_10 : Fin grid10.rank → Bool := ![true]

abbrev grid11 : Pipeline.Grid := ⟨1, ![8], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_2 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_3 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_4 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_7 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_8 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_9 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_10 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_11 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_12 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_13 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_14 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_15 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_16 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_17 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 1 → Memref sig .tc .vmem S128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S128 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev stage11_8 : Fin 1 → Memref sig .tc .vmem S128 .f32 := fun | 0 => Memref.whole cc11_stg8_0 | ⟨_ + 1, h⟩ => absurd h (Nat.not_lt.2 (Nat.le_add_left _ _))
abbrev sem11_8 : Fin 1 → DmaSem sig := fun | 0 => cc11_sem8_0 | ⟨_ + 1, h⟩ => absurd h (Nat.not_lt.2 (Nat.le_add_left _ _))
abbrev reads11_8 : Fin grid11.rank → Bool := ![false]

abbrev stage11_9 : Fin 1 → Memref sig .tc .vmem S128 .f32 := fun | 0 => Memref.whole cc11_stg9_0 | ⟨_ + 1, h⟩ => absurd h (Nat.not_lt.2 (Nat.le_add_left _ _))
abbrev sem11_9 : Fin 1 → DmaSem sig := fun | 0 => cc11_sem9_0 | ⟨_ + 1, h⟩ => absurd h (Nat.not_lt.2 (Nat.le_add_left _ _))
abbrev reads11_9 : Fin grid11.rank → Bool := ![false]

abbrev stage11_10 : Fin 2 → Memref sig .tc .vmem S5000x128 .f32 := fun | 0 => Memref.whole cc11_stg10_0 | 1 => Memref.whole cc11_stg10_1 | ⟨_ + 2, h⟩ => absurd h (Nat.not_lt.2 (Nat.le_add_left _ _))
abbrev sem11_10 : Fin 2 → DmaSem sig := fun | 0 => cc11_sem10_0 | 1 => cc11_sem10_1 | ⟨_ + 2, h⟩ => absurd h (Nat.not_lt.2 (Nat.le_add_left _ _))
abbrev reads11_10 : Fin grid11.rank → Bool := ![true]

abbrev stage11_11 : Fin 1 → Memref sig .tc .vmem S128 .f32 := fun | 0 => Memref.whole cc11_stg11_0 | ⟨_ + 1, h⟩ => absurd h (Nat.not_lt.2 (Nat.le_add_left _ _))
abbrev sem11_11 : Fin 1 → DmaSem sig := fun | 0 => cc11_sem11_0 | ⟨_ + 1, h⟩ => absurd h (Nat.not_lt.2 (Nat.le_add_left _ _))
abbrev reads11_11 : Fin grid11.rank → Bool := ![false]

abbrev stage11_12 : Fin 1 → Memref sig .tc .vmem S128 .f32 := fun | 0 => Memref.whole cc11_stg12_0 | ⟨_ + 1, h⟩ => absurd h (Nat.not_lt.2 (Nat.le_add_left _ _))
abbrev sem11_12 : Fin 1 → DmaSem sig := fun | 0 => cc11_sem12_0 | ⟨_ + 1, h⟩ => absurd h (Nat.not_lt.2 (Nat.le_add_left _ _))
abbrev reads11_12 : Fin grid11.rank → Bool := ![false]

abbrev stage11_13 : Fin 1 → Memref sig .tc .vmem S128 .f32 := fun | 0 => Memref.whole cc11_stg13_0 | ⟨_ + 1, h⟩ => absurd h (Nat.not_lt.2 (Nat.le_add_left _ _))
abbrev sem11_13 : Fin 1 → DmaSem sig := fun | 0 => cc11_sem13_0 | ⟨_ + 1, h⟩ => absurd h (Nat.not_lt.2 (Nat.le_add_left _ _))
abbrev reads11_13 : Fin grid11.rank → Bool := ![false]

abbrev stage11_14 : Fin 1 → Memref sig .tc .vmem S128 .f32 := fun | 0 => Memref.whole cc11_stg14_0 | ⟨_ + 1, h⟩ => absurd h (Nat.not_lt.2 (Nat.le_add_left _ _))
abbrev sem11_14 : Fin 1 → DmaSem sig := fun | 0 => cc11_sem14_0 | ⟨_ + 1, h⟩ => absurd h (Nat.not_lt.2 (Nat.le_add_left _ _))
abbrev reads11_14 : Fin grid11.rank → Bool := ![false]

abbrev stage11_15 : Fin 1 → Memref sig .tc .vmem S128x128 .f32 := fun | 0 => Memref.whole cc11_stg15_0 | ⟨_ + 1, h⟩ => absurd h (Nat.not_lt.2 (Nat.le_add_left _ _))
abbrev sem11_15 : Fin 1 → DmaSem sig := fun | 0 => cc11_sem15_0 | ⟨_ + 1, h⟩ => absurd h (Nat.not_lt.2 (Nat.le_add_left _ _))
abbrev reads11_15 : Fin grid11.rank → Bool := ![false]

abbrev stage11_16 : Fin 1 → Memref sig .tc .vmem S128 .f32 := fun | 0 => Memref.whole cc11_stg16_0 | ⟨_ + 1, h⟩ => absurd h (Nat.not_lt.2 (Nat.le_add_left _ _))
abbrev sem11_16 : Fin 1 → DmaSem sig := fun | 0 => cc11_sem16_0 | ⟨_ + 1, h⟩ => absurd h (Nat.not_lt.2 (Nat.le_add_left _ _))
abbrev reads11_16 : Fin grid11.rank → Bool := ![false]

abbrev stage11_17 : Fin 2 → Memref sig .tc .vmem S5000x128 .f32 := fun | 0 => Memref.whole cc11_stg17_0 | 1 => Memref.whole cc11_stg17_1 | ⟨_ + 2, h⟩ => absurd h (Nat.not_lt.2 (Nat.le_add_left _ _))
abbrev sem11_17 : Fin 2 → DmaSem sig := fun | 0 => cc11_sem17_0 | 1 => cc11_sem17_1 | ⟨_ + 2, h⟩ => absurd h (Nat.not_lt.2 (Nat.le_add_left _ _))
abbrev reads11_17 : Fin grid11.rank → Bool := ![true]

abbrev grid12 : Pipeline.Grid := ⟨1, ![8], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_2 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_3 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_4 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S128x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S128 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 2 → Memref sig .tc .vmem S5000x128 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

abbrev grid13 : Pipeline.Grid := ⟨1, ![8], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_2 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_3 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_4 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S5000x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  shapeCasts_S640000x1_S640000 : S640000x1.ShapeCasts S640000
  shapeCasts_S40000_S40000x1 : S40000.ShapeCasts S40000x1
  inb_S5000x2_S5000x2_0_0 : ∀ a, (![0, 0] : Fin 2 → Nat) a + S5000x2.size a ≤ S5000x2.size a
  h_S5000x2 : 0 < S5000x2.numel
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reducesTo_S40000x128_S128_d0 : S40000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S40000x128_0_1 : S1x128.BroadcastsInDim S40000x128 (![0, 1] : Fin 2 → Fin S40000x128.rank)
  slices_S3x1x128_S1x1x128_0_0_0 : S3x1x128.Slices ![0, 0, 0] S1x1x128
  shapeCasts_S1x1x128_S1x128 : S1x1x128.ShapeCasts S1x128
  slices_S3x128_S1x128_0_0 : S3x128.Slices ![0, 0] S1x128
  shapeCasts_S1x128_S128 : S1x128.ShapeCasts S128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S128_S128 : S128.ShapeCasts S128
  broadcasts_S5000x1_S5000x128 : S5000x1.Broadcasts S5000x128
  slices_S3x128x128_S1x128x128_0_0_0 : S3x128x128.Slices ![0, 0, 0] S1x128x128
  shapeCasts_S1x128x128_S128x128 : S1x128x128.ShapeCasts S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S40000x128 : S_.BroadcastsInDim S40000x128 (![] : Fin 0 → Fin S40000x128.rank)
  slices_S3x1x128_S1x1x128_1_0_0 : S3x1x128.Slices ![1, 0, 0] S1x1x128
  slices_S3x128_S1x128_1_0 : S3x128.Slices ![1, 0] S1x128
  slices_S3x128x128_S1x128x128_1_0_0 : S3x128x128.Slices ![1, 0, 0] S1x128x128
  slices_S3x1x128_S1x1x128_2_0_0 : S3x1x128.Slices ![2, 0, 0] S1x1x128
  slices_S3x128_S1x128_2_0 : S3x128.Slices ![2, 0] S1x128
  slices_S3x128x128_S1x128x128_2_0_0 : S3x128x128.Slices ![2, 0, 0] S1x128x128
  scatter_S40000_S640000x1_S640000_n_0_0_1_wf : ScatterDims.WF S40000 S640000x1 S640000 [] [0] [0] 1
  dot_S5000x2_S2x128_S5000x128_1_0_0_1_n_n_wf : DotDims.WF S5000x2 S2x128 S5000x128 [1] [0] [0] [1] [] []
  dot_S5000x128_S128x128_S5000x128_1_0_0_1_n_n_wf : DotDims.WF S5000x128 S128x128 S5000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S40000x2.size a
  hwx0_0 : ∀ i : grid0.Coords, EltTy.bits .f32 = 32 ∨ (Rect.block (s := S40000x2) S5000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S40000x128.size a
  hwx0_3 : ∀ i : grid0.Coords, EltTy.bits .f32 = 32 ∨ (Rect.block (s := S40000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x1.size a ≤ S40000x1.size a
  hwx1_0 : ∀ i : grid1.Coords, EltTy.bits .f32 = 32 ∨ (Rect.block (s := S40000x1) S5000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S40000x1.size a
  hwx1_1 : ∀ i : grid1.Coords, EltTy.bits .f32 = 32 ∨ (Rect.block (s := S40000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S40000x128.size a
  hwx1_4 : ∀ i : grid1.Coords, EltTy.bits .f32 = 32 ∨ (Rect.block (s := S40000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S40000x128.size a
  hwx2_9 : ∀ i : grid2.Coords, EltTy.bits .f32 = 32 ∨ (Rect.block (s := S40000x128) S5000x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x128.size a ≤ S40000x128.size a
  hwx2_10 : ∀ i : grid2.Coords, EltTy.bits .f32 = 32 ∨ (Rect.block (s := S40000x128) S5000x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S40000x128.size a
  hwx3_0 : ∀ i : grid3.Coords, EltTy.bits .f32 = 32 ∨ (Rect.block (s := S40000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S40000x128.size a
  hwx3_5 : ∀ i : grid3.Coords, EltTy.bits .f32 = 32 ∨ (Rect.block (s := S40000x128) S5000x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128.size a ≤ S128.size a
  hwx3_8 : ∀ i : grid3.Coords, EltTy.bits .f32 = 32 ∨ (Rect.block (s := S128) S128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128.size a ≤ S128.size a
  hwx3_9 : ∀ i : grid3.Coords, EltTy.bits .f32 = 32 ∨ (Rect.block (s := S128) S128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S5000x128.size a ≤ S40000x128.size a
  hwx3_10 : ∀ i : grid3.Coords, EltTy.bits .f32 = 32 ∨ (Rect.block (s := S40000x128) S5000x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S128.size a ≤ S128.size a
  hwx3_11 : ∀ i : grid3.Coords, EltTy.bits .f32 = 32 ∨ (Rect.block (s := S128) S128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S128.size a ≤ S128.size a
  hwx3_12 : ∀ i : grid3.Coords, EltTy.bits .f32 = 32 ∨ (Rect.block (s := S128) S128.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S128.size a ≤ S128.size a
  hwx3_13 : ∀ i : grid3.Coords, EltTy.bits .f32 = 32 ∨ (Rect.block (s := S128) S128.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S128.size a ≤ S128.size a
  hwx3_14 : ∀ i : grid3.Coords, EltTy.bits .f32 = 32 ∨ (Rect.block (s := S128) S128.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S128x128.size a ≤ S128x128.size a
  hwx3_15 : ∀ i : grid3.Coords, EltTy.bits .f32 = 32 ∨ (Rect.block (s := S128x128) S128x128.size (cc3_transform_15 i) (hinb3_15 i)).WholeWords (EltTy.packing .f32)
  hstage3_16 : ∀ j, (stage3_16 j).IsWhole
  nbuf3_16 : grid3.bufCount reads3_16 true = 1
  hreads3_16 : ∀ i i' : grid3.Coords, (∀ a, reads3_16 a = true → i a = i' a) → cc3_transform_16 i = cc3_transform_16 i'
  hinb3_16 : ∀ (i : grid3.Coords) a, (cc3_transform_16 i a + 1) * S128.size a ≤ S128.size a
  hwx3_16 : ∀ i : grid3.Coords, EltTy.bits .f32 = 32 ∨ (Rect.block (s := S128) S128.size (cc3_transform_16 i) (hinb3_16 i)).WholeWords (EltTy.packing .f32)
  hstage3_17 : ∀ j, (stage3_17 j).IsWhole
  nbuf3_17 : grid3.bufCount reads3_17 false = 2
  hreads3_17 : ∀ i i' : grid3.Coords, (∀ a, reads3_17 a = true → i a = i' a) → cc3_transform_17 i = cc3_transform_17 i'
  hinb3_17 : ∀ (i : grid3.Coords) a, (cc3_transform_17 i a + 1) * S5000x128.size a ≤ S40000x128.size a
  hwx3_17 : ∀ i : grid3.Coords, EltTy.bits .f32 = 32 ∨ (Rect.block (s := S40000x128) S5000x128.size (cc3_transform_17 i) (hinb3_17 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S40000x128.size a
  hwx4_0 : ∀ i : grid4.Coords, EltTy.bits .f32 = 32 ∨ (Rect.block (s := S40000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128.size a ≤ S128.size a
  hwx4_6 : ∀ i : grid4.Coords, EltTy.bits .f32 = 32 ∨ (Rect.block (s := S128) S128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S40000x128.size a
  hwx4_7 : ∀ i : grid4.Coords, EltTy.bits .f32 = 32 ∨ (Rect.block (s := S40000x128) S5000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x1.size a ≤ S40000x1.size a
  hwx5_0 : ∀ i : grid5.Coords, EltTy.bits .f32 = 32 ∨ (Rect.block (s := S40000x1) S5000x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S40000x1.size a
  hwx5_1 : ∀ i : grid5.Coords, EltTy.bits .f32 = 32 ∨ (Rect.block (s := S40000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S40000x128.size a
  hwx5_4 : ∀ i : grid5.Coords, EltTy.bits .f32 = 32 ∨ (Rect.block (s := S40000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S40000x128.size a
  hwx6_0 : ∀ i : grid6.Coords, EltTy.bits .f32 = 32 ∨ (Rect.block (s := S40000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128.size a ≤ S128.size a
  hwx6_1 : ∀ i : grid6.Coords, EltTy.bits .f32 = 32 ∨ (Rect.block (s := S128) S128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128.size a ≤ S128.size a
  hwx6_3 : ∀ i : grid6.Coords, EltTy.bits .f32 = 32 ∨ (Rect.block (s := S128) S128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128.size a ≤ S128.size a
  hwx6_4 : ∀ i : grid6.Coords, EltTy.bits .f32 = 32 ∨ (Rect.block (s := S128) S128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128.size a ≤ S128.size a
  hwx6_6 : ∀ i : grid6.Coords, EltTy.bits .f32 = 32 ∨ (Rect.block (s := S128) S128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128x128.size a ≤ S128x128.size a
  hwx6_7 : ∀ i : grid6.Coords, EltTy.bits .f32 = 32 ∨ (Rect.block (s := S128x128) S128x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S128.size a ≤ S128.size a
  hwx6_8 : ∀ i : grid6.Coords, EltTy.bits .f32 = 32 ∨ (Rect.block (s := S128) S128.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S5000x128.size a ≤ S40000x128.size a
  hwx6_9 : ∀ i : grid6.Coords, EltTy.bits .f32 = 32 ∨ (Rect.block (s := S40000x128) S5000x128.size (cc6_transform_9 i) (hinb6_9 i)).WholeWords (EltTy.packing .f32)
  hstage6_10 : ∀ j, (stage6_10 j).IsWhole
  nbuf6_10 : grid6.bufCount reads6_10 false = 2
  hreads6_10 : ∀ i i' : grid6.Coords, (∀ a, reads6_10 a = true → i a = i' a) → cc6_transform_10 i = cc6_transform_10 i'
  hinb6_10 : ∀ (i : grid6.Coords) a, (cc6_transform_10 i a + 1) * S5000x128.size a ≤ S40000x128.size a
  hwx6_10 : ∀ i : grid6.Coords, EltTy.bits .f32 = 32 ∨ (Rect.block (s := S40000x128) S5000x128.size (cc6_transform_10 i) (hinb6_10 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S40000x128.size a
  hwx7_0 : ∀ i : grid7.Coords, EltTy.bits .f32 = 32 ∨ (Rect.block (s := S40000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128.size a ≤ S128.size a
  hwx7_1 : ∀ i : grid7.Coords, EltTy.bits .f32 = 32 ∨ (Rect.block (s := S128) S128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128.size a ≤ S128.size a
  hwx7_2 : ∀ i : grid7.Coords, EltTy.bits .f32 = 32 ∨ (Rect.block (s := S128) S128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128.size a ≤ S128.size a
  hwx7_3 : ∀ i : grid7.Coords, EltTy.bits .f32 = 32 ∨ (Rect.block (s := S128) S128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128.size a ≤ S128.size a
  hwx7_4 : ∀ i : grid7.Coords, EltTy.bits .f32 = 32 ∨ (Rect.block (s := S128) S128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S40000x128.size a
  hwx7_5 : ∀ i : grid7.Coords, EltTy.bits .f32 = 32 ∨ (Rect.block (s := S40000x128) S5000x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S128.size a ≤ S128.size a
  hwx7_6 : ∀ i : grid7.Coords, EltTy.bits .f32 = 32 ∨ (Rect.block (s := S128) S128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S128.size a ≤ S128.size a
  hwx7_7 : ∀ i : grid7.Coords, EltTy.bits .f32 = 32 ∨ (Rect.block (s := S128) S128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S128.size a ≤ S128.size a
  hwx7_8 : ∀ i : grid7.Coords, EltTy.bits .f32 = 32 ∨ (Rect.block (s := S128) S128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S128.size a ≤ S128.size a
  hwx7_9 : ∀ i : grid7.Coords, EltTy.bits .f32 = 32 ∨ (Rect.block (s := S128) S128.size (cc7_transform_9 i) (hinb7_9 i)).WholeWords (EltTy.packing .f32)
  hstage7_10 : ∀ j, (stage7_10 j).IsWhole
  nbuf7_10 : grid7.bufCount reads7_10 false = 2
  hreads7_10 : ∀ i i' : grid7.Coords, (∀ a, reads7_10 a = true → i a = i' a) → cc7_transform_10 i = cc7_transform_10 i'
  hinb7_10 : ∀ (i : grid7.Coords) a, (cc7_transform_10 i a + 1) * S5000x128.size a ≤ S40000x128.size a
  hwx7_10 : ∀ i : grid7.Coords, EltTy.bits .f32 = 32 ∨ (Rect.block (s := S40000x128) S5000x128.size (cc7_transform_10 i) (hinb7_10 i)).WholeWords (EltTy.packing .f32)
  hstage7_11 : ∀ j, (stage7_11 j).IsWhole
  nbuf7_11 : grid7.bufCount reads7_11 true = 1
  hreads7_11 : ∀ i i' : grid7.Coords, (∀ a, reads7_11 a = true → i a = i' a) → cc7_transform_11 i = cc7_transform_11 i'
  hinb7_11 : ∀ (i : grid7.Coords) a, (cc7_transform_11 i a + 1) * S128.size a ≤ S128.size a
  hwx7_11 : ∀ i : grid7.Coords, EltTy.bits .f32 = 32 ∨ (Rect.block (s := S128) S128.size (cc7_transform_11 i) (hinb7_11 i)).WholeWords (EltTy.packing .f32)
  hstage7_12 : ∀ j, (stage7_12 j).IsWhole
  nbuf7_12 : grid7.bufCount reads7_12 true = 1
  hreads7_12 : ∀ i i' : grid7.Coords, (∀ a, reads7_12 a = true → i a = i' a) → cc7_transform_12 i = cc7_transform_12 i'
  hinb7_12 : ∀ (i : grid7.Coords) a, (cc7_transform_12 i a + 1) * S128.size a ≤ S128.size a
  hwx7_12 : ∀ i : grid7.Coords, EltTy.bits .f32 = 32 ∨ (Rect.block (s := S128) S128.size (cc7_transform_12 i) (hinb7_12 i)).WholeWords (EltTy.packing .f32)
  hstage7_13 : ∀ j, (stage7_13 j).IsWhole
  nbuf7_13 : grid7.bufCount reads7_13 true = 1
  hreads7_13 : ∀ i i' : grid7.Coords, (∀ a, reads7_13 a = true → i a = i' a) → cc7_transform_13 i = cc7_transform_13 i'
  hinb7_13 : ∀ (i : grid7.Coords) a, (cc7_transform_13 i a + 1) * S128.size a ≤ S128.size a
  hwx7_13 : ∀ i : grid7.Coords, EltTy.bits .f32 = 32 ∨ (Rect.block (s := S128) S128.size (cc7_transform_13 i) (hinb7_13 i)).WholeWords (EltTy.packing .f32)
  hstage7_14 : ∀ j, (stage7_14 j).IsWhole
  nbuf7_14 : grid7.bufCount reads7_14 true = 1
  hreads7_14 : ∀ i i' : grid7.Coords, (∀ a, reads7_14 a = true → i a = i' a) → cc7_transform_14 i = cc7_transform_14 i'
  hinb7_14 : ∀ (i : grid7.Coords) a, (cc7_transform_14 i a + 1) * S128.size a ≤ S128.size a
  hwx7_14 : ∀ i : grid7.Coords, EltTy.bits .f32 = 32 ∨ (Rect.block (s := S128) S128.size (cc7_transform_14 i) (hinb7_14 i)).WholeWords (EltTy.packing .f32)
  hstage7_15 : ∀ j, (stage7_15 j).IsWhole
  nbuf7_15 : grid7.bufCount reads7_15 true = 1
  hreads7_15 : ∀ i i' : grid7.Coords, (∀ a, reads7_15 a = true → i a = i' a) → cc7_transform_15 i = cc7_transform_15 i'
  hinb7_15 : ∀ (i : grid7.Coords) a, (cc7_transform_15 i a + 1) * S128x128.size a ≤ S128x128.size a
  hwx7_15 : ∀ i : grid7.Coords, EltTy.bits .f32 = 32 ∨ (Rect.block (s := S128x128) S128x128.size (cc7_transform_15 i) (hinb7_15 i)).WholeWords (EltTy.packing .f32)
  hstage7_16 : ∀ j, (stage7_16 j).IsWhole
  nbuf7_16 : grid7.bufCount reads7_16 true = 1
  hreads7_16 : ∀ i i' : grid7.Coords, (∀ a, reads7_16 a = true → i a = i' a) → cc7_transform_16 i = cc7_transform_16 i'
  hinb7_16 : ∀ (i : grid7.Coords) a, (cc7_transform_16 i a + 1) * S128.size a ≤ S128.size a
  hwx7_16 : ∀ i : grid7.Coords, EltTy.bits .f32 = 32 ∨ (Rect.block (s := S128) S128.size (cc7_transform_16 i) (hinb7_16 i)).WholeWords (EltTy.packing .f32)
  hstage7_17 : ∀ j, (stage7_17 j).IsWhole
  nbuf7_17 : grid7.bufCount reads7_17 false = 2
  hreads7_17 : ∀ i i' : grid7.Coords, (∀ a, reads7_17 a = true → i a = i' a) → cc7_transform_17 i = cc7_transform_17 i'
  hinb7_17 : ∀ (i : grid7.Coords) a, (cc7_transform_17 i a + 1) * S5000x128.size a ≤ S40000x128.size a
  hwx7_17 : ∀ i : grid7.Coords, EltTy.bits .f32 = 32 ∨ (Rect.block (s := S40000x128) S5000x128.size (cc7_transform_17 i) (hinb7_17 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S40000x128.size a
  hwx8_0 : ∀ i : grid8.Coords, EltTy.bits .f32 = 32 ∨ (Rect.block (s := S40000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128.size a ≤ S128.size a
  hwx8_1 : ∀ i : grid8.Coords, EltTy.bits .f32 = 32 ∨ (Rect.block (s := S128) S128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128.size a ≤ S128.size a
  hwx8_2 : ∀ i : grid8.Coords, EltTy.bits .f32 = 32 ∨ (Rect.block (s := S128) S128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128.size a ≤ S128.size a
  hwx8_3 : ∀ i : grid8.Coords, EltTy.bits .f32 = 32 ∨ (Rect.block (s := S128) S128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128.size a ≤ S128.size a
  hwx8_4 : ∀ i : grid8.Coords, EltTy.bits .f32 = 32 ∨ (Rect.block (s := S128) S128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .f32 = 32 ∨ (Rect.block (s := S128x128) S128x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S128.size a ≤ S128.size a
  hwx8_6 : ∀ i : grid8.Coords, EltTy.bits .f32 = 32 ∨ (Rect.block (s := S128) S128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x128.size a ≤ S40000x128.size a
  hwx8_7 : ∀ i : grid8.Coords, EltTy.bits .f32 = 32 ∨ (Rect.block (s := S40000x128) S5000x128.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x1.size a ≤ S40000x1.size a
  hwx9_0 : ∀ i : grid9.Coords, EltTy.bits .f32 = 32 ∨ (Rect.block (s := S40000x1) S5000x1.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S40000x1.size a
  hwx9_1 : ∀ i : grid9.Coords, EltTy.bits .f32 = 32 ∨ (Rect.block (s := S40000x1) S5000x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128.size a ≤ S128.size a
  hwx9_3 : ∀ i : grid9.Coords, EltTy.bits .f32 = 32 ∨ (Rect.block (s := S128) S128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x128.size a ≤ S40000x128.size a
  hwx9_4 : ∀ i : grid9.Coords, EltTy.bits .f32 = 32 ∨ (Rect.block (s := S40000x128) S5000x128.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S40000x128.size a
  hwx10_0 : ∀ i : grid10.Coords, EltTy.bits .f32 = 32 ∨ (Rect.block (s := S40000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128.size a ≤ S128.size a
  hwx10_1 : ∀ i : grid10.Coords, EltTy.bits .f32 = 32 ∨ (Rect.block (s := S128) S128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128.size a ≤ S128.size a
  hwx10_2 : ∀ i : grid10.Coords, EltTy.bits .f32 = 32 ∨ (Rect.block (s := S128) S128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128.size a ≤ S128.size a
  hwx10_3 : ∀ i : grid10.Coords, EltTy.bits .f32 = 32 ∨ (Rect.block (s := S128) S128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S128.size a ≤ S128.size a
  hwx10_4 : ∀ i : grid10.Coords, EltTy.bits .f32 = 32 ∨ (Rect.block (s := S128) S128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x128.size a ≤ S128x128.size a
  hwx10_5 : ∀ i : grid10.Coords, EltTy.bits .f32 = 32 ∨ (Rect.block (s := S128x128) S128x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S128.size a ≤ S128.size a
  hwx10_6 : ∀ i : grid10.Coords, EltTy.bits .f32 = 32 ∨ (Rect.block (s := S128) S128.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S128x128.size a ≤ S128x128.size a
  hwx10_7 : ∀ i : grid10.Coords, EltTy.bits .f32 = 32 ∨ (Rect.block (s := S128x128) S128x128.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S128.size a ≤ S128.size a
  hwx10_8 : ∀ i : grid10.Coords, EltTy.bits .f32 = 32 ∨ (Rect.block (s := S128) S128.size (cc10_transform_8 i) (hinb10_8 i)).WholeWords (EltTy.packing .f32)
  hstage10_9 : ∀ j, (stage10_9 j).IsWhole
  nbuf10_9 : grid10.bufCount reads10_9 false = 2
  hreads10_9 : ∀ i i' : grid10.Coords, (∀ a, reads10_9 a = true → i a = i' a) → cc10_transform_9 i = cc10_transform_9 i'
  hinb10_9 : ∀ (i : grid10.Coords) a, (cc10_transform_9 i a + 1) * S5000x128.size a ≤ S40000x128.size a
  hwx10_9 : ∀ i : grid10.Coords, EltTy.bits .f32 = 32 ∨ (Rect.block (s := S40000x128) S5000x128.size (cc10_transform_9 i) (hinb10_9 i)).WholeWords (EltTy.packing .f32)
  hstage10_10 : ∀ j, (stage10_10 j).IsWhole
  nbuf10_10 : grid10.bufCount reads10_10 false = 2
  hreads10_10 : ∀ i i' : grid10.Coords, (∀ a, reads10_10 a = true → i a = i' a) → cc10_transform_10 i = cc10_transform_10 i'
  hinb10_10 : ∀ (i : grid10.Coords) a, (cc10_transform_10 i a + 1) * S5000x128.size a ≤ S40000x128.size a
  hwx10_10 : ∀ i : grid10.Coords, EltTy.bits .f32 = 32 ∨ (Rect.block (s := S40000x128) S5000x128.size (cc10_transform_10 i) (hinb10_10 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S40000x128.size a
  hwx11_0 : ∀ i : grid11.Coords, EltTy.bits .f32 = 32 ∨ (Rect.block (s := S40000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128.size a ≤ S128.size a
  hwx11_1 : ∀ i : grid11.Coords, EltTy.bits .f32 = 32 ∨ (Rect.block (s := S128) S128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128.size a ≤ S128.size a
  hwx11_2 : ∀ i : grid11.Coords, EltTy.bits .f32 = 32 ∨ (Rect.block (s := S128) S128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128.size a ≤ S128.size a
  hwx11_3 : ∀ i : grid11.Coords, EltTy.bits .f32 = 32 ∨ (Rect.block (s := S128) S128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S128.size a ≤ S128.size a
  hwx11_4 : ∀ i : grid11.Coords, EltTy.bits .f32 = 32 ∨ (Rect.block (s := S128) S128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x128.size a ≤ S40000x128.size a
  hwx11_5 : ∀ i : grid11.Coords, EltTy.bits .f32 = 32 ∨ (Rect.block (s := S40000x128) S5000x128.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S128.size a ≤ S128.size a
  hwx11_6 : ∀ i : grid11.Coords, EltTy.bits .f32 = 32 ∨ (Rect.block (s := S128) S128.size (cc11_transform_6 i) (hinb11_6 i)).WholeWords (EltTy.packing .f32)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S128.size a ≤ S128.size a
  hwx11_7 : ∀ i : grid11.Coords, EltTy.bits .f32 = 32 ∨ (Rect.block (s := S128) S128.size (cc11_transform_7 i) (hinb11_7 i)).WholeWords (EltTy.packing .f32)
  hstage11_8 : ∀ j, (stage11_8 j).IsWhole
  nbuf11_8 : grid11.bufCount reads11_8 true = 1
  hreads11_8 : ∀ i i' : grid11.Coords, (∀ a, reads11_8 a = true → i a = i' a) → cc11_transform_8 i = cc11_transform_8 i'
  hinb11_8 : ∀ (i : grid11.Coords) a, (cc11_transform_8 i a + 1) * S128.size a ≤ S128.size a
  hwx11_8 : ∀ i : grid11.Coords, EltTy.bits .f32 = 32 ∨ (Rect.block (s := S128) S128.size (cc11_transform_8 i) (hinb11_8 i)).WholeWords (EltTy.packing .f32)
  hstage11_9 : ∀ j, (stage11_9 j).IsWhole
  nbuf11_9 : grid11.bufCount reads11_9 true = 1
  hreads11_9 : ∀ i i' : grid11.Coords, (∀ a, reads11_9 a = true → i a = i' a) → cc11_transform_9 i = cc11_transform_9 i'
  hinb11_9 : ∀ (i : grid11.Coords) a, (cc11_transform_9 i a + 1) * S128.size a ≤ S128.size a
  hwx11_9 : ∀ i : grid11.Coords, EltTy.bits .f32 = 32 ∨ (Rect.block (s := S128) S128.size (cc11_transform_9 i) (hinb11_9 i)).WholeWords (EltTy.packing .f32)
  hstage11_10 : ∀ j, (stage11_10 j).IsWhole
  nbuf11_10 : grid11.bufCount reads11_10 false = 2
  hreads11_10 : ∀ i i' : grid11.Coords, (∀ a, reads11_10 a = true → i a = i' a) → cc11_transform_10 i = cc11_transform_10 i'
  hinb11_10 : ∀ (i : grid11.Coords) a, (cc11_transform_10 i a + 1) * S5000x128.size a ≤ S40000x128.size a
  hwx11_10 : ∀ i : grid11.Coords, EltTy.bits .f32 = 32 ∨ (Rect.block (s := S40000x128) S5000x128.size (cc11_transform_10 i) (hinb11_10 i)).WholeWords (EltTy.packing .f32)
  hstage11_11 : ∀ j, (stage11_11 j).IsWhole
  nbuf11_11 : grid11.bufCount reads11_11 true = 1
  hreads11_11 : ∀ i i' : grid11.Coords, (∀ a, reads11_11 a = true → i a = i' a) → cc11_transform_11 i = cc11_transform_11 i'
  hinb11_11 : ∀ (i : grid11.Coords) a, (cc11_transform_11 i a + 1) * S128.size a ≤ S128.size a
  hwx11_11 : ∀ i : grid11.Coords, EltTy.bits .f32 = 32 ∨ (Rect.block (s := S128) S128.size (cc11_transform_11 i) (hinb11_11 i)).WholeWords (EltTy.packing .f32)
  hstage11_12 : ∀ j, (stage11_12 j).IsWhole
  nbuf11_12 : grid11.bufCount reads11_12 true = 1
  hreads11_12 : ∀ i i' : grid11.Coords, (∀ a, reads11_12 a = true → i a = i' a) → cc11_transform_12 i = cc11_transform_12 i'
  hinb11_12 : ∀ (i : grid11.Coords) a, (cc11_transform_12 i a + 1) * S128.size a ≤ S128.size a
  hwx11_12 : ∀ i : grid11.Coords, EltTy.bits .f32 = 32 ∨ (Rect.block (s := S128) S128.size (cc11_transform_12 i) (hinb11_12 i)).WholeWords (EltTy.packing .f32)
  hstage11_13 : ∀ j, (stage11_13 j).IsWhole
  nbuf11_13 : grid11.bufCount reads11_13 true = 1
  hreads11_13 : ∀ i i' : grid11.Coords, (∀ a, reads11_13 a = true → i a = i' a) → cc11_transform_13 i = cc11_transform_13 i'
  hinb11_13 : ∀ (i : grid11.Coords) a, (cc11_transform_13 i a + 1) * S128.size a ≤ S128.size a
  hwx11_13 : ∀ i : grid11.Coords, EltTy.bits .f32 = 32 ∨ (Rect.block (s := S128) S128.size (cc11_transform_13 i) (hinb11_13 i)).WholeWords (EltTy.packing .f32)
  hstage11_14 : ∀ j, (stage11_14 j).IsWhole
  nbuf11_14 : grid11.bufCount reads11_14 true = 1
  hreads11_14 : ∀ i i' : grid11.Coords, (∀ a, reads11_14 a = true → i a = i' a) → cc11_transform_14 i = cc11_transform_14 i'
  hinb11_14 : ∀ (i : grid11.Coords) a, (cc11_transform_14 i a + 1) * S128.size a ≤ S128.size a
  hwx11_14 : ∀ i : grid11.Coords, EltTy.bits .f32 = 32 ∨ (Rect.block (s := S128) S128.size (cc11_transform_14 i) (hinb11_14 i)).WholeWords (EltTy.packing .f32)
  hstage11_15 : ∀ j, (stage11_15 j).IsWhole
  nbuf11_15 : grid11.bufCount reads11_15 true = 1
  hreads11_15 : ∀ i i' : grid11.Coords, (∀ a, reads11_15 a = true → i a = i' a) → cc11_transform_15 i = cc11_transform_15 i'
  hinb11_15 : ∀ (i : grid11.Coords) a, (cc11_transform_15 i a + 1) * S128x128.size a ≤ S128x128.size a
  hwx11_15 : ∀ i : grid11.Coords, EltTy.bits .f32 = 32 ∨ (Rect.block (s := S128x128) S128x128.size (cc11_transform_15 i) (hinb11_15 i)).WholeWords (EltTy.packing .f32)
  hstage11_16 : ∀ j, (stage11_16 j).IsWhole
  nbuf11_16 : grid11.bufCount reads11_16 true = 1
  hreads11_16 : ∀ i i' : grid11.Coords, (∀ a, reads11_16 a = true → i a = i' a) → cc11_transform_16 i = cc11_transform_16 i'
  hinb11_16 : ∀ (i : grid11.Coords) a, (cc11_transform_16 i a + 1) * S128.size a ≤ S128.size a
  hwx11_16 : ∀ i : grid11.Coords, EltTy.bits .f32 = 32 ∨ (Rect.block (s := S128) S128.size (cc11_transform_16 i) (hinb11_16 i)).WholeWords (EltTy.packing .f32)
  hstage11_17 : ∀ j, (stage11_17 j).IsWhole
  nbuf11_17 : grid11.bufCount reads11_17 false = 2
  hreads11_17 : ∀ i i' : grid11.Coords, (∀ a, reads11_17 a = true → i a = i' a) → cc11_transform_17 i = cc11_transform_17 i'
  hinb11_17 : ∀ (i : grid11.Coords) a, (cc11_transform_17 i a + 1) * S5000x128.size a ≤ S40000x128.size a
  hwx11_17 : ∀ i : grid11.Coords, EltTy.bits .f32 = 32 ∨ (Rect.block (s := S40000x128) S5000x128.size (cc11_transform_17 i) (hinb11_17 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S40000x128.size a
  hwx12_0 : ∀ i : grid12.Coords, EltTy.bits .f32 = 32 ∨ (Rect.block (s := S40000x128) S5000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128.size a ≤ S128.size a
  hwx12_1 : ∀ i : grid12.Coords, EltTy.bits .f32 = 32 ∨ (Rect.block (s := S128) S128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128.size a ≤ S128.size a
  hwx12_2 : ∀ i : grid12.Coords, EltTy.bits .f32 = 32 ∨ (Rect.block (s := S128) S128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S128.size a ≤ S128.size a
  hwx12_3 : ∀ i : grid12.Coords, EltTy.bits .f32 = 32 ∨ (Rect.block (s := S128) S128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S128.size a ≤ S128.size a
  hwx12_4 : ∀ i : grid12.Coords, EltTy.bits .f32 = 32 ∨ (Rect.block (s := S128) S128.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S128x128.size a ≤ S128x128.size a
  hwx12_5 : ∀ i : grid12.Coords, EltTy.bits .f32 = 32 ∨ (Rect.block (s := S128x128) S128x128.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S128.size a ≤ S128.size a
  hwx12_6 : ∀ i : grid12.Coords, EltTy.bits .f32 = 32 ∨ (Rect.block (s := S128) S128.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S5000x128.size a ≤ S40000x128.size a
  hwx12_7 : ∀ i : grid12.Coords, EltTy.bits .f32 = 32 ∨ (Rect.block (s := S40000x128) S5000x128.size (cc12_transform_7 i) (hinb12_7 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S40000x128.size a
  hwx13_0 : ∀ i : grid13.Coords, EltTy.bits .f32 = 32 ∨ (Rect.block (s := S40000x128) S5000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S128.size a ≤ S128.size a
  hwx13_1 : ∀ i : grid13.Coords, EltTy.bits .f32 = 32 ∨ (Rect.block (s := S128) S128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S128.size a ≤ S128.size a
  hwx13_2 : ∀ i : grid13.Coords, EltTy.bits .f32 = 32 ∨ (Rect.block (s := S128) S128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S128.size a ≤ S128.size a
  hwx13_3 : ∀ i : grid13.Coords, EltTy.bits .f32 = 32 ∨ (Rect.block (s := S128) S128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S128.size a ≤ S128.size a
  hwx13_4 : ∀ i : grid13.Coords, EltTy.bits .f32 = 32 ∨ (Rect.block (s := S128) S128.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S5000x128.size a ≤ S40000x128.size a
  hwx13_5 : ∀ i : grid13.Coords, EltTy.bits .f32 = 32 ∨ (Rect.block (s := S40000x128) S5000x128.size (cc13_transform_5 i) (hinb13_5 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S5000x2_S2x128_S5000x128_1_0_0_1_n_n : DotDims S5000x2 S2x128 S5000x128 where
  lhsContracting := [1]
  rhsContracting := [0]
  lhsNonContracting := [0]
  rhsNonContracting := [1]
  lhsBatch := []
  rhsBatch := []
  wf := dot_S5000x2_S2x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

abbrev win0_0 : Pipeline.Window sig grid0 :=
  Pipeline.Window.ofSpec (Memref.whole main_arg0) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S5000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v14) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v31) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v33) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v35) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v36_0) S5000x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v36_1) S5000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v36_1) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S5000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v53) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v54) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v60) S128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v62) S128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v23) S5000x128.size cc3_transform_10 reads3_10 false false 2 stage3_10 sem3_10
    hrank3 hreads3_10 hinb3_10 nbuf3_10 (Memref.isWhole_whole _) hwx3_10 hstage3_10

abbrev win3_11 : Pipeline.Window sig grid3 :=
  Pipeline.Window.ofSpec (Memref.whole main_v26) S128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v27) S128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v64) S128.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v66) S128.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_v68) S128x128.size cc3_transform_15 reads3_15 false true 1 stage3_15 sem3_15
    hrank3 hreads3_15 hinb3_15 nbuf3_15 (Memref.isWhole_whole _) hwx3_15 hstage3_15

abbrev win3_16 : Pipeline.Window sig grid3 :=
  Pipeline.Window.ofSpec (Memref.whole main_v70) S128.size cc3_transform_16 reads3_16 false true 1 stage3_16 sem3_16
    hrank3 hreads3_16 hinb3_16 nbuf3_16 (Memref.isWhole_whole _) hwx3_16 hstage3_16

abbrev win3_17 : Pipeline.Window sig grid3 :=
  Pipeline.Window.ofSpec (Memref.whole main_v71) S5000x128.size cc3_transform_17 reads3_17 true false 2 stage3_17 sem3_17
    hrank3 hreads3_17 hinb3_17 nbuf3_17 (Memref.isWhole_whole _) hwx3_17 hstage3_17

abbrev win3 : Fin 18 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | 17 => win3_17 | ⟨_ + 18, h⟩ => absurd h (Nat.not_lt.2 (Nat.le_add_left _ _))
abbrev spec3 : Fin 18 → Pipeline.WinSpec sig grid3.rank := fun w => (win3 w).toWinSpec

abbrev win4_0 : Pipeline.Window sig grid4 :=
  Pipeline.Window.ofSpec (Memref.whole main_v71) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v79) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v81) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v83) S128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v84) S5000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v12) S5000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v13) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v94) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v96) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v97) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v84) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v87) S128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v90) S128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v92) S128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v103) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v105) S128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v107) S128x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v109) S128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v110_0) S5000x128.size cc6_transform_9 reads6_9 true false 2 stage6_9 sem6_9
    hrank6 hreads6_9 hinb6_9 nbuf6_9 (Memref.isWhole_whole _) hwx6_9 hstage6_9

abbrev win6_10 : Pipeline.Window sig grid6 :=
  Pipeline.Window.ofSpec (Memref.whole main_v110_1) S5000x128.size cc6_transform_10 reads6_10 true false 2 stage6_10 sem6_10
    hrank6 hreads6_10 hinb6_10 nbuf6_10 (Memref.isWhole_whole _) hwx6_10 hstage6_10

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

abbrev win7_0 : Pipeline.Window sig grid7 :=
  Pipeline.Window.ofSpec (Memref.whole main_v110_1) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v113) S128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v114) S128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v130) S128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v132) S128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v124) S5000x128.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v127) S128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v128) S128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v134) S128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v136) S128.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v97) S5000x128.size cc7_transform_10 reads7_10 false false 2 stage7_10 sem7_10
    hrank7 hreads7_10 hinb7_10 nbuf7_10 (Memref.isWhole_whole _) hwx7_10 hstage7_10

abbrev win7_11 : Pipeline.Window sig grid7 :=
  Pipeline.Window.ofSpec (Memref.whole main_v100) S128.size cc7_transform_11 reads7_11 false true 1 stage7_11 sem7_11
    hrank7 hreads7_11 hinb7_11 nbuf7_11 (Memref.isWhole_whole _) hwx7_11 hstage7_11

abbrev win7_12 : Pipeline.Window sig grid7 :=
  Pipeline.Window.ofSpec (Memref.whole main_v101) S128.size cc7_transform_12 reads7_12 false true 1 stage7_12 sem7_12
    hrank7 hreads7_12 hinb7_12 nbuf7_12 (Memref.isWhole_whole _) hwx7_12 hstage7_12

abbrev win7_13 : Pipeline.Window sig grid7 :=
  Pipeline.Window.ofSpec (Memref.whole main_v138) S128.size cc7_transform_13 reads7_13 false true 1 stage7_13 sem7_13
    hrank7 hreads7_13 hinb7_13 nbuf7_13 (Memref.isWhole_whole _) hwx7_13 hstage7_13

abbrev win7_14 : Pipeline.Window sig grid7 :=
  Pipeline.Window.ofSpec (Memref.whole main_v140) S128.size cc7_transform_14 reads7_14 false true 1 stage7_14 sem7_14
    hrank7 hreads7_14 hinb7_14 nbuf7_14 (Memref.isWhole_whole _) hwx7_14 hstage7_14

abbrev win7_15 : Pipeline.Window sig grid7 :=
  Pipeline.Window.ofSpec (Memref.whole main_v142) S128x128.size cc7_transform_15 reads7_15 false true 1 stage7_15 sem7_15
    hrank7 hreads7_15 hinb7_15 nbuf7_15 (Memref.isWhole_whole _) hwx7_15 hstage7_15

abbrev win7_16 : Pipeline.Window sig grid7 :=
  Pipeline.Window.ofSpec (Memref.whole main_v144) S128.size cc7_transform_16 reads7_16 false true 1 stage7_16 sem7_16
    hrank7 hreads7_16 hinb7_16 nbuf7_16 (Memref.isWhole_whole _) hwx7_16 hstage7_16

abbrev win7_17 : Pipeline.Window sig grid7 :=
  Pipeline.Window.ofSpec (Memref.whole main_v145) S5000x128.size cc7_transform_17 reads7_17 true false 2 stage7_17 sem7_17
    hrank7 hreads7_17 hinb7_17 nbuf7_17 (Memref.isWhole_whole _) hwx7_17 hstage7_17

abbrev win7 : Fin 18 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | 12 => win7_12 | 13 => win7_13 | 14 => win7_14 | 15 => win7_15 | 16 => win7_16 | 17 => win7_17 | ⟨_ + 18, h⟩ => absurd h (Nat.not_lt.2 (Nat.le_add_left _ _))
abbrev spec7 : Fin 18 → Pipeline.WinSpec sig grid7.rank := fun w => (win7 w).toWinSpec

abbrev win8_0 : Pipeline.Window sig grid8 :=
  Pipeline.Window.ofSpec (Memref.whole main_v145) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v148) S128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v149) S128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v151) S128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v153) S128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v155) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v157) S128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v158) S5000x128.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v12) S5000x1.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v13) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v168) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v170) S128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v171) S5000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v158) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v161) S128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v162) S128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v164) S128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v166) S128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v177) S128x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v179) S128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v181) S128x128.size cc10_transform_7 reads10_7 false true 1 stage10_7 sem10_7
    hrank10 hreads10_7 hinb10_7 nbuf10_7 (Memref.isWhole_whole _) hwx10_7 hstage10_7

abbrev win10_8 : Pipeline.Window sig grid10 :=
  Pipeline.Window.ofSpec (Memref.whole main_v183) S128.size cc10_transform_8 reads10_8 false true 1 stage10_8 sem10_8
    hrank10 hreads10_8 hinb10_8 nbuf10_8 (Memref.isWhole_whole _) hwx10_8 hstage10_8

abbrev win10_9 : Pipeline.Window sig grid10 :=
  Pipeline.Window.ofSpec (Memref.whole main_v184_0) S5000x128.size cc10_transform_9 reads10_9 true false 2 stage10_9 sem10_9
    hrank10 hreads10_9 hinb10_9 nbuf10_9 (Memref.isWhole_whole _) hwx10_9 hstage10_9

abbrev win10_10 : Pipeline.Window sig grid10 :=
  Pipeline.Window.ofSpec (Memref.whole main_v184_1) S5000x128.size cc10_transform_10 reads10_10 true false 2 stage10_10 sem10_10
    hrank10 hreads10_10 hinb10_10 nbuf10_10 (Memref.isWhole_whole _) hwx10_10 hstage10_10

abbrev win10 : Fin 11 → Pipeline.Window sig grid10 := fun | 0 => win10_0 | 1 => win10_1 | 2 => win10_2 | 3 => win10_3 | 4 => win10_4 | 5 => win10_5 | 6 => win10_6 | 7 => win10_7 | 8 => win10_8 | 9 => win10_9 | 10 => win10_10 | ⟨_ + 11, h⟩ => absurd h (Nat.not_lt.2 (Nat.le_add_left _ _))
abbrev spec10 : Fin 11 → Pipeline.WinSpec sig grid10.rank := fun w => (win10 w).toWinSpec

abbrev win11_0 : Pipeline.Window sig grid11 :=
  Pipeline.Window.ofSpec (Memref.whole main_v184_1) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v187) S128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v188) S128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v204) S128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v206) S128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v198) S5000x128.size cc11_transform_5 reads11_5 false false 2 stage11_5 sem11_5
    hrank11 hreads11_5 hinb11_5 nbuf11_5 (Memref.isWhole_whole _) hwx11_5 hstage11_5

abbrev win11_6 : Pipeline.Window sig grid11 :=
  Pipeline.Window.ofSpec (Memref.whole main_v201) S128.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v202) S128.size cc11_transform_7 reads11_7 false true 1 stage11_7 sem11_7
    hrank11 hreads11_7 hinb11_7 nbuf11_7 (Memref.isWhole_whole _) hwx11_7 hstage11_7

abbrev win11_8 : Pipeline.Window sig grid11 :=
  Pipeline.Window.ofSpec (Memref.whole main_v208) S128.size cc11_transform_8 reads11_8 false true 1 stage11_8 sem11_8
    hrank11 hreads11_8 hinb11_8 nbuf11_8 (Memref.isWhole_whole _) hwx11_8 hstage11_8

abbrev win11_9 : Pipeline.Window sig grid11 :=
  Pipeline.Window.ofSpec (Memref.whole main_v210) S128.size cc11_transform_9 reads11_9 false true 1 stage11_9 sem11_9
    hrank11 hreads11_9 hinb11_9 nbuf11_9 (Memref.isWhole_whole _) hwx11_9 hstage11_9

abbrev win11_10 : Pipeline.Window sig grid11 :=
  Pipeline.Window.ofSpec (Memref.whole main_v171) S5000x128.size cc11_transform_10 reads11_10 false false 2 stage11_10 sem11_10
    hrank11 hreads11_10 hinb11_10 nbuf11_10 (Memref.isWhole_whole _) hwx11_10 hstage11_10

abbrev win11_11 : Pipeline.Window sig grid11 :=
  Pipeline.Window.ofSpec (Memref.whole main_v174) S128.size cc11_transform_11 reads11_11 false true 1 stage11_11 sem11_11
    hrank11 hreads11_11 hinb11_11 nbuf11_11 (Memref.isWhole_whole _) hwx11_11 hstage11_11

abbrev win11_12 : Pipeline.Window sig grid11 :=
  Pipeline.Window.ofSpec (Memref.whole main_v175) S128.size cc11_transform_12 reads11_12 false true 1 stage11_12 sem11_12
    hrank11 hreads11_12 hinb11_12 nbuf11_12 (Memref.isWhole_whole _) hwx11_12 hstage11_12

abbrev win11_13 : Pipeline.Window sig grid11 :=
  Pipeline.Window.ofSpec (Memref.whole main_v212) S128.size cc11_transform_13 reads11_13 false true 1 stage11_13 sem11_13
    hrank11 hreads11_13 hinb11_13 nbuf11_13 (Memref.isWhole_whole _) hwx11_13 hstage11_13

abbrev win11_14 : Pipeline.Window sig grid11 :=
  Pipeline.Window.ofSpec (Memref.whole main_v214) S128.size cc11_transform_14 reads11_14 false true 1 stage11_14 sem11_14
    hrank11 hreads11_14 hinb11_14 nbuf11_14 (Memref.isWhole_whole _) hwx11_14 hstage11_14

abbrev win11_15 : Pipeline.Window sig grid11 :=
  Pipeline.Window.ofSpec (Memref.whole main_v216) S128x128.size cc11_transform_15 reads11_15 false true 1 stage11_15 sem11_15
    hrank11 hreads11_15 hinb11_15 nbuf11_15 (Memref.isWhole_whole _) hwx11_15 hstage11_15

abbrev win11_16 : Pipeline.Window sig grid11 :=
  Pipeline.Window.ofSpec (Memref.whole main_v218) S128.size cc11_transform_16 reads11_16 false true 1 stage11_16 sem11_16
    hrank11 hreads11_16 hinb11_16 nbuf11_16 (Memref.isWhole_whole _) hwx11_16 hstage11_16

abbrev win11_17 : Pipeline.Window sig grid11 :=
  Pipeline.Window.ofSpec (Memref.whole main_v219) S5000x128.size cc11_transform_17 reads11_17 true false 2 stage11_17 sem11_17
    hrank11 hreads11_17 hinb11_17 nbuf11_17 (Memref.isWhole_whole _) hwx11_17 hstage11_17

abbrev win11 : Fin 18 → Pipeline.Window sig grid11 := fun | 0 => win11_0 | 1 => win11_1 | 2 => win11_2 | 3 => win11_3 | 4 => win11_4 | 5 => win11_5 | 6 => win11_6 | 7 => win11_7 | 8 => win11_8 | 9 => win11_9 | 10 => win11_10 | 11 => win11_11 | 12 => win11_12 | 13 => win11_13 | 14 => win11_14 | 15 => win11_15 | 16 => win11_16 | 17 => win11_17 | ⟨_ + 18, h⟩ => absurd h (Nat.not_lt.2 (Nat.le_add_left _ _))
abbrev spec11 : Fin 18 → Pipeline.WinSpec sig grid11.rank := fun w => (win11 w).toWinSpec

abbrev win12_0 : Pipeline.Window sig grid12 :=
  Pipeline.Window.ofSpec (Memref.whole main_v219) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v222) S128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v223) S128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v225) S128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v227) S128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v229) S128x128.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v231) S128.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v232) S5000x128.size cc12_transform_7 reads12_7 true false 2 stage12_7 sem12_7
    hrank12 hreads12_7 hinb12_7 nbuf12_7 (Memref.isWhole_whole _) hwx12_7 hstage12_7

abbrev win12 : Fin 8 → Pipeline.Window sig grid12 := fun | 0 => win12_0 | 1 => win12_1 | 2 => win12_2 | 3 => win12_3 | 4 => win12_4 | 5 => win12_5 | 6 => win12_6 | 7 => win12_7 | ⟨_ + 8, h⟩ => absurd h (Nat.not_lt.2 (Nat.le_add_left _ _))
abbrev spec12 : Fin 8 → Pipeline.WinSpec sig grid12.rank := fun w => (win12 w).toWinSpec

abbrev win13_0 : Pipeline.Window sig grid13 :=
  Pipeline.Window.ofSpec (Memref.whole main_v232) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v235) S128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v236) S128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v238) S128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v240) S128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v241) S5000x128.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

class Facts : Prop extends Facts₀ where

variable [Facts]
-- ==== ReferenceIdeal.lean ====
abbrev S40000x2 : Shape := ⟨2, ![40000, 2]⟩
abbrev S2x640000 : Shape := ⟨2, ![2, 640000]⟩
abbrev S640000x1 : Shape := ⟨2, ![640000, 1]⟩
abbrev S2x128 : Shape := ⟨2, ![2, 128]⟩
abbrev S128 : Shape := ⟨1, ![128]⟩
abbrev S3x128x128 : Shape := ⟨3, ![3, 128, 128]⟩
abbrev S3x128 : Shape := ⟨2, ![3, 128]⟩
abbrev S3x1x128 : Shape := ⟨3, ![3, 1, 128]⟩
abbrev S1x640000 : Shape := ⟨2, ![1, 640000]⟩
abbrev S640000 : Shape := ⟨1, ![640000]⟩
abbrev S40000x128 : Shape := ⟨2, ![40000, 128]⟩
abbrev S1x128 : Shape := ⟨2, ![1, 128]⟩
abbrev S_ : Shape := ⟨0, ![]⟩
abbrev S1x1x128 : Shape := ⟨3, ![1, 1, 128]⟩
abbrev S640000x128 : Shape := ⟨2, ![640000, 128]⟩
abbrev S1x128x128 : Shape := ⟨3, ![1, 128, 128]⟩
abbrev S128x128 : Shape := ⟨2, ![128, 128]⟩

abbrev nBuf : Space → Nat
  | .hbm => 1006
  | .vmem => 0
  | .smem => 0
  | _ => 0

abbrev hbmTy0_0 (i : Nat) : BufTy := match i % 128 with
  | 0 => ⟨S40000x2, .f32⟩
  | 1 => ⟨S2x640000, .i32⟩
  | 2 => ⟨S640000x1, .f32⟩
  | 3 => ⟨S2x128, .f32⟩
  | 4 => ⟨S128, .f32⟩
  | 5 => ⟨S128, .f32⟩
  | 6 => ⟨S128, .f32⟩
  | 7 => ⟨S3x128x128, .f32⟩
  | 8 => ⟨S3x128, .f32⟩
  | 9 => ⟨S3x1x128, .f32⟩
  | 10 => ⟨S3x128, .f32⟩
  | 11 => ⟨S3x128x128, .f32⟩
  | 12 => ⟨S3x128, .f32⟩
  | 13 => ⟨S3x128, .f32⟩
  | 14 => ⟨S3x128, .f32⟩
  | 15 => ⟨S3x128, .f32⟩
  | 16 => ⟨S3x128, .f32⟩
  | 17 => ⟨S3x128, .f32⟩
  | 18 => ⟨S3x128, .f32⟩
  | 19 => ⟨S3x128x128, .f32⟩
  | 20 => ⟨S3x128, .f32⟩
  | 21 => ⟨S3x128, .f32⟩
  | 22 => ⟨S3x128, .f32⟩
  | 23 => ⟨S3x128x128, .f32⟩
  | 24 => ⟨S3x128, .f32⟩
  | 25 => ⟨S3x128, .f32⟩
  | 26 => ⟨S3x128, .f32⟩
  | 27 => ⟨S1x640000, .i32⟩
  | 28 => ⟨S640000, .i32⟩
  | 29 => ⟨S1x640000, .i32⟩
  | 30 => ⟨S640000, .i32⟩
  | 31 => ⟨S40000x128, .f32⟩
  | 32 => ⟨S1x128, .f32⟩
  | 33 => ⟨S40000x128, .f32⟩
  | 34 => ⟨S40000x128, .f32⟩
  | 35 => ⟨S_, .f32⟩
  | 36 => ⟨S128, .f32⟩
  | 37 => ⟨S_, .f32⟩
  | 38 => ⟨S128, .f32⟩
  | 39 => ⟨S128, .f32⟩
  | 40 => ⟨S_, .i32⟩
  | 41 => ⟨S_, .f32⟩
  | 42 => ⟨S128, .f32⟩
  | 43 => ⟨S1x128, .f32⟩
  | 44 => ⟨S_, .f32⟩
  | 45 => ⟨S1x128, .f32⟩
  | 46 => ⟨S1x128, .f32⟩
  | 47 => ⟨S40000x128, .f32⟩
  | 48 => ⟨S40000x128, .f32⟩
  | 49 => ⟨S40000x128, .f32⟩
  | 50 => ⟨S_, .f32⟩
  | 51 => ⟨S_, .f32⟩
  | 52 => ⟨S_, .f32⟩
  | 53 => ⟨S_, .f32⟩
  | 54 => ⟨S128, .f32⟩
  | 55 => ⟨S128, .f32⟩
  | 56 => ⟨S128, .f32⟩
  | 57 => ⟨S_, .f32⟩
  | 58 => ⟨S_, .i1⟩
  | 59 => ⟨S_, .f32⟩
  | 60 => ⟨S_, .f32⟩
  | 61 => ⟨S128, .f32⟩
  | 62 => ⟨S128, .f32⟩
  | 63 => ⟨S1x128, .f32⟩
  | 64 => ⟨S40000x128, .f32⟩
  | 65 => ⟨S40000x128, .f32⟩
  | 66 => ⟨S_, .f32⟩
  | 67 => ⟨S128, .f32⟩
  | 68 => ⟨S128, .f32⟩
  | 69 => ⟨S128, .f32⟩
  | 70 => ⟨S1x128, .f32⟩
  | 71 => ⟨S40000x128, .f32⟩
  | 72 => ⟨S40000x128, .f32⟩
  | 73 => ⟨S1x128, .f32⟩
  | 74 => ⟨S40000x128, .f32⟩
  | 75 => ⟨S40000x128, .f32⟩
  | 76 => ⟨S1x128, .f32⟩
  | 77 => ⟨S40000x128, .f32⟩
  | 78 => ⟨S40000x128, .f32⟩
  | 79 => ⟨S_, .f32⟩
  | 80 => ⟨S40000x128, .f32⟩
  | 81 => ⟨S40000x128, .f32⟩
  | 82 => ⟨S1x1x128, .f32⟩
  | 83 => ⟨S1x128, .f32⟩
  | 84 => ⟨S640000x128, .f32⟩
  | 85 => ⟨S1x128, .f32⟩
  | 86 => ⟨S128, .f32⟩
  | 87 => ⟨S1x128, .f32⟩
  | 88 => ⟨S640000x128, .f32⟩
  | 89 => ⟨S640000x128, .f32⟩
  | 90 => ⟨S_, .f32⟩
  | 91 => ⟨S40000x128, .f32⟩
  | 92 => ⟨S640000x1, .i32⟩
  | 93 => ⟨S40000x128, .f32⟩
  | 94 => ⟨S1x128, .f32⟩
  | 95 => ⟨S128, .f32⟩
  | 96 => ⟨S1x128, .f32⟩
  | 97 => ⟨S128, .f32⟩
  | 98 => ⟨S_, .f32⟩
  | 99 => ⟨S128, .f32⟩
  | 100 => ⟨S_, .f32⟩
  | 101 => ⟨S128, .f32⟩
  | 102 => ⟨S128, .f32⟩
  | 103 => ⟨S_, .i32⟩
  | 104 => ⟨S_, .f32⟩
  | 105 => ⟨S128, .f32⟩
  | 106 => ⟨S1x128, .f32⟩
  | 107 => ⟨S_, .f32⟩
  | 108 => ⟨S1x128, .f32⟩
  | 109 => ⟨S1x128, .f32⟩
  | 110 => ⟨S40000x128, .f32⟩
  | 111 => ⟨S40000x128, .f32⟩
  | 112 => ⟨S40000x128, .f32⟩
  | 113 => ⟨S_, .f32⟩
  | 114 => ⟨S_, .f32⟩
  | 115 => ⟨S_, .f32⟩
  | 116 => ⟨S_, .f32⟩
  | 117 => ⟨S128, .f32⟩
  | 118 => ⟨S128, .f32⟩
  | 119 => ⟨S128, .f32⟩
  | 120 => ⟨S_, .f32⟩
  | 121 => ⟨S_, .i1⟩
  | 122 => ⟨S_, .f32⟩
  | 123 => ⟨S_, .f32⟩
  | 124 => ⟨S128, .f32⟩
  | 125 => ⟨S128, .f32⟩
  | 126 => ⟨S1x128, .f32⟩
  | 127 => ⟨S40000x128, .f32⟩
  | _ => ⟨S40000x2, .f32⟩

abbrev hbmTy0_1 (i : Nat) : BufTy := match i % 128 with
  | 0 => ⟨S40000x128, .f32⟩
  | 1 => ⟨S_, .f32⟩
  | 2 => ⟨S128, .f32⟩
  | 3 => ⟨S128, .f32⟩
  | 4 => ⟨S128, .f32⟩
  | 5 => ⟨S1x128, .f32⟩
  | 6 => ⟨S40000x128, .f32⟩
  | 7 => ⟨S40000x128, .f32⟩
  | 8 => ⟨S1x128, .f32⟩
  | 9 => ⟨S40000x128, .f32⟩
  | 10 => ⟨S40000x128, .f32⟩
  | 11 => ⟨S1x128, .f32⟩
  | 12 => ⟨S40000x128, .f32⟩
  | 13 => ⟨S40000x128, .f32⟩
  | 14 => ⟨S1x128x128, .f32⟩
  | 15 => ⟨S128x128, .f32⟩
  | 16 => ⟨S40000x128, .f32⟩
  | 17 => ⟨S1x128, .f32⟩
  | 18 => ⟨S128, .f32⟩
  | 19 => ⟨S1x128, .f32⟩
  | 20 => ⟨S40000x128, .f32⟩
  | 21 => ⟨S40000x128, .f32⟩
  | 22 => ⟨S_, .i32⟩
  | 23 => ⟨S640000, .i32⟩
  | 24 => ⟨S640000, .i1⟩
  | 25 => ⟨S_, .i32⟩
  | 26 => ⟨S640000, .i32⟩
  | 27 => ⟨S640000, .i32⟩
  | 28 => ⟨S640000, .i32⟩
  | 29 => ⟨S640000x1, .i32⟩
  | 30 => ⟨S640000x128, .f32⟩
  | 31 => ⟨S_, .f32⟩
  | 32 => ⟨S40000x128, .f32⟩
  | 33 => ⟨S640000x1, .i32⟩
  | 34 => ⟨S40000x128, .f32⟩
  | 35 => ⟨S1x128x128, .f32⟩
  | 36 => ⟨S128x128, .f32⟩
  | 37 => ⟨S40000x128, .f32⟩
  | 38 => ⟨S1x128, .f32⟩
  | 39 => ⟨S128, .f32⟩
  | 40 => ⟨S1x128, .f32⟩
  | 41 => ⟨S40000x128, .f32⟩
  | 42 => ⟨S40000x128, .f32⟩
  | 43 => ⟨S1x128, .f32⟩
  | 44 => ⟨S128, .f32⟩
  | 45 => ⟨S1x128, .f32⟩
  | 46 => ⟨S128, .f32⟩
  | 47 => ⟨S_, .f32⟩
  | 48 => ⟨S128, .f32⟩
  | 49 => ⟨S_, .f32⟩
  | 50 => ⟨S128, .f32⟩
  | 51 => ⟨S128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S40000x128, .f32⟩
  | 60 => ⟨S40000x128, .f32⟩
  | 61 => ⟨S40000x128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S128, .f32⟩
  | 69 => ⟨S_, .f32⟩
  | 70 => ⟨S_, .i1⟩
  | 71 => ⟨S_, .f32⟩
  | 72 => ⟨S_, .f32⟩
  | 73 => ⟨S128, .f32⟩
  | 74 => ⟨S128, .f32⟩
  | 75 => ⟨S1x128, .f32⟩
  | 76 => ⟨S40000x128, .f32⟩
  | 77 => ⟨S40000x128, .f32⟩
  | 78 => ⟨S_, .f32⟩
  | 79 => ⟨S128, .f32⟩
  | 80 => ⟨S128, .f32⟩
  | 81 => ⟨S128, .f32⟩
  | 82 => ⟨S1x128, .f32⟩
  | 83 => ⟨S40000x128, .f32⟩
  | 84 => ⟨S40000x128, .f32⟩
  | 85 => ⟨S1x128, .f32⟩
  | 86 => ⟨S40000x128, .f32⟩
  | 87 => ⟨S40000x128, .f32⟩
  | 88 => ⟨S1x128, .f32⟩
  | 89 => ⟨S40000x128, .f32⟩
  | 90 => ⟨S40000x128, .f32⟩
  | 91 => ⟨S1x128, .f32⟩
  | 92 => ⟨S128, .f32⟩
  | 93 => ⟨S1x128, .f32⟩
  | 94 => ⟨S128, .f32⟩
  | 95 => ⟨S_, .f32⟩
  | 96 => ⟨S128, .f32⟩
  | 97 => ⟨S_, .f32⟩
  | 98 => ⟨S128, .f32⟩
  | 99 => ⟨S128, .f32⟩
  | 100 => ⟨S_, .i32⟩
  | 101 => ⟨S_, .f32⟩
  | 102 => ⟨S128, .f32⟩
  | 103 => ⟨S1x128, .f32⟩
  | 104 => ⟨S_, .f32⟩
  | 105 => ⟨S1x128, .f32⟩
  | 106 => ⟨S1x128, .f32⟩
  | 107 => ⟨S40000x128, .f32⟩
  | 108 => ⟨S40000x128, .f32⟩
  | 109 => ⟨S40000x128, .f32⟩
  | 110 => ⟨S_, .f32⟩
  | 111 => ⟨S_, .f32⟩
  | 112 => ⟨S_, .f32⟩
  | 113 => ⟨S_, .f32⟩
  | 114 => ⟨S128, .f32⟩
  | 115 => ⟨S128, .f32⟩
  | 116 => ⟨S128, .f32⟩
  | 117 => ⟨S_, .f32⟩
  | 118 => ⟨S_, .i1⟩
  | 119 => ⟨S_, .f32⟩
  | 120 => ⟨S_, .f32⟩
  | 121 => ⟨S128, .f32⟩
  | 122 => ⟨S128, .f32⟩
  | 123 => ⟨S1x128, .f32⟩
  | 124 => ⟨S40000x128, .f32⟩
  | 125 => ⟨S40000x128, .f32⟩
  | 126 => ⟨S_, .f32⟩
  | 127 => ⟨S128, .f32⟩
  | _ => ⟨S40000x2, .f32⟩

abbrev hbmTy0_2 (i : Nat) : BufTy := match i % 128 with
  | 0 => ⟨S128, .f32⟩
  | 1 => ⟨S128, .f32⟩
  | 2 => ⟨S1x128, .f32⟩
  | 3 => ⟨S40000x128, .f32⟩
  | 4 => ⟨S40000x128, .f32⟩
  | 5 => ⟨S1x128, .f32⟩
  | 6 => ⟨S40000x128, .f32⟩
  | 7 => ⟨S40000x128, .f32⟩
  | 8 => ⟨S1x128, .f32⟩
  | 9 => ⟨S40000x128, .f32⟩
  | 10 => ⟨S40000x128, .f32⟩
  | 11 => ⟨S40000x128, .f32⟩
  | 12 => ⟨S40000x128, .f32⟩
  | 13 => ⟨S_, .f32⟩
  | 14 => ⟨S40000x128, .f32⟩
  | 15 => ⟨S40000x128, .f32⟩
  | 16 => ⟨S1x128x128, .f32⟩
  | 17 => ⟨S128x128, .f32⟩
  | 18 => ⟨S40000x128, .f32⟩
  | 19 => ⟨S1x128, .f32⟩
  | 20 => ⟨S128, .f32⟩
  | 21 => ⟨S1x128, .f32⟩
  | 22 => ⟨S40000x128, .f32⟩
  | 23 => ⟨S40000x128, .f32⟩
  | 24 => ⟨S1x128, .f32⟩
  | 25 => ⟨S128, .f32⟩
  | 26 => ⟨S1x128, .f32⟩
  | 27 => ⟨S128, .f32⟩
  | 28 => ⟨S_, .f32⟩
  | 29 => ⟨S128, .f32⟩
  | 30 => ⟨S_, .f32⟩
  | 31 => ⟨S128, .f32⟩
  | 32 => ⟨S128, .f32⟩
  | 33 => ⟨S_, .i32⟩
  | 34 => ⟨S_, .f32⟩
  | 35 => ⟨S128, .f32⟩
  | 36 => ⟨S1x128, .f32⟩
  | 37 => ⟨S_, .f32⟩
  | 38 => ⟨S1x128, .f32⟩
  | 39 => ⟨S1x128, .f32⟩
  | 40 => ⟨S40000x128, .f32⟩
  | 41 => ⟨S40000x128, .f32⟩
  | 42 => ⟨S40000x128, .f32⟩
  | 43 => ⟨S_, .f32⟩
  | 44 => ⟨S_, .f32⟩
  | 45 => ⟨S_, .f32⟩
  | 46 => ⟨S_, .f32⟩
  | 47 => ⟨S128, .f32⟩
  | 48 => ⟨S128, .f32⟩
  | 49 => ⟨S128, .f32⟩
  | 50 => ⟨S_, .f32⟩
  | 51 => ⟨S_, .i1⟩
  | 52 => ⟨S_, .f32⟩
  | 53 => ⟨S_, .f32⟩
  | 54 => ⟨S128, .f32⟩
  | 55 => ⟨S128, .f32⟩
  | 56 => ⟨S1x128, .f32⟩
  | 57 => ⟨S40000x128, .f32⟩
  | 58 => ⟨S40000x128, .f32⟩
  | 59 => ⟨S_, .f32⟩
  | 60 => ⟨S128, .f32⟩
  | 61 => ⟨S128, .f32⟩
  | 62 => ⟨S128, .f32⟩
  | 63 => ⟨S1x128, .f32⟩
  | 64 => ⟨S40000x128, .f32⟩
  | 65 => ⟨S40000x128, .f32⟩
  | 66 => ⟨S1x128, .f32⟩
  | 67 => ⟨S40000x128, .f32⟩
  | 68 => ⟨S40000x128, .f32⟩
  | 69 => ⟨S1x128, .f32⟩
  | 70 => ⟨S40000x128, .f32⟩
  | 71 => ⟨S40000x128, .f32⟩
  | 72 => ⟨S_, .f32⟩
  | 73 => ⟨S40000x128, .f32⟩
  | 74 => ⟨S40000x128, .f32⟩
  | 75 => ⟨S1x128x128, .f32⟩
  | 76 => ⟨S128x128, .f32⟩
  | 77 => ⟨S40000x128, .f32⟩
  | 78 => ⟨S1x128, .f32⟩
  | 79 => ⟨S128, .f32⟩
  | 80 => ⟨S1x128, .f32⟩
  | 81 => ⟨S40000x128, .f32⟩
  | 82 => ⟨S40000x128, .f32⟩
  | 83 => ⟨S1x128, .f32⟩
  | 84 => ⟨S128, .f32⟩
  | 85 => ⟨S1x128, .f32⟩
  | 86 => ⟨S128, .f32⟩
  | 87 => ⟨S_, .f32⟩
  | 88 => ⟨S128, .f32⟩
  | 89 => ⟨S_, .f32⟩
  | 90 => ⟨S128, .f32⟩
  | 91 => ⟨S128, .f32⟩
  | 92 => ⟨S_, .i32⟩
  | 93 => ⟨S_, .f32⟩
  | 94 => ⟨S128, .f32⟩
  | 95 => ⟨S1x128, .f32⟩
  | 96 => ⟨S_, .f32⟩
  | 97 => ⟨S1x128, .f32⟩
  | 98 => ⟨S1x128, .f32⟩
  | 99 => ⟨S40000x128, .f32⟩
  | 100 => ⟨S40000x128, .f32⟩
  | 101 => ⟨S40000x128, .f32⟩
  | 102 => ⟨S_, .f32⟩
  | 103 => ⟨S_, .f32⟩
  | 104 => ⟨S_, .f32⟩
  | 105 => ⟨S_, .f32⟩
  | 106 => ⟨S128, .f32⟩
  | 107 => ⟨S128, .f32⟩
  | 108 => ⟨S128, .f32⟩
  | 109 => ⟨S_, .f32⟩
  | 110 => ⟨S_, .i1⟩
  | 111 => ⟨S_, .f32⟩
  | 112 => ⟨S_, .f32⟩
  | 113 => ⟨S128, .f32⟩
  | 114 => ⟨S128, .f32⟩
  | 115 => ⟨S1x128, .f32⟩
  | 116 => ⟨S40000x128, .f32⟩
  | 117 => ⟨S40000x128, .f32⟩
  | 118 => ⟨S_, .f32⟩
  | 119 => ⟨S128, .f32⟩
  | 120 => ⟨S128, .f32⟩
  | 121 => ⟨S128, .f32⟩
  | 122 => ⟨S1x128, .f32⟩
  | 123 => ⟨S40000x128, .f32⟩
  | 124 => ⟨S40000x128, .f32⟩
  | 125 => ⟨S1x128, .f32⟩
  | 126 => ⟨S40000x128, .f32⟩
  | 127 => ⟨S40000x128, .f32⟩
  | _ => ⟨S40000x2, .f32⟩

abbrev hbmTy0_3 (i : Nat) : BufTy := match i % 128 with
  | 0 => ⟨S1x128, .f32⟩
  | 1 => ⟨S40000x128, .f32⟩
  | 2 => ⟨S40000x128, .f32⟩
  | 3 => ⟨S_, .f32⟩
  | 4 => ⟨S40000x128, .f32⟩
  | 5 => ⟨S40000x128, .f32⟩
  | 6 => ⟨S1x1x128, .f32⟩
  | 7 => ⟨S1x128, .f32⟩
  | 8 => ⟨S640000x128, .f32⟩
  | 9 => ⟨S1x128, .f32⟩
  | 10 => ⟨S128, .f32⟩
  | 11 => ⟨S1x128, .f32⟩
  | 12 => ⟨S640000x128, .f32⟩
  | 13 => ⟨S640000x128, .f32⟩
  | 14 => ⟨S_, .f32⟩
  | 15 => ⟨S40000x128, .f32⟩
  | 16 => ⟨S640000x1, .i32⟩
  | 17 => ⟨S40000x128, .f32⟩
  | 18 => ⟨S1x128, .f32⟩
  | 19 => ⟨S128, .f32⟩
  | 20 => ⟨S1x128, .f32⟩
  | 21 => ⟨S128, .f32⟩
  | 22 => ⟨S_, .f32⟩
  | 23 => ⟨S128, .f32⟩
  | 24 => ⟨S_, .f32⟩
  | 25 => ⟨S128, .f32⟩
  | 26 => ⟨S128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S40000x128, .f32⟩
  | 35 => ⟨S40000x128, .f32⟩
  | 36 => ⟨S40000x128, .f32⟩
  | 37 => ⟨S_, .f32⟩
  | 38 => ⟨S_, .f32⟩
  | 39 => ⟨S_, .f32⟩
  | 40 => ⟨S_, .f32⟩
  | 41 => ⟨S128, .f32⟩
  | 42 => ⟨S128, .f32⟩
  | 43 => ⟨S128, .f32⟩
  | 44 => ⟨S_, .f32⟩
  | 45 => ⟨S_, .i1⟩
  | 46 => ⟨S_, .f32⟩
  | 47 => ⟨S_, .f32⟩
  | 48 => ⟨S128, .f32⟩
  | 49 => ⟨S128, .f32⟩
  | 50 => ⟨S1x128, .f32⟩
  | 51 => ⟨S40000x128, .f32⟩
  | 52 => ⟨S40000x128, .f32⟩
  | 53 => ⟨S_, .f32⟩
  | 54 => ⟨S128, .f32⟩
  | 55 => ⟨S128, .f32⟩
  | 56 => ⟨S128, .f32⟩
  | 57 => ⟨S1x128, .f32⟩
  | 58 => ⟨S40000x128, .f32⟩
  | 59 => ⟨S40000x128, .f32⟩
  | 60 => ⟨S1x128, .f32⟩
  | 61 => ⟨S40000x128, .f32⟩
  | 62 => ⟨S40000x128, .f32⟩
  | 63 => ⟨S1x128, .f32⟩
  | 64 => ⟨S40000x128, .f32⟩
  | 65 => ⟨S40000x128, .f32⟩
  | 66 => ⟨S1x128x128, .f32⟩
  | 67 => ⟨S128x128, .f32⟩
  | 68 => ⟨S40000x128, .f32⟩
  | 69 => ⟨S1x128, .f32⟩
  | 70 => ⟨S128, .f32⟩
  | 71 => ⟨S1x128, .f32⟩
  | 72 => ⟨S40000x128, .f32⟩
  | 73 => ⟨S40000x128, .f32⟩
  | 74 => ⟨S_, .i32⟩
  | 75 => ⟨S640000, .i32⟩
  | 76 => ⟨S640000, .i1⟩
  | 77 => ⟨S_, .i32⟩
  | 78 => ⟨S640000, .i32⟩
  | 79 => ⟨S640000, .i32⟩
  | 80 => ⟨S640000, .i32⟩
  | 81 => ⟨S640000x1, .i32⟩
  | 82 => ⟨S640000x128, .f32⟩
  | 83 => ⟨S_, .f32⟩
  | 84 => ⟨S40000x128, .f32⟩
  | 85 => ⟨S640000x1, .i32⟩
  | 86 => ⟨S40000x128, .f32⟩
  | 87 => ⟨S1x128x128, .f32⟩
  | 88 => ⟨S128x128, .f32⟩
  | 89 => ⟨S40000x128, .f32⟩
  | 90 => ⟨S1x128, .f32⟩
  | 91 => ⟨S128, .f32⟩
  | 92 => ⟨S1x128, .f32⟩
  | 93 => ⟨S40000x128, .f32⟩
  | 94 => ⟨S40000x128, .f32⟩
  | 95 => ⟨S1x128, .f32⟩
  | 96 => ⟨S128, .f32⟩
  | 97 => ⟨S1x128, .f32⟩
  | 98 => ⟨S128, .f32⟩
  | 99 => ⟨S_, .f32⟩
  | 100 => ⟨S128, .f32⟩
  | 101 => ⟨S_, .f32⟩
  | 102 => ⟨S128, .f32⟩
  | 103 => ⟨S128, .f32⟩
  | 104 => ⟨S_, .i32⟩
  | 105 => ⟨S_, .f32⟩
  | 106 => ⟨S128, .f32⟩
  | 107 => ⟨S1x128, .f32⟩
  | 108 => ⟨S_, .f32⟩
  | 109 => ⟨S1x128, .f32⟩
  | 110 => ⟨S1x128, .f32⟩
  | 111 => ⟨S40000x128, .f32⟩
  | 112 => ⟨S40000x128, .f32⟩
  | 113 => ⟨S40000x128, .f32⟩
  | 114 => ⟨S_, .f32⟩
  | 115 => ⟨S_, .f32⟩
  | 116 => ⟨S_, .f32⟩
  | 117 => ⟨S_, .f32⟩
  | 118 => ⟨S128, .f32⟩
  | 119 => ⟨S128, .f32⟩
  | 120 => ⟨S128, .f32⟩
  | 121 => ⟨S_, .f32⟩
  | 122 => ⟨S_, .i1⟩
  | 123 => ⟨S_, .f32⟩
  | 124 => ⟨S_, .f32⟩
  | 125 => ⟨S128, .f32⟩
  | 126 => ⟨S128, .f32⟩
  | 127 => ⟨S1x128, .f32⟩
  | _ => ⟨S40000x2, .f32⟩

abbrev hbmTy0_4 (i : Nat) : BufTy := match i % 128 with
  | 0 => ⟨S40000x128, .f32⟩
  | 1 => ⟨S40000x128, .f32⟩
  | 2 => ⟨S_, .f32⟩
  | 3 => ⟨S128, .f32⟩
  | 4 => ⟨S128, .f32⟩
  | 5 => ⟨S128, .f32⟩
  | 6 => ⟨S1x128, .f32⟩
  | 7 => ⟨S40000x128, .f32⟩
  | 8 => ⟨S40000x128, .f32⟩
  | 9 => ⟨S1x128, .f32⟩
  | 10 => ⟨S40000x128, .f32⟩
  | 11 => ⟨S40000x128, .f32⟩
  | 12 => ⟨S1x128, .f32⟩
  | 13 => ⟨S40000x128, .f32⟩
  | 14 => ⟨S40000x128, .f32⟩
  | 15 => ⟨S1x128, .f32⟩
  | 16 => ⟨S128, .f32⟩
  | 17 => ⟨S1x128, .f32⟩
  | 18 => ⟨S128, .f32⟩
  | 19 => ⟨S_, .f32⟩
  | 20 => ⟨S128, .f32⟩
  | 21 => ⟨S_, .f32⟩
  | 22 => ⟨S128, .f32⟩
  | 23 => ⟨S128, .f32⟩
  | 24 => ⟨S_, .i32⟩
  | 25 => ⟨S_, .f32⟩
  | 26 => ⟨S128, .f32⟩
  | 27 => ⟨S1x128, .f32⟩
  | 28 => ⟨S_, .f32⟩
  | 29 => ⟨S1x128, .f32⟩
  | 30 => ⟨S1x128, .f32⟩
  | 31 => ⟨S40000x128, .f32⟩
  | 32 => ⟨S40000x128, .f32⟩
  | 33 => ⟨S40000x128, .f32⟩
  | 34 => ⟨S_, .f32⟩
  | 35 => ⟨S_, .f32⟩
  | 36 => ⟨S_, .f32⟩
  | 37 => ⟨S_, .f32⟩
  | 38 => ⟨S128, .f32⟩
  | 39 => ⟨S128, .f32⟩
  | 40 => ⟨S128, .f32⟩
  | 41 => ⟨S_, .f32⟩
  | 42 => ⟨S_, .i1⟩
  | 43 => ⟨S_, .f32⟩
  | 44 => ⟨S_, .f32⟩
  | 45 => ⟨S128, .f32⟩
  | 46 => ⟨S128, .f32⟩
  | 47 => ⟨S1x128, .f32⟩
  | 48 => ⟨S40000x128, .f32⟩
  | 49 => ⟨S40000x128, .f32⟩
  | 50 => ⟨S_, .f32⟩
  | 51 => ⟨S128, .f32⟩
  | 52 => ⟨S128, .f32⟩
  | 53 => ⟨S128, .f32⟩
  | 54 => ⟨S1x128, .f32⟩
  | 55 => ⟨S40000x128, .f32⟩
  | 56 => ⟨S40000x128, .f32⟩
  | 57 => ⟨S1x128, .f32⟩
  | 58 => ⟨S40000x128, .f32⟩
  | 59 => ⟨S40000x128, .f32⟩
  | 60 => ⟨S1x128, .f32⟩
  | 61 => ⟨S40000x128, .f32⟩
  | 62 => ⟨S40000x128, .f32⟩
  | 63 => ⟨S40000x128, .f32⟩
  | 64 => ⟨S40000x128, .f32⟩
  | 65 => ⟨S_, .f32⟩
  | 66 => ⟨S40000x128, .f32⟩
  | 67 => ⟨S40000x128, .f32⟩
  | 68 => ⟨S1x128x128, .f32⟩
  | 69 => ⟨S128x128, .f32⟩
  | 70 => ⟨S40000x128, .f32⟩
  | 71 => ⟨S1x128, .f32⟩
  | 72 => ⟨S128, .f32⟩
  | 73 => ⟨S1x128, .f32⟩
  | 74 => ⟨S40000x128, .f32⟩
  | 75 => ⟨S40000x128, .f32⟩
  | 76 => ⟨S1x128, .f32⟩
  | 77 => ⟨S128, .f32⟩
  | 78 => ⟨S1x128, .f32⟩
  | 79 => ⟨S128, .f32⟩
  | 80 => ⟨S_, .f32⟩
  | 81 => ⟨S128, .f32⟩
  | 82 => ⟨S_, .f32⟩
  | 83 => ⟨S128, .f32⟩
  | 84 => ⟨S128, .f32⟩
  | 85 => ⟨S_, .i32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S40000x128, .f32⟩
  | 93 => ⟨S40000x128, .f32⟩
  | 94 => ⟨S40000x128, .f32⟩
  | 95 => ⟨S_, .f32⟩
  | 96 => ⟨S_, .f32⟩
  | 97 => ⟨S_, .f32⟩
  | 98 => ⟨S_, .f32⟩
  | 99 => ⟨S128, .f32⟩
  | 100 => ⟨S128, .f32⟩
  | 101 => ⟨S128, .f32⟩
  | 102 => ⟨S_, .f32⟩
  | 103 => ⟨S_, .i1⟩
  | 104 => ⟨S_, .f32⟩
  | 105 => ⟨S_, .f32⟩
  | 106 => ⟨S128, .f32⟩
  | 107 => ⟨S128, .f32⟩
  | 108 => ⟨S1x128, .f32⟩
  | 109 => ⟨S40000x128, .f32⟩
  | 110 => ⟨S40000x128, .f32⟩
  | 111 => ⟨S_, .f32⟩
  | 112 => ⟨S128, .f32⟩
  | 113 => ⟨S128, .f32⟩
  | 114 => ⟨S128, .f32⟩
  | 115 => ⟨S1x128, .f32⟩
  | 116 => ⟨S40000x128, .f32⟩
  | 117 => ⟨S40000x128, .f32⟩
  | 118 => ⟨S1x128, .f32⟩
  | 119 => ⟨S40000x128, .f32⟩
  | 120 => ⟨S40000x128, .f32⟩
  | 121 => ⟨S1x128, .f32⟩
  | 122 => ⟨S40000x128, .f32⟩
  | 123 => ⟨S40000x128, .f32⟩
  | 124 => ⟨S_, .f32⟩
  | 125 => ⟨S40000x128, .f32⟩
  | 126 => ⟨S40000x128, .f32⟩
  | 127 => ⟨S1x128x128, .f32⟩
  | _ => ⟨S40000x2, .f32⟩

abbrev hbmTy0_5 (i : Nat) : BufTy := match i % 128 with
  | 0 => ⟨S128x128, .f32⟩
  | 1 => ⟨S40000x128, .f32⟩
  | 2 => ⟨S1x128, .f32⟩
  | 3 => ⟨S128, .f32⟩
  | 4 => ⟨S1x128, .f32⟩
  | 5 => ⟨S40000x128, .f32⟩
  | 6 => ⟨S40000x128, .f32⟩
  | 7 => ⟨S1x128, .f32⟩
  | 8 => ⟨S128, .f32⟩
  | 9 => ⟨S1x128, .f32⟩
  | 10 => ⟨S128, .f32⟩
  | 11 => ⟨S_, .f32⟩
  | 12 => ⟨S128, .f32⟩
  | 13 => ⟨S_, .f32⟩
  | 14 => ⟨S128, .f32⟩
  | 15 => ⟨S128, .f32⟩
  | 16 => ⟨S_, .i32⟩
  | 17 => ⟨S_, .f32⟩
  | 18 => ⟨S128, .f32⟩
  | 19 => ⟨S1x128, .f32⟩
  | 20 => ⟨S_, .f32⟩
  | 21 => ⟨S1x128, .f32⟩
  | 22 => ⟨S1x128, .f32⟩
  | 23 => ⟨S40000x128, .f32⟩
  | 24 => ⟨S40000x128, .f32⟩
  | 25 => ⟨S40000x128, .f32⟩
  | 26 => ⟨S_, .f32⟩
  | 27 => ⟨S_, .f32⟩
  | 28 => ⟨S_, .f32⟩
  | 29 => ⟨S_, .f32⟩
  | 30 => ⟨S128, .f32⟩
  | 31 => ⟨S128, .f32⟩
  | 32 => ⟨S128, .f32⟩
  | 33 => ⟨S_, .f32⟩
  | 34 => ⟨S_, .i1⟩
  | 35 => ⟨S_, .f32⟩
  | 36 => ⟨S_, .f32⟩
  | 37 => ⟨S128, .f32⟩
  | 38 => ⟨S128, .f32⟩
  | 39 => ⟨S1x128, .f32⟩
  | 40 => ⟨S40000x128, .f32⟩
  | 41 => ⟨S40000x128, .f32⟩
  | 42 => ⟨S_, .f32⟩
  | 43 => ⟨S128, .f32⟩
  | 44 => ⟨S128, .f32⟩
  | 45 => ⟨S128, .f32⟩
  | 46 => ⟨S1x128, .f32⟩
  | 47 => ⟨S40000x128, .f32⟩
  | 48 => ⟨S40000x128, .f32⟩
  | 49 => ⟨S1x128, .f32⟩
  | 50 => ⟨S40000x128, .f32⟩
  | 51 => ⟨S40000x128, .f32⟩
  | 52 => ⟨S1x128, .f32⟩
  | 53 => ⟨S40000x128, .f32⟩
  | 54 => ⟨S40000x128, .f32⟩
  | 55 => ⟨S_, .f32⟩
  | 56 => ⟨S40000x128, .f32⟩
  | 57 => ⟨S40000x128, .f32⟩
  | 58 => ⟨S1x1x128, .f32⟩
  | 59 => ⟨S1x128, .f32⟩
  | 60 => ⟨S640000x128, .f32⟩
  | 61 => ⟨S1x128, .f32⟩
  | 62 => ⟨S128, .f32⟩
  | 63 => ⟨S1x128, .f32⟩
  | 64 => ⟨S640000x128, .f32⟩
  | 65 => ⟨S640000x128, .f32⟩
  | 66 => ⟨S_, .f32⟩
  | 67 => ⟨S40000x128, .f32⟩
  | 68 => ⟨S640000x1, .i32⟩
  | 69 => ⟨S40000x128, .f32⟩
  | 70 => ⟨S1x128, .f32⟩
  | 71 => ⟨S128, .f32⟩
  | 72 => ⟨S1x128, .f32⟩
  | 73 => ⟨S128, .f32⟩
  | 74 => ⟨S_, .f32⟩
  | 75 => ⟨S128, .f32⟩
  | 76 => ⟨S_, .f32⟩
  | 77 => ⟨S128, .f32⟩
  | 78 => ⟨S128, .f32⟩
  | 79 => ⟨S_, .i32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S40000x128, .f32⟩
  | 87 => ⟨S40000x128, .f32⟩
  | 88 => ⟨S40000x128, .f32⟩
  | 89 => ⟨S_, .f32⟩
  | 90 => ⟨S_, .f32⟩
  | 91 => ⟨S_, .f32⟩
  | 92 => ⟨S_, .f32⟩
  | 93 => ⟨S128, .f32⟩
  | 94 => ⟨S128, .f32⟩
  | 95 => ⟨S128, .f32⟩
  | 96 => ⟨S_, .f32⟩
  | 97 => ⟨S_, .i1⟩
  | 98 => ⟨S_, .f32⟩
  | 99 => ⟨S_, .f32⟩
  | 100 => ⟨S128, .f32⟩
  | 101 => ⟨S128, .f32⟩
  | 102 => ⟨S1x128, .f32⟩
  | 103 => ⟨S40000x128, .f32⟩
  | 104 => ⟨S40000x128, .f32⟩
  | 105 => ⟨S_, .f32⟩
  | 106 => ⟨S128, .f32⟩
  | 107 => ⟨S128, .f32⟩
  | 108 => ⟨S128, .f32⟩
  | 109 => ⟨S1x128, .f32⟩
  | 110 => ⟨S40000x128, .f32⟩
  | 111 => ⟨S40000x128, .f32⟩
  | 112 => ⟨S1x128, .f32⟩
  | 113 => ⟨S40000x128, .f32⟩
  | 114 => ⟨S40000x128, .f32⟩
  | 115 => ⟨S1x128, .f32⟩
  | 116 => ⟨S40000x128, .f32⟩
  | 117 => ⟨S40000x128, .f32⟩
  | 118 => ⟨S1x128x128, .f32⟩
  | 119 => ⟨S128x128, .f32⟩
  | 120 => ⟨S40000x128, .f32⟩
  | 121 => ⟨S1x128, .f32⟩
  | 122 => ⟨S128, .f32⟩
  | 123 => ⟨S1x128, .f32⟩
  | 124 => ⟨S40000x128, .f32⟩
  | 125 => ⟨S40000x128, .f32⟩
  | 126 => ⟨S_, .i32⟩
  | 127 => ⟨S640000, .i32⟩
  | _ => ⟨S40000x2, .f32⟩

abbrev hbmTy0_6 (i : Nat) : BufTy := match i % 128 with
  | 0 => ⟨S640000, .i1⟩
  | 1 => ⟨S_, .i32⟩
  | 2 => ⟨S640000, .i32⟩
  | 3 => ⟨S640000, .i32⟩
  | 4 => ⟨S640000, .i32⟩
  | 5 => ⟨S640000x1, .i32⟩
  | 6 => ⟨S640000x128, .f32⟩
  | 7 => ⟨S_, .f32⟩
  | 8 => ⟨S40000x128, .f32⟩
  | 9 => ⟨S640000x1, .i32⟩
  | 10 => ⟨S40000x128, .f32⟩
  | 11 => ⟨S1x128x128, .f32⟩
  | 12 => ⟨S128x128, .f32⟩
  | 13 => ⟨S40000x128, .f32⟩
  | 14 => ⟨S1x128, .f32⟩
  | 15 => ⟨S128, .f32⟩
  | 16 => ⟨S1x128, .f32⟩
  | 17 => ⟨S40000x128, .f32⟩
  | 18 => ⟨S40000x128, .f32⟩
  | 19 => ⟨S1x128, .f32⟩
  | 20 => ⟨S128, .f32⟩
  | 21 => ⟨S1x128, .f32⟩
  | 22 => ⟨S128, .f32⟩
  | 23 => ⟨S_, .f32⟩
  | 24 => ⟨S128, .f32⟩
  | 25 => ⟨S_, .f32⟩
  | 26 => ⟨S128, .f32⟩
  | 27 => ⟨S128, .f32⟩
  | 28 => ⟨S_, .i32⟩
  | 29 => ⟨S_, .f32⟩
  | 30 => ⟨S128, .f32⟩
  | 31 => ⟨S1x128, .f32⟩
  | 32 => ⟨S_, .f32⟩
  | 33 => ⟨S1x128, .f32⟩
  | 34 => ⟨S1x128, .f32⟩
  | 35 => ⟨S40000x128, .f32⟩
  | 36 => ⟨S40000x128, .f32⟩
  | 37 => ⟨S40000x128, .f32⟩
  | 38 => ⟨S_, .f32⟩
  | 39 => ⟨S_, .f32⟩
  | 40 => ⟨S_, .f32⟩
  | 41 => ⟨S_, .f32⟩
  | 42 => ⟨S128, .f32⟩
  | 43 => ⟨S128, .f32⟩
  | 44 => ⟨S128, .f32⟩
  | 45 => ⟨S_, .f32⟩
  | 46 => ⟨S_, .i1⟩
  | 47 => ⟨S_, .f32⟩
  | 48 => ⟨S_, .f32⟩
  | 49 => ⟨S128, .f32⟩
  | 50 => ⟨S128, .f32⟩
  | 51 => ⟨S1x128, .f32⟩
  | 52 => ⟨S40000x128, .f32⟩
  | 53 => ⟨S40000x128, .f32⟩
  | 54 => ⟨S_, .f32⟩
  | 55 => ⟨S128, .f32⟩
  | 56 => ⟨S128, .f32⟩
  | 57 => ⟨S128, .f32⟩
  | 58 => ⟨S1x128, .f32⟩
  | 59 => ⟨S40000x128, .f32⟩
  | 60 => ⟨S40000x128, .f32⟩
  | 61 => ⟨S1x128, .f32⟩
  | 62 => ⟨S40000x128, .f32⟩
  | 63 => ⟨S40000x128, .f32⟩
  | 64 => ⟨S1x128, .f32⟩
  | 65 => ⟨S40000x128, .f32⟩
  | 66 => ⟨S40000x128, .f32⟩
  | 67 => ⟨S1x128, .f32⟩
  | 68 => ⟨S128, .f32⟩
  | 69 => ⟨S1x128, .f32⟩
  | 70 => ⟨S128, .f32⟩
  | 71 => ⟨S_, .f32⟩
  | 72 => ⟨S128, .f32⟩
  | 73 => ⟨S_, .f32⟩
  | 74 => ⟨S128, .f32⟩
  | 75 => ⟨S128, .f32⟩
  | 76 => ⟨S_, .i32⟩
  | 77 => ⟨S_, .f32⟩
  | 78 => ⟨S128, .f32⟩
  | 79 => ⟨S1x128, .f32⟩
  | 80 => ⟨S_, .f32⟩
  | 81 => ⟨S1x128, .f32⟩
  | 82 => ⟨S1x128, .f32⟩
  | 83 => ⟨S40000x128, .f32⟩
  | 84 => ⟨S40000x128, .f32⟩
  | 85 => ⟨S40000x128, .f32⟩
  | 86 => ⟨S_, .f32⟩
  | 87 => ⟨S_, .f32⟩
  | 88 => ⟨S_, .f32⟩
  | 89 => ⟨S_, .f32⟩
  | 90 => ⟨S128, .f32⟩
  | 91 => ⟨S128, .f32⟩
  | 92 => ⟨S128, .f32⟩
  | 93 => ⟨S_, .f32⟩
  | 94 => ⟨S_, .i1⟩
  | 95 => ⟨S_, .f32⟩
  | 96 => ⟨S_, .f32⟩
  | 97 => ⟨S128, .f32⟩
  | 98 => ⟨S128, .f32⟩
  | 99 => ⟨S1x128, .f32⟩
  | 100 => ⟨S40000x128, .f32⟩
  | 101 => ⟨S40000x128, .f32⟩
  | 102 => ⟨S_, .f32⟩
  | 103 => ⟨S128, .f32⟩
  | 104 => ⟨S128, .f32⟩
  | 105 => ⟨S128, .f32⟩
  | 106 => ⟨S1x128, .f32⟩
  | 107 => ⟨S40000x128, .f32⟩
  | 108 => ⟨S40000x128, .f32⟩
  | 109 => ⟨S1x128, .f32⟩
  | 110 => ⟨S40000x128, .f32⟩
  | 111 => ⟨S40000x128, .f32⟩
  | 112 => ⟨S1x128, .f32⟩
  | 113 => ⟨S40000x128, .f32⟩
  | 114 => ⟨S40000x128, .f32⟩
  | 115 => ⟨S40000x128, .f32⟩
  | 116 => ⟨S40000x128, .f32⟩
  | 117 => ⟨S_, .f32⟩
  | 118 => ⟨S40000x128, .f32⟩
  | 119 => ⟨S40000x128, .f32⟩
  | 120 => ⟨S1x128x128, .f32⟩
  | 121 => ⟨S128x128, .f32⟩
  | 122 => ⟨S40000x128, .f32⟩
  | 123 => ⟨S1x128, .f32⟩
  | 124 => ⟨S128, .f32⟩
  | 125 => ⟨S1x128, .f32⟩
  | 126 => ⟨S40000x128, .f32⟩
  | 127 => ⟨S40000x128, .f32⟩
  | _ => ⟨S40000x2, .f32⟩

abbrev hbmTy0_7 (i : Nat) : BufTy := match i % 128 with
  | 0 => ⟨S1x128, .f32⟩
  | 1 => ⟨S128, .f32⟩
  | 2 => ⟨S1x128, .f32⟩
  | 3 => ⟨S128, .f32⟩
  | 4 => ⟨S_, .f32⟩
  | 5 => ⟨S128, .f32⟩
  | 6 => ⟨S_, .f32⟩
  | 7 => ⟨S128, .f32⟩
  | 8 => ⟨S128, .f32⟩
  | 9 => ⟨S_, .i32⟩
  | 10 => ⟨S_, .f32⟩
  | 11 => ⟨S128, .f32⟩
  | 12 => ⟨S1x128, .f32⟩
  | 13 => ⟨S_, .f32⟩
  | 14 => ⟨S1x128, .f32⟩
  | 15 => ⟨S1x128, .f32⟩
  | 16 => ⟨S40000x128, .f32⟩
  | 17 => ⟨S40000x128, .f32⟩
  | 18 => ⟨S40000x128, .f32⟩
  | 19 => ⟨S_, .f32⟩
  | 20 => ⟨S_, .f32⟩
  | 21 => ⟨S_, .f32⟩
  | 22 => ⟨S_, .f32⟩
  | 23 => ⟨S128, .f32⟩
  | 24 => ⟨S128, .f32⟩
  | 25 => ⟨S128, .f32⟩
  | 26 => ⟨S_, .f32⟩
  | 27 => ⟨S_, .i1⟩
  | 28 => ⟨S_, .f32⟩
  | 29 => ⟨S_, .f32⟩
  | 30 => ⟨S128, .f32⟩
  | 31 => ⟨S128, .f32⟩
  | 32 => ⟨S1x128, .f32⟩
  | 33 => ⟨S40000x128, .f32⟩
  | 34 => ⟨S40000x128, .f32⟩
  | 35 => ⟨S_, .f32⟩
  | 36 => ⟨S128, .f32⟩
  | 37 => ⟨S128, .f32⟩
  | 38 => ⟨S128, .f32⟩
  | 39 => ⟨S1x128, .f32⟩
  | 40 => ⟨S40000x128, .f32⟩
  | 41 => ⟨S40000x128, .f32⟩
  | 42 => ⟨S1x128, .f32⟩
  | 43 => ⟨S40000x128, .f32⟩
  | 44 => ⟨S40000x128, .f32⟩
  | 45 => ⟨S1x128, .f32⟩
  | 46 => ⟨S40000x128, .f32⟩
  | 47 => ⟨S40000x128, .f32⟩
  | 48 => ⟨S_, .f32⟩
  | 49 => ⟨S40000x128, .f32⟩
  | 50 => ⟨S40000x128, .f32⟩
  | 51 => ⟨S1x128x128, .f32⟩
  | 52 => ⟨S128x128, .f32⟩
  | 53 => ⟨S40000x128, .f32⟩
  | 54 => ⟨S1x128, .f32⟩
  | 55 => ⟨S128, .f32⟩
  | 56 => ⟨S1x128, .f32⟩
  | 57 => ⟨S40000x128, .f32⟩
  | 58 => ⟨S40000x128, .f32⟩
  | 59 => ⟨S1x128, .f32⟩
  | 60 => ⟨S128, .f32⟩
  | 61 => ⟨S1x128, .f32⟩
  | 62 => ⟨S128, .f32⟩
  | 63 => ⟨S_, .f32⟩
  | 64 => ⟨S128, .f32⟩
  | 65 => ⟨S_, .f32⟩
  | 66 => ⟨S128, .f32⟩
  | 67 => ⟨S128, .f32⟩
  | 68 => ⟨S_, .i32⟩
  | 69 => ⟨S_, .f32⟩
  | 70 => ⟨S128, .f32⟩
  | 71 => ⟨S1x128, .f32⟩
  | 72 => ⟨S_, .f32⟩
  | 73 => ⟨S1x128, .f32⟩
  | 74 => ⟨S1x128, .f32⟩
  | 75 => ⟨S40000x128, .f32⟩
  | 76 => ⟨S40000x128, .f32⟩
  | 77 => ⟨S40000x128, .f32⟩
  | 78 => ⟨S_, .f32⟩
  | 79 => ⟨S_, .f32⟩
  | 80 => ⟨S_, .f32⟩
  | 81 => ⟨S_, .f32⟩
  | 82 => ⟨S128, .f32⟩
  | 83 => ⟨S128, .f32⟩
  | 84 => ⟨S128, .f32⟩
  | 85 => ⟨S_, .f32⟩
  | 86 => ⟨S_, .i1⟩
  | 87 => ⟨S_, .f32⟩
  | 88 => ⟨S_, .f32⟩
  | 89 => ⟨S128, .f32⟩
  | 90 => ⟨S128, .f32⟩
  | 91 => ⟨S1x128, .f32⟩
  | 92 => ⟨S40000x128, .f32⟩
  | 93 => ⟨S40000x128, .f32⟩
  | 94 => ⟨S_, .f32⟩
  | 95 => ⟨S128, .f32⟩
  | 96 => ⟨S128, .f32⟩
  | 97 => ⟨S128, .f32⟩
  | 98 => ⟨S1x128, .f32⟩
  | 99 => ⟨S40000x128, .f32⟩
  | 100 => ⟨S40000x128, .f32⟩
  | 101 => ⟨S1x128, .f32⟩
  | 102 => ⟨S40000x128, .f32⟩
  | 103 => ⟨S40000x128, .f32⟩
  | 104 => ⟨S1x128, .f32⟩
  | 105 => ⟨S40000x128, .f32⟩
  | 106 => ⟨S40000x128, .f32⟩
  | 107 => ⟨S_, .f32⟩
  | 108 => ⟨S40000x128, .f32⟩
  | 109 => ⟨S40000x128, .f32⟩
  | _ => ⟨S40000x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S40000x2, .f32⟩

abbrev bufTy : (tb : Table) → Fin (tcTables nBuf tb) → BufTy
  | .hbm, ⟨i, _⟩ => hbmTy i
  | _, _ => ⟨S40000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst : Ref sig .tc := ⟨.hbm, 35, rfl⟩
abbrev main_v8 : Ref sig .tc := ⟨.hbm, 36, rfl⟩
abbrev main_cst_0 : Ref sig .tc := ⟨.hbm, 37, rfl⟩
abbrev main_v9 : Ref sig .tc := ⟨.hbm, 38, rfl⟩
abbrev main_v10 : Ref sig .tc := ⟨.hbm, 39, rfl⟩
abbrev main_c : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_cst_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_cst_2 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_cst_3 : Ref sig .tc := ⟨.hbm, 57, rfl⟩
abbrev main_call0_v12 : Ref sig .tc := ⟨.hbm, 58, rfl⟩
abbrev main_call0_cst_4 : Ref sig .tc := ⟨.hbm, 59, rfl⟩
abbrev main_call0_call0_v0 : Ref sig .tc := ⟨.hbm, 60, rfl⟩
abbrev main_call0_call0_v1 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_cst_1 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_call1_cst : Ref sig .tc := ⟨.hbm, 79, rfl⟩
abbrev main_call1_v0 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_cst_2 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_cst_3 : Ref sig .tc := ⟨.hbm, 98, rfl⟩
abbrev main_v43 : Ref sig .tc := ⟨.hbm, 99, rfl⟩
abbrev main_cst_4 : Ref sig .tc := ⟨.hbm, 100, rfl⟩
abbrev main_v44 : Ref sig .tc := ⟨.hbm, 101, rfl⟩
abbrev main_v45 : Ref sig .tc := ⟨.hbm, 102, rfl⟩
abbrev main_c_5 : Ref sig .tc := ⟨.hbm, 103, rfl⟩
abbrev main_call2_cst : Ref sig .tc := ⟨.hbm, 104, rfl⟩
abbrev main_call2_v0 : Ref sig .tc := ⟨.hbm, 105, rfl⟩
abbrev main_call2_v1 : Ref sig .tc := ⟨.hbm, 106, rfl⟩
abbrev main_call2_cst_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_v6 : Ref sig .tc := ⟨.hbm, 112, rfl⟩
abbrev main_call2_v7 : Ref sig .tc := ⟨.hbm, 113, rfl⟩
abbrev main_call2_cst_1 : Ref sig .tc := ⟨.hbm, 114, rfl⟩
abbrev main_call2_v8 : Ref sig .tc := ⟨.hbm, 115, rfl⟩
abbrev main_call2_cst_2 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_cst_3 : Ref sig .tc := ⟨.hbm, 120, rfl⟩
abbrev main_call2_v12 : Ref sig .tc := ⟨.hbm, 121, rfl⟩
abbrev main_call2_cst_4 : Ref sig .tc := ⟨.hbm, 122, rfl⟩
abbrev main_call2_call0_v0 : Ref sig .tc := ⟨.hbm, 123, rfl⟩
abbrev main_call2_call0_v1 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_cst_6 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_c_7 : Ref sig .tc := ⟨.hbm, 150, rfl⟩
abbrev main_v70 : Ref sig .tc := ⟨.hbm, 151, rfl⟩
abbrev main_v71 : Ref sig .tc := ⟨.hbm, 152, rfl⟩
abbrev main_c_8 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_cst_9 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_cst_10 : Ref sig .tc := ⟨.hbm, 175, rfl⟩
abbrev main_v92 : Ref sig .tc := ⟨.hbm, 176, rfl⟩
abbrev main_cst_11 : Ref sig .tc := ⟨.hbm, 177, rfl⟩
abbrev main_v93 : Ref sig .tc := ⟨.hbm, 178, rfl⟩
abbrev main_v94 : Ref sig .tc := ⟨.hbm, 179, rfl⟩
abbrev main_c_12 : Ref sig .tc := ⟨.hbm, 180, rfl⟩
abbrev main_call3_cst : Ref sig .tc := ⟨.hbm, 181, rfl⟩
abbrev main_call3_v0 : Ref sig .tc := ⟨.hbm, 182, rfl⟩
abbrev main_call3_v1 : Ref sig .tc := ⟨.hbm, 183, rfl⟩
abbrev main_call3_cst_0 : Ref sig .tc := ⟨.hbm, 184, rfl⟩
abbrev main_call3_v2 : Ref sig .tc := ⟨.hbm, 185, rfl⟩
abbrev main_call3_v3 : Ref sig .tc := ⟨.hbm, 186, rfl⟩
abbrev main_call3_v4 : Ref sig .tc := ⟨.hbm, 187, rfl⟩
abbrev main_call3_v5 : Ref sig .tc := ⟨.hbm, 188, rfl⟩
abbrev main_call3_v6 : Ref sig .tc := ⟨.hbm, 189, rfl⟩
abbrev main_call3_v7 : Ref sig .tc := ⟨.hbm, 190, rfl⟩
abbrev main_call3_cst_1 : Ref sig .tc := ⟨.hbm, 191, rfl⟩
abbrev main_call3_v8 : Ref sig .tc := ⟨.hbm, 192, rfl⟩
abbrev main_call3_cst_2 : Ref sig .tc := ⟨.hbm, 193, rfl⟩
abbrev main_call3_v9 : Ref sig .tc := ⟨.hbm, 194, rfl⟩
abbrev main_call3_v10 : Ref sig .tc := ⟨.hbm, 195, rfl⟩
abbrev main_call3_v11 : Ref sig .tc := ⟨.hbm, 196, rfl⟩
abbrev main_call3_cst_3 : Ref sig .tc := ⟨.hbm, 197, rfl⟩
abbrev main_call3_v12 : Ref sig .tc := ⟨.hbm, 198, rfl⟩
abbrev main_call3_cst_4 : Ref sig .tc := ⟨.hbm, 199, rfl⟩
abbrev main_call3_call0_v0 : Ref sig .tc := ⟨.hbm, 200, rfl⟩
abbrev main_call3_call0_v1 : Ref sig .tc := ⟨.hbm, 201, rfl⟩
abbrev main_v95 : Ref sig .tc := ⟨.hbm, 202, rfl⟩
abbrev main_v96 : Ref sig .tc := ⟨.hbm, 203, rfl⟩
abbrev main_v97 : Ref sig .tc := ⟨.hbm, 204, rfl⟩
abbrev main_v98 : Ref sig .tc := ⟨.hbm, 205, rfl⟩
abbrev main_cst_13 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_v102 : Ref sig .tc := ⟨.hbm, 210, rfl⟩
abbrev main_v103 : Ref sig .tc := ⟨.hbm, 211, rfl⟩
abbrev main_v104 : Ref sig .tc := ⟨.hbm, 212, rfl⟩
abbrev main_v105 : Ref sig .tc := ⟨.hbm, 213, rfl⟩
abbrev main_v106 : Ref sig .tc := ⟨.hbm, 214, rfl⟩
abbrev main_v107 : Ref sig .tc := ⟨.hbm, 215, rfl⟩
abbrev main_v108 : Ref sig .tc := ⟨.hbm, 216, rfl⟩
abbrev main_v109 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_v113 : Ref sig .tc := ⟨.hbm, 221, rfl⟩
abbrev main_v114 : Ref sig .tc := ⟨.hbm, 222, rfl⟩
abbrev main_cst_14 : Ref sig .tc := ⟨.hbm, 223, rfl⟩
abbrev main_v115 : Ref sig .tc := ⟨.hbm, 224, rfl⟩
abbrev main_cst_15 : Ref sig .tc := ⟨.hbm, 225, rfl⟩
abbrev main_v116 : Ref sig .tc := ⟨.hbm, 226, rfl⟩
abbrev main_v117 : Ref sig .tc := ⟨.hbm, 227, rfl⟩
abbrev main_c_16 : Ref sig .tc := ⟨.hbm, 228, rfl⟩
abbrev main_call4_cst : Ref sig .tc := ⟨.hbm, 229, rfl⟩
abbrev main_call4_v0 : Ref sig .tc := ⟨.hbm, 230, rfl⟩
abbrev main_call4_v1 : Ref sig .tc := ⟨.hbm, 231, rfl⟩
abbrev main_call4_cst_0 : Ref sig .tc := ⟨.hbm, 232, rfl⟩
abbrev main_call4_v2 : Ref sig .tc := ⟨.hbm, 233, rfl⟩
abbrev main_call4_v3 : Ref sig .tc := ⟨.hbm, 234, rfl⟩
abbrev main_call4_v4 : Ref sig .tc := ⟨.hbm, 235, rfl⟩
abbrev main_call4_v5 : Ref sig .tc := ⟨.hbm, 236, rfl⟩
abbrev main_call4_v6 : Ref sig .tc := ⟨.hbm, 237, rfl⟩
abbrev main_call4_v7 : Ref sig .tc := ⟨.hbm, 238, rfl⟩
abbrev main_call4_cst_1 : Ref sig .tc := ⟨.hbm, 239, rfl⟩
abbrev main_call4_v8 : Ref sig .tc := ⟨.hbm, 240, rfl⟩
abbrev main_call4_cst_2 : Ref sig .tc := ⟨.hbm, 241, rfl⟩
abbrev main_call4_v9 : Ref sig .tc := ⟨.hbm, 242, rfl⟩
abbrev main_call4_v10 : Ref sig .tc := ⟨.hbm, 243, rfl⟩
abbrev main_call4_v11 : Ref sig .tc := ⟨.hbm, 244, rfl⟩
abbrev main_call4_cst_3 : Ref sig .tc := ⟨.hbm, 245, rfl⟩
abbrev main_call4_v12 : Ref sig .tc := ⟨.hbm, 246, rfl⟩
abbrev main_call4_cst_4 : Ref sig .tc := ⟨.hbm, 247, rfl⟩
abbrev main_call4_call0_v0 : Ref sig .tc := ⟨.hbm, 248, rfl⟩
abbrev main_call4_call0_v1 : Ref sig .tc := ⟨.hbm, 249, rfl⟩
abbrev main_v118 : Ref sig .tc := ⟨.hbm, 250, rfl⟩
abbrev main_v119 : Ref sig .tc := ⟨.hbm, 251, rfl⟩
abbrev main_v120 : Ref sig .tc := ⟨.hbm, 252, rfl⟩
abbrev main_v121 : Ref sig .tc := ⟨.hbm, 253, rfl⟩
abbrev main_cst_17 : Ref sig .tc := ⟨.hbm, 254, rfl⟩
abbrev main_v122 : Ref sig .tc := ⟨.hbm, 255, rfl⟩
abbrev main_v123 : Ref sig .tc := ⟨.hbm, 256, rfl⟩
abbrev main_v124 : Ref sig .tc := ⟨.hbm, 257, rfl⟩
abbrev main_v125 : Ref sig .tc := ⟨.hbm, 258, rfl⟩
abbrev main_v126 : Ref sig .tc := ⟨.hbm, 259, rfl⟩
abbrev main_v127 : Ref sig .tc := ⟨.hbm, 260, rfl⟩
abbrev main_v128 : Ref sig .tc := ⟨.hbm, 261, rfl⟩
abbrev main_v129 : Ref sig .tc := ⟨.hbm, 262, rfl⟩
abbrev main_v130 : Ref sig .tc := ⟨.hbm, 263, rfl⟩
abbrev main_v131 : Ref sig .tc := ⟨.hbm, 264, rfl⟩
abbrev main_v132 : Ref sig .tc := ⟨.hbm, 265, rfl⟩
abbrev main_v133 : Ref sig .tc := ⟨.hbm, 266, rfl⟩
abbrev main_v134 : Ref sig .tc := ⟨.hbm, 267, rfl⟩
abbrev main_v135 : Ref sig .tc := ⟨.hbm, 268, rfl⟩
abbrev main_call5_cst : Ref sig .tc := ⟨.hbm, 269, rfl⟩
abbrev main_call5_v0 : Ref sig .tc := ⟨.hbm, 270, rfl⟩
abbrev main_v136 : Ref sig .tc := ⟨.hbm, 271, rfl⟩
abbrev main_v137 : Ref sig .tc := ⟨.hbm, 272, rfl⟩
abbrev main_v138 : Ref sig .tc := ⟨.hbm, 273, rfl⟩
abbrev main_v139 : Ref sig .tc := ⟨.hbm, 274, rfl⟩
abbrev main_v140 : Ref sig .tc := ⟨.hbm, 275, rfl⟩
abbrev main_v141 : Ref sig .tc := ⟨.hbm, 276, rfl⟩
abbrev main_v142 : Ref sig .tc := ⟨.hbm, 277, rfl⟩
abbrev main_v143 : Ref sig .tc := ⟨.hbm, 278, rfl⟩
abbrev main_v144 : Ref sig .tc := ⟨.hbm, 279, rfl⟩
abbrev main_v145 : Ref sig .tc := ⟨.hbm, 280, rfl⟩
abbrev main_v146 : Ref sig .tc := ⟨.hbm, 281, rfl⟩
abbrev main_v147 : Ref sig .tc := ⟨.hbm, 282, rfl⟩
abbrev main_v148 : Ref sig .tc := ⟨.hbm, 283, rfl⟩
abbrev main_cst_18 : Ref sig .tc := ⟨.hbm, 284, rfl⟩
abbrev main_v149 : Ref sig .tc := ⟨.hbm, 285, rfl⟩
abbrev main_cst_19 : Ref sig .tc := ⟨.hbm, 286, rfl⟩
abbrev main_v150 : Ref sig .tc := ⟨.hbm, 287, rfl⟩
abbrev main_v151 : Ref sig .tc := ⟨.hbm, 288, rfl⟩
abbrev main_c_20 : Ref sig .tc := ⟨.hbm, 289, rfl⟩
abbrev main_call6_cst : Ref sig .tc := ⟨.hbm, 290, rfl⟩
abbrev main_call6_v0 : Ref sig .tc := ⟨.hbm, 291, rfl⟩
abbrev main_call6_v1 : Ref sig .tc := ⟨.hbm, 292, rfl⟩
abbrev main_call6_cst_0 : Ref sig .tc := ⟨.hbm, 293, rfl⟩
abbrev main_call6_v2 : Ref sig .tc := ⟨.hbm, 294, rfl⟩
abbrev main_call6_v3 : Ref sig .tc := ⟨.hbm, 295, rfl⟩
abbrev main_call6_v4 : Ref sig .tc := ⟨.hbm, 296, rfl⟩
abbrev main_call6_v5 : Ref sig .tc := ⟨.hbm, 297, rfl⟩
abbrev main_call6_v6 : Ref sig .tc := ⟨.hbm, 298, rfl⟩
abbrev main_call6_v7 : Ref sig .tc := ⟨.hbm, 299, rfl⟩
abbrev main_call6_cst_1 : Ref sig .tc := ⟨.hbm, 300, rfl⟩
abbrev main_call6_v8 : Ref sig .tc := ⟨.hbm, 301, rfl⟩
abbrev main_call6_cst_2 : Ref sig .tc := ⟨.hbm, 302, rfl⟩
abbrev main_call6_v9 : Ref sig .tc := ⟨.hbm, 303, rfl⟩
abbrev main_call6_v10 : Ref sig .tc := ⟨.hbm, 304, rfl⟩
abbrev main_call6_v11 : Ref sig .tc := ⟨.hbm, 305, rfl⟩
abbrev main_call6_cst_3 : Ref sig .tc := ⟨.hbm, 306, rfl⟩
abbrev main_call6_v12 : Ref sig .tc := ⟨.hbm, 307, rfl⟩
abbrev main_call6_cst_4 : Ref sig .tc := ⟨.hbm, 308, rfl⟩
abbrev main_call6_call0_v0 : Ref sig .tc := ⟨.hbm, 309, rfl⟩
abbrev main_call6_call0_v1 : Ref sig .tc := ⟨.hbm, 310, rfl⟩
abbrev main_v152 : Ref sig .tc := ⟨.hbm, 311, rfl⟩
abbrev main_v153 : Ref sig .tc := ⟨.hbm, 312, rfl⟩
abbrev main_v154 : Ref sig .tc := ⟨.hbm, 313, rfl⟩
abbrev main_v155 : Ref sig .tc := ⟨.hbm, 314, rfl⟩
abbrev main_cst_21 : Ref sig .tc := ⟨.hbm, 315, rfl⟩
abbrev main_v156 : Ref sig .tc := ⟨.hbm, 316, rfl⟩
abbrev main_v157 : Ref sig .tc := ⟨.hbm, 317, rfl⟩
abbrev main_v158 : Ref sig .tc := ⟨.hbm, 318, rfl⟩
abbrev main_v159 : Ref sig .tc := ⟨.hbm, 319, rfl⟩
abbrev main_v160 : Ref sig .tc := ⟨.hbm, 320, rfl⟩
abbrev main_v161 : Ref sig .tc := ⟨.hbm, 321, rfl⟩
abbrev main_v162 : Ref sig .tc := ⟨.hbm, 322, rfl⟩
abbrev main_v163 : Ref sig .tc := ⟨.hbm, 323, rfl⟩
abbrev main_v164 : Ref sig .tc := ⟨.hbm, 324, rfl⟩
abbrev main_v165 : Ref sig .tc := ⟨.hbm, 325, rfl⟩
abbrev main_v166 : Ref sig .tc := ⟨.hbm, 326, rfl⟩
abbrev main_v167 : Ref sig .tc := ⟨.hbm, 327, rfl⟩
abbrev main_call7_cst : Ref sig .tc := ⟨.hbm, 328, rfl⟩
abbrev main_call7_v0 : Ref sig .tc := ⟨.hbm, 329, rfl⟩
abbrev main_v168 : Ref sig .tc := ⟨.hbm, 330, rfl⟩
abbrev main_v169 : Ref sig .tc := ⟨.hbm, 331, rfl⟩
abbrev main_v170 : Ref sig .tc := ⟨.hbm, 332, rfl⟩
abbrev main_v171 : Ref sig .tc := ⟨.hbm, 333, rfl⟩
abbrev main_v172 : Ref sig .tc := ⟨.hbm, 334, rfl⟩
abbrev main_v173 : Ref sig .tc := ⟨.hbm, 335, rfl⟩
abbrev main_v174 : Ref sig .tc := ⟨.hbm, 336, rfl⟩
abbrev main_v175 : Ref sig .tc := ⟨.hbm, 337, rfl⟩
abbrev main_v176 : Ref sig .tc := ⟨.hbm, 338, rfl⟩
abbrev main_v177 : Ref sig .tc := ⟨.hbm, 339, rfl⟩
abbrev main_v178 : Ref sig .tc := ⟨.hbm, 340, rfl⟩
abbrev main_v179 : Ref sig .tc := ⟨.hbm, 341, rfl⟩
abbrev main_v180 : Ref sig .tc := ⟨.hbm, 342, rfl⟩
abbrev main_cst_22 : Ref sig .tc := ⟨.hbm, 343, rfl⟩
abbrev main_v181 : Ref sig .tc := ⟨.hbm, 344, rfl⟩
abbrev main_cst_23 : Ref sig .tc := ⟨.hbm, 345, rfl⟩
abbrev main_v182 : Ref sig .tc := ⟨.hbm, 346, rfl⟩
abbrev main_v183 : Ref sig .tc := ⟨.hbm, 347, rfl⟩
abbrev main_c_24 : Ref sig .tc := ⟨.hbm, 348, rfl⟩
abbrev main_call8_cst : Ref sig .tc := ⟨.hbm, 349, rfl⟩
abbrev main_call8_v0 : Ref sig .tc := ⟨.hbm, 350, rfl⟩
abbrev main_call8_v1 : Ref sig .tc := ⟨.hbm, 351, rfl⟩
abbrev main_call8_cst_0 : Ref sig .tc := ⟨.hbm, 352, rfl⟩
abbrev main_call8_v2 : Ref sig .tc := ⟨.hbm, 353, rfl⟩
abbrev main_call8_v3 : Ref sig .tc := ⟨.hbm, 354, rfl⟩
abbrev main_call8_v4 : Ref sig .tc := ⟨.hbm, 355, rfl⟩
abbrev main_call8_v5 : Ref sig .tc := ⟨.hbm, 356, rfl⟩
abbrev main_call8_v6 : Ref sig .tc := ⟨.hbm, 357, rfl⟩
abbrev main_call8_v7 : Ref sig .tc := ⟨.hbm, 358, rfl⟩
abbrev main_call8_cst_1 : Ref sig .tc := ⟨.hbm, 359, rfl⟩
abbrev main_call8_v8 : Ref sig .tc := ⟨.hbm, 360, rfl⟩
abbrev main_call8_cst_2 : Ref sig .tc := ⟨.hbm, 361, rfl⟩
abbrev main_call8_v9 : Ref sig .tc := ⟨.hbm, 362, rfl⟩
abbrev main_call8_v10 : Ref sig .tc := ⟨.hbm, 363, rfl⟩
abbrev main_call8_v11 : Ref sig .tc := ⟨.hbm, 364, rfl⟩
abbrev main_call8_cst_3 : Ref sig .tc := ⟨.hbm, 365, rfl⟩
abbrev main_call8_v12 : Ref sig .tc := ⟨.hbm, 366, rfl⟩
abbrev main_call8_cst_4 : Ref sig .tc := ⟨.hbm, 367, rfl⟩
abbrev main_call8_call0_v0 : Ref sig .tc := ⟨.hbm, 368, rfl⟩
abbrev main_call8_call0_v1 : Ref sig .tc := ⟨.hbm, 369, rfl⟩
abbrev main_v184 : Ref sig .tc := ⟨.hbm, 370, rfl⟩
abbrev main_v185 : Ref sig .tc := ⟨.hbm, 371, rfl⟩
abbrev main_v186 : Ref sig .tc := ⟨.hbm, 372, rfl⟩
abbrev main_v187 : Ref sig .tc := ⟨.hbm, 373, rfl⟩
abbrev main_cst_25 : Ref sig .tc := ⟨.hbm, 374, rfl⟩
abbrev main_v188 : Ref sig .tc := ⟨.hbm, 375, rfl⟩
abbrev main_v189 : Ref sig .tc := ⟨.hbm, 376, rfl⟩
abbrev main_v190 : Ref sig .tc := ⟨.hbm, 377, rfl⟩
abbrev main_v191 : Ref sig .tc := ⟨.hbm, 378, rfl⟩
abbrev main_v192 : Ref sig .tc := ⟨.hbm, 379, rfl⟩
abbrev main_v193 : Ref sig .tc := ⟨.hbm, 380, rfl⟩
abbrev main_v194 : Ref sig .tc := ⟨.hbm, 381, rfl⟩
abbrev main_v195 : Ref sig .tc := ⟨.hbm, 382, rfl⟩
abbrev main_v196 : Ref sig .tc := ⟨.hbm, 383, rfl⟩
abbrev main_v197 : Ref sig .tc := ⟨.hbm, 384, rfl⟩
abbrev main_v198 : Ref sig .tc := ⟨.hbm, 385, rfl⟩
abbrev main_v199 : Ref sig .tc := ⟨.hbm, 386, rfl⟩
abbrev main_call9_cst : Ref sig .tc := ⟨.hbm, 387, rfl⟩
abbrev main_call9_v0 : Ref sig .tc := ⟨.hbm, 388, rfl⟩
abbrev main_v200 : Ref sig .tc := ⟨.hbm, 389, rfl⟩
abbrev main_v201 : Ref sig .tc := ⟨.hbm, 390, rfl⟩
abbrev main_v202 : Ref sig .tc := ⟨.hbm, 391, rfl⟩
abbrev main_v203 : Ref sig .tc := ⟨.hbm, 392, rfl⟩
abbrev main_v204 : Ref sig .tc := ⟨.hbm, 393, rfl⟩
abbrev main_v205 : Ref sig .tc := ⟨.hbm, 394, rfl⟩
abbrev main_v206 : Ref sig .tc := ⟨.hbm, 395, rfl⟩
abbrev main_v207 : Ref sig .tc := ⟨.hbm, 396, rfl⟩
abbrev main_v208 : Ref sig .tc := ⟨.hbm, 397, rfl⟩
abbrev main_cst_26 : Ref sig .tc := ⟨.hbm, 398, rfl⟩
abbrev main_v209 : Ref sig .tc := ⟨.hbm, 399, rfl⟩
abbrev main_v210 : Ref sig .tc := ⟨.hbm, 400, rfl⟩
abbrev main_v211 : Ref sig .tc := ⟨.hbm, 401, rfl⟩
abbrev main_v212 : Ref sig .tc := ⟨.hbm, 402, rfl⟩
abbrev main_v213 : Ref sig .tc := ⟨.hbm, 403, rfl⟩
abbrev main_v214 : Ref sig .tc := ⟨.hbm, 404, rfl⟩
abbrev main_v215 : Ref sig .tc := ⟨.hbm, 405, rfl⟩
abbrev main_cst_27 : Ref sig .tc := ⟨.hbm, 406, rfl⟩
abbrev main_v216 : Ref sig .tc := ⟨.hbm, 407, rfl⟩
abbrev main_cst_28 : Ref sig .tc := ⟨.hbm, 408, rfl⟩
abbrev main_v217 : Ref sig .tc := ⟨.hbm, 409, rfl⟩
abbrev main_v218 : Ref sig .tc := ⟨.hbm, 410, rfl⟩
abbrev main_c_29 : Ref sig .tc := ⟨.hbm, 411, rfl⟩
abbrev main_call10_cst : Ref sig .tc := ⟨.hbm, 412, rfl⟩
abbrev main_call10_v0 : Ref sig .tc := ⟨.hbm, 413, rfl⟩
abbrev main_call10_v1 : Ref sig .tc := ⟨.hbm, 414, rfl⟩
abbrev main_call10_cst_0 : Ref sig .tc := ⟨.hbm, 415, rfl⟩
abbrev main_call10_v2 : Ref sig .tc := ⟨.hbm, 416, rfl⟩
abbrev main_call10_v3 : Ref sig .tc := ⟨.hbm, 417, rfl⟩
abbrev main_call10_v4 : Ref sig .tc := ⟨.hbm, 418, rfl⟩
abbrev main_call10_v5 : Ref sig .tc := ⟨.hbm, 419, rfl⟩
abbrev main_call10_v6 : Ref sig .tc := ⟨.hbm, 420, rfl⟩
abbrev main_call10_v7 : Ref sig .tc := ⟨.hbm, 421, rfl⟩
abbrev main_call10_cst_1 : Ref sig .tc := ⟨.hbm, 422, rfl⟩
abbrev main_call10_v8 : Ref sig .tc := ⟨.hbm, 423, rfl⟩
abbrev main_call10_cst_2 : Ref sig .tc := ⟨.hbm, 424, rfl⟩
abbrev main_call10_v9 : Ref sig .tc := ⟨.hbm, 425, rfl⟩
abbrev main_call10_v10 : Ref sig .tc := ⟨.hbm, 426, rfl⟩
abbrev main_call10_v11 : Ref sig .tc := ⟨.hbm, 427, rfl⟩
abbrev main_call10_cst_3 : Ref sig .tc := ⟨.hbm, 428, rfl⟩
abbrev main_call10_v12 : Ref sig .tc := ⟨.hbm, 429, rfl⟩
abbrev main_call10_cst_4 : Ref sig .tc := ⟨.hbm, 430, rfl⟩
abbrev main_call10_call0_v0 : Ref sig .tc := ⟨.hbm, 431, rfl⟩
abbrev main_call10_call0_v1 : Ref sig .tc := ⟨.hbm, 432, rfl⟩
abbrev main_v219 : Ref sig .tc := ⟨.hbm, 433, rfl⟩
abbrev main_v220 : Ref sig .tc := ⟨.hbm, 434, rfl⟩
abbrev main_v221 : Ref sig .tc := ⟨.hbm, 435, rfl⟩
abbrev main_v222 : Ref sig .tc := ⟨.hbm, 436, rfl⟩
abbrev main_cst_30 : Ref sig .tc := ⟨.hbm, 437, rfl⟩
abbrev main_v223 : Ref sig .tc := ⟨.hbm, 438, rfl⟩
abbrev main_v224 : Ref sig .tc := ⟨.hbm, 439, rfl⟩
abbrev main_v225 : Ref sig .tc := ⟨.hbm, 440, rfl⟩
abbrev main_v226 : Ref sig .tc := ⟨.hbm, 441, rfl⟩
abbrev main_v227 : Ref sig .tc := ⟨.hbm, 442, rfl⟩
abbrev main_v228 : Ref sig .tc := ⟨.hbm, 443, rfl⟩
abbrev main_v229 : Ref sig .tc := ⟨.hbm, 444, rfl⟩
abbrev main_v230 : Ref sig .tc := ⟨.hbm, 445, rfl⟩
abbrev main_v231 : Ref sig .tc := ⟨.hbm, 446, rfl⟩
abbrev main_v232 : Ref sig .tc := ⟨.hbm, 447, rfl⟩
abbrev main_v233 : Ref sig .tc := ⟨.hbm, 448, rfl⟩
abbrev main_v234 : Ref sig .tc := ⟨.hbm, 449, rfl⟩
abbrev main_v235 : Ref sig .tc := ⟨.hbm, 450, rfl⟩
abbrev main_v236 : Ref sig .tc := ⟨.hbm, 451, rfl⟩
abbrev main_v237 : Ref sig .tc := ⟨.hbm, 452, rfl⟩
abbrev main_v238 : Ref sig .tc := ⟨.hbm, 453, rfl⟩
abbrev main_v239 : Ref sig .tc := ⟨.hbm, 454, rfl⟩
abbrev main_v240 : Ref sig .tc := ⟨.hbm, 455, rfl⟩
abbrev main_v241 : Ref sig .tc := ⟨.hbm, 456, rfl⟩
abbrev main_v242 : Ref sig .tc := ⟨.hbm, 457, rfl⟩
abbrev main_c_31 : Ref sig .tc := ⟨.hbm, 458, rfl⟩
abbrev main_v243 : Ref sig .tc := ⟨.hbm, 459, rfl⟩
abbrev main_v244 : Ref sig .tc := ⟨.hbm, 460, rfl⟩
abbrev main_c_32 : Ref sig .tc := ⟨.hbm, 461, rfl⟩
abbrev main_v245 : Ref sig .tc := ⟨.hbm, 462, rfl⟩
abbrev main_v246 : Ref sig .tc := ⟨.hbm, 463, rfl⟩
abbrev main_v247 : Ref sig .tc := ⟨.hbm, 464, rfl⟩
abbrev main_v248 : Ref sig .tc := ⟨.hbm, 465, rfl⟩
abbrev main_v249 : Ref sig .tc := ⟨.hbm, 466, rfl⟩
abbrev main_cst_33 : Ref sig .tc := ⟨.hbm, 467, rfl⟩
abbrev main_v250 : Ref sig .tc := ⟨.hbm, 468, rfl⟩
abbrev main_v251 : Ref sig .tc := ⟨.hbm, 469, rfl⟩
abbrev main_v252 : Ref sig .tc := ⟨.hbm, 470, rfl⟩
abbrev main_v253 : Ref sig .tc := ⟨.hbm, 471, rfl⟩
abbrev main_v254 : Ref sig .tc := ⟨.hbm, 472, rfl⟩
abbrev main_v255 : Ref sig .tc := ⟨.hbm, 473, rfl⟩
abbrev main_v256 : Ref sig .tc := ⟨.hbm, 474, rfl⟩
abbrev main_v257 : Ref sig .tc := ⟨.hbm, 475, rfl⟩
abbrev main_v258 : Ref sig .tc := ⟨.hbm, 476, rfl⟩
abbrev main_v259 : Ref sig .tc := ⟨.hbm, 477, rfl⟩
abbrev main_v260 : Ref sig .tc := ⟨.hbm, 478, rfl⟩
abbrev main_v261 : Ref sig .tc := ⟨.hbm, 479, rfl⟩
abbrev main_v262 : Ref sig .tc := ⟨.hbm, 480, rfl⟩
abbrev main_v263 : Ref sig .tc := ⟨.hbm, 481, rfl⟩
abbrev main_v264 : Ref sig .tc := ⟨.hbm, 482, rfl⟩
abbrev main_cst_34 : Ref sig .tc := ⟨.hbm, 483, rfl⟩
abbrev main_v265 : Ref sig .tc := ⟨.hbm, 484, rfl⟩
abbrev main_cst_35 : Ref sig .tc := ⟨.hbm, 485, rfl⟩
abbrev main_v266 : Ref sig .tc := ⟨.hbm, 486, rfl⟩
abbrev main_v267 : Ref sig .tc := ⟨.hbm, 487, rfl⟩
abbrev main_c_36 : Ref sig .tc := ⟨.hbm, 488, rfl⟩
abbrev main_call11_cst : Ref sig .tc := ⟨.hbm, 489, rfl⟩
abbrev main_call11_v0 : Ref sig .tc := ⟨.hbm, 490, rfl⟩
abbrev main_call11_v1 : Ref sig .tc := ⟨.hbm, 491, rfl⟩
abbrev main_call11_cst_0 : Ref sig .tc := ⟨.hbm, 492, rfl⟩
abbrev main_call11_v2 : Ref sig .tc := ⟨.hbm, 493, rfl⟩
abbrev main_call11_v3 : Ref sig .tc := ⟨.hbm, 494, rfl⟩
abbrev main_call11_v4 : Ref sig .tc := ⟨.hbm, 495, rfl⟩
abbrev main_call11_v5 : Ref sig .tc := ⟨.hbm, 496, rfl⟩
abbrev main_call11_v6 : Ref sig .tc := ⟨.hbm, 497, rfl⟩
abbrev main_call11_v7 : Ref sig .tc := ⟨.hbm, 498, rfl⟩
abbrev main_call11_cst_1 : Ref sig .tc := ⟨.hbm, 499, rfl⟩
abbrev main_call11_v8 : Ref sig .tc := ⟨.hbm, 500, rfl⟩
abbrev main_call11_cst_2 : Ref sig .tc := ⟨.hbm, 501, rfl⟩
abbrev main_call11_v9 : Ref sig .tc := ⟨.hbm, 502, rfl⟩
abbrev main_call11_v10 : Ref sig .tc := ⟨.hbm, 503, rfl⟩
abbrev main_call11_v11 : Ref sig .tc := ⟨.hbm, 504, rfl⟩
abbrev main_call11_cst_3 : Ref sig .tc := ⟨.hbm, 505, rfl⟩
abbrev main_call11_v12 : Ref sig .tc := ⟨.hbm, 506, rfl⟩
abbrev main_call11_cst_4 : Ref sig .tc := ⟨.hbm, 507, rfl⟩
abbrev main_call11_call0_v0 : Ref sig .tc := ⟨.hbm, 508, rfl⟩
abbrev main_call11_call0_v1 : Ref sig .tc := ⟨.hbm, 509, rfl⟩
abbrev main_v268 : Ref sig .tc := ⟨.hbm, 510, rfl⟩
abbrev main_v269 : Ref sig .tc := ⟨.hbm, 511, rfl⟩
abbrev main_v270 : Ref sig .tc := ⟨.hbm, 512, rfl⟩
abbrev main_v271 : Ref sig .tc := ⟨.hbm, 513, rfl⟩
abbrev main_cst_37 : Ref sig .tc := ⟨.hbm, 514, rfl⟩
abbrev main_v272 : Ref sig .tc := ⟨.hbm, 515, rfl⟩
abbrev main_v273 : Ref sig .tc := ⟨.hbm, 516, rfl⟩
abbrev main_v274 : Ref sig .tc := ⟨.hbm, 517, rfl⟩
abbrev main_v275 : Ref sig .tc := ⟨.hbm, 518, rfl⟩
abbrev main_v276 : Ref sig .tc := ⟨.hbm, 519, rfl⟩
abbrev main_v277 : Ref sig .tc := ⟨.hbm, 520, rfl⟩
abbrev main_v278 : Ref sig .tc := ⟨.hbm, 521, rfl⟩
abbrev main_v279 : Ref sig .tc := ⟨.hbm, 522, rfl⟩
abbrev main_v280 : Ref sig .tc := ⟨.hbm, 523, rfl⟩
abbrev main_v281 : Ref sig .tc := ⟨.hbm, 524, rfl⟩
abbrev main_v282 : Ref sig .tc := ⟨.hbm, 525, rfl⟩
abbrev main_v283 : Ref sig .tc := ⟨.hbm, 526, rfl⟩
abbrev main_v284 : Ref sig .tc := ⟨.hbm, 527, rfl⟩
abbrev main_v285 : Ref sig .tc := ⟨.hbm, 528, rfl⟩
abbrev main_v286 : Ref sig .tc := ⟨.hbm, 529, rfl⟩
abbrev main_v287 : Ref sig .tc := ⟨.hbm, 530, rfl⟩
abbrev main_cst_38 : Ref sig .tc := ⟨.hbm, 531, rfl⟩
abbrev main_v288 : Ref sig .tc := ⟨.hbm, 532, rfl⟩
abbrev main_cst_39 : Ref sig .tc := ⟨.hbm, 533, rfl⟩
abbrev main_v289 : Ref sig .tc := ⟨.hbm, 534, rfl⟩
abbrev main_v290 : Ref sig .tc := ⟨.hbm, 535, rfl⟩
abbrev main_c_40 : Ref sig .tc := ⟨.hbm, 536, rfl⟩
abbrev main_call12_cst : Ref sig .tc := ⟨.hbm, 537, rfl⟩
abbrev main_call12_v0 : Ref sig .tc := ⟨.hbm, 538, rfl⟩
abbrev main_call12_v1 : Ref sig .tc := ⟨.hbm, 539, rfl⟩
abbrev main_call12_cst_0 : Ref sig .tc := ⟨.hbm, 540, rfl⟩
abbrev main_call12_v2 : Ref sig .tc := ⟨.hbm, 541, rfl⟩
abbrev main_call12_v3 : Ref sig .tc := ⟨.hbm, 542, rfl⟩
abbrev main_call12_v4 : Ref sig .tc := ⟨.hbm, 543, rfl⟩
abbrev main_call12_v5 : Ref sig .tc := ⟨.hbm, 544, rfl⟩
abbrev main_call12_v6 : Ref sig .tc := ⟨.hbm, 545, rfl⟩
abbrev main_call12_v7 : Ref sig .tc := ⟨.hbm, 546, rfl⟩
abbrev main_call12_cst_1 : Ref sig .tc := ⟨.hbm, 547, rfl⟩
abbrev main_call12_v8 : Ref sig .tc := ⟨.hbm, 548, rfl⟩
abbrev main_call12_cst_2 : Ref sig .tc := ⟨.hbm, 549, rfl⟩
abbrev main_call12_v9 : Ref sig .tc := ⟨.hbm, 550, rfl⟩
abbrev main_call12_v10 : Ref sig .tc := ⟨.hbm, 551, rfl⟩
abbrev main_call12_v11 : Ref sig .tc := ⟨.hbm, 552, rfl⟩
abbrev main_call12_cst_3 : Ref sig .tc := ⟨.hbm, 553, rfl⟩
abbrev main_call12_v12 : Ref sig .tc := ⟨.hbm, 554, rfl⟩
abbrev main_call12_cst_4 : Ref sig .tc := ⟨.hbm, 555, rfl⟩
abbrev main_call12_call0_v0 : Ref sig .tc := ⟨.hbm, 556, rfl⟩
abbrev main_call12_call0_v1 : Ref sig .tc := ⟨.hbm, 557, rfl⟩
abbrev main_v291 : Ref sig .tc := ⟨.hbm, 558, rfl⟩
abbrev main_v292 : Ref sig .tc := ⟨.hbm, 559, rfl⟩
abbrev main_v293 : Ref sig .tc := ⟨.hbm, 560, rfl⟩
abbrev main_v294 : Ref sig .tc := ⟨.hbm, 561, rfl⟩
abbrev main_cst_41 : Ref sig .tc := ⟨.hbm, 562, rfl⟩
abbrev main_v295 : Ref sig .tc := ⟨.hbm, 563, rfl⟩
abbrev main_v296 : Ref sig .tc := ⟨.hbm, 564, rfl⟩
abbrev main_v297 : Ref sig .tc := ⟨.hbm, 565, rfl⟩
abbrev main_v298 : Ref sig .tc := ⟨.hbm, 566, rfl⟩
abbrev main_v299 : Ref sig .tc := ⟨.hbm, 567, rfl⟩
abbrev main_v300 : Ref sig .tc := ⟨.hbm, 568, rfl⟩
abbrev main_v301 : Ref sig .tc := ⟨.hbm, 569, rfl⟩
abbrev main_v302 : Ref sig .tc := ⟨.hbm, 570, rfl⟩
abbrev main_v303 : Ref sig .tc := ⟨.hbm, 571, rfl⟩
abbrev main_v304 : Ref sig .tc := ⟨.hbm, 572, rfl⟩
abbrev main_v305 : Ref sig .tc := ⟨.hbm, 573, rfl⟩
abbrev main_v306 : Ref sig .tc := ⟨.hbm, 574, rfl⟩
abbrev main_v307 : Ref sig .tc := ⟨.hbm, 575, rfl⟩
abbrev main_v308 : Ref sig .tc := ⟨.hbm, 576, rfl⟩
abbrev main_call13_cst : Ref sig .tc := ⟨.hbm, 577, rfl⟩
abbrev main_call13_v0 : Ref sig .tc := ⟨.hbm, 578, rfl⟩
abbrev main_v309 : Ref sig .tc := ⟨.hbm, 579, rfl⟩
abbrev main_v310 : Ref sig .tc := ⟨.hbm, 580, rfl⟩
abbrev main_v311 : Ref sig .tc := ⟨.hbm, 581, rfl⟩
abbrev main_v312 : Ref sig .tc := ⟨.hbm, 582, rfl⟩
abbrev main_v313 : Ref sig .tc := ⟨.hbm, 583, rfl⟩
abbrev main_v314 : Ref sig .tc := ⟨.hbm, 584, rfl⟩
abbrev main_v315 : Ref sig .tc := ⟨.hbm, 585, rfl⟩
abbrev main_v316 : Ref sig .tc := ⟨.hbm, 586, rfl⟩
abbrev main_v317 : Ref sig .tc := ⟨.hbm, 587, rfl⟩
abbrev main_v318 : Ref sig .tc := ⟨.hbm, 588, rfl⟩
abbrev main_v319 : Ref sig .tc := ⟨.hbm, 589, rfl⟩
abbrev main_v320 : Ref sig .tc := ⟨.hbm, 590, rfl⟩
abbrev main_v321 : Ref sig .tc := ⟨.hbm, 591, rfl⟩
abbrev main_cst_42 : Ref sig .tc := ⟨.hbm, 592, rfl⟩
abbrev main_v322 : Ref sig .tc := ⟨.hbm, 593, rfl⟩
abbrev main_cst_43 : Ref sig .tc := ⟨.hbm, 594, rfl⟩
abbrev main_v323 : Ref sig .tc := ⟨.hbm, 595, rfl⟩
abbrev main_v324 : Ref sig .tc := ⟨.hbm, 596, rfl⟩
abbrev main_c_44 : Ref sig .tc := ⟨.hbm, 597, rfl⟩
abbrev main_call14_cst : Ref sig .tc := ⟨.hbm, 598, rfl⟩
abbrev main_call14_v0 : Ref sig .tc := ⟨.hbm, 599, rfl⟩
abbrev main_call14_v1 : Ref sig .tc := ⟨.hbm, 600, rfl⟩
abbrev main_call14_cst_0 : Ref sig .tc := ⟨.hbm, 601, rfl⟩
abbrev main_call14_v2 : Ref sig .tc := ⟨.hbm, 602, rfl⟩
abbrev main_call14_v3 : Ref sig .tc := ⟨.hbm, 603, rfl⟩
abbrev main_call14_v4 : Ref sig .tc := ⟨.hbm, 604, rfl⟩
abbrev main_call14_v5 : Ref sig .tc := ⟨.hbm, 605, rfl⟩
abbrev main_call14_v6 : Ref sig .tc := ⟨.hbm, 606, rfl⟩
abbrev main_call14_v7 : Ref sig .tc := ⟨.hbm, 607, rfl⟩
abbrev main_call14_cst_1 : Ref sig .tc := ⟨.hbm, 608, rfl⟩
abbrev main_call14_v8 : Ref sig .tc := ⟨.hbm, 609, rfl⟩
abbrev main_call14_cst_2 : Ref sig .tc := ⟨.hbm, 610, rfl⟩
abbrev main_call14_v9 : Ref sig .tc := ⟨.hbm, 611, rfl⟩
abbrev main_call14_v10 : Ref sig .tc := ⟨.hbm, 612, rfl⟩
abbrev main_call14_v11 : Ref sig .tc := ⟨.hbm, 613, rfl⟩
abbrev main_call14_cst_3 : Ref sig .tc := ⟨.hbm, 614, rfl⟩
abbrev main_call14_v12 : Ref sig .tc := ⟨.hbm, 615, rfl⟩
abbrev main_call14_cst_4 : Ref sig .tc := ⟨.hbm, 616, rfl⟩
abbrev main_call14_call0_v0 : Ref sig .tc := ⟨.hbm, 617, rfl⟩
abbrev main_call14_call0_v1 : Ref sig .tc := ⟨.hbm, 618, rfl⟩
abbrev main_v325 : Ref sig .tc := ⟨.hbm, 619, rfl⟩
abbrev main_v326 : Ref sig .tc := ⟨.hbm, 620, rfl⟩
abbrev main_v327 : Ref sig .tc := ⟨.hbm, 621, rfl⟩
abbrev main_v328 : Ref sig .tc := ⟨.hbm, 622, rfl⟩
abbrev main_cst_45 : Ref sig .tc := ⟨.hbm, 623, rfl⟩
abbrev main_v329 : Ref sig .tc := ⟨.hbm, 624, rfl⟩
abbrev main_v330 : Ref sig .tc := ⟨.hbm, 625, rfl⟩
abbrev main_v331 : Ref sig .tc := ⟨.hbm, 626, rfl⟩
abbrev main_v332 : Ref sig .tc := ⟨.hbm, 627, rfl⟩
abbrev main_v333 : Ref sig .tc := ⟨.hbm, 628, rfl⟩
abbrev main_v334 : Ref sig .tc := ⟨.hbm, 629, rfl⟩
abbrev main_v335 : Ref sig .tc := ⟨.hbm, 630, rfl⟩
abbrev main_v336 : Ref sig .tc := ⟨.hbm, 631, rfl⟩
abbrev main_v337 : Ref sig .tc := ⟨.hbm, 632, rfl⟩
abbrev main_v338 : Ref sig .tc := ⟨.hbm, 633, rfl⟩
abbrev main_v339 : Ref sig .tc := ⟨.hbm, 634, rfl⟩
abbrev main_v340 : Ref sig .tc := ⟨.hbm, 635, rfl⟩
abbrev main_call15_cst : Ref sig .tc := ⟨.hbm, 636, rfl⟩
abbrev main_call15_v0 : Ref sig .tc := ⟨.hbm, 637, rfl⟩
abbrev main_v341 : Ref sig .tc := ⟨.hbm, 638, rfl⟩
abbrev main_v342 : Ref sig .tc := ⟨.hbm, 639, rfl⟩
abbrev main_v343 : Ref sig .tc := ⟨.hbm, 640, rfl⟩
abbrev main_v344 : Ref sig .tc := ⟨.hbm, 641, rfl⟩
abbrev main_v345 : Ref sig .tc := ⟨.hbm, 642, rfl⟩
abbrev main_v346 : Ref sig .tc := ⟨.hbm, 643, rfl⟩
abbrev main_v347 : Ref sig .tc := ⟨.hbm, 644, rfl⟩
abbrev main_v348 : Ref sig .tc := ⟨.hbm, 645, rfl⟩
abbrev main_v349 : Ref sig .tc := ⟨.hbm, 646, rfl⟩
abbrev main_v350 : Ref sig .tc := ⟨.hbm, 647, rfl⟩
abbrev main_v351 : Ref sig .tc := ⟨.hbm, 648, rfl⟩
abbrev main_v352 : Ref sig .tc := ⟨.hbm, 649, rfl⟩
abbrev main_v353 : Ref sig .tc := ⟨.hbm, 650, rfl⟩
abbrev main_cst_46 : Ref sig .tc := ⟨.hbm, 651, rfl⟩
abbrev main_v354 : Ref sig .tc := ⟨.hbm, 652, rfl⟩
abbrev main_cst_47 : Ref sig .tc := ⟨.hbm, 653, rfl⟩
abbrev main_v355 : Ref sig .tc := ⟨.hbm, 654, rfl⟩
abbrev main_v356 : Ref sig .tc := ⟨.hbm, 655, rfl⟩
abbrev main_c_48 : Ref sig .tc := ⟨.hbm, 656, rfl⟩
abbrev main_call16_cst : Ref sig .tc := ⟨.hbm, 657, rfl⟩
abbrev main_call16_v0 : Ref sig .tc := ⟨.hbm, 658, rfl⟩
abbrev main_call16_v1 : Ref sig .tc := ⟨.hbm, 659, rfl⟩
abbrev main_call16_cst_0 : Ref sig .tc := ⟨.hbm, 660, rfl⟩
abbrev main_call16_v2 : Ref sig .tc := ⟨.hbm, 661, rfl⟩
abbrev main_call16_v3 : Ref sig .tc := ⟨.hbm, 662, rfl⟩
abbrev main_call16_v4 : Ref sig .tc := ⟨.hbm, 663, rfl⟩
abbrev main_call16_v5 : Ref sig .tc := ⟨.hbm, 664, rfl⟩
abbrev main_call16_v6 : Ref sig .tc := ⟨.hbm, 665, rfl⟩
abbrev main_call16_v7 : Ref sig .tc := ⟨.hbm, 666, rfl⟩
abbrev main_call16_cst_1 : Ref sig .tc := ⟨.hbm, 667, rfl⟩
abbrev main_call16_v8 : Ref sig .tc := ⟨.hbm, 668, rfl⟩
abbrev main_call16_cst_2 : Ref sig .tc := ⟨.hbm, 669, rfl⟩
abbrev main_call16_v9 : Ref sig .tc := ⟨.hbm, 670, rfl⟩
abbrev main_call16_v10 : Ref sig .tc := ⟨.hbm, 671, rfl⟩
abbrev main_call16_v11 : Ref sig .tc := ⟨.hbm, 672, rfl⟩
abbrev main_call16_cst_3 : Ref sig .tc := ⟨.hbm, 673, rfl⟩
abbrev main_call16_v12 : Ref sig .tc := ⟨.hbm, 674, rfl⟩
abbrev main_call16_cst_4 : Ref sig .tc := ⟨.hbm, 675, rfl⟩
abbrev main_call16_call0_v0 : Ref sig .tc := ⟨.hbm, 676, rfl⟩
abbrev main_call16_call0_v1 : Ref sig .tc := ⟨.hbm, 677, rfl⟩
abbrev main_v357 : Ref sig .tc := ⟨.hbm, 678, rfl⟩
abbrev main_v358 : Ref sig .tc := ⟨.hbm, 679, rfl⟩
abbrev main_v359 : Ref sig .tc := ⟨.hbm, 680, rfl⟩
abbrev main_v360 : Ref sig .tc := ⟨.hbm, 681, rfl⟩
abbrev main_cst_49 : Ref sig .tc := ⟨.hbm, 682, rfl⟩
abbrev main_v361 : Ref sig .tc := ⟨.hbm, 683, rfl⟩
abbrev main_v362 : Ref sig .tc := ⟨.hbm, 684, rfl⟩
abbrev main_v363 : Ref sig .tc := ⟨.hbm, 685, rfl⟩
abbrev main_v364 : Ref sig .tc := ⟨.hbm, 686, rfl⟩
abbrev main_v365 : Ref sig .tc := ⟨.hbm, 687, rfl⟩
abbrev main_v366 : Ref sig .tc := ⟨.hbm, 688, rfl⟩
abbrev main_v367 : Ref sig .tc := ⟨.hbm, 689, rfl⟩
abbrev main_v368 : Ref sig .tc := ⟨.hbm, 690, rfl⟩
abbrev main_v369 : Ref sig .tc := ⟨.hbm, 691, rfl⟩
abbrev main_v370 : Ref sig .tc := ⟨.hbm, 692, rfl⟩
abbrev main_v371 : Ref sig .tc := ⟨.hbm, 693, rfl⟩
abbrev main_v372 : Ref sig .tc := ⟨.hbm, 694, rfl⟩
abbrev main_call17_cst : Ref sig .tc := ⟨.hbm, 695, rfl⟩
abbrev main_call17_v0 : Ref sig .tc := ⟨.hbm, 696, rfl⟩
abbrev main_v373 : Ref sig .tc := ⟨.hbm, 697, rfl⟩
abbrev main_v374 : Ref sig .tc := ⟨.hbm, 698, rfl⟩
abbrev main_v375 : Ref sig .tc := ⟨.hbm, 699, rfl⟩
abbrev main_v376 : Ref sig .tc := ⟨.hbm, 700, rfl⟩
abbrev main_v377 : Ref sig .tc := ⟨.hbm, 701, rfl⟩
abbrev main_v378 : Ref sig .tc := ⟨.hbm, 702, rfl⟩
abbrev main_v379 : Ref sig .tc := ⟨.hbm, 703, rfl⟩
abbrev main_v380 : Ref sig .tc := ⟨.hbm, 704, rfl⟩
abbrev main_v381 : Ref sig .tc := ⟨.hbm, 705, rfl⟩
abbrev main_cst_50 : Ref sig .tc := ⟨.hbm, 706, rfl⟩
abbrev main_v382 : Ref sig .tc := ⟨.hbm, 707, rfl⟩
abbrev main_v383 : Ref sig .tc := ⟨.hbm, 708, rfl⟩
abbrev main_v384 : Ref sig .tc := ⟨.hbm, 709, rfl⟩
abbrev main_v385 : Ref sig .tc := ⟨.hbm, 710, rfl⟩
abbrev main_v386 : Ref sig .tc := ⟨.hbm, 711, rfl⟩
abbrev main_v387 : Ref sig .tc := ⟨.hbm, 712, rfl⟩
abbrev main_v388 : Ref sig .tc := ⟨.hbm, 713, rfl⟩
abbrev main_cst_51 : Ref sig .tc := ⟨.hbm, 714, rfl⟩
abbrev main_v389 : Ref sig .tc := ⟨.hbm, 715, rfl⟩
abbrev main_cst_52 : Ref sig .tc := ⟨.hbm, 716, rfl⟩
abbrev main_v390 : Ref sig .tc := ⟨.hbm, 717, rfl⟩
abbrev main_v391 : Ref sig .tc := ⟨.hbm, 718, rfl⟩
abbrev main_c_53 : Ref sig .tc := ⟨.hbm, 719, rfl⟩
abbrev main_call18_cst : Ref sig .tc := ⟨.hbm, 720, rfl⟩
abbrev main_call18_v0 : Ref sig .tc := ⟨.hbm, 721, rfl⟩
abbrev main_call18_v1 : Ref sig .tc := ⟨.hbm, 722, rfl⟩
abbrev main_call18_cst_0 : Ref sig .tc := ⟨.hbm, 723, rfl⟩
abbrev main_call18_v2 : Ref sig .tc := ⟨.hbm, 724, rfl⟩
abbrev main_call18_v3 : Ref sig .tc := ⟨.hbm, 725, rfl⟩
abbrev main_call18_v4 : Ref sig .tc := ⟨.hbm, 726, rfl⟩
abbrev main_call18_v5 : Ref sig .tc := ⟨.hbm, 727, rfl⟩
abbrev main_call18_v6 : Ref sig .tc := ⟨.hbm, 728, rfl⟩
abbrev main_call18_v7 : Ref sig .tc := ⟨.hbm, 729, rfl⟩
abbrev main_call18_cst_1 : Ref sig .tc := ⟨.hbm, 730, rfl⟩
abbrev main_call18_v8 : Ref sig .tc := ⟨.hbm, 731, rfl⟩
abbrev main_call18_cst_2 : Ref sig .tc := ⟨.hbm, 732, rfl⟩
abbrev main_call18_v9 : Ref sig .tc := ⟨.hbm, 733, rfl⟩
abbrev main_call18_v10 : Ref sig .tc := ⟨.hbm, 734, rfl⟩
abbrev main_call18_v11 : Ref sig .tc := ⟨.hbm, 735, rfl⟩
abbrev main_call18_cst_3 : Ref sig .tc := ⟨.hbm, 736, rfl⟩
abbrev main_call18_v12 : Ref sig .tc := ⟨.hbm, 737, rfl⟩
abbrev main_call18_cst_4 : Ref sig .tc := ⟨.hbm, 738, rfl⟩
abbrev main_call18_call0_v0 : Ref sig .tc := ⟨.hbm, 739, rfl⟩
abbrev main_call18_call0_v1 : Ref sig .tc := ⟨.hbm, 740, rfl⟩
abbrev main_v392 : Ref sig .tc := ⟨.hbm, 741, rfl⟩
abbrev main_v393 : Ref sig .tc := ⟨.hbm, 742, rfl⟩
abbrev main_v394 : Ref sig .tc := ⟨.hbm, 743, rfl⟩
abbrev main_v395 : Ref sig .tc := ⟨.hbm, 744, rfl⟩
abbrev main_cst_54 : Ref sig .tc := ⟨.hbm, 745, rfl⟩
abbrev main_v396 : Ref sig .tc := ⟨.hbm, 746, rfl⟩
abbrev main_v397 : Ref sig .tc := ⟨.hbm, 747, rfl⟩
abbrev main_v398 : Ref sig .tc := ⟨.hbm, 748, rfl⟩
abbrev main_v399 : Ref sig .tc := ⟨.hbm, 749, rfl⟩
abbrev main_v400 : Ref sig .tc := ⟨.hbm, 750, rfl⟩
abbrev main_v401 : Ref sig .tc := ⟨.hbm, 751, rfl⟩
abbrev main_v402 : Ref sig .tc := ⟨.hbm, 752, rfl⟩
abbrev main_v403 : Ref sig .tc := ⟨.hbm, 753, rfl⟩
abbrev main_v404 : Ref sig .tc := ⟨.hbm, 754, rfl⟩
abbrev main_v405 : Ref sig .tc := ⟨.hbm, 755, rfl⟩
abbrev main_v406 : Ref sig .tc := ⟨.hbm, 756, rfl⟩
abbrev main_v407 : Ref sig .tc := ⟨.hbm, 757, rfl⟩
abbrev main_v408 : Ref sig .tc := ⟨.hbm, 758, rfl⟩
abbrev main_v409 : Ref sig .tc := ⟨.hbm, 759, rfl⟩
abbrev main_v410 : Ref sig .tc := ⟨.hbm, 760, rfl⟩
abbrev main_v411 : Ref sig .tc := ⟨.hbm, 761, rfl⟩
abbrev main_v412 : Ref sig .tc := ⟨.hbm, 762, rfl⟩
abbrev main_v413 : Ref sig .tc := ⟨.hbm, 763, rfl⟩
abbrev main_v414 : Ref sig .tc := ⟨.hbm, 764, rfl⟩
abbrev main_v415 : Ref sig .tc := ⟨.hbm, 765, rfl⟩
abbrev main_c_55 : Ref sig .tc := ⟨.hbm, 766, rfl⟩
abbrev main_v416 : Ref sig .tc := ⟨.hbm, 767, rfl⟩
abbrev main_v417 : Ref sig .tc := ⟨.hbm, 768, rfl⟩
abbrev main_c_56 : Ref sig .tc := ⟨.hbm, 769, rfl⟩
abbrev main_v418 : Ref sig .tc := ⟨.hbm, 770, rfl⟩
abbrev main_v419 : Ref sig .tc := ⟨.hbm, 771, rfl⟩
abbrev main_v420 : Ref sig .tc := ⟨.hbm, 772, rfl⟩
abbrev main_v421 : Ref sig .tc := ⟨.hbm, 773, rfl⟩
abbrev main_v422 : Ref sig .tc := ⟨.hbm, 774, rfl⟩
abbrev main_cst_57 : Ref sig .tc := ⟨.hbm, 775, rfl⟩
abbrev main_v423 : Ref sig .tc := ⟨.hbm, 776, rfl⟩
abbrev main_v424 : Ref sig .tc := ⟨.hbm, 777, rfl⟩
abbrev main_v425 : Ref sig .tc := ⟨.hbm, 778, rfl⟩
abbrev main_v426 : Ref sig .tc := ⟨.hbm, 779, rfl⟩
abbrev main_v427 : Ref sig .tc := ⟨.hbm, 780, rfl⟩
abbrev main_v428 : Ref sig .tc := ⟨.hbm, 781, rfl⟩
abbrev main_v429 : Ref sig .tc := ⟨.hbm, 782, rfl⟩
abbrev main_v430 : Ref sig .tc := ⟨.hbm, 783, rfl⟩
abbrev main_v431 : Ref sig .tc := ⟨.hbm, 784, rfl⟩
abbrev main_v432 : Ref sig .tc := ⟨.hbm, 785, rfl⟩
abbrev main_v433 : Ref sig .tc := ⟨.hbm, 786, rfl⟩
abbrev main_v434 : Ref sig .tc := ⟨.hbm, 787, rfl⟩
abbrev main_v435 : Ref sig .tc := ⟨.hbm, 788, rfl⟩
abbrev main_v436 : Ref sig .tc := ⟨.hbm, 789, rfl⟩
abbrev main_v437 : Ref sig .tc := ⟨.hbm, 790, rfl⟩
abbrev main_cst_58 : Ref sig .tc := ⟨.hbm, 791, rfl⟩
abbrev main_v438 : Ref sig .tc := ⟨.hbm, 792, rfl⟩
abbrev main_cst_59 : Ref sig .tc := ⟨.hbm, 793, rfl⟩
abbrev main_v439 : Ref sig .tc := ⟨.hbm, 794, rfl⟩
abbrev main_v440 : Ref sig .tc := ⟨.hbm, 795, rfl⟩
abbrev main_c_60 : Ref sig .tc := ⟨.hbm, 796, rfl⟩
abbrev main_call19_cst : Ref sig .tc := ⟨.hbm, 797, rfl⟩
abbrev main_call19_v0 : Ref sig .tc := ⟨.hbm, 798, rfl⟩
abbrev main_call19_v1 : Ref sig .tc := ⟨.hbm, 799, rfl⟩
abbrev main_call19_cst_0 : Ref sig .tc := ⟨.hbm, 800, rfl⟩
abbrev main_call19_v2 : Ref sig .tc := ⟨.hbm, 801, rfl⟩
abbrev main_call19_v3 : Ref sig .tc := ⟨.hbm, 802, rfl⟩
abbrev main_call19_v4 : Ref sig .tc := ⟨.hbm, 803, rfl⟩
abbrev main_call19_v5 : Ref sig .tc := ⟨.hbm, 804, rfl⟩
abbrev main_call19_v6 : Ref sig .tc := ⟨.hbm, 805, rfl⟩
abbrev main_call19_v7 : Ref sig .tc := ⟨.hbm, 806, rfl⟩
abbrev main_call19_cst_1 : Ref sig .tc := ⟨.hbm, 807, rfl⟩
abbrev main_call19_v8 : Ref sig .tc := ⟨.hbm, 808, rfl⟩
abbrev main_call19_cst_2 : Ref sig .tc := ⟨.hbm, 809, rfl⟩
abbrev main_call19_v9 : Ref sig .tc := ⟨.hbm, 810, rfl⟩
abbrev main_call19_v10 : Ref sig .tc := ⟨.hbm, 811, rfl⟩
abbrev main_call19_v11 : Ref sig .tc := ⟨.hbm, 812, rfl⟩
abbrev main_call19_cst_3 : Ref sig .tc := ⟨.hbm, 813, rfl⟩
abbrev main_call19_v12 : Ref sig .tc := ⟨.hbm, 814, rfl⟩
abbrev main_call19_cst_4 : Ref sig .tc := ⟨.hbm, 815, rfl⟩
abbrev main_call19_call0_v0 : Ref sig .tc := ⟨.hbm, 816, rfl⟩
abbrev main_call19_call0_v1 : Ref sig .tc := ⟨.hbm, 817, rfl⟩
abbrev main_v441 : Ref sig .tc := ⟨.hbm, 818, rfl⟩
abbrev main_v442 : Ref sig .tc := ⟨.hbm, 819, rfl⟩
abbrev main_v443 : Ref sig .tc := ⟨.hbm, 820, rfl⟩
abbrev main_v444 : Ref sig .tc := ⟨.hbm, 821, rfl⟩
abbrev main_cst_61 : Ref sig .tc := ⟨.hbm, 822, rfl⟩
abbrev main_v445 : Ref sig .tc := ⟨.hbm, 823, rfl⟩
abbrev main_v446 : Ref sig .tc := ⟨.hbm, 824, rfl⟩
abbrev main_v447 : Ref sig .tc := ⟨.hbm, 825, rfl⟩
abbrev main_v448 : Ref sig .tc := ⟨.hbm, 826, rfl⟩
abbrev main_v449 : Ref sig .tc := ⟨.hbm, 827, rfl⟩
abbrev main_v450 : Ref sig .tc := ⟨.hbm, 828, rfl⟩
abbrev main_v451 : Ref sig .tc := ⟨.hbm, 829, rfl⟩
abbrev main_v452 : Ref sig .tc := ⟨.hbm, 830, rfl⟩
abbrev main_v453 : Ref sig .tc := ⟨.hbm, 831, rfl⟩
abbrev main_v454 : Ref sig .tc := ⟨.hbm, 832, rfl⟩
abbrev main_v455 : Ref sig .tc := ⟨.hbm, 833, rfl⟩
abbrev main_v456 : Ref sig .tc := ⟨.hbm, 834, rfl⟩
abbrev main_v457 : Ref sig .tc := ⟨.hbm, 835, rfl⟩
abbrev main_v458 : Ref sig .tc := ⟨.hbm, 836, rfl⟩
abbrev main_v459 : Ref sig .tc := ⟨.hbm, 837, rfl⟩
abbrev main_v460 : Ref sig .tc := ⟨.hbm, 838, rfl⟩
abbrev main_cst_62 : Ref sig .tc := ⟨.hbm, 839, rfl⟩
abbrev main_v461 : Ref sig .tc := ⟨.hbm, 840, rfl⟩
abbrev main_cst_63 : Ref sig .tc := ⟨.hbm, 841, rfl⟩
abbrev main_v462 : Ref sig .tc := ⟨.hbm, 842, rfl⟩
abbrev main_v463 : Ref sig .tc := ⟨.hbm, 843, rfl⟩
abbrev main_c_64 : Ref sig .tc := ⟨.hbm, 844, rfl⟩
abbrev main_call20_cst : Ref sig .tc := ⟨.hbm, 845, rfl⟩
abbrev main_call20_v0 : Ref sig .tc := ⟨.hbm, 846, rfl⟩
abbrev main_call20_v1 : Ref sig .tc := ⟨.hbm, 847, rfl⟩
abbrev main_call20_cst_0 : Ref sig .tc := ⟨.hbm, 848, rfl⟩
abbrev main_call20_v2 : Ref sig .tc := ⟨.hbm, 849, rfl⟩
abbrev main_call20_v3 : Ref sig .tc := ⟨.hbm, 850, rfl⟩
abbrev main_call20_v4 : Ref sig .tc := ⟨.hbm, 851, rfl⟩
abbrev main_call20_v5 : Ref sig .tc := ⟨.hbm, 852, rfl⟩
abbrev main_call20_v6 : Ref sig .tc := ⟨.hbm, 853, rfl⟩
abbrev main_call20_v7 : Ref sig .tc := ⟨.hbm, 854, rfl⟩
abbrev main_call20_cst_1 : Ref sig .tc := ⟨.hbm, 855, rfl⟩
abbrev main_call20_v8 : Ref sig .tc := ⟨.hbm, 856, rfl⟩
abbrev main_call20_cst_2 : Ref sig .tc := ⟨.hbm, 857, rfl⟩
abbrev main_call20_v9 : Ref sig .tc := ⟨.hbm, 858, rfl⟩
abbrev main_call20_v10 : Ref sig .tc := ⟨.hbm, 859, rfl⟩
abbrev main_call20_v11 : Ref sig .tc := ⟨.hbm, 860, rfl⟩
abbrev main_call20_cst_3 : Ref sig .tc := ⟨.hbm, 861, rfl⟩
abbrev main_call20_v12 : Ref sig .tc := ⟨.hbm, 862, rfl⟩
abbrev main_call20_cst_4 : Ref sig .tc := ⟨.hbm, 863, rfl⟩
abbrev main_call20_call0_v0 : Ref sig .tc := ⟨.hbm, 864, rfl⟩
abbrev main_call20_call0_v1 : Ref sig .tc := ⟨.hbm, 865, rfl⟩
abbrev main_v464 : Ref sig .tc := ⟨.hbm, 866, rfl⟩
abbrev main_v465 : Ref sig .tc := ⟨.hbm, 867, rfl⟩
abbrev main_v466 : Ref sig .tc := ⟨.hbm, 868, rfl⟩
abbrev main_v467 : Ref sig .tc := ⟨.hbm, 869, rfl⟩
abbrev main_cst_65 : Ref sig .tc := ⟨.hbm, 870, rfl⟩
abbrev main_v468 : Ref sig .tc := ⟨.hbm, 871, rfl⟩
abbrev main_v469 : Ref sig .tc := ⟨.hbm, 872, rfl⟩
abbrev main_v470 : Ref sig .tc := ⟨.hbm, 873, rfl⟩
abbrev main_v471 : Ref sig .tc := ⟨.hbm, 874, rfl⟩
abbrev main_v472 : Ref sig .tc := ⟨.hbm, 875, rfl⟩
abbrev main_v473 : Ref sig .tc := ⟨.hbm, 876, rfl⟩
abbrev main_v474 : Ref sig .tc := ⟨.hbm, 877, rfl⟩
abbrev main_v475 : Ref sig .tc := ⟨.hbm, 878, rfl⟩
abbrev main_v476 : Ref sig .tc := ⟨.hbm, 879, rfl⟩
abbrev main_v477 : Ref sig .tc := ⟨.hbm, 880, rfl⟩
abbrev main_v478 : Ref sig .tc := ⟨.hbm, 881, rfl⟩
abbrev main_v479 : Ref sig .tc := ⟨.hbm, 882, rfl⟩
abbrev main_v480 : Ref sig .tc := ⟨.hbm, 883, rfl⟩
abbrev main_v481 : Ref sig .tc := ⟨.hbm, 884, rfl⟩
abbrev main_call21_cst : Ref sig .tc := ⟨.hbm, 885, rfl⟩
abbrev main_call21_v0 : Ref sig .tc := ⟨.hbm, 886, rfl⟩
abbrev main_v482 : Ref sig .tc := ⟨.hbm, 887, rfl⟩
abbrev main_v483 : Ref sig .tc := ⟨.hbm, 888, rfl⟩
abbrev main_v484 : Ref sig .tc := ⟨.hbm, 889, rfl⟩
abbrev main_v485 : Ref sig .tc := ⟨.hbm, 890, rfl⟩
abbrev main_v486 : Ref sig .tc := ⟨.hbm, 891, rfl⟩
abbrev main_v487 : Ref sig .tc := ⟨.hbm, 892, rfl⟩
abbrev main_v488 : Ref sig .tc := ⟨.hbm, 893, rfl⟩
abbrev main_v489 : Ref sig .tc := ⟨.hbm, 894, rfl⟩
abbrev main_v490 : Ref sig .tc := ⟨.hbm, 895, rfl⟩
abbrev main_v491 : Ref sig .tc := ⟨.hbm, 896, rfl⟩
abbrev main_v492 : Ref sig .tc := ⟨.hbm, 897, rfl⟩
abbrev main_v493 : Ref sig .tc := ⟨.hbm, 898, rfl⟩
abbrev main_v494 : Ref sig .tc := ⟨.hbm, 899, rfl⟩
abbrev main_cst_66 : Ref sig .tc := ⟨.hbm, 900, rfl⟩
abbrev main_v495 : Ref sig .tc := ⟨.hbm, 901, rfl⟩
abbrev main_cst_67 : Ref sig .tc := ⟨.hbm, 902, rfl⟩
abbrev main_v496 : Ref sig .tc := ⟨.hbm, 903, rfl⟩
abbrev main_v497 : Ref sig .tc := ⟨.hbm, 904, rfl⟩
abbrev main_c_68 : Ref sig .tc := ⟨.hbm, 905, rfl⟩
abbrev main_call22_cst : Ref sig .tc := ⟨.hbm, 906, rfl⟩
abbrev main_call22_v0 : Ref sig .tc := ⟨.hbm, 907, rfl⟩
abbrev main_call22_v1 : Ref sig .tc := ⟨.hbm, 908, rfl⟩
abbrev main_call22_cst_0 : Ref sig .tc := ⟨.hbm, 909, rfl⟩
abbrev main_call22_v2 : Ref sig .tc := ⟨.hbm, 910, rfl⟩
abbrev main_call22_v3 : Ref sig .tc := ⟨.hbm, 911, rfl⟩
abbrev main_call22_v4 : Ref sig .tc := ⟨.hbm, 912, rfl⟩
abbrev main_call22_v5 : Ref sig .tc := ⟨.hbm, 913, rfl⟩
abbrev main_call22_v6 : Ref sig .tc := ⟨.hbm, 914, rfl⟩
abbrev main_call22_v7 : Ref sig .tc := ⟨.hbm, 915, rfl⟩
abbrev main_call22_cst_1 : Ref sig .tc := ⟨.hbm, 916, rfl⟩
abbrev main_call22_v8 : Ref sig .tc := ⟨.hbm, 917, rfl⟩
abbrev main_call22_cst_2 : Ref sig .tc := ⟨.hbm, 918, rfl⟩
abbrev main_call22_v9 : Ref sig .tc := ⟨.hbm, 919, rfl⟩
abbrev main_call22_v10 : Ref sig .tc := ⟨.hbm, 920, rfl⟩
abbrev main_call22_v11 : Ref sig .tc := ⟨.hbm, 921, rfl⟩
abbrev main_call22_cst_3 : Ref sig .tc := ⟨.hbm, 922, rfl⟩
abbrev main_call22_v12 : Ref sig .tc := ⟨.hbm, 923, rfl⟩
abbrev main_call22_cst_4 : Ref sig .tc := ⟨.hbm, 924, rfl⟩
abbrev main_call22_call0_v0 : Ref sig .tc := ⟨.hbm, 925, rfl⟩
abbrev main_call22_call0_v1 : Ref sig .tc := ⟨.hbm, 926, rfl⟩
abbrev main_v498 : Ref sig .tc := ⟨.hbm, 927, rfl⟩
abbrev main_v499 : Ref sig .tc := ⟨.hbm, 928, rfl⟩
abbrev main_v500 : Ref sig .tc := ⟨.hbm, 929, rfl⟩
abbrev main_v501 : Ref sig .tc := ⟨.hbm, 930, rfl⟩
abbrev main_cst_69 : Ref sig .tc := ⟨.hbm, 931, rfl⟩
abbrev main_v502 : Ref sig .tc := ⟨.hbm, 932, rfl⟩
abbrev main_v503 : Ref sig .tc := ⟨.hbm, 933, rfl⟩
abbrev main_v504 : Ref sig .tc := ⟨.hbm, 934, rfl⟩
abbrev main_v505 : Ref sig .tc := ⟨.hbm, 935, rfl⟩
abbrev main_v506 : Ref sig .tc := ⟨.hbm, 936, rfl⟩
abbrev main_v507 : Ref sig .tc := ⟨.hbm, 937, rfl⟩
abbrev main_v508 : Ref sig .tc := ⟨.hbm, 938, rfl⟩
abbrev main_v509 : Ref sig .tc := ⟨.hbm, 939, rfl⟩
abbrev main_v510 : Ref sig .tc := ⟨.hbm, 940, rfl⟩
abbrev main_v511 : Ref sig .tc := ⟨.hbm, 941, rfl⟩
abbrev main_v512 : Ref sig .tc := ⟨.hbm, 942, rfl⟩
abbrev main_v513 : Ref sig .tc := ⟨.hbm, 943, rfl⟩
abbrev main_call23_cst : Ref sig .tc := ⟨.hbm, 944, rfl⟩
abbrev main_call23_v0 : Ref sig .tc := ⟨.hbm, 945, rfl⟩
abbrev main_v514 : Ref sig .tc := ⟨.hbm, 946, rfl⟩
abbrev main_v515 : Ref sig .tc := ⟨.hbm, 947, rfl⟩
abbrev main_v516 : Ref sig .tc := ⟨.hbm, 948, rfl⟩
abbrev main_v517 : Ref sig .tc := ⟨.hbm, 949, rfl⟩
abbrev main_v518 : Ref sig .tc := ⟨.hbm, 950, rfl⟩
abbrev main_v519 : Ref sig .tc := ⟨.hbm, 951, rfl⟩
abbrev main_v520 : Ref sig .tc := ⟨.hbm, 952, rfl⟩
abbrev main_v521 : Ref sig .tc := ⟨.hbm, 953, rfl⟩
abbrev main_v522 : Ref sig .tc := ⟨.hbm, 954, rfl⟩
abbrev main_v523 : Ref sig .tc := ⟨.hbm, 955, rfl⟩
abbrev main_v524 : Ref sig .tc := ⟨.hbm, 956, rfl⟩
abbrev main_v525 : Ref sig .tc := ⟨.hbm, 957, rfl⟩
abbrev main_v526 : Ref sig .tc := ⟨.hbm, 958, rfl⟩
abbrev main_cst_70 : Ref sig .tc := ⟨.hbm, 959, rfl⟩
abbrev main_v527 : Ref sig .tc := ⟨.hbm, 960, rfl⟩
abbrev main_cst_71 : Ref sig .tc := ⟨.hbm, 961, rfl⟩
abbrev main_v528 : Ref sig .tc := ⟨.hbm, 962, rfl⟩
abbrev main_v529 : Ref sig .tc := ⟨.hbm, 963, rfl⟩
abbrev main_c_72 : Ref sig .tc := ⟨.hbm, 964, rfl⟩
abbrev main_call24_cst : Ref sig .tc := ⟨.hbm, 965, rfl⟩
abbrev main_call24_v0 : Ref sig .tc := ⟨.hbm, 966, rfl⟩
abbrev main_call24_v1 : Ref sig .tc := ⟨.hbm, 967, rfl⟩
abbrev main_call24_cst_0 : Ref sig .tc := ⟨.hbm, 968, rfl⟩
abbrev main_call24_v2 : Ref sig .tc := ⟨.hbm, 969, rfl⟩
abbrev main_call24_v3 : Ref sig .tc := ⟨.hbm, 970, rfl⟩
abbrev main_call24_v4 : Ref sig .tc := ⟨.hbm, 971, rfl⟩
abbrev main_call24_v5 : Ref sig .tc := ⟨.hbm, 972, rfl⟩
abbrev main_call24_v6 : Ref sig .tc := ⟨.hbm, 973, rfl⟩
abbrev main_call24_v7 : Ref sig .tc := ⟨.hbm, 974, rfl⟩
abbrev main_call24_cst_1 : Ref sig .tc := ⟨.hbm, 975, rfl⟩
abbrev main_call24_v8 : Ref sig .tc := ⟨.hbm, 976, rfl⟩
abbrev main_call24_cst_2 : Ref sig .tc := ⟨.hbm, 977, rfl⟩
abbrev main_call24_v9 : Ref sig .tc := ⟨.hbm, 978, rfl⟩
abbrev main_call24_v10 : Ref sig .tc := ⟨.hbm, 979, rfl⟩
abbrev main_call24_v11 : Ref sig .tc := ⟨.hbm, 980, rfl⟩
abbrev main_call24_cst_3 : Ref sig .tc := ⟨.hbm, 981, rfl⟩
abbrev main_call24_v12 : Ref sig .tc := ⟨.hbm, 982, rfl⟩
abbrev main_call24_cst_4 : Ref sig .tc := ⟨.hbm, 983, rfl⟩
abbrev main_call24_call0_v0 : Ref sig .tc := ⟨.hbm, 984, rfl⟩
abbrev main_call24_call0_v1 : Ref sig .tc := ⟨.hbm, 985, rfl⟩
abbrev main_v530 : Ref sig .tc := ⟨.hbm, 986, rfl⟩
abbrev main_v531 : Ref sig .tc := ⟨.hbm, 987, rfl⟩
abbrev main_v532 : Ref sig .tc := ⟨.hbm, 988, rfl⟩
abbrev main_v533 : Ref sig .tc := ⟨.hbm, 989, rfl⟩
abbrev main_cst_73 : Ref sig .tc := ⟨.hbm, 990, rfl⟩
abbrev main_v534 : Ref sig .tc := ⟨.hbm, 991, rfl⟩
abbrev main_v535 : Ref sig .tc := ⟨.hbm, 992, rfl⟩
abbrev main_v536 : Ref sig .tc := ⟨.hbm, 993, rfl⟩
abbrev main_v537 : Ref sig .tc := ⟨.hbm, 994, rfl⟩
abbrev main_v538 : Ref sig .tc := ⟨.hbm, 995, rfl⟩
abbrev main_v539 : Ref sig .tc := ⟨.hbm, 996, rfl⟩
abbrev main_v540 : Ref sig .tc := ⟨.hbm, 997, rfl⟩
abbrev main_v541 : Ref sig .tc := ⟨.hbm, 998, rfl⟩
abbrev main_v542 : Ref sig .tc := ⟨.hbm, 999, rfl⟩
abbrev main_v543 : Ref sig .tc := ⟨.hbm, 1000, rfl⟩
abbrev main_v544 : Ref sig .tc := ⟨.hbm, 1001, rfl⟩
abbrev main_v545 : Ref sig .tc := ⟨.hbm, 1002, rfl⟩
abbrev main_call25_cst : Ref sig .tc := ⟨.hbm, 1003, rfl⟩
abbrev main_call25_v0 : Ref sig .tc := ⟨.hbm, 1004, rfl⟩
abbrev main_v546 : Ref sig .tc := ⟨.hbm, 1005, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  reducesTo_S40000x128_S128_d0 : S40000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S40000x128 : S_.BroadcastsInDim S40000x128 (![] : Fin 0 → Fin S40000x128.rank)
  slices_S3x1x128_S1x1x128_0_0_0 : S3x1x128.Slices ![0, 0, 0] S1x1x128
  shapeCasts_S1x1x128_S1x128 : S1x1x128.ShapeCasts S1x128
  slices_S3x128_S1x128_0_0 : S3x128.Slices ![0, 0] S1x128
  shapeCasts_S1x128_S128 : S1x128.ShapeCasts S128
  bcast_S1x128_S640000x128_0_1 : S1x128.BroadcastsInDim S640000x128 (![0, 1] : Fin 2 → Fin S640000x128.rank)
  bcast_S640000_S640000x1_0 : S640000.BroadcastsInDim S640000x1 (![0] : Fin 1 → Fin S640000x1.rank)
  slices_S3x128x128_S1x128x128_0_0_0 : S3x128x128.Slices ![0, 0, 0] S1x128x128
  shapeCasts_S1x128x128_S128x128 : S1x128x128.ShapeCasts S128x128
  bcast_S_S640000 : S_.BroadcastsInDim S640000 (![] : Fin 0 → Fin S640000.rank)
  slices_S3x1x128_S1x1x128_1_0_0 : S3x1x128.Slices ![1, 0, 0] S1x1x128
  slices_S3x128_S1x128_1_0 : S3x128.Slices ![1, 0] S1x128
  slices_S3x128x128_S1x128x128_1_0_0 : S3x128x128.Slices ![1, 0, 0] S1x128x128
  slices_S3x1x128_S1x1x128_2_0_0 : S3x1x128.Slices ![2, 0, 0] S1x1x128
  slices_S3x128_S1x128_2_0 : S3x128.Slices ![2, 0] S1x128
  slices_S3x128x128_S1x128x128_2_0_0 : S3x128x128.Slices ![2, 0, 0] S1x128x128
  dot_S40000x2_S2x128_S40000x128_1_0_0_1_n_n_wf : DotDims.WF S40000x2 S2x128 S40000x128 [1] [0] [0] [1] [] []
  dot_S640000x1_S1x128_S640000x128_1_0_0_1_n_n_wf : DotDims.WF S640000x1 S1x128 S640000x128 [1] [0] [0] [1] [] []
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []
  gather_S40000x128_S640000x1_S640000x128_1_0_n_n_0_1_1128_wf : GatherDims.WF S40000x128 S640000x1 S640000x128 [1] [0] [] [0] [] 1 ![1, 128]

variable [Facts₀]

def dot_S40000x2_S2x128_S40000x128_1_0_0_1_n_n : DotDims S40000x2 S2x128 S40000x128 where
  lhsContracting := [1]
  rhsContracting := [0]
  lhsNonContracting := [0]
  rhsNonContracting := [1]
  lhsBatch := []
  rhsBatch := []
  wf := dot_S40000x2_S2x128_S40000x128_1_0_0_1_n_n_wf
def dot_S640000x1_S1x128_S640000x128_1_0_0_1_n_n : DotDims S640000x1 S1x128 S640000x128 where
  lhsContracting := [1]
  rhsContracting := [0]
  lhsNonContracting := [0]
  rhsNonContracting := [1]
  lhsBatch := []
  rhsBatch := []
  wf := dot_S640000x1_S1x128_S640000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf

class Facts : Prop extends Facts₀ where

variable [Facts]
-- ==== Proof.KFoldTac.lean ====
/-
  Reading one buffer after a stretch of host operations: each operation's result at its own buffer is its
  function's value, and at any other buffer what was there; the two buffers are told apart by the kernel's
  evaluation of their equality test.
-/
import Idealize.ShloMosaic.Lib.StableHlo.Run

namespace Cert.KernelIdeal.KFold

open Idealize.ShloMosaic Idealize.ShloMosaic.StableHlo

/-- The library's `after_results`, the inequalities of references decided by the kernel. -/
macro "after_results_k" : tactic =>
  `(tactic| (simp only [after_cons, after_nil]
             repeat (first
               | rw [nullary_result] | rw [unary_result] | rw [binary_result] | rw [ternary_result] | rw [reshape_result]
               | (rw [nullary_result_ne]; rotate_left; decide +kernel)
               | (rw [unary_result_ne]; rotate_left; decide +kernel)
               | (rw [binary_result_ne]; rotate_left; decide +kernel)
               | (rw [ternary_result_ne]; rotate_left; decide +kernel)
               | (rw [reshape_result_ne]; rotate_left; decide +kernel))))

end Cert.KernelIdeal.KFold
-- ==== Proof.KFoldSteps.lean ====
/-
  One stretch of host operations leaves every buffer it does not write as it found it.

  For each stretch between two regions: the list of the references its operations write, and the statement that a
  reference different from all of them holds, after the stretch, what it held before. The buffer contents at the
  boundaries are the fold `W0 … W59` of the run.
-/
import proofs.«426021_j89885075570707_3_alg».proof.Proof.Gen.KernelIdeal.Frame

set_option maxRecDepth 16384
-- one theorem at a time: each side condition is decided by the kernel, and in parallel these pass the machine's memory
set_option Elab.async false

noncomputable section

namespace Cert.KernelIdeal.KFold

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

/-- What the stretch `hostOps0` writes. -/
abbrev ws0 : List (Ref sig .tc) :=
  [main_v0, main_v1, main_v2, main_v3, main_cst, main_v4, main_cst_0, main_v5, main_v6, main_v7, main_v8,
    main_cst_1, main_v9, main_v10, main_v11, main_v12, main_v13]
/-- A reference outside `ws0` keeps its contents from boundary 0 to boundary 1. -/
theorem hs0 (c : Dev nD) (b : Ref sig .tc) (hb : ∀ y ∈ ws0, b ≠ y) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws0, List.mem_cons, List.mem_nil_iff, eq_self_iff_true, true_or, or_true]))))

/-- What the stretch `hostOps1` writes. -/
abbrev ws1 : List (Ref sig .tc) :=
  [main_cst_2, main_v15, main_cst_3, main_v16, main_v17, main_c]
/-- A reference outside `ws1` keeps its contents from boundary 2 to boundary 3. -/
theorem hs1 (c : Dev nD) (b : Ref sig .tc) (hb : ∀ y ∈ ws1, b ≠ y) :
    W3 m ρ c (Proc.devRef .tc b) = W2 m ρ c (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws1, List.mem_cons, List.mem_nil_iff, eq_self_iff_true, true_or, or_true]))))

/-- What the stretch `hostOps1_1` writes. -/
abbrev ws1_1 : List (Ref sig .tc) :=
  [main_call0_cst, main_call0_v0, main_call0_v1, main_call0_cst_0, main_call0_v2, main_call0_v3, main_call0_v4,
    main_call0_v5, main_call0_v6, main_call0_v7, main_call0_cst_1, main_call0_v8, main_call0_cst_2,
    main_call0_v9, main_call0_v10, main_call0_v11, main_call0_cst_3, main_call0_v12, main_call0_cst_4,
    main_call0_call0_v0, main_call0_call0_v1, main_v18]
/-- A reference outside `ws1_1` keeps its contents from boundary 3 to boundary 4. -/
theorem hs1_1 (c : Dev nD) (b : Ref sig .tc) (hb : ∀ y ∈ ws1_1, b ≠ y) :
    W4 m ρ c (Proc.devRef .tc b) = W3 m ρ c (Proc.devRef .tc b) :=
  StableHlo.after_of_forall_not_mem (b := Proc.devRef .tc b) _ _ (List.forall_iff_forall_mem.mp (by
    simp only [hostOps1_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws1_1, List.mem_cons, List.mem_nil_iff, eq_self_iff_true, true_or, or_true]))))

/-- What the stretch `hostOps1_2` writes. -/
abbrev ws1_2 : List (Ref sig .tc) :=
  [main_v19, main_v20, main_v21, main_v22]
/-- A reference outside `ws1_2` keeps its contents from boundary 4 to boundary 5. -/
theorem hs1_2 (c : Dev nD) (b : Ref sig .tc) (hb : ∀ y ∈ ws1_2, b ≠ y) :
    W5 m ρ c (Proc.devRef .tc b) = W4 m ρ c (Proc.devRef .tc b) :=
  StableHlo.after_of_forall_not_mem (b := Proc.devRef .tc b) _ _ (List.forall_iff_forall_mem.mp (by
    simp only [hostOps1_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws1_2, List.mem_cons, List.mem_nil_iff, eq_self_iff_true, true_or, or_true]))))

/-- What the stretch `hostOps2` writes. -/
abbrev ws2 : List (Ref sig .tc) :=
  [main_cst_4, main_v24, main_cst_5, main_v25, main_v26, main_c_6]
/-- A reference outside `ws2` keeps its contents from boundary 6 to boundary 7. -/
theorem hs2 (c : Dev nD) (b : Ref sig .tc) (hb : ∀ y ∈ ws2, b ≠ y) :
    W7 m ρ c (Proc.devRef .tc b) = W6 m ρ c (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws2, List.mem_cons, List.mem_nil_iff, eq_self_iff_true, true_or, or_true]))))

/-- What the stretch `hostOps2_1` writes. -/
abbrev ws2_1 : List (Ref sig .tc) :=
  [main_call1_cst, main_call1_v0, main_call1_v1, main_call1_cst_0, main_call1_v2, main_call1_v3, main_call1_v4,
    main_call1_v5, main_call1_v6, main_call1_v7, main_call1_cst_1, main_call1_v8, main_call1_cst_2,
    main_call1_v9, main_call1_v10, main_call1_v11, main_call1_cst_3, main_call1_v12, main_call1_cst_4,
    main_call1_call0_v0, main_call1_call0_v1, main_v27]
/-- A reference outside `ws2_1` keeps its contents from boundary 7 to boundary 8. -/
theorem hs2_1 (c : Dev nD) (b : Ref sig .tc) (hb : ∀ y ∈ ws2_1, b ≠ y) :
    W8 m ρ c (Proc.devRef .tc b) = W7 m ρ c (Proc.devRef .tc b) :=
  StableHlo.after_of_forall_not_mem (b := Proc.devRef .tc b) _ _ (List.forall_iff_forall_mem.mp (by
    simp only [hostOps2_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws2_1, List.mem_cons, List.mem_nil_iff, eq_self_iff_true, true_or, or_true]))))

/-- What the stretch `hostOps2_2` writes. -/
abbrev ws2_2 : List (Ref sig .tc) :=
  [main_v28, main_v29, main_v30, main_v31, main_v32, main_v33, main_v34, main_v35]
/-- A reference outside `ws2_2` keeps its contents from boundary 8 to boundary 9. -/
theorem hs2_2 (c : Dev nD) (b : Ref sig .tc) (hb : ∀ y ∈ ws2_2, b ≠ y) :
    W9 m ρ c (Proc.devRef .tc b) = W8 m ρ c (Proc.devRef .tc b) :=
  StableHlo.after_of_forall_not_mem (b := Proc.devRef .tc b) _ _ (List.forall_iff_forall_mem.mp (by
    simp only [hostOps2_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws2_2, List.mem_cons, List.mem_nil_iff, eq_self_iff_true, true_or, or_true]))))

/-- What the stretch `hostOps3` writes. -/
abbrev ws3 : List (Ref sig .tc) :=
  [main_cst_7, main_v37, main_cst_8, main_v38, main_v39, main_c_9]
/-- A reference outside `ws3` keeps its contents from boundary 10 to boundary 11. -/
theorem hs3 (c : Dev nD) (b : Ref sig .tc) (hb : ∀ y ∈ ws3, b ≠ y) :
    W11 m ρ c (Proc.devRef .tc b) = W10 m ρ c (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws3, List.mem_cons, List.mem_nil_iff, eq_self_iff_true, true_or, or_true]))))

/-- What the stretch `hostOps3_1` writes. -/
abbrev ws3_1 : List (Ref sig .tc) :=
  [main_call2_cst, main_call2_v0, main_call2_v1, main_call2_cst_0, main_call2_v2, main_call2_v3, main_call2_v4,
    main_call2_v5, main_call2_v6, main_call2_v7, main_call2_cst_1, main_call2_v8, main_call2_cst_2,
    main_call2_v9, main_call2_v10, main_call2_v11, main_call2_cst_3, main_call2_v12, main_call2_cst_4,
    main_call2_call0_v0, main_call2_call0_v1, main_v40]
/-- A reference outside `ws3_1` keeps its contents from boundary 11 to boundary 12. -/
theorem hs3_1 (c : Dev nD) (b : Ref sig .tc) (hb : ∀ y ∈ ws3_1, b ≠ y) :
    W12 m ρ c (Proc.devRef .tc b) = W11 m ρ c (Proc.devRef .tc b) :=
  StableHlo.after_of_forall_not_mem (b := Proc.devRef .tc b) _ _ (List.forall_iff_forall_mem.mp (by
    simp only [hostOps3_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws3_1, List.mem_cons, List.mem_nil_iff, eq_self_iff_true, true_or, or_true]))))

/-- What the stretch `hostOps3_2` writes. -/
abbrev ws3_2 : List (Ref sig .tc) :=
  [main_c_10, main_v41, main_v42, main_c_11, main_v43, main_v44, main_v45, main_v46, main_v47, main_cst_12,
    main_v48, main_v49, main_v50, main_cst_13, main_v51, main_cst_14, main_v52, main_v53, main_c_15]
/-- A reference outside `ws3_2` keeps its contents from boundary 12 to boundary 13. -/
theorem hs3_2 (c : Dev nD) (b : Ref sig .tc) (hb : ∀ y ∈ ws3_2, b ≠ y) :
    W13 m ρ c (Proc.devRef .tc b) = W12 m ρ c (Proc.devRef .tc b) :=
  StableHlo.after_of_forall_not_mem (b := Proc.devRef .tc b) _ _ (List.forall_iff_forall_mem.mp (by
    simp only [hostOps3_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws3_2, List.mem_cons, List.mem_nil_iff, eq_self_iff_true, true_or, or_true]))))

/-- What the stretch `hostOps3_3` writes. -/
abbrev ws3_3 : List (Ref sig .tc) :=
  [main_call3_cst, main_call3_v0, main_call3_v1, main_call3_cst_0, main_call3_v2, main_call3_v3, main_call3_v4,
    main_call3_v5, main_call3_v6, main_call3_v7, main_call3_cst_1, main_call3_v8, main_call3_cst_2,
    main_call3_v9, main_call3_v10, main_call3_v11, main_call3_cst_3, main_call3_v12, main_call3_cst_4,
    main_call3_call0_v0, main_call3_call0_v1, main_v54]
/-- A reference outside `ws3_3` keeps its contents from boundary 13 to boundary 14. -/
theorem hs3_3 (c : Dev nD) (b : Ref sig .tc) (hb : ∀ y ∈ ws3_3, b ≠ y) :
    W14 m ρ c (Proc.devRef .tc b) = W13 m ρ c (Proc.devRef .tc b) :=
  StableHlo.after_of_forall_not_mem (b := Proc.devRef .tc b) _ _ (List.forall_iff_forall_mem.mp (by
    simp only [hostOps3_3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws3_3, List.mem_cons, List.mem_nil_iff, eq_self_iff_true, true_or, or_true]))))

/-- What the stretch `hostOps3_4` writes. -/
abbrev ws3_4 : List (Ref sig .tc) :=
  [main_v55, main_v56, main_v57, main_v58, main_v59, main_v60, main_v61, main_v62, main_v63, main_v64, main_v65,
    main_v66, main_v67, main_v68, main_v69, main_v70]
/-- A reference outside `ws3_4` keeps its contents from boundary 14 to boundary 15. -/
theorem hs3_4 (c : Dev nD) (b : Ref sig .tc) (hb : ∀ y ∈ ws3_4, b ≠ y) :
    W15 m ρ c (Proc.devRef .tc b) = W14 m ρ c (Proc.devRef .tc b) :=
  StableHlo.after_of_forall_not_mem (b := Proc.devRef .tc b) _ _ (List.forall_iff_forall_mem.mp (by
    simp only [hostOps3_4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws3_4, List.mem_cons, List.mem_nil_iff, eq_self_iff_true, true_or, or_true]))))

/-- What the stretch `hostOps4` writes. -/
abbrev ws4 : List (Ref sig .tc) :=
  [main_cst_16, main_v72, main_cst_17, main_v73, main_v74, main_c_18]
/-- A reference outside `ws4` keeps its contents from boundary 16 to boundary 17. -/
theorem hs4 (c : Dev nD) (b : Ref sig .tc) (hb : ∀ y ∈ ws4, b ≠ y) :
    W17 m ρ c (Proc.devRef .tc b) = W16 m ρ c (Proc.devRef .tc b) :=
  StableHlo.after_of_forall_not_mem (b := Proc.devRef .tc b) _ _ (List.forall_iff_forall_mem.mp (by
    simp only [hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws4, List.mem_cons, List.mem_nil_iff, eq_self_iff_true, true_or, or_true]))))

/-- What the stretch `hostOps4_1` writes. -/
abbrev ws4_1 : List (Ref sig .tc) :=
  [main_call4_cst, main_call4_v0, main_call4_v1, main_call4_cst_0, main_call4_v2, main_call4_v3, main_call4_v4,
    main_call4_v5, main_call4_v6, main_call4_v7, main_call4_cst_1, main_call4_v8, main_call4_cst_2,
    main_call4_v9, main_call4_v10, main_call4_v11, main_call4_cst_3, main_call4_v12, main_call4_cst_4,
    main_call4_call0_v0, main_call4_call0_v1, main_v75]
/-- A reference outside `ws4_1` keeps its contents from boundary 17 to boundary 18. -/
theorem hs4_1 (c : Dev nD) (b : Ref sig .tc) (hb : ∀ y ∈ ws4_1, b ≠ y) :
    W18 m ρ c (Proc.devRef .tc b) = W17 m ρ c (Proc.devRef .tc b) :=
  StableHlo.after_of_forall_not_mem (b := Proc.devRef .tc b) _ _ (List.forall_iff_forall_mem.mp (by
    simp only [hostOps4_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws4_1, List.mem_cons, List.mem_nil_iff, eq_self_iff_true, true_or, or_true]))))

/-- What the stretch `hostOps4_2` writes. -/
abbrev ws4_2 : List (Ref sig .tc) :=
  [main_v76, main_v77, main_v78, main_v79, main_v80, main_v81, main_v82, main_v83]
/-- A reference outside `ws4_2` keeps its contents from boundary 18 to boundary 19. -/
theorem hs4_2 (c : Dev nD) (b : Ref sig .tc) (hb : ∀ y ∈ ws4_2, b ≠ y) :
    W19 m ρ c (Proc.devRef .tc b) = W18 m ρ c (Proc.devRef .tc b) :=
  StableHlo.after_of_forall_not_mem (b := Proc.devRef .tc b) _ _ (List.forall_iff_forall_mem.mp (by
    simp only [hostOps4_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws4_2, List.mem_cons, List.mem_nil_iff, eq_self_iff_true, true_or, or_true]))))

/-- What the stretch `hostOps5` writes. -/
abbrev ws5 : List (Ref sig .tc) :=
  [main_cst_19, main_v85, main_cst_20, main_v86, main_v87, main_c_21]
/-- A reference outside `ws5` keeps its contents from boundary 20 to boundary 21. -/
theorem hs5 (c : Dev nD) (b : Ref sig .tc) (hb : ∀ y ∈ ws5, b ≠ y) :
    W21 m ρ c (Proc.devRef .tc b) = W20 m ρ c (Proc.devRef .tc b) :=
  StableHlo.after_of_forall_not_mem (b := Proc.devRef .tc b) _ _ (List.forall_iff_forall_mem.mp (by
    simp only [hostOps5, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws5, List.mem_cons, List.mem_nil_iff, eq_self_iff_true, true_or, or_true]))))

/-- What the stretch `hostOps5_1` writes. -/
abbrev ws5_1 : List (Ref sig .tc) :=
  [main_call5_cst, main_call5_v0, main_call5_v1, main_call5_cst_0, main_call5_v2, main_call5_v3, main_call5_v4,
    main_call5_v5, main_call5_v6, main_call5_v7, main_call5_cst_1, main_call5_v8, main_call5_cst_2,
    main_call5_v9, main_call5_v10, main_call5_v11, main_call5_cst_3, main_call5_v12, main_call5_cst_4,
    main_call5_call0_v0, main_call5_call0_v1, main_v88]
/-- A reference outside `ws5_1` keeps its contents from boundary 21 to boundary 22. -/
theorem hs5_1 (c : Dev nD) (b : Ref sig .tc) (hb : ∀ y ∈ ws5_1, b ≠ y) :
    W22 m ρ c (Proc.devRef .tc b) = W21 m ρ c (Proc.devRef .tc b) :=
  StableHlo.after_of_forall_not_mem (b := Proc.devRef .tc b) _ _ (List.forall_iff_forall_mem.mp (by
    simp only [hostOps5_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws5_1, List.mem_cons, List.mem_nil_iff, eq_self_iff_true, true_or, or_true]))))

/-- What the stretch `hostOps5_2` writes. -/
abbrev ws5_2 : List (Ref sig .tc) :=
  [main_v89, main_v90, main_v91, main_v92, main_v93, main_v94, main_v95, main_v96]
/-- A reference outside `ws5_2` keeps its contents from boundary 22 to boundary 23. -/
theorem hs5_2 (c : Dev nD) (b : Ref sig .tc) (hb : ∀ y ∈ ws5_2, b ≠ y) :
    W23 m ρ c (Proc.devRef .tc b) = W22 m ρ c (Proc.devRef .tc b) :=
  StableHlo.after_of_forall_not_mem (b := Proc.devRef .tc b) _ _ (List.forall_iff_forall_mem.mp (by
    simp only [hostOps5_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws5_2, List.mem_cons, List.mem_nil_iff, eq_self_iff_true, true_or, or_true]))))

/-- What the stretch `hostOps6` writes. -/
abbrev ws6 : List (Ref sig .tc) :=
  [main_cst_22, main_v98, main_cst_23, main_v99, main_v100, main_c_24]
/-- A reference outside `ws6` keeps its contents from boundary 24 to boundary 25. -/
theorem hs6 (c : Dev nD) (b : Ref sig .tc) (hb : ∀ y ∈ ws6, b ≠ y) :
    W25 m ρ c (Proc.devRef .tc b) = W24 m ρ c (Proc.devRef .tc b) :=
  StableHlo.after_of_forall_not_mem (b := Proc.devRef .tc b) _ _ (List.forall_iff_forall_mem.mp (by
    simp only [hostOps6, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws6, List.mem_cons, List.mem_nil_iff, eq_self_iff_true, true_or, or_true]))))

/-- What the stretch `hostOps6_1` writes. -/
abbrev ws6_1 : List (Ref sig .tc) :=
  [main_call6_cst, main_call6_v0, main_call6_v1, main_call6_cst_0, main_call6_v2, main_call6_v3, main_call6_v4,
    main_call6_v5, main_call6_v6, main_call6_v7, main_call6_cst_1, main_call6_v8, main_call6_cst_2,
    main_call6_v9, main_call6_v10, main_call6_v11, main_call6_cst_3, main_call6_v12, main_call6_cst_4,
    main_call6_call0_v0, main_call6_call0_v1, main_v101]
/-- A reference outside `ws6_1` keeps its contents from boundary 25 to boundary 26. -/
theorem hs6_1 (c : Dev nD) (b : Ref sig .tc) (hb : ∀ y ∈ ws6_1, b ≠ y) :
    W26 m ρ c (Proc.devRef .tc b) = W25 m ρ c (Proc.devRef .tc b) :=
  StableHlo.after_of_forall_not_mem (b := Proc.devRef .tc b) _ _ (List.forall_iff_forall_mem.mp (by
    simp only [hostOps6_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws6_1, List.mem_cons, List.mem_nil_iff, eq_self_iff_true, true_or, or_true]))))

/-- What the stretch `hostOps6_2` writes. -/
abbrev ws6_2 : List (Ref sig .tc) :=
  [main_v102, main_v103, main_v104, main_v105, main_v106, main_v107, main_v108, main_v109]
/-- A reference outside `ws6_2` keeps its contents from boundary 26 to boundary 27. -/
theorem hs6_2 (c : Dev nD) (b : Ref sig .tc) (hb : ∀ y ∈ ws6_2, b ≠ y) :
    W27 m ρ c (Proc.devRef .tc b) = W26 m ρ c (Proc.devRef .tc b) :=
  StableHlo.after_of_forall_not_mem (b := Proc.devRef .tc b) _ _ (List.forall_iff_forall_mem.mp (by
    simp only [hostOps6_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws6_2, List.mem_cons, List.mem_nil_iff, eq_self_iff_true, true_or, or_true]))))

/-- What the stretch `hostOps7` writes. -/
abbrev ws7 : List (Ref sig .tc) :=
  [main_cst_25, main_v111, main_cst_26, main_v112, main_v113, main_c_27]
/-- A reference outside `ws7` keeps its contents from boundary 28 to boundary 29. -/
theorem hs7 (c : Dev nD) (b : Ref sig .tc) (hb : ∀ y ∈ ws7, b ≠ y) :
    W29 m ρ c (Proc.devRef .tc b) = W28 m ρ c (Proc.devRef .tc b) :=
  StableHlo.after_of_forall_not_mem (b := Proc.devRef .tc b) _ _ (List.forall_iff_forall_mem.mp (by
    simp only [hostOps7, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws7, List.mem_cons, List.mem_nil_iff, eq_self_iff_true, true_or, or_true]))))

/-- What the stretch `hostOps7_1` writes. -/
abbrev ws7_1 : List (Ref sig .tc) :=
  [main_call7_cst, main_call7_v0, main_call7_v1, main_call7_cst_0, main_call7_v2, main_call7_v3, main_call7_v4,
    main_call7_v5, main_call7_v6, main_call7_v7, main_call7_cst_1, main_call7_v8, main_call7_cst_2,
    main_call7_v9, main_call7_v10, main_call7_v11, main_call7_cst_3, main_call7_v12, main_call7_cst_4,
    main_call7_call0_v0, main_call7_call0_v1, main_v114]
/-- A reference outside `ws7_1` keeps its contents from boundary 29 to boundary 30. -/
theorem hs7_1 (c : Dev nD) (b : Ref sig .tc) (hb : ∀ y ∈ ws7_1, b ≠ y) :
    W30 m ρ c (Proc.devRef .tc b) = W29 m ρ c (Proc.devRef .tc b) :=
  StableHlo.after_of_forall_not_mem (b := Proc.devRef .tc b) _ _ (List.forall_iff_forall_mem.mp (by
    simp only [hostOps7_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws7_1, List.mem_cons, List.mem_nil_iff, eq_self_iff_true, true_or, or_true]))))

/-- What the stretch `hostOps7_2` writes. -/
abbrev ws7_2 : List (Ref sig .tc) :=
  [main_c_28, main_v115, main_v116, main_c_29, main_v117, main_v118, main_v119, main_v120, main_v121,
    main_cst_30, main_v122, main_v123, main_v124, main_cst_31, main_v125, main_cst_32, main_v126, main_v127,
    main_c_33]
/-- A reference outside `ws7_2` keeps its contents from boundary 30 to boundary 31. -/
theorem hs7_2 (c : Dev nD) (b : Ref sig .tc) (hb : ∀ y ∈ ws7_2, b ≠ y) :
    W31 m ρ c (Proc.devRef .tc b) = W30 m ρ c (Proc.devRef .tc b) :=
  StableHlo.after_of_forall_not_mem (b := Proc.devRef .tc b) _ _ (List.forall_iff_forall_mem.mp (by
    simp only [hostOps7_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws7_2, List.mem_cons, List.mem_nil_iff, eq_self_iff_true, true_or, or_true]))))

/-- What the stretch `hostOps7_3` writes. -/
abbrev ws7_3 : List (Ref sig .tc) :=
  [main_call8_cst, main_call8_v0, main_call8_v1, main_call8_cst_0, main_call8_v2, main_call8_v3, main_call8_v4,
    main_call8_v5, main_call8_v6, main_call8_v7, main_call8_cst_1, main_call8_v8, main_call8_cst_2,
    main_call8_v9, main_call8_v10, main_call8_v11, main_call8_cst_3, main_call8_v12, main_call8_cst_4,
    main_call8_call0_v0, main_call8_call0_v1, main_v128]
/-- A reference outside `ws7_3` keeps its contents from boundary 31 to boundary 32. -/
theorem hs7_3 (c : Dev nD) (b : Ref sig .tc) (hb : ∀ y ∈ ws7_3, b ≠ y) :
    W32 m ρ c (Proc.devRef .tc b) = W31 m ρ c (Proc.devRef .tc b) :=
  StableHlo.after_of_forall_not_mem (b := Proc.devRef .tc b) _ _ (List.forall_iff_forall_mem.mp (by
    simp only [hostOps7_3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws7_3, List.mem_cons, List.mem_nil_iff, eq_self_iff_true, true_or, or_true]))))

/-- What the stretch `hostOps7_4` writes. -/
abbrev ws7_4 : List (Ref sig .tc) :=
  [main_v129, main_v130, main_v131, main_v132, main_v133, main_v134, main_v135, main_v136, main_v137, main_v138,
    main_v139, main_v140, main_v141, main_v142, main_v143, main_v144]
/-- A reference outside `ws7_4` keeps its contents from boundary 32 to boundary 33. -/
theorem hs7_4 (c : Dev nD) (b : Ref sig .tc) (hb : ∀ y ∈ ws7_4, b ≠ y) :
    W33 m ρ c (Proc.devRef .tc b) = W32 m ρ c (Proc.devRef .tc b) :=
  StableHlo.after_of_forall_not_mem (b := Proc.devRef .tc b) _ _ (List.forall_iff_forall_mem.mp (by
    simp only [hostOps7_4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws7_4, List.mem_cons, List.mem_nil_iff, eq_self_iff_true, true_or, or_true]))))

/-- What the stretch `hostOps8` writes. -/
abbrev ws8 : List (Ref sig .tc) :=
  [main_cst_34, main_v146, main_cst_35, main_v147, main_v148, main_c_36]
/-- A reference outside `ws8` keeps its contents from boundary 34 to boundary 35. -/
theorem hs8 (c : Dev nD) (b : Ref sig .tc) (hb : ∀ y ∈ ws8, b ≠ y) :
    W35 m ρ c (Proc.devRef .tc b) = W34 m ρ c (Proc.devRef .tc b) :=
  StableHlo.after_of_forall_not_mem (b := Proc.devRef .tc b) _ _ (List.forall_iff_forall_mem.mp (by
    simp only [hostOps8, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws8, List.mem_cons, List.mem_nil_iff, eq_self_iff_true, true_or, or_true]))))

/-- What the stretch `hostOps8_1` writes. -/
abbrev ws8_1 : List (Ref sig .tc) :=
  [main_call9_cst, main_call9_v0, main_call9_v1, main_call9_cst_0, main_call9_v2, main_call9_v3, main_call9_v4,
    main_call9_v5, main_call9_v6, main_call9_v7, main_call9_cst_1, main_call9_v8, main_call9_cst_2,
    main_call9_v9, main_call9_v10, main_call9_v11, main_call9_cst_3, main_call9_v12, main_call9_cst_4,
    main_call9_call0_v0, main_call9_call0_v1, main_v149]
/-- A reference outside `ws8_1` keeps its contents from boundary 35 to boundary 36. -/
theorem hs8_1 (c : Dev nD) (b : Ref sig .tc) (hb : ∀ y ∈ ws8_1, b ≠ y) :
    W36 m ρ c (Proc.devRef .tc b) = W35 m ρ c (Proc.devRef .tc b) :=
  StableHlo.after_of_forall_not_mem (b := Proc.devRef .tc b) _ _ (List.forall_iff_forall_mem.mp (by
    simp only [hostOps8_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws8_1, List.mem_cons, List.mem_nil_iff, eq_self_iff_true, true_or, or_true]))))

/-- What the stretch `hostOps8_2` writes. -/
abbrev ws8_2 : List (Ref sig .tc) :=
  [main_v150, main_v151, main_v152, main_v153, main_v154, main_v155, main_v156, main_v157]
/-- A reference outside `ws8_2` keeps its contents from boundary 36 to boundary 37. -/
theorem hs8_2 (c : Dev nD) (b : Ref sig .tc) (hb : ∀ y ∈ ws8_2, b ≠ y) :
    W37 m ρ c (Proc.devRef .tc b) = W36 m ρ c (Proc.devRef .tc b) :=
  StableHlo.after_of_forall_not_mem (b := Proc.devRef .tc b) _ _ (List.forall_iff_forall_mem.mp (by
    simp only [hostOps8_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws8_2, List.mem_cons, List.mem_nil_iff, eq_self_iff_true, true_or, or_true]))))

/-- What the stretch `hostOps9` writes. -/
abbrev ws9 : List (Ref sig .tc) :=
  [main_cst_37, main_v159, main_cst_38, main_v160, main_v161, main_c_39]
/-- A reference outside `ws9` keeps its contents from boundary 38 to boundary 39. -/
theorem hs9 (c : Dev nD) (b : Ref sig .tc) (hb : ∀ y ∈ ws9, b ≠ y) :
    W39 m ρ c (Proc.devRef .tc b) = W38 m ρ c (Proc.devRef .tc b) :=
  StableHlo.after_of_forall_not_mem (b := Proc.devRef .tc b) _ _ (List.forall_iff_forall_mem.mp (by
    simp only [hostOps9, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws9, List.mem_cons, List.mem_nil_iff, eq_self_iff_true, true_or, or_true]))))

/-- What the stretch `hostOps9_1` writes. -/
abbrev ws9_1 : List (Ref sig .tc) :=
  [main_call10_cst, main_call10_v0, main_call10_v1, main_call10_cst_0, main_call10_v2, main_call10_v3,
    main_call10_v4, main_call10_v5, main_call10_v6, main_call10_v7, main_call10_cst_1, main_call10_v8,
    main_call10_cst_2, main_call10_v9, main_call10_v10, main_call10_v11, main_call10_cst_3, main_call10_v12,
    main_call10_cst_4, main_call10_call0_v0, main_call10_call0_v1, main_v162]
/-- A reference outside `ws9_1` keeps its contents from boundary 39 to boundary 40. -/
theorem hs9_1 (c : Dev nD) (b : Ref sig .tc) (hb : ∀ y ∈ ws9_1, b ≠ y) :
    W40 m ρ c (Proc.devRef .tc b) = W39 m ρ c (Proc.devRef .tc b) :=
  StableHlo.after_of_forall_not_mem (b := Proc.devRef .tc b) _ _ (List.forall_iff_forall_mem.mp (by
    simp only [hostOps9_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws9_1, List.mem_cons, List.mem_nil_iff, eq_self_iff_true, true_or, or_true]))))

/-- What the stretch `hostOps9_2` writes. -/
abbrev ws9_2 : List (Ref sig .tc) :=
  [main_v163, main_v164, main_v165, main_v166, main_v167, main_v168, main_v169, main_v170]
/-- A reference outside `ws9_2` keeps its contents from boundary 40 to boundary 41. -/
theorem hs9_2 (c : Dev nD) (b : Ref sig .tc) (hb : ∀ y ∈ ws9_2, b ≠ y) :
    W41 m ρ c (Proc.devRef .tc b) = W40 m ρ c (Proc.devRef .tc b) :=
  StableHlo.after_of_forall_not_mem (b := Proc.devRef .tc b) _ _ (List.forall_iff_forall_mem.mp (by
    simp only [hostOps9_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws9_2, List.mem_cons, List.mem_nil_iff, eq_self_iff_true, true_or, or_true]))))

/-- What the stretch `hostOps10` writes. -/
abbrev ws10 : List (Ref sig .tc) :=
  [main_cst_40, main_v172, main_cst_41, main_v173, main_v174, main_c_42]
/-- A reference outside `ws10` keeps its contents from boundary 42 to boundary 43. -/
theorem hs10 (c : Dev nD) (b : Ref sig .tc) (hb : ∀ y ∈ ws10, b ≠ y) :
    W43 m ρ c (Proc.devRef .tc b) = W42 m ρ c (Proc.devRef .tc b) :=
  StableHlo.after_of_forall_not_mem (b := Proc.devRef .tc b) _ _ (List.forall_iff_forall_mem.mp (by
    simp only [hostOps10, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws10, List.mem_cons, List.mem_nil_iff, eq_self_iff_true, true_or, or_true]))))

/-- What the stretch `hostOps10_1` writes. -/
abbrev ws10_1 : List (Ref sig .tc) :=
  [main_call11_cst, main_call11_v0, main_call11_v1, main_call11_cst_0, main_call11_v2, main_call11_v3,
    main_call11_v4, main_call11_v5, main_call11_v6, main_call11_v7, main_call11_cst_1, main_call11_v8,
    main_call11_cst_2, main_call11_v9, main_call11_v10, main_call11_v11, main_call11_cst_3, main_call11_v12,
    main_call11_cst_4, main_call11_call0_v0, main_call11_call0_v1, main_v175]
/-- A reference outside `ws10_1` keeps its contents from boundary 43 to boundary 44. -/
theorem hs10_1 (c : Dev nD) (b : Ref sig .tc) (hb : ∀ y ∈ ws10_1, b ≠ y) :
    W44 m ρ c (Proc.devRef .tc b) = W43 m ρ c (Proc.devRef .tc b) :=
  StableHlo.after_of_forall_not_mem (b := Proc.devRef .tc b) _ _ (List.forall_iff_forall_mem.mp (by
    simp only [hostOps10_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws10_1, List.mem_cons, List.mem_nil_iff, eq_self_iff_true, true_or, or_true]))))

/-- What the stretch `hostOps10_2` writes. -/
abbrev ws10_2 : List (Ref sig .tc) :=
  [main_v176, main_v177, main_v178, main_v179, main_v180, main_v181, main_v182, main_v183]
/-- A reference outside `ws10_2` keeps its contents from boundary 44 to boundary 45. -/
theorem hs10_2 (c : Dev nD) (b : Ref sig .tc) (hb : ∀ y ∈ ws10_2, b ≠ y) :
    W45 m ρ c (Proc.devRef .tc b) = W44 m ρ c (Proc.devRef .tc b) :=
  StableHlo.after_of_forall_not_mem (b := Proc.devRef .tc b) _ _ (List.forall_iff_forall_mem.mp (by
    simp only [hostOps10_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws10_2, List.mem_cons, List.mem_nil_iff, eq_self_iff_true, true_or, or_true]))))

/-- What the stretch `hostOps11` writes. -/
abbrev ws11 : List (Ref sig .tc) :=
  [main_cst_43, main_v185, main_cst_44, main_v186, main_v187, main_c_45]
/-- A reference outside `ws11` keeps its contents from boundary 46 to boundary 47. -/
theorem hs11 (c : Dev nD) (b : Ref sig .tc) (hb : ∀ y ∈ ws11, b ≠ y) :
    W47 m ρ c (Proc.devRef .tc b) = W46 m ρ c (Proc.devRef .tc b) :=
  StableHlo.after_of_forall_not_mem (b := Proc.devRef .tc b) _ _ (List.forall_iff_forall_mem.mp (by
    simp only [hostOps11, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws11, List.mem_cons, List.mem_nil_iff, eq_self_iff_true, true_or, or_true]))))

/-- What the stretch `hostOps11_1` writes. -/
abbrev ws11_1 : List (Ref sig .tc) :=
  [main_call12_cst, main_call12_v0, main_call12_v1, main_call12_cst_0, main_call12_v2, main_call12_v3,
    main_call12_v4, main_call12_v5, main_call12_v6, main_call12_v7, main_call12_cst_1, main_call12_v8,
    main_call12_cst_2, main_call12_v9, main_call12_v10, main_call12_v11, main_call12_cst_3, main_call12_v12,
    main_call12_cst_4, main_call12_call0_v0, main_call12_call0_v1, main_v188]
/-- A reference outside `ws11_1` keeps its contents from boundary 47 to boundary 48. -/
theorem hs11_1 (c : Dev nD) (b : Ref sig .tc) (hb : ∀ y ∈ ws11_1, b ≠ y) :
    W48 m ρ c (Proc.devRef .tc b) = W47 m ρ c (Proc.devRef .tc b) :=
  StableHlo.after_of_forall_not_mem (b := Proc.devRef .tc b) _ _ (List.forall_iff_forall_mem.mp (by
    simp only [hostOps11_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws11_1, List.mem_cons, List.mem_nil_iff, eq_self_iff_true, true_or, or_true]))))

/-- What the stretch `hostOps11_2` writes. -/
abbrev ws11_2 : List (Ref sig .tc) :=
  [main_c_46, main_v189, main_v190, main_c_47, main_v191, main_v192, main_v193, main_v194, main_v195,
    main_cst_48, main_v196, main_v197, main_v198, main_cst_49, main_v199, main_cst_50, main_v200, main_v201,
    main_c_51]
/-- A reference outside `ws11_2` keeps its contents from boundary 48 to boundary 49. -/
theorem hs11_2 (c : Dev nD) (b : Ref sig .tc) (hb : ∀ y ∈ ws11_2, b ≠ y) :
    W49 m ρ c (Proc.devRef .tc b) = W48 m ρ c (Proc.devRef .tc b) :=
  StableHlo.after_of_forall_not_mem (b := Proc.devRef .tc b) _ _ (List.forall_iff_forall_mem.mp (by
    simp only [hostOps11_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws11_2, List.mem_cons, List.mem_nil_iff, eq_self_iff_true, true_or, or_true]))))

/-- What the stretch `hostOps11_3` writes. -/
abbrev ws11_3 : List (Ref sig .tc) :=
  [main_call13_cst, main_call13_v0, main_call13_v1, main_call13_cst_0, main_call13_v2, main_call13_v3,
    main_call13_v4, main_call13_v5, main_call13_v6, main_call13_v7, main_call13_cst_1, main_call13_v8,
    main_call13_cst_2, main_call13_v9, main_call13_v10, main_call13_v11, main_call13_cst_3, main_call13_v12,
    main_call13_cst_4, main_call13_call0_v0, main_call13_call0_v1, main_v202]
/-- A reference outside `ws11_3` keeps its contents from boundary 49 to boundary 50. -/
theorem hs11_3 (c : Dev nD) (b : Ref sig .tc) (hb : ∀ y ∈ ws11_3, b ≠ y) :
    W50 m ρ c (Proc.devRef .tc b) = W49 m ρ c (Proc.devRef .tc b) :=
  StableHlo.after_of_forall_not_mem (b := Proc.devRef .tc b) _ _ (List.forall_iff_forall_mem.mp (by
    simp only [hostOps11_3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws11_3, List.mem_cons, List.mem_nil_iff, eq_self_iff_true, true_or, or_true]))))

/-- What the stretch `hostOps11_4` writes. -/
abbrev ws11_4 : List (Ref sig .tc) :=
  [main_v203, main_v204, main_v205, main_v206, main_v207, main_v208, main_v209, main_v210, main_v211, main_v212,
    main_v213, main_v214, main_v215, main_v216, main_v217, main_v218]
/-- A reference outside `ws11_4` keeps its contents from boundary 50 to boundary 51. -/
theorem hs11_4 (c : Dev nD) (b : Ref sig .tc) (hb : ∀ y ∈ ws11_4, b ≠ y) :
    W51 m ρ c (Proc.devRef .tc b) = W50 m ρ c (Proc.devRef .tc b) :=
  StableHlo.after_of_forall_not_mem (b := Proc.devRef .tc b) _ _ (List.forall_iff_forall_mem.mp (by
    simp only [hostOps11_4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws11_4, List.mem_cons, List.mem_nil_iff, eq_self_iff_true, true_or, or_true]))))

/-- What the stretch `hostOps12` writes. -/
abbrev ws12 : List (Ref sig .tc) :=
  [main_cst_52, main_v220, main_cst_53, main_v221, main_v222, main_c_54]
/-- A reference outside `ws12` keeps its contents from boundary 52 to boundary 53. -/
theorem hs12 (c : Dev nD) (b : Ref sig .tc) (hb : ∀ y ∈ ws12, b ≠ y) :
    W53 m ρ c (Proc.devRef .tc b) = W52 m ρ c (Proc.devRef .tc b) :=
  StableHlo.after_of_forall_not_mem (b := Proc.devRef .tc b) _ _ (List.forall_iff_forall_mem.mp (by
    simp only [hostOps12, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws12, List.mem_cons, List.mem_nil_iff, eq_self_iff_true, true_or, or_true]))))

/-- What the stretch `hostOps12_1` writes. -/
abbrev ws12_1 : List (Ref sig .tc) :=
  [main_call14_cst, main_call14_v0, main_call14_v1, main_call14_cst_0, main_call14_v2, main_call14_v3,
    main_call14_v4, main_call14_v5, main_call14_v6, main_call14_v7, main_call14_cst_1, main_call14_v8,
    main_call14_cst_2, main_call14_v9, main_call14_v10, main_call14_v11, main_call14_cst_3, main_call14_v12,
    main_call14_cst_4, main_call14_call0_v0, main_call14_call0_v1, main_v223]
/-- A reference outside `ws12_1` keeps its contents from boundary 53 to boundary 54. -/
theorem hs12_1 (c : Dev nD) (b : Ref sig .tc) (hb : ∀ y ∈ ws12_1, b ≠ y) :
    W54 m ρ c (Proc.devRef .tc b) = W53 m ρ c (Proc.devRef .tc b) :=
  StableHlo.after_of_forall_not_mem (b := Proc.devRef .tc b) _ _ (List.forall_iff_forall_mem.mp (by
    simp only [hostOps12_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws12_1, List.mem_cons, List.mem_nil_iff, eq_self_iff_true, true_or, or_true]))))

/-- What the stretch `hostOps12_2` writes. -/
abbrev ws12_2 : List (Ref sig .tc) :=
  [main_v224, main_v225, main_v226, main_v227, main_v228, main_v229, main_v230, main_v231]
/-- A reference outside `ws12_2` keeps its contents from boundary 54 to boundary 55. -/
theorem hs12_2 (c : Dev nD) (b : Ref sig .tc) (hb : ∀ y ∈ ws12_2, b ≠ y) :
    W55 m ρ c (Proc.devRef .tc b) = W54 m ρ c (Proc.devRef .tc b) :=
  StableHlo.after_of_forall_not_mem (b := Proc.devRef .tc b) _ _ (List.forall_iff_forall_mem.mp (by
    simp only [hostOps12_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws12_2, List.mem_cons, List.mem_nil_iff, eq_self_iff_true, true_or, or_true]))))

/-- What the stretch `hostOps13` writes. -/
abbrev ws13 : List (Ref sig .tc) :=
  [main_cst_55, main_v233, main_cst_56, main_v234, main_v235, main_c_57]
/-- A reference outside `ws13` keeps its contents from boundary 56 to boundary 57. -/
theorem hs13 (c : Dev nD) (b : Ref sig .tc) (hb : ∀ y ∈ ws13, b ≠ y) :
    W57 m ρ c (Proc.devRef .tc b) = W56 m ρ c (Proc.devRef .tc b) :=
  StableHlo.after_of_forall_not_mem (b := Proc.devRef .tc b) _ _ (List.forall_iff_forall_mem.mp (by
    simp only [hostOps13, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws13, List.mem_cons, List.mem_nil_iff, eq_self_iff_true, true_or, or_true]))))

/-- What the stretch `hostOps13_1` writes. -/
abbrev ws13_1 : List (Ref sig .tc) :=
  [main_call15_cst, main_call15_v0, main_call15_v1, main_call15_cst_0, main_call15_v2, main_call15_v3,
    main_call15_v4, main_call15_v5, main_call15_v6, main_call15_v7, main_call15_cst_1, main_call15_v8,
    main_call15_cst_2, main_call15_v9, main_call15_v10, main_call15_v11, main_call15_cst_3, main_call15_v12,
    main_call15_cst_4, main_call15_call0_v0, main_call15_call0_v1, main_v236]
/-- A reference outside `ws13_1` keeps its contents from boundary 57 to boundary 58. -/
theorem hs13_1 (c : Dev nD) (b : Ref sig .tc) (hb : ∀ y ∈ ws13_1, b ≠ y) :
    W58 m ρ c (Proc.devRef .tc b) = W57 m ρ c (Proc.devRef .tc b) :=
  StableHlo.after_of_forall_not_mem (b := Proc.devRef .tc b) _ _ (List.forall_iff_forall_mem.mp (by
    simp only [hostOps13_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws13_1, List.mem_cons, List.mem_nil_iff, eq_self_iff_true, true_or, or_true]))))

/-- What the stretch `hostOps13_2` writes. -/
abbrev ws13_2 : List (Ref sig .tc) :=
  [main_v237, main_v238, main_v239, main_v240]
/-- A reference outside `ws13_2` keeps its contents from boundary 58 to boundary 59. -/
theorem hs13_2 (c : Dev nD) (b : Ref sig .tc) (hb : ∀ y ∈ ws13_2, b ≠ y) :
    W59 m ρ c (Proc.devRef .tc b) = W58 m ρ c (Proc.devRef .tc b) :=
  StableHlo.after_of_forall_not_mem (b := Proc.devRef .tc b) _ _ (List.forall_iff_forall_mem.mp (by
    simp only [hostOps13_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by
      simp only [ws13_2, List.mem_cons, List.mem_nil_iff, eq_self_iff_true, true_or, or_true]))))

end Cert.KernelIdeal.KFold

end
-- ==== Proof.KFoldInv.lean ====
/-
  Buffers that nothing writes between two boundaries, for whole ranges of buffer numbers at once.

  The program numbers its buffers in the order it creates them: the arguments are 0 to 26, the first stretch writes
  27 to 43, and every later stretch writes numbers from 44 up. So a buffer whose number is below 44 is written by no
  stretch after the first, and one below 27 by no stretch at all; and a region, whose arrays are listed, writes no
  buffer whose number lies in a range that contains none of its arrays' numbers. Two buffers with different numbers
  are different. From these: boundary by boundary, a buffer in the range holds what it held at the range's first
  boundary — for the stacked parameters (7 to 26) from the launch, for the first stretch's results (27 to 41) from
  boundary 1, for the per-node sums and counts (42, 43) between the edge regions, for the first normalisation's
  scale and shift (5, 6) up to boundary 5.
-/
import proofs.«426021_j89885075570707_3_alg».proof.Proof.KFoldSteps

set_option maxRecDepth 16384
-- one theorem at a time: each side condition is decided by the kernel, and in parallel these pass the machine's memory
set_option Elab.async false

noncomputable section

namespace Cert.KernelIdeal.KFold

open Idealize.ShloMosaic Idealize.ShloMosaic.TcCoe Idealize.SL.Sem Cert.KernelIdeal Cert.KernelIdeal.Gen

/-- Two references with different buffer numbers are different. -/
theorem idx_ne {a b : Ref sig .tc} (h : a.idx.val ≠ b.idx.val) : a ≠ b :=
  fun e => h (congrArg (fun r : Ref sig .tc => r.idx.val) e)

/-! ## What the stretches write -/

theorem ge0 : ∀ y ∈ ws0, 27 ≤ y.idx.val := by decide +kernel
theorem ge1 : ∀ y ∈ ws1, 44 ≤ y.idx.val := by decide +kernel
theorem ge1_1 : ∀ y ∈ ws1_1, 44 ≤ y.idx.val := by decide +kernel
theorem ge1_2 : ∀ y ∈ ws1_2, 44 ≤ y.idx.val := by decide +kernel
theorem ge2 : ∀ y ∈ ws2, 44 ≤ y.idx.val := by decide +kernel
theorem ge2_1 : ∀ y ∈ ws2_1, 44 ≤ y.idx.val := by decide +kernel
theorem ge2_2 : ∀ y ∈ ws2_2, 44 ≤ y.idx.val := by decide +kernel
theorem ge3 : ∀ y ∈ ws3, 44 ≤ y.idx.val := by decide +kernel
theorem ge3_1 : ∀ y ∈ ws3_1, 44 ≤ y.idx.val := by decide +kernel
theorem ge3_2 : ∀ y ∈ ws3_2, 44 ≤ y.idx.val := by decide +kernel
theorem ge3_3 : ∀ y ∈ ws3_3, 44 ≤ y.idx.val := by decide +kernel
theorem ge3_4 : ∀ y ∈ ws3_4, 44 ≤ y.idx.val := by decide +kernel
theorem ge4 : ∀ y ∈ ws4, 44 ≤ y.idx.val := by decide +kernel
theorem ge4_1 : ∀ y ∈ ws4_1, 44 ≤ y.idx.val := by decide +kernel
theorem ge4_2 : ∀ y ∈ ws4_2, 44 ≤ y.idx.val := by decide +kernel
theorem ge5 : ∀ y ∈ ws5, 44 ≤ y.idx.val := by decide +kernel
theorem ge5_1 : ∀ y ∈ ws5_1, 44 ≤ y.idx.val := by decide +kernel
theorem ge5_2 : ∀ y ∈ ws5_2, 44 ≤ y.idx.val := by decide +kernel
theorem ge6 : ∀ y ∈ ws6, 44 ≤ y.idx.val := by decide +kernel
theorem ge6_1 : ∀ y ∈ ws6_1, 44 ≤ y.idx.val := by decide +kernel
theorem ge6_2 : ∀ y ∈ ws6_2, 44 ≤ y.idx.val := by decide +kernel
theorem ge7 : ∀ y ∈ ws7, 44 ≤ y.idx.val := by decide +kernel
theorem ge7_1 : ∀ y ∈ ws7_1, 44 ≤ y.idx.val := by decide +kernel
theorem ge7_2 : ∀ y ∈ ws7_2, 44 ≤ y.idx.val := by decide +kernel
theorem ge7_3 : ∀ y ∈ ws7_3, 44 ≤ y.idx.val := by decide +kernel
theorem ge7_4 : ∀ y ∈ ws7_4, 44 ≤ y.idx.val := by decide +kernel
theorem ge8 : ∀ y ∈ ws8, 44 ≤ y.idx.val := by decide +kernel
theorem ge8_1 : ∀ y ∈ ws8_1, 44 ≤ y.idx.val := by decide +kernel
theorem ge8_2 : ∀ y ∈ ws8_2, 44 ≤ y.idx.val := by decide +kernel
theorem ge9 : ∀ y ∈ ws9, 44 ≤ y.idx.val := by decide +kernel
theorem ge9_1 : ∀ y ∈ ws9_1, 44 ≤ y.idx.val := by decide +kernel
theorem ge9_2 : ∀ y ∈ ws9_2, 44 ≤ y.idx.val := by decide +kernel
theorem ge10 : ∀ y ∈ ws10, 44 ≤ y.idx.val := by decide +kernel
theorem ge10_1 : ∀ y ∈ ws10_1, 44 ≤ y.idx.val := by decide +kernel
theorem ge10_2 : ∀ y ∈ ws10_2, 44 ≤ y.idx.val := by decide +kernel
theorem ge11 : ∀ y ∈ ws11, 44 ≤ y.idx.val := by decide +kernel
theorem ge11_1 : ∀ y ∈ ws11_1, 44 ≤ y.idx.val := by decide +kernel
theorem ge11_2 : ∀ y ∈ ws11_2, 44 ≤ y.idx.val := by decide +kernel
theorem ge11_3 : ∀ y ∈ ws11_3, 44 ≤ y.idx.val := by decide +kernel
theorem ge11_4 : ∀ y ∈ ws11_4, 44 ≤ y.idx.val := by decide +kernel
theorem ge12 : ∀ y ∈ ws12, 44 ≤ y.idx.val := by decide +kernel
theorem ge12_1 : ∀ y ∈ ws12_1, 44 ≤ y.idx.val := by decide +kernel
theorem ge12_2 : ∀ y ∈ ws12_2, 44 ≤ y.idx.val := by decide +kernel
theorem ge13 : ∀ y ∈ ws13, 44 ≤ y.idx.val := by decide +kernel
theorem ge13_1 : ∀ y ∈ ws13_1, 44 ≤ y.idx.val := by decide +kernel
theorem ge13_2 : ∀ y ∈ ws13_2, 44 ≤ y.idx.val := by decide +kernel

/-! ## The regions' arrays lie outside the ranges -/

theorem out0_7_27 : ∀ w, (Pipeline.arrRef spec0 w).idx.val < 7 ∨ 27 ≤ (Pipeline.arrRef spec0 w).idx.val := by
  decide +kernel
theorem out1_7_27 : ∀ w, (Pipeline.arrRef spec1 w).idx.val < 7 ∨ 27 ≤ (Pipeline.arrRef spec1 w).idx.val := by
  decide +kernel
theorem out2_7_27 : ∀ w, (Pipeline.arrRef spec2 w).idx.val < 7 ∨ 27 ≤ (Pipeline.arrRef spec2 w).idx.val := by
  decide +kernel
theorem out3_7_27 : ∀ w, (Pipeline.arrRef spec3 w).idx.val < 7 ∨ 27 ≤ (Pipeline.arrRef spec3 w).idx.val := by
  decide +kernel
theorem out4_7_27 : ∀ w, (Pipeline.arrRef spec4 w).idx.val < 7 ∨ 27 ≤ (Pipeline.arrRef spec4 w).idx.val := by
  decide +kernel
theorem out5_7_27 : ∀ w, (Pipeline.arrRef spec5 w).idx.val < 7 ∨ 27 ≤ (Pipeline.arrRef spec5 w).idx.val := by
  decide +kernel
theorem out6_7_27 : ∀ w, (Pipeline.arrRef spec6 w).idx.val < 7 ∨ 27 ≤ (Pipeline.arrRef spec6 w).idx.val := by
  decide +kernel
theorem out7_7_27 : ∀ w, (Pipeline.arrRef spec7 w).idx.val < 7 ∨ 27 ≤ (Pipeline.arrRef spec7 w).idx.val := by
  decide +kernel
theorem out8_7_27 : ∀ w, (Pipeline.arrRef spec8 w).idx.val < 7 ∨ 27 ≤ (Pipeline.arrRef spec8 w).idx.val := by
  decide +kernel
theorem out9_7_27 : ∀ w, (Pipeline.arrRef spec9 w).idx.val < 7 ∨ 27 ≤ (Pipeline.arrRef spec9 w).idx.val := by
  decide +kernel
theorem out10_7_27 : ∀ w, (Pipeline.arrRef spec10 w).idx.val < 7 ∨ 27 ≤ (Pipeline.arrRef spec10 w).idx.val := by
  decide +kernel
theorem out11_7_27 : ∀ w, (Pipeline.arrRef spec11 w).idx.val < 7 ∨ 27 ≤ (Pipeline.arrRef spec11 w).idx.val := by
  decide +kernel
theorem out12_7_27 : ∀ w, (Pipeline.arrRef spec12 w).idx.val < 7 ∨ 27 ≤ (Pipeline.arrRef spec12 w).idx.val := by
  decide +kernel
theorem out0_27_42 : ∀ w, (Pipeline.arrRef spec0 w).idx.val < 27 ∨ 42 ≤ (Pipeline.arrRef spec0 w).idx.val := by
  decide +kernel
theorem out1_27_42 : ∀ w, (Pipeline.arrRef spec1 w).idx.val < 27 ∨ 42 ≤ (Pipeline.arrRef spec1 w).idx.val := by
  decide +kernel
theorem out2_27_42 : ∀ w, (Pipeline.arrRef spec2 w).idx.val < 27 ∨ 42 ≤ (Pipeline.arrRef spec2 w).idx.val := by
  decide +kernel
theorem out3_27_42 : ∀ w, (Pipeline.arrRef spec3 w).idx.val < 27 ∨ 42 ≤ (Pipeline.arrRef spec3 w).idx.val := by
  decide +kernel
theorem out4_27_42 : ∀ w, (Pipeline.arrRef spec4 w).idx.val < 27 ∨ 42 ≤ (Pipeline.arrRef spec4 w).idx.val := by
  decide +kernel
theorem out5_27_42 : ∀ w, (Pipeline.arrRef spec5 w).idx.val < 27 ∨ 42 ≤ (Pipeline.arrRef spec5 w).idx.val := by
  decide +kernel
theorem out6_27_42 : ∀ w, (Pipeline.arrRef spec6 w).idx.val < 27 ∨ 42 ≤ (Pipeline.arrRef spec6 w).idx.val := by
  decide +kernel
theorem out7_27_42 : ∀ w, (Pipeline.arrRef spec7 w).idx.val < 27 ∨ 42 ≤ (Pipeline.arrRef spec7 w).idx.val := by
  decide +kernel
theorem out8_27_42 : ∀ w, (Pipeline.arrRef spec8 w).idx.val < 27 ∨ 42 ≤ (Pipeline.arrRef spec8 w).idx.val := by
  decide +kernel
theorem out9_27_42 : ∀ w, (Pipeline.arrRef spec9 w).idx.val < 27 ∨ 42 ≤ (Pipeline.arrRef spec9 w).idx.val := by
  decide +kernel
theorem out10_27_42 : ∀ w, (Pipeline.arrRef spec10 w).idx.val < 27 ∨ 42 ≤ (Pipeline.arrRef spec10 w).idx.val := by
  decide +kernel
theorem out0_42_44 : ∀ w, (Pipeline.arrRef spec0 w).idx.val < 42 ∨ 44 ≤ (Pipeline.arrRef spec0 w).idx.val := by
  decide +kernel
theorem out2_42_44 : ∀ w, (Pipeline.arrRef spec2 w).idx.val < 42 ∨ 44 ≤ (Pipeline.arrRef spec2 w).idx.val := by
  decide +kernel
theorem out3_42_44 : ∀ w, (Pipeline.arrRef spec3 w).idx.val < 42 ∨ 44 ≤ (Pipeline.arrRef spec3 w).idx.val := by
  decide +kernel
theorem out4_42_44 : ∀ w, (Pipeline.arrRef spec4 w).idx.val < 42 ∨ 44 ≤ (Pipeline.arrRef spec4 w).idx.val := by
  decide +kernel
theorem out6_42_44 : ∀ w, (Pipeline.arrRef spec6 w).idx.val < 42 ∨ 44 ≤ (Pipeline.arrRef spec6 w).idx.val := by
  decide +kernel
theorem out7_42_44 : ∀ w, (Pipeline.arrRef spec7 w).idx.val < 42 ∨ 44 ≤ (Pipeline.arrRef spec7 w).idx.val := by
  decide +kernel
theorem out8_42_44 : ∀ w, (Pipeline.arrRef spec8 w).idx.val < 42 ∨ 44 ≤ (Pipeline.arrRef spec8 w).idx.val := by
  decide +kernel
theorem out0_5_7 : ∀ w, (Pipeline.arrRef spec0 w).idx.val < 5 ∨ 7 ≤ (Pipeline.arrRef spec0 w).idx.val := by
  decide +kernel

variable {F : FTy → Type} [FloatOps F]
variable (m : (ℓ : Loc nD τ sig) → Buf (Elt F) ℓ) (ρ : Dev nD → PrngReg)

/-! ## Buffers 7 to 26, from boundary 0 to boundary 58 -/

theorem rkA1 (c : Dev nD) (b : Ref sig .tc) (hL : 7 ≤ b.idx.val) (hU : b.idx.val < 27) :
    W1 m ρ c (Proc.devRef .tc b) = W0 m ρ c (Proc.devRef .tc b) :=
  (hs0 m ρ c b (fun y hy => idx_ne (by have := ge0 y hy; omega)))
theorem rkA2 (c : Dev nD) (b : Ref sig .tc) (hL : 7 ≤ b.idx.val) (hU : b.idx.val < 27) :
    W2 m ρ c (Proc.devRef .tc b) = W0 m ρ c (Proc.devRef .tc b) :=
  (W2_of_ne m ρ c b (fun w => idx_ne (by have := out0_7_27 w; omega))).trans (rkA1 m ρ c b hL hU)
theorem rkA3 (c : Dev nD) (b : Ref sig .tc) (hL : 7 ≤ b.idx.val) (hU : b.idx.val < 27) :
    W3 m ρ c (Proc.devRef .tc b) = W0 m ρ c (Proc.devRef .tc b) :=
  (hs1 m ρ c b (fun y hy => idx_ne (by have := ge1 y hy; omega))).trans (rkA2 m ρ c b hL hU)
theorem rkA4 (c : Dev nD) (b : Ref sig .tc) (hL : 7 ≤ b.idx.val) (hU : b.idx.val < 27) :
    W4 m ρ c (Proc.devRef .tc b) = W0 m ρ c (Proc.devRef .tc b) :=
  (hs1_1 m ρ c b (fun y hy => idx_ne (by have := ge1_1 y hy; omega))).trans (rkA3 m ρ c b hL hU)
theorem rkA5 (c : Dev nD) (b : Ref sig .tc) (hL : 7 ≤ b.idx.val) (hU : b.idx.val < 27) :
    W5 m ρ c (Proc.devRef .tc b) = W0 m ρ c (Proc.devRef .tc b) :=
  (hs1_2 m ρ c b (fun y hy => idx_ne (by have := ge1_2 y hy; omega))).trans (rkA4 m ρ c b hL hU)
theorem rkA6 (c : Dev nD) (b : Ref sig .tc) (hL : 7 ≤ b.idx.val) (hU : b.idx.val < 27) :
    W6 m ρ c (Proc.devRef .tc b) = W0 m ρ c (Proc.devRef .tc b) :=
  (W6_of_ne m ρ c b (fun w => idx_ne (by have := out1_7_27 w; omega))).trans (rkA5 m ρ c b hL hU)
theorem rkA7 (c : Dev nD) (b : Ref sig .tc) (hL : 7 ≤ b.idx.val) (hU : b.idx.val < 27) :
    W7 m ρ c (Proc.devRef .tc b) = W0 m ρ c (Proc.devRef .tc b) :=
  (hs2 m ρ c b (fun y hy => idx_ne (by have := ge2 y hy; omega))).trans (rkA6 m ρ c b hL hU)
theorem rkA8 (c : Dev nD) (b : Ref sig .tc) (hL : 7 ≤ b.idx.val) (hU : b.idx.val < 27) :
    W8 m ρ c (Proc.devRef .tc b) = W0 m ρ c (Proc.devRef .tc b) :=
  (hs2_1 m ρ c b (fun y hy => idx_ne (by have := ge2_1 y hy; omega))).trans (rkA7 m ρ c b hL hU)
theorem rkA9 (c : Dev nD) (b : Ref sig .tc) (hL : 7 ≤ b.idx.val) (hU : b.idx.val < 27) :
    W9 m ρ c (Proc.devRef .tc b) = W0 m ρ c (Proc.devRef .tc b) :=
  (hs2_2 m ρ c b (fun y hy => idx_ne (by have := ge2_2 y hy; omega))).trans (rkA8 m ρ c b hL hU)
theorem rkA10 (c : Dev nD) (b : Ref sig .tc) (hL : 7 ≤ b.idx.val) (hU : b.idx.val < 27) :
    W10 m ρ c (Proc.devRef .tc b) = W0 m ρ c (Proc.devRef .tc b) :=
  (W10_of_ne m ρ c b (fun w => idx_ne (by have := out2_7_27 w; omega))).trans (rkA9 m ρ c b hL hU)
theorem rkA11 (c : Dev nD) (b : Ref sig .tc) (hL : 7 ≤ b.idx.val) (hU : b.idx.val < 27) :
    W11 m ρ c (Proc.devRef .tc b) = W0 m ρ c (Proc.devRef .tc b) :=
  (hs3 m ρ c b (fun y hy => idx_ne (by have := ge3 y hy; omega))).trans (rkA10 m ρ c b hL hU)
theorem rkA12 (c : Dev nD) (b : Ref sig .tc) (hL : 7 ≤ b.idx.val) (hU : b.idx.val < 27) :
    W12 m ρ c (Proc.devRef .tc b) = W0 m ρ c (Proc.devRef .tc b) :=
  (hs3_1 m ρ c b (fun y hy => idx_ne (by have := ge3_1 y hy; omega))).trans (rkA11 m ρ c b hL hU)
theorem rkA13 (c : Dev nD) (b : Ref sig .tc) (hL : 7 ≤ b.idx.val) (hU : b.idx.val < 27) :
    W13 m ρ c (Proc.devRef .tc b) = W0 m ρ c (Proc.devRef .tc b) :=
  (hs3_2 m ρ c b (fun y hy => idx_ne (by have := ge3_2 y hy; omega))).trans (rkA12 m ρ c b hL hU)
theorem rkA14 (c : Dev nD) (b : Ref sig .tc) (hL : 7 ≤ b.idx.val) (hU : b.idx.val < 27) :
    W14 m ρ c (Proc.devRef .tc b) = W0 m ρ c (Proc.devRef .tc b) :=
  (hs3_3 m ρ c b (fun y hy => idx_ne (by have := ge3_3 y hy; omega))).trans (rkA13 m ρ c b hL hU)
theorem rkA15 (c : Dev nD) (b : Ref sig .tc) (hL : 7 ≤ b.idx.val) (hU : b.idx.val < 27) :
    W15 m ρ c (Proc.devRef .tc b) = W0 m ρ c (Proc.devRef .tc b) :=
  (hs3_4 m ρ c b (fun y hy => idx_ne (by have := ge3_4 y hy; omega))).trans (rkA14 m ρ c b hL hU)
theorem rkA16 (c : Dev nD) (b : Ref sig .tc) (hL : 7 ≤ b.idx.val) (hU : b.idx.val < 27) :
    W16 m ρ c (Proc.devRef .tc b) = W0 m ρ c (Proc.devRef .tc b) :=
  (W16_of_ne m ρ c b (fun w => idx_ne (by have := out3_7_27 w; omega))).trans (rkA15 m ρ c b hL hU)
theorem rkA17 (c : Dev nD) (b : Ref sig .tc) (hL : 7 ≤ b.idx.val) (hU : b.idx.val < 27) :
    W17 m ρ c (Proc.devRef .tc b) = W0 m ρ c (Proc.devRef .tc b) :=
  (hs4 m ρ c b (fun y hy => idx_ne (by have := ge4 y hy; omega))).trans (rkA16 m ρ c b hL hU)
theorem rkA18 (c : Dev nD) (b : Ref sig .tc) (hL : 7 ≤ b.idx.val) (hU : b.idx.val < 27) :
    W18 m ρ c (Proc.devRef .tc b) = W0 m ρ c (Proc.devRef .tc b) :=
  (hs4_1 m ρ c b (fun y hy => idx_ne (by have := ge4_1 y hy; omega))).trans (rkA17 m ρ c b hL hU)
theorem rkA19 (c : Dev nD) (b : Ref sig .tc) (hL : 7 ≤ b.idx.val) (hU : b.idx.val < 27) :
    W19 m ρ c (Proc.devRef .tc b) = W0 m ρ c (Proc.devRef .tc b) :=
  (hs4_2 m ρ c b (fun y hy => idx_ne (by have := ge4_2 y hy; omega))).trans (rkA18 m ρ c b hL hU)
theorem rkA20 (c : Dev nD) (b : Ref sig .tc) (hL : 7 ≤ b.idx.val) (hU : b.idx.val < 27) :
    W20 m ρ c (Proc.devRef .tc b) = W0 m ρ c (Proc.devRef .tc b) :=
  (W20_of_ne m ρ c b (fun w => idx_ne (by have := out4_7_27 w; omega))).trans (rkA19 m ρ c b hL hU)
theorem rkA21 (c : Dev nD) (b : Ref sig .tc) (hL : 7 ≤ b.idx.val) (hU : b.idx.val < 27) :
    W21 m ρ c (Proc.devRef .tc b) = W0 m ρ c (Proc.devRef .tc b) :=
  (hs5 m ρ c b (fun y hy => idx_ne (by have := ge5 y hy; omega))).trans (rkA20 m ρ c b hL hU)
theorem rkA22 (c : Dev nD) (b : Ref sig .tc) (hL : 7 ≤ b.idx.val) (hU : b.idx.val < 27) :
    W22 m ρ c (Proc.devRef .tc b) = W0 m ρ c (Proc.devRef .tc b) :=
  (hs5_1 m ρ c b (fun y hy => idx_ne (by have := ge5_1 y hy; omega))).trans (rkA21 m ρ c b hL hU)
theorem rkA23 (c : Dev nD) (b : Ref sig .tc) (hL : 7 ≤ b.idx.val) (hU : b.idx.val < 27) :
    W23 m ρ c (Proc.devRef .tc b) = W0 m ρ c (Proc.devRef .tc b) :=
  (hs5_2 m ρ c b (fun y hy => idx_ne (by have := ge5_2 y hy; omega))).trans (rkA22 m ρ c b hL hU)
theorem rkA24 (c : Dev nD) (b : Ref sig .tc) (hL : 7 ≤ b.idx.val) (hU : b.idx.val < 27) :
    W24 m ρ c (Proc.devRef .tc b) = W0 m ρ c (Proc.devRef .tc b) :=
  (W24_of_ne m ρ c b (fun w => idx_ne (by have := out5_7_27 w; omega))).trans (rkA23 m ρ c b hL hU)
theorem rkA25 (c : Dev nD) (b : Ref sig .tc) (hL : 7 ≤ b.idx.val) (hU : b.idx.val < 27) :
    W25 m ρ c (Proc.devRef .tc b) = W0 m ρ c (Proc.devRef .tc b) :=
  (hs6 m ρ c b (fun y hy => idx_ne (by have := ge6 y hy; omega))).trans (rkA24 m ρ c b hL hU)
theorem rkA26 (c : Dev nD) (b : Ref sig .tc) (hL : 7 ≤ b.idx.val) (hU : b.idx.val < 27) :
    W26 m ρ c (Proc.devRef .tc b) = W0 m ρ c (Proc.devRef .tc b) :=
  (hs6_1 m ρ c b (fun y hy => idx_ne (by have := ge6_1 y hy; omega))).trans (rkA25 m ρ c b hL hU)
theorem rkA27 (c : Dev nD) (b : Ref sig .tc) (hL : 7 ≤ b.idx.val) (hU : b.idx.val < 27) :
    W27 m ρ c (Proc.devRef .tc b) = W0 m ρ c (Proc.devRef .tc b) :=
  (hs6_2 m ρ c b (fun y hy => idx_ne (by have := ge6_2 y hy; omega))).trans (rkA26 m ρ c b hL hU)
theorem rkA28 (c : Dev nD) (b : Ref sig .tc) (hL : 7 ≤ b.idx.val) (hU : b.idx.val < 27) :
    W28 m ρ c (Proc.devRef .tc b) = W0 m ρ c (Proc.devRef .tc b) :=
  (W28_of_ne m ρ c b (fun w => idx_ne (by have := out6_7_27 w; omega))).trans (rkA27 m ρ c b hL hU)
theorem rkA29 (c : Dev nD) (b : Ref sig .tc) (hL : 7 ≤ b.idx.val) (hU : b.idx.val < 27) :
    W29 m ρ c (Proc.devRef .tc b) = W0 m ρ c (Proc.devRef .tc b) :=
  (hs7 m ρ c b (fun y hy => idx_ne (by have := ge7 y hy; omega))).trans (rkA28 m ρ c b hL hU)
theorem rkA30 (c : Dev nD) (b : Ref sig .tc) (hL : 7 ≤ b.idx.val) (hU : b.idx.val < 27) :
    W30 m ρ c (Proc.devRef .tc b) = W0 m ρ c (Proc.devRef .tc b) :=
  (hs7_1 m ρ c b (fun y hy => idx_ne (by have := ge7_1 y hy; omega))).trans (rkA29 m ρ c b hL hU)
theorem rkA31 (c : Dev nD) (b : Ref sig .tc) (hL : 7 ≤ b.idx.val) (hU : b.idx.val < 27) :
    W31 m ρ c (Proc.devRef .tc b) = W0 m ρ c (Proc.devRef .tc b) :=
  (hs7_2 m ρ c b (fun y hy => idx_ne (by have := ge7_2 y hy; omega))).trans (rkA30 m ρ c b hL hU)
theorem rkA32 (c : Dev nD) (b : Ref sig .tc) (hL : 7 ≤ b.idx.val) (hU : b.idx.val < 27) :
    W32 m ρ c (Proc.devRef .tc b) = W0 m ρ c (Proc.devRef .tc b) :=
  (hs7_3 m ρ c b (fun y hy => idx_ne (by have := ge7_3 y hy; omega))).trans (rkA31 m ρ c b hL hU)
theorem rkA33 (c : Dev nD) (b : Ref sig .tc) (hL : 7 ≤ b.idx.val) (hU : b.idx.val < 27) :
    W33 m ρ c (Proc.devRef .tc b) = W0 m ρ c (Proc.devRef .tc b) :=
  (hs7_4 m ρ c b (fun y hy => idx_ne (by have := ge7_4 y hy; omega))).trans (rkA32 m ρ c b hL hU)
theorem rkA34 (c : Dev nD) (b : Ref sig .tc) (hL : 7 ≤ b.idx.val) (hU : b.idx.val < 27) :
    W34 m ρ c (Proc.devRef .tc b) = W0 m ρ c (Proc.devRef .tc b) :=
  (W34_of_ne m ρ c b (fun w => idx_ne (by have := out7_7_27 w; omega))).trans (rkA33 m ρ c b hL hU)
theorem rkA35 (c : Dev nD) (b : Ref sig .tc) (hL : 7 ≤ b.idx.val) (hU : b.idx.val < 27) :
    W35 m ρ c (Proc.devRef .tc b) = W0 m ρ c (Proc.devRef .tc b) :=
  (hs8 m ρ c b (fun y hy => idx_ne (by have := ge8 y hy; omega))).trans (rkA34 m ρ c b hL hU)
theorem rkA36 (c : Dev nD) (b : Ref sig .tc) (hL : 7 ≤ b.idx.val) (hU : b.idx.val < 27) :
    W36 m ρ c (Proc.devRef .tc b) = W0 m ρ c (Proc.devRef .tc b) :=
  (hs8_1 m ρ c b (fun y hy => idx_ne (by have := ge8_1 y hy; omega))).trans (rkA35 m ρ c b hL hU)
theorem rkA37 (c : Dev nD) (b : Ref sig .tc) (hL : 7 ≤ b.idx.val) (hU : b.idx.val < 27) :
    W37 m ρ c (Proc.devRef .tc b) = W0 m ρ c (Proc.devRef .tc b) :=
  (hs8_2 m ρ c b (fun y hy => idx_ne (by have := ge8_2 y hy; omega))).trans (rkA36 m ρ c b hL hU)
theorem rkA38 (c : Dev nD) (b : Ref sig .tc) (hL : 7 ≤ b.idx.val) (hU : b.idx.val < 27) :
    W38 m ρ c (Proc.devRef .tc b) = W0 m ρ c (Proc.devRef .tc b) :=
  (W38_of_ne m ρ c b (fun w => idx_ne (by have := out8_7_27 w; omega))).trans (rkA37 m ρ c b hL hU)
theorem rkA39 (c : Dev nD) (b : Ref sig .tc) (hL : 7 ≤ b.idx.val) (hU : b.idx.val < 27) :
    W39 m ρ c (Proc.devRef .tc b) = W0 m ρ c (Proc.devRef .tc b) :=
  (hs9 m ρ c b (fun y hy => idx_ne (by have := ge9 y hy; omega))).trans (rkA38 m ρ c b hL hU)
theorem rkA40 (c : Dev nD) (b : Ref sig .tc) (hL : 7 ≤ b.idx.val) (hU : b.idx.val < 27) :
    W40 m ρ c (Proc.devRef .tc b) = W0 m ρ c (Proc.devRef .tc b) :=
  (hs9_1 m ρ c b (fun y hy => idx_ne (by have := ge9_1 y hy; omega))).trans (rkA39 m ρ c b hL hU)
theorem rkA41 (c : Dev nD) (b : Ref sig .tc) (hL : 7 ≤ b.idx.val) (hU : b.idx.val < 27) :
    W41 m ρ c (Proc.devRef .tc b) = W0 m ρ c (Proc.devRef .tc b) :=
  (hs9_2 m ρ c b (fun y hy => idx_ne (by have := ge9_2 y hy; omega))).trans (rkA40 m ρ c b hL hU)
theorem rkA42 (c : Dev nD) (b : Ref sig .tc) (hL : 7 ≤ b.idx.val) (hU : b.idx.val < 27) :
    W42 m ρ c (Proc.devRef .tc b) = W0 m ρ c (Proc.devRef .tc b) :=
  (W42_of_ne m ρ c b (fun w => idx_ne (by have := out9_7_27 w; omega))).trans (rkA41 m ρ c b hL hU)
theorem rkA43 (c : Dev nD) (b : Ref sig .tc) (hL : 7 ≤ b.idx.val) (hU : b.idx.val < 27) :
    W43 m ρ c (Proc.devRef .tc b) = W0 m ρ c (Proc.devRef .tc b) :=
  (hs10 m ρ c b (fun y hy => idx_ne (by have := ge10 y hy; omega))).trans (rkA42 m ρ c b hL hU)
theorem rkA44 (c : Dev nD) (b : Ref sig .tc) (hL : 7 ≤ b.idx.val) (hU : b.idx.val < 27) :
    W44 m ρ c (Proc.devRef .tc b) = W0 m ρ c (Proc.devRef .tc b) :=
  (hs10_1 m ρ c b (fun y hy => idx_ne (by have := ge10_1 y hy; omega))).trans (rkA43 m ρ c b hL hU)
theorem rkA45 (c : Dev nD) (b : Ref sig .tc) (hL : 7 ≤ b.idx.val) (hU : b.idx.val < 27) :
    W45 m ρ c (Proc.devRef .tc b) = W0 m ρ c (Proc.devRef .tc b) :=
  (hs10_2 m ρ c b (fun y hy => idx_ne (by have := ge10_2 y hy; omega))).trans (rkA44 m ρ c b hL hU)
theorem rkA46 (c : Dev nD) (b : Ref sig .tc) (hL : 7 ≤ b.idx.val) (hU : b.idx.val < 27) :
    W46 m ρ c (Proc.devRef .tc b) = W0 m ρ c (Proc.devRef .tc b) :=
  (W46_of_ne m ρ c b (fun w => idx_ne (by have := out10_7_27 w; omega))).trans (rkA45 m ρ c b hL hU)
theorem rkA47 (c : Dev nD) (b : Ref sig .tc) (hL : 7 ≤ b.idx.val) (hU : b.idx.val < 27) :
    W47 m ρ c (Proc.devRef .tc b) = W0 m ρ c (Proc.devRef .tc b) :=
  (hs11 m ρ c b (fun y hy => idx_ne (by have := ge11 y hy; omega))).trans (rkA46 m ρ c b hL hU)
theorem rkA48 (c : Dev nD) (b : Ref sig .tc) (hL : 7 ≤ b.idx.val) (hU : b.idx.val < 27) :
    W48 m ρ c (Proc.devRef .tc b) = W0 m ρ c (Proc.devRef .tc b) :=
  (hs11_1 m ρ c b (fun y hy => idx_ne (by have := ge11_1 y hy; omega))).trans (rkA47 m ρ c b hL hU)
theorem rkA49 (c : Dev nD) (b : Ref sig .tc) (hL : 7 ≤ b.idx.val) (hU : b.idx.val < 27) :
    W49 m ρ c (Proc.devRef .tc b) = W0 m ρ c (Proc.devRef .tc b) :=
  (hs11_2 m ρ c b (fun y hy => idx_ne (by have := ge11_2 y hy; omega))).trans (rkA48 m ρ c b hL hU)
theorem rkA50 (c : Dev nD) (b : Ref sig .tc) (hL : 7 ≤ b.idx.val) (hU : b.idx.val < 27) :
    W50 m ρ c (Proc.devRef .tc b) = W0 m ρ c (Proc.devRef .tc b) :=
  (hs11_3 m ρ c b (fun y hy => idx_ne (by have := ge11_3 y hy; omega))).trans (rkA49 m ρ c b hL hU)
theorem rkA51 (c : Dev nD) (b : Ref sig .tc) (hL : 7 ≤ b.idx.val) (hU : b.idx.val < 27) :
    W51 m ρ c (Proc.devRef .tc b) = W0 m ρ c (Proc.devRef .tc b) :=
  (hs11_4 m ρ c b (fun y hy => idx_ne (by have := ge11_4 y hy; omega))).trans (rkA50 m ρ c b hL hU)
theorem rkA52 (c : Dev nD) (b : Ref sig .tc) (hL : 7 ≤ b.idx.val) (hU : b.idx.val < 27) :
    W52 m ρ c (Proc.devRef .tc b) = W0 m ρ c (Proc.devRef .tc b) :=
  (W52_of_ne m ρ c b (fun w => idx_ne (by have := out11_7_27 w; omega))).trans (rkA51 m ρ c b hL hU)
theorem rkA53 (c : Dev nD) (b : Ref sig .tc) (hL : 7 ≤ b.idx.val) (hU : b.idx.val < 27) :
    W53 m ρ c (Proc.devRef .tc b) = W0 m ρ c (Proc.devRef .tc b) :=
  (hs12 m ρ c b (fun y hy => idx_ne (by have := ge12 y hy; omega))).trans (rkA52 m ρ c b hL hU)
theorem rkA54 (c : Dev nD) (b : Ref sig .tc) (hL : 7 ≤ b.idx.val) (hU : b.idx.val < 27) :
    W54 m ρ c (Proc.devRef .tc b) = W0 m ρ c (Proc.devRef .tc b) :=
  (hs12_1 m ρ c b (fun y hy => idx_ne (by have := ge12_1 y hy; omega))).trans (rkA53 m ρ c b hL hU)
theorem rkA55 (c : Dev nD) (b : Ref sig .tc) (hL : 7 ≤ b.idx.val) (hU : b.idx.val < 27) :
    W55 m ρ c (Proc.devRef .tc b) = W0 m ρ c (Proc.devRef .tc b) :=
  (hs12_2 m ρ c b (fun y hy => idx_ne (by have := ge12_2 y hy; omega))).trans (rkA54 m ρ c b hL hU)
theorem rkA56 (c : Dev nD) (b : Ref sig .tc) (hL : 7 ≤ b.idx.val) (hU : b.idx.val < 27) :
    W56 m ρ c (Proc.devRef .tc b) = W0 m ρ c (Proc.devRef .tc b) :=
  (W56_of_ne m ρ c b (fun w => idx_ne (by have := out12_7_27 w; omega))).trans (rkA55 m ρ c b hL hU)
theorem rkA57 (c : Dev nD) (b : Ref sig .tc) (hL : 7 ≤ b.idx.val) (hU : b.idx.val < 27) :
    W57 m ρ c (Proc.devRef .tc b) = W0 m ρ c (Proc.devRef .tc b) :=
  (hs13 m ρ c b (fun y hy => idx_ne (by have := ge13 y hy; omega))).trans (rkA56 m ρ c b hL hU)
theorem rkA58 (c : Dev nD) (b : Ref sig .tc) (hL : 7 ≤ b.idx.val) (hU : b.idx.val < 27) :
    W58 m ρ c (Proc.devRef .tc b) = W0 m ρ c (Proc.devRef .tc b) :=
  (hs13_1 m ρ c b (fun y hy => idx_ne (by have := ge13_1 y hy; omega))).trans (rkA57 m ρ c b hL hU)

/-! ## Buffers 27 to 41, from boundary 1 to boundary 48 -/

theorem rkI2 (c : Dev nD) (b : Ref sig .tc) (hL : 27 ≤ b.idx.val) (hU : b.idx.val < 42) :
    W2 m ρ c (Proc.devRef .tc b) = W1 m ρ c (Proc.devRef .tc b) :=
  (W2_of_ne m ρ c b (fun w => idx_ne (by have := out0_27_42 w; omega)))
theorem rkI3 (c : Dev nD) (b : Ref sig .tc) (hL : 27 ≤ b.idx.val) (hU : b.idx.val < 42) :
    W3 m ρ c (Proc.devRef .tc b) = W1 m ρ c (Proc.devRef .tc b) :=
  (hs1 m ρ c b (fun y hy => idx_ne (by have := ge1 y hy; omega))).trans (rkI2 m ρ c b hL hU)
theorem rkI4 (c : Dev nD) (b : Ref sig .tc) (hL : 27 ≤ b.idx.val) (hU : b.idx.val < 42) :
    W4 m ρ c (Proc.devRef .tc b) = W1 m ρ c (Proc.devRef .tc b) :=
  (hs1_1 m ρ c b (fun y hy => idx_ne (by have := ge1_1 y hy; omega))).trans (rkI3 m ρ c b hL hU)
theorem rkI5 (c : Dev nD) (b : Ref sig .tc) (hL : 27 ≤ b.idx.val) (hU : b.idx.val < 42) :
    W5 m ρ c (Proc.devRef .tc b) = W1 m ρ c (Proc.devRef .tc b) :=
  (hs1_2 m ρ c b (fun y hy => idx_ne (by have := ge1_2 y hy; omega))).trans (rkI4 m ρ c b hL hU)
theorem rkI6 (c : Dev nD) (b : Ref sig .tc) (hL : 27 ≤ b.idx.val) (hU : b.idx.val < 42) :
    W6 m ρ c (Proc.devRef .tc b) = W1 m ρ c (Proc.devRef .tc b) :=
  (W6_of_ne m ρ c b (fun w => idx_ne (by have := out1_27_42 w; omega))).trans (rkI5 m ρ c b hL hU)
theorem rkI7 (c : Dev nD) (b : Ref sig .tc) (hL : 27 ≤ b.idx.val) (hU : b.idx.val < 42) :
    W7 m ρ c (Proc.devRef .tc b) = W1 m ρ c (Proc.devRef .tc b) :=
  (hs2 m ρ c b (fun y hy => idx_ne (by have := ge2 y hy; omega))).trans (rkI6 m ρ c b hL hU)
theorem rkI8 (c : Dev nD) (b : Ref sig .tc) (hL : 27 ≤ b.idx.val) (hU : b.idx.val < 42) :
    W8 m ρ c (Proc.devRef .tc b) = W1 m ρ c (Proc.devRef .tc b) :=
  (hs2_1 m ρ c b (fun y hy => idx_ne (by have := ge2_1 y hy; omega))).trans (rkI7 m ρ c b hL hU)
theorem rkI9 (c : Dev nD) (b : Ref sig .tc) (hL : 27 ≤ b.idx.val) (hU : b.idx.val < 42) :
    W9 m ρ c (Proc.devRef .tc b) = W1 m ρ c (Proc.devRef .tc b) :=
  (hs2_2 m ρ c b (fun y hy => idx_ne (by have := ge2_2 y hy; omega))).trans (rkI8 m ρ c b hL hU)
theorem rkI10 (c : Dev nD) (b : Ref sig .tc) (hL : 27 ≤ b.idx.val) (hU : b.idx.val < 42) :
    W10 m ρ c (Proc.devRef .tc b) = W1 m ρ c (Proc.devRef .tc b) :=
  (W10_of_ne m ρ c b (fun w => idx_ne (by have := out2_27_42 w; omega))).trans (rkI9 m ρ c b hL hU)
theorem rkI11 (c : Dev nD) (b : Ref sig .tc) (hL : 27 ≤ b.idx.val) (hU : b.idx.val < 42) :
    W11 m ρ c (Proc.devRef .tc b) = W1 m ρ c (Proc.devRef .tc b) :=
  (hs3 m ρ c b (fun y hy => idx_ne (by have := ge3 y hy; omega))).trans (rkI10 m ρ c b hL hU)
theorem rkI12 (c : Dev nD) (b : Ref sig .tc) (hL : 27 ≤ b.idx.val) (hU : b.idx.val < 42) :
    W12 m ρ c (Proc.devRef .tc b) = W1 m ρ c (Proc.devRef .tc b) :=
  (hs3_1 m ρ c b (fun y hy => idx_ne (by have := ge3_1 y hy; omega))).trans (rkI11 m ρ c b hL hU)
theorem rkI13 (c : Dev nD) (b : Ref sig .tc) (hL : 27 ≤ b.idx.val) (hU : b.idx.val < 42) :
    W13 m ρ c (Proc.devRef .tc b) = W1 m ρ c (Proc.devRef .tc b) :=
  (hs3_2 m ρ c b (fun y hy => idx_ne (by have := ge3_2 y hy; omega))).trans (rkI12 m ρ c b hL hU)
theorem rkI14 (c : Dev nD) (b : Ref sig .tc) (hL : 27 ≤ b.idx.val) (hU : b.idx.val < 42) :
    W14 m ρ c (Proc.devRef .tc b) = W1 m ρ c (Proc.devRef .tc b) :=
  (hs3_3 m ρ c b (fun y hy => idx_ne (by have := ge3_3 y hy; omega))).trans (rkI13 m ρ c b hL hU)
theorem rkI15 (c : Dev nD) (b : Ref sig .tc) (hL : 27 ≤ b.idx.val) (hU : b.idx.val < 42) :
    W15 m ρ c (Proc.devRef .tc b) = W1 m ρ c (Proc.devRef .tc b) :=
  (hs3_4 m ρ c b (fun y hy => idx_ne (by have := ge3_4 y hy; omega))).trans (rkI14 m ρ c b hL hU)
theorem rkI16 (c : Dev nD) (b : Ref sig .tc) (hL : 27 ≤ b.idx.val) (hU : b.idx.val < 42) :
    W16 m ρ c (Proc.devRef .tc b) = W1 m ρ c (Proc.devRef .tc b) :=
  (W16_of_ne m ρ c b (fun w => idx_ne (by have := out3_27_42 w; omega))).trans (rkI15 m ρ c b hL hU)
theorem rkI17 (c : Dev nD) (b : Ref sig .tc) (hL : 27 ≤ b.idx.val) (hU : b.idx.val < 42) :
    W17 m ρ c (Proc.devRef .tc b) = W1 m ρ c (Proc.devRef .tc b) :=
  (hs4 m ρ c b (fun y hy => idx_ne (by have := ge4 y hy; omega))).trans (rkI16 m ρ c b hL hU)
theorem rkI18 (c : Dev nD) (b : Ref sig .tc) (hL : 27 ≤ b.idx.val) (hU : b.idx.val < 42) :
    W18 m ρ c (Proc.devRef .tc b) = W1 m ρ c (Proc.devRef .tc b) :=
  (hs4_1 m ρ c b (fun y hy => idx_ne (by have := ge4_1 y hy; omega))).trans (rkI17 m ρ c b hL hU)
theorem rkI19 (c : Dev nD) (b : Ref sig .tc) (hL : 27 ≤ b.idx.val) (hU : b.idx.val < 42) :
    W19 m ρ c (Proc.devRef .tc b) = W1 m ρ c (Proc.devRef .tc b) :=
  (hs4_2 m ρ c b (fun y hy => idx_ne (by have := ge4_2 y hy; omega))).trans (rkI18 m ρ c b hL hU)
theorem rkI20 (c : Dev nD) (b : Ref sig .tc) (hL : 27 ≤ b.idx.val) (hU : b.idx.val < 42) :
    W20 m ρ c (Proc.devRef .tc b) = W1 m ρ c (Proc.devRef .tc b) :=
  (W20_of_ne m ρ c b (fun w => idx_ne (by have := out4_27_42 w; omega))).trans (rkI19 m ρ c b hL hU)
theorem rkI21 (c : Dev nD) (b : Ref sig .tc) (hL : 27 ≤ b.idx.val) (hU : b.idx.val < 42) :
    W21 m ρ c (Proc.devRef .tc b) = W1 m ρ c (Proc.devRef .tc b) :=
  (hs5 m ρ c b (fun y hy => idx_ne (by have := ge5 y hy; omega))).trans (rkI20 m ρ c b hL hU)
theorem rkI22 (c : Dev nD) (b : Ref sig .tc) (hL : 27 ≤ b.idx.val) (hU : b.idx.val < 42) :
    W22 m ρ c (Proc.devRef .tc b) = W1 m ρ c (Proc.devRef .tc b) :=
  (hs5_1 m ρ c b (fun y hy => idx_ne (by have := ge5_1 y hy; omega))).trans (rkI21 m ρ c b hL hU)
theorem rkI23 (c : Dev nD) (b : Ref sig .tc) (hL : 27 ≤ b.idx.val) (hU : b.idx.val < 42) :
    W23 m ρ c (Proc.devRef .tc b) = W1 m ρ c (Proc.devRef .tc b) :=
  (hs5_2 m ρ c b (fun y hy => idx_ne (by have := ge5_2 y hy; omega))).trans (rkI22 m ρ c b hL hU)
theorem rkI24 (c : Dev nD) (b : Ref sig .tc) (hL : 27 ≤ b.idx.val) (hU : b.idx.val < 42) :
    W24 m ρ c (Proc.devRef .tc b) = W1 m ρ c (Proc.devRef .tc b) :=
  (W24_of_ne m ρ c b (fun w => idx_ne (by have := out5_27_42 w; omega))).trans (rkI23 m ρ c b hL hU)
theorem rkI25 (c : Dev nD) (b : Ref sig .tc) (hL : 27 ≤ b.idx.val) (hU : b.idx.val < 42) :
    W25 m ρ c (Proc.devRef .tc b) = W1 m ρ c (Proc.devRef .tc b) :=
  (hs6 m ρ c b (fun y hy => idx_ne (by have := ge6 y hy; omega))).trans (rkI24 m ρ c b hL hU)
theorem rkI26 (c : Dev nD) (b : Ref sig .tc) (hL : 27 ≤ b.idx.val) (hU : b.idx.val < 42) :
    W26 m ρ c (Proc.devRef .tc b) = W1 m ρ c (Proc.devRef .tc b) :=
  (hs6_1 m ρ c b (fun y hy => idx_ne (by have := ge6_1 y hy; omega))).trans (rkI25 m ρ c b hL hU)
theorem rkI27 (c : Dev nD) (b : Ref sig .tc) (hL : 27 ≤ b.idx.val) (hU : b.idx.val < 42) :
    W27 m ρ c (Proc.devRef .tc b) = W1 m ρ c (Proc.devRef .tc b) :=
  (hs6_2 m ρ c b (fun y hy => idx_ne (by have := ge6_2 y hy; omega))).trans (rkI26 m ρ c b hL hU)
theorem rkI28 (c : Dev nD) (b : Ref sig .tc) (hL : 27 ≤ b.idx.val) (hU : b.idx.val < 42) :
    W28 m ρ c (Proc.devRef .tc b) = W1 m ρ c (Proc.devRef .tc b) :=
  (W28_of_ne m ρ c b (fun w => idx_ne (by have := out6_27_42 w; omega))).trans (rkI27 m ρ c b hL hU)
theorem rkI29 (c : Dev nD) (b : Ref sig .tc) (hL : 27 ≤ b.idx.val) (hU : b.idx.val < 42) :
    W29 m ρ c (Proc.devRef .tc b) = W1 m ρ c (Proc.devRef .tc b) :=
  (hs7 m ρ c b (fun y hy => idx_ne (by have := ge7 y hy; omega))).trans (rkI28 m ρ c b hL hU)
theorem rkI30 (c : Dev nD) (b : Ref sig .tc) (hL : 27 ≤ b.idx.val) (hU : b.idx.val < 42) :
    W30 m ρ c (Proc.devRef .tc b) = W1 m ρ c (Proc.devRef .tc b) :=
  (hs7_1 m ρ c b (fun y hy => idx_ne (by have := ge7_1 y hy; omega))).trans (rkI29 m ρ c b hL hU)
theorem rkI31 (c : Dev nD) (b : Ref sig .tc) (hL : 27 ≤ b.idx.val) (hU : b.idx.val < 42) :
    W31 m ρ c (Proc.devRef .tc b) = W1 m ρ c (Proc.devRef .tc b) :=
  (hs7_2 m ρ c b (fun y hy => idx_ne (by have := ge7_2 y hy; omega))).trans (rkI30 m ρ c b hL hU)
theorem rkI32 (c : Dev nD) (b : Ref sig .tc) (hL : 27 ≤ b.idx.val) (hU : b.idx.val < 42) :
    W32 m ρ c (Proc.devRef .tc b) = W1 m ρ c (Proc.devRef .tc b) :=
  (hs7_3 m ρ c b (fun y hy => idx_ne (by have := ge7_3 y hy; omega))).trans (rkI31 m ρ c b hL hU)
theorem rkI33 (c : Dev nD) (b : Ref sig .tc) (hL : 27 ≤ b.idx.val) (hU : b.idx.val < 42) :
    W33 m ρ c (Proc.devRef .tc b) = W1 m ρ c (Proc.devRef .tc b) :=
  (hs7_4 m ρ c b (fun y hy => idx_ne (by have := ge7_4 y hy; omega))).trans (rkI32 m ρ c b hL hU)
theorem rkI34 (c : Dev nD) (b : Ref sig .tc) (hL : 27 ≤ b.idx.val) (hU : b.idx.val < 42) :
    W34 m ρ c (Proc.devRef .tc b) = W1 m ρ c (Proc.devRef .tc b) :=
  (W34_of_ne m ρ c b (fun w => idx_ne (by have := out7_27_42 w; omega))).trans (rkI33 m ρ c b hL hU)
theorem rkI35 (c : Dev nD) (b : Ref sig .tc) (hL : 27 ≤ b.idx.val) (hU : b.idx.val < 42) :
    W35 m ρ c (Proc.devRef .tc b) = W1 m ρ c (Proc.devRef .tc b) :=
  (hs8 m ρ c b (fun y hy => idx_ne (by have := ge8 y hy; omega))).trans (rkI34 m ρ c b hL hU)
theorem rkI36 (c : Dev nD) (b : Ref sig .tc) (hL : 27 ≤ b.idx.val) (hU : b.idx.val < 42) :
    W36 m ρ c (Proc.devRef .tc b) = W1 m ρ c (Proc.devRef .tc b) :=
  (hs8_1 m ρ c b (fun y hy => idx_ne (by have := ge8_1 y hy; omega))).trans (rkI35 m ρ c b hL hU)
theorem rkI37 (c : Dev nD) (b : Ref sig .tc) (hL : 27 ≤ b.idx.val) (hU : b.idx.val < 42) :
    W37 m ρ c (Proc.devRef .tc b) = W1 m ρ c (Proc.devRef .tc b) :=
  (hs8_2 m ρ c b (fun y hy => idx_ne (by have := ge8_2 y hy; omega))).trans (rkI36 m ρ c b hL hU)
theorem rkI38 (c : Dev nD) (b : Ref sig .tc) (hL : 27 ≤ b.idx.val) (hU : b.idx.val < 42) :
    W38 m ρ c (Proc.devRef .tc b) = W1 m ρ c (Proc.devRef .tc b) :=
  (W38_of_ne m ρ c b (fun w => idx_ne (by have := out8_27_42 w; omega))).trans (rkI37 m ρ c b hL hU)
theorem rkI39 (c : Dev nD) (b : Ref sig .tc) (hL : 27 ≤ b.idx.val) (hU : b.idx.val < 42) :
    W39 m ρ c (Proc.devRef .tc b) = W1 m ρ c (Proc.devRef .tc b) :=
  (hs9 m ρ c b (fun y hy => idx_ne (by have := ge9 y hy; omega))).trans (rkI38 m ρ c b hL hU)
theorem rkI40 (c : Dev nD) (b : Ref sig .tc) (hL : 27 ≤ b.idx.val) (hU : b.idx.val < 42) :
    W40 m ρ c (Proc.devRef .tc b) = W1 m ρ c (Proc.devRef .tc b) :=
  (hs9_1 m ρ c b (fun y hy => idx_ne (by have := ge9_1 y hy; omega))).trans (rkI39 m ρ c b hL hU)
theorem rkI41 (c : Dev nD) (b : Ref sig .tc) (hL : 27 ≤ b.idx.val) (hU : b.idx.val < 42) :
    W41 m ρ c (Proc.devRef .tc b) = W1 m ρ c (Proc.devRef .tc b) :=
  (hs9_2 m ρ c b (fun y hy => idx_ne (by have := ge9_2 y hy; omega))).trans (rkI40 m ρ c b hL hU)
theorem rkI42 (c : Dev nD) (b : Ref sig .tc) (hL : 27 ≤ b.idx.val) (hU : b.idx.val < 42) :
    W42 m ρ c (Proc.devRef .tc b) = W1 m ρ c (Proc.devRef .tc b) :=
  (W42_of_ne m ρ c b (fun w => idx_ne (by have := out9_27_42 w; omega))).trans (rkI41 m ρ c b hL hU)
theorem rkI43 (c : Dev nD) (b : Ref sig .tc) (hL : 27 ≤ b.idx.val) (hU : b.idx.val < 42) :
    W43 m ρ c (Proc.devRef .tc b) = W1 m ρ c (Proc.devRef .tc b) :=
  (hs10 m ρ c b (fun y hy => idx_ne (by have := ge10 y hy; omega))).trans (rkI42 m ρ c b hL hU)
theorem rkI44 (c : Dev nD) (b : Ref sig .tc) (hL : 27 ≤ b.idx.val) (hU : b.idx.val < 42) :
    W44 m ρ c (Proc.devRef .tc b) = W1 m ρ c (Proc.devRef .tc b) :=
  (hs10_1 m ρ c b (fun y hy => idx_ne (by have := ge10_1 y hy; omega))).trans (rkI43 m ρ c b hL hU)
theorem rkI45 (c : Dev nD) (b : Ref sig .tc) (hL : 27 ≤ b.idx.val) (hU : b.idx.val < 42) :
    W45 m ρ c (Proc.devRef .tc b) = W1 m ρ c (Proc.devRef .tc b) :=
  (hs10_2 m ρ c b (fun y hy => idx_ne (by have := ge10_2 y hy; omega))).trans (rkI44 m ρ c b hL hU)
theorem rkI46 (c : Dev nD) (b : Ref sig .tc) (hL : 27 ≤ b.idx.val) (hU : b.idx.val < 42) :
    W46 m ρ c (Proc.devRef .tc b) = W1 m ρ c (Proc.devRef .tc b) :=
  (W46_of_ne m ρ c b (fun w => idx_ne (by have := out10_27_42 w; omega))).trans (rkI45 m ρ c b hL hU)
theorem rkI47 (c : Dev nD) (b : Ref sig .tc) (hL : 27 ≤ b.idx.val) (hU : b.idx.val < 42) :
    W47 m ρ c (Proc.devRef .tc b) = W1 m ρ c (Proc.devRef .tc b) :=
  (hs11 m ρ c b (fun y hy => idx_ne (by have := ge11 y hy; omega))).trans (rkI46 m ρ c b hL hU)
theorem rkI48 (c : Dev nD) (b : Ref sig .tc) (hL : 27 ≤ b.idx.val) (hU : b.idx.val < 42) :
    W48 m ρ c (Proc.devRef .tc b) = W1 m ρ c (Proc.devRef .tc b) :=
  (hs11_1 m ρ c b (fun y hy => idx_ne (by have := ge11_1 y hy; omega))).trans (rkI47 m ρ c b hL hU)

/-! ## Buffers 42 to 43, from boundary 1 to boundary 5 -/

theorem rkSa2 (c : Dev nD) (b : Ref sig .tc) (hL : 42 ≤ b.idx.val) (hU : b.idx.val < 44) :
    W2 m ρ c (Proc.devRef .tc b) = W1 m ρ c (Proc.devRef .tc b) :=
  (W2_of_ne m ρ c b (fun w => idx_ne (by have := out0_42_44 w; omega)))
theorem rkSa3 (c : Dev nD) (b : Ref sig .tc) (hL : 42 ≤ b.idx.val) (hU : b.idx.val < 44) :
    W3 m ρ c (Proc.devRef .tc b) = W1 m ρ c (Proc.devRef .tc b) :=
  (hs1 m ρ c b (fun y hy => idx_ne (by have := ge1 y hy; omega))).trans (rkSa2 m ρ c b hL hU)
theorem rkSa4 (c : Dev nD) (b : Ref sig .tc) (hL : 42 ≤ b.idx.val) (hU : b.idx.val < 44) :
    W4 m ρ c (Proc.devRef .tc b) = W1 m ρ c (Proc.devRef .tc b) :=
  (hs1_1 m ρ c b (fun y hy => idx_ne (by have := ge1_1 y hy; omega))).trans (rkSa3 m ρ c b hL hU)
theorem rkSa5 (c : Dev nD) (b : Ref sig .tc) (hL : 42 ≤ b.idx.val) (hU : b.idx.val < 44) :
    W5 m ρ c (Proc.devRef .tc b) = W1 m ρ c (Proc.devRef .tc b) :=
  (hs1_2 m ρ c b (fun y hy => idx_ne (by have := ge1_2 y hy; omega))).trans (rkSa4 m ρ c b hL hU)

/-! ## Buffers 42 to 43, from boundary 6 to boundary 23 -/

theorem rkSb7 (c : Dev nD) (b : Ref sig .tc) (hL : 42 ≤ b.idx.val) (hU : b.idx.val < 44) :
    W7 m ρ c (Proc.devRef .tc b) = W6 m ρ c (Proc.devRef .tc b) :=
  (hs2 m ρ c b (fun y hy => idx_ne (by have := ge2 y hy; omega)))
theorem rkSb8 (c : Dev nD) (b : Ref sig .tc) (hL : 42 ≤ b.idx.val) (hU : b.idx.val < 44) :
    W8 m ρ c (Proc.devRef .tc b) = W6 m ρ c (Proc.devRef .tc b) :=
  (hs2_1 m ρ c b (fun y hy => idx_ne (by have := ge2_1 y hy; omega))).trans (rkSb7 m ρ c b hL hU)
theorem rkSb9 (c : Dev nD) (b : Ref sig .tc) (hL : 42 ≤ b.idx.val) (hU : b.idx.val < 44) :
    W9 m ρ c (Proc.devRef .tc b) = W6 m ρ c (Proc.devRef .tc b) :=
  (hs2_2 m ρ c b (fun y hy => idx_ne (by have := ge2_2 y hy; omega))).trans (rkSb8 m ρ c b hL hU)
theorem rkSb10 (c : Dev nD) (b : Ref sig .tc) (hL : 42 ≤ b.idx.val) (hU : b.idx.val < 44) :
    W10 m ρ c (Proc.devRef .tc b) = W6 m ρ c (Proc.devRef .tc b) :=
  (W10_of_ne m ρ c b (fun w => idx_ne (by have := out2_42_44 w; omega))).trans (rkSb9 m ρ c b hL hU)
theorem rkSb11 (c : Dev nD) (b : Ref sig .tc) (hL : 42 ≤ b.idx.val) (hU : b.idx.val < 44) :
    W11 m ρ c (Proc.devRef .tc b) = W6 m ρ c (Proc.devRef .tc b) :=
  (hs3 m ρ c b (fun y hy => idx_ne (by have := ge3 y hy; omega))).trans (rkSb10 m ρ c b hL hU)
theorem rkSb12 (c : Dev nD) (b : Ref sig .tc) (hL : 42 ≤ b.idx.val) (hU : b.idx.val < 44) :
    W12 m ρ c (Proc.devRef .tc b) = W6 m ρ c (Proc.devRef .tc b) :=
  (hs3_1 m ρ c b (fun y hy => idx_ne (by have := ge3_1 y hy; omega))).trans (rkSb11 m ρ c b hL hU)
theorem rkSb13 (c : Dev nD) (b : Ref sig .tc) (hL : 42 ≤ b.idx.val) (hU : b.idx.val < 44) :
    W13 m ρ c (Proc.devRef .tc b) = W6 m ρ c (Proc.devRef .tc b) :=
  (hs3_2 m ρ c b (fun y hy => idx_ne (by have := ge3_2 y hy; omega))).trans (rkSb12 m ρ c b hL hU)
theorem rkSb14 (c : Dev nD) (b : Ref sig .tc) (hL : 42 ≤ b.idx.val) (hU : b.idx.val < 44) :
    W14 m ρ c (Proc.devRef .tc b) = W6 m ρ c (Proc.devRef .tc b) :=
  (hs3_3 m ρ c b (fun y hy => idx_ne (by have := ge3_3 y hy; omega))).trans (rkSb13 m ρ c b hL hU)
theorem rkSb15 (c : Dev nD) (b : Ref sig .tc) (hL : 42 ≤ b.idx.val) (hU : b.idx.val < 44) :
    W15 m ρ c (Proc.devRef .tc b) = W6 m ρ c (Proc.devRef .tc b) :=
  (hs3_4 m ρ c b (fun y hy => idx_ne (by have := ge3_4 y hy; omega))).trans (rkSb14 m ρ c b hL hU)
theorem rkSb16 (c : Dev nD) (b : Ref sig .tc) (hL : 42 ≤ b.idx.val) (hU : b.idx.val < 44) :
    W16 m ρ c (Proc.devRef .tc b) = W6 m ρ c (Proc.devRef .tc b) :=
  (W16_of_ne m ρ c b (fun w => idx_ne (by have := out3_42_44 w; omega))).trans (rkSb15 m ρ c b hL hU)
theorem rkSb17 (c : Dev nD) (b : Ref sig .tc) (hL : 42 ≤ b.idx.val) (hU : b.idx.val < 44) :
    W17 m ρ c (Proc.devRef .tc b) = W6 m ρ c (Proc.devRef .tc b) :=
  (hs4 m ρ c b (fun y hy => idx_ne (by have := ge4 y hy; omega))).trans (rkSb16 m ρ c b hL hU)
theorem rkSb18 (c : Dev nD) (b : Ref sig .tc) (hL : 42 ≤ b.idx.val) (hU : b.idx.val < 44) :
    W18 m ρ c (Proc.devRef .tc b) = W6 m ρ c (Proc.devRef .tc b) :=
  (hs4_1 m ρ c b (fun y hy => idx_ne (by have := ge4_1 y hy; omega))).trans (rkSb17 m ρ c b hL hU)
theorem rkSb19 (c : Dev nD) (b : Ref sig .tc) (hL : 42 ≤ b.idx.val) (hU : b.idx.val < 44) :
    W19 m ρ c (Proc.devRef .tc b) = W6 m ρ c (Proc.devRef .tc b) :=
  (hs4_2 m ρ c b (fun y hy => idx_ne (by have := ge4_2 y hy; omega))).trans (rkSb18 m ρ c b hL hU)
theorem rkSb20 (c : Dev nD) (b : Ref sig .tc) (hL : 42 ≤ b.idx.val) (hU : b.idx.val < 44) :
    W20 m ρ c (Proc.devRef .tc b) = W6 m ρ c (Proc.devRef .tc b) :=
  (W20_of_ne m ρ c b (fun w => idx_ne (by have := out4_42_44 w; omega))).trans (rkSb19 m ρ c b hL hU)
theorem rkSb21 (c : Dev nD) (b : Ref sig .tc) (hL : 42 ≤ b.idx.val) (hU : b.idx.val < 44) :
    W21 m ρ c (Proc.devRef .tc b) = W6 m ρ c (Proc.devRef .tc b) :=
  (hs5 m ρ c b (fun y hy => idx_ne (by have := ge5 y hy; omega))).trans (rkSb20 m ρ c b hL hU)
theorem rkSb22 (c : Dev nD) (b : Ref sig .tc) (hL : 42 ≤ b.idx.val) (hU : b.idx.val < 44) :
    W22 m ρ c (Proc.devRef .tc b) = W6 m ρ c (Proc.devRef .tc b) :=
  (hs5_1 m ρ c b (fun y hy => idx_ne (by have := ge5_1 y hy; omega))).trans (rkSb21 m ρ c b hL hU)
theorem rkSb23 (c : Dev nD) (b : Ref sig .tc) (hL : 42 ≤ b.idx.val) (hU : b.idx.val < 44) :
    W23 m ρ c (Proc.devRef .tc b) = W6 m ρ c (Proc.devRef .tc b) :=
  (hs5_2 m ρ c b (fun y hy => idx_ne (by have := ge5_2 y hy; omega))).trans (rkSb22 m ρ c b hL hU)

/-! ## Buffers 42 to 43, from boundary 24 to boundary 41 -/

theorem rkSc25 (c : Dev nD) (b : Ref sig .tc) (hL : 42 ≤ b.idx.val) (hU : b.idx.val < 44) :
    W25 m ρ c (Proc.devRef .tc b) = W24 m ρ c (Proc.devRef .tc b) :=
  (hs6 m ρ c b (fun y hy => idx_ne (by have := ge6 y hy; omega)))
theorem rkSc26 (c : Dev nD) (b : Ref sig .tc) (hL : 42 ≤ b.idx.val) (hU : b.idx.val < 44) :
    W26 m ρ c (Proc.devRef .tc b) = W24 m ρ c (Proc.devRef .tc b) :=
  (hs6_1 m ρ c b (fun y hy => idx_ne (by have := ge6_1 y hy; omega))).trans (rkSc25 m ρ c b hL hU)
theorem rkSc27 (c : Dev nD) (b : Ref sig .tc) (hL : 42 ≤ b.idx.val) (hU : b.idx.val < 44) :
    W27 m ρ c (Proc.devRef .tc b) = W24 m ρ c (Proc.devRef .tc b) :=
  (hs6_2 m ρ c b (fun y hy => idx_ne (by have := ge6_2 y hy; omega))).trans (rkSc26 m ρ c b hL hU)
theorem rkSc28 (c : Dev nD) (b : Ref sig .tc) (hL : 42 ≤ b.idx.val) (hU : b.idx.val < 44) :
    W28 m ρ c (Proc.devRef .tc b) = W24 m ρ c (Proc.devRef .tc b) :=
  (W28_of_ne m ρ c b (fun w => idx_ne (by have := out6_42_44 w; omega))).trans (rkSc27 m ρ c b hL hU)
theorem rkSc29 (c : Dev nD) (b : Ref sig .tc) (hL : 42 ≤ b.idx.val) (hU : b.idx.val < 44) :
    W29 m ρ c (Proc.devRef .tc b) = W24 m ρ c (Proc.devRef .tc b) :=
  (hs7 m ρ c b (fun y hy => idx_ne (by have := ge7 y hy; omega))).trans (rkSc28 m ρ c b hL hU)
theorem rkSc30 (c : Dev nD) (b : Ref sig .tc) (hL : 42 ≤ b.idx.val) (hU : b.idx.val < 44) :
    W30 m ρ c (Proc.devRef .tc b) = W24 m ρ c (Proc.devRef .tc b) :=
  (hs7_1 m ρ c b (fun y hy => idx_ne (by have := ge7_1 y hy; omega))).trans (rkSc29 m ρ c b hL hU)
theorem rkSc31 (c : Dev nD) (b : Ref sig .tc) (hL : 42 ≤ b.idx.val) (hU : b.idx.val < 44) :
    W31 m ρ c (Proc.devRef .tc b) = W24 m ρ c (Proc.devRef .tc b) :=
  (hs7_2 m ρ c b (fun y hy => idx_ne (by have := ge7_2 y hy; omega))).trans (rkSc30 m ρ c b hL hU)
theorem rkSc32 (c : Dev nD) (b : Ref sig .tc) (hL : 42 ≤ b.idx.val) (hU : b.idx.val < 44) :
    W32 m ρ c (Proc.devRef .tc b) = W24 m ρ c (Proc.devRef .tc b) :=
  (hs7_3 m ρ c b (fun y hy => idx_ne (by have := ge7_3 y hy; omega))).trans (rkSc31 m ρ c b hL hU)
theorem rkSc33 (c : Dev nD) (b : Ref sig .tc) (hL : 42 ≤ b.idx.val) (hU : b.idx.val < 44) :
    W33 m ρ c (Proc.devRef .tc b) = W24 m ρ c (Proc.devRef .tc b) :=
  (hs7_4 m ρ c b (fun y hy => idx_ne (by have := ge7_4 y hy; omega))).trans (rkSc32 m ρ c b hL hU)
theorem rkSc34 (c : Dev nD) (b : Ref sig .tc) (hL : 42 ≤ b.idx.val) (hU : b.idx.val < 44) :
    W34 m ρ c (Proc.devRef .tc b) = W24 m ρ c (Proc.devRef .tc b) :=
  (W34_of_ne m ρ c b (fun w => idx_ne (by have := out7_42_44 w; omega))).trans (rkSc33 m ρ c b hL hU)
theorem rkSc35 (c : Dev nD) (b : Ref sig .tc) (hL : 42 ≤ b.idx.val) (hU : b.idx.val < 44) :
    W35 m ρ c (Proc.devRef .tc b) = W24 m ρ c (Proc.devRef .tc b) :=
  (hs8 m ρ c b (fun y hy => idx_ne (by have := ge8 y hy; omega))).trans (rkSc34 m ρ c b hL hU)
theorem rkSc36 (c : Dev nD) (b : Ref sig .tc) (hL : 42 ≤ b.idx.val) (hU : b.idx.val < 44) :
    W36 m ρ c (Proc.devRef .tc b) = W24 m ρ c (Proc.devRef .tc b) :=
  (hs8_1 m ρ c b (fun y hy => idx_ne (by have := ge8_1 y hy; omega))).trans (rkSc35 m ρ c b hL hU)
theorem rkSc37 (c : Dev nD) (b : Ref sig .tc) (hL : 42 ≤ b.idx.val) (hU : b.idx.val < 44) :
    W37 m ρ c (Proc.devRef .tc b) = W24 m ρ c (Proc.devRef .tc b) :=
  (hs8_2 m ρ c b (fun y hy => idx_ne (by have := ge8_2 y hy; omega))).trans (rkSc36 m ρ c b hL hU)
theorem rkSc38 (c : Dev nD) (b : Ref sig .tc) (hL : 42 ≤ b.idx.val) (hU : b.idx.val < 44) :
    W38 m ρ c (Proc.devRef .tc b) = W24 m ρ c (Proc.devRef .tc b) :=
  (W38_of_ne m ρ c b (fun w => idx_ne (by have := out8_42_44 w; omega))).trans (rkSc37 m ρ c b hL hU)
theorem rkSc39 (c : Dev nD) (b : Ref sig .tc) (hL : 42 ≤ b.idx.val) (hU : b.idx.val < 44) :
    W39 m ρ c (Proc.devRef .tc b) = W24 m ρ c (Proc.devRef .tc b) :=
  (hs9 m ρ c b (fun y hy => idx_ne (by have := ge9 y hy; omega))).trans (rkSc38 m ρ c b hL hU)
theorem rkSc40 (c : Dev nD) (b : Ref sig .tc) (hL : 42 ≤ b.idx.val) (hU : b.idx.val < 44) :
    W40 m ρ c (Proc.devRef .tc b) = W24 m ρ c (Proc.devRef .tc b) :=
  (hs9_1 m ρ c b (fun y hy => idx_ne (by have := ge9_1 y hy; omega))).trans (rkSc39 m ρ c b hL hU)
theorem rkSc41 (c : Dev nD) (b : Ref sig .tc) (hL : 42 ≤ b.idx.val) (hU : b.idx.val < 44) :
    W41 m ρ c (Proc.devRef .tc b) = W24 m ρ c (Proc.devRef .tc b) :=
  (hs9_2 m ρ c b (fun y hy => idx_ne (by have := ge9_2 y hy; omega))).trans (rkSc40 m ρ c b hL hU)

/-! ## Buffers 5 to 6, from boundary 0 to boundary 5 -/

theorem rkG1 (c : Dev nD) (b : Ref sig .tc) (hL : 5 ≤ b.idx.val) (hU : b.idx.val < 7) :
    W1 m ρ c (Proc.devRef .tc b) = W0 m ρ c (Proc.devRef .tc b) :=
  (hs0 m ρ c b (fun y hy => idx_ne (by have := ge0 y hy; omega)))
theorem rkG2 (c : Dev nD) (b : Ref sig .tc) (hL : 5 ≤ b.idx.val) (hU : b.idx.val < 7) :
    W2 m ρ c (Proc.devRef .tc b) = W0 m ρ c (Proc.devRef .tc b) :=
  (W2_of_ne m ρ c b (fun w => idx_ne (by have := out0_5_7 w; omega))).trans (rkG1 m ρ c b hL hU)
theorem rkG3 (c : Dev nD) (b : Ref sig .tc) (hL : 5 ≤ b.idx.val) (hU : b.idx.val < 7) :
    W3 m ρ c (Proc.devRef .tc b) = W0 m ρ c (Proc.devRef .tc b) :=
  (hs1 m ρ c b (fun y hy => idx_ne (by have := ge1 y hy; omega))).trans (rkG2 m ρ c b hL hU)
theorem rkG4 (c : Dev nD) (b : Ref sig .tc) (hL : 5 ≤ b.idx.val) (hU : b.idx.val < 7) :
    W4 m ρ c (Proc.devRef .tc b) = W0 m ρ c (Proc.devRef .tc b) :=
  (hs1_1 m ρ c b (fun y hy => idx_ne (by have := ge1_1 y hy; omega))).trans (rkG3 m ρ c b hL hU)
theorem rkG5 (c : Dev nD) (b : Ref sig .tc) (hL : 5 ≤ b.idx.val) (hU : b.idx.val < 7) :
    W5 m ρ c (Proc.devRef .tc b) = W0 m ρ c (Proc.devRef .tc b) :=
  (hs1_2 m ρ c b (fun y hy => idx_ne (by have := ge1_2 y hy; omega))).trans (rkG4 m ρ c b hL hU)

end Cert.KernelIdeal.KFold

end
-- ==== Proof.Spec.lean ====
/-
  The network's layers as functions on extended-real arrays, entry by entry.

  A node array has one row per node and one column per feature; a vector has one entry per feature.
  * `lin x W b`      : the matrix product of `x` with `W` plus the bias row `b`, entry `(p, q)` being
                        `∑ k, x (p, k) * W (k, q) + b q`.
  * `bn x μ v g β`   : the batch normalisation of `x` with GIVEN column statistics, entry `(p, q)` being
                        `(x (p, q) - μ q) * rsqrt (v q + ε) * g q + β q`, with `ε` the f32 nearest `1e-5`.
  * `relu x`         : the entrywise maximum with zero.
  * `add3 a b c`     : the entrywise sum `(a + b) + c`.
  * `outer s n w b`  : from two columns `s`, `n` (one entry per node), a row `w` and a vector `b`, entry
                        `(p, q)` being `s p * w q + n p * b q`.
-/
import Idealize.ShloMosaic.Lib.ValueIdx
import Idealize.ShloMosaic.PureOps.Ideal.Laws

noncomputable section

namespace Cert.Spec

open Idealize.ShloMosaic Idealize.ShloMosaic.ValueIdx

/-- The batch-norm epsilon: the f32 nearest `1e-5`, at its exact binary value. -/
abbrev eps : EReal := Ideal.ofBits .f32 0x3727C5AC#32

/-- The f32 zero word, read as an extended real. -/
abbrev zeroW : EReal := Ideal.ofBits .f32 0x00000000#32

variable {M K N : Nat}

/-- Entry `(p, q)` of `x · W + b`. -/
def linE (x : FVec Ideal ⟨2, ![M, K]⟩ .f32) (W : FVec Ideal ⟨2, ![K, N]⟩ .f32) (b : FVec Ideal ⟨1, ![N]⟩ .f32)
    (p : Fin M) (q : Fin N) : EReal :=
  (∑ k : Fin K, x (ix2 p k) * W (ix2 k q)) + b (ix1 q)

/-- `x · W + b` as an array. -/
def lin (x : FVec Ideal ⟨2, ![M, K]⟩ .f32) (W : FVec Ideal ⟨2, ![K, N]⟩ .f32) (b : FVec Ideal ⟨1, ![N]⟩ .f32) :
    FVec Ideal ⟨2, ![M, N]⟩ .f32 :=
  fun i => linE x W b (i 0) (i 1)

theorem lin_apply (x : FVec Ideal ⟨2, ![M, K]⟩ .f32) (W : FVec Ideal ⟨2, ![K, N]⟩ .f32) (b : FVec Ideal ⟨1, ![N]⟩ .f32)
    (p : Fin M) (q : Fin N) : lin x W b (ix2 p q) = linE x W b p q := rfl

/-- Entry `(p, q)` of the batch normalisation of `x` with column mean `μ`, column variance `v`, scale `g`, shift `β`. -/
def bnE (x : FVec Ideal ⟨2, ![M, N]⟩ .f32) (μ v g β : FVec Ideal ⟨1, ![N]⟩ .f32) (p : Fin M) (q : Fin N) : EReal :=
  (x (ix2 p q) - μ (ix1 q)) * Ideal.rsqrt (v (ix1 q) + eps) * g (ix1 q) + β (ix1 q)

/-- The batch normalisation as an array. -/
def bn (x : FVec Ideal ⟨2, ![M, N]⟩ .f32) (μ v g β : FVec Ideal ⟨1, ![N]⟩ .f32) : FVec Ideal ⟨2, ![M, N]⟩ .f32 :=
  fun i => bnE x μ v g β (i 0) (i 1)

theorem bn_apply (x : FVec Ideal ⟨2, ![M, N]⟩ .f32) (μ v g β : FVec Ideal ⟨1, ![N]⟩ .f32) (p : Fin M) (q : Fin N) :
    bn x μ v g β (ix2 p q) = bnE x μ v g β p q := rfl

/-- The entrywise maximum with zero. -/
def relu {S : Shape} (x : FVec Ideal S .f32) : FVec Ideal S .f32 := fun i => max (x i) zeroW

theorem relu_apply {S : Shape} (x : FVec Ideal S .f32) (i : S.Idx) : relu x i = max (x i) zeroW := rfl

/-- The entrywise sum of three arrays, associated to the left. -/
def add3 {S : Shape} (a b c : FVec Ideal S .f32) : FVec Ideal S .f32 := fun i => a i + b i + c i

theorem add3_apply {S : Shape} (a b c : FVec Ideal S .f32) (i : S.Idx) : add3 a b c i = a i + b i + c i := rfl

/-- Entry `(p, q)` of the rank-one combination `s ⊗ w + n ⊗ b`. -/
def outerE (s n : FVec Ideal ⟨2, ![M, 1]⟩ .f32) (w : FVec Ideal ⟨2, ![1, N]⟩ .f32) (b : FVec Ideal ⟨1, ![N]⟩ .f32)
    (p : Fin M) (q : Fin N) : EReal :=
  s (ix2 p 0) * w (ix2 0 q) + n (ix2 p 0) * b (ix1 q)

/-- The rank-one combination as an array. -/
def outer (s n : FVec Ideal ⟨2, ![M, 1]⟩ .f32) (w : FVec Ideal ⟨2, ![1, N]⟩ .f32) (b : FVec Ideal ⟨1, ![N]⟩ .f32) :
    FVec Ideal ⟨2, ![M, N]⟩ .f32 :=
  fun i => outerE s n w b (i 0) (i 1)

theorem outer_apply (s n : FVec Ideal ⟨2, ![M, 1]⟩ .f32) (w : FVec Ideal ⟨2, ![1, N]⟩ .f32) (b : FVec Ideal ⟨1, ![N]⟩ .f32)
    (p : Fin M) (q : Fin N) : outer s n w b (ix2 p q) = outerE s n w b p q := rfl

end Cert.Spec

end
-- ==== Proof.Chains.lean ====
/-
  The host-side chains that the two programs share, as functions of the arrays they read.

  Both programs compute, with the same host operations: the edge list's two rows; a column's mean and (biased)
  variance over the 40000 nodes; a gather of node rows along an index vector (negative indices wrapped by the
  node count first); the sum of edge rows into node rows along an index vector; the sum of edge scalars into node
  scalars; and the `i`-th slice of a stacked parameter. Each is stated here once, over literal shapes, so that
  either program's term is this one up to the proofs of its shape side conditions.
-/
import Idealize.ShloMosaic.Lib.ValueIdx
import Idealize.ShloMosaic.PureOps.Ideal.Laws

noncomputable section

namespace Cert.Chains

open Idealize.ShloMosaic

abbrev S_ : Shape := ⟨0, ![]⟩
abbrev SF : Shape := ⟨1, ![128]⟩
abbrev S1F : Shape := ⟨2, ![1, 128]⟩
abbrev SN : Shape := ⟨2, ![40000, 128]⟩
abbrev SE : Shape := ⟨2, ![640000, 128]⟩
abbrev SNs : Shape := ⟨1, ![40000]⟩
abbrev SN1 : Shape := ⟨2, ![40000, 1]⟩
abbrev SEs : Shape := ⟨1, ![640000]⟩
abbrev SE1 : Shape := ⟨2, ![640000, 1]⟩
abbrev S2E : Shape := ⟨2, ![2, 640000]⟩
abbrev S1E : Shape := ⟨2, ![1, 640000]⟩
abbrev S3FF : Shape := ⟨3, ![3, 128, 128]⟩
abbrev S1FF : Shape := ⟨3, ![1, 128, 128]⟩
abbrev SFF : Shape := ⟨2, ![128, 128]⟩
abbrev S3F : Shape := ⟨2, ![3, 128]⟩
abbrev S31F : Shape := ⟨3, ![3, 1, 128]⟩
abbrev S11F : Shape := ⟨3, ![1, 1, 128]⟩

theorem hS_ : 0 < S_.numel := by decide
theorem red0 : SN.ReducesTo [0] SF := by decide
theorem bc_S_SF : S_.BroadcastsInDim SF (![] : Fin 0 → Fin SF.rank) := by decide
theorem bc_S_S1F : S_.BroadcastsInDim S1F (![] : Fin 0 → Fin S1F.rank) := by decide
theorem bc_SF_S1F : SF.BroadcastsInDim S1F (![1] : Fin 1 → Fin S1F.rank) := by decide
theorem bc_S1F_SN : S1F.BroadcastsInDim SN (![0, 1] : Fin 2 → Fin SN.rank) := by decide
theorem bc_S_SN : S_.BroadcastsInDim SN (![] : Fin 0 → Fin SN.rank) := by decide
theorem bc_S_SNs : S_.BroadcastsInDim SNs (![] : Fin 0 → Fin SNs.rank) := by decide
theorem bc_S_SEs : S_.BroadcastsInDim SEs (![] : Fin 0 → Fin SEs.rank) := by decide
theorem bc_SEs_SE1 : SEs.BroadcastsInDim SE1 (![0] : Fin 1 → Fin SE1.rank) := by decide

variable {F : FTy → Type} [FloatOps F]

/-- A column's mean over the 40000 rows: the column sums from zero, divided by 40000. -/
def mean (x : FVec F SN .f32) : FVec F SF .f32 :=
  Host.divf (Host.reduceAdd x (constant S_ .f32 0x00000000#32) red0 hS_)
    (broadcastInDim SF ![] bc_S_SF (constant S_ .f32 0x471C4000#32))

/-- A column's biased variance over the 40000 rows, exactly as the array library states it: the mean of the squared
    deviations from the column mean, divided by `40000 - 0`, kept where that divisor is positive (it is) and a
    not-a-number word otherwise. -/
def var (x : FVec F SN .f32) : FVec F SF .f32 :=
  select
    (broadcastInDim SF ![] bc_S_SF
      (cmpf .ogt (subf (constant (F := F) S_ .f32 0x471C4000#32) (sitofp .f32 (constantI S_ 32 0#32))) (constant (F := F) S_ .f32 0x00000000#32)))
    (Host.divf
      (Host.reduceAdd
        (mulf
          (subf x (broadcastInDim SN ![0, 1] bc_S1F_SN
            (Host.divf (broadcastInDim S1F ![1] bc_SF_S1F (Host.reduceAdd x (constant S_ .f32 0x00000000#32) red0 hS_))
              (broadcastInDim S1F ![] bc_S_S1F (constant S_ .f32 0x471C4000#32)))))
          (subf x (broadcastInDim SN ![0, 1] bc_S1F_SN
            (Host.divf (broadcastInDim S1F ![1] bc_SF_S1F (Host.reduceAdd x (constant S_ .f32 0x00000000#32) red0 hS_))
              (broadcastInDim S1F ![] bc_S_S1F (constant S_ .f32 0x471C4000#32))))))
        (constant S_ .f32 0x00000000#32) red0 hS_)
      (broadcastInDim SF ![] bc_S_SF
        (subf (constant S_ .f32 0x471C4000#32) (sitofp .f32 (constantI S_ 32 0#32)))))
    (broadcastInDim SF ![] bc_S_SF (id (constant S_ .f32 0x7FC00000#32)))

theorem sl_E0 : S2E.Slices ![0, 0] S1E := by decide
theorem sl_E1 : S2E.Slices ![1, 0] S1E := by decide
theorem sc_S1E_SEs : S1E.ShapeCasts SEs := by decide
theorem sc_SE1_SEs : SE1.ShapeCasts SEs := by decide
theorem sc_SNs_SN1 : SNs.ShapeCasts SN1 := by decide

/-- The edges' source nodes: row 0 of the edge list. -/
def srcOf (ei : IVec S2E 32) : IVec SEs 32 := shapeCast SEs (extractStridedSlice S1E ![0, 0] ei sl_E0) sc_S1E_SEs
/-- The edges' target nodes: row 1 of the edge list. -/
def dstOf (ei : IVec S2E 32) : IVec SEs 32 := shapeCast SEs (extractStridedSlice S1E ![1, 0] ei sl_E1) sc_S1E_SEs

/-- Gather of node rows along an edge index vector, a negative index wrapped by the node count first. -/
def gatherDims : GatherDims SN SE1 SE where
  offsetDims := [1]
  collapsedSliceDims := [0]
  operandBatchingDims := []
  startIndicesBatchingDims := []
  startIndexMap := [0]
  indexVectorDim := 1
  sliceSizes := ![1, 128]
  wf := by decide

/-- Row `e` of the result is row `idx e` of `h` (a negative `idx e` taken as `idx e + 40000`). -/
def gatherRows (h : FVec F SN .f32) (idx : IVec SEs 32) : FVec F SE .f32 :=
  Host.gather gatherDims h
    (broadcastInDim SE1 ![0] bc_SEs_SE1
      (select (cmpi .slt idx (broadcastInDim SEs ![] bc_S_SEs (constantI S_ 32 0#32)))
        (addi idx (broadcastInDim SEs ![] bc_S_SEs (constantI S_ 32 40000#32))) idx))

/-- Sum of edge rows into node rows. -/
def scatterDims : ScatterDims SN SE1 SE where
  updateWindowDims := [1]
  insertedWindowDims := [0]
  scatterDimsToOperandDims := [0]
  indexVectorDim := 1
  wf := by decide

/-- Row `v` of the result is the sum of the rows `e` of `u` with `idx e = v`, from zero. -/
def segSum (idx : IVec SEs 32) (u : FVec F SE .f32) : FVec F SN .f32 :=
  Host.scatterAdd scatterDims (broadcastInDim SN ![] bc_S_SN (constant S_ .f32 0x00000000#32))
    (broadcastInDim SE1 ![0] bc_SEs_SE1 idx) u

/-- Sum of edge scalars into node scalars. -/
def scatterDims1 : ScatterDims SNs SE1 SEs where
  updateWindowDims := []
  insertedWindowDims := [0]
  scatterDimsToOperandDims := [0]
  indexVectorDim := 1
  wf := by decide

/-- Entry `v` of the result is the sum of the entries `e` of `u` with `idx e = v`, from zero. -/
def segSum1 (idx : IVec SEs 32) (u : FVec F SEs .f32) : FVec F SNs .f32 :=
  Host.scatterAdd scatterDims1 (broadcastInDim SNs ![] bc_S_SNs (constant S_ .f32 0x00000000#32))
    (broadcastInDim SE1 ![0] bc_SEs_SE1 idx) u

/-- Per node, the sum of its outgoing edges' attribute, as a column. -/
def edgeSum (idx : IVec SEs 32) (ea : FVec F SE1 .f32) : FVec F SN1 .f32 :=
  shapeCast SN1 (segSum1 idx (shapeCast SEs ea sc_SE1_SEs)) sc_SNs_SN1

/-- Per node, the number of its outgoing edges, as a column. -/
def edgeCount (idx : IVec SEs 32) : FVec F SN1 .f32 :=
  shapeCast SN1 (segSum1 idx (broadcastInDim SEs ![] bc_S_SEs (constant S_ .f32 0x3F800000#32))) sc_SNs_SN1

theorem sl_FF0 : S3FF.Slices ![0, 0, 0] S1FF := by decide
theorem sl_FF1 : S3FF.Slices ![1, 0, 0] S1FF := by decide
theorem sl_FF2 : S3FF.Slices ![2, 0, 0] S1FF := by decide
theorem sc_S1FF_SFF : S1FF.ShapeCasts SFF := by decide
theorem sl_F0 : S3F.Slices ![0, 0] S1F := by decide
theorem sl_F1 : S3F.Slices ![1, 0] S1F := by decide
theorem sl_F2 : S3F.Slices ![2, 0] S1F := by decide
theorem sc_S1F_SF : S1F.ShapeCasts SF := by decide
theorem sl_1F0 : S31F.Slices ![0, 0, 0] S11F := by decide
theorem sl_1F1 : S31F.Slices ![1, 0, 0] S11F := by decide
theorem sl_1F2 : S31F.Slices ![2, 0, 0] S11F := by decide
theorem sc_S11F_S1F : S11F.ShapeCasts S1F := by decide

/-- Layer 0, 1, 2 of a stack of three 128×128 matrices. -/
def mat0 (W : FVec F S3FF .f32) : FVec F SFF .f32 := shapeCast SFF (extractStridedSlice S1FF ![0, 0, 0] W sl_FF0) sc_S1FF_SFF
def mat1 (W : FVec F S3FF .f32) : FVec F SFF .f32 := shapeCast SFF (extractStridedSlice S1FF ![1, 0, 0] W sl_FF1) sc_S1FF_SFF
def mat2 (W : FVec F S3FF .f32) : FVec F SFF .f32 := shapeCast SFF (extractStridedSlice S1FF ![2, 0, 0] W sl_FF2) sc_S1FF_SFF
/-- Layer 0, 1, 2 of a stack of three 128-vectors. -/
def vec0 (b : FVec F S3F .f32) : FVec F SF .f32 := shapeCast SF (extractStridedSlice S1F ![0, 0] b sl_F0) sc_S1F_SF
def vec1 (b : FVec F S3F .f32) : FVec F SF .f32 := shapeCast SF (extractStridedSlice S1F ![1, 0] b sl_F1) sc_S1F_SF
def vec2 (b : FVec F S3F .f32) : FVec F SF .f32 := shapeCast SF (extractStridedSlice S1F ![2, 0] b sl_F2) sc_S1F_SF
/-- Layer 0, 1, 2 of a stack of three 1×128 rows. -/
def row0 (W : FVec F S31F .f32) : FVec F S1F .f32 := shapeCast S1F (extractStridedSlice S11F ![0, 0, 0] W sl_1F0) sc_S11F_S1F
def row1 (W : FVec F S31F .f32) : FVec F S1F .f32 := shapeCast S1F (extractStridedSlice S11F ![1, 0, 0] W sl_1F1) sc_S11F_S1F
def row2 (W : FVec F S31F .f32) : FVec F S1F .f32 := shapeCast S1F (extractStridedSlice S11F ![2, 0, 0] W sl_1F2) sc_S11F_S1F

end Cert.Chains

end
-- ==== Proof.Net.lean ====
/-
  The whole network as one function of its 27 argument arrays, in two forms that differ only in the edge branch.

  `norm x g β` normalises `x` by its own column mean and variance and clips at zero. One layer takes the
  normalised node features `x` and the edge branch's pre-normalisation array `e`, and returns the layer's last
  linear output (before ITS normalisation): `layerRaw`. The network is the first linear map, normalised, then
  three layers, each normalised by the layer's last scale and shift.

  The kernel's program produces the edge array of layer `i` as `s ⊗ Wedge[i] + n ⊗ bedge[i]` from the per-node
  sums `s` of edge attributes and counts `n` of edges; the reference sums `edge_attr · Wedge[i] + bedge[i]` over
  each node's edges. `netWith` takes that array's construction as a parameter.
-/
import proofs.«426021_j89885075570707_3_alg».proof.Proof.Spec
import proofs.«426021_j89885075570707_3_alg».proof.Proof.Chains

noncomputable section

namespace Cert.Net

open Idealize.ShloMosaic Cert.Spec Cert.Chains

/-- Batch normalisation of `x` by its own column statistics. -/
def bnS (x : FVec Ideal SN .f32) (g β : FVec Ideal SF .f32) : FVec Ideal SN .f32 :=
  bn x (mean x) (var x) g β

/-- Normalise by own statistics, then clip at zero. -/
def norm (x : FVec Ideal SN .f32) (g β : FVec Ideal SF .f32) : FVec Ideal SN .f32 := relu (bnS x g β)

/-- One layer's parameters. -/
structure LayerP where
  Wnode : FVec Ideal SFF .f32
  bnode : FVec Ideal SF .f32
  Wnb : FVec Ideal SFF .f32
  bnb : FVec Ideal SF .f32
  gn : FVec Ideal SF .f32
  btn : FVec Ideal SF .f32
  ge : FVec Ideal SF .f32
  bte : FVec Ideal SF .f32
  gnb : FVec Ideal SF .f32
  btnb : FVec Ideal SF .f32
  Wm1 : FVec Ideal SFF .f32
  bm1 : FVec Ideal SF .f32
  gm1 : FVec Ideal SF .f32
  btm1 : FVec Ideal SF .f32
  Wm2 : FVec Ideal SFF .f32
  bm2 : FVec Ideal SF .f32

/-- From the three pre-normalisation arrays (node branch `xn`, neighbour aggregate `ag`, edge branch `ea`) to the
    layer's last linear output: normalise each, add, clip, first update map, normalise and clip, second update map. -/
def layerMid (P : LayerP) (xn ag ea : FVec Ideal SN .f32) : FVec Ideal SN .f32 :=
  lin (norm (lin (relu (add3 (bnS xn P.gn P.btn) (bnS ag P.gnb P.btnb) (bnS ea P.ge P.bte))) P.Wm1 P.bm1) P.gm1 P.btm1)
    P.Wm2 P.bm2

/-- The neighbour aggregate: the neighbour map's rows gathered at the edges' sources, summed at their targets. -/
def aggregate (src dst : IVec SEs 32) (h : FVec Ideal SN .f32) : FVec Ideal SN .f32 :=
  segSum dst (gatherRows h src)

/-- One layer, from normalised features `x` and the edge branch's array `ea`. -/
def layerRaw (src dst : IVec SEs 32) (P : LayerP) (ea x : FVec Ideal SN .f32) : FVec Ideal SN .f32 :=
  layerMid P (lin x P.Wnode P.bnode) (aggregate src dst (lin x P.Wnb P.bnb)) ea

/-- The parameters of layer 0, 1, 2 out of the stacked arguments. -/
def P0 (Wnode : FVec Ideal S3FF .f32) (bnode : FVec Ideal S3F .f32) (Wnb : FVec Ideal S3FF .f32) (bnb gn btn ge bte gnb btnb : FVec Ideal S3F .f32)
    (Wm1 : FVec Ideal S3FF .f32) (bm1 gm1 btm1 : FVec Ideal S3F .f32) (Wm2 : FVec Ideal S3FF .f32) (bm2 : FVec Ideal S3F .f32) : LayerP :=
  ⟨mat0 Wnode, vec0 bnode, mat0 Wnb, vec0 bnb, vec0 gn, vec0 btn, vec0 ge, vec0 bte, vec0 gnb, vec0 btnb,
   mat0 Wm1, vec0 bm1, vec0 gm1, vec0 btm1, mat0 Wm2, vec0 bm2⟩
def P1 (Wnode : FVec Ideal S3FF .f32) (bnode : FVec Ideal S3F .f32) (Wnb : FVec Ideal S3FF .f32) (bnb gn btn ge bte gnb btnb : FVec Ideal S3F .f32)
    (Wm1 : FVec Ideal S3FF .f32) (bm1 gm1 btm1 : FVec Ideal S3F .f32) (Wm2 : FVec Ideal S3FF .f32) (bm2 : FVec Ideal S3F .f32) : LayerP :=
  ⟨mat1 Wnode, vec1 bnode, mat1 Wnb, vec1 bnb, vec1 gn, vec1 btn, vec1 ge, vec1 bte, vec1 gnb, vec1 btnb,
   mat1 Wm1, vec1 bm1, vec1 gm1, vec1 btm1, mat1 Wm2, vec1 bm2⟩
def P2 (Wnode : FVec Ideal S3FF .f32) (bnode : FVec Ideal S3F .f32) (Wnb : FVec Ideal S3FF .f32) (bnb gn btn ge bte gnb btnb : FVec Ideal S3F .f32)
    (Wm1 : FVec Ideal S3FF .f32) (bm1 gm1 btm1 : FVec Ideal S3F .f32) (Wm2 : FVec Ideal S3FF .f32) (bm2 : FVec Ideal S3F .f32) : LayerP :=
  ⟨mat2 Wnode, vec2 bnode, mat2 Wnb, vec2 bnb, vec2 gn, vec2 btn, vec2 ge, vec2 bte, vec2 gnb, vec2 btnb,
   mat2 Wm1, vec2 bm1, vec2 gm1, vec2 btm1, mat2 Wm2, vec2 bm2⟩

abbrev SA0 : Shape := ⟨2, ![40000, 2]⟩
abbrev SW0 : Shape := ⟨2, ![2, 128]⟩

/-- The network, the edge branch's array given as a function `edge W b` of a layer's edge row and edge bias. -/
def netWith (edge : FVec Ideal S1F .f32 → FVec Ideal SF .f32 → FVec Ideal SN .f32)
    (a0 : FVec Ideal SA0 .f32) (a1 : IVec S2E 32) (a3 : FVec Ideal SW0 .f32) (a4 a5 a6 : FVec Ideal SF .f32)
    (a7 : FVec Ideal S3FF .f32) (a8 : FVec Ideal S3F .f32) (a9 : FVec Ideal S31F .f32) (a10 : FVec Ideal S3F .f32)
    (a11 : FVec Ideal S3FF .f32) (a12 a13 a14 a15 a16 a17 a18 : FVec Ideal S3F .f32)
    (a19 : FVec Ideal S3FF .f32) (a20 a21 a22 : FVec Ideal S3F .f32)
    (a23 : FVec Ideal S3FF .f32) (a24 a25 a26 : FVec Ideal S3F .f32) : FVec Ideal SN .f32 :=
  norm
    (layerRaw (srcOf a1) (dstOf a1) (P2 a7 a8 a11 a12 a13 a14 a15 a16 a17 a18 a19 a20 a21 a22 a23 a24) (edge (row2 a9) (vec2 a10))
      (norm
        (layerRaw (srcOf a1) (dstOf a1) (P1 a7 a8 a11 a12 a13 a14 a15 a16 a17 a18 a19 a20 a21 a22 a23 a24) (edge (row1 a9) (vec1 a10))
          (norm
            (layerRaw (srcOf a1) (dstOf a1) (P0 a7 a8 a11 a12 a13 a14 a15 a16 a17 a18 a19 a20 a21 a22 a23 a24) (edge (row0 a9) (vec0 a10))
              (norm (lin a0 a3 a4) a5 a6))
            (vec0 a25) (vec0 a26)))
        (vec1 a25) (vec1 a26)))
    (vec2 a25) (vec2 a26)

/-- The kernel's edge array: per-node sums of edge attributes times the edge row, plus per-node edge counts times the edge bias. -/
def edgeK (a1 : IVec S2E 32) (a2 : FVec Ideal SE1 .f32) (W : FVec Ideal S1F .f32) (b : FVec Ideal SF .f32) : FVec Ideal SN .f32 :=
  outer (edgeSum (srcOf a1) a2) (edgeCount (srcOf a1)) W b

/-- The reference's edge array: `edge_attr · W + b` per edge, summed over each node's outgoing edges. -/
def edgeR (a1 : IVec S2E 32) (a2 : FVec Ideal SE1 .f32) (W : FVec Ideal S1F .f32) (b : FVec Ideal SF .f32) : FVec Ideal SN .f32 :=
  segSum (srcOf a1) (lin a2 W b)

/-- The two forms agree once the two edge arrays agree at the three layers' edge rows and biases. -/
theorem netWith_congr (e e' : FVec Ideal S1F .f32 → FVec Ideal SF .f32 → FVec Ideal SN .f32)
    (a0 : FVec Ideal SA0 .f32) (a1 : IVec S2E 32) (a3 : FVec Ideal SW0 .f32) (a4 a5 a6 : FVec Ideal SF .f32)
    (a7 : FVec Ideal S3FF .f32) (a8 : FVec Ideal S3F .f32) (a9 : FVec Ideal S31F .f32) (a10 : FVec Ideal S3F .f32)
    (a11 : FVec Ideal S3FF .f32) (a12 a13 a14 a15 a16 a17 a18 : FVec Ideal S3F .f32)
    (a19 : FVec Ideal S3FF .f32) (a20 a21 a22 : FVec Ideal S3F .f32)
    (a23 : FVec Ideal S3FF .f32) (a24 a25 a26 : FVec Ideal S3F .f32)
    (h0 : e (row0 a9) (vec0 a10) = e' (row0 a9) (vec0 a10))
    (h1 : e (row1 a9) (vec1 a10) = e' (row1 a9) (vec1 a10))
    (h2 : e (row2 a9) (vec2 a10) = e' (row2 a9) (vec2 a10)) :
    netWith e a0 a1 a3 a4 a5 a6 a7 a8 a9 a10 a11 a12 a13 a14 a15 a16 a17 a18 a19 a20 a21 a22 a23 a24 a25 a26
      = netWith e' a0 a1 a3 a4 a5 a6 a7 a8 a9 a10 a11 a12 a13 a14 a15 a16 a17 a18 a19 a20 a21 a22 a23 a24 a25 a26 := by
  unfold netWith
  rw [h0, h1, h2]

end Cert.Net

end
-- ==== Proof.KFoldArgs.lean ====
/-
  The launch arguments at their literal array types.
-/
import proofs.«426021_j89885075570707_3_alg».proof.Proof.KFoldSteps
import proofs.«426021_j89885075570707_3_alg».proof.Proof.Net

set_option maxRecDepth 16384
-- one theorem at a time: each side condition is decided by the kernel, and in parallel these pass the machine's memory
set_option Elab.async false

noncomputable section

namespace Cert.KernelIdeal.KFold

open Idealize.ShloMosaic Idealize.ShloMosaic.TcCoe Idealize.SL.Sem Cert.KernelIdeal Cert.KernelIdeal.Gen
open Cert.Chains Cert.Spec Cert.Net

variable (m : (ℓ : Loc nD τ sig) → Buf (Elt Ideal) ℓ)

abbrev A0 (c : Dev nD) : FVec Ideal SA0 .f32 := m ((c.tc : Thread nD τ).loc main_arg0)
abbrev A1 (c : Dev nD) : IVec S2E 32 := m ((c.tc : Thread nD τ).loc main_arg1)
abbrev A2 (c : Dev nD) : FVec Ideal SE1 .f32 := m ((c.tc : Thread nD τ).loc main_arg2)
abbrev A3 (c : Dev nD) : FVec Ideal SW0 .f32 := m ((c.tc : Thread nD τ).loc main_arg3)
abbrev A4 (c : Dev nD) : FVec Ideal SF .f32 := m ((c.tc : Thread nD τ).loc main_arg4)
abbrev A5 (c : Dev nD) : FVec Ideal SF .f32 := m ((c.tc : Thread nD τ).loc main_arg5)
abbrev A6 (c : Dev nD) : FVec Ideal SF .f32 := m ((c.tc : Thread nD τ).loc main_arg6)
abbrev A7 (c : Dev nD) : FVec Ideal S3FF .f32 := m ((c.tc : Thread nD τ).loc main_arg7)
abbrev A8 (c : Dev nD) : FVec Ideal S3F .f32 := m ((c.tc : Thread nD τ).loc main_arg8)
abbrev A9 (c : Dev nD) : FVec Ideal S31F .f32 := m ((c.tc : Thread nD τ).loc main_arg9)
abbrev A10 (c : Dev nD) : FVec Ideal S3F .f32 := m ((c.tc : Thread nD τ).loc main_arg10)
abbrev A11 (c : Dev nD) : FVec Ideal S3FF .f32 := m ((c.tc : Thread nD τ).loc main_arg11)
abbrev A12 (c : Dev nD) : FVec Ideal S3F .f32 := m ((c.tc : Thread nD τ).loc main_arg12)
abbrev A13 (c : Dev nD) : FVec Ideal S3F .f32 := m ((c.tc : Thread nD τ).loc main_arg13)
abbrev A14 (c : Dev nD) : FVec Ideal S3F .f32 := m ((c.tc : Thread nD τ).loc main_arg14)
abbrev A15 (c : Dev nD) : FVec Ideal S3F .f32 := m ((c.tc : Thread nD τ).loc main_arg15)
abbrev A16 (c : Dev nD) : FVec Ideal S3F .f32 := m ((c.tc : Thread nD τ).loc main_arg16)
abbrev A17 (c : Dev nD) : FVec Ideal S3F .f32 := m ((c.tc : Thread nD τ).loc main_arg17)
abbrev A18 (c : Dev nD) : FVec Ideal S3F .f32 := m ((c.tc : Thread nD τ).loc main_arg18)
abbrev A19 (c : Dev nD) : FVec Ideal S3FF .f32 := m ((c.tc : Thread nD τ).loc main_arg19)
abbrev A20 (c : Dev nD) : FVec Ideal S3F .f32 := m ((c.tc : Thread nD τ).loc main_arg20)
abbrev A21 (c : Dev nD) : FVec Ideal S3F .f32 := m ((c.tc : Thread nD τ).loc main_arg21)
abbrev A22 (c : Dev nD) : FVec Ideal S3F .f32 := m ((c.tc : Thread nD τ).loc main_arg22)
abbrev A23 (c : Dev nD) : FVec Ideal S3FF .f32 := m ((c.tc : Thread nD τ).loc main_arg23)
abbrev A24 (c : Dev nD) : FVec Ideal S3F .f32 := m ((c.tc : Thread nD τ).loc main_arg24)
abbrev A25 (c : Dev nD) : FVec Ideal S3F .f32 := m ((c.tc : Thread nD τ).loc main_arg25)
abbrev A26 (c : Dev nD) : FVec Ideal S3F .f32 := m ((c.tc : Thread nD τ).loc main_arg26)

end Cert.KernelIdeal.KFold

end
-- ==== Proof.KFoldKeep.lean ====
/-
  Each argument at the boundaries where a stretch reads it, the two rows of the edge list where the gathers read
  them, and the per-node sums and counts at the edge regions' entries (an edge region leaves its inputs as they
  were): instances of the range statements.
-/
import proofs.«426021_j89885075570707_3_alg».proof.Proof.KFoldInv
import proofs.«426021_j89885075570707_3_alg».proof.Proof.KFoldArgs

set_option maxRecDepth 16384
-- one theorem at a time: each side condition is decided by the kernel, and in parallel these pass the machine's memory
set_option Elab.async false

noncomputable section

namespace Cert.KernelIdeal.KFold

open Idealize.ShloMosaic Idealize.ShloMosaic.TcCoe Idealize.SL.Sem Cert.KernelIdeal Cert.KernelIdeal.Gen
open Cert.Chains Cert.Spec Cert.Net

variable (m : (ℓ : Loc nD τ sig) → Buf (Elt Ideal) ℓ) (ρ : Dev nD → PrngReg)

theorem a9_W4 (c : Dev nD) : W4 m ρ c (Proc.devRef .tc main_arg9) = A9 m c := rkA4 m ρ c main_arg9 (by decide +kernel) (by decide +kernel)
theorem a10_W4 (c : Dev nD) : W4 m ρ c (Proc.devRef .tc main_arg10) = A10 m c := rkA4 m ρ c main_arg10 (by decide +kernel) (by decide +kernel)
theorem a11_W8 (c : Dev nD) : W8 m ρ c (Proc.devRef .tc main_arg11) = A11 m c := rkA8 m ρ c main_arg11 (by decide +kernel) (by decide +kernel)
theorem a12_W8 (c : Dev nD) : W8 m ρ c (Proc.devRef .tc main_arg12) = A12 m c := rkA8 m ρ c main_arg12 (by decide +kernel) (by decide +kernel)
theorem a7_W8 (c : Dev nD) : W8 m ρ c (Proc.devRef .tc main_arg7) = A7 m c := rkA8 m ρ c main_arg7 (by decide +kernel) (by decide +kernel)
theorem a8_W8 (c : Dev nD) : W8 m ρ c (Proc.devRef .tc main_arg8) = A8 m c := rkA8 m ρ c main_arg8 (by decide +kernel) (by decide +kernel)
theorem a13_W14 (c : Dev nD) : W14 m ρ c (Proc.devRef .tc main_arg13) = A13 m c := rkA14 m ρ c main_arg13 (by decide +kernel) (by decide +kernel)
theorem a14_W14 (c : Dev nD) : W14 m ρ c (Proc.devRef .tc main_arg14) = A14 m c := rkA14 m ρ c main_arg14 (by decide +kernel) (by decide +kernel)
theorem a17_W14 (c : Dev nD) : W14 m ρ c (Proc.devRef .tc main_arg17) = A17 m c := rkA14 m ρ c main_arg17 (by decide +kernel) (by decide +kernel)
theorem a18_W14 (c : Dev nD) : W14 m ρ c (Proc.devRef .tc main_arg18) = A18 m c := rkA14 m ρ c main_arg18 (by decide +kernel) (by decide +kernel)
theorem a15_W14 (c : Dev nD) : W14 m ρ c (Proc.devRef .tc main_arg15) = A15 m c := rkA14 m ρ c main_arg15 (by decide +kernel) (by decide +kernel)
theorem a16_W14 (c : Dev nD) : W14 m ρ c (Proc.devRef .tc main_arg16) = A16 m c := rkA14 m ρ c main_arg16 (by decide +kernel) (by decide +kernel)
theorem a19_W14 (c : Dev nD) : W14 m ρ c (Proc.devRef .tc main_arg19) = A19 m c := rkA14 m ρ c main_arg19 (by decide +kernel) (by decide +kernel)
theorem a20_W14 (c : Dev nD) : W14 m ρ c (Proc.devRef .tc main_arg20) = A20 m c := rkA14 m ρ c main_arg20 (by decide +kernel) (by decide +kernel)
theorem a21_W18 (c : Dev nD) : W18 m ρ c (Proc.devRef .tc main_arg21) = A21 m c := rkA18 m ρ c main_arg21 (by decide +kernel) (by decide +kernel)
theorem a22_W18 (c : Dev nD) : W18 m ρ c (Proc.devRef .tc main_arg22) = A22 m c := rkA18 m ρ c main_arg22 (by decide +kernel) (by decide +kernel)
theorem a23_W18 (c : Dev nD) : W18 m ρ c (Proc.devRef .tc main_arg23) = A23 m c := rkA18 m ρ c main_arg23 (by decide +kernel) (by decide +kernel)
theorem a24_W18 (c : Dev nD) : W18 m ρ c (Proc.devRef .tc main_arg24) = A24 m c := rkA18 m ρ c main_arg24 (by decide +kernel) (by decide +kernel)
theorem a25_W22 (c : Dev nD) : W22 m ρ c (Proc.devRef .tc main_arg25) = A25 m c := rkA22 m ρ c main_arg25 (by decide +kernel) (by decide +kernel)
theorem a26_W22 (c : Dev nD) : W22 m ρ c (Proc.devRef .tc main_arg26) = A26 m c := rkA22 m ρ c main_arg26 (by decide +kernel) (by decide +kernel)
theorem a9_W22 (c : Dev nD) : W22 m ρ c (Proc.devRef .tc main_arg9) = A9 m c := rkA22 m ρ c main_arg9 (by decide +kernel) (by decide +kernel)
theorem a10_W22 (c : Dev nD) : W22 m ρ c (Proc.devRef .tc main_arg10) = A10 m c := rkA22 m ρ c main_arg10 (by decide +kernel) (by decide +kernel)
theorem a11_W26 (c : Dev nD) : W26 m ρ c (Proc.devRef .tc main_arg11) = A11 m c := rkA26 m ρ c main_arg11 (by decide +kernel) (by decide +kernel)
theorem a12_W26 (c : Dev nD) : W26 m ρ c (Proc.devRef .tc main_arg12) = A12 m c := rkA26 m ρ c main_arg12 (by decide +kernel) (by decide +kernel)
theorem a7_W26 (c : Dev nD) : W26 m ρ c (Proc.devRef .tc main_arg7) = A7 m c := rkA26 m ρ c main_arg7 (by decide +kernel) (by decide +kernel)
theorem a8_W26 (c : Dev nD) : W26 m ρ c (Proc.devRef .tc main_arg8) = A8 m c := rkA26 m ρ c main_arg8 (by decide +kernel) (by decide +kernel)
theorem a13_W32 (c : Dev nD) : W32 m ρ c (Proc.devRef .tc main_arg13) = A13 m c := rkA32 m ρ c main_arg13 (by decide +kernel) (by decide +kernel)
theorem a14_W32 (c : Dev nD) : W32 m ρ c (Proc.devRef .tc main_arg14) = A14 m c := rkA32 m ρ c main_arg14 (by decide +kernel) (by decide +kernel)
theorem a17_W32 (c : Dev nD) : W32 m ρ c (Proc.devRef .tc main_arg17) = A17 m c := rkA32 m ρ c main_arg17 (by decide +kernel) (by decide +kernel)
theorem a18_W32 (c : Dev nD) : W32 m ρ c (Proc.devRef .tc main_arg18) = A18 m c := rkA32 m ρ c main_arg18 (by decide +kernel) (by decide +kernel)
theorem a15_W32 (c : Dev nD) : W32 m ρ c (Proc.devRef .tc main_arg15) = A15 m c := rkA32 m ρ c main_arg15 (by decide +kernel) (by decide +kernel)
theorem a16_W32 (c : Dev nD) : W32 m ρ c (Proc.devRef .tc main_arg16) = A16 m c := rkA32 m ρ c main_arg16 (by decide +kernel) (by decide +kernel)
theorem a19_W32 (c : Dev nD) : W32 m ρ c (Proc.devRef .tc main_arg19) = A19 m c := rkA32 m ρ c main_arg19 (by decide +kernel) (by decide +kernel)
theorem a20_W32 (c : Dev nD) : W32 m ρ c (Proc.devRef .tc main_arg20) = A20 m c := rkA32 m ρ c main_arg20 (by decide +kernel) (by decide +kernel)
theorem a21_W36 (c : Dev nD) : W36 m ρ c (Proc.devRef .tc main_arg21) = A21 m c := rkA36 m ρ c main_arg21 (by decide +kernel) (by decide +kernel)
theorem a22_W36 (c : Dev nD) : W36 m ρ c (Proc.devRef .tc main_arg22) = A22 m c := rkA36 m ρ c main_arg22 (by decide +kernel) (by decide +kernel)
theorem a23_W36 (c : Dev nD) : W36 m ρ c (Proc.devRef .tc main_arg23) = A23 m c := rkA36 m ρ c main_arg23 (by decide +kernel) (by decide +kernel)
theorem a24_W36 (c : Dev nD) : W36 m ρ c (Proc.devRef .tc main_arg24) = A24 m c := rkA36 m ρ c main_arg24 (by decide +kernel) (by decide +kernel)
theorem a25_W40 (c : Dev nD) : W40 m ρ c (Proc.devRef .tc main_arg25) = A25 m c := rkA40 m ρ c main_arg25 (by decide +kernel) (by decide +kernel)
theorem a26_W40 (c : Dev nD) : W40 m ρ c (Proc.devRef .tc main_arg26) = A26 m c := rkA40 m ρ c main_arg26 (by decide +kernel) (by decide +kernel)
theorem a9_W40 (c : Dev nD) : W40 m ρ c (Proc.devRef .tc main_arg9) = A9 m c := rkA40 m ρ c main_arg9 (by decide +kernel) (by decide +kernel)
theorem a10_W40 (c : Dev nD) : W40 m ρ c (Proc.devRef .tc main_arg10) = A10 m c := rkA40 m ρ c main_arg10 (by decide +kernel) (by decide +kernel)
theorem a11_W44 (c : Dev nD) : W44 m ρ c (Proc.devRef .tc main_arg11) = A11 m c := rkA44 m ρ c main_arg11 (by decide +kernel) (by decide +kernel)
theorem a12_W44 (c : Dev nD) : W44 m ρ c (Proc.devRef .tc main_arg12) = A12 m c := rkA44 m ρ c main_arg12 (by decide +kernel) (by decide +kernel)
theorem a7_W44 (c : Dev nD) : W44 m ρ c (Proc.devRef .tc main_arg7) = A7 m c := rkA44 m ρ c main_arg7 (by decide +kernel) (by decide +kernel)
theorem a8_W44 (c : Dev nD) : W44 m ρ c (Proc.devRef .tc main_arg8) = A8 m c := rkA44 m ρ c main_arg8 (by decide +kernel) (by decide +kernel)
theorem a13_W50 (c : Dev nD) : W50 m ρ c (Proc.devRef .tc main_arg13) = A13 m c := rkA50 m ρ c main_arg13 (by decide +kernel) (by decide +kernel)
theorem a14_W50 (c : Dev nD) : W50 m ρ c (Proc.devRef .tc main_arg14) = A14 m c := rkA50 m ρ c main_arg14 (by decide +kernel) (by decide +kernel)
theorem a17_W50 (c : Dev nD) : W50 m ρ c (Proc.devRef .tc main_arg17) = A17 m c := rkA50 m ρ c main_arg17 (by decide +kernel) (by decide +kernel)
theorem a18_W50 (c : Dev nD) : W50 m ρ c (Proc.devRef .tc main_arg18) = A18 m c := rkA50 m ρ c main_arg18 (by decide +kernel) (by decide +kernel)
theorem a15_W50 (c : Dev nD) : W50 m ρ c (Proc.devRef .tc main_arg15) = A15 m c := rkA50 m ρ c main_arg15 (by decide +kernel) (by decide +kernel)
theorem a16_W50 (c : Dev nD) : W50 m ρ c (Proc.devRef .tc main_arg16) = A16 m c := rkA50 m ρ c main_arg16 (by decide +kernel) (by decide +kernel)
theorem a19_W50 (c : Dev nD) : W50 m ρ c (Proc.devRef .tc main_arg19) = A19 m c := rkA50 m ρ c main_arg19 (by decide +kernel) (by decide +kernel)
theorem a20_W50 (c : Dev nD) : W50 m ρ c (Proc.devRef .tc main_arg20) = A20 m c := rkA50 m ρ c main_arg20 (by decide +kernel) (by decide +kernel)
theorem a21_W54 (c : Dev nD) : W54 m ρ c (Proc.devRef .tc main_arg21) = A21 m c := rkA54 m ρ c main_arg21 (by decide +kernel) (by decide +kernel)
theorem a22_W54 (c : Dev nD) : W54 m ρ c (Proc.devRef .tc main_arg22) = A22 m c := rkA54 m ρ c main_arg22 (by decide +kernel) (by decide +kernel)
theorem a23_W54 (c : Dev nD) : W54 m ρ c (Proc.devRef .tc main_arg23) = A23 m c := rkA54 m ρ c main_arg23 (by decide +kernel) (by decide +kernel)
theorem a24_W54 (c : Dev nD) : W54 m ρ c (Proc.devRef .tc main_arg24) = A24 m c := rkA54 m ρ c main_arg24 (by decide +kernel) (by decide +kernel)
theorem a25_W58 (c : Dev nD) : W58 m ρ c (Proc.devRef .tc main_arg25) = A25 m c := rkA58 m ρ c main_arg25 (by decide +kernel) (by decide +kernel)
theorem a26_W58 (c : Dev nD) : W58 m ρ c (Proc.devRef .tc main_arg26) = A26 m c := rkA58 m ρ c main_arg26 (by decide +kernel) (by decide +kernel)
theorem a5_W5 (c : Dev nD) : W5 m ρ c (Proc.devRef .tc main_arg5) = A5 m c := rkG5 m ρ c main_arg5 (by decide +kernel) (by decide +kernel)
theorem a6_W5 (c : Dev nD) : W5 m ρ c (Proc.devRef .tc main_arg6) = A6 m c := rkG5 m ρ c main_arg6 (by decide +kernel) (by decide +kernel)
theorem a0_W1 (c : Dev nD) : W1 m ρ c (Proc.devRef .tc main_arg0) = A0 m c := hs0 m ρ c main_arg0 (by decide +kernel)
theorem a3_W1 (c : Dev nD) : W1 m ρ c (Proc.devRef .tc main_arg3) = A3 m c := hs0 m ρ c main_arg3 (by decide +kernel)
theorem a4_W1 (c : Dev nD) : W1 m ρ c (Proc.devRef .tc main_arg4) = A4 m c := hs0 m ρ c main_arg4 (by decide +kernel)
theorem k_v1_W12 (c : Dev nD) : W12 m ρ c (Proc.devRef .tc main_v1) = W1 m ρ c (Proc.devRef .tc main_v1) := rkI12 m ρ c main_v1 (by decide +kernel) (by decide +kernel)
theorem k_v1_W30 (c : Dev nD) : W30 m ρ c (Proc.devRef .tc main_v1) = W1 m ρ c (Proc.devRef .tc main_v1) := rkI30 m ρ c main_v1 (by decide +kernel) (by decide +kernel)
theorem k_v1_W48 (c : Dev nD) : W48 m ρ c (Proc.devRef .tc main_v1) = W1 m ρ c (Proc.devRef .tc main_v1) := rkI48 m ρ c main_v1 (by decide +kernel) (by decide +kernel)
theorem k_v3_W12 (c : Dev nD) : W12 m ρ c (Proc.devRef .tc main_v3) = W1 m ρ c (Proc.devRef .tc main_v3) := rkI12 m ρ c main_v3 (by decide +kernel) (by decide +kernel)
theorem k_v3_W30 (c : Dev nD) : W30 m ρ c (Proc.devRef .tc main_v3) = W1 m ρ c (Proc.devRef .tc main_v3) := rkI30 m ρ c main_v3 (by decide +kernel) (by decide +kernel)
theorem k_v3_W48 (c : Dev nD) : W48 m ρ c (Proc.devRef .tc main_v3) = W1 m ρ c (Proc.devRef .tc main_v3) := rkI48 m ρ c main_v3 (by decide +kernel) (by decide +kernel)
theorem v12_in1 (c : Dev nD) : W6 m ρ c (Proc.devRef .tc main_v12) = W5 m ρ c (Proc.devRef .tc main_v12) :=
  (W6_arr m ρ c 0).trans (((dat1 (V5 m ρ) c).arrAt_in 0 rfl _).trans (A_eq1 (V5 m ρ) c 0))
theorem v13_in1 (c : Dev nD) : W6 m ρ c (Proc.devRef .tc main_v13) = W5 m ρ c (Proc.devRef .tc main_v13) :=
  (W6_arr m ρ c 1).trans (((dat1 (V5 m ρ) c).arrAt_in 1 rfl _).trans (A_eq1 (V5 m ρ) c 1))
theorem v12_in5 (c : Dev nD) : W24 m ρ c (Proc.devRef .tc main_v12) = W23 m ρ c (Proc.devRef .tc main_v12) :=
  (W24_arr m ρ c 0).trans (((dat5 (V23 m ρ) c).arrAt_in 0 rfl _).trans (A_eq5 (V23 m ρ) c 0))
theorem v13_in5 (c : Dev nD) : W24 m ρ c (Proc.devRef .tc main_v13) = W23 m ρ c (Proc.devRef .tc main_v13) :=
  (W24_arr m ρ c 1).trans (((dat5 (V23 m ρ) c).arrAt_in 1 rfl _).trans (A_eq5 (V23 m ρ) c 1))
theorem v12_W5 (c : Dev nD) : W5 m ρ c (Proc.devRef .tc main_v12) = W1 m ρ c (Proc.devRef .tc main_v12) := rkSa5 m ρ c main_v12 (by decide +kernel) (by decide +kernel)
theorem v12_W23 (c : Dev nD) : W23 m ρ c (Proc.devRef .tc main_v12) = W1 m ρ c (Proc.devRef .tc main_v12) :=
  (rkSb23 m ρ c main_v12 (by decide +kernel) (by decide +kernel)).trans ((v12_in1 m ρ c).trans (v12_W5 m ρ c))
theorem v12_W41 (c : Dev nD) : W41 m ρ c (Proc.devRef .tc main_v12) = W1 m ρ c (Proc.devRef .tc main_v12) :=
  (rkSc41 m ρ c main_v12 (by decide +kernel) (by decide +kernel)).trans ((v12_in5 m ρ c).trans (v12_W23 m ρ c))
theorem v13_W5 (c : Dev nD) : W5 m ρ c (Proc.devRef .tc main_v13) = W1 m ρ c (Proc.devRef .tc main_v13) := rkSa5 m ρ c main_v13 (by decide +kernel) (by decide +kernel)
theorem v13_W23 (c : Dev nD) : W23 m ρ c (Proc.devRef .tc main_v13) = W1 m ρ c (Proc.devRef .tc main_v13) :=
  (rkSb23 m ρ c main_v13 (by decide +kernel) (by decide +kernel)).trans ((v13_in1 m ρ c).trans (v13_W5 m ρ c))
theorem v13_W41 (c : Dev nD) : W41 m ρ c (Proc.devRef .tc main_v13) = W1 m ρ c (Proc.devRef .tc main_v13) :=
  (rkSc41 m ρ c main_v13 (by decide +kernel) (by decide +kernel)).trans ((v13_in5 m ρ c).trans (v13_W23 m ρ c))

end Cert.KernelIdeal.KFold

end
-- ==== Proof.KVal1.lean ====
/-
  A rank-one combination of two node columns, read off the node-tiled kernel (region 1).

  The region walks the nodes in eight blocks of 5000 rows. At block `t` the body takes rows
  `5000 t … 5000 t + 4999` of two one-column node arrays `s` and `n`, the whole row `w` and the whole vector `b`,
  and writes `s p * w q + n p * b q` back as rows `5000 t … 5000 t + 4999` of the output array. The array the
  region leaves is `Spec.outer s n w b` of the arrays it finds.
-/
import proofs.«426021_j89885075570707_3_alg».proof.Proof.Gen.KernelIdeal.Frame
import proofs.«426021_j89885075570707_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- The zero offsets of a rank-2 access, however spelt. -/
private theorem zerosTwo : (![0, 0] : Fin 2 → Nat) = fun _ => 0 := funext fun a => by fin_cases a <;> rfl

/-- The zero offset of a rank-1 access. -/
private theorem zerosOne : (![0] : Fin 1 → Nat) = fun _ => 0 := funext fun a => by fin_cases a; rfl

/-- An `[a, 1]` column broadcast to `[a, b]` reads, at `(p, c)`, the column's entry at row `p`. -/
private theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry `(p, q)` of what the body stores: `s p * w q + n p * b q` of its four blocks. -/
theorem pay1_apply (x0 x1 : Vec Ideal S5000x1 .f32) (x2 : Vec Ideal S1x128 .f32) (x3 : Vec Ideal S128 .f32) (p : Fin 5000) (q : Fin 128) :
    k1_pay1 (F := Ideal) x0 x1 x2 x3 (ix2 p q) = Cert.Spec.outerE x0 x1 x2 x3 p q := by
  unfold k1_pay1
  rw [addf_apply, mulf_apply, mulf_apply]
  simp only [shapeCast_self]
  unfold Cert.Spec.outerE
  refine congrArg₂ (· + ·) (congrArg₂ (· * ·) ?_ ?_) (congrArg₂ (· * ·) ?_ ?_)
  · exact broadcastTo_col_apply x0 _ p q
  · exact broadcastTo_1b_ab_apply x2 _ p q
  · exact broadcastTo_col_apply x1 _ p q
  · exact (broadcastTo_1b_ab_apply _ _ p q).trans (shapeCast_a_1a_apply x3 _ 0 q)

/-- The block indices over the grid: the two column blocks and the output block are block `t` of their arrays' rows;
    the row and the vector are their arrays whole at every point. -/
theorem blocks1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- The first column's block at point `t` is rows `5000 t … 5000 t + 4999` of the first column array. -/
theorem colS1_apply (c : Dev nD) (t : Fin cfg1.N) (p : Fin 5000) (u : Fin 1) (r : Fin 40000) (hr : r.val = t.val * 5000 + p.val) :
    (iblk1 V c 0 t : Vec Ideal S5000x1 .f32) (ix2 p u) = (V c main_v12 : Vec Ideal S40000x1 .f32) (ix2 r u) := by
  obtain ⟨e0, e1, -⟩ := blocks1 t
  unfold iblk1
  rw [View.read_apply]
  show V c main_v12 _ = V c main_v12 _
  congr 1
  funext a
  apply Fin.ext
  match a with
  | ⟨0, _⟩ => show win1_0.index t (0 : Fin 2) * 5000 + 1 * p.val = r.val; omega
  | ⟨1, _⟩ => show win1_0.index t (1 : Fin 2) * 1 + 1 * u.val = u.val; omega

/-- The second column's block at point `t` is rows `5000 t … 5000 t + 4999` of the second column array. -/
theorem colN1_apply (c : Dev nD) (t : Fin cfg1.N) (p : Fin 5000) (u : Fin 1) (r : Fin 40000) (hr : r.val = t.val * 5000 + p.val) :
    (iblk1 V c 1 t : Vec Ideal S5000x1 .f32) (ix2 p u) = (V c main_v13 : Vec Ideal S40000x1 .f32) (ix2 r u) := by
  obtain ⟨-, -, e0, e1, -⟩ := blocks1 t
  unfold iblk1
  rw [View.read_apply]
  show V c main_v13 _ = V c main_v13 _
  congr 1
  funext a
  apply Fin.ext
  match a with
  | ⟨0, _⟩ => show win1_1.index t (0 : Fin 2) * 5000 + 1 * p.val = r.val; omega
  | ⟨1, _⟩ => show win1_1.index t (1 : Fin 2) * 1 + 1 * u.val = u.val; omega

/-- The row's block at every point is the row. -/
theorem row1_apply (c : Dev nD) (t : Fin cfg1.N) (u : Fin 1) (q : Fin 128) :
    (iblk1 V c 2 t : Vec Ideal S1x128 .f32) (ix2 u q) = (V c main_v20 : Vec Ideal S1x128 .f32) (ix2 u q) := by
  obtain ⟨-, -, -, -, e0, e1, -⟩ := blocks1 t
  unfold iblk1
  rw [View.read_apply]
  show V c main_v20 _ = V c main_v20 _
  congr 1
  funext a
  apply Fin.ext
  match a with
  | ⟨0, _⟩ => show win1_2.index t (0 : Fin 2) * 1 + 1 * u.val = u.val; omega
  | ⟨1, _⟩ => show win1_2.index t (1 : Fin 2) * 128 + 1 * q.val = q.val; omega

/-- The vector's block at every point is the vector. -/
theorem vec1_apply (c : Dev nD) (t : Fin cfg1.N) (q : Fin 128) :
    (iblk1 V c 3 t : Vec Ideal S128 .f32) (ix1 q) = (V c main_v22 : Vec Ideal S128 .f32) (ix1 q) := by
  obtain ⟨-, -, -, -, -, -, e0, -⟩ := blocks1 t
  unfold iblk1
  rw [View.read_apply]
  show V c main_v22 _ = V c main_v22 _
  congr 1
  funext a
  apply Fin.ext
  match a with
  | ⟨0, _⟩ => show win1_3.index t (0 : Fin 1) * 128 + 1 * q.val = q.val; omega

/-- Entry `(p, q)` of the output block at point `t` sits at row `5000 t + p`, column `q` of the output array. -/
theorem outIdx1 (t : Fin cfg1.N) (p : Fin 5000) (q : Fin 128) (r : Fin 40000) (hr : r.val = t.val * 5000 + p.val) :
    ((cfg1.win 4).blk t).view.emb (ix2 p q : S5000x128.Idx) = (ix2 r q : S40000x128.Idx) := by
  obtain ⟨-, -, -, -, -, -, -, e0, e1⟩ := blocks1 t
  funext a
  apply Fin.ext
  match a with
  | ⟨0, _⟩ => show win1_4.index t (0 : Fin 2) * 5000 + 1 * p.val = r.val; omega
  | ⟨1, _⟩ => show win1_4.index t (1 : Fin 2) * 128 + 1 * q.val = q.val; omega

/-- What point `t` writes back is block `t` of the rank-one combination of the arrays the region finds. -/
theorem flushed1 (c : Dev nD) (t : Fin cfg1.N) :
    (dat1 (F := Ideal) V c).flushed 4 t
      = ((cfg1.win 4).blk t).view.read (Elt Ideal)
          (Cert.Spec.outer (V c main_v12) (V c main_v13) (V c main_v20) (V c main_v22)) := by
  show (cfg1.win 4).cut (grid1.coords t) ((dat1 V c).after 4 t) = _
  rw [after1_4]
  unfold out1_4
  rw [View.canon_unit_zero zerosTwo]
  simp only [View.ld_unit_zero (S := S5000x1) zerosTwo, View.ld_unit_zero (S := S1x128) zerosTwo,
    View.ld_unit_zero (S := S128) zerosOne]
  refine funext fun (j : S5000x128.Idx) => ?_
  obtain ⟨p, q, rfl⟩ : ∃ (p : Fin 5000) (q : Fin 128), j = ix2 p q := ⟨j 0, j 1, eq_ix2 j⟩
  have ht : t.val < 8 := t.isLt
  have hr : t.val * 5000 + p.val < 40000 := by have := p.isLt; omega
  refine (pay1_apply (iblk1 V c 0 t) (iblk1 V c 1 t) (iblk1 V c 2 t) (iblk1 V c 3 t) p q).trans ?_
  show _ = Cert.Spec.outer (V c main_v12) (V c main_v13) (V c main_v20) (V c main_v22)
    (((cfg1.win 4).blk t).view.emb (ix2 p q : S5000x128.Idx))
  rw [outIdx1 t p q ⟨t.val * 5000 + p.val, hr⟩ rfl, Cert.Spec.outer_apply]
  unfold Cert.Spec.outerE
  exact congrArg₂ (· + ·)
    (congrArg₂ (· * ·) (colS1_apply V c t p 0 ⟨t.val * 5000 + p.val, hr⟩ rfl) (row1_apply V c t 0 q))
    (congrArg₂ (· * ·) (colN1_apply V c t p 0 ⟨t.val * 5000 + p.val, hr⟩ rfl) (vec1_apply V c t q))

/-- An entry of the output array is in point `t`'s block iff its row is one of `5000 t … 5000 t + 4999`. -/
theorem mem_blk1 (t : Fin cfg1.N) (i : S40000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v23).slice (win1_4.rect t)).set ↔ _
  rw [View.set_slice_whole, Rect.mem_set_unit]
  exact Iff.rfl

/-- Every entry of the output array is in the block of the point its row's quotient by 5000 names. -/
theorem cover1 (i : S40000x128.Idx) : ∃ t : Fin cfg1.N, (cfg1.win 4).flush t = true ∧ i ∈ ((cfg1.win 4).blk t).view.set := by
  have hi0 : (i 0).val < 40000 := (i 0).isLt
  have hi1 : (i 1).val < 128 := (i 1).isLt
  have hN : cfg1.N = 8 := N_1
  obtain ⟨t, ht⟩ : ∃ t : Fin cfg1.N, t.val = (i 0).val / 5000 := ⟨⟨(i 0).val / 5000, by rw [hN]; omega⟩, rfl⟩
  obtain ⟨-, -, -, -, -, -, -, e0, e1⟩ := blocks1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE ARRAY region 1 leaves: the rank-one combination `s ⊗ w + n ⊗ b` of the two columns, the row and the vector it finds. -/
theorem val1 (c : Dev nD) :
    (dat1 (F := Ideal) V c).arrAt 4 cfg1.N
      = Cert.Spec.outer (V c main_v12) (V c main_v13) (V c main_v20) (V c main_v22) :=
  (dat1 (F := Ideal) V c).arrAt_eq_of_cover 4 _ (fun t _ => flushed1 V c t) cover1

end Cert.KernelIdeal.KVal

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.KVal2.lean ====
import proofs.«426021_j89885075570707_3_alg».proof.Proof.Gen.KernelIdeal.Frame
import proofs.«426021_j89885075570707_3_alg».proof.Proof.Spec
import proofs.«426021_j89885075570707_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

/-!
  Region 2: a batch normalisation with given column statistics, a rectification, and two matrix products
  with bias rows, over 40000 nodes in eight blocks of 5000 rows.

  Each of the two result arrays is, entry by entry, `x ↦ relu (bn x) · W + b` of the node array, the four
  statistics rows, and its own weight matrix and bias row.  First the block's arithmetic is read at an entry
  `(p, q)`; then block `t` of the result is rows `5000·t … 5000·t + 4999` of that function of the whole
  arrays; the eight blocks cover the 40000 rows.
-/

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen
open Idealize.ShloMosaic.Pipeline (Dat Cfg Window)

/-! ## The block's arithmetic at an entry -/

/-- A row `b` laid over every row of a block: entry `(p, q)` is `b q`. -/
theorem rowcast2_apply (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

/-- The block's products contract the left operand's columns with the right operand's rows. -/
theorem dot2_eq : dot_S5000x128_S128x128_S5000x128_1_0_0_1_n_n = DotDims.plain 5000 128 128 := rfl

/-- The normalised and rectified block at an entry. -/
theorem pay2_2_apply (x0 : Vec Ideal S5000x128 .f32) (x1 x2 x3 x4 : Vec Ideal S128 .f32) (p : Fin 5000) (q : Fin 128) :
    k2_pay2 (F := Ideal) x0 x1 x2 x3 x4 (ix2 p q) = Cert.Spec.relu (Cert.Spec.bn x0 x1 x2 x3 x4) (ix2 p q) := by
  unfold k2_pay2
  simp only [shapeCast_self]
  rw [truncf_apply, maximumf_apply, addf_apply, mulf_apply, mulf_apply, subf_apply, rowcast2_apply, rowcast2_apply,
    rowcast2_apply, rowcast2_apply]
  rfl

/-- The first product plus its bias row at an entry. -/
theorem pay2_3_apply (x0 : Vec Ideal S5000x128 .f32) (x1 x2 x3 x4 : Vec Ideal S128 .f32) (W : Vec Ideal S128x128 .f32)
    (b : Vec Ideal S128 .f32) (p : Fin 5000) (q : Fin 128) :
    k2_pay3 (F := Ideal) x0 x1 x2 x3 x4 W b (ix2 p q)
      = Cert.Spec.lin (Cert.Spec.relu (Cert.Spec.bn x0 x1 x2 x3 x4)) W b (ix2 p q) := by
  unfold k2_pay3
  simp only [shapeCast_self]
  rw [addf_apply, rowcast2_apply, dot2_eq]
  refine congrArg (· + b (ix1 q)) ?_
  refine (Cert.Lib.PlainDot.matmul_zero_apply none _ _ p q).trans ?_
  refine Finset.sum_congr rfl fun k _ => ?_
  rw [pay2_2_apply, truncf_apply]

/-- The second product at an entry. -/
theorem pay2_4_apply (x0 : Vec Ideal S5000x128 .f32) (x1 x2 x3 x4 : Vec Ideal S128 .f32) (W : Vec Ideal S128x128 .f32)
    (p : Fin 5000) (q : Fin 128) :
    k2_pay4 (F := Ideal) x0 x1 x2 x3 x4 W (ix2 p q)
      = ∑ k : Fin 128, Cert.Spec.relu (Cert.Spec.bn x0 x1 x2 x3 x4) (ix2 p k) * W (ix2 k q) := by
  unfold k2_pay4
  simp only [shapeCast_self]
  rw [dot2_eq]
  refine (Cert.Lib.PlainDot.matmul_zero_apply none _ _ p q).trans ?_
  refine Finset.sum_congr rfl fun k _ => ?_
  rw [pay2_2_apply, truncf_apply]

/-- The second product plus its bias row at an entry. -/
theorem pay2_1_apply (x0 : Vec Ideal S5000x128 .f32) (x1 x2 x3 x4 : Vec Ideal S128 .f32) (W : Vec Ideal S128x128 .f32)
    (b : Vec Ideal S128 .f32) (p : Fin 5000) (q : Fin 128) :
    k2_pay1 (F := Ideal) (k2_pay4 x0 x1 x2 x3 x4 W) b (ix2 p q)
      = Cert.Spec.lin (Cert.Spec.relu (Cert.Spec.bn x0 x1 x2 x3 x4)) W b (ix2 p q) := by
  unfold k2_pay1
  simp only [shapeCast_self]
  rw [addf_apply, rowcast2_apply, pay2_4_apply]
  rfl

/-! ## A row of the layer depends on the same row of the node array only -/

/-- If row `p` of `X` is row `P` of `A`, then row `p` of the layer of `X` is row `P` of the layer of `A`. -/
theorem lin2_rows (X : FVec Ideal ⟨2, ![5000, 128]⟩ .f32) (A : FVec Ideal ⟨2, ![40000, 128]⟩ .f32)
    (μ v g β : FVec Ideal ⟨1, ![128]⟩ .f32) (W : FVec Ideal ⟨2, ![128, 128]⟩ .f32) (b : FVec Ideal ⟨1, ![128]⟩ .f32)
    (p : Fin 5000) (P : Fin 40000) (q : Fin 128) (h : ∀ k : Fin 128, X (ix2 p k) = A (ix2 P k)) :
    Cert.Spec.lin (Cert.Spec.relu (Cert.Spec.bn X μ v g β)) W b (ix2 p q)
      = Cert.Spec.lin (Cert.Spec.relu (Cert.Spec.bn A μ v g β)) W b (ix2 P q) := by
  rw [Cert.Spec.lin_apply, Cert.Spec.lin_apply]
  unfold Cert.Spec.linE
  refine congrArg (· + b (ix1 q)) (Finset.sum_congr rfl fun k _ => ?_)
  rw [Cert.Spec.relu_apply, Cert.Spec.relu_apply, Cert.Spec.bn_apply, Cert.Spec.bn_apply]
  unfold Cert.Spec.bnE
  rw [h k]

/-! ## The blocks the grid's points read and write -/

theorem zeros1_2 : (![0] : Fin 1 → Nat) = fun _ => 0 := funext fun a => by fin_cases a; rfl

theorem zeros2_2 : (![0, 0] : Fin 2 → Nat) = fun _ => 0 := funext fun a => by fin_cases a <;> rfl

/-- The block indices over the grid: the node array's block and both results' blocks move together along the
    rows and sit at column block 0; every row of statistics, every weight matrix and every bias row is its one
    block at every point. -/
theorem idx2 : ∀ t : Fin cfg2.N,
    win2_0.index t (0 : Fin 2) = win2_9.index t (0 : Fin 2) ∧ win2_0.index t (1 : Fin 2) = 0
    ∧ win2_10.index t (0 : Fin 2) = win2_9.index t (0 : Fin 2) ∧ win2_10.index t (1 : Fin 2) = 0
    ∧ win2_9.index t (1 : Fin 2) = 0 ∧ win2_9.index t (0 : Fin 2) ≤ 7
    ∧ win2_1.index t (0 : Fin 1) = 0 ∧ win2_2.index t (0 : Fin 1) = 0 ∧ win2_3.index t (0 : Fin 1) = 0
    ∧ win2_4.index t (0 : Fin 1) = 0 ∧ win2_5.index t (0 : Fin 2) = 0 ∧ win2_5.index t (1 : Fin 2) = 0
    ∧ win2_6.index t (0 : Fin 1) = 0 ∧ win2_7.index t (0 : Fin 2) = 0 ∧ win2_7.index t (1 : Fin 2) = 0
    ∧ win2_8.index t (0 : Fin 1) = 0 :=
  (by decide +kernel : ∀ t : Fin grid2.N, _)

/-- Every one of the eight row blocks is some point's, for either result. -/
theorem onto2_9 : ∀ r : Fin 8, ∃ t : Fin cfg2.N, win2_9.index t = ![r.val, 0] :=
  (by decide +kernel : ∀ r : Fin 8, ∃ t : Fin grid2.N, win2_9.index t = ![r.val, 0])

theorem onto2_10 : ∀ r : Fin 8, ∃ t : Fin cfg2.N, win2_10.index t = ![r.val, 0] :=
  (by decide +kernel : ∀ r : Fin 8, ∃ t : Fin grid2.N, win2_10.index t = ![r.val, 0])

/-- A block `X` whose row `p` is row `5000·t + p` of `G`, written back at point `t`, is block `t` of `G`
    (first result). -/
theorem rows2_9 (t : Fin cfg2.N) (X : Vec Ideal S5000x128 .f32) (G : Vec Ideal S40000x128 .f32)
    (h : ∀ (p : Fin 5000) (q : Fin 128) (P : Fin 40000), P.val = win2_9.index t (0 : Fin 2) * 5000 + p.val →
      X (ix2 p q) = G (ix2 P q)) :
    (cfg2.win 9).cut (grid2.coords t) X = ((cfg2.win 9).blk t).view.read (Elt Ideal) G := by
  obtain ⟨-, -, -, -, e9, l9, -⟩ := idx2 t
  funext j
  have hp : (j 0).val < 5000 := (j 0).isLt
  have hq : (j 1).val < 128 := (j 1).isLt
  have hP : win2_9.index t (0 : Fin 2) * 5000 + (j 0).val < 40000 := by omega
  show X ((cfg2.win 9).xinj (grid2.coords t) j) = G (((cfg2.win 9).blk t).view.emb j)
  have hj : (cfg2.win 9).xinj (grid2.coords t) j = ix2 (⟨(j 0).val, hp⟩ : Fin 5000) (⟨(j 1).val, hq⟩ : Fin 128) :=
    funext fun a => by match a with | ⟨0, _⟩ => rfl | ⟨1, _⟩ => rfl
  have he : ((cfg2.win 9).blk t).view.emb j
      = ix2 (⟨win2_9.index t (0 : Fin 2) * 5000 + (j 0).val, hP⟩ : Fin 40000) (⟨(j 1).val, hq⟩ : Fin 128) :=
    funext fun a => Fin.ext (by
      match a with
      | ⟨0, _⟩ => show win2_9.index t (0 : Fin 2) * 5000 + 1 * (j 0).val = win2_9.index t (0 : Fin 2) * 5000 + (j 0).val; omega
      | ⟨1, _⟩ => show win2_9.index t (1 : Fin 2) * 128 + 1 * (j 1).val = (j 1).val; omega)
  exact (congrArg X hj).trans ((h ⟨(j 0).val, hp⟩ ⟨(j 1).val, hq⟩ ⟨_, hP⟩ rfl).trans (congrArg G he).symm)

/-- The same for the second result. -/
theorem rows2_10 (t : Fin cfg2.N) (X : Vec Ideal S5000x128 .f32) (G : Vec Ideal S40000x128 .f32)
    (h : ∀ (p : Fin 5000) (q : Fin 128) (P : Fin 40000), P.val = win2_9.index t (0 : Fin 2) * 5000 + p.val →
      X (ix2 p q) = G (ix2 P q)) :
    (cfg2.win 10).cut (grid2.coords t) X = ((cfg2.win 10).blk t).view.read (Elt Ideal) G := by
  obtain ⟨-, -, e10, c10, -, l9, -⟩ := idx2 t
  funext j
  have hp : (j 0).val < 5000 := (j 0).isLt
  have hq : (j 1).val < 128 := (j 1).isLt
  have hP : win2_9.index t (0 : Fin 2) * 5000 + (j 0).val < 40000 := by omega
  show X ((cfg2.win 10).xinj (grid2.coords t) j) = G (((cfg2.win 10).blk t).view.emb j)
  have hj : (cfg2.win 10).xinj (grid2.coords t) j = ix2 (⟨(j 0).val, hp⟩ : Fin 5000) (⟨(j 1).val, hq⟩ : Fin 128) :=
    funext fun a => by match a with | ⟨0, _⟩ => rfl | ⟨1, _⟩ => rfl
  have he : ((cfg2.win 10).blk t).view.emb j
      = ix2 (⟨win2_9.index t (0 : Fin 2) * 5000 + (j 0).val, hP⟩ : Fin 40000) (⟨(j 1).val, hq⟩ : Fin 128) :=
    funext fun a => Fin.ext (by
      match a with
      | ⟨0, _⟩ => show win2_10.index t (0 : Fin 2) * 5000 + 1 * (j 0).val = win2_9.index t (0 : Fin 2) * 5000 + (j 0).val; omega
      | ⟨1, _⟩ => show win2_10.index t (1 : Fin 2) * 128 + 1 * (j 1).val = (j 1).val; omega)
  exact (congrArg X hj).trans ((h ⟨(j 0).val, hp⟩ ⟨(j 1).val, hq⟩ ⟨_, hP⟩ rfl).trans (congrArg G he).symm)

/-- An index of a result array is in point `t`'s block iff each coordinate is in the block's range. -/
theorem mem_rows2_9 (t : Fin cfg2.N) (i : S40000x128.Idx) :
    i ∈ ((cfg2.win 9).blk t).view.set ↔ ∀ a : Fin 2, win2_9.index t a * S5000x128.size a ≤ (i a).val
      ∧ (i a).val < win2_9.index t a * S5000x128.size a + S5000x128.size a := by
  show i ∈ ((View.whole main_v36_0).slice (win2_9.rect t)).set ↔ _
  rw [View.set_slice_whole, Rect.mem_set_unit]
  exact Iff.rfl

theorem mem_rows2_10 (t : Fin cfg2.N) (i : S40000x128.Idx) :
    i ∈ ((cfg2.win 10).blk t).view.set ↔ ∀ a : Fin 2, win2_10.index t a * S5000x128.size a ≤ (i a).val
      ∧ (i a).val < win2_10.index t a * S5000x128.size a + S5000x128.size a := by
  show i ∈ ((View.whole main_v36_1).slice (win2_10.rect t)).set ↔ _
  rw [View.set_slice_whole, Rect.mem_set_unit]
  exact Iff.rfl

/-- Row `r` of a result array is written back by the point whose block index is `r / 5000`. -/
theorem rows_cover2_9 (i : S40000x128.Idx) :
    ∃ t : Fin cfg2.N, (cfg2.win 9).flush t = true ∧ i ∈ ((cfg2.win 9).blk t).view.set := by
  have hi0 : (i 0).val < 40000 := (i 0).isLt
  have hi1 : (i 1).val < 128 := (i 1).isLt
  obtain ⟨t, ht⟩ := onto2_9 ⟨(i 0).val / 5000, by omega⟩
  have q0 : win2_9.index t (0 : Fin 2) = (i 0).val / 5000 := congrFun ht 0
  have q1 : win2_9.index t (1 : Fin 2) = 0 := congrFun ht 1
  refine ⟨t, flush2_9 t, ?_⟩
  rw [mem_rows2_9]
  intro a
  match a with
  | ⟨0, _⟩ => show win2_9.index t (0 : Fin 2) * 5000 ≤ (i 0).val ∧ (i 0).val < win2_9.index t (0 : Fin 2) * 5000 + 5000; omega
  | ⟨1, _⟩ => show win2_9.index t (1 : Fin 2) * 128 ≤ (i 1).val ∧ (i 1).val < win2_9.index t (1 : Fin 2) * 128 + 128; omega

theorem rows_cover2_10 (i : S40000x128.Idx) :
    ∃ t : Fin cfg2.N, (cfg2.win 10).flush t = true ∧ i ∈ ((cfg2.win 10).blk t).view.set := by
  have hi0 : (i 0).val < 40000 := (i 0).isLt
  have hi1 : (i 1).val < 128 := (i 1).isLt
  obtain ⟨t, ht⟩ := onto2_10 ⟨(i 0).val / 5000, by omega⟩
  have q0 : win2_10.index t (0 : Fin 2) = (i 0).val / 5000 := congrFun ht 0
  have q1 : win2_10.index t (1 : Fin 2) = 0 := congrFun ht 1
  refine ⟨t, flush2_10 t, ?_⟩
  rw [mem_rows2_10]
  intro a
  match a with
  | ⟨0, _⟩ => show win2_10.index t (0 : Fin 2) * 5000 ≤ (i 0).val ∧ (i 0).val < win2_10.index t (0 : Fin 2) * 5000 + 5000; omega
  | ⟨1, _⟩ => show win2_10.index t (1 : Fin 2) * 128 ≤ (i 1).val ∧ (i 1).val < win2_10.index t (1 : Fin 2) * 128 + 128; omega

/-! ## The arrays the region finds, block by block -/

variable (V : (c : Dev nD) → (b : Ref sig .tc) → Buf (Elt Ideal) ((c : Thread nD τ).loc b))

/-- Row `p` of the node array's block at point `t` is row `5000·t + p` of the node array. -/
theorem node2_row (c : Dev nD) (t : Fin cfg2.N) (p : Fin 5000) (k : Fin 128) (P : Fin 40000)
    (hP : P.val = win2_9.index t (0 : Fin 2) * 5000 + p.val) :
    (iblk2 (F := Ideal) V c 0 t : Vec Ideal S5000x128 .f32) (ix2 p k) = V c main_v14 (ix2 P k) := by
  obtain ⟨e0, c0, -⟩ := idx2 t
  show V c main_v14 (((cfg2.win 0).blk t).view.emb (ix2 p k)) = V c main_v14 (ix2 P k)
  refine congrArg _ (funext fun a => Fin.ext ?_)
  match a with
  | ⟨0, _⟩ => show win2_0.index t (0 : Fin 2) * 5000 + 1 * p.val = P.val; omega
  | ⟨1, _⟩ => show win2_0.index t (1 : Fin 2) * 128 + 1 * k.val = k.val; omega

/-- Window 1's block at every point is the whole row `main_v17`. -/
theorem vec2_1 (c : Dev nD) (t : Fin cfg2.N) : (iblk2 (F := Ideal) V c 1 t : Vec Ideal S128 .f32) = V c main_v17 := by
  obtain ⟨-, -, -, -, -, -, e1, -⟩ := idx2 t
  funext j
  show V c main_v17 (((cfg2.win 1).blk t).view.emb j) = V c main_v17 j
  refine congrArg _ (funext fun a => Fin.ext ?_)
  match a with
  | ⟨0, _⟩ => show win2_1.index t (0 : Fin 1) * 128 + 1 * (j 0).val = (j 0).val; omega

/-- Window 2's block at every point is the whole row `main_v18`. -/
theorem vec2_2 (c : Dev nD) (t : Fin cfg2.N) : (iblk2 (F := Ideal) V c 2 t : Vec Ideal S128 .f32) = V c main_v18 := by
  obtain ⟨-, -, -, -, -, -, -, e2, -⟩ := idx2 t
  funext j
  show V c main_v18 (((cfg2.win 2).blk t).view.emb j) = V c main_v18 j
  refine congrArg _ (funext fun a => Fin.ext ?_)
  match a with
  | ⟨0, _⟩ => show win2_2.index t (0 : Fin 1) * 128 + 1 * (j 0).val = (j 0).val; omega

/-- Window 3's block at every point is the whole row `main_arg5`. -/
theorem vec2_3 (c : Dev nD) (t : Fin cfg2.N) : (iblk2 (F := Ideal) V c 3 t : Vec Ideal S128 .f32) = V c main_arg5 := by
  obtain ⟨-, -, -, -, -, -, -, -, e3, -⟩ := idx2 t
  funext j
  show V c main_arg5 (((cfg2.win 3).blk t).view.emb j) = V c main_arg5 j
  refine congrArg _ (funext fun a => Fin.ext ?_)
  match a with
  | ⟨0, _⟩ => show win2_3.index t (0 : Fin 1) * 128 + 1 * (j 0).val = (j 0).val; omega

/-- Window 4's block at every point is the whole row `main_arg6`. -/
theorem vec2_4 (c : Dev nD) (t : Fin cfg2.N) : (iblk2 (F := Ideal) V c 4 t : Vec Ideal S128 .f32) = V c main_arg6 := by
  obtain ⟨-, -, -, -, -, -, -, -, -, e4, -⟩ := idx2 t
  funext j
  show V c main_arg6 (((cfg2.win 4).blk t).view.emb j) = V c main_arg6 j
  refine congrArg _ (funext fun a => Fin.ext ?_)
  match a with
  | ⟨0, _⟩ => show win2_4.index t (0 : Fin 1) * 128 + 1 * (j 0).val = (j 0).val; omega

/-- Window 6's block at every point is the whole row `main_v31`. -/
theorem vec2_6 (c : Dev nD) (t : Fin cfg2.N) : (iblk2 (F := Ideal) V c 6 t : Vec Ideal S128 .f32) = V c main_v31 := by
  obtain ⟨-, -, -, -, -, -, -, -, -, -, -, -, e6, -⟩ := idx2 t
  funext j
  show V c main_v31 (((cfg2.win 6).blk t).view.emb j) = V c main_v31 j
  refine congrArg _ (funext fun a => Fin.ext ?_)
  match a with
  | ⟨0, _⟩ => show win2_6.index t (0 : Fin 1) * 128 + 1 * (j 0).val = (j 0).val; omega

/-- Window 8's block at every point is the whole row `main_v35`. -/
theorem vec2_8 (c : Dev nD) (t : Fin cfg2.N) : (iblk2 (F := Ideal) V c 8 t : Vec Ideal S128 .f32) = V c main_v35 := by
  obtain ⟨-, -, -, -, -, -, -, -, -, -, -, -, -, -, -, e8⟩ := idx2 t
  funext j
  show V c main_v35 (((cfg2.win 8).blk t).view.emb j) = V c main_v35 j
  refine congrArg _ (funext fun a => Fin.ext ?_)
  match a with
  | ⟨0, _⟩ => show win2_8.index t (0 : Fin 1) * 128 + 1 * (j 0).val = (j 0).val; omega

/-- Window 5's block at every point is the whole matrix `main_v29`. -/
theorem mat2_5 (c : Dev nD) (t : Fin cfg2.N) : (iblk2 (F := Ideal) V c 5 t : Vec Ideal S128x128 .f32) = V c main_v29 := by
  obtain ⟨-, -, -, -, -, -, -, -, -, -, r0, r1, -⟩ := idx2 t
  funext j
  show V c main_v29 (((cfg2.win 5).blk t).view.emb j) = V c main_v29 j
  refine congrArg _ (funext fun a => Fin.ext ?_)
  match a with
  | ⟨0, _⟩ => show win2_5.index t (0 : Fin 2) * 128 + 1 * (j 0).val = (j 0).val; omega
  | ⟨1, _⟩ => show win2_5.index t (1 : Fin 2) * 128 + 1 * (j 1).val = (j 1).val; omega

/-- Window 7's block at every point is the whole matrix `main_v33`. -/
theorem mat2_7 (c : Dev nD) (t : Fin cfg2.N) : (iblk2 (F := Ideal) V c 7 t : Vec Ideal S128x128 .f32) = V c main_v33 := by
  obtain ⟨-, -, -, -, -, -, -, -, -, -, -, -, -, r0, r1, -⟩ := idx2 t
  funext j
  show V c main_v33 (((cfg2.win 7).blk t).view.emb j) = V c main_v33 j
  refine congrArg _ (funext fun a => Fin.ext ?_)
  match a with
  | ⟨0, _⟩ => show win2_7.index t (0 : Fin 2) * 128 + 1 * (j 0).val = (j 0).val; omega
  | ⟨1, _⟩ => show win2_7.index t (1 : Fin 2) * 128 + 1 * (j 1).val = (j 1).val; omega

/-! ## What each point writes back, and the arrays after the region -/

/-- What point `t` writes back to the first result is block `t` of the layer with the first weights and bias. -/
theorem flushed2_9_eq (c : Dev nD) (t : Fin cfg2.N) :
    (dat2 (F := Ideal) V c).flushed 9 t = ((cfg2.win 9).blk t).view.read (Elt Ideal)
      (Cert.Spec.lin (Cert.Spec.relu (Cert.Spec.bn (V c main_v14) (V c main_v17) (V c main_v18) (V c main_arg5) (V c main_arg6))) (V c main_v29) (V c main_v31)) := by
  show (cfg2.win 9).cut (grid2.coords t) ((dat2 (F := Ideal) V c).after 9 t) = _
  rw [after2_9]
  unfold out2_9
  rw [View.canon_unit_zero zeros2_2]
  simp only [View.ld_unit_zero (S := S5000x128) zeros2_2, View.ld_unit_zero (S := S128) zeros1_2,
    View.ld_unit_zero (S := S128x128) zeros2_2]
  rw [vec2_1 V c t, vec2_2 V c t, vec2_3 V c t, vec2_4 V c t, mat2_5 V c t, vec2_6 V c t]
  refine rows2_9 t _ _ fun p q P hP => ?_
  refine (pay2_3_apply (iblk2 (F := Ideal) V c 0 t) (V c main_v17) (V c main_v18) (V c main_arg5) (V c main_arg6) (V c main_v29) (V c main_v31) p q).trans ?_
  exact lin2_rows _ _ _ _ _ _ _ _ p P q fun k => node2_row V c t p k P hP

/-- What point `t` writes back to the second result is block `t` of the layer with the second weights and bias. -/
theorem flushed2_10_eq (c : Dev nD) (t : Fin cfg2.N) :
    (dat2 (F := Ideal) V c).flushed 10 t = ((cfg2.win 10).blk t).view.read (Elt Ideal)
      (Cert.Spec.lin (Cert.Spec.relu (Cert.Spec.bn (V c main_v14) (V c main_v17) (V c main_v18) (V c main_arg5) (V c main_arg6))) (V c main_v33) (V c main_v35)) := by
  show (cfg2.win 10).cut (grid2.coords t) ((dat2 (F := Ideal) V c).after 10 t) = _
  rw [after2_10]
  unfold out2_10
  rw [View.canon_unit_zero zeros2_2]
  simp only [View.ld_unit_zero (S := S5000x128) zeros2_2, View.ld_unit_zero (S := S128) zeros1_2,
    View.ld_unit_zero (S := S128x128) zeros2_2]
  rw [vec2_1 V c t, vec2_2 V c t, vec2_3 V c t, vec2_4 V c t, mat2_7 V c t, vec2_8 V c t]
  refine rows2_10 t _ _ fun p q P hP => ?_
  refine (pay2_1_apply (iblk2 (F := Ideal) V c 0 t) (V c main_v17) (V c main_v18) (V c main_arg5) (V c main_arg6) (V c main_v33) (V c main_v35) p q).trans ?_
  exact lin2_rows _ _ _ _ _ _ _ _ p P q fun k => node2_row V c t p k P hP

/-- THE FIRST RESULT after the region: the layer of the node array with the first weights and bias. -/
theorem val2_a (c : Dev nD) : (dat2 (F := Ideal) V c).arrAt 9 cfg2.N = Cert.Spec.lin (Cert.Spec.relu (Cert.Spec.bn (V c main_v14) (V c main_v17) (V c main_v18) (V c main_arg5) (V c main_arg6))) (V c main_v29) (V c main_v31) :=
  (dat2 (F := Ideal) V c).arrAt_eq_of_cover 9 _ (fun t _ => flushed2_9_eq V c t) rows_cover2_9

/-- THE SECOND RESULT after the region: the layer of the node array with the second weights and bias. -/
theorem val2_b (c : Dev nD) : (dat2 (F := Ideal) V c).arrAt 10 cfg2.N = Cert.Spec.lin (Cert.Spec.relu (Cert.Spec.bn (V c main_v14) (V c main_v17) (V c main_v18) (V c main_arg5) (V c main_arg6))) (V c main_v33) (V c main_v35) :=
  (dat2 (F := Ideal) V c).arrAt_eq_of_cover 10 _ (fun t _ => flushed2_10_eq V c t) rows_cover2_10

end Cert.KernelIdeal.KVal

end
-- ==== Proof.KVal3.lean ====
/-
  The value of one fused layer of the network, as the kernel program computes it tile by tile.

  The region reads three node arrays of 40000 rows and 128 columns, twelve column vectors (for each node array a
  mean, a variance, a scale and a shift), a 128 by 128 weight matrix and a bias vector, and writes one node array.
  Its grid has 8 points; point t handles rows 5000·t … 5000·t + 4999 of every node array and sees every vector
  and the matrix whole. On its tile the body normalises each of the three blocks with its column statistics
  (subtract the mean, multiply by the reciprocal root of variance + ε, multiply by the scale, add the shift), adds
  the three, takes the maximum with zero, multiplies by the weight matrix and adds the bias.

  Every entry (r, q) of the result depends only on row r of the three node arrays, so the 8 tiles are the 8 row
  blocks of ONE function of the whole arrays: the layer `lin (relu (add3 (bn …) (bn …) (bn …))) W b` of the
  specification. The 8 row blocks cover all 40000 rows (row r lies in block r / 5000), so after the region the
  output array is that function.
-/
import proofs.«426021_j89885075570707_3_alg».proof.Proof.Gen.KernelIdeal.Frame
import proofs.«426021_j89885075570707_3_alg».proof.Proof.Spec
import proofs.«426021_j89885075570707_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-! ## The body on one tile, entry by entry -/

/-- A vector laid out as one row and repeated down the rows reads, at row p and column q, the vector's entry q. -/
theorem row3_apply {α : Type} {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) :=
  (broadcastTo_1b_ab_apply _ h2 p q).trans (shapeCast_a_1a_apply x h1 0 q)

/-- The affine normalisation of a block by given column statistics, entry by entry. -/
theorem pay3_1_apply (x0 : Vec Ideal S5000x128 .f32) (x1 x2 x3 x4 : Vec Ideal S128 .f32) (p : Fin 5000) (q : Fin 128) :
    k3_pay1 (F := Ideal) x0 x1 x2 x3 x4 (ix2 p q) = Cert.Spec.bnE x0 x1 x2 x3 x4 p q := by
  unfold k3_pay1
  simp only [shapeCast_self, addf_apply, mulf_apply, subf_apply, row3_apply]
  rfl

/-- The centred block times the reciprocal root of the shifted variance, entry by entry. -/
theorem pay3_3_apply (x5 : Vec Ideal S5000x128 .f32) (x6 x7 : Vec Ideal S128 .f32) (p : Fin 5000) (q : Fin 128) :
    k3_pay3 (F := Ideal) x5 x6 x7 (ix2 p q) = (x5 (ix2 p q) - x6 (ix1 q)) * Ideal.rsqrt (x7 (ix1 q) + Cert.Spec.eps) := by
  unfold k3_pay3
  simp only [shapeCast_self, addf_apply, mulf_apply, subf_apply, row3_apply]
  rfl

/-- A vector cast to its own shape is itself. -/
theorem pay3_2_eq (x9 : Vec Ideal S128 .f32) : k3_pay2 (F := Ideal) x9 = x9 := by
  unfold k3_pay2
  simp only [shapeCast_self]

/-- A vector laid out as one row reads, at column q, its entry q. -/
theorem pay3_4_apply (x8 : Vec Ideal S128 .f32) (u : Fin 1) (q : Fin 128) : k3_pay4 (F := Ideal) x8 (ix2 u q) = x8 (ix1 q) := by
  unfold k3_pay4
  simp only [shapeCast_self]
  exact shapeCast_a_1a_apply x8 _ u q

/-- The block product's dimension numbers are those of the plain matrix product. -/
theorem dot3_eq : dot_S5000x128_S128x128_S5000x128_1_0_0_1_n_n = DotDims.plain 5000 128 128 := rfl

/-- The block product into the zero accumulator, entry by entry: the sum over the 128 shared positions. -/
theorem mm3_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  rw [dot3_eq]
  exact Cert.Lib.PlainDot.matmul_zero_apply none l r p q

/-- The last part of the body, entry by entry, over whatever the earlier parts left. -/
theorem pay3_5_apply (v24 : FVec Ideal S5000x128 .f32) (v34 : FVec Ideal S128 .f32) (v43 : FVec Ideal S5000x128 .f32) (v44 : FVec Ideal S1x128 .f32)
    (x10 : Vec Ideal S5000x128 .f32) (x11 x12 x13 x14 : Vec Ideal S128 .f32) (x15 : Vec Ideal S128x128 .f32) (x16 : Vec Ideal S128 .f32)
    (p : Fin 5000) (q : Fin 128) :
    k3_pay5 (F := Ideal) v24 v34 v43 v44 x10 x11 x12 x13 x14 x15 x16 (ix2 p q)
      = (∑ k : Fin 128, max (v24 (ix2 p k) + (v43 (ix2 p k) * v44 (ix2 (0 : Fin 1) k) + v34 (ix1 k))
            + Cert.Spec.bnE x10 x11 x12 x13 x14 p k) Cert.Spec.zeroW * x15 (ix2 k q)) + x16 (ix1 q) := by
  unfold k3_pay5
  simp only [shapeCast_self]
  rw [addf_apply, row3_apply, mm3_apply]
  refine congrArg (· + x16 (ix1 q)) (Finset.sum_congr rfl fun k _ => ?_)
  simp only [truncf_apply, maximumf_apply, addf_apply, mulf_apply, subf_apply, broadcastTo_1b_ab_apply, shapeCast_a_1a_apply, broadcast_apply]
  rfl

/-- The whole body at an entry: three normalised blocks added, clipped below at zero, multiplied by the weight
    matrix, plus the bias. -/
theorem pay3_apply (x0 : Vec Ideal S5000x128 .f32) (x1 x2 x3 x4 : Vec Ideal S128 .f32) (x5 : Vec Ideal S5000x128 .f32)
    (x6 x7 x8 x9 : Vec Ideal S128 .f32) (x10 : Vec Ideal S5000x128 .f32) (x11 x12 x13 x14 : Vec Ideal S128 .f32)
    (x15 : Vec Ideal S128x128 .f32) (x16 : Vec Ideal S128 .f32) (p : Fin 5000) (q : Fin 128) :
    k3_pay5 (F := Ideal) (k3_pay1 x0 x1 x2 x3 x4) (k3_pay2 x9) (k3_pay3 x5 x6 x7) (k3_pay4 x8) x10 x11 x12 x13 x14 x15 x16 (ix2 p q)
      = Cert.Spec.linE (Cert.Spec.relu (Cert.Spec.add3 (Cert.Spec.bn x0 x1 x2 x3 x4) (Cert.Spec.bn x5 x6 x7 x8 x9)
          (Cert.Spec.bn x10 x11 x12 x13 x14))) x15 x16 p q := by
  rw [pay3_5_apply]
  unfold Cert.Spec.linE
  refine congrArg (· + x16 (ix1 q)) (Finset.sum_congr rfl fun k _ => ?_)
  rw [pay3_1_apply, pay3_2_eq, pay3_3_apply, pay3_4_apply]
  rfl

/-! ## The tiles as row blocks of the whole arrays -/

theorem hz3_2 : (![0, 0] : Fin 2 → Nat) = fun _ => 0 := funext fun a => by fin_cases a <;> rfl
theorem hz3_1 : (![0] : Fin 1 → Nat) = fun _ => 0 := funext fun a => by fin_cases a; rfl

/-- At grid point t the three node arrays and the output are at row block t, column block 0. -/
theorem idx3_rows : ∀ t : Fin cfg3.N,
    win3_0.index t (0 : Fin 2) = t.val ∧ win3_0.index t (1 : Fin 2) = 0
    ∧ win3_5.index t (0 : Fin 2) = t.val ∧ win3_5.index t (1 : Fin 2) = 0
    ∧ win3_10.index t (0 : Fin 2) = t.val ∧ win3_10.index t (1 : Fin 2) = 0
    ∧ win3_17.index t (0 : Fin 2) = t.val ∧ win3_17.index t (1 : Fin 2) = 0 :=
  (by decide +kernel : ∀ t : Fin grid3.N, _)

/-- At every grid point each column vector and the weight matrix are at block 0: the whole array. -/
theorem idx3_whole : ∀ t : Fin cfg3.N,
    win3_1.index t = (fun _ => 0)
    ∧ win3_2.index t = (fun _ => 0)
    ∧ win3_3.index t = (fun _ => 0)
    ∧ win3_4.index t = (fun _ => 0)
    ∧ win3_6.index t = (fun _ => 0)
    ∧ win3_7.index t = (fun _ => 0)
    ∧ win3_8.index t = (fun _ => 0)
    ∧ win3_9.index t = (fun _ => 0)
    ∧ win3_11.index t = (fun _ => 0)
    ∧ win3_12.index t = (fun _ => 0)
    ∧ win3_13.index t = (fun _ => 0)
    ∧ win3_14.index t = (fun _ => 0)
    ∧ win3_16.index t = (fun _ => 0)
    ∧ win3_15.index t = (fun _ => 0) :=
  (by decide +kernel : ∀ t : Fin grid3.N, _)

/-- Row p of the block of node array 1 at grid point t is row 5000·t + p of the array. -/
theorem blk3_0_apply (c : Dev nD) (t : Fin cfg3.N) (p : Fin 5000) (k : Fin 128) (P : Fin 40000)
    (hP : P.val = 5000 * t.val + p.val) :
    (iblk3 V c 0 t : Vec Ideal S5000x128 .f32) (ix2 p k) = (V c main_v36_1 : Vec Ideal S40000x128 .f32) (ix2 P k) := by
  obtain ⟨e0, e1, e2, e3, e4, e5, e6, e7⟩ := idx3_rows t
  unfold iblk3
  rw [View.read_apply]
  show V c main_v36_1 (((cfg3.win 0).blk t).view.emb (ix2 p k)) = V c main_v36_1 (ix2 P k)
  congr 1
  funext a
  apply Fin.ext
  match a with
  | ⟨0, _⟩ => show win3_0.index t (0 : Fin 2) * 5000 + 1 * p.val = P.val; omega
  | ⟨1, _⟩ => show win3_0.index t (1 : Fin 2) * 128 + 1 * k.val = k.val; omega

/-- Row p of the block of node array 2 at grid point t is row 5000·t + p of the array. -/
theorem blk3_5_apply (c : Dev nD) (t : Fin cfg3.N) (p : Fin 5000) (k : Fin 128) (P : Fin 40000)
    (hP : P.val = 5000 * t.val + p.val) :
    (iblk3 V c 5 t : Vec Ideal S5000x128 .f32) (ix2 p k) = (V c main_v50 : Vec Ideal S40000x128 .f32) (ix2 P k) := by
  obtain ⟨e0, e1, e2, e3, e4, e5, e6, e7⟩ := idx3_rows t
  unfold iblk3
  rw [View.read_apply]
  show V c main_v50 (((cfg3.win 5).blk t).view.emb (ix2 p k)) = V c main_v50 (ix2 P k)
  congr 1
  funext a
  apply Fin.ext
  match a with
  | ⟨0, _⟩ => show win3_5.index t (0 : Fin 2) * 5000 + 1 * p.val = P.val; omega
  | ⟨1, _⟩ => show win3_5.index t (1 : Fin 2) * 128 + 1 * k.val = k.val; omega

/-- Row p of the block of node array 3 at grid point t is row 5000·t + p of the array. -/
theorem blk3_10_apply (c : Dev nD) (t : Fin cfg3.N) (p : Fin 5000) (k : Fin 128) (P : Fin 40000)
    (hP : P.val = 5000 * t.val + p.val) :
    (iblk3 V c 10 t : Vec Ideal S5000x128 .f32) (ix2 p k) = (V c main_v23 : Vec Ideal S40000x128 .f32) (ix2 P k) := by
  obtain ⟨e0, e1, e2, e3, e4, e5, e6, e7⟩ := idx3_rows t
  unfold iblk3
  rw [View.read_apply]
  show V c main_v23 (((cfg3.win 10).blk t).view.emb (ix2 p k)) = V c main_v23 (ix2 P k)
  congr 1
  funext a
  apply Fin.ext
  match a with
  | ⟨0, _⟩ => show win3_10.index t (0 : Fin 2) * 5000 + 1 * p.val = P.val; omega
  | ⟨1, _⟩ => show win3_10.index t (1 : Fin 2) * 128 + 1 * k.val = k.val; omega

theorem blk3_1_eq (c : Dev nD) (t : Fin cfg3.N) :
    (iblk3 V c 1 t : Vec Ideal S128 .f32) = (V c main_v39 : Vec Ideal S128 .f32) := by
  have hz' : (fun a => win3_1.index t a * main_v39.ty.shape.size a) = fun _ => 0 :=
    funext fun a => by rw [(idx3_whole t).1]; exact Nat.zero_mul _
  exact Memref.read_access_unit_zero (Elt Ideal) main_v39 hz' (fun a => by rw [congrFun hz' a]; simp) (V c main_v39)

theorem blk3_2_eq (c : Dev nD) (t : Fin cfg3.N) :
    (iblk3 V c 2 t : Vec Ideal S128 .f32) = (V c main_v40 : Vec Ideal S128 .f32) := by
  have hz' : (fun a => win3_2.index t a * main_v40.ty.shape.size a) = fun _ => 0 :=
    funext fun a => by rw [(idx3_whole t).2.1]; exact Nat.zero_mul _
  exact Memref.read_access_unit_zero (Elt Ideal) main_v40 hz' (fun a => by rw [congrFun hz' a]; simp) (V c main_v40)

theorem blk3_3_eq (c : Dev nD) (t : Fin cfg3.N) :
    (iblk3 V c 3 t : Vec Ideal S128 .f32) = (V c main_v56 : Vec Ideal S128 .f32) := by
  have hz' : (fun a => win3_3.index t a * main_v56.ty.shape.size a) = fun _ => 0 :=
    funext fun a => by rw [(idx3_whole t).2.2.1]; exact Nat.zero_mul _
  exact Memref.read_access_unit_zero (Elt Ideal) main_v56 hz' (fun a => by rw [congrFun hz' a]; simp) (V c main_v56)

theorem blk3_4_eq (c : Dev nD) (t : Fin cfg3.N) :
    (iblk3 V c 4 t : Vec Ideal S128 .f32) = (V c main_v58 : Vec Ideal S128 .f32) := by
  have hz' : (fun a => win3_4.index t a * main_v58.ty.shape.size a) = fun _ => 0 :=
    funext fun a => by rw [(idx3_whole t).2.2.2.1]; exact Nat.zero_mul _
  exact Memref.read_access_unit_zero (Elt Ideal) main_v58 hz' (fun a => by rw [congrFun hz' a]; simp) (V c main_v58)

theorem blk3_6_eq (c : Dev nD) (t : Fin cfg3.N) :
    (iblk3 V c 6 t : Vec Ideal S128 .f32) = (V c main_v53 : Vec Ideal S128 .f32) := by
  have hz' : (fun a => win3_6.index t a * main_v53.ty.shape.size a) = fun _ => 0 :=
    funext fun a => by rw [(idx3_whole t).2.2.2.2.1]; exact Nat.zero_mul _
  exact Memref.read_access_unit_zero (Elt Ideal) main_v53 hz' (fun a => by rw [congrFun hz' a]; simp) (V c main_v53)

theorem blk3_7_eq (c : Dev nD) (t : Fin cfg3.N) :
    (iblk3 V c 7 t : Vec Ideal S128 .f32) = (V c main_v54 : Vec Ideal S128 .f32) := by
  have hz' : (fun a => win3_7.index t a * main_v54.ty.shape.size a) = fun _ => 0 :=
    funext fun a => by rw [(idx3_whole t).2.2.2.2.2.1]; exact Nat.zero_mul _
  exact Memref.read_access_unit_zero (Elt Ideal) main_v54 hz' (fun a => by rw [congrFun hz' a]; simp) (V c main_v54)

theorem blk3_8_eq (c : Dev nD) (t : Fin cfg3.N) :
    (iblk3 V c 8 t : Vec Ideal S128 .f32) = (V c main_v60 : Vec Ideal S128 .f32) := by
  have hz' : (fun a => win3_8.index t a * main_v60.ty.shape.size a) = fun _ => 0 :=
    funext fun a => by rw [(idx3_whole t).2.2.2.2.2.2.1]; exact Nat.zero_mul _
  exact Memref.read_access_unit_zero (Elt Ideal) main_v60 hz' (fun a => by rw [congrFun hz' a]; simp) (V c main_v60)

theorem blk3_9_eq (c : Dev nD) (t : Fin cfg3.N) :
    (iblk3 V c 9 t : Vec Ideal S128 .f32) = (V c main_v62 : Vec Ideal S128 .f32) := by
  have hz' : (fun a => win3_9.index t a * main_v62.ty.shape.size a) = fun _ => 0 :=
    funext fun a => by rw [(idx3_whole t).2.2.2.2.2.2.2.1]; exact Nat.zero_mul _
  exact Memref.read_access_unit_zero (Elt Ideal) main_v62 hz' (fun a => by rw [congrFun hz' a]; simp) (V c main_v62)

theorem blk3_11_eq (c : Dev nD) (t : Fin cfg3.N) :
    (iblk3 V c 11 t : Vec Ideal S128 .f32) = (V c main_v26 : Vec Ideal S128 .f32) := by
  have hz' : (fun a => win3_11.index t a * main_v26.ty.shape.size a) = fun _ => 0 :=
    funext fun a => by rw [(idx3_whole t).2.2.2.2.2.2.2.2.1]; exact Nat.zero_mul _
  exact Memref.read_access_unit_zero (Elt Ideal) main_v26 hz' (fun a => by rw [congrFun hz' a]; simp) (V c main_v26)

theorem blk3_12_eq (c : Dev nD) (t : Fin cfg3.N) :
    (iblk3 V c 12 t : Vec Ideal S128 .f32) = (V c main_v27 : Vec Ideal S128 .f32) := by
  have hz' : (fun a => win3_12.index t a * main_v27.ty.shape.size a) = fun _ => 0 :=
    funext fun a => by rw [(idx3_whole t).2.2.2.2.2.2.2.2.2.1]; exact Nat.zero_mul _
  exact Memref.read_access_unit_zero (Elt Ideal) main_v27 hz' (fun a => by rw [congrFun hz' a]; simp) (V c main_v27)

theorem blk3_13_eq (c : Dev nD) (t : Fin cfg3.N) :
    (iblk3 V c 13 t : Vec Ideal S128 .f32) = (V c main_v64 : Vec Ideal S128 .f32) := by
  have hz' : (fun a => win3_13.index t a * main_v64.ty.shape.size a) = fun _ => 0 :=
    funext fun a => by rw [(idx3_whole t).2.2.2.2.2.2.2.2.2.2.1]; exact Nat.zero_mul _
  exact Memref.read_access_unit_zero (Elt Ideal) main_v64 hz' (fun a => by rw [congrFun hz' a]; simp) (V c main_v64)

theorem blk3_14_eq (c : Dev nD) (t : Fin cfg3.N) :
    (iblk3 V c 14 t : Vec Ideal S128 .f32) = (V c main_v66 : Vec Ideal S128 .f32) := by
  have hz' : (fun a => win3_14.index t a * main_v66.ty.shape.size a) = fun _ => 0 :=
    funext fun a => by rw [(idx3_whole t).2.2.2.2.2.2.2.2.2.2.2.1]; exact Nat.zero_mul _
  exact Memref.read_access_unit_zero (Elt Ideal) main_v66 hz' (fun a => by rw [congrFun hz' a]; simp) (V c main_v66)

theorem blk3_16_eq (c : Dev nD) (t : Fin cfg3.N) :
    (iblk3 V c 16 t : Vec Ideal S128 .f32) = (V c main_v70 : Vec Ideal S128 .f32) := by
  have hz' : (fun a => win3_16.index t a * main_v70.ty.shape.size a) = fun _ => 0 :=
    funext fun a => by rw [(idx3_whole t).2.2.2.2.2.2.2.2.2.2.2.2.1]; exact Nat.zero_mul _
  exact Memref.read_access_unit_zero (Elt Ideal) main_v70 hz' (fun a => by rw [congrFun hz' a]; simp) (V c main_v70)

theorem blk3_15_eq (c : Dev nD) (t : Fin cfg3.N) :
    (iblk3 V c 15 t : Vec Ideal S128x128 .f32) = (V c main_v68 : Vec Ideal S128x128 .f32) := by
  have hz' : (fun a => win3_15.index t a * main_v68.ty.shape.size a) = fun _ => 0 :=
    funext fun a => by rw [(idx3_whole t).2.2.2.2.2.2.2.2.2.2.2.2.2]; exact Nat.zero_mul _
  exact Memref.read_access_unit_zero (Elt Ideal) main_v68 hz' (fun a => by rw [congrFun hz' a]; simp) (V c main_v68)

/-! ## One function of the whole arrays -/

/-- Entry (p, q) of the layer reads the three node arrays only along row p: arrays that agree along the row give the
    same entry. -/
theorem lin3_rows {M M' : ℕ} (x0 x5 x10 : FVec Ideal ⟨2, ![M, 128]⟩ .f32) (X0 X5 X10 : FVec Ideal ⟨2, ![M', 128]⟩ .f32)
    (m0 v0 g0 b0 m5 v5 g5 b5 m10 v10 g10 b10 : FVec Ideal ⟨1, ![128]⟩ .f32)
    (W : FVec Ideal ⟨2, ![128, 128]⟩ .f32) (b : FVec Ideal ⟨1, ![128]⟩ .f32) (p : Fin M) (P : Fin M') (q : Fin 128)
    (h0 : ∀ k, x0 (ix2 p k) = X0 (ix2 P k)) (h5 : ∀ k, x5 (ix2 p k) = X5 (ix2 P k)) (h10 : ∀ k, x10 (ix2 p k) = X10 (ix2 P k)) :
    Cert.Spec.linE (Cert.Spec.relu (Cert.Spec.add3 (Cert.Spec.bn x0 m0 v0 g0 b0) (Cert.Spec.bn x5 m5 v5 g5 b5)
        (Cert.Spec.bn x10 m10 v10 g10 b10))) W b p q
      = Cert.Spec.linE (Cert.Spec.relu (Cert.Spec.add3 (Cert.Spec.bn X0 m0 v0 g0 b0) (Cert.Spec.bn X5 m5 v5 g5 b5)
        (Cert.Spec.bn X10 m10 v10 g10 b10))) W b P q := by
  unfold Cert.Spec.linE
  refine congrArg (· + b (ix1 q)) (Finset.sum_congr rfl fun k _ => ?_)
  show max (Cert.Spec.bnE x0 m0 v0 g0 b0 p k + Cert.Spec.bnE x5 m5 v5 g5 b5 p k + Cert.Spec.bnE x10 m10 v10 g10 b10 p k) Cert.Spec.zeroW * W (ix2 k q)
    = max (Cert.Spec.bnE X0 m0 v0 g0 b0 P k + Cert.Spec.bnE X5 m5 v5 g5 b5 P k + Cert.Spec.bnE X10 m10 v10 g10 b10 P k) Cert.Spec.zeroW * W (ix2 k q)
  unfold Cert.Spec.bnE
  rw [h0 k, h5 k, h10 k]

/-- The layer of the whole arrays the region finds. -/
abbrev G3 (c : Dev nD) : FVec Ideal ⟨2, ![40000, 128]⟩ .f32 :=
  Cert.Spec.lin (Cert.Spec.relu (Cert.Spec.add3
      (Cert.Spec.bn (V c main_v36_1) (V c main_v39) (V c main_v40) (V c main_v56) (V c main_v58))
      (Cert.Spec.bn (V c main_v50) (V c main_v53) (V c main_v54) (V c main_v60) (V c main_v62))
      (Cert.Spec.bn (V c main_v23) (V c main_v26) (V c main_v27) (V c main_v64) (V c main_v66))))
    (V c main_v68) (V c main_v70)

/-- The layer at an index whose coordinates are (P, Q). -/
theorem G3_at (c : Dev nD) (i : S40000x128.Idx) (P : Fin 40000) (Q : Fin 128) (h0 : (i 0).val = P.val) (h1 : (i 1).val = Q.val) :
    G3 V c i = Cert.Spec.linE (Cert.Spec.relu (Cert.Spec.add3
      (Cert.Spec.bn (V c main_v36_1) (V c main_v39) (V c main_v40) (V c main_v56) (V c main_v58))
      (Cert.Spec.bn (V c main_v50) (V c main_v53) (V c main_v54) (V c main_v60) (V c main_v62))
      (Cert.Spec.bn (V c main_v23) (V c main_v26) (V c main_v27) (V c main_v64) (V c main_v66))))
    (V c main_v68) (V c main_v70) P Q := by
  obtain rfl : i = ix2 P Q := funext fun a => Fin.ext (match a with | ⟨0, _⟩ => h0 | ⟨1, _⟩ => h1)
  rfl

/-! ## What each grid point writes back, and the array after the region -/

/-- Grid point t writes back row block t of the layer of the whole arrays. -/
theorem flushed3_eq (c : Dev nD) (t : Fin cfg3.N) :
    (dat3 V c).flushed 17 t = ((cfg3.win 17).blk t).view.read (Elt Ideal) (G3 V c) := by
  show (cfg3.win 17).cut (grid3.coords t) ((dat3 V c).after 17 t) = _
  rw [after3_17]
  unfold out3_17
  rw [View.canon_unit_zero hz3_2]
  simp only [View.ld_unit_zero (S := S5000x128) hz3_2, View.ld_unit_zero (S := S128) hz3_1, View.ld_unit_zero (S := S128x128) hz3_2]
  rw [blk3_1_eq V c t, blk3_2_eq V c t, blk3_3_eq V c t, blk3_4_eq V c t, blk3_6_eq V c t, blk3_7_eq V c t, blk3_8_eq V c t, blk3_9_eq V c t, blk3_11_eq V c t, blk3_12_eq V c t, blk3_13_eq V c t, blk3_14_eq V c t, blk3_16_eq V c t, blk3_15_eq V c t]
  obtain ⟨e0, e1, e2, e3, e4, e5, e6, e7⟩ := idx3_rows t
  have hN : cfg3.N = 8 := N_3
  refine funext fun (j : S5000x128.Idx) => ?_
  obtain ⟨p, q, rfl⟩ : ∃ (p : Fin 5000) (q : Fin 128), j = ix2 p q := ⟨j 0, j 1, eq_ix2 j⟩
  have ht : t.val < 8 := hN ▸ t.isLt
  have hP : 5000 * t.val + p.val < 40000 := by have := p.isLt; omega
  refine (pay3_apply (iblk3 V c 0 t) (V c main_v39) (V c main_v40) (V c main_v56) (V c main_v58) (iblk3 V c 5 t) (V c main_v53) (V c main_v54)
    (V c main_v60) (V c main_v62) (iblk3 V c 10 t) (V c main_v26) (V c main_v27) (V c main_v64) (V c main_v66) (V c main_v68) (V c main_v70) p q).trans ?_
  refine (lin3_rows (iblk3 V c 0 t) (iblk3 V c 5 t) (iblk3 V c 10 t) (V c main_v36_1) (V c main_v50) (V c main_v23)
    (V c main_v39) (V c main_v40) (V c main_v56) (V c main_v58) (V c main_v53) (V c main_v54) (V c main_v60) (V c main_v62)
    (V c main_v26) (V c main_v27) (V c main_v64) (V c main_v66) (V c main_v68) (V c main_v70) p ⟨5000 * t.val + p.val, hP⟩ q
    (fun k => blk3_0_apply V c t p k _ rfl) (fun k => blk3_5_apply V c t p k _ rfl) (fun k => blk3_10_apply V c t p k _ rfl)).trans ?_
  rw [View.read_apply]
  refine (G3_at V c (((cfg3.win 17).blk t).view.emb (ix2 p q)) ⟨5000 * t.val + p.val, hP⟩ q ?_ ?_).symm
  · show win3_17.index t (0 : Fin 2) * 5000 + 1 * p.val = 5000 * t.val + p.val; omega
  · show win3_17.index t (1 : Fin 2) * 128 + 1 * q.val = q.val; omega

/-- An index of the output array is in point t's block iff each coordinate is in the block's range on its axis. -/
theorem mem_blk3 (t : Fin cfg3.N) (i : S40000x128.Idx) :
    i ∈ ((cfg3.win 17).blk t).view.set ↔ ∀ a : Fin 2, win3_17.index t a * S5000x128.size a ≤ (i a).val ∧ (i a).val < win3_17.index t a * S5000x128.size a + S5000x128.size a := by
  show i ∈ ((View.whole main_v71).slice (win3_17.rect t)).set ↔ _
  rw [View.set_slice_whole, Rect.mem_set_unit]
  exact Iff.rfl

/-- Every row r of the output array is in some point's block: point r / 5000. -/
theorem cover3 (i : S40000x128.Idx) :
    ∃ t : Fin cfg3.N, (cfg3.win 17).flush t = true ∧ i ∈ ((cfg3.win 17).blk t).view.set := by
  have hi0 : (i 0).val < 40000 := (i 0).isLt
  have hi1 : (i 1).val < 128 := (i 1).isLt
  have hN : cfg3.N = 8 := N_3
  obtain ⟨t, ht⟩ : ∃ t : Fin cfg3.N, t.val = (i 0).val / 5000 := ⟨⟨(i 0).val / 5000, by omega⟩, rfl⟩
  obtain ⟨e0, e1, e2, e3, e4, e5, e6, e7⟩ := idx3_rows t
  refine ⟨t, flush3_17 t, ?_⟩
  rw [mem_blk3]
  intro a
  match a with
  | ⟨0, _⟩ => show win3_17.index t (0 : Fin 2) * 5000 ≤ (i 0).val ∧ (i 0).val < win3_17.index t (0 : Fin 2) * 5000 + 5000; omega
  | ⟨1, _⟩ => show win3_17.index t (1 : Fin 2) * 128 ≤ (i 1).val ∧ (i 1).val < win3_17.index t (1 : Fin 2) * 128 + 128; omega

/-- THE ARRAY AFTER THE REGION: the layer of the arrays the region found. -/
theorem val3 (c : Dev nD) : (dat3 (F := Ideal) V c).arrAt 17 cfg3.N = Cert.Spec.lin (Cert.Spec.relu (Cert.Spec.add3 (Cert.Spec.bn (V c main_v36_1) (V c main_v39) (V c main_v40) (V c main_v56) (V c main_v58)) (Cert.Spec.bn (V c main_v50) (V c main_v53) (V c main_v54) (V c main_v60) (V c main_v62)) (Cert.Spec.bn (V c main_v23) (V c main_v26) (V c main_v27) (V c main_v64) (V c main_v66)))) (V c main_v68) (V c main_v70) :=
  (dat3 V c).arrAt_eq_of_cover 17 (G3 V c) (fun t _ => flushed3_eq V c t) (cover3)

end Cert.KernelIdeal.KVal

end
-- ==== Proof.KVal4.lean ====
/-
  The value of the normalise, rectify and multiply region.

  The region reads a node array `x` in eight tiles of 5000 rows, and four feature vectors `μ`, `v`, `g`, `β`, a
  128×128 weight matrix `W` and a bias vector `b`, each whole at every tile, and writes an output node array tile by
  tile. Each tile's body computes, entry by entry,
  `∑ k, max ((x (p, k) - μ k) * rsqrt (v k + ε) * g k + β k) 0 * W (k, q) + b q` (the narrowing of the two factors
  to bf16 is the identity on extended reals). Every row of the output lies in exactly one tile (row `r` in tile
  `r / 5000`), so the output array after the region is `lin (relu (bn x μ v g β)) W b` of the arrays the region found.
-/
import proofs.«426021_j89885075570707_3_alg».proof.Proof.Gen.KernelIdeal.Frame
import proofs.«426021_j89885075570707_3_alg».proof.Proof.Spec
import proofs.«426021_j89885075570707_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-! ## The tile body at an entry -/

/-- A feature vector laid as one row and repeated down the 5000 rows of a tile reads, at `(p, q)`, the vector at `q`. -/
theorem row4_apply (v : FVec Ideal S128 .f32) (p : Fin 5000) (q : Fin 128) :
    broadcastTo S5000x128 (shapeCast S1x128 v shapeCasts_S128_S1x128) broadcasts_S1x128_S5000x128 (ix2 p q) = v (ix1 q) :=
  (broadcastTo_1b_ab_apply _ broadcasts_S1x128_S5000x128 p q).trans (shapeCast_a_1a_apply v shapeCasts_S128_S1x128 0 q)

/-- The tile body's product is the plain 5000×128 by 128×128 matrix product. -/
theorem dot4_eq : dot_S5000x128_S128x128_S5000x128_1_0_0_1_n_n = DotDims.plain 5000 128 128 := rfl

/-- The tile body's result at `(p, q)`: row `p` of the rectified normalisation against column `q` of the weights, plus the bias. -/
theorem pay4_apply (x0 : Vec Ideal S5000x128 .f32) (x1 x2 x3 x4 : Vec Ideal S128 .f32) (x5 : Vec Ideal S128x128 .f32)
    (x6 : Vec Ideal S128 .f32) (p : Fin 5000) (q : Fin 128) :
    k4_pay1 (F := Ideal) x0 x1 x2 x3 x4 x5 x6 (ix2 p q)
      = Cert.Spec.linE (Cert.Spec.relu (Cert.Spec.bn x0 x1 x2 x3 x4)) x5 x6 p q := by
  unfold k4_pay1
  simp only [shapeCast_self]
  rw [addf_apply, row4_apply, dot4_eq]
  refine congrArg (· + x6 (ix1 q)) ?_
  refine (Cert.Lib.PlainDot.matmul_zero_apply none _ _ p q).trans ?_
  refine Finset.sum_congr rfl fun k _ => ?_
  rw [truncf_apply, truncf_apply, maximumf_apply, addf_apply, mulf_apply, mulf_apply, subf_apply,
    row4_apply, row4_apply, row4_apply, row4_apply]
  rfl

/-- The product of the rectified normalisation of whole arrays with the weights, plus the bias, at an index `i`,
    from a tile whose row `p` is the node array's row of `i`, whose column `q` is `i`'s column, and whose
    feature vectors, weights and bias are the whole ones. -/
theorem entry4 (X : FVec Ideal S40000x128 .f32) (μ v g β : FVec Ideal S128 .f32) (W : FVec Ideal S128x128 .f32)
    (b : FVec Ideal S128 .f32) (xb : Vec Ideal S5000x128 .f32) (μb vb gb βb : Vec Ideal S128 .f32)
    (Wb : Vec Ideal S128x128 .f32) (bb : Vec Ideal S128 .f32) (p : Fin 5000) (q : Fin 128) (i : S40000x128.Idx)
    (hx : ∀ k : Fin 128, xb (ix2 p k) = X (ix2 (i 0) k)) (h1 : ∀ k : Fin 128, μb (ix1 k) = μ (ix1 k))
    (h2 : ∀ k : Fin 128, vb (ix1 k) = v (ix1 k)) (h3 : ∀ k : Fin 128, gb (ix1 k) = g (ix1 k))
    (h4 : ∀ k : Fin 128, βb (ix1 k) = β (ix1 k)) (hW : ∀ k : Fin 128, Wb (ix2 k q) = W (ix2 k (i 1)))
    (hb : bb (ix1 q) = b (ix1 (i 1))) :
    Cert.Spec.linE (Cert.Spec.relu (Cert.Spec.bn xb μb vb gb βb)) Wb bb p q
      = Cert.Spec.lin (Cert.Spec.relu (Cert.Spec.bn X μ v g β)) W b i := by
  show (∑ k : Fin 128, max ((xb (ix2 p k) - μb (ix1 k)) * Ideal.rsqrt (vb (ix1 k) + Cert.Spec.eps) * gb (ix1 k) + βb (ix1 k)) Cert.Spec.zeroW
        * Wb (ix2 k q)) + bb (ix1 q)
    = (∑ k : Fin 128, max ((X (ix2 (i 0) k) - μ (ix1 k)) * Ideal.rsqrt (v (ix1 k) + Cert.Spec.eps) * g (ix1 k) + β (ix1 k)) Cert.Spec.zeroW
        * W (ix2 k (i 1))) + b (ix1 (i 1))
  rw [hb]
  refine congrArg (· + b (ix1 (i 1))) (Finset.sum_congr rfl fun k _ => ?_)
  rw [hx k, h1 k, h2 k, h3 k, h4 k, hW k]

/-! ## From tiles to the array -/

theorem zeros4_2 : (![0, 0] : Fin 2 → Nat) = fun _ => 0 := funext fun a => by fin_cases a <;> rfl
theorem zeros4_1 : (![0] : Fin 1 → Nat) = fun _ => 0 := funext fun a => by fin_cases a <;> rfl

/-- The region's output array as one function of the arrays the region found. -/
abbrev G4 (c : Dev nD) : FVec Ideal S40000x128 .f32 :=
  Cert.Spec.lin (Cert.Spec.relu (Cert.Spec.bn (V c main_v71) (V c main_v74) (V c main_v75) (V c main_v77) (V c main_v79)))
    (V c main_v81) (V c main_v83)

/-- The tile positions, decided over the eight tiles: the input node array's tile moves with the output's, the
    feature vectors and the weight matrix stay whole, and the output's tile at point `t` is one of the eight tiles of
    rows, all 128 columns. -/
theorem tiles4 : ∀ t : Fin cfg4.N, win4_0.index t (0 : Fin 2) = win4_7.index t (0 : Fin 2)
    ∧ win4_0.index t (1 : Fin 2) = 0
    ∧ win4_1.index t (0 : Fin 1) = 0
    ∧ win4_2.index t (0 : Fin 1) = 0
    ∧ win4_3.index t (0 : Fin 1) = 0
    ∧ win4_4.index t (0 : Fin 1) = 0
    ∧ win4_5.index t (0 : Fin 2) = 0
    ∧ win4_5.index t (1 : Fin 2) = 0
    ∧ win4_6.index t (0 : Fin 1) = 0
    ∧ win4_7.index t (0 : Fin 2) ≤ 7
    ∧ win4_7.index t (1 : Fin 2) = 0 :=
  (by decide +kernel : ∀ t : Fin grid4.N, _)

/-- Every tile of rows is some point's. -/
theorem tiles4_onto : ∀ (r : Fin 8), ∃ t : Fin cfg4.N, win4_7.index t = ![r.val, 0] :=
  (by decide +kernel : ∀ (r : Fin 8), ∃ t : Fin grid4.N, win4_7.index t = ![r.val, 0])

/-- What point `t` writes back is tile `t` of `G4`. -/
theorem flushed4_eq (c : Dev nD) (t : Fin cfg4.N) :
    (dat4 (F := Ideal) V c).flushed 7 t = ((cfg4.win 7).blk t).view.read (Elt Ideal) (G4 V c) := by
  show (cfg4.win 7).cut (grid4.coords t) ((dat4 V c).after 7 t) = _
  rw [after4_7]
  unfold out4_7
  rw [View.canon_unit_zero zeros4_2]
  simp only [View.ld_unit_zero (S := S5000x128) zeros4_2, View.ld_unit_zero (S := S128) zeros4_1,
    View.ld_unit_zero (S := S128x128) zeros4_2]
  obtain ⟨e0, e1, e2, e3, e4, e5, e6, e7, e8, e9, e10⟩ := tiles4 t
  funext j
  obtain ⟨p, q, rfl⟩ : ∃ (p : Fin 5000) (q : Fin 128), j = ix2 p q := ⟨j 0, j 1, eq_ix2 j⟩
  refine (pay4_apply (iblk4 V c 0 t) (iblk4 V c 1 t) (iblk4 V c 2 t) (iblk4 V c 3 t) (iblk4 V c 4 t) (iblk4 V c 5 t)
    (iblk4 V c 6 t) p q).trans ?_
  have h0 : ∀ k : Fin 128, ((cfg4.win 0).blk t).view.emb (ix2 p k) = ix2 (((cfg4.win 7).blk t).view.emb (ix2 p q) 0) k := fun k => by
    funext a; apply Fin.ext
    match a with
    | ⟨0, _⟩ => show win4_0.index t (0 : Fin 2) * 5000 + 1 * p.val = win4_7.index t (0 : Fin 2) * 5000 + 1 * p.val; omega
    | ⟨1, _⟩ => show win4_0.index t (1 : Fin 2) * 128 + 1 * k.val = k.val; omega
  have h1 : ∀ k : Fin 128, ((cfg4.win 1).blk t).view.emb (ix1 k) = ix1 k := fun k => by
    funext a; apply Fin.ext
    match a with
    | ⟨0, _⟩ => show win4_1.index t (0 : Fin 1) * 128 + 1 * k.val = k.val; omega
  have h2 : ∀ k : Fin 128, ((cfg4.win 2).blk t).view.emb (ix1 k) = ix1 k := fun k => by
    funext a; apply Fin.ext
    match a with
    | ⟨0, _⟩ => show win4_2.index t (0 : Fin 1) * 128 + 1 * k.val = k.val; omega
  have h3 : ∀ k : Fin 128, ((cfg4.win 3).blk t).view.emb (ix1 k) = ix1 k := fun k => by
    funext a; apply Fin.ext
    match a with
    | ⟨0, _⟩ => show win4_3.index t (0 : Fin 1) * 128 + 1 * k.val = k.val; omega
  have h4 : ∀ k : Fin 128, ((cfg4.win 4).blk t).view.emb (ix1 k) = ix1 k := fun k => by
    funext a; apply Fin.ext
    match a with
    | ⟨0, _⟩ => show win4_4.index t (0 : Fin 1) * 128 + 1 * k.val = k.val; omega
  have h5 : ∀ k : Fin 128, ((cfg4.win 5).blk t).view.emb (ix2 k q) = ix2 k (((cfg4.win 7).blk t).view.emb (ix2 p q) 1) := fun k => by
    funext a; apply Fin.ext
    match a with
    | ⟨0, _⟩ => show win4_5.index t (0 : Fin 2) * 128 + 1 * k.val = k.val; omega
    | ⟨1, _⟩ => show win4_5.index t (1 : Fin 2) * 128 + 1 * q.val = win4_7.index t (1 : Fin 2) * 128 + 1 * q.val; omega
  have h6 : ((cfg4.win 6).blk t).view.emb (ix1 q) = ix1 (((cfg4.win 7).blk t).view.emb (ix2 p q) 1) := by
    funext a; apply Fin.ext
    match a with
    | ⟨0, _⟩ => show win4_6.index t (0 : Fin 1) * 128 + 1 * q.val = win4_7.index t (1 : Fin 2) * 128 + 1 * q.val; omega
  show Cert.Spec.linE (Cert.Spec.relu (Cert.Spec.bn (iblk4 V c 0 t) (iblk4 V c 1 t) (iblk4 V c 2 t) (iblk4 V c 3 t) (iblk4 V c 4 t)))
      (iblk4 V c 5 t) (iblk4 V c 6 t) p q
    = G4 V c (((cfg4.win 7).blk t).view.emb (ix2 p q))
  refine entry4 (V c main_v71) (V c main_v74) (V c main_v75) (V c main_v77) (V c main_v79) (V c main_v81) (V c main_v83)
    (iblk4 V c 0 t) (iblk4 V c 1 t) (iblk4 V c 2 t) (iblk4 V c 3 t) (iblk4 V c 4 t) (iblk4 V c 5 t) (iblk4 V c 6 t) p q
    (((cfg4.win 7).blk t).view.emb (ix2 p q)) (fun k => ?_) (fun k => ?_) (fun k => ?_) (fun k => ?_) (fun k => ?_) (fun k => ?_) ?_
  · show V c main_v71 (((cfg4.win 0).blk t).view.emb (ix2 p k)) = V c main_v71 (ix2 (((cfg4.win 7).blk t).view.emb (ix2 p q) 0) k)
    exact congrArg (V c main_v71) (h0 k)
  · show V c main_v74 (((cfg4.win 1).blk t).view.emb (ix1 k)) = V c main_v74 (ix1 k)
    exact congrArg (V c main_v74) (h1 k)
  · show V c main_v75 (((cfg4.win 2).blk t).view.emb (ix1 k)) = V c main_v75 (ix1 k)
    exact congrArg (V c main_v75) (h2 k)
  · show V c main_v77 (((cfg4.win 3).blk t).view.emb (ix1 k)) = V c main_v77 (ix1 k)
    exact congrArg (V c main_v77) (h3 k)
  · show V c main_v79 (((cfg4.win 4).blk t).view.emb (ix1 k)) = V c main_v79 (ix1 k)
    exact congrArg (V c main_v79) (h4 k)
  · show V c main_v81 (((cfg4.win 5).blk t).view.emb (ix2 k q)) = V c main_v81 (ix2 k (((cfg4.win 7).blk t).view.emb (ix2 p q) 1))
    exact congrArg (V c main_v81) (h5 k)
  · show V c main_v83 (((cfg4.win 6).blk t).view.emb (ix1 q)) = V c main_v83 (ix1 (((cfg4.win 7).blk t).view.emb (ix2 p q) 1))
    exact congrArg (V c main_v83) h6

/-- An index of the output array is in point `t`'s tile iff each coordinate is in the tile's range on its axis. -/
theorem mem_tile4 (t : Fin cfg4.N) (i : S40000x128.Idx) :
    i ∈ ((cfg4.win 7).blk t).view.set ↔ ∀ a : Fin 2, win4_7.index t a * S5000x128.size a ≤ (i a).val ∧ (i a).val < win4_7.index t a * S5000x128.size a + S5000x128.size a := by
  show i ∈ ((View.whole main_v84).slice (win4_7.rect t)).set ↔ _
  rw [View.set_slice_whole, Rect.mem_set_unit]
  exact Iff.rfl

/-- Every index of the output array is in some point's tile: row `r` in tile `r / 5000`. -/
theorem cover4 (i : S40000x128.Idx) :
    ∃ t : Fin cfg4.N, (cfg4.win 7).flush t = true ∧ i ∈ ((cfg4.win 7).blk t).view.set := by
  have hi0 : (i 0).val < 40000 := (i 0).isLt
  have hi1 : (i 1).val < 128 := (i 1).isLt
  obtain ⟨t, ht⟩ := tiles4_onto ⟨(i 0).val / 5000, by omega⟩
  have q0 : win4_7.index t (0 : Fin 2) = (i 0).val / 5000 := congrFun ht 0
  have q1 : win4_7.index t (1 : Fin 2) = 0 := congrFun ht 1
  refine ⟨t, flush4_7 t, ?_⟩
  rw [mem_tile4]
  intro a
  match a with
  | ⟨0, _⟩ => show win4_7.index t (0 : Fin 2) * 5000 ≤ (i 0).val ∧ (i 0).val < win4_7.index t (0 : Fin 2) * 5000 + 5000; omega
  | ⟨1, _⟩ => show win4_7.index t (1 : Fin 2) * 128 ≤ (i 1).val ∧ (i 1).val < win4_7.index t (1 : Fin 2) * 128 + 128; omega

/-- The output array after the region is the rectified normalisation of the node array the region found, times the
    weight matrix, plus the bias. -/
theorem val4 (c : Dev nD) : (dat4 (F := Ideal) V c).arrAt 7 cfg4.N
    = Cert.Spec.lin (Cert.Spec.relu (Cert.Spec.bn (V c main_v71) (V c main_v74) (V c main_v75) (V c main_v77) (V c main_v79)))
        (V c main_v81) (V c main_v83) :=
  (dat4 V c).arrAt_eq_of_cover 7 (G4 V c) (fun t _ => flushed4_eq V c t) cover4

end Cert.KernelIdeal.KVal

end
-- ==== Proof.KFoldL0.lean ====
/-
  Layer 0 of the network, read off the run's fold from the boundary after its input's linear map to the boundary
  after its last region.

  The layer's input is an array `X` (the previous linear output, before normalisation), a scale `G` and a shift
  `Bt`; with them come the per-node sums `s` and counts `n` of the edge attributes and the two rows `src`, `dst`
  of the edge list. What the buffers hold, stage by stage:
  * the column mean and variance of `X`, then the edge row and edge bias of this layer;
  * the edge region's array `s ⊗ row + n ⊗ bias`, and its column mean and variance;
  * the neighbour and node maps' parameters, then the two linear images of `x = max (bn X) 0`;
  * the node image's statistics; the neighbour image gathered at the edges' sources and summed at their targets, and
    that aggregate's statistics; the three scales and shifts and the first update map's parameters;
  * the first update map of the clipped sum of the three normalised arrays, its statistics, the second update map's
    parameters, and the second update map of its clipped normalisation — which is `Net.layerRaw` of `x`.
  Every stage is the preceding boundary's contents under one stretch of host operations (read with
  `after_results_k`) or one region (its exit array is the region's value at the entry contents); a buffer that a
  stretch or region does not write is carried by `hs…` / `W…_of_ne`.
-/
import proofs.«426021_j89885075570707_3_alg».proof.Proof.KFoldKeep
import proofs.«426021_j89885075570707_3_alg».proof.Proof.KFoldTac
import proofs.«426021_j89885075570707_3_alg».proof.Proof.KVal1
import proofs.«426021_j89885075570707_3_alg».proof.Proof.KVal2
import proofs.«426021_j89885075570707_3_alg».proof.Proof.KVal3
import proofs.«426021_j89885075570707_3_alg».proof.Proof.KVal4

set_option maxRecDepth 16384
-- a variance stretch read back through its twenty-two operations is compared with `Chains.var` by unfolding
set_option maxHeartbeats 4000000
-- one theorem at a time: each side condition is decided by the kernel, and in parallel these pass the machine's memory
set_option Elab.async false

noncomputable section

namespace Cert.KernelIdeal.KFold

open Idealize.ShloMosaic Idealize.ShloMosaic.TcCoe Idealize.SL.Sem Cert.KernelIdeal Cert.KernelIdeal.Gen
open Cert.Chains Cert.Spec Cert.Net

variable (m : (ℓ : Loc nD τ sig) → Buf (Elt Ideal) ℓ) (ρ : Dev nD → PrngReg)

/-- What layer 0 finds: its input array, scale and shift, the per-node sums and counts, the edge list's rows, and
    the boundaries at which the buffers hold them. -/
structure In0 where
  X : Dev nD → FVec Ideal SN .f32
  G : Dev nD → FVec Ideal SF .f32
  Bt : Dev nD → FVec Ideal SF .f32
  s : Dev nD → FVec Ideal SN1 .f32
  n : Dev nD → FVec Ideal SN1 .f32
  src : Dev nD → IVec SEs 32
  dst : Dev nD → IVec SEs 32
  hX : ∀ c, W2 m ρ c (Proc.devRef .tc main_v14) = X c
  hG : ∀ c, W5 m ρ c (Proc.devRef .tc main_arg5) = G c
  hBt : ∀ c, W5 m ρ c (Proc.devRef .tc main_arg6) = Bt c
  hs : ∀ c, W5 m ρ c (Proc.devRef .tc main_v12) = s c
  hn : ∀ c, W5 m ρ c (Proc.devRef .tc main_v13) = n c
  hsrc : ∀ c, W12 m ρ c (Proc.devRef .tc main_v1) = src c
  hdst : ∀ c, W12 m ρ c (Proc.devRef .tc main_v3) = dst c

variable (I : In0 m ρ)

/-! ## The layer's arrays -/

/-- The normalised, clipped input. -/
def l0_xin (c : Dev nD) : FVec Ideal SN .f32 := Net.norm (I.X c) (I.G c) (I.Bt c)
/-- The edge branch's array. -/
def l0_ea (c : Dev nD) : FVec Ideal SN .f32 := Spec.outer (I.s c) (I.n c) (row0 (A9 m c)) (vec0 (A10 m c))
/-- The neighbour map's image. -/
def l0_hb (c : Dev nD) : FVec Ideal SN .f32 := Spec.lin (l0_xin m ρ I c) (mat0 (A11 m c)) (vec0 (A12 m c))
/-- The node map's image. -/
def l0_xn (c : Dev nD) : FVec Ideal SN .f32 := Spec.lin (l0_xin m ρ I c) (mat0 (A7 m c)) (vec0 (A8 m c))
/-- The neighbour aggregate. -/
def l0_ag (c : Dev nD) : FVec Ideal SN .f32 := Net.aggregate (I.src c) (I.dst c) (l0_hb m ρ I c)
/-- The first update map's image. -/
def l0_u (c : Dev nD) : FVec Ideal SN .f32 :=
  Spec.lin (Spec.relu (Spec.add3 (Net.bnS (l0_xn m ρ I c) (vec0 (A13 m c)) (vec0 (A14 m c)))
      (Net.bnS (l0_ag m ρ I c) (vec0 (A17 m c)) (vec0 (A18 m c))) (Net.bnS (l0_ea m ρ I c) (vec0 (A15 m c)) (vec0 (A16 m c)))))
    (mat0 (A19 m c)) (vec0 (A20 m c))
/-- The second update map's image: the layer's output before the next normalisation. -/
def l0_y (c : Dev nD) : FVec Ideal SN .f32 :=
  Spec.lin (Net.norm (l0_u m ρ I c) (vec0 (A21 m c)) (vec0 (A22 m c))) (mat0 (A23 m c)) (vec0 (A24 m c))

/-- The layer's output is `Net.layerRaw` at the layer's parameters, its edge array and its normalised input. -/
theorem l0_y_eq (c : Dev nD) :
    l0_y m ρ I c = Net.layerRaw (I.src c) (I.dst c)
      (Net.P0 (A7 m c) (A8 m c) (A11 m c) (A12 m c) (A13 m c) (A14 m c) (A15 m c) (A16 m c) (A17 m c) (A18 m c)
        (A19 m c) (A20 m c) (A21 m c) (A22 m c) (A23 m c) (A24 m c))
      (l0_ea m ρ I c) (l0_xin m ρ I c) := rfl

/-! ## The input's statistics, the edge row and bias, the edge region -/

theorem l0_mu_3 (c : Dev nD) : W3 m ρ c (Proc.devRef .tc main_v17) = Chains.mean (I.X c) := by
  have h1 := I.hX c
  show StableHlo.after hostOps1 (W2 m ρ c) (Proc.devRef .tc main_v17) = _
  generalize W2 m ρ c = V at h1 ⊢
  after_results_k
  rw [h1] <;> (generalize I.X c = X; rfl)
theorem l0_c_3 (c : Dev nD) : W3 m ρ c (Proc.devRef .tc main_c) = constantI S_ 32 0#32 := by
  show StableHlo.after hostOps1 (W2 m ρ c) (Proc.devRef .tc main_c) = _
  generalize W2 m ρ c = V
  after_results_k <;> rfl
theorem l0_x_3 (c : Dev nD) : W3 m ρ c (Proc.devRef .tc main_v14) = I.X c :=
  (hs1 m ρ c main_v14 (by decide +kernel)).trans <|
  (I.hX c)
theorem l0_var_4 (c : Dev nD) : W4 m ρ c (Proc.devRef .tc main_v18) = Chains.var (I.X c) := by
  have h1 := l0_x_3 m ρ I c
  have h2 := l0_c_3 m ρ c
  show StableHlo.after hostOps1_1 (W3 m ρ c) (Proc.devRef .tc main_v18) = _
  generalize W3 m ρ c = V at h1 h2 ⊢
  after_results_k
  rw [h1, h2] <;> (generalize I.X c = X; rfl)
theorem l0_er_5 (c : Dev nD) : W5 m ρ c (Proc.devRef .tc main_v20) = row0 (A9 m c) := by
  have h1 := a9_W4 m ρ c
  show StableHlo.after hostOps1_2 (W4 m ρ c) (Proc.devRef .tc main_v20) = _
  generalize W4 m ρ c = V at h1 ⊢
  after_results_k
  rw [h1] <;> rfl
theorem l0_eb_5 (c : Dev nD) : W5 m ρ c (Proc.devRef .tc main_v22) = vec0 (A10 m c) := by
  have h1 := a10_W4 m ρ c
  show StableHlo.after hostOps1_2 (W4 m ρ c) (Proc.devRef .tc main_v22) = _
  generalize W4 m ρ c = V at h1 ⊢
  after_results_k
  rw [h1] <;> rfl
theorem l0_ea_6 (c : Dev nD) : W6 m ρ c (Proc.devRef .tc main_v23) = l0_ea m ρ I c := by
  refine ((W6_arr m ρ c 4).trans (KVal.val1 (V5 m ρ) c)).trans ?_
  dsimp only [V5]
  rw [I.hs c,
    I.hn c,
    l0_er_5 m ρ c,
    l0_eb_5 m ρ c] <;> rfl

/-! ## The edge array's statistics, the two linear maps' parameters, the two linear images -/

theorem l0_emu_7 (c : Dev nD) : W7 m ρ c (Proc.devRef .tc main_v26) = Chains.mean (l0_ea m ρ I c) := by
  have h1 := l0_ea_6 m ρ I c
  show StableHlo.after hostOps2 (W6 m ρ c) (Proc.devRef .tc main_v26) = _
  generalize W6 m ρ c = V at h1 ⊢
  after_results_k
  rw [h1] <;> (generalize l0_ea m ρ I c = X; rfl)
theorem l0_ec_7 (c : Dev nD) : W7 m ρ c (Proc.devRef .tc main_c_6) = constantI S_ 32 0#32 := by
  show StableHlo.after hostOps2 (W6 m ρ c) (Proc.devRef .tc main_c_6) = _
  generalize W6 m ρ c = V
  after_results_k <;> rfl
theorem l0_ea_7 (c : Dev nD) : W7 m ρ c (Proc.devRef .tc main_v23) = l0_ea m ρ I c :=
  (hs2 m ρ c main_v23 (by decide +kernel)).trans <|
  (l0_ea_6 m ρ I c)
theorem l0_evar_8 (c : Dev nD) : W8 m ρ c (Proc.devRef .tc main_v27) = Chains.var (l0_ea m ρ I c) := by
  have h1 := l0_ea_7 m ρ I c
  have h2 := l0_ec_7 m ρ c
  show StableHlo.after hostOps2_1 (W7 m ρ c) (Proc.devRef .tc main_v27) = _
  generalize W7 m ρ c = V at h1 h2 ⊢
  after_results_k
  rw [h1, h2] <;> (generalize l0_ea m ρ I c = X; rfl)
theorem l0_wnb_9 (c : Dev nD) : W9 m ρ c (Proc.devRef .tc main_v29) = mat0 (A11 m c) := by
  have h1 := a11_W8 m ρ c
  show StableHlo.after hostOps2_2 (W8 m ρ c) (Proc.devRef .tc main_v29) = _
  generalize W8 m ρ c = V at h1 ⊢
  after_results_k
  rw [h1] <;> rfl
theorem l0_bnb_9 (c : Dev nD) : W9 m ρ c (Proc.devRef .tc main_v31) = vec0 (A12 m c) := by
  have h1 := a12_W8 m ρ c
  show StableHlo.after hostOps2_2 (W8 m ρ c) (Proc.devRef .tc main_v31) = _
  generalize W8 m ρ c = V at h1 ⊢
  after_results_k
  rw [h1] <;> rfl
theorem l0_wnode_9 (c : Dev nD) : W9 m ρ c (Proc.devRef .tc main_v33) = mat0 (A7 m c) := by
  have h1 := a7_W8 m ρ c
  show StableHlo.after hostOps2_2 (W8 m ρ c) (Proc.devRef .tc main_v33) = _
  generalize W8 m ρ c = V at h1 ⊢
  after_results_k
  rw [h1] <;> rfl
theorem l0_bnode_9 (c : Dev nD) : W9 m ρ c (Proc.devRef .tc main_v35) = vec0 (A8 m c) := by
  have h1 := a8_W8 m ρ c
  show StableHlo.after hostOps2_2 (W8 m ρ c) (Proc.devRef .tc main_v35) = _
  generalize W8 m ρ c = V at h1 ⊢
  after_results_k
  rw [h1] <;> rfl
theorem l0_x_9 (c : Dev nD) : W9 m ρ c (Proc.devRef .tc main_v14) = I.X c :=
  (hs2_2 m ρ c main_v14 (by decide +kernel)).trans <|
  (hs2_1 m ρ c main_v14 (by decide +kernel)).trans <|
  (hs2 m ρ c main_v14 (by decide +kernel)).trans <|
  (W6_of_ne m ρ c main_v14 (by decide +kernel)).trans <|
  (hs1_2 m ρ c main_v14 (by decide +kernel)).trans <|
  (hs1_1 m ρ c main_v14 (by decide +kernel)).trans <|
  (l0_x_3 m ρ I c)
theorem l0_mu_9 (c : Dev nD) : W9 m ρ c (Proc.devRef .tc main_v17) = Chains.mean (I.X c) :=
  (hs2_2 m ρ c main_v17 (by decide +kernel)).trans <|
  (hs2_1 m ρ c main_v17 (by decide +kernel)).trans <|
  (hs2 m ρ c main_v17 (by decide +kernel)).trans <|
  (W6_of_ne m ρ c main_v17 (by decide +kernel)).trans <|
  (hs1_2 m ρ c main_v17 (by decide +kernel)).trans <|
  (hs1_1 m ρ c main_v17 (by decide +kernel)).trans <|
  (l0_mu_3 m ρ I c)
theorem l0_var_9 (c : Dev nD) : W9 m ρ c (Proc.devRef .tc main_v18) = Chains.var (I.X c) :=
  (hs2_2 m ρ c main_v18 (by decide +kernel)).trans <|
  (hs2_1 m ρ c main_v18 (by decide +kernel)).trans <|
  (hs2 m ρ c main_v18 (by decide +kernel)).trans <|
  (W6_of_ne m ρ c main_v18 (by decide +kernel)).trans <|
  (hs1_2 m ρ c main_v18 (by decide +kernel)).trans <|
  (l0_var_4 m ρ I c)
theorem l0_g_9 (c : Dev nD) : W9 m ρ c (Proc.devRef .tc main_arg5) = I.G c :=
  (hs2_2 m ρ c main_arg5 (by decide +kernel)).trans <|
  (hs2_1 m ρ c main_arg5 (by decide +kernel)).trans <|
  (hs2 m ρ c main_arg5 (by decide +kernel)).trans <|
  (W6_of_ne m ρ c main_arg5 (by decide +kernel)).trans <|
  (I.hG c)
theorem l0_bt_9 (c : Dev nD) : W9 m ρ c (Proc.devRef .tc main_arg6) = I.Bt c :=
  (hs2_2 m ρ c main_arg6 (by decide +kernel)).trans <|
  (hs2_1 m ρ c main_arg6 (by decide +kernel)).trans <|
  (hs2 m ρ c main_arg6 (by decide +kernel)).trans <|
  (W6_of_ne m ρ c main_arg6 (by decide +kernel)).trans <|
  (I.hBt c)
theorem l0_hb_10 (c : Dev nD) : W10 m ρ c (Proc.devRef .tc main_v36_0) = l0_hb m ρ I c := by
  refine ((W10_arr m ρ c 9).trans (KVal.val2_a (V9 m ρ) c)).trans ?_
  dsimp only [V9]
  rw [l0_x_9 m ρ I c,
    l0_mu_9 m ρ I c,
    l0_var_9 m ρ I c,
    l0_g_9 m ρ I c,
    l0_bt_9 m ρ I c,
    l0_wnb_9 m ρ c,
    l0_bnb_9 m ρ c] <;> rfl
theorem l0_xn_10 (c : Dev nD) : W10 m ρ c (Proc.devRef .tc main_v36_1) = l0_xn m ρ I c := by
  refine ((W10_arr m ρ c 10).trans (KVal.val2_b (V9 m ρ) c)).trans ?_
  dsimp only [V9]
  rw [l0_x_9 m ρ I c,
    l0_mu_9 m ρ I c,
    l0_var_9 m ρ I c,
    l0_g_9 m ρ I c,
    l0_bt_9 m ρ I c,
    l0_wnode_9 m ρ c,
    l0_bnode_9 m ρ c] <;> rfl

/-! ## The node image's statistics, the neighbour aggregate and its statistics, the first update map -/

theorem l0_xmu_11 (c : Dev nD) : W11 m ρ c (Proc.devRef .tc main_v39) = Chains.mean (l0_xn m ρ I c) := by
  have h1 := l0_xn_10 m ρ I c
  show StableHlo.after hostOps3 (W10 m ρ c) (Proc.devRef .tc main_v39) = _
  generalize W10 m ρ c = V at h1 ⊢
  after_results_k
  rw [h1] <;> (generalize l0_xn m ρ I c = X; rfl)
theorem l0_xc_11 (c : Dev nD) : W11 m ρ c (Proc.devRef .tc main_c_9) = constantI S_ 32 0#32 := by
  show StableHlo.after hostOps3 (W10 m ρ c) (Proc.devRef .tc main_c_9) = _
  generalize W10 m ρ c = V
  after_results_k <;> rfl
theorem l0_xn_11 (c : Dev nD) : W11 m ρ c (Proc.devRef .tc main_v36_1) = l0_xn m ρ I c :=
  (hs3 m ρ c main_v36_1 (by decide +kernel)).trans <|
  (l0_xn_10 m ρ I c)
theorem l0_xvar_12 (c : Dev nD) : W12 m ρ c (Proc.devRef .tc main_v40) = Chains.var (l0_xn m ρ I c) := by
  have h1 := l0_xn_11 m ρ I c
  have h2 := l0_xc_11 m ρ c
  show StableHlo.after hostOps3_1 (W11 m ρ c) (Proc.devRef .tc main_v40) = _
  generalize W11 m ρ c = V at h1 h2 ⊢
  after_results_k
  rw [h1, h2] <;> (generalize l0_xn m ρ I c = X; rfl)
theorem l0_hb_12 (c : Dev nD) : W12 m ρ c (Proc.devRef .tc main_v36_0) = l0_hb m ρ I c :=
  (hs3_1 m ρ c main_v36_0 (by decide +kernel)).trans <|
  (hs3 m ρ c main_v36_0 (by decide +kernel)).trans <|
  (l0_hb_10 m ρ I c)
theorem l0_ag_13 (c : Dev nD) : W13 m ρ c (Proc.devRef .tc main_v50) = l0_ag m ρ I c := by
  have h1 := I.hsrc c
  have h2 := I.hdst c
  have h3 := l0_hb_12 m ρ I c
  show StableHlo.after hostOps3_2 (W12 m ρ c) (Proc.devRef .tc main_v50) = _
  generalize W12 m ρ c = V at h1 h2 h3 ⊢
  after_results_k
  rw [h1, h2, h3] <;> rfl
theorem l0_amu_13 (c : Dev nD) : W13 m ρ c (Proc.devRef .tc main_v53) = Chains.mean (l0_ag m ρ I c) := by
  have h1 := I.hsrc c
  have h2 := I.hdst c
  have h3 := l0_hb_12 m ρ I c
  show StableHlo.after hostOps3_2 (W12 m ρ c) (Proc.devRef .tc main_v53) = _
  generalize W12 m ρ c = V at h1 h2 h3 ⊢
  after_results_k
  rw [h1, h2, h3] <;> rfl
theorem l0_ac_13 (c : Dev nD) : W13 m ρ c (Proc.devRef .tc main_c_15) = constantI S_ 32 0#32 := by
  show StableHlo.after hostOps3_2 (W12 m ρ c) (Proc.devRef .tc main_c_15) = _
  generalize W12 m ρ c = V
  after_results_k <;> rfl
theorem l0_avar_14 (c : Dev nD) : W14 m ρ c (Proc.devRef .tc main_v54) = Chains.var (l0_ag m ρ I c) := by
  have h1 := l0_ag_13 m ρ I c
  have h2 := l0_ac_13 m ρ c
  show StableHlo.after hostOps3_3 (W13 m ρ c) (Proc.devRef .tc main_v54) = _
  generalize W13 m ρ c = V at h1 h2 ⊢
  after_results_k
  rw [h1, h2] <;> (generalize l0_ag m ρ I c = X; rfl)
theorem l0_gn_15 (c : Dev nD) : W15 m ρ c (Proc.devRef .tc main_v56) = vec0 (A13 m c) := by
  have h1 := a13_W14 m ρ c
  show StableHlo.after hostOps3_4 (W14 m ρ c) (Proc.devRef .tc main_v56) = _
  generalize W14 m ρ c = V at h1 ⊢
  after_results_k
  rw [h1] <;> rfl
theorem l0_btn_15 (c : Dev nD) : W15 m ρ c (Proc.devRef .tc main_v58) = vec0 (A14 m c) := by
  have h1 := a14_W14 m ρ c
  show StableHlo.after hostOps3_4 (W14 m ρ c) (Proc.devRef .tc main_v58) = _
  generalize W14 m ρ c = V at h1 ⊢
  after_results_k
  rw [h1] <;> rfl
theorem l0_gnb_15 (c : Dev nD) : W15 m ρ c (Proc.devRef .tc main_v60) = vec0 (A17 m c) := by
  have h1 := a17_W14 m ρ c
  show StableHlo.after hostOps3_4 (W14 m ρ c) (Proc.devRef .tc main_v60) = _
  generalize W14 m ρ c = V at h1 ⊢
  after_results_k
  rw [h1] <;> rfl
theorem l0_btnb_15 (c : Dev nD) : W15 m ρ c (Proc.devRef .tc main_v62) = vec0 (A18 m c) := by
  have h1 := a18_W14 m ρ c
  show StableHlo.after hostOps3_4 (W14 m ρ c) (Proc.devRef .tc main_v62) = _
  generalize W14 m ρ c = V at h1 ⊢
  after_results_k
  rw [h1] <;> rfl
theorem l0_ge_15 (c : Dev nD) : W15 m ρ c (Proc.devRef .tc main_v64) = vec0 (A15 m c) := by
  have h1 := a15_W14 m ρ c
  show StableHlo.after hostOps3_4 (W14 m ρ c) (Proc.devRef .tc main_v64) = _
  generalize W14 m ρ c = V at h1 ⊢
  after_results_k
  rw [h1] <;> rfl
theorem l0_bte_15 (c : Dev nD) : W15 m ρ c (Proc.devRef .tc main_v66) = vec0 (A16 m c) := by
  have h1 := a16_W14 m ρ c
  show StableHlo.after hostOps3_4 (W14 m ρ c) (Proc.devRef .tc main_v66) = _
  generalize W14 m ρ c = V at h1 ⊢
  after_results_k
  rw [h1] <;> rfl
theorem l0_bm1_15 (c : Dev nD) : W15 m ρ c (Proc.devRef .tc main_v70) = vec0 (A20 m c) := by
  have h1 := a20_W14 m ρ c
  show StableHlo.after hostOps3_4 (W14 m ρ c) (Proc.devRef .tc main_v70) = _
  generalize W14 m ρ c = V at h1 ⊢
  after_results_k
  rw [h1] <;> rfl
theorem l0_wm1_15 (c : Dev nD) : W15 m ρ c (Proc.devRef .tc main_v68) = mat0 (A19 m c) := by
  have h1 := a19_W14 m ρ c
  show StableHlo.after hostOps3_4 (W14 m ρ c) (Proc.devRef .tc main_v68) = _
  generalize W14 m ρ c = V at h1 ⊢
  after_results_k
  rw [h1] <;> rfl
theorem l0_xn_15 (c : Dev nD) : W15 m ρ c (Proc.devRef .tc main_v36_1) = l0_xn m ρ I c :=
  (hs3_4 m ρ c main_v36_1 (by decide +kernel)).trans <|
  (hs3_3 m ρ c main_v36_1 (by decide +kernel)).trans <|
  (hs3_2 m ρ c main_v36_1 (by decide +kernel)).trans <|
  (hs3_1 m ρ c main_v36_1 (by decide +kernel)).trans <|
  (l0_xn_11 m ρ I c)
theorem l0_xmu_15 (c : Dev nD) : W15 m ρ c (Proc.devRef .tc main_v39) = Chains.mean (l0_xn m ρ I c) :=
  (hs3_4 m ρ c main_v39 (by decide +kernel)).trans <|
  (hs3_3 m ρ c main_v39 (by decide +kernel)).trans <|
  (hs3_2 m ρ c main_v39 (by decide +kernel)).trans <|
  (hs3_1 m ρ c main_v39 (by decide +kernel)).trans <|
  (l0_xmu_11 m ρ I c)
theorem l0_xvar_15 (c : Dev nD) : W15 m ρ c (Proc.devRef .tc main_v40) = Chains.var (l0_xn m ρ I c) :=
  (hs3_4 m ρ c main_v40 (by decide +kernel)).trans <|
  (hs3_3 m ρ c main_v40 (by decide +kernel)).trans <|
  (hs3_2 m ρ c main_v40 (by decide +kernel)).trans <|
  (l0_xvar_12 m ρ I c)
theorem l0_ag_15 (c : Dev nD) : W15 m ρ c (Proc.devRef .tc main_v50) = l0_ag m ρ I c :=
  (hs3_4 m ρ c main_v50 (by decide +kernel)).trans <|
  (hs3_3 m ρ c main_v50 (by decide +kernel)).trans <|
  (l0_ag_13 m ρ I c)
theorem l0_amu_15 (c : Dev nD) : W15 m ρ c (Proc.devRef .tc main_v53) = Chains.mean (l0_ag m ρ I c) :=
  (hs3_4 m ρ c main_v53 (by decide +kernel)).trans <|
  (hs3_3 m ρ c main_v53 (by decide +kernel)).trans <|
  (l0_amu_13 m ρ I c)
theorem l0_avar_15 (c : Dev nD) : W15 m ρ c (Proc.devRef .tc main_v54) = Chains.var (l0_ag m ρ I c) :=
  (hs3_4 m ρ c main_v54 (by decide +kernel)).trans <|
  (l0_avar_14 m ρ I c)
theorem l0_ea_15 (c : Dev nD) : W15 m ρ c (Proc.devRef .tc main_v23) = l0_ea m ρ I c :=
  (hs3_4 m ρ c main_v23 (by decide +kernel)).trans <|
  (hs3_3 m ρ c main_v23 (by decide +kernel)).trans <|
  (hs3_2 m ρ c main_v23 (by decide +kernel)).trans <|
  (hs3_1 m ρ c main_v23 (by decide +kernel)).trans <|
  (hs3 m ρ c main_v23 (by decide +kernel)).trans <|
  (W10_of_ne m ρ c main_v23 (by decide +kernel)).trans <|
  (hs2_2 m ρ c main_v23 (by decide +kernel)).trans <|
  (hs2_1 m ρ c main_v23 (by decide +kernel)).trans <|
  (l0_ea_7 m ρ I c)
theorem l0_emu_15 (c : Dev nD) : W15 m ρ c (Proc.devRef .tc main_v26) = Chains.mean (l0_ea m ρ I c) :=
  (hs3_4 m ρ c main_v26 (by decide +kernel)).trans <|
  (hs3_3 m ρ c main_v26 (by decide +kernel)).trans <|
  (hs3_2 m ρ c main_v26 (by decide +kernel)).trans <|
  (hs3_1 m ρ c main_v26 (by decide +kernel)).trans <|
  (hs3 m ρ c main_v26 (by decide +kernel)).trans <|
  (W10_of_ne m ρ c main_v26 (by decide +kernel)).trans <|
  (hs2_2 m ρ c main_v26 (by decide +kernel)).trans <|
  (hs2_1 m ρ c main_v26 (by decide +kernel)).trans <|
  (l0_emu_7 m ρ I c)
theorem l0_evar_15 (c : Dev nD) : W15 m ρ c (Proc.devRef .tc main_v27) = Chains.var (l0_ea m ρ I c) :=
  (hs3_4 m ρ c main_v27 (by decide +kernel)).trans <|
  (hs3_3 m ρ c main_v27 (by decide +kernel)).trans <|
  (hs3_2 m ρ c main_v27 (by decide +kernel)).trans <|
  (hs3_1 m ρ c main_v27 (by decide +kernel)).trans <|
  (hs3 m ρ c main_v27 (by decide +kernel)).trans <|
  (W10_of_ne m ρ c main_v27 (by decide +kernel)).trans <|
  (hs2_2 m ρ c main_v27 (by decide +kernel)).trans <|
  (l0_evar_8 m ρ I c)
theorem l0_u_16 (c : Dev nD) : W16 m ρ c (Proc.devRef .tc main_v71) = l0_u m ρ I c := by
  refine ((W16_arr m ρ c 17).trans (KVal.val3 (V15 m ρ) c)).trans ?_
  dsimp only [V15]
  rw [l0_xn_15 m ρ I c,
    l0_xmu_15 m ρ I c,
    l0_xvar_15 m ρ I c,
    l0_gn_15 m ρ c,
    l0_btn_15 m ρ c,
    l0_ag_15 m ρ I c,
    l0_amu_15 m ρ I c,
    l0_avar_15 m ρ I c,
    l0_gnb_15 m ρ c,
    l0_btnb_15 m ρ c,
    l0_ea_15 m ρ I c,
    l0_emu_15 m ρ I c,
    l0_evar_15 m ρ I c,
    l0_ge_15 m ρ c,
    l0_bte_15 m ρ c,
    l0_wm1_15 m ρ c,
    l0_bm1_15 m ρ c] <;> rfl

/-! ## The first update map's statistics, the second update map -/

theorem l0_umu_17 (c : Dev nD) : W17 m ρ c (Proc.devRef .tc main_v74) = Chains.mean (l0_u m ρ I c) := by
  have h1 := l0_u_16 m ρ I c
  show StableHlo.after hostOps4 (W16 m ρ c) (Proc.devRef .tc main_v74) = _
  generalize W16 m ρ c = V at h1 ⊢
  after_results_k
  rw [h1] <;> (generalize l0_u m ρ I c = X; rfl)
theorem l0_uc_17 (c : Dev nD) : W17 m ρ c (Proc.devRef .tc main_c_18) = constantI S_ 32 0#32 := by
  show StableHlo.after hostOps4 (W16 m ρ c) (Proc.devRef .tc main_c_18) = _
  generalize W16 m ρ c = V
  after_results_k <;> rfl
theorem l0_u_17 (c : Dev nD) : W17 m ρ c (Proc.devRef .tc main_v71) = l0_u m ρ I c :=
  (hs4 m ρ c main_v71 (by decide +kernel)).trans <|
  (l0_u_16 m ρ I c)
theorem l0_uvar_18 (c : Dev nD) : W18 m ρ c (Proc.devRef .tc main_v75) = Chains.var (l0_u m ρ I c) := by
  have h1 := l0_u_17 m ρ I c
  have h2 := l0_uc_17 m ρ c
  show StableHlo.after hostOps4_1 (W17 m ρ c) (Proc.devRef .tc main_v75) = _
  generalize W17 m ρ c = V at h1 h2 ⊢
  after_results_k
  rw [h1, h2] <;> (generalize l0_u m ρ I c = X; rfl)
theorem l0_gm1_19 (c : Dev nD) : W19 m ρ c (Proc.devRef .tc main_v77) = vec0 (A21 m c) := by
  have h1 := a21_W18 m ρ c
  show StableHlo.after hostOps4_2 (W18 m ρ c) (Proc.devRef .tc main_v77) = _
  generalize W18 m ρ c = V at h1 ⊢
  after_results_k
  rw [h1] <;> rfl
theorem l0_btm1_19 (c : Dev nD) : W19 m ρ c (Proc.devRef .tc main_v79) = vec0 (A22 m c) := by
  have h1 := a22_W18 m ρ c
  show StableHlo.after hostOps4_2 (W18 m ρ c) (Proc.devRef .tc main_v79) = _
  generalize W18 m ρ c = V at h1 ⊢
  after_results_k
  rw [h1] <;> rfl
theorem l0_wm2_19 (c : Dev nD) : W19 m ρ c (Proc.devRef .tc main_v81) = mat0 (A23 m c) := by
  have h1 := a23_W18 m ρ c
  show StableHlo.after hostOps4_2 (W18 m ρ c) (Proc.devRef .tc main_v81) = _
  generalize W18 m ρ c = V at h1 ⊢
  after_results_k
  rw [h1] <;> rfl
theorem l0_bm2_19 (c : Dev nD) : W19 m ρ c (Proc.devRef .tc main_v83) = vec0 (A24 m c) := by
  have h1 := a24_W18 m ρ c
  show StableHlo.after hostOps4_2 (W18 m ρ c) (Proc.devRef .tc main_v83) = _
  generalize W18 m ρ c = V at h1 ⊢
  after_results_k
  rw [h1] <;> rfl
theorem l0_u_19 (c : Dev nD) : W19 m ρ c (Proc.devRef .tc main_v71) = l0_u m ρ I c :=
  (hs4_2 m ρ c main_v71 (by decide +kernel)).trans <|
  (hs4_1 m ρ c main_v71 (by decide +kernel)).trans <|
  (l0_u_17 m ρ I c)
theorem l0_umu_19 (c : Dev nD) : W19 m ρ c (Proc.devRef .tc main_v74) = Chains.mean (l0_u m ρ I c) :=
  (hs4_2 m ρ c main_v74 (by decide +kernel)).trans <|
  (hs4_1 m ρ c main_v74 (by decide +kernel)).trans <|
  (l0_umu_17 m ρ I c)
theorem l0_uvar_19 (c : Dev nD) : W19 m ρ c (Proc.devRef .tc main_v75) = Chains.var (l0_u m ρ I c) :=
  (hs4_2 m ρ c main_v75 (by decide +kernel)).trans <|
  (l0_uvar_18 m ρ I c)
/-- The layer's last region leaves the second update map's image. -/
theorem l0_out (c : Dev nD) : W20 m ρ c (Proc.devRef .tc main_v84) = l0_y m ρ I c := by
  refine ((W20_arr m ρ c 7).trans (KVal.val4 (V19 m ρ) c)).trans ?_
  dsimp only [V19]
  rw [l0_u_19 m ρ I c,
    l0_umu_19 m ρ I c,
    l0_uvar_19 m ρ I c,
    l0_gm1_19 m ρ c,
    l0_btm1_19 m ρ c,
    l0_wm2_19 m ρ c,
    l0_bm2_19 m ρ c] <;> rfl

end Cert.KernelIdeal.KFold

end
-- ==== Proof.KVal5.lean ====
/-
  A rank-one combination of two node columns, read off the node-tiled kernel (region 5).

  The region walks the nodes in eight blocks of 5000 rows. At block `t` the body takes rows
  `5000 t … 5000 t + 4999` of two one-column node arrays `s` and `n`, the whole row `w` and the whole vector `b`,
  and writes `s p * w q + n p * b q` back as rows `5000 t … 5000 t + 4999` of the output array. The array the
  region leaves is `Spec.outer s n w b` of the arrays it finds.
-/
import proofs.«426021_j89885075570707_3_alg».proof.Proof.Gen.KernelIdeal.Frame
import proofs.«426021_j89885075570707_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- The zero offsets of a rank-2 access, however spelt. -/
private theorem zerosTwo : (![0, 0] : Fin 2 → Nat) = fun _ => 0 := funext fun a => by fin_cases a <;> rfl

/-- The zero offset of a rank-1 access. -/
private theorem zerosOne : (![0] : Fin 1 → Nat) = fun _ => 0 := funext fun a => by fin_cases a; rfl

/-- An `[a, 1]` column broadcast to `[a, b]` reads, at `(p, c)`, the column's entry at row `p`. -/
private theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry `(p, q)` of what the body stores: `s p * w q + n p * b q` of its four blocks. -/
theorem pay5_apply (x0 x1 : Vec Ideal S5000x1 .f32) (x2 : Vec Ideal S1x128 .f32) (x3 : Vec Ideal S128 .f32) (p : Fin 5000) (q : Fin 128) :
    k5_pay1 (F := Ideal) x0 x1 x2 x3 (ix2 p q) = Cert.Spec.outerE x0 x1 x2 x3 p q := by
  unfold k5_pay1
  rw [addf_apply, mulf_apply, mulf_apply]
  simp only [shapeCast_self]
  unfold Cert.Spec.outerE
  refine congrArg₂ (· + ·) (congrArg₂ (· * ·) ?_ ?_) (congrArg₂ (· * ·) ?_ ?_)
  · exact broadcastTo_col_apply x0 _ p q
  · exact broadcastTo_1b_ab_apply x2 _ p q
  · exact broadcastTo_col_apply x1 _ p q
  · exact (broadcastTo_1b_ab_apply _ _ p q).trans (shapeCast_a_1a_apply x3 _ 0 q)

/-- The block indices over the grid: the two column blocks and the output block are block `t` of their arrays' rows;
    the row and the vector are their arrays whole at every point. -/
theorem blocks5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = t.val ∧ win5_4.index t (1 : Fin 2) = 0 :=
  (by decide +kernel : ∀ t : Fin grid5.N, _)

/-- The first column's block at point `t` is rows `5000 t … 5000 t + 4999` of the first column array. -/
theorem colS5_apply (c : Dev nD) (t : Fin cfg5.N) (p : Fin 5000) (u : Fin 1) (r : Fin 40000) (hr : r.val = t.val * 5000 + p.val) :
    (iblk5 V c 0 t : Vec Ideal S5000x1 .f32) (ix2 p u) = (V c main_v12 : Vec Ideal S40000x1 .f32) (ix2 r u) := by
  obtain ⟨e0, e1, -⟩ := blocks5 t
  unfold iblk5
  rw [View.read_apply]
  show V c main_v12 _ = V c main_v12 _
  congr 1
  funext a
  apply Fin.ext
  match a with
  | ⟨0, _⟩ => show win5_0.index t (0 : Fin 2) * 5000 + 1 * p.val = r.val; omega
  | ⟨1, _⟩ => show win5_0.index t (1 : Fin 2) * 1 + 1 * u.val = u.val; omega

/-- The second column's block at point `t` is rows `5000 t … 5000 t + 4999` of the second column array. -/
theorem colN5_apply (c : Dev nD) (t : Fin cfg5.N) (p : Fin 5000) (u : Fin 1) (r : Fin 40000) (hr : r.val = t.val * 5000 + p.val) :
    (iblk5 V c 1 t : Vec Ideal S5000x1 .f32) (ix2 p u) = (V c main_v13 : Vec Ideal S40000x1 .f32) (ix2 r u) := by
  obtain ⟨-, -, e0, e1, -⟩ := blocks5 t
  unfold iblk5
  rw [View.read_apply]
  show V c main_v13 _ = V c main_v13 _
  congr 1
  funext a
  apply Fin.ext
  match a with
  | ⟨0, _⟩ => show win5_1.index t (0 : Fin 2) * 5000 + 1 * p.val = r.val; omega
  | ⟨1, _⟩ => show win5_1.index t (1 : Fin 2) * 1 + 1 * u.val = u.val; omega

/-- The row's block at every point is the row. -/
theorem row5_apply (c : Dev nD) (t : Fin cfg5.N) (u : Fin 1) (q : Fin 128) :
    (iblk5 V c 2 t : Vec Ideal S1x128 .f32) (ix2 u q) = (V c main_v94 : Vec Ideal S1x128 .f32) (ix2 u q) := by
  obtain ⟨-, -, -, -, e0, e1, -⟩ := blocks5 t
  unfold iblk5
  rw [View.read_apply]
  show V c main_v94 _ = V c main_v94 _
  congr 1
  funext a
  apply Fin.ext
  match a with
  | ⟨0, _⟩ => show win5_2.index t (0 : Fin 2) * 1 + 1 * u.val = u.val; omega
  | ⟨1, _⟩ => show win5_2.index t (1 : Fin 2) * 128 + 1 * q.val = q.val; omega

/-- The vector's block at every point is the vector. -/
theorem vec5_apply (c : Dev nD) (t : Fin cfg5.N) (q : Fin 128) :
    (iblk5 V c 3 t : Vec Ideal S128 .f32) (ix1 q) = (V c main_v96 : Vec Ideal S128 .f32) (ix1 q) := by
  obtain ⟨-, -, -, -, -, -, e0, -⟩ := blocks5 t
  unfold iblk5
  rw [View.read_apply]
  show V c main_v96 _ = V c main_v96 _
  congr 1
  funext a
  apply Fin.ext
  match a with
  | ⟨0, _⟩ => show win5_3.index t (0 : Fin 1) * 128 + 1 * q.val = q.val; omega

/-- Entry `(p, q)` of the output block at point `t` sits at row `5000 t + p`, column `q` of the output array. -/
theorem outIdx5 (t : Fin cfg5.N) (p : Fin 5000) (q : Fin 128) (r : Fin 40000) (hr : r.val = t.val * 5000 + p.val) :
    ((cfg5.win 4).blk t).view.emb (ix2 p q : S5000x128.Idx) = (ix2 r q : S40000x128.Idx) := by
  obtain ⟨-, -, -, -, -, -, -, e0, e1⟩ := blocks5 t
  funext a
  apply Fin.ext
  match a with
  | ⟨0, _⟩ => show win5_4.index t (0 : Fin 2) * 5000 + 1 * p.val = r.val; omega
  | ⟨1, _⟩ => show win5_4.index t (1 : Fin 2) * 128 + 1 * q.val = q.val; omega

/-- What point `t` writes back is block `t` of the rank-one combination of the arrays the region finds. -/
theorem flushed5 (c : Dev nD) (t : Fin cfg5.N) :
    (dat5 (F := Ideal) V c).flushed 4 t
      = ((cfg5.win 4).blk t).view.read (Elt Ideal)
          (Cert.Spec.outer (V c main_v12) (V c main_v13) (V c main_v94) (V c main_v96)) := by
  show (cfg5.win 4).cut (grid5.coords t) ((dat5 V c).after 4 t) = _
  rw [after5_4]
  unfold out5_4
  rw [View.canon_unit_zero zerosTwo]
  simp only [View.ld_unit_zero (S := S5000x1) zerosTwo, View.ld_unit_zero (S := S1x128) zerosTwo,
    View.ld_unit_zero (S := S128) zerosOne]
  refine funext fun (j : S5000x128.Idx) => ?_
  obtain ⟨p, q, rfl⟩ : ∃ (p : Fin 5000) (q : Fin 128), j = ix2 p q := ⟨j 0, j 1, eq_ix2 j⟩
  have ht : t.val < 8 := t.isLt
  have hr : t.val * 5000 + p.val < 40000 := by have := p.isLt; omega
  refine (pay5_apply (iblk5 V c 0 t) (iblk5 V c 1 t) (iblk5 V c 2 t) (iblk5 V c 3 t) p q).trans ?_
  show _ = Cert.Spec.outer (V c main_v12) (V c main_v13) (V c main_v94) (V c main_v96)
    (((cfg5.win 4).blk t).view.emb (ix2 p q : S5000x128.Idx))
  rw [outIdx5 t p q ⟨t.val * 5000 + p.val, hr⟩ rfl, Cert.Spec.outer_apply]
  unfold Cert.Spec.outerE
  exact congrArg₂ (· + ·)
    (congrArg₂ (· * ·) (colS5_apply V c t p 0 ⟨t.val * 5000 + p.val, hr⟩ rfl) (row5_apply V c t 0 q))
    (congrArg₂ (· * ·) (colN5_apply V c t p 0 ⟨t.val * 5000 + p.val, hr⟩ rfl) (vec5_apply V c t q))

/-- An entry of the output array is in point `t`'s block iff its row is one of `5000 t … 5000 t + 4999`. -/
theorem mem_blk5 (t : Fin cfg5.N) (i : S40000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v97).slice (win5_4.rect t)).set ↔ _
  rw [View.set_slice_whole, Rect.mem_set_unit]
  exact Iff.rfl

/-- Every entry of the output array is in the block of the point its row's quotient by 5000 names. -/
theorem cover5 (i : S40000x128.Idx) : ∃ t : Fin cfg5.N, (cfg5.win 4).flush t = true ∧ i ∈ ((cfg5.win 4).blk t).view.set := by
  have hi0 : (i 0).val < 40000 := (i 0).isLt
  have hi1 : (i 1).val < 128 := (i 1).isLt
  have hN : cfg5.N = 8 := N_5
  obtain ⟨t, ht⟩ : ∃ t : Fin cfg5.N, t.val = (i 0).val / 5000 := ⟨⟨(i 0).val / 5000, by rw [hN]; omega⟩, rfl⟩
  obtain ⟨-, -, -, -, -, -, -, e0, e1⟩ := blocks5 t
  refine ⟨t, flush5_4 t, ?_⟩
  rw [mem_blk5]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

/-- THE ARRAY region 5 leaves: the rank-one combination `s ⊗ w + n ⊗ b` of the two columns, the row and the vector it finds. -/
theorem val5 (c : Dev nD) :
    (dat5 (F := Ideal) V c).arrAt 4 cfg5.N
      = Cert.Spec.outer (V c main_v12) (V c main_v13) (V c main_v94) (V c main_v96) :=
  (dat5 (F := Ideal) V c).arrAt_eq_of_cover 4 _ (fun t _ => flushed5 V c t) cover5

end Cert.KernelIdeal.KVal

end
-- ==== Proof.KVal6.lean ====
import proofs.«426021_j89885075570707_3_alg».proof.Proof.Gen.KernelIdeal.Frame
import proofs.«426021_j89885075570707_3_alg».proof.Proof.Spec
import proofs.«426021_j89885075570707_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

/-!
  Region 6: a batch normalisation with given column statistics, a rectification, and two matrix products
  with bias rows, over 40000 nodes in eight blocks of 5000 rows.

  Each of the two result arrays is, entry by entry, `x ↦ relu (bn x) · W + b` of the node array, the four
  statistics rows, and its own weight matrix and bias row.  First the block's arithmetic is read at an entry
  `(p, q)`; then block `t` of the result is rows `5000·t … 5000·t + 4999` of that function of the whole
  arrays; the eight blocks cover the 40000 rows.
-/

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen
open Idealize.ShloMosaic.Pipeline (Dat Cfg Window)

/-! ## The block's arithmetic at an entry -/

/-- A row `b` laid over every row of a block: entry `(p, q)` is `b q`. -/
theorem rowcast6_apply (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

/-- The block's products contract the left operand's columns with the right operand's rows. -/
theorem dot6_eq : dot_S5000x128_S128x128_S5000x128_1_0_0_1_n_n = DotDims.plain 5000 128 128 := rfl

/-- The normalised and rectified block at an entry. -/
theorem pay6_2_apply (x0 : Vec Ideal S5000x128 .f32) (x1 x2 x3 x4 : Vec Ideal S128 .f32) (p : Fin 5000) (q : Fin 128) :
    k6_pay2 (F := Ideal) x0 x1 x2 x3 x4 (ix2 p q) = Cert.Spec.relu (Cert.Spec.bn x0 x1 x2 x3 x4) (ix2 p q) := by
  unfold k6_pay2
  simp only [shapeCast_self]
  rw [truncf_apply, maximumf_apply, addf_apply, mulf_apply, mulf_apply, subf_apply, rowcast6_apply, rowcast6_apply,
    rowcast6_apply, rowcast6_apply]
  rfl

/-- The first product plus its bias row at an entry. -/
theorem pay6_4_apply (x0 : Vec Ideal S5000x128 .f32) (x1 x2 x3 x4 : Vec Ideal S128 .f32) (W : Vec Ideal S128x128 .f32)
    (b : Vec Ideal S128 .f32) (p : Fin 5000) (q : Fin 128) :
    k6_pay4 (F := Ideal) x0 x1 x2 x3 x4 W b (ix2 p q)
      = Cert.Spec.lin (Cert.Spec.relu (Cert.Spec.bn x0 x1 x2 x3 x4)) W b (ix2 p q) := by
  unfold k6_pay4
  simp only [shapeCast_self]
  rw [addf_apply, rowcast6_apply, dot6_eq]
  refine congrArg (· + b (ix1 q)) ?_
  refine (Cert.Lib.PlainDot.matmul_zero_apply none _ _ p q).trans ?_
  refine Finset.sum_congr rfl fun k _ => ?_
  rw [pay6_2_apply, truncf_apply]

/-- The second product plus its bias row at an entry. -/
theorem pay6_1_apply (x0 : Vec Ideal S5000x128 .f32) (x1 x2 x3 x4 : Vec Ideal S128 .f32) (W : Vec Ideal S128x128 .f32)
    (b : Vec Ideal S128 .f32) (p : Fin 5000) (q : Fin 128) :
    k6_pay1 (F := Ideal) (k6_pay2 x0 x1 x2 x3 x4) (k6_pay3 W) (constant S5000x128 .f32 0x00000000#32) b (ix2 p q)
      = Cert.Spec.lin (Cert.Spec.relu (Cert.Spec.bn x0 x1 x2 x3 x4)) W b (ix2 p q) := by
  unfold k6_pay1 k6_pay3
  simp only [shapeCast_self]
  rw [addf_apply, rowcast6_apply, dot6_eq]
  refine congrArg (· + b (ix1 q)) ?_
  refine (Cert.Lib.PlainDot.matmul_zero_apply none _ _ p q).trans ?_
  refine Finset.sum_congr rfl fun k _ => ?_
  rw [pay6_2_apply, truncf_apply]

/-! ## A row of the layer depends on the same row of the node array only -/

/-- If row `p` of `X` is row `P` of `A`, then row `p` of the layer of `X` is row `P` of the layer of `A`. -/
theorem lin6_rows (X : FVec Ideal ⟨2, ![5000, 128]⟩ .f32) (A : FVec Ideal ⟨2, ![40000, 128]⟩ .f32)
    (μ v g β : FVec Ideal ⟨1, ![128]⟩ .f32) (W : FVec Ideal ⟨2, ![128, 128]⟩ .f32) (b : FVec Ideal ⟨1, ![128]⟩ .f32)
    (p : Fin 5000) (P : Fin 40000) (q : Fin 128) (h : ∀ k : Fin 128, X (ix2 p k) = A (ix2 P k)) :
    Cert.Spec.lin (Cert.Spec.relu (Cert.Spec.bn X μ v g β)) W b (ix2 p q)
      = Cert.Spec.lin (Cert.Spec.relu (Cert.Spec.bn A μ v g β)) W b (ix2 P q) := by
  rw [Cert.Spec.lin_apply, Cert.Spec.lin_apply]
  unfold Cert.Spec.linE
  refine congrArg (· + b (ix1 q)) (Finset.sum_congr rfl fun k _ => ?_)
  rw [Cert.Spec.relu_apply, Cert.Spec.relu_apply, Cert.Spec.bn_apply, Cert.Spec.bn_apply]
  unfold Cert.Spec.bnE
  rw [h k]

/-! ## The blocks the grid's points read and write -/

theorem zeros1_6 : (![0] : Fin 1 → Nat) = fun _ => 0 := funext fun a => by fin_cases a; rfl

theorem zeros2_6 : (![0, 0] : Fin 2 → Nat) = fun _ => 0 := funext fun a => by fin_cases a <;> rfl

/-- The block indices over the grid: the node array's block and both results' blocks move together along the
    rows and sit at column block 0; every row of statistics, every weight matrix and every bias row is its one
    block at every point. -/
theorem idx6 : ∀ t : Fin cfg6.N,
    win6_0.index t (0 : Fin 2) = win6_9.index t (0 : Fin 2) ∧ win6_0.index t (1 : Fin 2) = 0
    ∧ win6_10.index t (0 : Fin 2) = win6_9.index t (0 : Fin 2) ∧ win6_10.index t (1 : Fin 2) = 0
    ∧ win6_9.index t (1 : Fin 2) = 0 ∧ win6_9.index t (0 : Fin 2) ≤ 7
    ∧ win6_1.index t (0 : Fin 1) = 0 ∧ win6_2.index t (0 : Fin 1) = 0 ∧ win6_3.index t (0 : Fin 1) = 0
    ∧ win6_4.index t (0 : Fin 1) = 0 ∧ win6_5.index t (0 : Fin 2) = 0 ∧ win6_5.index t (1 : Fin 2) = 0
    ∧ win6_6.index t (0 : Fin 1) = 0 ∧ win6_7.index t (0 : Fin 2) = 0 ∧ win6_7.index t (1 : Fin 2) = 0
    ∧ win6_8.index t (0 : Fin 1) = 0 :=
  (by decide +kernel : ∀ t : Fin grid6.N, _)

/-- Every one of the eight row blocks is some point's, for either result. -/
theorem onto6_9 : ∀ r : Fin 8, ∃ t : Fin cfg6.N, win6_9.index t = ![r.val, 0] :=
  (by decide +kernel : ∀ r : Fin 8, ∃ t : Fin grid6.N, win6_9.index t = ![r.val, 0])

theorem onto6_10 : ∀ r : Fin 8, ∃ t : Fin cfg6.N, win6_10.index t = ![r.val, 0] :=
  (by decide +kernel : ∀ r : Fin 8, ∃ t : Fin grid6.N, win6_10.index t = ![r.val, 0])

/-- A block `X` whose row `p` is row `5000·t + p` of `G`, written back at point `t`, is block `t` of `G`
    (first result). -/
theorem rows6_9 (t : Fin cfg6.N) (X : Vec Ideal S5000x128 .f32) (G : Vec Ideal S40000x128 .f32)
    (h : ∀ (p : Fin 5000) (q : Fin 128) (P : Fin 40000), P.val = win6_9.index t (0 : Fin 2) * 5000 + p.val →
      X (ix2 p q) = G (ix2 P q)) :
    (cfg6.win 9).cut (grid6.coords t) X = ((cfg6.win 9).blk t).view.read (Elt Ideal) G := by
  obtain ⟨-, -, -, -, e9, l9, -⟩ := idx6 t
  funext j
  have hp : (j 0).val < 5000 := (j 0).isLt
  have hq : (j 1).val < 128 := (j 1).isLt
  have hP : win6_9.index t (0 : Fin 2) * 5000 + (j 0).val < 40000 := by omega
  show X ((cfg6.win 9).xinj (grid6.coords t) j) = G (((cfg6.win 9).blk t).view.emb j)
  have hj : (cfg6.win 9).xinj (grid6.coords t) j = ix2 (⟨(j 0).val, hp⟩ : Fin 5000) (⟨(j 1).val, hq⟩ : Fin 128) :=
    funext fun a => by match a with | ⟨0, _⟩ => rfl | ⟨1, _⟩ => rfl
  have he : ((cfg6.win 9).blk t).view.emb j
      = ix2 (⟨win6_9.index t (0 : Fin 2) * 5000 + (j 0).val, hP⟩ : Fin 40000) (⟨(j 1).val, hq⟩ : Fin 128) :=
    funext fun a => Fin.ext (by
      match a with
      | ⟨0, _⟩ => show win6_9.index t (0 : Fin 2) * 5000 + 1 * (j 0).val = win6_9.index t (0 : Fin 2) * 5000 + (j 0).val; omega
      | ⟨1, _⟩ => show win6_9.index t (1 : Fin 2) * 128 + 1 * (j 1).val = (j 1).val; omega)
  exact (congrArg X hj).trans ((h ⟨(j 0).val, hp⟩ ⟨(j 1).val, hq⟩ ⟨_, hP⟩ rfl).trans (congrArg G he).symm)

/-- The same for the second result. -/
theorem rows6_10 (t : Fin cfg6.N) (X : Vec Ideal S5000x128 .f32) (G : Vec Ideal S40000x128 .f32)
    (h : ∀ (p : Fin 5000) (q : Fin 128) (P : Fin 40000), P.val = win6_9.index t (0 : Fin 2) * 5000 + p.val →
      X (ix2 p q) = G (ix2 P q)) :
    (cfg6.win 10).cut (grid6.coords t) X = ((cfg6.win 10).blk t).view.read (Elt Ideal) G := by
  obtain ⟨-, -, e10, c10, -, l9, -⟩ := idx6 t
  funext j
  have hp : (j 0).val < 5000 := (j 0).isLt
  have hq : (j 1).val < 128 := (j 1).isLt
  have hP : win6_9.index t (0 : Fin 2) * 5000 + (j 0).val < 40000 := by omega
  show X ((cfg6.win 10).xinj (grid6.coords t) j) = G (((cfg6.win 10).blk t).view.emb j)
  have hj : (cfg6.win 10).xinj (grid6.coords t) j = ix2 (⟨(j 0).val, hp⟩ : Fin 5000) (⟨(j 1).val, hq⟩ : Fin 128) :=
    funext fun a => by match a with | ⟨0, _⟩ => rfl | ⟨1, _⟩ => rfl
  have he : ((cfg6.win 10).blk t).view.emb j
      = ix2 (⟨win6_9.index t (0 : Fin 2) * 5000 + (j 0).val, hP⟩ : Fin 40000) (⟨(j 1).val, hq⟩ : Fin 128) :=
    funext fun a => Fin.ext (by
      match a with
      | ⟨0, _⟩ => show win6_10.index t (0 : Fin 2) * 5000 + 1 * (j 0).val = win6_9.index t (0 : Fin 2) * 5000 + (j 0).val; omega
      | ⟨1, _⟩ => show win6_10.index t (1 : Fin 2) * 128 + 1 * (j 1).val = (j 1).val; omega)
  exact (congrArg X hj).trans ((h ⟨(j 0).val, hp⟩ ⟨(j 1).val, hq⟩ ⟨_, hP⟩ rfl).trans (congrArg G he).symm)

/-- An index of a result array is in point `t`'s block iff each coordinate is in the block's range. -/
theorem mem_rows6_9 (t : Fin cfg6.N) (i : S40000x128.Idx) :
    i ∈ ((cfg6.win 9).blk t).view.set ↔ ∀ a : Fin 2, win6_9.index t a * S5000x128.size a ≤ (i a).val
      ∧ (i a).val < win6_9.index t a * S5000x128.size a + S5000x128.size a := by
  show i ∈ ((View.whole main_v110_0).slice (win6_9.rect t)).set ↔ _
  rw [View.set_slice_whole, Rect.mem_set_unit]
  exact Iff.rfl

theorem mem_rows6_10 (t : Fin cfg6.N) (i : S40000x128.Idx) :
    i ∈ ((cfg6.win 10).blk t).view.set ↔ ∀ a : Fin 2, win6_10.index t a * S5000x128.size a ≤ (i a).val
      ∧ (i a).val < win6_10.index t a * S5000x128.size a + S5000x128.size a := by
  show i ∈ ((View.whole main_v110_1).slice (win6_10.rect t)).set ↔ _
  rw [View.set_slice_whole, Rect.mem_set_unit]
  exact Iff.rfl

/-- Row `r` of a result array is written back by the point whose block index is `r / 5000`. -/
theorem rows_cover6_9 (i : S40000x128.Idx) :
    ∃ t : Fin cfg6.N, (cfg6.win 9).flush t = true ∧ i ∈ ((cfg6.win 9).blk t).view.set := by
  have hi0 : (i 0).val < 40000 := (i 0).isLt
  have hi1 : (i 1).val < 128 := (i 1).isLt
  obtain ⟨t, ht⟩ := onto6_9 ⟨(i 0).val / 5000, by omega⟩
  have q0 : win6_9.index t (0 : Fin 2) = (i 0).val / 5000 := congrFun ht 0
  have q1 : win6_9.index t (1 : Fin 2) = 0 := congrFun ht 1
  refine ⟨t, flush6_9 t, ?_⟩
  rw [mem_rows6_9]
  intro a
  match a with
  | ⟨0, _⟩ => show win6_9.index t (0 : Fin 2) * 5000 ≤ (i 0).val ∧ (i 0).val < win6_9.index t (0 : Fin 2) * 5000 + 5000; omega
  | ⟨1, _⟩ => show win6_9.index t (1 : Fin 2) * 128 ≤ (i 1).val ∧ (i 1).val < win6_9.index t (1 : Fin 2) * 128 + 128; omega

theorem rows_cover6_10 (i : S40000x128.Idx) :
    ∃ t : Fin cfg6.N, (cfg6.win 10).flush t = true ∧ i ∈ ((cfg6.win 10).blk t).view.set := by
  have hi0 : (i 0).val < 40000 := (i 0).isLt
  have hi1 : (i 1).val < 128 := (i 1).isLt
  obtain ⟨t, ht⟩ := onto6_10 ⟨(i 0).val / 5000, by omega⟩
  have q0 : win6_10.index t (0 : Fin 2) = (i 0).val / 5000 := congrFun ht 0
  have q1 : win6_10.index t (1 : Fin 2) = 0 := congrFun ht 1
  refine ⟨t, flush6_10 t, ?_⟩
  rw [mem_rows6_10]
  intro a
  match a with
  | ⟨0, _⟩ => show win6_10.index t (0 : Fin 2) * 5000 ≤ (i 0).val ∧ (i 0).val < win6_10.index t (0 : Fin 2) * 5000 + 5000; omega
  | ⟨1, _⟩ => show win6_10.index t (1 : Fin 2) * 128 ≤ (i 1).val ∧ (i 1).val < win6_10.index t (1 : Fin 2) * 128 + 128; omega

/-! ## The arrays the region finds, block by block -/

variable (V : (c : Dev nD) → (b : Ref sig .tc) → Buf (Elt Ideal) ((c : Thread nD τ).loc b))

/-- Row `p` of the node array's block at point `t` is row `5000·t + p` of the node array. -/
theorem node6_row (c : Dev nD) (t : Fin cfg6.N) (p : Fin 5000) (k : Fin 128) (P : Fin 40000)
    (hP : P.val = win6_9.index t (0 : Fin 2) * 5000 + p.val) :
    (iblk6 (F := Ideal) V c 0 t : Vec Ideal S5000x128 .f32) (ix2 p k) = V c main_v84 (ix2 P k) := by
  obtain ⟨e0, c0, -⟩ := idx6 t
  show V c main_v84 (((cfg6.win 0).blk t).view.emb (ix2 p k)) = V c main_v84 (ix2 P k)
  refine congrArg _ (funext fun a => Fin.ext ?_)
  match a with
  | ⟨0, _⟩ => show win6_0.index t (0 : Fin 2) * 5000 + 1 * p.val = P.val; omega
  | ⟨1, _⟩ => show win6_0.index t (1 : Fin 2) * 128 + 1 * k.val = k.val; omega

/-- Window 1's block at every point is the whole row `main_v87`. -/
theorem vec6_1 (c : Dev nD) (t : Fin cfg6.N) : (iblk6 (F := Ideal) V c 1 t : Vec Ideal S128 .f32) = V c main_v87 := by
  obtain ⟨-, -, -, -, -, -, e1, -⟩ := idx6 t
  funext j
  show V c main_v87 (((cfg6.win 1).blk t).view.emb j) = V c main_v87 j
  refine congrArg _ (funext fun a => Fin.ext ?_)
  match a with
  | ⟨0, _⟩ => show win6_1.index t (0 : Fin 1) * 128 + 1 * (j 0).val = (j 0).val; omega

/-- Window 2's block at every point is the whole row `main_v88`. -/
theorem vec6_2 (c : Dev nD) (t : Fin cfg6.N) : (iblk6 (F := Ideal) V c 2 t : Vec Ideal S128 .f32) = V c main_v88 := by
  obtain ⟨-, -, -, -, -, -, -, e2, -⟩ := idx6 t
  funext j
  show V c main_v88 (((cfg6.win 2).blk t).view.emb j) = V c main_v88 j
  refine congrArg _ (funext fun a => Fin.ext ?_)
  match a with
  | ⟨0, _⟩ => show win6_2.index t (0 : Fin 1) * 128 + 1 * (j 0).val = (j 0).val; omega

/-- Window 3's block at every point is the whole row `main_v90`. -/
theorem vec6_3 (c : Dev nD) (t : Fin cfg6.N) : (iblk6 (F := Ideal) V c 3 t : Vec Ideal S128 .f32) = V c main_v90 := by
  obtain ⟨-, -, -, -, -, -, -, -, e3, -⟩ := idx6 t
  funext j
  show V c main_v90 (((cfg6.win 3).blk t).view.emb j) = V c main_v90 j
  refine congrArg _ (funext fun a => Fin.ext ?_)
  match a with
  | ⟨0, _⟩ => show win6_3.index t (0 : Fin 1) * 128 + 1 * (j 0).val = (j 0).val; omega

/-- Window 4's block at every point is the whole row `main_v92`. -/
theorem vec6_4 (c : Dev nD) (t : Fin cfg6.N) : (iblk6 (F := Ideal) V c 4 t : Vec Ideal S128 .f32) = V c main_v92 := by
  obtain ⟨-, -, -, -, -, -, -, -, -, e4, -⟩ := idx6 t
  funext j
  show V c main_v92 (((cfg6.win 4).blk t).view.emb j) = V c main_v92 j
  refine congrArg _ (funext fun a => Fin.ext ?_)
  match a with
  | ⟨0, _⟩ => show win6_4.index t (0 : Fin 1) * 128 + 1 * (j 0).val = (j 0).val; omega

/-- Window 6's block at every point is the whole row `main_v105`. -/
theorem vec6_6 (c : Dev nD) (t : Fin cfg6.N) : (iblk6 (F := Ideal) V c 6 t : Vec Ideal S128 .f32) = V c main_v105 := by
  obtain ⟨-, -, -, -, -, -, -, -, -, -, -, -, e6, -⟩ := idx6 t
  funext j
  show V c main_v105 (((cfg6.win 6).blk t).view.emb j) = V c main_v105 j
  refine congrArg _ (funext fun a => Fin.ext ?_)
  match a with
  | ⟨0, _⟩ => show win6_6.index t (0 : Fin 1) * 128 + 1 * (j 0).val = (j 0).val; omega

/-- Window 8's block at every point is the whole row `main_v109`. -/
theorem vec6_8 (c : Dev nD) (t : Fin cfg6.N) : (iblk6 (F := Ideal) V c 8 t : Vec Ideal S128 .f32) = V c main_v109 := by
  obtain ⟨-, -, -, -, -, -, -, -, -, -, -, -, -, -, -, e8⟩ := idx6 t
  funext j
  show V c main_v109 (((cfg6.win 8).blk t).view.emb j) = V c main_v109 j
  refine congrArg _ (funext fun a => Fin.ext ?_)
  match a with
  | ⟨0, _⟩ => show win6_8.index t (0 : Fin 1) * 128 + 1 * (j 0).val = (j 0).val; omega

/-- Window 5's block at every point is the whole matrix `main_v103`. -/
theorem mat6_5 (c : Dev nD) (t : Fin cfg6.N) : (iblk6 (F := Ideal) V c 5 t : Vec Ideal S128x128 .f32) = V c main_v103 := by
  obtain ⟨-, -, -, -, -, -, -, -, -, -, r0, r1, -⟩ := idx6 t
  funext j
  show V c main_v103 (((cfg6.win 5).blk t).view.emb j) = V c main_v103 j
  refine congrArg _ (funext fun a => Fin.ext ?_)
  match a with
  | ⟨0, _⟩ => show win6_5.index t (0 : Fin 2) * 128 + 1 * (j 0).val = (j 0).val; omega
  | ⟨1, _⟩ => show win6_5.index t (1 : Fin 2) * 128 + 1 * (j 1).val = (j 1).val; omega

/-- Window 7's block at every point is the whole matrix `main_v107`. -/
theorem mat6_7 (c : Dev nD) (t : Fin cfg6.N) : (iblk6 (F := Ideal) V c 7 t : Vec Ideal S128x128 .f32) = V c main_v107 := by
  obtain ⟨-, -, -, -, -, -, -, -, -, -, -, -, -, r0, r1, -⟩ := idx6 t
  funext j
  show V c main_v107 (((cfg6.win 7).blk t).view.emb j) = V c main_v107 j
  refine congrArg _ (funext fun a => Fin.ext ?_)
  match a with
  | ⟨0, _⟩ => show win6_7.index t (0 : Fin 2) * 128 + 1 * (j 0).val = (j 0).val; omega
  | ⟨1, _⟩ => show win6_7.index t (1 : Fin 2) * 128 + 1 * (j 1).val = (j 1).val; omega

/-! ## What each point writes back, and the arrays after the region -/

/-- What point `t` writes back to the first result is block `t` of the layer with the first weights and bias. -/
theorem flushed6_9_eq (c : Dev nD) (t : Fin cfg6.N) :
    (dat6 (F := Ideal) V c).flushed 9 t = ((cfg6.win 9).blk t).view.read (Elt Ideal)
      (Cert.Spec.lin (Cert.Spec.relu (Cert.Spec.bn (V c main_v84) (V c main_v87) (V c main_v88) (V c main_v90) (V c main_v92))) (V c main_v103) (V c main_v105)) := by
  show (cfg6.win 9).cut (grid6.coords t) ((dat6 (F := Ideal) V c).after 9 t) = _
  rw [after6_9]
  unfold out6_9
  rw [View.canon_unit_zero zeros2_6]
  simp only [View.ld_unit_zero (S := S5000x128) zeros2_6, View.ld_unit_zero (S := S128) zeros1_6,
    View.ld_unit_zero (S := S128x128) zeros2_6]
  rw [vec6_1 V c t, vec6_2 V c t, vec6_3 V c t, vec6_4 V c t, mat6_5 V c t, vec6_6 V c t]
  refine rows6_9 t _ _ fun p q P hP => ?_
  refine (pay6_4_apply (iblk6 (F := Ideal) V c 0 t) (V c main_v87) (V c main_v88) (V c main_v90) (V c main_v92) (V c main_v103) (V c main_v105) p q).trans ?_
  exact lin6_rows _ _ _ _ _ _ _ _ p P q fun k => node6_row V c t p k P hP

/-- What point `t` writes back to the second result is block `t` of the layer with the second weights and bias. -/
theorem flushed6_10_eq (c : Dev nD) (t : Fin cfg6.N) :
    (dat6 (F := Ideal) V c).flushed 10 t = ((cfg6.win 10).blk t).view.read (Elt Ideal)
      (Cert.Spec.lin (Cert.Spec.relu (Cert.Spec.bn (V c main_v84) (V c main_v87) (V c main_v88) (V c main_v90) (V c main_v92))) (V c main_v107) (V c main_v109)) := by
  show (cfg6.win 10).cut (grid6.coords t) ((dat6 (F := Ideal) V c).after 10 t) = _
  rw [after6_10]
  unfold out6_10
  rw [View.canon_unit_zero zeros2_6]
  simp only [View.ld_unit_zero (S := S5000x128) zeros2_6, View.ld_unit_zero (S := S128) zeros1_6,
    View.ld_unit_zero (S := S128x128) zeros2_6]
  rw [vec6_1 V c t, vec6_2 V c t, vec6_3 V c t, vec6_4 V c t, mat6_7 V c t, vec6_8 V c t]
  refine rows6_10 t _ _ fun p q P hP => ?_
  refine (pay6_1_apply (iblk6 (F := Ideal) V c 0 t) (V c main_v87) (V c main_v88) (V c main_v90) (V c main_v92) (V c main_v107) (V c main_v109) p q).trans ?_
  exact lin6_rows _ _ _ _ _ _ _ _ p P q fun k => node6_row V c t p k P hP

/-- THE FIRST RESULT after the region: the layer of the node array with the first weights and bias. -/
theorem val6_a (c : Dev nD) : (dat6 (F := Ideal) V c).arrAt 9 cfg6.N = Cert.Spec.lin (Cert.Spec.relu (Cert.Spec.bn (V c main_v84) (V c main_v87) (V c main_v88) (V c main_v90) (V c main_v92))) (V c main_v103) (V c main_v105) :=
  (dat6 (F := Ideal) V c).arrAt_eq_of_cover 9 _ (fun t _ => flushed6_9_eq V c t) rows_cover6_9

/-- THE SECOND RESULT after the region: the layer of the node array with the second weights and bias. -/
theorem val6_b (c : Dev nD) : (dat6 (F := Ideal) V c).arrAt 10 cfg6.N = Cert.Spec.lin (Cert.Spec.relu (Cert.Spec.bn (V c main_v84) (V c main_v87) (V c main_v88) (V c main_v90) (V c main_v92))) (V c main_v107) (V c main_v109) :=
  (dat6 (F := Ideal) V c).arrAt_eq_of_cover 10 _ (fun t _ => flushed6_10_eq V c t) rows_cover6_10

end Cert.KernelIdeal.KVal

end
-- ==== Proof.KVal7.lean ====
/-
  The value of one fused layer of the network, as the kernel program computes it tile by tile.

  The region reads three node arrays of 40000 rows and 128 columns, twelve column vectors (for each node array a
  mean, a variance, a scale and a shift), a 128 by 128 weight matrix and a bias vector, and writes one node array.
  Its grid has 8 points; point t handles rows 5000·t … 5000·t + 4999 of every node array and sees every vector
  and the matrix whole. On its tile the body normalises each of the three blocks with its column statistics
  (subtract the mean, multiply by the reciprocal root of variance + ε, multiply by the scale, add the shift), adds
  the three, takes the maximum with zero, multiplies by the weight matrix and adds the bias.

  Every entry (r, q) of the result depends only on row r of the three node arrays, so the 8 tiles are the 8 row
  blocks of ONE function of the whole arrays: the layer `lin (relu (add3 (bn …) (bn …) (bn …))) W b` of the
  specification. The 8 row blocks cover all 40000 rows (row r lies in block r / 5000), so after the region the
  output array is that function.
-/
import proofs.«426021_j89885075570707_3_alg».proof.Proof.Gen.KernelIdeal.Frame
import proofs.«426021_j89885075570707_3_alg».proof.Proof.Spec
import proofs.«426021_j89885075570707_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-! ## The body on one tile, entry by entry -/

/-- A vector laid out as one row and repeated down the rows reads, at row p and column q, the vector's entry q. -/
theorem row7_apply {α : Type} {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) :=
  (broadcastTo_1b_ab_apply _ h2 p q).trans (shapeCast_a_1a_apply x h1 0 q)

/-- The affine normalisation of a block by given column statistics, entry by entry. -/
theorem pay7_1_apply (x0 : Vec Ideal S5000x128 .f32) (x1 x2 x3 x4 : Vec Ideal S128 .f32) (p : Fin 5000) (q : Fin 128) :
    k7_pay1 (F := Ideal) x0 x1 x2 x3 x4 (ix2 p q) = Cert.Spec.bnE x0 x1 x2 x3 x4 p q := by
  unfold k7_pay1
  simp only [shapeCast_self, addf_apply, mulf_apply, subf_apply, row7_apply]
  rfl

/-- The centred block times the reciprocal root of the shifted variance, entry by entry. -/
theorem pay7_3_apply (x5 : Vec Ideal S5000x128 .f32) (x6 x7 : Vec Ideal S128 .f32) (p : Fin 5000) (q : Fin 128) :
    k7_pay3 (F := Ideal) x5 x6 x7 (ix2 p q) = (x5 (ix2 p q) - x6 (ix1 q)) * Ideal.rsqrt (x7 (ix1 q) + Cert.Spec.eps) := by
  unfold k7_pay3
  simp only [shapeCast_self, addf_apply, mulf_apply, subf_apply, row7_apply]
  rfl

/-- A vector cast to its own shape is itself. -/
theorem pay7_2_eq (x9 : Vec Ideal S128 .f32) : k7_pay2 (F := Ideal) x9 = x9 := by
  unfold k7_pay2
  simp only [shapeCast_self]

/-- A vector laid out as one row reads, at column q, its entry q. -/
theorem pay7_4_apply (x8 : Vec Ideal S128 .f32) (u : Fin 1) (q : Fin 128) : k7_pay4 (F := Ideal) x8 (ix2 u q) = x8 (ix1 q) := by
  unfold k7_pay4
  simp only [shapeCast_self]
  exact shapeCast_a_1a_apply x8 _ u q

/-- The block product's dimension numbers are those of the plain matrix product. -/
theorem dot7_eq : dot_S5000x128_S128x128_S5000x128_1_0_0_1_n_n = DotDims.plain 5000 128 128 := rfl

/-- The block product into the zero accumulator, entry by entry: the sum over the 128 shared positions. -/
theorem mm7_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  rw [dot7_eq]
  exact Cert.Lib.PlainDot.matmul_zero_apply none l r p q

/-- The last part of the body, entry by entry, over whatever the earlier parts left. -/
theorem pay7_5_apply (v24 : FVec Ideal S5000x128 .f32) (v34 : FVec Ideal S128 .f32) (v43 : FVec Ideal S5000x128 .f32) (v44 : FVec Ideal S1x128 .f32)
    (x10 : Vec Ideal S5000x128 .f32) (x11 x12 x13 x14 : Vec Ideal S128 .f32) (x15 : Vec Ideal S128x128 .f32) (x16 : Vec Ideal S128 .f32)
    (p : Fin 5000) (q : Fin 128) :
    k7_pay5 (F := Ideal) v24 v34 v43 v44 x10 x11 x12 x13 x14 x15 x16 (ix2 p q)
      = (∑ k : Fin 128, max (v24 (ix2 p k) + (v43 (ix2 p k) * v44 (ix2 (0 : Fin 1) k) + v34 (ix1 k))
            + Cert.Spec.bnE x10 x11 x12 x13 x14 p k) Cert.Spec.zeroW * x15 (ix2 k q)) + x16 (ix1 q) := by
  unfold k7_pay5
  simp only [shapeCast_self]
  rw [addf_apply, row7_apply, mm7_apply]
  refine congrArg (· + x16 (ix1 q)) (Finset.sum_congr rfl fun k _ => ?_)
  simp only [truncf_apply, maximumf_apply, addf_apply, mulf_apply, subf_apply, broadcastTo_1b_ab_apply, shapeCast_a_1a_apply, broadcast_apply]
  rfl

/-- The whole body at an entry: three normalised blocks added, clipped below at zero, multiplied by the weight
    matrix, plus the bias. -/
theorem pay7_apply (x0 : Vec Ideal S5000x128 .f32) (x1 x2 x3 x4 : Vec Ideal S128 .f32) (x5 : Vec Ideal S5000x128 .f32)
    (x6 x7 x8 x9 : Vec Ideal S128 .f32) (x10 : Vec Ideal S5000x128 .f32) (x11 x12 x13 x14 : Vec Ideal S128 .f32)
    (x15 : Vec Ideal S128x128 .f32) (x16 : Vec Ideal S128 .f32) (p : Fin 5000) (q : Fin 128) :
    k7_pay5 (F := Ideal) (k7_pay1 x0 x1 x2 x3 x4) (k7_pay2 x9) (k7_pay3 x5 x6 x7) (k7_pay4 x8) x10 x11 x12 x13 x14 x15 x16 (ix2 p q)
      = Cert.Spec.linE (Cert.Spec.relu (Cert.Spec.add3 (Cert.Spec.bn x0 x1 x2 x3 x4) (Cert.Spec.bn x5 x6 x7 x8 x9)
          (Cert.Spec.bn x10 x11 x12 x13 x14))) x15 x16 p q := by
  rw [pay7_5_apply]
  unfold Cert.Spec.linE
  refine congrArg (· + x16 (ix1 q)) (Finset.sum_congr rfl fun k _ => ?_)
  rw [pay7_1_apply, pay7_2_eq, pay7_3_apply, pay7_4_apply]
  rfl

/-! ## The tiles as row blocks of the whole arrays -/

theorem hz7_2 : (![0, 0] : Fin 2 → Nat) = fun _ => 0 := funext fun a => by fin_cases a <;> rfl
theorem hz7_1 : (![0] : Fin 1 → Nat) = fun _ => 0 := funext fun a => by fin_cases a; rfl

/-- At grid point t the three node arrays and the output are at row block t, column block 0. -/
theorem idx7_rows : ∀ t : Fin cfg7.N,
    win7_0.index t (0 : Fin 2) = t.val ∧ win7_0.index t (1 : Fin 2) = 0
    ∧ win7_5.index t (0 : Fin 2) = t.val ∧ win7_5.index t (1 : Fin 2) = 0
    ∧ win7_10.index t (0 : Fin 2) = t.val ∧ win7_10.index t (1 : Fin 2) = 0
    ∧ win7_17.index t (0 : Fin 2) = t.val ∧ win7_17.index t (1 : Fin 2) = 0 :=
  (by decide +kernel : ∀ t : Fin grid7.N, _)

/-- At every grid point each column vector and the weight matrix are at block 0: the whole array. -/
theorem idx7_whole : ∀ t : Fin cfg7.N,
    win7_1.index t = (fun _ => 0)
    ∧ win7_2.index t = (fun _ => 0)
    ∧ win7_3.index t = (fun _ => 0)
    ∧ win7_4.index t = (fun _ => 0)
    ∧ win7_6.index t = (fun _ => 0)
    ∧ win7_7.index t = (fun _ => 0)
    ∧ win7_8.index t = (fun _ => 0)
    ∧ win7_9.index t = (fun _ => 0)
    ∧ win7_11.index t = (fun _ => 0)
    ∧ win7_12.index t = (fun _ => 0)
    ∧ win7_13.index t = (fun _ => 0)
    ∧ win7_14.index t = (fun _ => 0)
    ∧ win7_16.index t = (fun _ => 0)
    ∧ win7_15.index t = (fun _ => 0) :=
  (by decide +kernel : ∀ t : Fin grid7.N, _)

/-- Row p of the block of node array 1 at grid point t is row 5000·t + p of the array. -/
theorem blk7_0_apply (c : Dev nD) (t : Fin cfg7.N) (p : Fin 5000) (k : Fin 128) (P : Fin 40000)
    (hP : P.val = 5000 * t.val + p.val) :
    (iblk7 V c 0 t : Vec Ideal S5000x128 .f32) (ix2 p k) = (V c main_v110_1 : Vec Ideal S40000x128 .f32) (ix2 P k) := by
  obtain ⟨e0, e1, e2, e3, e4, e5, e6, e7⟩ := idx7_rows t
  unfold iblk7
  rw [View.read_apply]
  show V c main_v110_1 (((cfg7.win 0).blk t).view.emb (ix2 p k)) = V c main_v110_1 (ix2 P k)
  congr 1
  funext a
  apply Fin.ext
  match a with
  | ⟨0, _⟩ => show win7_0.index t (0 : Fin 2) * 5000 + 1 * p.val = P.val; omega
  | ⟨1, _⟩ => show win7_0.index t (1 : Fin 2) * 128 + 1 * k.val = k.val; omega

/-- Row p of the block of node array 2 at grid point t is row 5000·t + p of the array. -/
theorem blk7_5_apply (c : Dev nD) (t : Fin cfg7.N) (p : Fin 5000) (k : Fin 128) (P : Fin 40000)
    (hP : P.val = 5000 * t.val + p.val) :
    (iblk7 V c 5 t : Vec Ideal S5000x128 .f32) (ix2 p k) = (V c main_v124 : Vec Ideal S40000x128 .f32) (ix2 P k) := by
  obtain ⟨e0, e1, e2, e3, e4, e5, e6, e7⟩ := idx7_rows t
  unfold iblk7
  rw [View.read_apply]
  show V c main_v124 (((cfg7.win 5).blk t).view.emb (ix2 p k)) = V c main_v124 (ix2 P k)
  congr 1
  funext a
  apply Fin.ext
  match a with
  | ⟨0, _⟩ => show win7_5.index t (0 : Fin 2) * 5000 + 1 * p.val = P.val; omega
  | ⟨1, _⟩ => show win7_5.index t (1 : Fin 2) * 128 + 1 * k.val = k.val; omega

/-- Row p of the block of node array 3 at grid point t is row 5000·t + p of the array. -/
theorem blk7_10_apply (c : Dev nD) (t : Fin cfg7.N) (p : Fin 5000) (k : Fin 128) (P : Fin 40000)
    (hP : P.val = 5000 * t.val + p.val) :
    (iblk7 V c 10 t : Vec Ideal S5000x128 .f32) (ix2 p k) = (V c main_v97 : Vec Ideal S40000x128 .f32) (ix2 P k) := by
  obtain ⟨e0, e1, e2, e3, e4, e5, e6, e7⟩ := idx7_rows t
  unfold iblk7
  rw [View.read_apply]
  show V c main_v97 (((cfg7.win 10).blk t).view.emb (ix2 p k)) = V c main_v97 (ix2 P k)
  congr 1
  funext a
  apply Fin.ext
  match a with
  | ⟨0, _⟩ => show win7_10.index t (0 : Fin 2) * 5000 + 1 * p.val = P.val; omega
  | ⟨1, _⟩ => show win7_10.index t (1 : Fin 2) * 128 + 1 * k.val = k.val; omega

theorem blk7_1_eq (c : Dev nD) (t : Fin cfg7.N) :
    (iblk7 V c 1 t : Vec Ideal S128 .f32) = (V c main_v113 : Vec Ideal S128 .f32) := by
  have hz' : (fun a => win7_1.index t a * main_v113.ty.shape.size a) = fun _ => 0 :=
    funext fun a => by rw [(idx7_whole t).1]; exact Nat.zero_mul _
  exact Memref.read_access_unit_zero (Elt Ideal) main_v113 hz' (fun a => by rw [congrFun hz' a]; simp) (V c main_v113)

theorem blk7_2_eq (c : Dev nD) (t : Fin cfg7.N) :
    (iblk7 V c 2 t : Vec Ideal S128 .f32) = (V c main_v114 : Vec Ideal S128 .f32) := by
  have hz' : (fun a => win7_2.index t a * main_v114.ty.shape.size a) = fun _ => 0 :=
    funext fun a => by rw [(idx7_whole t).2.1]; exact Nat.zero_mul _
  exact Memref.read_access_unit_zero (Elt Ideal) main_v114 hz' (fun a => by rw [congrFun hz' a]; simp) (V c main_v114)

theorem blk7_3_eq (c : Dev nD) (t : Fin cfg7.N) :
    (iblk7 V c 3 t : Vec Ideal S128 .f32) = (V c main_v130 : Vec Ideal S128 .f32) := by
  have hz' : (fun a => win7_3.index t a * main_v130.ty.shape.size a) = fun _ => 0 :=
    funext fun a => by rw [(idx7_whole t).2.2.1]; exact Nat.zero_mul _
  exact Memref.read_access_unit_zero (Elt Ideal) main_v130 hz' (fun a => by rw [congrFun hz' a]; simp) (V c main_v130)

theorem blk7_4_eq (c : Dev nD) (t : Fin cfg7.N) :
    (iblk7 V c 4 t : Vec Ideal S128 .f32) = (V c main_v132 : Vec Ideal S128 .f32) := by
  have hz' : (fun a => win7_4.index t a * main_v132.ty.shape.size a) = fun _ => 0 :=
    funext fun a => by rw [(idx7_whole t).2.2.2.1]; exact Nat.zero_mul _
  exact Memref.read_access_unit_zero (Elt Ideal) main_v132 hz' (fun a => by rw [congrFun hz' a]; simp) (V c main_v132)

theorem blk7_6_eq (c : Dev nD) (t : Fin cfg7.N) :
    (iblk7 V c 6 t : Vec Ideal S128 .f32) = (V c main_v127 : Vec Ideal S128 .f32) := by
  have hz' : (fun a => win7_6.index t a * main_v127.ty.shape.size a) = fun _ => 0 :=
    funext fun a => by rw [(idx7_whole t).2.2.2.2.1]; exact Nat.zero_mul _
  exact Memref.read_access_unit_zero (Elt Ideal) main_v127 hz' (fun a => by rw [congrFun hz' a]; simp) (V c main_v127)

theorem blk7_7_eq (c : Dev nD) (t : Fin cfg7.N) :
    (iblk7 V c 7 t : Vec Ideal S128 .f32) = (V c main_v128 : Vec Ideal S128 .f32) := by
  have hz' : (fun a => win7_7.index t a * main_v128.ty.shape.size a) = fun _ => 0 :=
    funext fun a => by rw [(idx7_whole t).2.2.2.2.2.1]; exact Nat.zero_mul _
  exact Memref.read_access_unit_zero (Elt Ideal) main_v128 hz' (fun a => by rw [congrFun hz' a]; simp) (V c main_v128)

theorem blk7_8_eq (c : Dev nD) (t : Fin cfg7.N) :
    (iblk7 V c 8 t : Vec Ideal S128 .f32) = (V c main_v134 : Vec Ideal S128 .f32) := by
  have hz' : (fun a => win7_8.index t a * main_v134.ty.shape.size a) = fun _ => 0 :=
    funext fun a => by rw [(idx7_whole t).2.2.2.2.2.2.1]; exact Nat.zero_mul _
  exact Memref.read_access_unit_zero (Elt Ideal) main_v134 hz' (fun a => by rw [congrFun hz' a]; simp) (V c main_v134)

theorem blk7_9_eq (c : Dev nD) (t : Fin cfg7.N) :
    (iblk7 V c 9 t : Vec Ideal S128 .f32) = (V c main_v136 : Vec Ideal S128 .f32) := by
  have hz' : (fun a => win7_9.index t a * main_v136.ty.shape.size a) = fun _ => 0 :=
    funext fun a => by rw [(idx7_whole t).2.2.2.2.2.2.2.1]; exact Nat.zero_mul _
  exact Memref.read_access_unit_zero (Elt Ideal) main_v136 hz' (fun a => by rw [congrFun hz' a]; simp) (V c main_v136)

theorem blk7_11_eq (c : Dev nD) (t : Fin cfg7.N) :
    (iblk7 V c 11 t : Vec Ideal S128 .f32) = (V c main_v100 : Vec Ideal S128 .f32) := by
  have hz' : (fun a => win7_11.index t a * main_v100.ty.shape.size a) = fun _ => 0 :=
    funext fun a => by rw [(idx7_whole t).2.2.2.2.2.2.2.2.1]; exact Nat.zero_mul _
  exact Memref.read_access_unit_zero (Elt Ideal) main_v100 hz' (fun a => by rw [congrFun hz' a]; simp) (V c main_v100)

theorem blk7_12_eq (c : Dev nD) (t : Fin cfg7.N) :
    (iblk7 V c 12 t : Vec Ideal S128 .f32) = (V c main_v101 : Vec Ideal S128 .f32) := by
  have hz' : (fun a => win7_12.index t a * main_v101.ty.shape.size a) = fun _ => 0 :=
    funext fun a => by rw [(idx7_whole t).2.2.2.2.2.2.2.2.2.1]; exact Nat.zero_mul _
  exact Memref.read_access_unit_zero (Elt Ideal) main_v101 hz' (fun a => by rw [congrFun hz' a]; simp) (V c main_v101)

theorem blk7_13_eq (c : Dev nD) (t : Fin cfg7.N) :
    (iblk7 V c 13 t : Vec Ideal S128 .f32) = (V c main_v138 : Vec Ideal S128 .f32) := by
  have hz' : (fun a => win7_13.index t a * main_v138.ty.shape.size a) = fun _ => 0 :=
    funext fun a => by rw [(idx7_whole t).2.2.2.2.2.2.2.2.2.2.1]; exact Nat.zero_mul _
  exact Memref.read_access_unit_zero (Elt Ideal) main_v138 hz' (fun a => by rw [congrFun hz' a]; simp) (V c main_v138)

theorem blk7_14_eq (c : Dev nD) (t : Fin cfg7.N) :
    (iblk7 V c 14 t : Vec Ideal S128 .f32) = (V c main_v140 : Vec Ideal S128 .f32) := by
  have hz' : (fun a => win7_14.index t a * main_v140.ty.shape.size a) = fun _ => 0 :=
    funext fun a => by rw [(idx7_whole t).2.2.2.2.2.2.2.2.2.2.2.1]; exact Nat.zero_mul _
  exact Memref.read_access_unit_zero (Elt Ideal) main_v140 hz' (fun a => by rw [congrFun hz' a]; simp) (V c main_v140)

theorem blk7_16_eq (c : Dev nD) (t : Fin cfg7.N) :
    (iblk7 V c 16 t : Vec Ideal S128 .f32) = (V c main_v144 : Vec Ideal S128 .f32) := by
  have hz' : (fun a => win7_16.index t a * main_v144.ty.shape.size a) = fun _ => 0 :=
    funext fun a => by rw [(idx7_whole t).2.2.2.2.2.2.2.2.2.2.2.2.1]; exact Nat.zero_mul _
  exact Memref.read_access_unit_zero (Elt Ideal) main_v144 hz' (fun a => by rw [congrFun hz' a]; simp) (V c main_v144)

theorem blk7_15_eq (c : Dev nD) (t : Fin cfg7.N) :
    (iblk7 V c 15 t : Vec Ideal S128x128 .f32) = (V c main_v142 : Vec Ideal S128x128 .f32) := by
  have hz' : (fun a => win7_15.index t a * main_v142.ty.shape.size a) = fun _ => 0 :=
    funext fun a => by rw [(idx7_whole t).2.2.2.2.2.2.2.2.2.2.2.2.2]; exact Nat.zero_mul _
  exact Memref.read_access_unit_zero (Elt Ideal) main_v142 hz' (fun a => by rw [congrFun hz' a]; simp) (V c main_v142)

/-! ## One function of the whole arrays -/

/-- Entry (p, q) of the layer reads the three node arrays only along row p: arrays that agree along the row give the
    same entry. -/
theorem lin7_rows {M M' : ℕ} (x0 x5 x10 : FVec Ideal ⟨2, ![M, 128]⟩ .f32) (X0 X5 X10 : FVec Ideal ⟨2, ![M', 128]⟩ .f32)
    (m0 v0 g0 b0 m5 v5 g5 b5 m10 v10 g10 b10 : FVec Ideal ⟨1, ![128]⟩ .f32)
    (W : FVec Ideal ⟨2, ![128, 128]⟩ .f32) (b : FVec Ideal ⟨1, ![128]⟩ .f32) (p : Fin M) (P : Fin M') (q : Fin 128)
    (h0 : ∀ k, x0 (ix2 p k) = X0 (ix2 P k)) (h5 : ∀ k, x5 (ix2 p k) = X5 (ix2 P k)) (h10 : ∀ k, x10 (ix2 p k) = X10 (ix2 P k)) :
    Cert.Spec.linE (Cert.Spec.relu (Cert.Spec.add3 (Cert.Spec.bn x0 m0 v0 g0 b0) (Cert.Spec.bn x5 m5 v5 g5 b5)
        (Cert.Spec.bn x10 m10 v10 g10 b10))) W b p q
      = Cert.Spec.linE (Cert.Spec.relu (Cert.Spec.add3 (Cert.Spec.bn X0 m0 v0 g0 b0) (Cert.Spec.bn X5 m5 v5 g5 b5)
        (Cert.Spec.bn X10 m10 v10 g10 b10))) W b P q := by
  unfold Cert.Spec.linE
  refine congrArg (· + b (ix1 q)) (Finset.sum_congr rfl fun k _ => ?_)
  show max (Cert.Spec.bnE x0 m0 v0 g0 b0 p k + Cert.Spec.bnE x5 m5 v5 g5 b5 p k + Cert.Spec.bnE x10 m10 v10 g10 b10 p k) Cert.Spec.zeroW * W (ix2 k q)
    = max (Cert.Spec.bnE X0 m0 v0 g0 b0 P k + Cert.Spec.bnE X5 m5 v5 g5 b5 P k + Cert.Spec.bnE X10 m10 v10 g10 b10 P k) Cert.Spec.zeroW * W (ix2 k q)
  unfold Cert.Spec.bnE
  rw [h0 k, h5 k, h10 k]

/-- The layer of the whole arrays the region finds. -/
abbrev G7 (c : Dev nD) : FVec Ideal ⟨2, ![40000, 128]⟩ .f32 :=
  Cert.Spec.lin (Cert.Spec.relu (Cert.Spec.add3
      (Cert.Spec.bn (V c main_v110_1) (V c main_v113) (V c main_v114) (V c main_v130) (V c main_v132))
      (Cert.Spec.bn (V c main_v124) (V c main_v127) (V c main_v128) (V c main_v134) (V c main_v136))
      (Cert.Spec.bn (V c main_v97) (V c main_v100) (V c main_v101) (V c main_v138) (V c main_v140))))
    (V c main_v142) (V c main_v144)

/-- The layer at an index whose coordinates are (P, Q). -/
theorem G7_at (c : Dev nD) (i : S40000x128.Idx) (P : Fin 40000) (Q : Fin 128) (h0 : (i 0).val = P.val) (h1 : (i 1).val = Q.val) :
    G7 V c i = Cert.Spec.linE (Cert.Spec.relu (Cert.Spec.add3
      (Cert.Spec.bn (V c main_v110_1) (V c main_v113) (V c main_v114) (V c main_v130) (V c main_v132))
      (Cert.Spec.bn (V c main_v124) (V c main_v127) (V c main_v128) (V c main_v134) (V c main_v136))
      (Cert.Spec.bn (V c main_v97) (V c main_v100) (V c main_v101) (V c main_v138) (V c main_v140))))
    (V c main_v142) (V c main_v144) P Q := by
  obtain rfl : i = ix2 P Q := funext fun a => Fin.ext (match a with | ⟨0, _⟩ => h0 | ⟨1, _⟩ => h1)
  rfl

/-! ## What each grid point writes back, and the array after the region -/

/-- Grid point t writes back row block t of the layer of the whole arrays. -/
theorem flushed7_eq (c : Dev nD) (t : Fin cfg7.N) :
    (dat7 V c).flushed 17 t = ((cfg7.win 17).blk t).view.read (Elt Ideal) (G7 V c) := by
  show (cfg7.win 17).cut (grid7.coords t) ((dat7 V c).after 17 t) = _
  rw [after7_17]
  unfold out7_17
  rw [View.canon_unit_zero hz7_2]
  simp only [View.ld_unit_zero (S := S5000x128) hz7_2, View.ld_unit_zero (S := S128) hz7_1, View.ld_unit_zero (S := S128x128) hz7_2]
  rw [blk7_1_eq V c t, blk7_2_eq V c t, blk7_3_eq V c t, blk7_4_eq V c t, blk7_6_eq V c t, blk7_7_eq V c t, blk7_8_eq V c t, blk7_9_eq V c t, blk7_11_eq V c t, blk7_12_eq V c t, blk7_13_eq V c t, blk7_14_eq V c t, blk7_16_eq V c t, blk7_15_eq V c t]
  obtain ⟨e0, e1, e2, e3, e4, e5, e6, e7⟩ := idx7_rows t
  have hN : cfg7.N = 8 := N_7
  refine funext fun (j : S5000x128.Idx) => ?_
  obtain ⟨p, q, rfl⟩ : ∃ (p : Fin 5000) (q : Fin 128), j = ix2 p q := ⟨j 0, j 1, eq_ix2 j⟩
  have ht : t.val < 8 := hN ▸ t.isLt
  have hP : 5000 * t.val + p.val < 40000 := by have := p.isLt; omega
  refine (pay7_apply (iblk7 V c 0 t) (V c main_v113) (V c main_v114) (V c main_v130) (V c main_v132) (iblk7 V c 5 t) (V c main_v127) (V c main_v128)
    (V c main_v134) (V c main_v136) (iblk7 V c 10 t) (V c main_v100) (V c main_v101) (V c main_v138) (V c main_v140) (V c main_v142) (V c main_v144) p q).trans ?_
  refine (lin7_rows (iblk7 V c 0 t) (iblk7 V c 5 t) (iblk7 V c 10 t) (V c main_v110_1) (V c main_v124) (V c main_v97)
    (V c main_v113) (V c main_v114) (V c main_v130) (V c main_v132) (V c main_v127) (V c main_v128) (V c main_v134) (V c main_v136)
    (V c main_v100) (V c main_v101) (V c main_v138) (V c main_v140) (V c main_v142) (V c main_v144) p ⟨5000 * t.val + p.val, hP⟩ q
    (fun k => blk7_0_apply V c t p k _ rfl) (fun k => blk7_5_apply V c t p k _ rfl) (fun k => blk7_10_apply V c t p k _ rfl)).trans ?_
  rw [View.read_apply]
  refine (G7_at V c (((cfg7.win 17).blk t).view.emb (ix2 p q)) ⟨5000 * t.val + p.val, hP⟩ q ?_ ?_).symm
  · show win7_17.index t (0 : Fin 2) * 5000 + 1 * p.val = 5000 * t.val + p.val; omega
  · show win7_17.index t (1 : Fin 2) * 128 + 1 * q.val = q.val; omega

/-- An index of the output array is in point t's block iff each coordinate is in the block's range on its axis. -/
theorem mem_blk7 (t : Fin cfg7.N) (i : S40000x128.Idx) :
    i ∈ ((cfg7.win 17).blk t).view.set ↔ ∀ a : Fin 2, win7_17.index t a * S5000x128.size a ≤ (i a).val ∧ (i a).val < win7_17.index t a * S5000x128.size a + S5000x128.size a := by
  show i ∈ ((View.whole main_v145).slice (win7_17.rect t)).set ↔ _
  rw [View.set_slice_whole, Rect.mem_set_unit]
  exact Iff.rfl

/-- Every row r of the output array is in some point's block: point r / 5000. -/
theorem cover7 (i : S40000x128.Idx) :
    ∃ t : Fin cfg7.N, (cfg7.win 17).flush t = true ∧ i ∈ ((cfg7.win 17).blk t).view.set := by
  have hi0 : (i 0).val < 40000 := (i 0).isLt
  have hi1 : (i 1).val < 128 := (i 1).isLt
  have hN : cfg7.N = 8 := N_7
  obtain ⟨t, ht⟩ : ∃ t : Fin cfg7.N, t.val = (i 0).val / 5000 := ⟨⟨(i 0).val / 5000, by omega⟩, rfl⟩
  obtain ⟨e0, e1, e2, e3, e4, e5, e6, e7⟩ := idx7_rows t
  refine ⟨t, flush7_17 t, ?_⟩
  rw [mem_blk7]
  intro a
  match a with
  | ⟨0, _⟩ => show win7_17.index t (0 : Fin 2) * 5000 ≤ (i 0).val ∧ (i 0).val < win7_17.index t (0 : Fin 2) * 5000 + 5000; omega
  | ⟨1, _⟩ => show win7_17.index t (1 : Fin 2) * 128 ≤ (i 1).val ∧ (i 1).val < win7_17.index t (1 : Fin 2) * 128 + 128; omega

/-- THE ARRAY AFTER THE REGION: the layer of the arrays the region found. -/
theorem val7 (c : Dev nD) : (dat7 (F := Ideal) V c).arrAt 17 cfg7.N = Cert.Spec.lin (Cert.Spec.relu (Cert.Spec.add3 (Cert.Spec.bn (V c main_v110_1) (V c main_v113) (V c main_v114) (V c main_v130) (V c main_v132)) (Cert.Spec.bn (V c main_v124) (V c main_v127) (V c main_v128) (V c main_v134) (V c main_v136)) (Cert.Spec.bn (V c main_v97) (V c main_v100) (V c main_v101) (V c main_v138) (V c main_v140)))) (V c main_v142) (V c main_v144) :=
  (dat7 V c).arrAt_eq_of_cover 17 (G7 V c) (fun t _ => flushed7_eq V c t) (cover7)

end Cert.KernelIdeal.KVal

end
-- ==== Proof.KVal8.lean ====
/-
  The value of the normalise, rectify and multiply region.

  The region reads a node array `x` in eight tiles of 5000 rows, and four feature vectors `μ`, `v`, `g`, `β`, a
  128×128 weight matrix `W` and a bias vector `b`, each whole at every tile, and writes an output node array tile by
  tile. Each tile's body computes, entry by entry,
  `∑ k, max ((x (p, k) - μ k) * rsqrt (v k + ε) * g k + β k) 0 * W (k, q) + b q` (the narrowing of the two factors
  to bf16 is the identity on extended reals). Every row of the output lies in exactly one tile (row `r` in tile
  `r / 5000`), so the output array after the region is `lin (relu (bn x μ v g β)) W b` of the arrays the region found.
-/
import proofs.«426021_j89885075570707_3_alg».proof.Proof.Gen.KernelIdeal.Frame
import proofs.«426021_j89885075570707_3_alg».proof.Proof.Spec
import proofs.«426021_j89885075570707_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-! ## The tile body at an entry -/

/-- A feature vector laid as one row and repeated down the 5000 rows of a tile reads, at `(p, q)`, the vector at `q`. -/
theorem row8_apply (v : FVec Ideal S128 .f32) (p : Fin 5000) (q : Fin 128) :
    broadcastTo S5000x128 (shapeCast S1x128 v shapeCasts_S128_S1x128) broadcasts_S1x128_S5000x128 (ix2 p q) = v (ix1 q) :=
  (broadcastTo_1b_ab_apply _ broadcasts_S1x128_S5000x128 p q).trans (shapeCast_a_1a_apply v shapeCasts_S128_S1x128 0 q)

/-- The tile body's product is the plain 5000×128 by 128×128 matrix product. -/
theorem dot8_eq : dot_S5000x128_S128x128_S5000x128_1_0_0_1_n_n = DotDims.plain 5000 128 128 := rfl

/-- The tile body's result at `(p, q)`: row `p` of the rectified normalisation against column `q` of the weights, plus the bias. -/
theorem pay8_apply (x0 : Vec Ideal S5000x128 .f32) (x1 x2 x3 x4 : Vec Ideal S128 .f32) (x5 : Vec Ideal S128x128 .f32)
    (x6 : Vec Ideal S128 .f32) (p : Fin 5000) (q : Fin 128) :
    k8_pay1 (F := Ideal) x0 x1 x2 x3 x4 x5 x6 (ix2 p q)
      = Cert.Spec.linE (Cert.Spec.relu (Cert.Spec.bn x0 x1 x2 x3 x4)) x5 x6 p q := by
  unfold k8_pay1
  simp only [shapeCast_self]
  rw [addf_apply, row8_apply, dot8_eq]
  refine congrArg (· + x6 (ix1 q)) ?_
  refine (Cert.Lib.PlainDot.matmul_zero_apply none _ _ p q).trans ?_
  refine Finset.sum_congr rfl fun k _ => ?_
  rw [truncf_apply, truncf_apply, maximumf_apply, addf_apply, mulf_apply, mulf_apply, subf_apply,
    row8_apply, row8_apply, row8_apply, row8_apply]
  rfl

/-- The product of the rectified normalisation of whole arrays with the weights, plus the bias, at an index `i`,
    from a tile whose row `p` is the node array's row of `i`, whose column `q` is `i`'s column, and whose
    feature vectors, weights and bias are the whole ones. -/
theorem entry8 (X : FVec Ideal S40000x128 .f32) (μ v g β : FVec Ideal S128 .f32) (W : FVec Ideal S128x128 .f32)
    (b : FVec Ideal S128 .f32) (xb : Vec Ideal S5000x128 .f32) (μb vb gb βb : Vec Ideal S128 .f32)
    (Wb : Vec Ideal S128x128 .f32) (bb : Vec Ideal S128 .f32) (p : Fin 5000) (q : Fin 128) (i : S40000x128.Idx)
    (hx : ∀ k : Fin 128, xb (ix2 p k) = X (ix2 (i 0) k)) (h1 : ∀ k : Fin 128, μb (ix1 k) = μ (ix1 k))
    (h2 : ∀ k : Fin 128, vb (ix1 k) = v (ix1 k)) (h3 : ∀ k : Fin 128, gb (ix1 k) = g (ix1 k))
    (h4 : ∀ k : Fin 128, βb (ix1 k) = β (ix1 k)) (hW : ∀ k : Fin 128, Wb (ix2 k q) = W (ix2 k (i 1)))
    (hb : bb (ix1 q) = b (ix1 (i 1))) :
    Cert.Spec.linE (Cert.Spec.relu (Cert.Spec.bn xb μb vb gb βb)) Wb bb p q
      = Cert.Spec.lin (Cert.Spec.relu (Cert.Spec.bn X μ v g β)) W b i := by
  show (∑ k : Fin 128, max ((xb (ix2 p k) - μb (ix1 k)) * Ideal.rsqrt (vb (ix1 k) + Cert.Spec.eps) * gb (ix1 k) + βb (ix1 k)) Cert.Spec.zeroW
        * Wb (ix2 k q)) + bb (ix1 q)
    = (∑ k : Fin 128, max ((X (ix2 (i 0) k) - μ (ix1 k)) * Ideal.rsqrt (v (ix1 k) + Cert.Spec.eps) * g (ix1 k) + β (ix1 k)) Cert.Spec.zeroW
        * W (ix2 k (i 1))) + b (ix1 (i 1))
  rw [hb]
  refine congrArg (· + b (ix1 (i 1))) (Finset.sum_congr rfl fun k _ => ?_)
  rw [hx k, h1 k, h2 k, h3 k, h4 k, hW k]

/-! ## From tiles to the array -/

theorem zeros8_2 : (![0, 0] : Fin 2 → Nat) = fun _ => 0 := funext fun a => by fin_cases a <;> rfl
theorem zeros8_1 : (![0] : Fin 1 → Nat) = fun _ => 0 := funext fun a => by fin_cases a <;> rfl

/-- The region's output array as one function of the arrays the region found. -/
abbrev G8 (c : Dev nD) : FVec Ideal S40000x128 .f32 :=
  Cert.Spec.lin (Cert.Spec.relu (Cert.Spec.bn (V c main_v145) (V c main_v148) (V c main_v149) (V c main_v151) (V c main_v153)))
    (V c main_v155) (V c main_v157)

/-- The tile positions, decided over the eight tiles: the input node array's tile moves with the output's, the
    feature vectors and the weight matrix stay whole, and the output's tile at point `t` is one of the eight tiles of
    rows, all 128 columns. -/
theorem tiles8 : ∀ t : Fin cfg8.N, win8_0.index t (0 : Fin 2) = win8_7.index t (0 : Fin 2)
    ∧ win8_0.index t (1 : Fin 2) = 0
    ∧ win8_1.index t (0 : Fin 1) = 0
    ∧ win8_2.index t (0 : Fin 1) = 0
    ∧ win8_3.index t (0 : Fin 1) = 0
    ∧ win8_4.index t (0 : Fin 1) = 0
    ∧ win8_5.index t (0 : Fin 2) = 0
    ∧ win8_5.index t (1 : Fin 2) = 0
    ∧ win8_6.index t (0 : Fin 1) = 0
    ∧ win8_7.index t (0 : Fin 2) ≤ 7
    ∧ win8_7.index t (1 : Fin 2) = 0 :=
  (by decide +kernel : ∀ t : Fin grid8.N, _)

/-- Every tile of rows is some point's. -/
theorem tiles8_onto : ∀ (r : Fin 8), ∃ t : Fin cfg8.N, win8_7.index t = ![r.val, 0] :=
  (by decide +kernel : ∀ (r : Fin 8), ∃ t : Fin grid8.N, win8_7.index t = ![r.val, 0])

/-- What point `t` writes back is tile `t` of `G8`. -/
theorem flushed8_eq (c : Dev nD) (t : Fin cfg8.N) :
    (dat8 (F := Ideal) V c).flushed 7 t = ((cfg8.win 7).blk t).view.read (Elt Ideal) (G8 V c) := by
  show (cfg8.win 7).cut (grid8.coords t) ((dat8 V c).after 7 t) = _
  rw [after8_7]
  unfold out8_7
  rw [View.canon_unit_zero zeros8_2]
  simp only [View.ld_unit_zero (S := S5000x128) zeros8_2, View.ld_unit_zero (S := S128) zeros8_1,
    View.ld_unit_zero (S := S128x128) zeros8_2]
  obtain ⟨e0, e1, e2, e3, e4, e5, e6, e7, e8, e9, e10⟩ := tiles8 t
  funext j
  obtain ⟨p, q, rfl⟩ : ∃ (p : Fin 5000) (q : Fin 128), j = ix2 p q := ⟨j 0, j 1, eq_ix2 j⟩
  refine (pay8_apply (iblk8 V c 0 t) (iblk8 V c 1 t) (iblk8 V c 2 t) (iblk8 V c 3 t) (iblk8 V c 4 t) (iblk8 V c 5 t)
    (iblk8 V c 6 t) p q).trans ?_
  have h0 : ∀ k : Fin 128, ((cfg8.win 0).blk t).view.emb (ix2 p k) = ix2 (((cfg8.win 7).blk t).view.emb (ix2 p q) 0) k := fun k => by
    funext a; apply Fin.ext
    match a with
    | ⟨0, _⟩ => show win8_0.index t (0 : Fin 2) * 5000 + 1 * p.val = win8_7.index t (0 : Fin 2) * 5000 + 1 * p.val; omega
    | ⟨1, _⟩ => show win8_0.index t (1 : Fin 2) * 128 + 1 * k.val = k.val; omega
  have h1 : ∀ k : Fin 128, ((cfg8.win 1).blk t).view.emb (ix1 k) = ix1 k := fun k => by
    funext a; apply Fin.ext
    match a with
    | ⟨0, _⟩ => show win8_1.index t (0 : Fin 1) * 128 + 1 * k.val = k.val; omega
  have h2 : ∀ k : Fin 128, ((cfg8.win 2).blk t).view.emb (ix1 k) = ix1 k := fun k => by
    funext a; apply Fin.ext
    match a with
    | ⟨0, _⟩ => show win8_2.index t (0 : Fin 1) * 128 + 1 * k.val = k.val; omega
  have h3 : ∀ k : Fin 128, ((cfg8.win 3).blk t).view.emb (ix1 k) = ix1 k := fun k => by
    funext a; apply Fin.ext
    match a with
    | ⟨0, _⟩ => show win8_3.index t (0 : Fin 1) * 128 + 1 * k.val = k.val; omega
  have h4 : ∀ k : Fin 128, ((cfg8.win 4).blk t).view.emb (ix1 k) = ix1 k := fun k => by
    funext a; apply Fin.ext
    match a with
    | ⟨0, _⟩ => show win8_4.index t (0 : Fin 1) * 128 + 1 * k.val = k.val; omega
  have h5 : ∀ k : Fin 128, ((cfg8.win 5).blk t).view.emb (ix2 k q) = ix2 k (((cfg8.win 7).blk t).view.emb (ix2 p q) 1) := fun k => by
    funext a; apply Fin.ext
    match a with
    | ⟨0, _⟩ => show win8_5.index t (0 : Fin 2) * 128 + 1 * k.val = k.val; omega
    | ⟨1, _⟩ => show win8_5.index t (1 : Fin 2) * 128 + 1 * q.val = win8_7.index t (1 : Fin 2) * 128 + 1 * q.val; omega
  have h6 : ((cfg8.win 6).blk t).view.emb (ix1 q) = ix1 (((cfg8.win 7).blk t).view.emb (ix2 p q) 1) := by
    funext a; apply Fin.ext
    match a with
    | ⟨0, _⟩ => show win8_6.index t (0 : Fin 1) * 128 + 1 * q.val = win8_7.index t (1 : Fin 2) * 128 + 1 * q.val; omega
  show Cert.Spec.linE (Cert.Spec.relu (Cert.Spec.bn (iblk8 V c 0 t) (iblk8 V c 1 t) (iblk8 V c 2 t) (iblk8 V c 3 t) (iblk8 V c 4 t)))
      (iblk8 V c 5 t) (iblk8 V c 6 t) p q
    = G8 V c (((cfg8.win 7).blk t).view.emb (ix2 p q))
  refine entry8 (V c main_v145) (V c main_v148) (V c main_v149) (V c main_v151) (V c main_v153) (V c main_v155) (V c main_v157)
    (iblk8 V c 0 t) (iblk8 V c 1 t) (iblk8 V c 2 t) (iblk8 V c 3 t) (iblk8 V c 4 t) (iblk8 V c 5 t) (iblk8 V c 6 t) p q
    (((cfg8.win 7).blk t).view.emb (ix2 p q)) (fun k => ?_) (fun k => ?_) (fun k => ?_) (fun k => ?_) (fun k => ?_) (fun k => ?_) ?_
  · show V c main_v145 (((cfg8.win 0).blk t).view.emb (ix2 p k)) = V c main_v145 (ix2 (((cfg8.win 7).blk t).view.emb (ix2 p q) 0) k)
    exact congrArg (V c main_v145) (h0 k)
  · show V c main_v148 (((cfg8.win 1).blk t).view.emb (ix1 k)) = V c main_v148 (ix1 k)
    exact congrArg (V c main_v148) (h1 k)
  · show V c main_v149 (((cfg8.win 2).blk t).view.emb (ix1 k)) = V c main_v149 (ix1 k)
    exact congrArg (V c main_v149) (h2 k)
  · show V c main_v151 (((cfg8.win 3).blk t).view.emb (ix1 k)) = V c main_v151 (ix1 k)
    exact congrArg (V c main_v151) (h3 k)
  · show V c main_v153 (((cfg8.win 4).blk t).view.emb (ix1 k)) = V c main_v153 (ix1 k)
    exact congrArg (V c main_v153) (h4 k)
  · show V c main_v155 (((cfg8.win 5).blk t).view.emb (ix2 k q)) = V c main_v155 (ix2 k (((cfg8.win 7).blk t).view.emb (ix2 p q) 1))
    exact congrArg (V c main_v155) (h5 k)
  · show V c main_v157 (((cfg8.win 6).blk t).view.emb (ix1 q)) = V c main_v157 (ix1 (((cfg8.win 7).blk t).view.emb (ix2 p q) 1))
    exact congrArg (V c main_v157) h6

/-- An index of the output array is in point `t`'s tile iff each coordinate is in the tile's range on its axis. -/
theorem mem_tile8 (t : Fin cfg8.N) (i : S40000x128.Idx) :
    i ∈ ((cfg8.win 7).blk t).view.set ↔ ∀ a : Fin 2, win8_7.index t a * S5000x128.size a ≤ (i a).val ∧ (i a).val < win8_7.index t a * S5000x128.size a + S5000x128.size a := by
  show i ∈ ((View.whole main_v158).slice (win8_7.rect t)).set ↔ _
  rw [View.set_slice_whole, Rect.mem_set_unit]
  exact Iff.rfl

/-- Every index of the output array is in some point's tile: row `r` in tile `r / 5000`. -/
theorem cover8 (i : S40000x128.Idx) :
    ∃ t : Fin cfg8.N, (cfg8.win 7).flush t = true ∧ i ∈ ((cfg8.win 7).blk t).view.set := by
  have hi0 : (i 0).val < 40000 := (i 0).isLt
  have hi1 : (i 1).val < 128 := (i 1).isLt
  obtain ⟨t, ht⟩ := tiles8_onto ⟨(i 0).val / 5000, by omega⟩
  have q0 : win8_7.index t (0 : Fin 2) = (i 0).val / 5000 := congrFun ht 0
  have q1 : win8_7.index t (1 : Fin 2) = 0 := congrFun ht 1
  refine ⟨t, flush8_7 t, ?_⟩
  rw [mem_tile8]
  intro a
  match a with
  | ⟨0, _⟩ => show win8_7.index t (0 : Fin 2) * 5000 ≤ (i 0).val ∧ (i 0).val < win8_7.index t (0 : Fin 2) * 5000 + 5000; omega
  | ⟨1, _⟩ => show win8_7.index t (1 : Fin 2) * 128 ≤ (i 1).val ∧ (i 1).val < win8_7.index t (1 : Fin 2) * 128 + 128; omega

/-- The output array after the region is the rectified normalisation of the node array the region found, times the
    weight matrix, plus the bias. -/
theorem val8 (c : Dev nD) : (dat8 (F := Ideal) V c).arrAt 7 cfg8.N
    = Cert.Spec.lin (Cert.Spec.relu (Cert.Spec.bn (V c main_v145) (V c main_v148) (V c main_v149) (V c main_v151) (V c main_v153)))
        (V c main_v155) (V c main_v157) :=
  (dat8 V c).arrAt_eq_of_cover 7 (G8 V c) (fun t _ => flushed8_eq V c t) cover8

end Cert.KernelIdeal.KVal

end
-- ==== Proof.KFoldL1.lean ====
/-
  Layer 1 of the network, read off the run's fold from the boundary after its input's linear map to the boundary
  after its last region.

  The layer's input is an array `X` (the previous linear output, before normalisation), a scale `G` and a shift
  `Bt`; with them come the per-node sums `s` and counts `n` of the edge attributes and the two rows `src`, `dst`
  of the edge list. What the buffers hold, stage by stage:
  * the column mean and variance of `X`, then the edge row and edge bias of this layer;
  * the edge region's array `s ⊗ row + n ⊗ bias`, and its column mean and variance;
  * the neighbour and node maps' parameters, then the two linear images of `x = max (bn X) 0`;
  * the node image's statistics; the neighbour image gathered at the edges' sources and summed at their targets, and
    that aggregate's statistics; the three scales and shifts and the first update map's parameters;
  * the first update map of the clipped sum of the three normalised arrays, its statistics, the second update map's
    parameters, and the second update map of its clipped normalisation — which is `Net.layerRaw` of `x`.
  Every stage is the preceding boundary's contents under one stretch of host operations (read with
  `after_results_k`) or one region (its exit array is the region's value at the entry contents); a buffer that a
  stretch or region does not write is carried by `hs…` / `W…_of_ne`.
-/
import proofs.«426021_j89885075570707_3_alg».proof.Proof.KFoldKeep
import proofs.«426021_j89885075570707_3_alg».proof.Proof.KFoldTac
import proofs.«426021_j89885075570707_3_alg».proof.Proof.KVal5
import proofs.«426021_j89885075570707_3_alg».proof.Proof.KVal6
import proofs.«426021_j89885075570707_3_alg».proof.Proof.KVal7
import proofs.«426021_j89885075570707_3_alg».proof.Proof.KVal8

set_option maxRecDepth 16384
-- a variance stretch read back through its twenty-two operations is compared with `Chains.var` by unfolding
set_option maxHeartbeats 4000000
-- one theorem at a time: each side condition is decided by the kernel, and in parallel these pass the machine's memory
set_option Elab.async false

noncomputable section

namespace Cert.KernelIdeal.KFold

open Idealize.ShloMosaic Idealize.ShloMosaic.TcCoe Idealize.SL.Sem Cert.KernelIdeal Cert.KernelIdeal.Gen
open Cert.Chains Cert.Spec Cert.Net

variable (m : (ℓ : Loc nD τ sig) → Buf (Elt Ideal) ℓ) (ρ : Dev nD → PrngReg)

/-- What layer 1 finds: its input array, scale and shift, the per-node sums and counts, the edge list's rows, and
    the boundaries at which the buffers hold them. -/
structure In1 where
  X : Dev nD → FVec Ideal SN .f32
  G : Dev nD → FVec Ideal SF .f32
  Bt : Dev nD → FVec Ideal SF .f32
  s : Dev nD → FVec Ideal SN1 .f32
  n : Dev nD → FVec Ideal SN1 .f32
  src : Dev nD → IVec SEs 32
  dst : Dev nD → IVec SEs 32
  hX : ∀ c, W20 m ρ c (Proc.devRef .tc main_v84) = X c
  hG : ∀ c, W23 m ρ c (Proc.devRef .tc main_v90) = G c
  hBt : ∀ c, W23 m ρ c (Proc.devRef .tc main_v92) = Bt c
  hs : ∀ c, W23 m ρ c (Proc.devRef .tc main_v12) = s c
  hn : ∀ c, W23 m ρ c (Proc.devRef .tc main_v13) = n c
  hsrc : ∀ c, W30 m ρ c (Proc.devRef .tc main_v1) = src c
  hdst : ∀ c, W30 m ρ c (Proc.devRef .tc main_v3) = dst c

variable (I : In1 m ρ)

/-! ## The layer's arrays -/

/-- The normalised, clipped input. -/
def l1_xin (c : Dev nD) : FVec Ideal SN .f32 := Net.norm (I.X c) (I.G c) (I.Bt c)
/-- The edge branch's array. -/
def l1_ea (c : Dev nD) : FVec Ideal SN .f32 := Spec.outer (I.s c) (I.n c) (row1 (A9 m c)) (vec1 (A10 m c))
/-- The neighbour map's image. -/
def l1_hb (c : Dev nD) : FVec Ideal SN .f32 := Spec.lin (l1_xin m ρ I c) (mat1 (A11 m c)) (vec1 (A12 m c))
/-- The node map's image. -/
def l1_xn (c : Dev nD) : FVec Ideal SN .f32 := Spec.lin (l1_xin m ρ I c) (mat1 (A7 m c)) (vec1 (A8 m c))
/-- The neighbour aggregate. -/
def l1_ag (c : Dev nD) : FVec Ideal SN .f32 := Net.aggregate (I.src c) (I.dst c) (l1_hb m ρ I c)
/-- The first update map's image. -/
def l1_u (c : Dev nD) : FVec Ideal SN .f32 :=
  Spec.lin (Spec.relu (Spec.add3 (Net.bnS (l1_xn m ρ I c) (vec1 (A13 m c)) (vec1 (A14 m c)))
      (Net.bnS (l1_ag m ρ I c) (vec1 (A17 m c)) (vec1 (A18 m c))) (Net.bnS (l1_ea m ρ I c) (vec1 (A15 m c)) (vec1 (A16 m c)))))
    (mat1 (A19 m c)) (vec1 (A20 m c))
/-- The second update map's image: the layer's output before the next normalisation. -/
def l1_y (c : Dev nD) : FVec Ideal SN .f32 :=
  Spec.lin (Net.norm (l1_u m ρ I c) (vec1 (A21 m c)) (vec1 (A22 m c))) (mat1 (A23 m c)) (vec1 (A24 m c))

/-- The layer's output is `Net.layerRaw` at the layer's parameters, its edge array and its normalised input. -/
theorem l1_y_eq (c : Dev nD) :
    l1_y m ρ I c = Net.layerRaw (I.src c) (I.dst c)
      (Net.P1 (A7 m c) (A8 m c) (A11 m c) (A12 m c) (A13 m c) (A14 m c) (A15 m c) (A16 m c) (A17 m c) (A18 m c)
        (A19 m c) (A20 m c) (A21 m c) (A22 m c) (A23 m c) (A24 m c))
      (l1_ea m ρ I c) (l1_xin m ρ I c) := rfl

/-! ## The input's statistics, the edge row and bias, the edge region -/

theorem l1_mu_3 (c : Dev nD) : W21 m ρ c (Proc.devRef .tc main_v87) = Chains.mean (I.X c) := by
  have h1 := I.hX c
  show StableHlo.after hostOps5 (W20 m ρ c) (Proc.devRef .tc main_v87) = _
  generalize W20 m ρ c = V at h1 ⊢
  after_results_k
  rw [h1] <;> (generalize I.X c = X; rfl)
theorem l1_c_3 (c : Dev nD) : W21 m ρ c (Proc.devRef .tc main_c_21) = constantI S_ 32 0#32 := by
  show StableHlo.after hostOps5 (W20 m ρ c) (Proc.devRef .tc main_c_21) = _
  generalize W20 m ρ c = V
  after_results_k <;> rfl
theorem l1_x_3 (c : Dev nD) : W21 m ρ c (Proc.devRef .tc main_v84) = I.X c :=
  (hs5 m ρ c main_v84 (by decide +kernel)).trans <|
  (I.hX c)
theorem l1_var_4 (c : Dev nD) : W22 m ρ c (Proc.devRef .tc main_v88) = Chains.var (I.X c) := by
  have h1 := l1_x_3 m ρ I c
  have h2 := l1_c_3 m ρ c
  show StableHlo.after hostOps5_1 (W21 m ρ c) (Proc.devRef .tc main_v88) = _
  generalize W21 m ρ c = V at h1 h2 ⊢
  after_results_k
  rw [h1, h2] <;> (generalize I.X c = X; rfl)
theorem l1_er_5 (c : Dev nD) : W23 m ρ c (Proc.devRef .tc main_v94) = row1 (A9 m c) := by
  have h1 := a9_W22 m ρ c
  show StableHlo.after hostOps5_2 (W22 m ρ c) (Proc.devRef .tc main_v94) = _
  generalize W22 m ρ c = V at h1 ⊢
  after_results_k
  rw [h1] <;> rfl
theorem l1_eb_5 (c : Dev nD) : W23 m ρ c (Proc.devRef .tc main_v96) = vec1 (A10 m c) := by
  have h1 := a10_W22 m ρ c
  show StableHlo.after hostOps5_2 (W22 m ρ c) (Proc.devRef .tc main_v96) = _
  generalize W22 m ρ c = V at h1 ⊢
  after_results_k
  rw [h1] <;> rfl
theorem l1_ea_6 (c : Dev nD) : W24 m ρ c (Proc.devRef .tc main_v97) = l1_ea m ρ I c := by
  refine ((W24_arr m ρ c 4).trans (KVal.val5 (V23 m ρ) c)).trans ?_
  dsimp only [V23]
  rw [I.hs c,
    I.hn c,
    l1_er_5 m ρ c,
    l1_eb_5 m ρ c] <;> rfl

/-! ## The edge array's statistics, the two linear maps' parameters, the two linear images -/

theorem l1_emu_7 (c : Dev nD) : W25 m ρ c (Proc.devRef .tc main_v100) = Chains.mean (l1_ea m ρ I c) := by
  have h1 := l1_ea_6 m ρ I c
  show StableHlo.after hostOps6 (W24 m ρ c) (Proc.devRef .tc main_v100) = _
  generalize W24 m ρ c = V at h1 ⊢
  after_results_k
  rw [h1] <;> (generalize l1_ea m ρ I c = X; rfl)
theorem l1_ec_7 (c : Dev nD) : W25 m ρ c (Proc.devRef .tc main_c_24) = constantI S_ 32 0#32 := by
  show StableHlo.after hostOps6 (W24 m ρ c) (Proc.devRef .tc main_c_24) = _
  generalize W24 m ρ c = V
  after_results_k <;> rfl
theorem l1_ea_7 (c : Dev nD) : W25 m ρ c (Proc.devRef .tc main_v97) = l1_ea m ρ I c :=
  (hs6 m ρ c main_v97 (by decide +kernel)).trans <|
  (l1_ea_6 m ρ I c)
theorem l1_evar_8 (c : Dev nD) : W26 m ρ c (Proc.devRef .tc main_v101) = Chains.var (l1_ea m ρ I c) := by
  have h1 := l1_ea_7 m ρ I c
  have h2 := l1_ec_7 m ρ c
  show StableHlo.after hostOps6_1 (W25 m ρ c) (Proc.devRef .tc main_v101) = _
  generalize W25 m ρ c = V at h1 h2 ⊢
  after_results_k
  rw [h1, h2] <;> (generalize l1_ea m ρ I c = X; rfl)
theorem l1_wnb_9 (c : Dev nD) : W27 m ρ c (Proc.devRef .tc main_v103) = mat1 (A11 m c) := by
  have h1 := a11_W26 m ρ c
  show StableHlo.after hostOps6_2 (W26 m ρ c) (Proc.devRef .tc main_v103) = _
  generalize W26 m ρ c = V at h1 ⊢
  after_results_k
  rw [h1] <;> rfl
theorem l1_bnb_9 (c : Dev nD) : W27 m ρ c (Proc.devRef .tc main_v105) = vec1 (A12 m c) := by
  have h1 := a12_W26 m ρ c
  show StableHlo.after hostOps6_2 (W26 m ρ c) (Proc.devRef .tc main_v105) = _
  generalize W26 m ρ c = V at h1 ⊢
  after_results_k
  rw [h1] <;> rfl
theorem l1_wnode_9 (c : Dev nD) : W27 m ρ c (Proc.devRef .tc main_v107) = mat1 (A7 m c) := by
  have h1 := a7_W26 m ρ c
  show StableHlo.after hostOps6_2 (W26 m ρ c) (Proc.devRef .tc main_v107) = _
  generalize W26 m ρ c = V at h1 ⊢
  after_results_k
  rw [h1] <;> rfl
theorem l1_bnode_9 (c : Dev nD) : W27 m ρ c (Proc.devRef .tc main_v109) = vec1 (A8 m c) := by
  have h1 := a8_W26 m ρ c
  show StableHlo.after hostOps6_2 (W26 m ρ c) (Proc.devRef .tc main_v109) = _
  generalize W26 m ρ c = V at h1 ⊢
  after_results_k
  rw [h1] <;> rfl
theorem l1_x_9 (c : Dev nD) : W27 m ρ c (Proc.devRef .tc main_v84) = I.X c :=
  (hs6_2 m ρ c main_v84 (by decide +kernel)).trans <|
  (hs6_1 m ρ c main_v84 (by decide +kernel)).trans <|
  (hs6 m ρ c main_v84 (by decide +kernel)).trans <|
  (W24_of_ne m ρ c main_v84 (by decide +kernel)).trans <|
  (hs5_2 m ρ c main_v84 (by decide +kernel)).trans <|
  (hs5_1 m ρ c main_v84 (by decide +kernel)).trans <|
  (l1_x_3 m ρ I c)
theorem l1_mu_9 (c : Dev nD) : W27 m ρ c (Proc.devRef .tc main_v87) = Chains.mean (I.X c) :=
  (hs6_2 m ρ c main_v87 (by decide +kernel)).trans <|
  (hs6_1 m ρ c main_v87 (by decide +kernel)).trans <|
  (hs6 m ρ c main_v87 (by decide +kernel)).trans <|
  (W24_of_ne m ρ c main_v87 (by decide +kernel)).trans <|
  (hs5_2 m ρ c main_v87 (by decide +kernel)).trans <|
  (hs5_1 m ρ c main_v87 (by decide +kernel)).trans <|
  (l1_mu_3 m ρ I c)
theorem l1_var_9 (c : Dev nD) : W27 m ρ c (Proc.devRef .tc main_v88) = Chains.var (I.X c) :=
  (hs6_2 m ρ c main_v88 (by decide +kernel)).trans <|
  (hs6_1 m ρ c main_v88 (by decide +kernel)).trans <|
  (hs6 m ρ c main_v88 (by decide +kernel)).trans <|
  (W24_of_ne m ρ c main_v88 (by decide +kernel)).trans <|
  (hs5_2 m ρ c main_v88 (by decide +kernel)).trans <|
  (l1_var_4 m ρ I c)
theorem l1_g_9 (c : Dev nD) : W27 m ρ c (Proc.devRef .tc main_v90) = I.G c :=
  (hs6_2 m ρ c main_v90 (by decide +kernel)).trans <|
  (hs6_1 m ρ c main_v90 (by decide +kernel)).trans <|
  (hs6 m ρ c main_v90 (by decide +kernel)).trans <|
  (W24_of_ne m ρ c main_v90 (by decide +kernel)).trans <|
  (I.hG c)
theorem l1_bt_9 (c : Dev nD) : W27 m ρ c (Proc.devRef .tc main_v92) = I.Bt c :=
  (hs6_2 m ρ c main_v92 (by decide +kernel)).trans <|
  (hs6_1 m ρ c main_v92 (by decide +kernel)).trans <|
  (hs6 m ρ c main_v92 (by decide +kernel)).trans <|
  (W24_of_ne m ρ c main_v92 (by decide +kernel)).trans <|
  (I.hBt c)
theorem l1_hb_10 (c : Dev nD) : W28 m ρ c (Proc.devRef .tc main_v110_0) = l1_hb m ρ I c := by
  refine ((W28_arr m ρ c 9).trans (KVal.val6_a (V27 m ρ) c)).trans ?_
  dsimp only [V27]
  rw [l1_x_9 m ρ I c,
    l1_mu_9 m ρ I c,
    l1_var_9 m ρ I c,
    l1_g_9 m ρ I c,
    l1_bt_9 m ρ I c,
    l1_wnb_9 m ρ c,
    l1_bnb_9 m ρ c] <;> rfl
theorem l1_xn_10 (c : Dev nD) : W28 m ρ c (Proc.devRef .tc main_v110_1) = l1_xn m ρ I c := by
  refine ((W28_arr m ρ c 10).trans (KVal.val6_b (V27 m ρ) c)).trans ?_
  dsimp only [V27]
  rw [l1_x_9 m ρ I c,
    l1_mu_9 m ρ I c,
    l1_var_9 m ρ I c,
    l1_g_9 m ρ I c,
    l1_bt_9 m ρ I c,
    l1_wnode_9 m ρ c,
    l1_bnode_9 m ρ c] <;> rfl

/-! ## The node image's statistics, the neighbour aggregate and its statistics, the first update map -/

theorem l1_xmu_11 (c : Dev nD) : W29 m ρ c (Proc.devRef .tc main_v113) = Chains.mean (l1_xn m ρ I c) := by
  have h1 := l1_xn_10 m ρ I c
  show StableHlo.after hostOps7 (W28 m ρ c) (Proc.devRef .tc main_v113) = _
  generalize W28 m ρ c = V at h1 ⊢
  after_results_k
  rw [h1] <;> (generalize l1_xn m ρ I c = X; rfl)
theorem l1_xc_11 (c : Dev nD) : W29 m ρ c (Proc.devRef .tc main_c_27) = constantI S_ 32 0#32 := by
  show StableHlo.after hostOps7 (W28 m ρ c) (Proc.devRef .tc main_c_27) = _
  generalize W28 m ρ c = V
  after_results_k <;> rfl
theorem l1_xn_11 (c : Dev nD) : W29 m ρ c (Proc.devRef .tc main_v110_1) = l1_xn m ρ I c :=
  (hs7 m ρ c main_v110_1 (by decide +kernel)).trans <|
  (l1_xn_10 m ρ I c)
theorem l1_xvar_12 (c : Dev nD) : W30 m ρ c (Proc.devRef .tc main_v114) = Chains.var (l1_xn m ρ I c) := by
  have h1 := l1_xn_11 m ρ I c
  have h2 := l1_xc_11 m ρ c
  show StableHlo.after hostOps7_1 (W29 m ρ c) (Proc.devRef .tc main_v114) = _
  generalize W29 m ρ c = V at h1 h2 ⊢
  after_results_k
  rw [h1, h2] <;> (generalize l1_xn m ρ I c = X; rfl)
theorem l1_hb_12 (c : Dev nD) : W30 m ρ c (Proc.devRef .tc main_v110_0) = l1_hb m ρ I c :=
  (hs7_1 m ρ c main_v110_0 (by decide +kernel)).trans <|
  (hs7 m ρ c main_v110_0 (by decide +kernel)).trans <|
  (l1_hb_10 m ρ I c)
theorem l1_ag_13 (c : Dev nD) : W31 m ρ c (Proc.devRef .tc main_v124) = l1_ag m ρ I c := by
  have h1 := I.hsrc c
  have h2 := I.hdst c
  have h3 := l1_hb_12 m ρ I c
  show StableHlo.after hostOps7_2 (W30 m ρ c) (Proc.devRef .tc main_v124) = _
  generalize W30 m ρ c = V at h1 h2 h3 ⊢
  after_results_k
  rw [h1, h2, h3] <;> rfl
theorem l1_amu_13 (c : Dev nD) : W31 m ρ c (Proc.devRef .tc main_v127) = Chains.mean (l1_ag m ρ I c) := by
  have h1 := I.hsrc c
  have h2 := I.hdst c
  have h3 := l1_hb_12 m ρ I c
  show StableHlo.after hostOps7_2 (W30 m ρ c) (Proc.devRef .tc main_v127) = _
  generalize W30 m ρ c = V at h1 h2 h3 ⊢
  after_results_k
  rw [h1, h2, h3] <;> rfl
theorem l1_ac_13 (c : Dev nD) : W31 m ρ c (Proc.devRef .tc main_c_33) = constantI S_ 32 0#32 := by
  show StableHlo.after hostOps7_2 (W30 m ρ c) (Proc.devRef .tc main_c_33) = _
  generalize W30 m ρ c = V
  after_results_k <;> rfl
theorem l1_avar_14 (c : Dev nD) : W32 m ρ c (Proc.devRef .tc main_v128) = Chains.var (l1_ag m ρ I c) := by
  have h1 := l1_ag_13 m ρ I c
  have h2 := l1_ac_13 m ρ c
  show StableHlo.after hostOps7_3 (W31 m ρ c) (Proc.devRef .tc main_v128) = _
  generalize W31 m ρ c = V at h1 h2 ⊢
  after_results_k
  rw [h1, h2] <;> (generalize l1_ag m ρ I c = X; rfl)
theorem l1_gn_15 (c : Dev nD) : W33 m ρ c (Proc.devRef .tc main_v130) = vec1 (A13 m c) := by
  have h1 := a13_W32 m ρ c
  show StableHlo.after hostOps7_4 (W32 m ρ c) (Proc.devRef .tc main_v130) = _
  generalize W32 m ρ c = V at h1 ⊢
  after_results_k
  rw [h1] <;> rfl
theorem l1_btn_15 (c : Dev nD) : W33 m ρ c (Proc.devRef .tc main_v132) = vec1 (A14 m c) := by
  have h1 := a14_W32 m ρ c
  show StableHlo.after hostOps7_4 (W32 m ρ c) (Proc.devRef .tc main_v132) = _
  generalize W32 m ρ c = V at h1 ⊢
  after_results_k
  rw [h1] <;> rfl
theorem l1_gnb_15 (c : Dev nD) : W33 m ρ c (Proc.devRef .tc main_v134) = vec1 (A17 m c) := by
  have h1 := a17_W32 m ρ c
  show StableHlo.after hostOps7_4 (W32 m ρ c) (Proc.devRef .tc main_v134) = _
  generalize W32 m ρ c = V at h1 ⊢
  after_results_k
  rw [h1] <;> rfl
theorem l1_btnb_15 (c : Dev nD) : W33 m ρ c (Proc.devRef .tc main_v136) = vec1 (A18 m c) := by
  have h1 := a18_W32 m ρ c
  show StableHlo.after hostOps7_4 (W32 m ρ c) (Proc.devRef .tc main_v136) = _
  generalize W32 m ρ c = V at h1 ⊢
  after_results_k
  rw [h1] <;> rfl
theorem l1_ge_15 (c : Dev nD) : W33 m ρ c (Proc.devRef .tc main_v138) = vec1 (A15 m c) := by
  have h1 := a15_W32 m ρ c
  show StableHlo.after hostOps7_4 (W32 m ρ c) (Proc.devRef .tc main_v138) = _
  generalize W32 m ρ c = V at h1 ⊢
  after_results_k
  rw [h1] <;> rfl
theorem l1_bte_15 (c : Dev nD) : W33 m ρ c (Proc.devRef .tc main_v140) = vec1 (A16 m c) := by
  have h1 := a16_W32 m ρ c
  show StableHlo.after hostOps7_4 (W32 m ρ c) (Proc.devRef .tc main_v140) = _
  generalize W32 m ρ c = V at h1 ⊢
  after_results_k
  rw [h1] <;> rfl
theorem l1_bm1_15 (c : Dev nD) : W33 m ρ c (Proc.devRef .tc main_v144) = vec1 (A20 m c) := by
  have h1 := a20_W32 m ρ c
  show StableHlo.after hostOps7_4 (W32 m ρ c) (Proc.devRef .tc main_v144) = _
  generalize W32 m ρ c = V at h1 ⊢
  after_results_k
  rw [h1] <;> rfl
theorem l1_wm1_15 (c : Dev nD) : W33 m ρ c (Proc.devRef .tc main_v142) = mat1 (A19 m c) := by
  have h1 := a19_W32 m ρ c
  show StableHlo.after hostOps7_4 (W32 m ρ c) (Proc.devRef .tc main_v142) = _
  generalize W32 m ρ c = V at h1 ⊢
  after_results_k
  rw [h1] <;> rfl
theorem l1_xn_15 (c : Dev nD) : W33 m ρ c (Proc.devRef .tc main_v110_1) = l1_xn m ρ I c :=
  (hs7_4 m ρ c main_v110_1 (by decide +kernel)).trans <|
  (hs7_3 m ρ c main_v110_1 (by decide +kernel)).trans <|
  (hs7_2 m ρ c main_v110_1 (by decide +kernel)).trans <|
  (hs7_1 m ρ c main_v110_1 (by decide +kernel)).trans <|
  (l1_xn_11 m ρ I c)
theorem l1_xmu_15 (c : Dev nD) : W33 m ρ c (Proc.devRef .tc main_v113) = Chains.mean (l1_xn m ρ I c) :=
  (hs7_4 m ρ c main_v113 (by decide +kernel)).trans <|
  (hs7_3 m ρ c main_v113 (by decide +kernel)).trans <|
  (hs7_2 m ρ c main_v113 (by decide +kernel)).trans <|
  (hs7_1 m ρ c main_v113 (by decide +kernel)).trans <|
  (l1_xmu_11 m ρ I c)
theorem l1_xvar_15 (c : Dev nD) : W33 m ρ c (Proc.devRef .tc main_v114) = Chains.var (l1_xn m ρ I c) :=
  (hs7_4 m ρ c main_v114 (by decide +kernel)).trans <|
  (hs7_3 m ρ c main_v114 (by decide +kernel)).trans <|
  (hs7_2 m ρ c main_v114 (by decide +kernel)).trans <|
  (l1_xvar_12 m ρ I c)
theorem l1_ag_15 (c : Dev nD) : W33 m ρ c (Proc.devRef .tc main_v124) = l1_ag m ρ I c :=
  (hs7_4 m ρ c main_v124 (by decide +kernel)).trans <|
  (hs7_3 m ρ c main_v124 (by decide +kernel)).trans <|
  (l1_ag_13 m ρ I c)
theorem l1_amu_15 (c : Dev nD) : W33 m ρ c (Proc.devRef .tc main_v127) = Chains.mean (l1_ag m ρ I c) :=
  (hs7_4 m ρ c main_v127 (by decide +kernel)).trans <|
  (hs7_3 m ρ c main_v127 (by decide +kernel)).trans <|
  (l1_amu_13 m ρ I c)
theorem l1_avar_15 (c : Dev nD) : W33 m ρ c (Proc.devRef .tc main_v128) = Chains.var (l1_ag m ρ I c) :=
  (hs7_4 m ρ c main_v128 (by decide +kernel)).trans <|
  (l1_avar_14 m ρ I c)
theorem l1_ea_15 (c : Dev nD) : W33 m ρ c (Proc.devRef .tc main_v97) = l1_ea m ρ I c :=
  (hs7_4 m ρ c main_v97 (by decide +kernel)).trans <|
  (hs7_3 m ρ c main_v97 (by decide +kernel)).trans <|
  (hs7_2 m ρ c main_v97 (by decide +kernel)).trans <|
  (hs7_1 m ρ c main_v97 (by decide +kernel)).trans <|
  (hs7 m ρ c main_v97 (by decide +kernel)).trans <|
  (W28_of_ne m ρ c main_v97 (by decide +kernel)).trans <|
  (hs6_2 m ρ c main_v97 (by decide +kernel)).trans <|
  (hs6_1 m ρ c main_v97 (by decide +kernel)).trans <|
  (l1_ea_7 m ρ I c)
theorem l1_emu_15 (c : Dev nD) : W33 m ρ c (Proc.devRef .tc main_v100) = Chains.mean (l1_ea m ρ I c) :=
  (hs7_4 m ρ c main_v100 (by decide +kernel)).trans <|
  (hs7_3 m ρ c main_v100 (by decide +kernel)).trans <|
  (hs7_2 m ρ c main_v100 (by decide +kernel)).trans <|
  (hs7_1 m ρ c main_v100 (by decide +kernel)).trans <|
  (hs7 m ρ c main_v100 (by decide +kernel)).trans <|
  (W28_of_ne m ρ c main_v100 (by decide +kernel)).trans <|
  (hs6_2 m ρ c main_v100 (by decide +kernel)).trans <|
  (hs6_1 m ρ c main_v100 (by decide +kernel)).trans <|
  (l1_emu_7 m ρ I c)
theorem l1_evar_15 (c : Dev nD) : W33 m ρ c (Proc.devRef .tc main_v101) = Chains.var (l1_ea m ρ I c) :=
  (hs7_4 m ρ c main_v101 (by decide +kernel)).trans <|
  (hs7_3 m ρ c main_v101 (by decide +kernel)).trans <|
  (hs7_2 m ρ c main_v101 (by decide +kernel)).trans <|
  (hs7_1 m ρ c main_v101 (by decide +kernel)).trans <|
  (hs7 m ρ c main_v101 (by decide +kernel)).trans <|
  (W28_of_ne m ρ c main_v101 (by decide +kernel)).trans <|
  (hs6_2 m ρ c main_v101 (by decide +kernel)).trans <|
  (l1_evar_8 m ρ I c)
theorem l1_u_16 (c : Dev nD) : W34 m ρ c (Proc.devRef .tc main_v145) = l1_u m ρ I c := by
  refine ((W34_arr m ρ c 17).trans (KVal.val7 (V33 m ρ) c)).trans ?_
  dsimp only [V33]
  rw [l1_xn_15 m ρ I c,
    l1_xmu_15 m ρ I c,
    l1_xvar_15 m ρ I c,
    l1_gn_15 m ρ c,
    l1_btn_15 m ρ c,
    l1_ag_15 m ρ I c,
    l1_amu_15 m ρ I c,
    l1_avar_15 m ρ I c,
    l1_gnb_15 m ρ c,
    l1_btnb_15 m ρ c,
    l1_ea_15 m ρ I c,
    l1_emu_15 m ρ I c,
    l1_evar_15 m ρ I c,
    l1_ge_15 m ρ c,
    l1_bte_15 m ρ c,
    l1_wm1_15 m ρ c,
    l1_bm1_15 m ρ c] <;> rfl

/-! ## The first update map's statistics, the second update map -/

theorem l1_umu_17 (c : Dev nD) : W35 m ρ c (Proc.devRef .tc main_v148) = Chains.mean (l1_u m ρ I c) := by
  have h1 := l1_u_16 m ρ I c
  show StableHlo.after hostOps8 (W34 m ρ c) (Proc.devRef .tc main_v148) = _
  generalize W34 m ρ c = V at h1 ⊢
  after_results_k
  rw [h1] <;> (generalize l1_u m ρ I c = X; rfl)
theorem l1_uc_17 (c : Dev nD) : W35 m ρ c (Proc.devRef .tc main_c_36) = constantI S_ 32 0#32 := by
  show StableHlo.after hostOps8 (W34 m ρ c) (Proc.devRef .tc main_c_36) = _
  generalize W34 m ρ c = V
  after_results_k <;> rfl
theorem l1_u_17 (c : Dev nD) : W35 m ρ c (Proc.devRef .tc main_v145) = l1_u m ρ I c :=
  (hs8 m ρ c main_v145 (by decide +kernel)).trans <|
  (l1_u_16 m ρ I c)
theorem l1_uvar_18 (c : Dev nD) : W36 m ρ c (Proc.devRef .tc main_v149) = Chains.var (l1_u m ρ I c) := by
  have h1 := l1_u_17 m ρ I c
  have h2 := l1_uc_17 m ρ c
  show StableHlo.after hostOps8_1 (W35 m ρ c) (Proc.devRef .tc main_v149) = _
  generalize W35 m ρ c = V at h1 h2 ⊢
  after_results_k
  rw [h1, h2] <;> (generalize l1_u m ρ I c = X; rfl)
theorem l1_gm1_19 (c : Dev nD) : W37 m ρ c (Proc.devRef .tc main_v151) = vec1 (A21 m c) := by
  have h1 := a21_W36 m ρ c
  show StableHlo.after hostOps8_2 (W36 m ρ c) (Proc.devRef .tc main_v151) = _
  generalize W36 m ρ c = V at h1 ⊢
  after_results_k
  rw [h1] <;> rfl
theorem l1_btm1_19 (c : Dev nD) : W37 m ρ c (Proc.devRef .tc main_v153) = vec1 (A22 m c) := by
  have h1 := a22_W36 m ρ c
  show StableHlo.after hostOps8_2 (W36 m ρ c) (Proc.devRef .tc main_v153) = _
  generalize W36 m ρ c = V at h1 ⊢
  after_results_k
  rw [h1] <;> rfl
theorem l1_wm2_19 (c : Dev nD) : W37 m ρ c (Proc.devRef .tc main_v155) = mat1 (A23 m c) := by
  have h1 := a23_W36 m ρ c
  show StableHlo.after hostOps8_2 (W36 m ρ c) (Proc.devRef .tc main_v155) = _
  generalize W36 m ρ c = V at h1 ⊢
  after_results_k
  rw [h1] <;> rfl
theorem l1_bm2_19 (c : Dev nD) : W37 m ρ c (Proc.devRef .tc main_v157) = vec1 (A24 m c) := by
  have h1 := a24_W36 m ρ c
  show StableHlo.after hostOps8_2 (W36 m ρ c) (Proc.devRef .tc main_v157) = _
  generalize W36 m ρ c = V at h1 ⊢
  after_results_k
  rw [h1] <;> rfl
theorem l1_u_19 (c : Dev nD) : W37 m ρ c (Proc.devRef .tc main_v145) = l1_u m ρ I c :=
  (hs8_2 m ρ c main_v145 (by decide +kernel)).trans <|
  (hs8_1 m ρ c main_v145 (by decide +kernel)).trans <|
  (l1_u_17 m ρ I c)
theorem l1_umu_19 (c : Dev nD) : W37 m ρ c (Proc.devRef .tc main_v148) = Chains.mean (l1_u m ρ I c) :=
  (hs8_2 m ρ c main_v148 (by decide +kernel)).trans <|
  (hs8_1 m ρ c main_v148 (by decide +kernel)).trans <|
  (l1_umu_17 m ρ I c)
theorem l1_uvar_19 (c : Dev nD) : W37 m ρ c (Proc.devRef .tc main_v149) = Chains.var (l1_u m ρ I c) :=
  (hs8_2 m ρ c main_v149 (by decide +kernel)).trans <|
  (l1_uvar_18 m ρ I c)
/-- The layer's last region leaves the second update map's image. -/
theorem l1_out (c : Dev nD) : W38 m ρ c (Proc.devRef .tc main_v158) = l1_y m ρ I c := by
  refine ((W38_arr m ρ c 7).trans (KVal.val8 (V37 m ρ) c)).trans ?_
  dsimp only [V37]
  rw [l1_u_19 m ρ I c,
    l1_umu_19 m ρ I c,
    l1_uvar_19 m ρ I c,
    l1_gm1_19 m ρ c,
    l1_btm1_19 m ρ c,
    l1_wm2_19 m ρ c,
    l1_bm2_19 m ρ c] <;> rfl

end Cert.KernelIdeal.KFold

end
-- ==== Proof.KVal9.lean ====
/-
  A rank-one combination of two node columns, read off the node-tiled kernel (region 9).

  The region walks the nodes in eight blocks of 5000 rows. At block `t` the body takes rows
  `5000 t … 5000 t + 4999` of two one-column node arrays `s` and `n`, the whole row `w` and the whole vector `b`,
  and writes `s p * w q + n p * b q` back as rows `5000 t … 5000 t + 4999` of the output array. The array the
  region leaves is `Spec.outer s n w b` of the arrays it finds.
-/
import proofs.«426021_j89885075570707_3_alg».proof.Proof.Gen.KernelIdeal.Frame
import proofs.«426021_j89885075570707_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- The zero offsets of a rank-2 access, however spelt. -/
private theorem zerosTwo : (![0, 0] : Fin 2 → Nat) = fun _ => 0 := funext fun a => by fin_cases a <;> rfl

/-- The zero offset of a rank-1 access. -/
private theorem zerosOne : (![0] : Fin 1 → Nat) = fun _ => 0 := funext fun a => by fin_cases a; rfl

/-- An `[a, 1]` column broadcast to `[a, b]` reads, at `(p, c)`, the column's entry at row `p`. -/
private theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry `(p, q)` of what the body stores: `s p * w q + n p * b q` of its four blocks. -/
theorem pay9_apply (x0 x1 : Vec Ideal S5000x1 .f32) (x2 : Vec Ideal S1x128 .f32) (x3 : Vec Ideal S128 .f32) (p : Fin 5000) (q : Fin 128) :
    k9_pay1 (F := Ideal) x0 x1 x2 x3 (ix2 p q) = Cert.Spec.outerE x0 x1 x2 x3 p q := by
  unfold k9_pay1
  rw [addf_apply, mulf_apply, mulf_apply]
  simp only [shapeCast_self]
  unfold Cert.Spec.outerE
  refine congrArg₂ (· + ·) (congrArg₂ (· * ·) ?_ ?_) (congrArg₂ (· * ·) ?_ ?_)
  · exact broadcastTo_col_apply x0 _ p q
  · exact broadcastTo_1b_ab_apply x2 _ p q
  · exact broadcastTo_col_apply x1 _ p q
  · exact (broadcastTo_1b_ab_apply _ _ p q).trans (shapeCast_a_1a_apply x3 _ 0 q)

/-- The block indices over the grid: the two column blocks and the output block are block `t` of their arrays' rows;
    the row and the vector are their arrays whole at every point. -/
theorem blocks9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 1) = 0
    ∧ win9_4.index t (0 : Fin 2) = t.val ∧ win9_4.index t (1 : Fin 2) = 0 :=
  (by decide +kernel : ∀ t : Fin grid9.N, _)

/-- The first column's block at point `t` is rows `5000 t … 5000 t + 4999` of the first column array. -/
theorem colS9_apply (c : Dev nD) (t : Fin cfg9.N) (p : Fin 5000) (u : Fin 1) (r : Fin 40000) (hr : r.val = t.val * 5000 + p.val) :
    (iblk9 V c 0 t : Vec Ideal S5000x1 .f32) (ix2 p u) = (V c main_v12 : Vec Ideal S40000x1 .f32) (ix2 r u) := by
  obtain ⟨e0, e1, -⟩ := blocks9 t
  unfold iblk9
  rw [View.read_apply]
  show V c main_v12 _ = V c main_v12 _
  congr 1
  funext a
  apply Fin.ext
  match a with
  | ⟨0, _⟩ => show win9_0.index t (0 : Fin 2) * 5000 + 1 * p.val = r.val; omega
  | ⟨1, _⟩ => show win9_0.index t (1 : Fin 2) * 1 + 1 * u.val = u.val; omega

/-- The second column's block at point `t` is rows `5000 t … 5000 t + 4999` of the second column array. -/
theorem colN9_apply (c : Dev nD) (t : Fin cfg9.N) (p : Fin 5000) (u : Fin 1) (r : Fin 40000) (hr : r.val = t.val * 5000 + p.val) :
    (iblk9 V c 1 t : Vec Ideal S5000x1 .f32) (ix2 p u) = (V c main_v13 : Vec Ideal S40000x1 .f32) (ix2 r u) := by
  obtain ⟨-, -, e0, e1, -⟩ := blocks9 t
  unfold iblk9
  rw [View.read_apply]
  show V c main_v13 _ = V c main_v13 _
  congr 1
  funext a
  apply Fin.ext
  match a with
  | ⟨0, _⟩ => show win9_1.index t (0 : Fin 2) * 5000 + 1 * p.val = r.val; omega
  | ⟨1, _⟩ => show win9_1.index t (1 : Fin 2) * 1 + 1 * u.val = u.val; omega

/-- The row's block at every point is the row. -/
theorem row9_apply (c : Dev nD) (t : Fin cfg9.N) (u : Fin 1) (q : Fin 128) :
    (iblk9 V c 2 t : Vec Ideal S1x128 .f32) (ix2 u q) = (V c main_v168 : Vec Ideal S1x128 .f32) (ix2 u q) := by
  obtain ⟨-, -, -, -, e0, e1, -⟩ := blocks9 t
  unfold iblk9
  rw [View.read_apply]
  show V c main_v168 _ = V c main_v168 _
  congr 1
  funext a
  apply Fin.ext
  match a with
  | ⟨0, _⟩ => show win9_2.index t (0 : Fin 2) * 1 + 1 * u.val = u.val; omega
  | ⟨1, _⟩ => show win9_2.index t (1 : Fin 2) * 128 + 1 * q.val = q.val; omega

/-- The vector's block at every point is the vector. -/
theorem vec9_apply (c : Dev nD) (t : Fin cfg9.N) (q : Fin 128) :
    (iblk9 V c 3 t : Vec Ideal S128 .f32) (ix1 q) = (V c main_v170 : Vec Ideal S128 .f32) (ix1 q) := by
  obtain ⟨-, -, -, -, -, -, e0, -⟩ := blocks9 t
  unfold iblk9
  rw [View.read_apply]
  show V c main_v170 _ = V c main_v170 _
  congr 1
  funext a
  apply Fin.ext
  match a with
  | ⟨0, _⟩ => show win9_3.index t (0 : Fin 1) * 128 + 1 * q.val = q.val; omega

/-- Entry `(p, q)` of the output block at point `t` sits at row `5000 t + p`, column `q` of the output array. -/
theorem outIdx9 (t : Fin cfg9.N) (p : Fin 5000) (q : Fin 128) (r : Fin 40000) (hr : r.val = t.val * 5000 + p.val) :
    ((cfg9.win 4).blk t).view.emb (ix2 p q : S5000x128.Idx) = (ix2 r q : S40000x128.Idx) := by
  obtain ⟨-, -, -, -, -, -, -, e0, e1⟩ := blocks9 t
  funext a
  apply Fin.ext
  match a with
  | ⟨0, _⟩ => show win9_4.index t (0 : Fin 2) * 5000 + 1 * p.val = r.val; omega
  | ⟨1, _⟩ => show win9_4.index t (1 : Fin 2) * 128 + 1 * q.val = q.val; omega

/-- What point `t` writes back is block `t` of the rank-one combination of the arrays the region finds. -/
theorem flushed9 (c : Dev nD) (t : Fin cfg9.N) :
    (dat9 (F := Ideal) V c).flushed 4 t
      = ((cfg9.win 4).blk t).view.read (Elt Ideal)
          (Cert.Spec.outer (V c main_v12) (V c main_v13) (V c main_v168) (V c main_v170)) := by
  show (cfg9.win 4).cut (grid9.coords t) ((dat9 V c).after 4 t) = _
  rw [after9_4]
  unfold out9_4
  rw [View.canon_unit_zero zerosTwo]
  simp only [View.ld_unit_zero (S := S5000x1) zerosTwo, View.ld_unit_zero (S := S1x128) zerosTwo,
    View.ld_unit_zero (S := S128) zerosOne]
  refine funext fun (j : S5000x128.Idx) => ?_
  obtain ⟨p, q, rfl⟩ : ∃ (p : Fin 5000) (q : Fin 128), j = ix2 p q := ⟨j 0, j 1, eq_ix2 j⟩
  have ht : t.val < 8 := t.isLt
  have hr : t.val * 5000 + p.val < 40000 := by have := p.isLt; omega
  refine (pay9_apply (iblk9 V c 0 t) (iblk9 V c 1 t) (iblk9 V c 2 t) (iblk9 V c 3 t) p q).trans ?_
  show _ = Cert.Spec.outer (V c main_v12) (V c main_v13) (V c main_v168) (V c main_v170)
    (((cfg9.win 4).blk t).view.emb (ix2 p q : S5000x128.Idx))
  rw [outIdx9 t p q ⟨t.val * 5000 + p.val, hr⟩ rfl, Cert.Spec.outer_apply]
  unfold Cert.Spec.outerE
  exact congrArg₂ (· + ·)
    (congrArg₂ (· * ·) (colS9_apply V c t p 0 ⟨t.val * 5000 + p.val, hr⟩ rfl) (row9_apply V c t 0 q))
    (congrArg₂ (· * ·) (colN9_apply V c t p 0 ⟨t.val * 5000 + p.val, hr⟩ rfl) (vec9_apply V c t q))

/-- An entry of the output array is in point `t`'s block iff its row is one of `5000 t … 5000 t + 4999`. -/
theorem mem_blk9 (t : Fin cfg9.N) (i : S40000x128.Idx) :
    i ∈ ((cfg9.win 4).blk t).view.set ↔ ∀ a : Fin 2, win9_4.index t a * S5000x128.size a ≤ (i a).val ∧ (i a).val < win9_4.index t a * S5000x128.size a + S5000x128.size a := by
  show i ∈ ((View.whole main_v171).slice (win9_4.rect t)).set ↔ _
  rw [View.set_slice_whole, Rect.mem_set_unit]
  exact Iff.rfl

/-- Every entry of the output array is in the block of the point its row's quotient by 5000 names. -/
theorem cover9 (i : S40000x128.Idx) : ∃ t : Fin cfg9.N, (cfg9.win 4).flush t = true ∧ i ∈ ((cfg9.win 4).blk t).view.set := by
  have hi0 : (i 0).val < 40000 := (i 0).isLt
  have hi1 : (i 1).val < 128 := (i 1).isLt
  have hN : cfg9.N = 8 := N_9
  obtain ⟨t, ht⟩ : ∃ t : Fin cfg9.N, t.val = (i 0).val / 5000 := ⟨⟨(i 0).val / 5000, by rw [hN]; omega⟩, rfl⟩
  obtain ⟨-, -, -, -, -, -, -, e0, e1⟩ := blocks9 t
  refine ⟨t, flush9_4 t, ?_⟩
  rw [mem_blk9]
  intro a
  match a with
  | ⟨0, _⟩ => show win9_4.index t (0 : Fin 2) * 5000 ≤ (i 0).val ∧ (i 0).val < win9_4.index t (0 : Fin 2) * 5000 + 5000; omega
  | ⟨1, _⟩ => show win9_4.index t (1 : Fin 2) * 128 ≤ (i 1).val ∧ (i 1).val < win9_4.index t (1 : Fin 2) * 128 + 128; omega

/-- THE ARRAY region 9 leaves: the rank-one combination `s ⊗ w + n ⊗ b` of the two columns, the row and the vector it finds. -/
theorem val9 (c : Dev nD) :
    (dat9 (F := Ideal) V c).arrAt 4 cfg9.N
      = Cert.Spec.outer (V c main_v12) (V c main_v13) (V c main_v168) (V c main_v170) :=
  (dat9 (F := Ideal) V c).arrAt_eq_of_cover 4 _ (fun t _ => flushed9 V c t) cover9

end Cert.KernelIdeal.KVal

end
-- ==== Proof.KVal10.lean ====
import proofs.«426021_j89885075570707_3_alg».proof.Proof.Gen.KernelIdeal.Frame
import proofs.«426021_j89885075570707_3_alg».proof.Proof.Spec
import proofs.«426021_j89885075570707_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

/-!
  Region 10: a batch normalisation with given column statistics, a rectification, and two matrix products
  with bias rows, over 40000 nodes in eight blocks of 5000 rows.

  Each of the two result arrays is, entry by entry, `x ↦ relu (bn x) · W + b` of the node array, the four
  statistics rows, and its own weight matrix and bias row.  First the block's arithmetic is read at an entry
  `(p, q)`; then block `t` of the result is rows `5000·t … 5000·t + 4999` of that function of the whole
  arrays; the eight blocks cover the 40000 rows.
-/

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen
open Idealize.ShloMosaic.Pipeline (Dat Cfg Window)

/-! ## The block's arithmetic at an entry -/

/-- A row `b` laid over every row of a block: entry `(p, q)` is `b q`. -/
theorem rowcast10_apply (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

/-- The block's products contract the left operand's columns with the right operand's rows. -/
theorem dot10_eq : dot_S5000x128_S128x128_S5000x128_1_0_0_1_n_n = DotDims.plain 5000 128 128 := rfl

/-- The normalised and rectified block at an entry. -/
theorem pay10_2_apply (x0 : Vec Ideal S5000x128 .f32) (x1 x2 x3 x4 : Vec Ideal S128 .f32) (p : Fin 5000) (q : Fin 128) :
    k10_pay2 (F := Ideal) x0 x1 x2 x3 x4 (ix2 p q) = Cert.Spec.relu (Cert.Spec.bn x0 x1 x2 x3 x4) (ix2 p q) := by
  unfold k10_pay2
  simp only [shapeCast_self]
  rw [truncf_apply, maximumf_apply, addf_apply, mulf_apply, mulf_apply, subf_apply, rowcast10_apply, rowcast10_apply,
    rowcast10_apply, rowcast10_apply]
  rfl

/-- The first product plus its bias row at an entry. -/
theorem pay10_4_apply (x0 : Vec Ideal S5000x128 .f32) (x1 x2 x3 x4 : Vec Ideal S128 .f32) (W : Vec Ideal S128x128 .f32)
    (b : Vec Ideal S128 .f32) (p : Fin 5000) (q : Fin 128) :
    k10_pay4 (F := Ideal) x0 x1 x2 x3 x4 W b (ix2 p q)
      = Cert.Spec.lin (Cert.Spec.relu (Cert.Spec.bn x0 x1 x2 x3 x4)) W b (ix2 p q) := by
  unfold k10_pay4
  simp only [shapeCast_self]
  rw [addf_apply, rowcast10_apply, dot10_eq]
  refine congrArg (· + b (ix1 q)) ?_
  refine (Cert.Lib.PlainDot.matmul_zero_apply none _ _ p q).trans ?_
  refine Finset.sum_congr rfl fun k _ => ?_
  rw [pay10_2_apply, truncf_apply]

/-- The second product plus its bias row at an entry. -/
theorem pay10_1_apply (x0 : Vec Ideal S5000x128 .f32) (x1 x2 x3 x4 : Vec Ideal S128 .f32) (W : Vec Ideal S128x128 .f32)
    (b : Vec Ideal S128 .f32) (p : Fin 5000) (q : Fin 128) :
    k10_pay1 (F := Ideal) (k10_pay2 x0 x1 x2 x3 x4) (k10_pay3 W) (constant S5000x128 .f32 0x00000000#32) b (ix2 p q)
      = Cert.Spec.lin (Cert.Spec.relu (Cert.Spec.bn x0 x1 x2 x3 x4)) W b (ix2 p q) := by
  unfold k10_pay1 k10_pay3
  simp only [shapeCast_self]
  rw [addf_apply, rowcast10_apply, dot10_eq]
  refine congrArg (· + b (ix1 q)) ?_
  refine (Cert.Lib.PlainDot.matmul_zero_apply none _ _ p q).trans ?_
  refine Finset.sum_congr rfl fun k _ => ?_
  rw [pay10_2_apply, truncf_apply]

/-! ## A row of the layer depends on the same row of the node array only -/

/-- If row `p` of `X` is row `P` of `A`, then row `p` of the layer of `X` is row `P` of the layer of `A`. -/
theorem lin10_rows (X : FVec Ideal ⟨2, ![5000, 128]⟩ .f32) (A : FVec Ideal ⟨2, ![40000, 128]⟩ .f32)
    (μ v g β : FVec Ideal ⟨1, ![128]⟩ .f32) (W : FVec Ideal ⟨2, ![128, 128]⟩ .f32) (b : FVec Ideal ⟨1, ![128]⟩ .f32)
    (p : Fin 5000) (P : Fin 40000) (q : Fin 128) (h : ∀ k : Fin 128, X (ix2 p k) = A (ix2 P k)) :
    Cert.Spec.lin (Cert.Spec.relu (Cert.Spec.bn X μ v g β)) W b (ix2 p q)
      = Cert.Spec.lin (Cert.Spec.relu (Cert.Spec.bn A μ v g β)) W b (ix2 P q) := by
  rw [Cert.Spec.lin_apply, Cert.Spec.lin_apply]
  unfold Cert.Spec.linE
  refine congrArg (· + b (ix1 q)) (Finset.sum_congr rfl fun k _ => ?_)
  rw [Cert.Spec.relu_apply, Cert.Spec.relu_apply, Cert.Spec.bn_apply, Cert.Spec.bn_apply]
  unfold Cert.Spec.bnE
  rw [h k]

/-! ## The blocks the grid's points read and write -/

theorem zeros1_10 : (![0] : Fin 1 → Nat) = fun _ => 0 := funext fun a => by fin_cases a; rfl

theorem zeros2_10 : (![0, 0] : Fin 2 → Nat) = fun _ => 0 := funext fun a => by fin_cases a <;> rfl

/-- The block indices over the grid: the node array's block and both results' blocks move together along the
    rows and sit at column block 0; every row of statistics, every weight matrix and every bias row is its one
    block at every point. -/
theorem idx10 : ∀ t : Fin cfg10.N,
    win10_0.index t (0 : Fin 2) = win10_9.index t (0 : Fin 2) ∧ win10_0.index t (1 : Fin 2) = 0
    ∧ win10_10.index t (0 : Fin 2) = win10_9.index t (0 : Fin 2) ∧ win10_10.index t (1 : Fin 2) = 0
    ∧ win10_9.index t (1 : Fin 2) = 0 ∧ win10_9.index t (0 : Fin 2) ≤ 7
    ∧ win10_1.index t (0 : Fin 1) = 0 ∧ win10_2.index t (0 : Fin 1) = 0 ∧ win10_3.index t (0 : Fin 1) = 0
    ∧ win10_4.index t (0 : Fin 1) = 0 ∧ win10_5.index t (0 : Fin 2) = 0 ∧ win10_5.index t (1 : Fin 2) = 0
    ∧ win10_6.index t (0 : Fin 1) = 0 ∧ win10_7.index t (0 : Fin 2) = 0 ∧ win10_7.index t (1 : Fin 2) = 0
    ∧ win10_8.index t (0 : Fin 1) = 0 :=
  (by decide +kernel : ∀ t : Fin grid10.N, _)

/-- Every one of the eight row blocks is some point's, for either result. -/
theorem onto10_9 : ∀ r : Fin 8, ∃ t : Fin cfg10.N, win10_9.index t = ![r.val, 0] :=
  (by decide +kernel : ∀ r : Fin 8, ∃ t : Fin grid10.N, win10_9.index t = ![r.val, 0])

theorem onto10_10 : ∀ r : Fin 8, ∃ t : Fin cfg10.N, win10_10.index t = ![r.val, 0] :=
  (by decide +kernel : ∀ r : Fin 8, ∃ t : Fin grid10.N, win10_10.index t = ![r.val, 0])

/-- A block `X` whose row `p` is row `5000·t + p` of `G`, written back at point `t`, is block `t` of `G`
    (first result). -/
theorem rows10_9 (t : Fin cfg10.N) (X : Vec Ideal S5000x128 .f32) (G : Vec Ideal S40000x128 .f32)
    (h : ∀ (p : Fin 5000) (q : Fin 128) (P : Fin 40000), P.val = win10_9.index t (0 : Fin 2) * 5000 + p.val →
      X (ix2 p q) = G (ix2 P q)) :
    (cfg10.win 9).cut (grid10.coords t) X = ((cfg10.win 9).blk t).view.read (Elt Ideal) G := by
  obtain ⟨-, -, -, -, e9, l9, -⟩ := idx10 t
  funext j
  have hp : (j 0).val < 5000 := (j 0).isLt
  have hq : (j 1).val < 128 := (j 1).isLt
  have hP : win10_9.index t (0 : Fin 2) * 5000 + (j 0).val < 40000 := by omega
  show X ((cfg10.win 9).xinj (grid10.coords t) j) = G (((cfg10.win 9).blk t).view.emb j)
  have hj : (cfg10.win 9).xinj (grid10.coords t) j = ix2 (⟨(j 0).val, hp⟩ : Fin 5000) (⟨(j 1).val, hq⟩ : Fin 128) :=
    funext fun a => by match a with | ⟨0, _⟩ => rfl | ⟨1, _⟩ => rfl
  have he : ((cfg10.win 9).blk t).view.emb j
      = ix2 (⟨win10_9.index t (0 : Fin 2) * 5000 + (j 0).val, hP⟩ : Fin 40000) (⟨(j 1).val, hq⟩ : Fin 128) :=
    funext fun a => Fin.ext (by
      match a with
      | ⟨0, _⟩ => show win10_9.index t (0 : Fin 2) * 5000 + 1 * (j 0).val = win10_9.index t (0 : Fin 2) * 5000 + (j 0).val; omega
      | ⟨1, _⟩ => show win10_9.index t (1 : Fin 2) * 128 + 1 * (j 1).val = (j 1).val; omega)
  exact (congrArg X hj).trans ((h ⟨(j 0).val, hp⟩ ⟨(j 1).val, hq⟩ ⟨_, hP⟩ rfl).trans (congrArg G he).symm)

/-- The same for the second result. -/
theorem rows10_10 (t : Fin cfg10.N) (X : Vec Ideal S5000x128 .f32) (G : Vec Ideal S40000x128 .f32)
    (h : ∀ (p : Fin 5000) (q : Fin 128) (P : Fin 40000), P.val = win10_9.index t (0 : Fin 2) * 5000 + p.val →
      X (ix2 p q) = G (ix2 P q)) :
    (cfg10.win 10).cut (grid10.coords t) X = ((cfg10.win 10).blk t).view.read (Elt Ideal) G := by
  obtain ⟨-, -, e10, c10, -, l9, -⟩ := idx10 t
  funext j
  have hp : (j 0).val < 5000 := (j 0).isLt
  have hq : (j 1).val < 128 := (j 1).isLt
  have hP : win10_9.index t (0 : Fin 2) * 5000 + (j 0).val < 40000 := by omega
  show X ((cfg10.win 10).xinj (grid10.coords t) j) = G (((cfg10.win 10).blk t).view.emb j)
  have hj : (cfg10.win 10).xinj (grid10.coords t) j = ix2 (⟨(j 0).val, hp⟩ : Fin 5000) (⟨(j 1).val, hq⟩ : Fin 128) :=
    funext fun a => by match a with | ⟨0, _⟩ => rfl | ⟨1, _⟩ => rfl
  have he : ((cfg10.win 10).blk t).view.emb j
      = ix2 (⟨win10_9.index t (0 : Fin 2) * 5000 + (j 0).val, hP⟩ : Fin 40000) (⟨(j 1).val, hq⟩ : Fin 128) :=
    funext fun a => Fin.ext (by
      match a with
      | ⟨0, _⟩ => show win10_10.index t (0 : Fin 2) * 5000 + 1 * (j 0).val = win10_9.index t (0 : Fin 2) * 5000 + (j 0).val; omega
      | ⟨1, _⟩ => show win10_10.index t (1 : Fin 2) * 128 + 1 * (j 1).val = (j 1).val; omega)
  exact (congrArg X hj).trans ((h ⟨(j 0).val, hp⟩ ⟨(j 1).val, hq⟩ ⟨_, hP⟩ rfl).trans (congrArg G he).symm)

/-- An index of a result array is in point `t`'s block iff each coordinate is in the block's range. -/
theorem mem_rows10_9 (t : Fin cfg10.N) (i : S40000x128.Idx) :
    i ∈ ((cfg10.win 9).blk t).view.set ↔ ∀ a : Fin 2, win10_9.index t a * S5000x128.size a ≤ (i a).val
      ∧ (i a).val < win10_9.index t a * S5000x128.size a + S5000x128.size a := by
  show i ∈ ((View.whole main_v184_0).slice (win10_9.rect t)).set ↔ _
  rw [View.set_slice_whole, Rect.mem_set_unit]
  exact Iff.rfl

theorem mem_rows10_10 (t : Fin cfg10.N) (i : S40000x128.Idx) :
    i ∈ ((cfg10.win 10).blk t).view.set ↔ ∀ a : Fin 2, win10_10.index t a * S5000x128.size a ≤ (i a).val
      ∧ (i a).val < win10_10.index t a * S5000x128.size a + S5000x128.size a := by
  show i ∈ ((View.whole main_v184_1).slice (win10_10.rect t)).set ↔ _
  rw [View.set_slice_whole, Rect.mem_set_unit]
  exact Iff.rfl

/-- Row `r` of a result array is written back by the point whose block index is `r / 5000`. -/
theorem rows_cover10_9 (i : S40000x128.Idx) :
    ∃ t : Fin cfg10.N, (cfg10.win 9).flush t = true ∧ i ∈ ((cfg10.win 9).blk t).view.set := by
  have hi0 : (i 0).val < 40000 := (i 0).isLt
  have hi1 : (i 1).val < 128 := (i 1).isLt
  obtain ⟨t, ht⟩ := onto10_9 ⟨(i 0).val / 5000, by omega⟩
  have q0 : win10_9.index t (0 : Fin 2) = (i 0).val / 5000 := congrFun ht 0
  have q1 : win10_9.index t (1 : Fin 2) = 0 := congrFun ht 1
  refine ⟨t, flush10_9 t, ?_⟩
  rw [mem_rows10_9]
  intro a
  match a with
  | ⟨0, _⟩ => show win10_9.index t (0 : Fin 2) * 5000 ≤ (i 0).val ∧ (i 0).val < win10_9.index t (0 : Fin 2) * 5000 + 5000; omega
  | ⟨1, _⟩ => show win10_9.index t (1 : Fin 2) * 128 ≤ (i 1).val ∧ (i 1).val < win10_9.index t (1 : Fin 2) * 128 + 128; omega

theorem rows_cover10_10 (i : S40000x128.Idx) :
    ∃ t : Fin cfg10.N, (cfg10.win 10).flush t = true ∧ i ∈ ((cfg10.win 10).blk t).view.set := by
  have hi0 : (i 0).val < 40000 := (i 0).isLt
  have hi1 : (i 1).val < 128 := (i 1).isLt
  obtain ⟨t, ht⟩ := onto10_10 ⟨(i 0).val / 5000, by omega⟩
  have q0 : win10_10.index t (0 : Fin 2) = (i 0).val / 5000 := congrFun ht 0
  have q1 : win10_10.index t (1 : Fin 2) = 0 := congrFun ht 1
  refine ⟨t, flush10_10 t, ?_⟩
  rw [mem_rows10_10]
  intro a
  match a with
  | ⟨0, _⟩ => show win10_10.index t (0 : Fin 2) * 5000 ≤ (i 0).val ∧ (i 0).val < win10_10.index t (0 : Fin 2) * 5000 + 5000; omega
  | ⟨1, _⟩ => show win10_10.index t (1 : Fin 2) * 128 ≤ (i 1).val ∧ (i 1).val < win10_10.index t (1 : Fin 2) * 128 + 128; omega

/-! ## The arrays the region finds, block by block -/

variable (V : (c : Dev nD) → (b : Ref sig .tc) → Buf (Elt Ideal) ((c : Thread nD τ).loc b))

/-- Row `p` of the node array's block at point `t` is row `5000·t + p` of the node array. -/
theorem node10_row (c : Dev nD) (t : Fin cfg10.N) (p : Fin 5000) (k : Fin 128) (P : Fin 40000)
    (hP : P.val = win10_9.index t (0 : Fin 2) * 5000 + p.val) :
    (iblk10 (F := Ideal) V c 0 t : Vec Ideal S5000x128 .f32) (ix2 p k) = V c main_v158 (ix2 P k) := by
  obtain ⟨e0, c0, -⟩ := idx10 t
  show V c main_v158 (((cfg10.win 0).blk t).view.emb (ix2 p k)) = V c main_v158 (ix2 P k)
  refine congrArg _ (funext fun a => Fin.ext ?_)
  match a with
  | ⟨0, _⟩ => show win10_0.index t (0 : Fin 2) * 5000 + 1 * p.val = P.val; omega
  | ⟨1, _⟩ => show win10_0.index t (1 : Fin 2) * 128 + 1 * k.val = k.val; omega

/-- Window 1's block at every point is the whole row `main_v161`. -/
theorem vec10_1 (c : Dev nD) (t : Fin cfg10.N) : (iblk10 (F := Ideal) V c 1 t : Vec Ideal S128 .f32) = V c main_v161 := by
  obtain ⟨-, -, -, -, -, -, e1, -⟩ := idx10 t
  funext j
  show V c main_v161 (((cfg10.win 1).blk t).view.emb j) = V c main_v161 j
  refine congrArg _ (funext fun a => Fin.ext ?_)
  match a with
  | ⟨0, _⟩ => show win10_1.index t (0 : Fin 1) * 128 + 1 * (j 0).val = (j 0).val; omega

/-- Window 2's block at every point is the whole row `main_v162`. -/
theorem vec10_2 (c : Dev nD) (t : Fin cfg10.N) : (iblk10 (F := Ideal) V c 2 t : Vec Ideal S128 .f32) = V c main_v162 := by
  obtain ⟨-, -, -, -, -, -, -, e2, -⟩ := idx10 t
  funext j
  show V c main_v162 (((cfg10.win 2).blk t).view.emb j) = V c main_v162 j
  refine congrArg _ (funext fun a => Fin.ext ?_)
  match a with
  | ⟨0, _⟩ => show win10_2.index t (0 : Fin 1) * 128 + 1 * (j 0).val = (j 0).val; omega

/-- Window 3's block at every point is the whole row `main_v164`. -/
theorem vec10_3 (c : Dev nD) (t : Fin cfg10.N) : (iblk10 (F := Ideal) V c 3 t : Vec Ideal S128 .f32) = V c main_v164 := by
  obtain ⟨-, -, -, -, -, -, -, -, e3, -⟩ := idx10 t
  funext j
  show V c main_v164 (((cfg10.win 3).blk t).view.emb j) = V c main_v164 j
  refine congrArg _ (funext fun a => Fin.ext ?_)
  match a with
  | ⟨0, _⟩ => show win10_3.index t (0 : Fin 1) * 128 + 1 * (j 0).val = (j 0).val; omega

/-- Window 4's block at every point is the whole row `main_v166`. -/
theorem vec10_4 (c : Dev nD) (t : Fin cfg10.N) : (iblk10 (F := Ideal) V c 4 t : Vec Ideal S128 .f32) = V c main_v166 := by
  obtain ⟨-, -, -, -, -, -, -, -, -, e4, -⟩ := idx10 t
  funext j
  show V c main_v166 (((cfg10.win 4).blk t).view.emb j) = V c main_v166 j
  refine congrArg _ (funext fun a => Fin.ext ?_)
  match a with
  | ⟨0, _⟩ => show win10_4.index t (0 : Fin 1) * 128 + 1 * (j 0).val = (j 0).val; omega

/-- Window 6's block at every point is the whole row `main_v179`. -/
theorem vec10_6 (c : Dev nD) (t : Fin cfg10.N) : (iblk10 (F := Ideal) V c 6 t : Vec Ideal S128 .f32) = V c main_v179 := by
  obtain ⟨-, -, -, -, -, -, -, -, -, -, -, -, e6, -⟩ := idx10 t
  funext j
  show V c main_v179 (((cfg10.win 6).blk t).view.emb j) = V c main_v179 j
  refine congrArg _ (funext fun a => Fin.ext ?_)
  match a with
  | ⟨0, _⟩ => show win10_6.index t (0 : Fin 1) * 128 + 1 * (j 0).val = (j 0).val; omega

/-- Window 8's block at every point is the whole row `main_v183`. -/
theorem vec10_8 (c : Dev nD) (t : Fin cfg10.N) : (iblk10 (F := Ideal) V c 8 t : Vec Ideal S128 .f32) = V c main_v183 := by
  obtain ⟨-, -, -, -, -, -, -, -, -, -, -, -, -, -, -, e8⟩ := idx10 t
  funext j
  show V c main_v183 (((cfg10.win 8).blk t).view.emb j) = V c main_v183 j
  refine congrArg _ (funext fun a => Fin.ext ?_)
  match a with
  | ⟨0, _⟩ => show win10_8.index t (0 : Fin 1) * 128 + 1 * (j 0).val = (j 0).val; omega

/-- Window 5's block at every point is the whole matrix `main_v177`. -/
theorem mat10_5 (c : Dev nD) (t : Fin cfg10.N) : (iblk10 (F := Ideal) V c 5 t : Vec Ideal S128x128 .f32) = V c main_v177 := by
  obtain ⟨-, -, -, -, -, -, -, -, -, -, r0, r1, -⟩ := idx10 t
  funext j
  show V c main_v177 (((cfg10.win 5).blk t).view.emb j) = V c main_v177 j
  refine congrArg _ (funext fun a => Fin.ext ?_)
  match a with
  | ⟨0, _⟩ => show win10_5.index t (0 : Fin 2) * 128 + 1 * (j 0).val = (j 0).val; omega
  | ⟨1, _⟩ => show win10_5.index t (1 : Fin 2) * 128 + 1 * (j 1).val = (j 1).val; omega

/-- Window 7's block at every point is the whole matrix `main_v181`. -/
theorem mat10_7 (c : Dev nD) (t : Fin cfg10.N) : (iblk10 (F := Ideal) V c 7 t : Vec Ideal S128x128 .f32) = V c main_v181 := by
  obtain ⟨-, -, -, -, -, -, -, -, -, -, -, -, -, r0, r1, -⟩ := idx10 t
  funext j
  show V c main_v181 (((cfg10.win 7).blk t).view.emb j) = V c main_v181 j
  refine congrArg _ (funext fun a => Fin.ext ?_)
  match a with
  | ⟨0, _⟩ => show win10_7.index t (0 : Fin 2) * 128 + 1 * (j 0).val = (j 0).val; omega
  | ⟨1, _⟩ => show win10_7.index t (1 : Fin 2) * 128 + 1 * (j 1).val = (j 1).val; omega

/-! ## What each point writes back, and the arrays after the region -/

/-- What point `t` writes back to the first result is block `t` of the layer with the first weights and bias. -/
theorem flushed10_9_eq (c : Dev nD) (t : Fin cfg10.N) :
    (dat10 (F := Ideal) V c).flushed 9 t = ((cfg10.win 9).blk t).view.read (Elt Ideal)
      (Cert.Spec.lin (Cert.Spec.relu (Cert.Spec.bn (V c main_v158) (V c main_v161) (V c main_v162) (V c main_v164) (V c main_v166))) (V c main_v177) (V c main_v179)) := by
  show (cfg10.win 9).cut (grid10.coords t) ((dat10 (F := Ideal) V c).after 9 t) = _
  rw [after10_9]
  unfold out10_9
  rw [View.canon_unit_zero zeros2_10]
  simp only [View.ld_unit_zero (S := S5000x128) zeros2_10, View.ld_unit_zero (S := S128) zeros1_10,
    View.ld_unit_zero (S := S128x128) zeros2_10]
  rw [vec10_1 V c t, vec10_2 V c t, vec10_3 V c t, vec10_4 V c t, mat10_5 V c t, vec10_6 V c t]
  refine rows10_9 t _ _ fun p q P hP => ?_
  refine (pay10_4_apply (iblk10 (F := Ideal) V c 0 t) (V c main_v161) (V c main_v162) (V c main_v164) (V c main_v166) (V c main_v177) (V c main_v179) p q).trans ?_
  exact lin10_rows _ _ _ _ _ _ _ _ p P q fun k => node10_row V c t p k P hP

/-- What point `t` writes back to the second result is block `t` of the layer with the second weights and bias. -/
theorem flushed10_10_eq (c : Dev nD) (t : Fin cfg10.N) :
    (dat10 (F := Ideal) V c).flushed 10 t = ((cfg10.win 10).blk t).view.read (Elt Ideal)
      (Cert.Spec.lin (Cert.Spec.relu (Cert.Spec.bn (V c main_v158) (V c main_v161) (V c main_v162) (V c main_v164) (V c main_v166))) (V c main_v181) (V c main_v183)) := by
  show (cfg10.win 10).cut (grid10.coords t) ((dat10 (F := Ideal) V c).after 10 t) = _
  rw [after10_10]
  unfold out10_10
  rw [View.canon_unit_zero zeros2_10]
  simp only [View.ld_unit_zero (S := S5000x128) zeros2_10, View.ld_unit_zero (S := S128) zeros1_10,
    View.ld_unit_zero (S := S128x128) zeros2_10]
  rw [vec10_1 V c t, vec10_2 V c t, vec10_3 V c t, vec10_4 V c t, mat10_7 V c t, vec10_8 V c t]
  refine rows10_10 t _ _ fun p q P hP => ?_
  refine (pay10_1_apply (iblk10 (F := Ideal) V c 0 t) (V c main_v161) (V c main_v162) (V c main_v164) (V c main_v166) (V c main_v181) (V c main_v183) p q).trans ?_
  exact lin10_rows _ _ _ _ _ _ _ _ p P q fun k => node10_row V c t p k P hP

/-- THE FIRST RESULT after the region: the layer of the node array with the first weights and bias. -/
theorem val10_a (c : Dev nD) : (dat10 (F := Ideal) V c).arrAt 9 cfg10.N = Cert.Spec.lin (Cert.Spec.relu (Cert.Spec.bn (V c main_v158) (V c main_v161) (V c main_v162) (V c main_v164) (V c main_v166))) (V c main_v177) (V c main_v179) :=
  (dat10 (F := Ideal) V c).arrAt_eq_of_cover 9 _ (fun t _ => flushed10_9_eq V c t) rows_cover10_9

/-- THE SECOND RESULT after the region: the layer of the node array with the second weights and bias. -/
theorem val10_b (c : Dev nD) : (dat10 (F := Ideal) V c).arrAt 10 cfg10.N = Cert.Spec.lin (Cert.Spec.relu (Cert.Spec.bn (V c main_v158) (V c main_v161) (V c main_v162) (V c main_v164) (V c main_v166))) (V c main_v181) (V c main_v183) :=
  (dat10 (F := Ideal) V c).arrAt_eq_of_cover 10 _ (fun t _ => flushed10_10_eq V c t) rows_cover10_10

end Cert.KernelIdeal.KVal

end
-- ==== Proof.KVal11.lean ====
/-
  The value of one fused layer of the network, as the kernel program computes it tile by tile.

  The region reads three node arrays of 40000 rows and 128 columns, twelve column vectors (for each node array a
  mean, a variance, a scale and a shift), a 128 by 128 weight matrix and a bias vector, and writes one node array.
  Its grid has 8 points; point t handles rows 5000·t … 5000·t + 4999 of every node array and sees every vector
  and the matrix whole. On its tile the body normalises each of the three blocks with its column statistics
  (subtract the mean, multiply by the reciprocal root of variance + ε, multiply by the scale, add the shift), adds
  the three, takes the maximum with zero, multiplies by the weight matrix and adds the bias.

  Every entry (r, q) of the result depends only on row r of the three node arrays, so the 8 tiles are the 8 row
  blocks of ONE function of the whole arrays: the layer `lin (relu (add3 (bn …) (bn …) (bn …))) W b` of the
  specification. The 8 row blocks cover all 40000 rows (row r lies in block r / 5000), so after the region the
  output array is that function.
-/
import proofs.«426021_j89885075570707_3_alg».proof.Proof.Gen.KernelIdeal.Frame
import proofs.«426021_j89885075570707_3_alg».proof.Proof.Spec
import proofs.«426021_j89885075570707_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-! ## The body on one tile, entry by entry -/

/-- A vector laid out as one row and repeated down the rows reads, at row p and column q, the vector's entry q. -/
theorem row11_apply {α : Type} {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) :=
  (broadcastTo_1b_ab_apply _ h2 p q).trans (shapeCast_a_1a_apply x h1 0 q)

/-- The affine normalisation of a block by given column statistics, entry by entry. -/
theorem pay11_1_apply (x0 : Vec Ideal S5000x128 .f32) (x1 x2 x3 x4 : Vec Ideal S128 .f32) (p : Fin 5000) (q : Fin 128) :
    k11_pay1 (F := Ideal) x0 x1 x2 x3 x4 (ix2 p q) = Cert.Spec.bnE x0 x1 x2 x3 x4 p q := by
  unfold k11_pay1
  simp only [shapeCast_self, addf_apply, mulf_apply, subf_apply, row11_apply]
  rfl

/-- The centred block times the reciprocal root of the shifted variance, entry by entry. -/
theorem pay11_3_apply (x5 : Vec Ideal S5000x128 .f32) (x6 x7 : Vec Ideal S128 .f32) (p : Fin 5000) (q : Fin 128) :
    k11_pay3 (F := Ideal) x5 x6 x7 (ix2 p q) = (x5 (ix2 p q) - x6 (ix1 q)) * Ideal.rsqrt (x7 (ix1 q) + Cert.Spec.eps) := by
  unfold k11_pay3
  simp only [shapeCast_self, addf_apply, mulf_apply, subf_apply, row11_apply]
  rfl

/-- A vector cast to its own shape is itself. -/
theorem pay11_2_eq (x9 : Vec Ideal S128 .f32) : k11_pay2 (F := Ideal) x9 = x9 := by
  unfold k11_pay2
  simp only [shapeCast_self]

/-- A vector laid out as one row reads, at column q, its entry q. -/
theorem pay11_4_apply (x8 : Vec Ideal S128 .f32) (u : Fin 1) (q : Fin 128) : k11_pay4 (F := Ideal) x8 (ix2 u q) = x8 (ix1 q) := by
  unfold k11_pay4
  simp only [shapeCast_self]
  exact shapeCast_a_1a_apply x8 _ u q

/-- The block product's dimension numbers are those of the plain matrix product. -/
theorem dot11_eq : dot_S5000x128_S128x128_S5000x128_1_0_0_1_n_n = DotDims.plain 5000 128 128 := rfl

/-- The block product into the zero accumulator, entry by entry: the sum over the 128 shared positions. -/
theorem mm11_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  rw [dot11_eq]
  exact Cert.Lib.PlainDot.matmul_zero_apply none l r p q

/-- The last part of the body, entry by entry, over whatever the earlier parts left. -/
theorem pay11_5_apply (v24 : FVec Ideal S5000x128 .f32) (v34 : FVec Ideal S128 .f32) (v43 : FVec Ideal S5000x128 .f32) (v44 : FVec Ideal S1x128 .f32)
    (x10 : Vec Ideal S5000x128 .f32) (x11 x12 x13 x14 : Vec Ideal S128 .f32) (x15 : Vec Ideal S128x128 .f32) (x16 : Vec Ideal S128 .f32)
    (p : Fin 5000) (q : Fin 128) :
    k11_pay5 (F := Ideal) v24 v34 v43 v44 x10 x11 x12 x13 x14 x15 x16 (ix2 p q)
      = (∑ k : Fin 128, max (v24 (ix2 p k) + (v43 (ix2 p k) * v44 (ix2 (0 : Fin 1) k) + v34 (ix1 k))
            + Cert.Spec.bnE x10 x11 x12 x13 x14 p k) Cert.Spec.zeroW * x15 (ix2 k q)) + x16 (ix1 q) := by
  unfold k11_pay5
  simp only [shapeCast_self]
  rw [addf_apply, row11_apply, mm11_apply]
  refine congrArg (· + x16 (ix1 q)) (Finset.sum_congr rfl fun k _ => ?_)
  simp only [truncf_apply, maximumf_apply, addf_apply, mulf_apply, subf_apply, broadcastTo_1b_ab_apply, shapeCast_a_1a_apply, broadcast_apply]
  rfl

/-- The whole body at an entry: three normalised blocks added, clipped below at zero, multiplied by the weight
    matrix, plus the bias. -/
theorem pay11_apply (x0 : Vec Ideal S5000x128 .f32) (x1 x2 x3 x4 : Vec Ideal S128 .f32) (x5 : Vec Ideal S5000x128 .f32)
    (x6 x7 x8 x9 : Vec Ideal S128 .f32) (x10 : Vec Ideal S5000x128 .f32) (x11 x12 x13 x14 : Vec Ideal S128 .f32)
    (x15 : Vec Ideal S128x128 .f32) (x16 : Vec Ideal S128 .f32) (p : Fin 5000) (q : Fin 128) :
    k11_pay5 (F := Ideal) (k11_pay1 x0 x1 x2 x3 x4) (k11_pay2 x9) (k11_pay3 x5 x6 x7) (k11_pay4 x8) x10 x11 x12 x13 x14 x15 x16 (ix2 p q)
      = Cert.Spec.linE (Cert.Spec.relu (Cert.Spec.add3 (Cert.Spec.bn x0 x1 x2 x3 x4) (Cert.Spec.bn x5 x6 x7 x8 x9)
          (Cert.Spec.bn x10 x11 x12 x13 x14))) x15 x16 p q := by
  rw [pay11_5_apply]
  unfold Cert.Spec.linE
  refine congrArg (· + x16 (ix1 q)) (Finset.sum_congr rfl fun k _ => ?_)
  rw [pay11_1_apply, pay11_2_eq, pay11_3_apply, pay11_4_apply]
  rfl

/-! ## The tiles as row blocks of the whole arrays -/

theorem hz11_2 : (![0, 0] : Fin 2 → Nat) = fun _ => 0 := funext fun a => by fin_cases a <;> rfl
theorem hz11_1 : (![0] : Fin 1 → Nat) = fun _ => 0 := funext fun a => by fin_cases a; rfl

/-- At grid point t the three node arrays and the output are at row block t, column block 0. -/
theorem idx11_rows : ∀ t : Fin cfg11.N,
    win11_0.index t (0 : Fin 2) = t.val ∧ win11_0.index t (1 : Fin 2) = 0
    ∧ win11_5.index t (0 : Fin 2) = t.val ∧ win11_5.index t (1 : Fin 2) = 0
    ∧ win11_10.index t (0 : Fin 2) = t.val ∧ win11_10.index t (1 : Fin 2) = 0
    ∧ win11_17.index t (0 : Fin 2) = t.val ∧ win11_17.index t (1 : Fin 2) = 0 :=
  (by decide +kernel : ∀ t : Fin grid11.N, _)

/-- At every grid point each column vector and the weight matrix are at block 0: the whole array. -/
theorem idx11_whole : ∀ t : Fin cfg11.N,
    win11_1.index t = (fun _ => 0)
    ∧ win11_2.index t = (fun _ => 0)
    ∧ win11_3.index t = (fun _ => 0)
    ∧ win11_4.index t = (fun _ => 0)
    ∧ win11_6.index t = (fun _ => 0)
    ∧ win11_7.index t = (fun _ => 0)
    ∧ win11_8.index t = (fun _ => 0)
    ∧ win11_9.index t = (fun _ => 0)
    ∧ win11_11.index t = (fun _ => 0)
    ∧ win11_12.index t = (fun _ => 0)
    ∧ win11_13.index t = (fun _ => 0)
    ∧ win11_14.index t = (fun _ => 0)
    ∧ win11_16.index t = (fun _ => 0)
    ∧ win11_15.index t = (fun _ => 0) :=
  (by decide +kernel : ∀ t : Fin grid11.N, _)

/-- Row p of the block of node array 1 at grid point t is row 5000·t + p of the array. -/
theorem blk11_0_apply (c : Dev nD) (t : Fin cfg11.N) (p : Fin 5000) (k : Fin 128) (P : Fin 40000)
    (hP : P.val = 5000 * t.val + p.val) :
    (iblk11 V c 0 t : Vec Ideal S5000x128 .f32) (ix2 p k) = (V c main_v184_1 : Vec Ideal S40000x128 .f32) (ix2 P k) := by
  obtain ⟨e0, e1, e2, e3, e4, e5, e6, e7⟩ := idx11_rows t
  unfold iblk11
  rw [View.read_apply]
  show V c main_v184_1 (((cfg11.win 0).blk t).view.emb (ix2 p k)) = V c main_v184_1 (ix2 P k)
  congr 1
  funext a
  apply Fin.ext
  match a with
  | ⟨0, _⟩ => show win11_0.index t (0 : Fin 2) * 5000 + 1 * p.val = P.val; omega
  | ⟨1, _⟩ => show win11_0.index t (1 : Fin 2) * 128 + 1 * k.val = k.val; omega

/-- Row p of the block of node array 2 at grid point t is row 5000·t + p of the array. -/
theorem blk11_5_apply (c : Dev nD) (t : Fin cfg11.N) (p : Fin 5000) (k : Fin 128) (P : Fin 40000)
    (hP : P.val = 5000 * t.val + p.val) :
    (iblk11 V c 5 t : Vec Ideal S5000x128 .f32) (ix2 p k) = (V c main_v198 : Vec Ideal S40000x128 .f32) (ix2 P k) := by
  obtain ⟨e0, e1, e2, e3, e4, e5, e6, e7⟩ := idx11_rows t
  unfold iblk11
  rw [View.read_apply]
  show V c main_v198 (((cfg11.win 5).blk t).view.emb (ix2 p k)) = V c main_v198 (ix2 P k)
  congr 1
  funext a
  apply Fin.ext
  match a with
  | ⟨0, _⟩ => show win11_5.index t (0 : Fin 2) * 5000 + 1 * p.val = P.val; omega
  | ⟨1, _⟩ => show win11_5.index t (1 : Fin 2) * 128 + 1 * k.val = k.val; omega

/-- Row p of the block of node array 3 at grid point t is row 5000·t + p of the array. -/
theorem blk11_10_apply (c : Dev nD) (t : Fin cfg11.N) (p : Fin 5000) (k : Fin 128) (P : Fin 40000)
    (hP : P.val = 5000 * t.val + p.val) :
    (iblk11 V c 10 t : Vec Ideal S5000x128 .f32) (ix2 p k) = (V c main_v171 : Vec Ideal S40000x128 .f32) (ix2 P k) := by
  obtain ⟨e0, e1, e2, e3, e4, e5, e6, e7⟩ := idx11_rows t
  unfold iblk11
  rw [View.read_apply]
  show V c main_v171 (((cfg11.win 10).blk t).view.emb (ix2 p k)) = V c main_v171 (ix2 P k)
  congr 1
  funext a
  apply Fin.ext
  match a with
  | ⟨0, _⟩ => show win11_10.index t (0 : Fin 2) * 5000 + 1 * p.val = P.val; omega
  | ⟨1, _⟩ => show win11_10.index t (1 : Fin 2) * 128 + 1 * k.val = k.val; omega

theorem blk11_1_eq (c : Dev nD) (t : Fin cfg11.N) :
    (iblk11 V c 1 t : Vec Ideal S128 .f32) = (V c main_v187 : Vec Ideal S128 .f32) := by
  have hz' : (fun a => win11_1.index t a * main_v187.ty.shape.size a) = fun _ => 0 :=
    funext fun a => by rw [(idx11_whole t).1]; exact Nat.zero_mul _
  exact Memref.read_access_unit_zero (Elt Ideal) main_v187 hz' (fun a => by rw [congrFun hz' a]; simp) (V c main_v187)

theorem blk11_2_eq (c : Dev nD) (t : Fin cfg11.N) :
    (iblk11 V c 2 t : Vec Ideal S128 .f32) = (V c main_v188 : Vec Ideal S128 .f32) := by
  have hz' : (fun a => win11_2.index t a * main_v188.ty.shape.size a) = fun _ => 0 :=
    funext fun a => by rw [(idx11_whole t).2.1]; exact Nat.zero_mul _
  exact Memref.read_access_unit_zero (Elt Ideal) main_v188 hz' (fun a => by rw [congrFun hz' a]; simp) (V c main_v188)

theorem blk11_3_eq (c : Dev nD) (t : Fin cfg11.N) :
    (iblk11 V c 3 t : Vec Ideal S128 .f32) = (V c main_v204 : Vec Ideal S128 .f32) := by
  have hz' : (fun a => win11_3.index t a * main_v204.ty.shape.size a) = fun _ => 0 :=
    funext fun a => by rw [(idx11_whole t).2.2.1]; exact Nat.zero_mul _
  exact Memref.read_access_unit_zero (Elt Ideal) main_v204 hz' (fun a => by rw [congrFun hz' a]; simp) (V c main_v204)

theorem blk11_4_eq (c : Dev nD) (t : Fin cfg11.N) :
    (iblk11 V c 4 t : Vec Ideal S128 .f32) = (V c main_v206 : Vec Ideal S128 .f32) := by
  have hz' : (fun a => win11_4.index t a * main_v206.ty.shape.size a) = fun _ => 0 :=
    funext fun a => by rw [(idx11_whole t).2.2.2.1]; exact Nat.zero_mul _
  exact Memref.read_access_unit_zero (Elt Ideal) main_v206 hz' (fun a => by rw [congrFun hz' a]; simp) (V c main_v206)

theorem blk11_6_eq (c : Dev nD) (t : Fin cfg11.N) :
    (iblk11 V c 6 t : Vec Ideal S128 .f32) = (V c main_v201 : Vec Ideal S128 .f32) := by
  have hz' : (fun a => win11_6.index t a * main_v201.ty.shape.size a) = fun _ => 0 :=
    funext fun a => by rw [(idx11_whole t).2.2.2.2.1]; exact Nat.zero_mul _
  exact Memref.read_access_unit_zero (Elt Ideal) main_v201 hz' (fun a => by rw [congrFun hz' a]; simp) (V c main_v201)

theorem blk11_7_eq (c : Dev nD) (t : Fin cfg11.N) :
    (iblk11 V c 7 t : Vec Ideal S128 .f32) = (V c main_v202 : Vec Ideal S128 .f32) := by
  have hz' : (fun a => win11_7.index t a * main_v202.ty.shape.size a) = fun _ => 0 :=
    funext fun a => by rw [(idx11_whole t).2.2.2.2.2.1]; exact Nat.zero_mul _
  exact Memref.read_access_unit_zero (Elt Ideal) main_v202 hz' (fun a => by rw [congrFun hz' a]; simp) (V c main_v202)

theorem blk11_8_eq (c : Dev nD) (t : Fin cfg11.N) :
    (iblk11 V c 8 t : Vec Ideal S128 .f32) = (V c main_v208 : Vec Ideal S128 .f32) := by
  have hz' : (fun a => win11_8.index t a * main_v208.ty.shape.size a) = fun _ => 0 :=
    funext fun a => by rw [(idx11_whole t).2.2.2.2.2.2.1]; exact Nat.zero_mul _
  exact Memref.read_access_unit_zero (Elt Ideal) main_v208 hz' (fun a => by rw [congrFun hz' a]; simp) (V c main_v208)

theorem blk11_9_eq (c : Dev nD) (t : Fin cfg11.N) :
    (iblk11 V c 9 t : Vec Ideal S128 .f32) = (V c main_v210 : Vec Ideal S128 .f32) := by
  have hz' : (fun a => win11_9.index t a * main_v210.ty.shape.size a) = fun _ => 0 :=
    funext fun a => by rw [(idx11_whole t).2.2.2.2.2.2.2.1]; exact Nat.zero_mul _
  exact Memref.read_access_unit_zero (Elt Ideal) main_v210 hz' (fun a => by rw [congrFun hz' a]; simp) (V c main_v210)

theorem blk11_11_eq (c : Dev nD) (t : Fin cfg11.N) :
    (iblk11 V c 11 t : Vec Ideal S128 .f32) = (V c main_v174 : Vec Ideal S128 .f32) := by
  have hz' : (fun a => win11_11.index t a * main_v174.ty.shape.size a) = fun _ => 0 :=
    funext fun a => by rw [(idx11_whole t).2.2.2.2.2.2.2.2.1]; exact Nat.zero_mul _
  exact Memref.read_access_unit_zero (Elt Ideal) main_v174 hz' (fun a => by rw [congrFun hz' a]; simp) (V c main_v174)

theorem blk11_12_eq (c : Dev nD) (t : Fin cfg11.N) :
    (iblk11 V c 12 t : Vec Ideal S128 .f32) = (V c main_v175 : Vec Ideal S128 .f32) := by
  have hz' : (fun a => win11_12.index t a * main_v175.ty.shape.size a) = fun _ => 0 :=
    funext fun a => by rw [(idx11_whole t).2.2.2.2.2.2.2.2.2.1]; exact Nat.zero_mul _
  exact Memref.read_access_unit_zero (Elt Ideal) main_v175 hz' (fun a => by rw [congrFun hz' a]; simp) (V c main_v175)

theorem blk11_13_eq (c : Dev nD) (t : Fin cfg11.N) :
    (iblk11 V c 13 t : Vec Ideal S128 .f32) = (V c main_v212 : Vec Ideal S128 .f32) := by
  have hz' : (fun a => win11_13.index t a * main_v212.ty.shape.size a) = fun _ => 0 :=
    funext fun a => by rw [(idx11_whole t).2.2.2.2.2.2.2.2.2.2.1]; exact Nat.zero_mul _
  exact Memref.read_access_unit_zero (Elt Ideal) main_v212 hz' (fun a => by rw [congrFun hz' a]; simp) (V c main_v212)

theorem blk11_14_eq (c : Dev nD) (t : Fin cfg11.N) :
    (iblk11 V c 14 t : Vec Ideal S128 .f32) = (V c main_v214 : Vec Ideal S128 .f32) := by
  have hz' : (fun a => win11_14.index t a * main_v214.ty.shape.size a) = fun _ => 0 :=
    funext fun a => by rw [(idx11_whole t).2.2.2.2.2.2.2.2.2.2.2.1]; exact Nat.zero_mul _
  exact Memref.read_access_unit_zero (Elt Ideal) main_v214 hz' (fun a => by rw [congrFun hz' a]; simp) (V c main_v214)

theorem blk11_16_eq (c : Dev nD) (t : Fin cfg11.N) :
    (iblk11 V c 16 t : Vec Ideal S128 .f32) = (V c main_v218 : Vec Ideal S128 .f32) := by
  have hz' : (fun a => win11_16.index t a * main_v218.ty.shape.size a) = fun _ => 0 :=
    funext fun a => by rw [(idx11_whole t).2.2.2.2.2.2.2.2.2.2.2.2.1]; exact Nat.zero_mul _
  exact Memref.read_access_unit_zero (Elt Ideal) main_v218 hz' (fun a => by rw [congrFun hz' a]; simp) (V c main_v218)

theorem blk11_15_eq (c : Dev nD) (t : Fin cfg11.N) :
    (iblk11 V c 15 t : Vec Ideal S128x128 .f32) = (V c main_v216 : Vec Ideal S128x128 .f32) := by
  have hz' : (fun a => win11_15.index t a * main_v216.ty.shape.size a) = fun _ => 0 :=
    funext fun a => by rw [(idx11_whole t).2.2.2.2.2.2.2.2.2.2.2.2.2]; exact Nat.zero_mul _
  exact Memref.read_access_unit_zero (Elt Ideal) main_v216 hz' (fun a => by rw [congrFun hz' a]; simp) (V c main_v216)

/-! ## One function of the whole arrays -/

/-- Entry (p, q) of the layer reads the three node arrays only along row p: arrays that agree along the row give the
    same entry. -/
theorem lin11_rows {M M' : ℕ} (x0 x5 x10 : FVec Ideal ⟨2, ![M, 128]⟩ .f32) (X0 X5 X10 : FVec Ideal ⟨2, ![M', 128]⟩ .f32)
    (m0 v0 g0 b0 m5 v5 g5 b5 m10 v10 g10 b10 : FVec Ideal ⟨1, ![128]⟩ .f32)
    (W : FVec Ideal ⟨2, ![128, 128]⟩ .f32) (b : FVec Ideal ⟨1, ![128]⟩ .f32) (p : Fin M) (P : Fin M') (q : Fin 128)
    (h0 : ∀ k, x0 (ix2 p k) = X0 (ix2 P k)) (h5 : ∀ k, x5 (ix2 p k) = X5 (ix2 P k)) (h10 : ∀ k, x10 (ix2 p k) = X10 (ix2 P k)) :
    Cert.Spec.linE (Cert.Spec.relu (Cert.Spec.add3 (Cert.Spec.bn x0 m0 v0 g0 b0) (Cert.Spec.bn x5 m5 v5 g5 b5)
        (Cert.Spec.bn x10 m10 v10 g10 b10))) W b p q
      = Cert.Spec.linE (Cert.Spec.relu (Cert.Spec.add3 (Cert.Spec.bn X0 m0 v0 g0 b0) (Cert.Spec.bn X5 m5 v5 g5 b5)
        (Cert.Spec.bn X10 m10 v10 g10 b10))) W b P q := by
  unfold Cert.Spec.linE
  refine congrArg (· + b (ix1 q)) (Finset.sum_congr rfl fun k _ => ?_)
  show max (Cert.Spec.bnE x0 m0 v0 g0 b0 p k + Cert.Spec.bnE x5 m5 v5 g5 b5 p k + Cert.Spec.bnE x10 m10 v10 g10 b10 p k) Cert.Spec.zeroW * W (ix2 k q)
    = max (Cert.Spec.bnE X0 m0 v0 g0 b0 P k + Cert.Spec.bnE X5 m5 v5 g5 b5 P k + Cert.Spec.bnE X10 m10 v10 g10 b10 P k) Cert.Spec.zeroW * W (ix2 k q)
  unfold Cert.Spec.bnE
  rw [h0 k, h5 k, h10 k]

/-- The layer of the whole arrays the region finds. -/
abbrev G11 (c : Dev nD) : FVec Ideal ⟨2, ![40000, 128]⟩ .f32 :=
  Cert.Spec.lin (Cert.Spec.relu (Cert.Spec.add3
      (Cert.Spec.bn (V c main_v184_1) (V c main_v187) (V c main_v188) (V c main_v204) (V c main_v206))
      (Cert.Spec.bn (V c main_v198) (V c main_v201) (V c main_v202) (V c main_v208) (V c main_v210))
      (Cert.Spec.bn (V c main_v171) (V c main_v174) (V c main_v175) (V c main_v212) (V c main_v214))))
    (V c main_v216) (V c main_v218)

/-- The layer at an index whose coordinates are (P, Q). -/
theorem G11_at (c : Dev nD) (i : S40000x128.Idx) (P : Fin 40000) (Q : Fin 128) (h0 : (i 0).val = P.val) (h1 : (i 1).val = Q.val) :
    G11 V c i = Cert.Spec.linE (Cert.Spec.relu (Cert.Spec.add3
      (Cert.Spec.bn (V c main_v184_1) (V c main_v187) (V c main_v188) (V c main_v204) (V c main_v206))
      (Cert.Spec.bn (V c main_v198) (V c main_v201) (V c main_v202) (V c main_v208) (V c main_v210))
      (Cert.Spec.bn (V c main_v171) (V c main_v174) (V c main_v175) (V c main_v212) (V c main_v214))))
    (V c main_v216) (V c main_v218) P Q := by
  obtain rfl : i = ix2 P Q := funext fun a => Fin.ext (match a with | ⟨0, _⟩ => h0 | ⟨1, _⟩ => h1)
  rfl

/-! ## What each grid point writes back, and the array after the region -/

/-- Grid point t writes back row block t of the layer of the whole arrays. -/
theorem flushed11_eq (c : Dev nD) (t : Fin cfg11.N) :
    (dat11 V c).flushed 17 t = ((cfg11.win 17).blk t).view.read (Elt Ideal) (G11 V c) := by
  show (cfg11.win 17).cut (grid11.coords t) ((dat11 V c).after 17 t) = _
  rw [after11_17]
  unfold out11_17
  rw [View.canon_unit_zero hz11_2]
  simp only [View.ld_unit_zero (S := S5000x128) hz11_2, View.ld_unit_zero (S := S128) hz11_1, View.ld_unit_zero (S := S128x128) hz11_2]
  rw [blk11_1_eq V c t, blk11_2_eq V c t, blk11_3_eq V c t, blk11_4_eq V c t, blk11_6_eq V c t, blk11_7_eq V c t, blk11_8_eq V c t, blk11_9_eq V c t, blk11_11_eq V c t, blk11_12_eq V c t, blk11_13_eq V c t, blk11_14_eq V c t, blk11_16_eq V c t, blk11_15_eq V c t]
  obtain ⟨e0, e1, e2, e3, e4, e5, e6, e7⟩ := idx11_rows t
  have hN : cfg11.N = 8 := N_11
  refine funext fun (j : S5000x128.Idx) => ?_
  obtain ⟨p, q, rfl⟩ : ∃ (p : Fin 5000) (q : Fin 128), j = ix2 p q := ⟨j 0, j 1, eq_ix2 j⟩
  have ht : t.val < 8 := hN ▸ t.isLt
  have hP : 5000 * t.val + p.val < 40000 := by have := p.isLt; omega
  refine (pay11_apply (iblk11 V c 0 t) (V c main_v187) (V c main_v188) (V c main_v204) (V c main_v206) (iblk11 V c 5 t) (V c main_v201) (V c main_v202)
    (V c main_v208) (V c main_v210) (iblk11 V c 10 t) (V c main_v174) (V c main_v175) (V c main_v212) (V c main_v214) (V c main_v216) (V c main_v218) p q).trans ?_
  refine (lin11_rows (iblk11 V c 0 t) (iblk11 V c 5 t) (iblk11 V c 10 t) (V c main_v184_1) (V c main_v198) (V c main_v171)
    (V c main_v187) (V c main_v188) (V c main_v204) (V c main_v206) (V c main_v201) (V c main_v202) (V c main_v208) (V c main_v210)
    (V c main_v174) (V c main_v175) (V c main_v212) (V c main_v214) (V c main_v216) (V c main_v218) p ⟨5000 * t.val + p.val, hP⟩ q
    (fun k => blk11_0_apply V c t p k _ rfl) (fun k => blk11_5_apply V c t p k _ rfl) (fun k => blk11_10_apply V c t p k _ rfl)).trans ?_
  rw [View.read_apply]
  refine (G11_at V c (((cfg11.win 17).blk t).view.emb (ix2 p q)) ⟨5000 * t.val + p.val, hP⟩ q ?_ ?_).symm
  · show win11_17.index t (0 : Fin 2) * 5000 + 1 * p.val = 5000 * t.val + p.val; omega
  · show win11_17.index t (1 : Fin 2) * 128 + 1 * q.val = q.val; omega

/-- An index of the output array is in point t's block iff each coordinate is in the block's range on its axis. -/
theorem mem_blk11 (t : Fin cfg11.N) (i : S40000x128.Idx) :
    i ∈ ((cfg11.win 17).blk t).view.set ↔ ∀ a : Fin 2, win11_17.index t a * S5000x128.size a ≤ (i a).val ∧ (i a).val < win11_17.index t a * S5000x128.size a + S5000x128.size a := by
  show i ∈ ((View.whole main_v219).slice (win11_17.rect t)).set ↔ _
  rw [View.set_slice_whole, Rect.mem_set_unit]
  exact Iff.rfl

/-- Every row r of the output array is in some point's block: point r / 5000. -/
theorem cover11 (i : S40000x128.Idx) :
    ∃ t : Fin cfg11.N, (cfg11.win 17).flush t = true ∧ i ∈ ((cfg11.win 17).blk t).view.set := by
  have hi0 : (i 0).val < 40000 := (i 0).isLt
  have hi1 : (i 1).val < 128 := (i 1).isLt
  have hN : cfg11.N = 8 := N_11
  obtain ⟨t, ht⟩ : ∃ t : Fin cfg11.N, t.val = (i 0).val / 5000 := ⟨⟨(i 0).val / 5000, by omega⟩, rfl⟩
  obtain ⟨e0, e1, e2, e3, e4, e5, e6, e7⟩ := idx11_rows t
  refine ⟨t, flush11_17 t, ?_⟩
  rw [mem_blk11]
  intro a
  match a with
  | ⟨0, _⟩ => show win11_17.index t (0 : Fin 2) * 5000 ≤ (i 0).val ∧ (i 0).val < win11_17.index t (0 : Fin 2) * 5000 + 5000; omega
  | ⟨1, _⟩ => show win11_17.index t (1 : Fin 2) * 128 ≤ (i 1).val ∧ (i 1).val < win11_17.index t (1 : Fin 2) * 128 + 128; omega

/-- THE ARRAY AFTER THE REGION: the layer of the arrays the region found. -/
theorem val11 (c : Dev nD) : (dat11 (F := Ideal) V c).arrAt 17 cfg11.N = Cert.Spec.lin (Cert.Spec.relu (Cert.Spec.add3 (Cert.Spec.bn (V c main_v184_1) (V c main_v187) (V c main_v188) (V c main_v204) (V c main_v206)) (Cert.Spec.bn (V c main_v198) (V c main_v201) (V c main_v202) (V c main_v208) (V c main_v210)) (Cert.Spec.bn (V c main_v171) (V c main_v174) (V c main_v175) (V c main_v212) (V c main_v214)))) (V c main_v216) (V c main_v218) :=
  (dat11 V c).arrAt_eq_of_cover 17 (G11 V c) (fun t _ => flushed11_eq V c t) (cover11)

end Cert.KernelIdeal.KVal

end
-- ==== Proof.KVal12.lean ====
/-
  The value of the normalise, rectify and multiply region.

  The region reads a node array `x` in eight tiles of 5000 rows, and four feature vectors `μ`, `v`, `g`, `β`, a
  128×128 weight matrix `W` and a bias vector `b`, each whole at every tile, and writes an output node array tile by
  tile. Each tile's body computes, entry by entry,
  `∑ k, max ((x (p, k) - μ k) * rsqrt (v k + ε) * g k + β k) 0 * W (k, q) + b q` (the narrowing of the two factors
  to bf16 is the identity on extended reals). Every row of the output lies in exactly one tile (row `r` in tile
  `r / 5000`), so the output array after the region is `lin (relu (bn x μ v g β)) W b` of the arrays the region found.
-/
import proofs.«426021_j89885075570707_3_alg».proof.Proof.Gen.KernelIdeal.Frame
import proofs.«426021_j89885075570707_3_alg».proof.Proof.Spec
import proofs.«426021_j89885075570707_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-! ## The tile body at an entry -/

/-- A feature vector laid as one row and repeated down the 5000 rows of a tile reads, at `(p, q)`, the vector at `q`. -/
theorem row12_apply (v : FVec Ideal S128 .f32) (p : Fin 5000) (q : Fin 128) :
    broadcastTo S5000x128 (shapeCast S1x128 v shapeCasts_S128_S1x128) broadcasts_S1x128_S5000x128 (ix2 p q) = v (ix1 q) :=
  (broadcastTo_1b_ab_apply _ broadcasts_S1x128_S5000x128 p q).trans (shapeCast_a_1a_apply v shapeCasts_S128_S1x128 0 q)

/-- The tile body's product is the plain 5000×128 by 128×128 matrix product. -/
theorem dot12_eq : dot_S5000x128_S128x128_S5000x128_1_0_0_1_n_n = DotDims.plain 5000 128 128 := rfl

/-- The tile body's result at `(p, q)`: row `p` of the rectified normalisation against column `q` of the weights, plus the bias. -/
theorem pay12_apply (x0 : Vec Ideal S5000x128 .f32) (x1 x2 x3 x4 : Vec Ideal S128 .f32) (x5 : Vec Ideal S128x128 .f32)
    (x6 : Vec Ideal S128 .f32) (p : Fin 5000) (q : Fin 128) :
    k12_pay1 (F := Ideal) x0 x1 x2 x3 x4 x5 x6 (ix2 p q)
      = Cert.Spec.linE (Cert.Spec.relu (Cert.Spec.bn x0 x1 x2 x3 x4)) x5 x6 p q := by
  unfold k12_pay1
  simp only [shapeCast_self]
  rw [addf_apply, row12_apply, dot12_eq]
  refine congrArg (· + x6 (ix1 q)) ?_
  refine (Cert.Lib.PlainDot.matmul_zero_apply none _ _ p q).trans ?_
  refine Finset.sum_congr rfl fun k _ => ?_
  rw [truncf_apply, truncf_apply, maximumf_apply, addf_apply, mulf_apply, mulf_apply, subf_apply,
    row12_apply, row12_apply, row12_apply, row12_apply]
  rfl

/-- The product of the rectified normalisation of whole arrays with the weights, plus the bias, at an index `i`,
    from a tile whose row `p` is the node array's row of `i`, whose column `q` is `i`'s column, and whose
    feature vectors, weights and bias are the whole ones. -/
theorem entry12 (X : FVec Ideal S40000x128 .f32) (μ v g β : FVec Ideal S128 .f32) (W : FVec Ideal S128x128 .f32)
    (b : FVec Ideal S128 .f32) (xb : Vec Ideal S5000x128 .f32) (μb vb gb βb : Vec Ideal S128 .f32)
    (Wb : Vec Ideal S128x128 .f32) (bb : Vec Ideal S128 .f32) (p : Fin 5000) (q : Fin 128) (i : S40000x128.Idx)
    (hx : ∀ k : Fin 128, xb (ix2 p k) = X (ix2 (i 0) k)) (h1 : ∀ k : Fin 128, μb (ix1 k) = μ (ix1 k))
    (h2 : ∀ k : Fin 128, vb (ix1 k) = v (ix1 k)) (h3 : ∀ k : Fin 128, gb (ix1 k) = g (ix1 k))
    (h4 : ∀ k : Fin 128, βb (ix1 k) = β (ix1 k)) (hW : ∀ k : Fin 128, Wb (ix2 k q) = W (ix2 k (i 1)))
    (hb : bb (ix1 q) = b (ix1 (i 1))) :
    Cert.Spec.linE (Cert.Spec.relu (Cert.Spec.bn xb μb vb gb βb)) Wb bb p q
      = Cert.Spec.lin (Cert.Spec.relu (Cert.Spec.bn X μ v g β)) W b i := by
  show (∑ k : Fin 128, max ((xb (ix2 p k) - μb (ix1 k)) * Ideal.rsqrt (vb (ix1 k) + Cert.Spec.eps) * gb (ix1 k) + βb (ix1 k)) Cert.Spec.zeroW
        * Wb (ix2 k q)) + bb (ix1 q)
    = (∑ k : Fin 128, max ((X (ix2 (i 0) k) - μ (ix1 k)) * Ideal.rsqrt (v (ix1 k) + Cert.Spec.eps) * g (ix1 k) + β (ix1 k)) Cert.Spec.zeroW
        * W (ix2 k (i 1))) + b (ix1 (i 1))
  rw [hb]
  refine congrArg (· + b (ix1 (i 1))) (Finset.sum_congr rfl fun k _ => ?_)
  rw [hx k, h1 k, h2 k, h3 k, h4 k, hW k]

/-! ## From tiles to the array -/

theorem zeros12_2 : (![0, 0] : Fin 2 → Nat) = fun _ => 0 := funext fun a => by fin_cases a <;> rfl
theorem zeros12_1 : (![0] : Fin 1 → Nat) = fun _ => 0 := funext fun a => by fin_cases a <;> rfl

/-- The region's output array as one function of the arrays the region found. -/
abbrev G12 (c : Dev nD) : FVec Ideal S40000x128 .f32 :=
  Cert.Spec.lin (Cert.Spec.relu (Cert.Spec.bn (V c main_v219) (V c main_v222) (V c main_v223) (V c main_v225) (V c main_v227)))
    (V c main_v229) (V c main_v231)

/-- The tile positions, decided over the eight tiles: the input node array's tile moves with the output's, the
    feature vectors and the weight matrix stay whole, and the output's tile at point `t` is one of the eight tiles of
    rows, all 128 columns. -/
theorem tiles12 : ∀ t : Fin cfg12.N, win12_0.index t (0 : Fin 2) = win12_7.index t (0 : Fin 2)
    ∧ win12_0.index t (1 : Fin 2) = 0
    ∧ win12_1.index t (0 : Fin 1) = 0
    ∧ win12_2.index t (0 : Fin 1) = 0
    ∧ win12_3.index t (0 : Fin 1) = 0
    ∧ win12_4.index t (0 : Fin 1) = 0
    ∧ win12_5.index t (0 : Fin 2) = 0
    ∧ win12_5.index t (1 : Fin 2) = 0
    ∧ win12_6.index t (0 : Fin 1) = 0
    ∧ win12_7.index t (0 : Fin 2) ≤ 7
    ∧ win12_7.index t (1 : Fin 2) = 0 :=
  (by decide +kernel : ∀ t : Fin grid12.N, _)

/-- Every tile of rows is some point's. -/
theorem tiles12_onto : ∀ (r : Fin 8), ∃ t : Fin cfg12.N, win12_7.index t = ![r.val, 0] :=
  (by decide +kernel : ∀ (r : Fin 8), ∃ t : Fin grid12.N, win12_7.index t = ![r.val, 0])

/-- What point `t` writes back is tile `t` of `G12`. -/
theorem flushed12_eq (c : Dev nD) (t : Fin cfg12.N) :
    (dat12 (F := Ideal) V c).flushed 7 t = ((cfg12.win 7).blk t).view.read (Elt Ideal) (G12 V c) := by
  show (cfg12.win 7).cut (grid12.coords t) ((dat12 V c).after 7 t) = _
  rw [after12_7]
  unfold out12_7
  rw [View.canon_unit_zero zeros12_2]
  simp only [View.ld_unit_zero (S := S5000x128) zeros12_2, View.ld_unit_zero (S := S128) zeros12_1,
    View.ld_unit_zero (S := S128x128) zeros12_2]
  obtain ⟨e0, e1, e2, e3, e4, e5, e6, e7, e8, e9, e10⟩ := tiles12 t
  funext j
  obtain ⟨p, q, rfl⟩ : ∃ (p : Fin 5000) (q : Fin 128), j = ix2 p q := ⟨j 0, j 1, eq_ix2 j⟩
  refine (pay12_apply (iblk12 V c 0 t) (iblk12 V c 1 t) (iblk12 V c 2 t) (iblk12 V c 3 t) (iblk12 V c 4 t) (iblk12 V c 5 t)
    (iblk12 V c 6 t) p q).trans ?_
  have h0 : ∀ k : Fin 128, ((cfg12.win 0).blk t).view.emb (ix2 p k) = ix2 (((cfg12.win 7).blk t).view.emb (ix2 p q) 0) k := fun k => by
    funext a; apply Fin.ext
    match a with
    | ⟨0, _⟩ => show win12_0.index t (0 : Fin 2) * 5000 + 1 * p.val = win12_7.index t (0 : Fin 2) * 5000 + 1 * p.val; omega
    | ⟨1, _⟩ => show win12_0.index t (1 : Fin 2) * 128 + 1 * k.val = k.val; omega
  have h1 : ∀ k : Fin 128, ((cfg12.win 1).blk t).view.emb (ix1 k) = ix1 k := fun k => by
    funext a; apply Fin.ext
    match a with
    | ⟨0, _⟩ => show win12_1.index t (0 : Fin 1) * 128 + 1 * k.val = k.val; omega
  have h2 : ∀ k : Fin 128, ((cfg12.win 2).blk t).view.emb (ix1 k) = ix1 k := fun k => by
    funext a; apply Fin.ext
    match a with
    | ⟨0, _⟩ => show win12_2.index t (0 : Fin 1) * 128 + 1 * k.val = k.val; omega
  have h3 : ∀ k : Fin 128, ((cfg12.win 3).blk t).view.emb (ix1 k) = ix1 k := fun k => by
    funext a; apply Fin.ext
    match a with
    | ⟨0, _⟩ => show win12_3.index t (0 : Fin 1) * 128 + 1 * k.val = k.val; omega
  have h4 : ∀ k : Fin 128, ((cfg12.win 4).blk t).view.emb (ix1 k) = ix1 k := fun k => by
    funext a; apply Fin.ext
    match a with
    | ⟨0, _⟩ => show win12_4.index t (0 : Fin 1) * 128 + 1 * k.val = k.val; omega
  have h5 : ∀ k : Fin 128, ((cfg12.win 5).blk t).view.emb (ix2 k q) = ix2 k (((cfg12.win 7).blk t).view.emb (ix2 p q) 1) := fun k => by
    funext a; apply Fin.ext
    match a with
    | ⟨0, _⟩ => show win12_5.index t (0 : Fin 2) * 128 + 1 * k.val = k.val; omega
    | ⟨1, _⟩ => show win12_5.index t (1 : Fin 2) * 128 + 1 * q.val = win12_7.index t (1 : Fin 2) * 128 + 1 * q.val; omega
  have h6 : ((cfg12.win 6).blk t).view.emb (ix1 q) = ix1 (((cfg12.win 7).blk t).view.emb (ix2 p q) 1) := by
    funext a; apply Fin.ext
    match a with
    | ⟨0, _⟩ => show win12_6.index t (0 : Fin 1) * 128 + 1 * q.val = win12_7.index t (1 : Fin 2) * 128 + 1 * q.val; omega
  show Cert.Spec.linE (Cert.Spec.relu (Cert.Spec.bn (iblk12 V c 0 t) (iblk12 V c 1 t) (iblk12 V c 2 t) (iblk12 V c 3 t) (iblk12 V c 4 t)))
      (iblk12 V c 5 t) (iblk12 V c 6 t) p q
    = G12 V c (((cfg12.win 7).blk t).view.emb (ix2 p q))
  refine entry12 (V c main_v219) (V c main_v222) (V c main_v223) (V c main_v225) (V c main_v227) (V c main_v229) (V c main_v231)
    (iblk12 V c 0 t) (iblk12 V c 1 t) (iblk12 V c 2 t) (iblk12 V c 3 t) (iblk12 V c 4 t) (iblk12 V c 5 t) (iblk12 V c 6 t) p q
    (((cfg12.win 7).blk t).view.emb (ix2 p q)) (fun k => ?_) (fun k => ?_) (fun k => ?_) (fun k => ?_) (fun k => ?_) (fun k => ?_) ?_
  · show V c main_v219 (((cfg12.win 0).blk t).view.emb (ix2 p k)) = V c main_v219 (ix2 (((cfg12.win 7).blk t).view.emb (ix2 p q) 0) k)
    exact congrArg (V c main_v219) (h0 k)
  · show V c main_v222 (((cfg12.win 1).blk t).view.emb (ix1 k)) = V c main_v222 (ix1 k)
    exact congrArg (V c main_v222) (h1 k)
  · show V c main_v223 (((cfg12.win 2).blk t).view.emb (ix1 k)) = V c main_v223 (ix1 k)
    exact congrArg (V c main_v223) (h2 k)
  · show V c main_v225 (((cfg12.win 3).blk t).view.emb (ix1 k)) = V c main_v225 (ix1 k)
    exact congrArg (V c main_v225) (h3 k)
  · show V c main_v227 (((cfg12.win 4).blk t).view.emb (ix1 k)) = V c main_v227 (ix1 k)
    exact congrArg (V c main_v227) (h4 k)
  · show V c main_v229 (((cfg12.win 5).blk t).view.emb (ix2 k q)) = V c main_v229 (ix2 k (((cfg12.win 7).blk t).view.emb (ix2 p q) 1))
    exact congrArg (V c main_v229) (h5 k)
  · show V c main_v231 (((cfg12.win 6).blk t).view.emb (ix1 q)) = V c main_v231 (ix1 (((cfg12.win 7).blk t).view.emb (ix2 p q) 1))
    exact congrArg (V c main_v231) h6

/-- An index of the output array is in point `t`'s tile iff each coordinate is in the tile's range on its axis. -/
theorem mem_tile12 (t : Fin cfg12.N) (i : S40000x128.Idx) :
    i ∈ ((cfg12.win 7).blk t).view.set ↔ ∀ a : Fin 2, win12_7.index t a * S5000x128.size a ≤ (i a).val ∧ (i a).val < win12_7.index t a * S5000x128.size a + S5000x128.size a := by
  show i ∈ ((View.whole main_v232).slice (win12_7.rect t)).set ↔ _
  rw [View.set_slice_whole, Rect.mem_set_unit]
  exact Iff.rfl

/-- Every index of the output array is in some point's tile: row `r` in tile `r / 5000`. -/
theorem cover12 (i : S40000x128.Idx) :
    ∃ t : Fin cfg12.N, (cfg12.win 7).flush t = true ∧ i ∈ ((cfg12.win 7).blk t).view.set := by
  have hi0 : (i 0).val < 40000 := (i 0).isLt
  have hi1 : (i 1).val < 128 := (i 1).isLt
  obtain ⟨t, ht⟩ := tiles12_onto ⟨(i 0).val / 5000, by omega⟩
  have q0 : win12_7.index t (0 : Fin 2) = (i 0).val / 5000 := congrFun ht 0
  have q1 : win12_7.index t (1 : Fin 2) = 0 := congrFun ht 1
  refine ⟨t, flush12_7 t, ?_⟩
  rw [mem_tile12]
  intro a
  match a with
  | ⟨0, _⟩ => show win12_7.index t (0 : Fin 2) * 5000 ≤ (i 0).val ∧ (i 0).val < win12_7.index t (0 : Fin 2) * 5000 + 5000; omega
  | ⟨1, _⟩ => show win12_7.index t (1 : Fin 2) * 128 ≤ (i 1).val ∧ (i 1).val < win12_7.index t (1 : Fin 2) * 128 + 128; omega

/-- The output array after the region is the rectified normalisation of the node array the region found, times the
    weight matrix, plus the bias. -/
theorem val12 (c : Dev nD) : (dat12 (F := Ideal) V c).arrAt 7 cfg12.N
    = Cert.Spec.lin (Cert.Spec.relu (Cert.Spec.bn (V c main_v219) (V c main_v222) (V c main_v223) (V c main_v225) (V c main_v227)))
        (V c main_v229) (V c main_v231) :=
  (dat12 V c).arrAt_eq_of_cover 7 (G12 V c) (fun t _ => flushed12_eq V c t) cover12

end Cert.KernelIdeal.KVal

end
-- ==== Proof.KFoldL2.lean ====
/-
  Layer 2 of the network, read off the run's fold from the boundary after its input's linear map to the boundary
  after its last region.

  The layer's input is an array `X` (the previous linear output, before normalisation), a scale `G` and a shift
  `Bt`; with them come the per-node sums `s` and counts `n` of the edge attributes and the two rows `src`, `dst`
  of the edge list. What the buffers hold, stage by stage:
  * the column mean and variance of `X`, then the edge row and edge bias of this layer;
  * the edge region's array `s ⊗ row + n ⊗ bias`, and its column mean and variance;
  * the neighbour and node maps' parameters, then the two linear images of `x = max (bn X) 0`;
  * the node image's statistics; the neighbour image gathered at the edges' sources and summed at their targets, and
    that aggregate's statistics; the three scales and shifts and the first update map's parameters;
  * the first update map of the clipped sum of the three normalised arrays, its statistics, the second update map's
    parameters, and the second update map of its clipped normalisation — which is `Net.layerRaw` of `x`.
  Every stage is the preceding boundary's contents under one stretch of host operations (read with
  `after_results_k`) or one region (its exit array is the region's value at the entry contents); a buffer that a
  stretch or region does not write is carried by `hs…` / `W…_of_ne`.
-/
import proofs.«426021_j89885075570707_3_alg».proof.Proof.KFoldKeep
import proofs.«426021_j89885075570707_3_alg».proof.Proof.KFoldTac
import proofs.«426021_j89885075570707_3_alg».proof.Proof.KVal9
import proofs.«426021_j89885075570707_3_alg».proof.Proof.KVal10
import proofs.«426021_j89885075570707_3_alg».proof.Proof.KVal11
import proofs.«426021_j89885075570707_3_alg».proof.Proof.KVal12

set_option maxRecDepth 16384
-- a variance stretch read back through its twenty-two operations is compared with `Chains.var` by unfolding
set_option maxHeartbeats 4000000
-- one theorem at a time: each side condition is decided by the kernel, and in parallel these pass the machine's memory
set_option Elab.async false

noncomputable section

namespace Cert.KernelIdeal.KFold

open Idealize.ShloMosaic Idealize.ShloMosaic.TcCoe Idealize.SL.Sem Cert.KernelIdeal Cert.KernelIdeal.Gen
open Cert.Chains Cert.Spec Cert.Net

variable (m : (ℓ : Loc nD τ sig) → Buf (Elt Ideal) ℓ) (ρ : Dev nD → PrngReg)

/-- What layer 2 finds: its input array, scale and shift, the per-node sums and counts, the edge list's rows, and
    the boundaries at which the buffers hold them. -/
structure In2 where
  X : Dev nD → FVec Ideal SN .f32
  G : Dev nD → FVec Ideal SF .f32
  Bt : Dev nD → FVec Ideal SF .f32
  s : Dev nD → FVec Ideal SN1 .f32
  n : Dev nD → FVec Ideal SN1 .f32
  src : Dev nD → IVec SEs 32
  dst : Dev nD → IVec SEs 32
  hX : ∀ c, W38 m ρ c (Proc.devRef .tc main_v158) = X c
  hG : ∀ c, W41 m ρ c (Proc.devRef .tc main_v164) = G c
  hBt : ∀ c, W41 m ρ c (Proc.devRef .tc main_v166) = Bt c
  hs : ∀ c, W41 m ρ c (Proc.devRef .tc main_v12) = s c
  hn : ∀ c, W41 m ρ c (Proc.devRef .tc main_v13) = n c
  hsrc : ∀ c, W48 m ρ c (Proc.devRef .tc main_v1) = src c
  hdst : ∀ c, W48 m ρ c (Proc.devRef .tc main_v3) = dst c

variable (I : In2 m ρ)

/-! ## The layer's arrays -/

/-- The normalised, clipped input. -/
def l2_xin (c : Dev nD) : FVec Ideal SN .f32 := Net.norm (I.X c) (I.G c) (I.Bt c)
/-- The edge branch's array. -/
def l2_ea (c : Dev nD) : FVec Ideal SN .f32 := Spec.outer (I.s c) (I.n c) (row2 (A9 m c)) (vec2 (A10 m c))
/-- The neighbour map's image. -/
def l2_hb (c : Dev nD) : FVec Ideal SN .f32 := Spec.lin (l2_xin m ρ I c) (mat2 (A11 m c)) (vec2 (A12 m c))
/-- The node map's image. -/
def l2_xn (c : Dev nD) : FVec Ideal SN .f32 := Spec.lin (l2_xin m ρ I c) (mat2 (A7 m c)) (vec2 (A8 m c))
/-- The neighbour aggregate. -/
def l2_ag (c : Dev nD) : FVec Ideal SN .f32 := Net.aggregate (I.src c) (I.dst c) (l2_hb m ρ I c)
/-- The first update map's image. -/
def l2_u (c : Dev nD) : FVec Ideal SN .f32 :=
  Spec.lin (Spec.relu (Spec.add3 (Net.bnS (l2_xn m ρ I c) (vec2 (A13 m c)) (vec2 (A14 m c)))
      (Net.bnS (l2_ag m ρ I c) (vec2 (A17 m c)) (vec2 (A18 m c))) (Net.bnS (l2_ea m ρ I c) (vec2 (A15 m c)) (vec2 (A16 m c)))))
    (mat2 (A19 m c)) (vec2 (A20 m c))
/-- The second update map's image: the layer's output before the next normalisation. -/
def l2_y (c : Dev nD) : FVec Ideal SN .f32 :=
  Spec.lin (Net.norm (l2_u m ρ I c) (vec2 (A21 m c)) (vec2 (A22 m c))) (mat2 (A23 m c)) (vec2 (A24 m c))

/-- The layer's output is `Net.layerRaw` at the layer's parameters, its edge array and its normalised input. -/
theorem l2_y_eq (c : Dev nD) :
    l2_y m ρ I c = Net.layerRaw (I.src c) (I.dst c)
      (Net.P2 (A7 m c) (A8 m c) (A11 m c) (A12 m c) (A13 m c) (A14 m c) (A15 m c) (A16 m c) (A17 m c) (A18 m c)
        (A19 m c) (A20 m c) (A21 m c) (A22 m c) (A23 m c) (A24 m c))
      (l2_ea m ρ I c) (l2_xin m ρ I c) := rfl

/-! ## The input's statistics, the edge row and bias, the edge region -/

theorem l2_mu_3 (c : Dev nD) : W39 m ρ c (Proc.devRef .tc main_v161) = Chains.mean (I.X c) := by
  have h1 := I.hX c
  show StableHlo.after hostOps9 (W38 m ρ c) (Proc.devRef .tc main_v161) = _
  generalize W38 m ρ c = V at h1 ⊢
  after_results_k
  rw [h1] <;> (generalize I.X c = X; rfl)
theorem l2_c_3 (c : Dev nD) : W39 m ρ c (Proc.devRef .tc main_c_39) = constantI S_ 32 0#32 := by
  show StableHlo.after hostOps9 (W38 m ρ c) (Proc.devRef .tc main_c_39) = _
  generalize W38 m ρ c = V
  after_results_k <;> rfl
theorem l2_x_3 (c : Dev nD) : W39 m ρ c (Proc.devRef .tc main_v158) = I.X c :=
  (hs9 m ρ c main_v158 (by decide +kernel)).trans <|
  (I.hX c)
theorem l2_var_4 (c : Dev nD) : W40 m ρ c (Proc.devRef .tc main_v162) = Chains.var (I.X c) := by
  have h1 := l2_x_3 m ρ I c
  have h2 := l2_c_3 m ρ c
  show StableHlo.after hostOps9_1 (W39 m ρ c) (Proc.devRef .tc main_v162) = _
  generalize W39 m ρ c = V at h1 h2 ⊢
  after_results_k
  rw [h1, h2] <;> (generalize I.X c = X; rfl)
theorem l2_er_5 (c : Dev nD) : W41 m ρ c (Proc.devRef .tc main_v168) = row2 (A9 m c) := by
  have h1 := a9_W40 m ρ c
  show StableHlo.after hostOps9_2 (W40 m ρ c) (Proc.devRef .tc main_v168) = _
  generalize W40 m ρ c = V at h1 ⊢
  after_results_k
  rw [h1] <;> rfl
theorem l2_eb_5 (c : Dev nD) : W41 m ρ c (Proc.devRef .tc main_v170) = vec2 (A10 m c) := by
  have h1 := a10_W40 m ρ c
  show StableHlo.after hostOps9_2 (W40 m ρ c) (Proc.devRef .tc main_v170) = _
  generalize W40 m ρ c = V at h1 ⊢
  after_results_k
  rw [h1] <;> rfl
theorem l2_ea_6 (c : Dev nD) : W42 m ρ c (Proc.devRef .tc main_v171) = l2_ea m ρ I c := by
  refine ((W42_arr m ρ c 4).trans (KVal.val9 (V41 m ρ) c)).trans ?_
  dsimp only [V41]
  rw [I.hs c,
    I.hn c,
    l2_er_5 m ρ c,
    l2_eb_5 m ρ c] <;> rfl

/-! ## The edge array's statistics, the two linear maps' parameters, the two linear images -/

theorem l2_emu_7 (c : Dev nD) : W43 m ρ c (Proc.devRef .tc main_v174) = Chains.mean (l2_ea m ρ I c) := by
  have h1 := l2_ea_6 m ρ I c
  show StableHlo.after hostOps10 (W42 m ρ c) (Proc.devRef .tc main_v174) = _
  generalize W42 m ρ c = V at h1 ⊢
  after_results_k
  rw [h1] <;> (generalize l2_ea m ρ I c = X; rfl)
theorem l2_ec_7 (c : Dev nD) : W43 m ρ c (Proc.devRef .tc main_c_42) = constantI S_ 32 0#32 := by
  show StableHlo.after hostOps10 (W42 m ρ c) (Proc.devRef .tc main_c_42) = _
  generalize W42 m ρ c = V
  after_results_k <;> rfl
theorem l2_ea_7 (c : Dev nD) : W43 m ρ c (Proc.devRef .tc main_v171) = l2_ea m ρ I c :=
  (hs10 m ρ c main_v171 (by decide +kernel)).trans <|
  (l2_ea_6 m ρ I c)
theorem l2_evar_8 (c : Dev nD) : W44 m ρ c (Proc.devRef .tc main_v175) = Chains.var (l2_ea m ρ I c) := by
  have h1 := l2_ea_7 m ρ I c
  have h2 := l2_ec_7 m ρ c
  show StableHlo.after hostOps10_1 (W43 m ρ c) (Proc.devRef .tc main_v175) = _
  generalize W43 m ρ c = V at h1 h2 ⊢
  after_results_k
  rw [h1, h2] <;> (generalize l2_ea m ρ I c = X; rfl)
theorem l2_wnb_9 (c : Dev nD) : W45 m ρ c (Proc.devRef .tc main_v177) = mat2 (A11 m c) := by
  have h1 := a11_W44 m ρ c
  show StableHlo.after hostOps10_2 (W44 m ρ c) (Proc.devRef .tc main_v177) = _
  generalize W44 m ρ c = V at h1 ⊢
  after_results_k
  rw [h1] <;> rfl
theorem l2_bnb_9 (c : Dev nD) : W45 m ρ c (Proc.devRef .tc main_v179) = vec2 (A12 m c) := by
  have h1 := a12_W44 m ρ c
  show StableHlo.after hostOps10_2 (W44 m ρ c) (Proc.devRef .tc main_v179) = _
  generalize W44 m ρ c = V at h1 ⊢
  after_results_k
  rw [h1] <;> rfl
theorem l2_wnode_9 (c : Dev nD) : W45 m ρ c (Proc.devRef .tc main_v181) = mat2 (A7 m c) := by
  have h1 := a7_W44 m ρ c
  show StableHlo.after hostOps10_2 (W44 m ρ c) (Proc.devRef .tc main_v181) = _
  generalize W44 m ρ c = V at h1 ⊢
  after_results_k
  rw [h1] <;> rfl
theorem l2_bnode_9 (c : Dev nD) : W45 m ρ c (Proc.devRef .tc main_v183) = vec2 (A8 m c) := by
  have h1 := a8_W44 m ρ c
  show StableHlo.after hostOps10_2 (W44 m ρ c) (Proc.devRef .tc main_v183) = _
  generalize W44 m ρ c = V at h1 ⊢
  after_results_k
  rw [h1] <;> rfl
theorem l2_x_9 (c : Dev nD) : W45 m ρ c (Proc.devRef .tc main_v158) = I.X c :=
  (hs10_2 m ρ c main_v158 (by decide +kernel)).trans <|
  (hs10_1 m ρ c main_v158 (by decide +kernel)).trans <|
  (hs10 m ρ c main_v158 (by decide +kernel)).trans <|
  (W42_of_ne m ρ c main_v158 (by decide +kernel)).trans <|
  (hs9_2 m ρ c main_v158 (by decide +kernel)).trans <|
  (hs9_1 m ρ c main_v158 (by decide +kernel)).trans <|
  (l2_x_3 m ρ I c)
theorem l2_mu_9 (c : Dev nD) : W45 m ρ c (Proc.devRef .tc main_v161) = Chains.mean (I.X c) :=
  (hs10_2 m ρ c main_v161 (by decide +kernel)).trans <|
  (hs10_1 m ρ c main_v161 (by decide +kernel)).trans <|
  (hs10 m ρ c main_v161 (by decide +kernel)).trans <|
  (W42_of_ne m ρ c main_v161 (by decide +kernel)).trans <|
  (hs9_2 m ρ c main_v161 (by decide +kernel)).trans <|
  (hs9_1 m ρ c main_v161 (by decide +kernel)).trans <|
  (l2_mu_3 m ρ I c)
theorem l2_var_9 (c : Dev nD) : W45 m ρ c (Proc.devRef .tc main_v162) = Chains.var (I.X c) :=
  (hs10_2 m ρ c main_v162 (by decide +kernel)).trans <|
  (hs10_1 m ρ c main_v162 (by decide +kernel)).trans <|
  (hs10 m ρ c main_v162 (by decide +kernel)).trans <|
  (W42_of_ne m ρ c main_v162 (by decide +kernel)).trans <|
  (hs9_2 m ρ c main_v162 (by decide +kernel)).trans <|
  (l2_var_4 m ρ I c)
theorem l2_g_9 (c : Dev nD) : W45 m ρ c (Proc.devRef .tc main_v164) = I.G c :=
  (hs10_2 m ρ c main_v164 (by decide +kernel)).trans <|
  (hs10_1 m ρ c main_v164 (by decide +kernel)).trans <|
  (hs10 m ρ c main_v164 (by decide +kernel)).trans <|
  (W42_of_ne m ρ c main_v164 (by decide +kernel)).trans <|
  (I.hG c)
theorem l2_bt_9 (c : Dev nD) : W45 m ρ c (Proc.devRef .tc main_v166) = I.Bt c :=
  (hs10_2 m ρ c main_v166 (by decide +kernel)).trans <|
  (hs10_1 m ρ c main_v166 (by decide +kernel)).trans <|
  (hs10 m ρ c main_v166 (by decide +kernel)).trans <|
  (W42_of_ne m ρ c main_v166 (by decide +kernel)).trans <|
  (I.hBt c)
theorem l2_hb_10 (c : Dev nD) : W46 m ρ c (Proc.devRef .tc main_v184_0) = l2_hb m ρ I c := by
  refine ((W46_arr m ρ c 9).trans (KVal.val10_a (V45 m ρ) c)).trans ?_
  dsimp only [V45]
  rw [l2_x_9 m ρ I c,
    l2_mu_9 m ρ I c,
    l2_var_9 m ρ I c,
    l2_g_9 m ρ I c,
    l2_bt_9 m ρ I c,
    l2_wnb_9 m ρ c,
    l2_bnb_9 m ρ c] <;> rfl
theorem l2_xn_10 (c : Dev nD) : W46 m ρ c (Proc.devRef .tc main_v184_1) = l2_xn m ρ I c := by
  refine ((W46_arr m ρ c 10).trans (KVal.val10_b (V45 m ρ) c)).trans ?_
  dsimp only [V45]
  rw [l2_x_9 m ρ I c,
    l2_mu_9 m ρ I c,
    l2_var_9 m ρ I c,
    l2_g_9 m ρ I c,
    l2_bt_9 m ρ I c,
    l2_wnode_9 m ρ c,
    l2_bnode_9 m ρ c] <;> rfl

/-! ## The node image's statistics, the neighbour aggregate and its statistics, the first update map -/

theorem l2_xmu_11 (c : Dev nD) : W47 m ρ c (Proc.devRef .tc main_v187) = Chains.mean (l2_xn m ρ I c) := by
  have h1 := l2_xn_10 m ρ I c
  show StableHlo.after hostOps11 (W46 m ρ c) (Proc.devRef .tc main_v187) = _
  generalize W46 m ρ c = V at h1 ⊢
  after_results_k
  rw [h1] <;> (generalize l2_xn m ρ I c = X; rfl)
theorem l2_xc_11 (c : Dev nD) : W47 m ρ c (Proc.devRef .tc main_c_45) = constantI S_ 32 0#32 := by
  show StableHlo.after hostOps11 (W46 m ρ c) (Proc.devRef .tc main_c_45) = _
  generalize W46 m ρ c = V
  after_results_k <;> rfl
theorem l2_xn_11 (c : Dev nD) : W47 m ρ c (Proc.devRef .tc main_v184_1) = l2_xn m ρ I c :=
  (hs11 m ρ c main_v184_1 (by decide +kernel)).trans <|
  (l2_xn_10 m ρ I c)
theorem l2_xvar_12 (c : Dev nD) : W48 m ρ c (Proc.devRef .tc main_v188) = Chains.var (l2_xn m ρ I c) := by
  have h1 := l2_xn_11 m ρ I c
  have h2 := l2_xc_11 m ρ c
  show StableHlo.after hostOps11_1 (W47 m ρ c) (Proc.devRef .tc main_v188) = _
  generalize W47 m ρ c = V at h1 h2 ⊢
  after_results_k
  rw [h1, h2] <;> (generalize l2_xn m ρ I c = X; rfl)
theorem l2_hb_12 (c : Dev nD) : W48 m ρ c (Proc.devRef .tc main_v184_0) = l2_hb m ρ I c :=
  (hs11_1 m ρ c main_v184_0 (by decide +kernel)).trans <|
  (hs11 m ρ c main_v184_0 (by decide +kernel)).trans <|
  (l2_hb_10 m ρ I c)
theorem l2_ag_13 (c : Dev nD) : W49 m ρ c (Proc.devRef .tc main_v198) = l2_ag m ρ I c := by
  have h1 := I.hsrc c
  have h2 := I.hdst c
  have h3 := l2_hb_12 m ρ I c
  show StableHlo.after hostOps11_2 (W48 m ρ c) (Proc.devRef .tc main_v198) = _
  generalize W48 m ρ c = V at h1 h2 h3 ⊢
  after_results_k
  rw [h1, h2, h3] <;> rfl
theorem l2_amu_13 (c : Dev nD) : W49 m ρ c (Proc.devRef .tc main_v201) = Chains.mean (l2_ag m ρ I c) := by
  have h1 := I.hsrc c
  have h2 := I.hdst c
  have h3 := l2_hb_12 m ρ I c
  show StableHlo.after hostOps11_2 (W48 m ρ c) (Proc.devRef .tc main_v201) = _
  generalize W48 m ρ c = V at h1 h2 h3 ⊢
  after_results_k
  rw [h1, h2, h3] <;> rfl
theorem l2_ac_13 (c : Dev nD) : W49 m ρ c (Proc.devRef .tc main_c_51) = constantI S_ 32 0#32 := by
  show StableHlo.after hostOps11_2 (W48 m ρ c) (Proc.devRef .tc main_c_51) = _
  generalize W48 m ρ c = V
  after_results_k <;> rfl
theorem l2_avar_14 (c : Dev nD) : W50 m ρ c (Proc.devRef .tc main_v202) = Chains.var (l2_ag m ρ I c) := by
  have h1 := l2_ag_13 m ρ I c
  have h2 := l2_ac_13 m ρ c
  show StableHlo.after hostOps11_3 (W49 m ρ c) (Proc.devRef .tc main_v202) = _
  generalize W49 m ρ c = V at h1 h2 ⊢
  after_results_k
  rw [h1, h2] <;> (generalize l2_ag m ρ I c = X; rfl)
theorem l2_gn_15 (c : Dev nD) : W51 m ρ c (Proc.devRef .tc main_v204) = vec2 (A13 m c) := by
  have h1 := a13_W50 m ρ c
  show StableHlo.after hostOps11_4 (W50 m ρ c) (Proc.devRef .tc main_v204) = _
  generalize W50 m ρ c = V at h1 ⊢
  after_results_k
  rw [h1] <;> rfl
theorem l2_btn_15 (c : Dev nD) : W51 m ρ c (Proc.devRef .tc main_v206) = vec2 (A14 m c) := by
  have h1 := a14_W50 m ρ c
  show StableHlo.after hostOps11_4 (W50 m ρ c) (Proc.devRef .tc main_v206) = _
  generalize W50 m ρ c = V at h1 ⊢
  after_results_k
  rw [h1] <;> rfl
theorem l2_gnb_15 (c : Dev nD) : W51 m ρ c (Proc.devRef .tc main_v208) = vec2 (A17 m c) := by
  have h1 := a17_W50 m ρ c
  show StableHlo.after hostOps11_4 (W50 m ρ c) (Proc.devRef .tc main_v208) = _
  generalize W50 m ρ c = V at h1 ⊢
  after_results_k
  rw [h1] <;> rfl
theorem l2_btnb_15 (c : Dev nD) : W51 m ρ c (Proc.devRef .tc main_v210) = vec2 (A18 m c) := by
  have h1 := a18_W50 m ρ c
  show StableHlo.after hostOps11_4 (W50 m ρ c) (Proc.devRef .tc main_v210) = _
  generalize W50 m ρ c = V at h1 ⊢
  after_results_k
  rw [h1] <;> rfl
theorem l2_ge_15 (c : Dev nD) : W51 m ρ c (Proc.devRef .tc main_v212) = vec2 (A15 m c) := by
  have h1 := a15_W50 m ρ c
  show StableHlo.after hostOps11_4 (W50 m ρ c) (Proc.devRef .tc main_v212) = _
  generalize W50 m ρ c = V at h1 ⊢
  after_results_k
  rw [h1] <;> rfl
theorem l2_bte_15 (c : Dev nD) : W51 m ρ c (Proc.devRef .tc main_v214) = vec2 (A16 m c) := by
  have h1 := a16_W50 m ρ c
  show StableHlo.after hostOps11_4 (W50 m ρ c) (Proc.devRef .tc main_v214) = _
  generalize W50 m ρ c = V at h1 ⊢
  after_results_k
  rw [h1] <;> rfl
theorem l2_bm1_15 (c : Dev nD) : W51 m ρ c (Proc.devRef .tc main_v218) = vec2 (A20 m c) := by
  have h1 := a20_W50 m ρ c
  show StableHlo.after hostOps11_4 (W50 m ρ c) (Proc.devRef .tc main_v218) = _
  generalize W50 m ρ c = V at h1 ⊢
  after_results_k
  rw [h1] <;> rfl
theorem l2_wm1_15 (c : Dev nD) : W51 m ρ c (Proc.devRef .tc main_v216) = mat2 (A19 m c) := by
  have h1 := a19_W50 m ρ c
  show StableHlo.after hostOps11_4 (W50 m ρ c) (Proc.devRef .tc main_v216) = _
  generalize W50 m ρ c = V at h1 ⊢
  after_results_k
  rw [h1] <;> rfl
theorem l2_xn_15 (c : Dev nD) : W51 m ρ c (Proc.devRef .tc main_v184_1) = l2_xn m ρ I c :=
  (hs11_4 m ρ c main_v184_1 (by decide +kernel)).trans <|
  (hs11_3 m ρ c main_v184_1 (by decide +kernel)).trans <|
  (hs11_2 m ρ c main_v184_1 (by decide +kernel)).trans <|
  (hs11_1 m ρ c main_v184_1 (by decide +kernel)).trans <|
  (l2_xn_11 m ρ I c)
theorem l2_xmu_15 (c : Dev nD) : W51 m ρ c (Proc.devRef .tc main_v187) = Chains.mean (l2_xn m ρ I c) :=
  (hs11_4 m ρ c main_v187 (by decide +kernel)).trans <|
  (hs11_3 m ρ c main_v187 (by decide +kernel)).trans <|
  (hs11_2 m ρ c main_v187 (by decide +kernel)).trans <|
  (hs11_1 m ρ c main_v187 (by decide +kernel)).trans <|
  (l2_xmu_11 m ρ I c)
theorem l2_xvar_15 (c : Dev nD) : W51 m ρ c (Proc.devRef .tc main_v188) = Chains.var (l2_xn m ρ I c) :=
  (hs11_4 m ρ c main_v188 (by decide +kernel)).trans <|
  (hs11_3 m ρ c main_v188 (by decide +kernel)).trans <|
  (hs11_2 m ρ c main_v188 (by decide +kernel)).trans <|
  (l2_xvar_12 m ρ I c)
theorem l2_ag_15 (c : Dev nD) : W51 m ρ c (Proc.devRef .tc main_v198) = l2_ag m ρ I c :=
  (hs11_4 m ρ c main_v198 (by decide +kernel)).trans <|
  (hs11_3 m ρ c main_v198 (by decide +kernel)).trans <|
  (l2_ag_13 m ρ I c)
theorem l2_amu_15 (c : Dev nD) : W51 m ρ c (Proc.devRef .tc main_v201) = Chains.mean (l2_ag m ρ I c) :=
  (hs11_4 m ρ c main_v201 (by decide +kernel)).trans <|
  (hs11_3 m ρ c main_v201 (by decide +kernel)).trans <|
  (l2_amu_13 m ρ I c)
theorem l2_avar_15 (c : Dev nD) : W51 m ρ c (Proc.devRef .tc main_v202) = Chains.var (l2_ag m ρ I c) :=
  (hs11_4 m ρ c main_v202 (by decide +kernel)).trans <|
  (l2_avar_14 m ρ I c)
theorem l2_ea_15 (c : Dev nD) : W51 m ρ c (Proc.devRef .tc main_v171) = l2_ea m ρ I c :=
  (hs11_4 m ρ c main_v171 (by decide +kernel)).trans <|
  (hs11_3 m ρ c main_v171 (by decide +kernel)).trans <|
  (hs11_2 m ρ c main_v171 (by decide +kernel)).trans <|
  (hs11_1 m ρ c main_v171 (by decide +kernel)).trans <|
  (hs11 m ρ c main_v171 (by decide +kernel)).trans <|
  (W46_of_ne m ρ c main_v171 (by decide +kernel)).trans <|
  (hs10_2 m ρ c main_v171 (by decide +kernel)).trans <|
  (hs10_1 m ρ c main_v171 (by decide +kernel)).trans <|
  (l2_ea_7 m ρ I c)
theorem l2_emu_15 (c : Dev nD) : W51 m ρ c (Proc.devRef .tc main_v174) = Chains.mean (l2_ea m ρ I c) :=
  (hs11_4 m ρ c main_v174 (by decide +kernel)).trans <|
  (hs11_3 m ρ c main_v174 (by decide +kernel)).trans <|
  (hs11_2 m ρ c main_v174 (by decide +kernel)).trans <|
  (hs11_1 m ρ c main_v174 (by decide +kernel)).trans <|
  (hs11 m ρ c main_v174 (by decide +kernel)).trans <|
  (W46_of_ne m ρ c main_v174 (by decide +kernel)).trans <|
  (hs10_2 m ρ c main_v174 (by decide +kernel)).trans <|
  (hs10_1 m ρ c main_v174 (by decide +kernel)).trans <|
  (l2_emu_7 m ρ I c)
theorem l2_evar_15 (c : Dev nD) : W51 m ρ c (Proc.devRef .tc main_v175) = Chains.var (l2_ea m ρ I c) :=
  (hs11_4 m ρ c main_v175 (by decide +kernel)).trans <|
  (hs11_3 m ρ c main_v175 (by decide +kernel)).trans <|
  (hs11_2 m ρ c main_v175 (by decide +kernel)).trans <|
  (hs11_1 m ρ c main_v175 (by decide +kernel)).trans <|
  (hs11 m ρ c main_v175 (by decide +kernel)).trans <|
  (W46_of_ne m ρ c main_v175 (by decide +kernel)).trans <|
  (hs10_2 m ρ c main_v175 (by decide +kernel)).trans <|
  (l2_evar_8 m ρ I c)
theorem l2_u_16 (c : Dev nD) : W52 m ρ c (Proc.devRef .tc main_v219) = l2_u m ρ I c := by
  refine ((W52_arr m ρ c 17).trans (KVal.val11 (V51 m ρ) c)).trans ?_
  dsimp only [V51]
  rw [l2_xn_15 m ρ I c,
    l2_xmu_15 m ρ I c,
    l2_xvar_15 m ρ I c,
    l2_gn_15 m ρ c,
    l2_btn_15 m ρ c,
    l2_ag_15 m ρ I c,
    l2_amu_15 m ρ I c,
    l2_avar_15 m ρ I c,
    l2_gnb_15 m ρ c,
    l2_btnb_15 m ρ c,
    l2_ea_15 m ρ I c,
    l2_emu_15 m ρ I c,
    l2_evar_15 m ρ I c,
    l2_ge_15 m ρ c,
    l2_bte_15 m ρ c,
    l2_wm1_15 m ρ c,
    l2_bm1_15 m ρ c] <;> rfl

/-! ## The first update map's statistics, the second update map -/

theorem l2_umu_17 (c : Dev nD) : W53 m ρ c (Proc.devRef .tc main_v222) = Chains.mean (l2_u m ρ I c) := by
  have h1 := l2_u_16 m ρ I c
  show StableHlo.after hostOps12 (W52 m ρ c) (Proc.devRef .tc main_v222) = _
  generalize W52 m ρ c = V at h1 ⊢
  after_results_k
  rw [h1] <;> (generalize l2_u m ρ I c = X; rfl)
theorem l2_uc_17 (c : Dev nD) : W53 m ρ c (Proc.devRef .tc main_c_54) = constantI S_ 32 0#32 := by
  show StableHlo.after hostOps12 (W52 m ρ c) (Proc.devRef .tc main_c_54) = _
  generalize W52 m ρ c = V
  after_results_k <;> rfl
theorem l2_u_17 (c : Dev nD) : W53 m ρ c (Proc.devRef .tc main_v219) = l2_u m ρ I c :=
  (hs12 m ρ c main_v219 (by decide +kernel)).trans <|
  (l2_u_16 m ρ I c)
theorem l2_uvar_18 (c : Dev nD) : W54 m ρ c (Proc.devRef .tc main_v223) = Chains.var (l2_u m ρ I c) := by
  have h1 := l2_u_17 m ρ I c
  have h2 := l2_uc_17 m ρ c
  show StableHlo.after hostOps12_1 (W53 m ρ c) (Proc.devRef .tc main_v223) = _
  generalize W53 m ρ c = V at h1 h2 ⊢
  after_results_k
  rw [h1, h2] <;> (generalize l2_u m ρ I c = X; rfl)
theorem l2_gm1_19 (c : Dev nD) : W55 m ρ c (Proc.devRef .tc main_v225) = vec2 (A21 m c) := by
  have h1 := a21_W54 m ρ c
  show StableHlo.after hostOps12_2 (W54 m ρ c) (Proc.devRef .tc main_v225) = _
  generalize W54 m ρ c = V at h1 ⊢
  after_results_k
  rw [h1] <;> rfl
theorem l2_btm1_19 (c : Dev nD) : W55 m ρ c (Proc.devRef .tc main_v227) = vec2 (A22 m c) := by
  have h1 := a22_W54 m ρ c
  show StableHlo.after hostOps12_2 (W54 m ρ c) (Proc.devRef .tc main_v227) = _
  generalize W54 m ρ c = V at h1 ⊢
  after_results_k
  rw [h1] <;> rfl
theorem l2_wm2_19 (c : Dev nD) : W55 m ρ c (Proc.devRef .tc main_v229) = mat2 (A23 m c) := by
  have h1 := a23_W54 m ρ c
  show StableHlo.after hostOps12_2 (W54 m ρ c) (Proc.devRef .tc main_v229) = _
  generalize W54 m ρ c = V at h1 ⊢
  after_results_k
  rw [h1] <;> rfl
theorem l2_bm2_19 (c : Dev nD) : W55 m ρ c (Proc.devRef .tc main_v231) = vec2 (A24 m c) := by
  have h1 := a24_W54 m ρ c
  show StableHlo.after hostOps12_2 (W54 m ρ c) (Proc.devRef .tc main_v231) = _
  generalize W54 m ρ c = V at h1 ⊢
  after_results_k
  rw [h1] <;> rfl
theorem l2_u_19 (c : Dev nD) : W55 m ρ c (Proc.devRef .tc main_v219) = l2_u m ρ I c :=
  (hs12_2 m ρ c main_v219 (by decide +kernel)).trans <|
  (hs12_1 m ρ c main_v219 (by decide +kernel)).trans <|
  (l2_u_17 m ρ I c)
theorem l2_umu_19 (c : Dev nD) : W55 m ρ c (Proc.devRef .tc main_v222) = Chains.mean (l2_u m ρ I c) :=
  (hs12_2 m ρ c main_v222 (by decide +kernel)).trans <|
  (hs12_1 m ρ c main_v222 (by decide +kernel)).trans <|
  (l2_umu_17 m ρ I c)
theorem l2_uvar_19 (c : Dev nD) : W55 m ρ c (Proc.devRef .tc main_v223) = Chains.var (l2_u m ρ I c) :=
  (hs12_2 m ρ c main_v223 (by decide +kernel)).trans <|
  (l2_uvar_18 m ρ I c)
/-- The layer's last region leaves the second update map's image. -/
theorem l2_out (c : Dev nD) : W56 m ρ c (Proc.devRef .tc main_v232) = l2_y m ρ I c := by
  refine ((W56_arr m ρ c 7).trans (KVal.val12 (V55 m ρ) c)).trans ?_
  dsimp only [V55]
  rw [l2_u_19 m ρ I c,
    l2_umu_19 m ρ I c,
    l2_uvar_19 m ρ I c,
    l2_gm1_19 m ρ c,
    l2_btm1_19 m ρ c,
    l2_wm2_19 m ρ c,
    l2_bm2_19 m ρ c] <;> rfl

end Cert.KernelIdeal.KFold

end
-- ==== Proof.KVal0.lean ====
/-
  The first layer's affine map, read off the node-tiled product.

  The region walks the node array in eight blocks of 5000 rows. At block `t` the body multiplies rows
  `5000 t … 5000 t + 4999` of the node array by the whole weight matrix, adds the bias row, and writes the
  result back as rows `5000 t … 5000 t + 4999` of the output array. Entry by entry that is
  `∑ k, x (r, k) * W (k, q) + b q` at every row `r` and column `q`: the array the region leaves is
  `Spec.lin x W b` of the arrays it finds.
-/
import proofs.«426021_j89885075570707_3_alg».proof.Proof.Gen.KernelIdeal.Frame
import proofs.«426021_j89885075570707_3_alg».proof.Proof.Spec
import proofs.«426021_j89885075570707_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- The zero offsets of a rank-2 access, however spelt. -/
private theorem zerosTwo : (![0, 0] : Fin 2 → Nat) = fun _ => 0 := funext fun a => by fin_cases a <;> rfl

/-- The zero offset of a rank-1 access. -/
private theorem zerosOne : (![0] : Fin 1 → Nat) = fun _ => 0 := funext fun a => by fin_cases a; rfl

/-- The body's product contracts the left operand's columns with the right operand's rows. -/
theorem dot0_plain : dot_S5000x2_S2x128_S5000x128_1_0_0_1_n_n = DotDims.plain 5000 2 128 := rfl

/-- Entry `(p, q)` of what the body stores: row `p` of the node block times column `q` of the weights, plus the bias
    at `q` (the narrowing of both operands is the identity on extended reals). -/
theorem pay0_apply (x0 : Vec Ideal S5000x2 .f32) (x1 : Vec Ideal S2x128 .f32) (x2 : Vec Ideal S128 .f32) (p : Fin 5000) (q : Fin 128) :
    k0_pay1 (F := Ideal) x0 x1 x2 (ix2 p q) = Cert.Spec.linE x0 x1 x2 p q := by
  unfold k0_pay1
  rw [addf_apply, dot0_plain]
  unfold Cert.Spec.linE
  refine congrArg₂ (· + ·) ((Cert.Lib.PlainDot.matmul_zero_apply none _ _ p q).trans ?_) ?_
  · rfl
  · refine (broadcastTo_1b_ab_apply _ _ p q).trans ?_
    exact shapeCast_a_1a_apply x2 _ 0 q

/-- The block indices over the grid: the node block and the output block are block `t` of their arrays' rows; the
    weights and the bias are their arrays whole at every point. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The node block at point `t` is rows `5000 t … 5000 t + 4999` of the node array. -/
theorem nodes0_apply (c : Dev nD) (t : Fin cfg0.N) (p : Fin 5000) (k : Fin 2) (r : Fin 40000) (hr : r.val = t.val * 5000 + p.val) :
    (iblk0 V c 0 t : Vec Ideal S5000x2 .f32) (ix2 p k) = (V c main_arg0 : Vec Ideal S40000x2 .f32) (ix2 r k) := by
  obtain ⟨e0, e1, -⟩ := blocks0 t
  unfold iblk0
  rw [View.read_apply]
  show V c main_arg0 _ = V c main_arg0 _
  congr 1
  funext a
  apply Fin.ext
  match a with
  | ⟨0, _⟩ => show win0_0.index t (0 : Fin 2) * 5000 + 1 * p.val = r.val; omega
  | ⟨1, _⟩ => show win0_0.index t (1 : Fin 2) * 2 + 1 * k.val = k.val; omega

/-- The weight block at every point is the weight matrix. -/
theorem weights0_apply (c : Dev nD) (t : Fin cfg0.N) (k : Fin 2) (q : Fin 128) :
    (iblk0 V c 1 t : Vec Ideal S2x128 .f32) (ix2 k q) = (V c main_arg3 : Vec Ideal S2x128 .f32) (ix2 k q) := by
  obtain ⟨-, -, e0, e1, -⟩ := blocks0 t
  unfold iblk0
  rw [View.read_apply]
  show V c main_arg3 _ = V c main_arg3 _
  congr 1
  funext a
  apply Fin.ext
  match a with
  | ⟨0, _⟩ => show win0_1.index t (0 : Fin 2) * 2 + 1 * k.val = k.val; omega
  | ⟨1, _⟩ => show win0_1.index t (1 : Fin 2) * 128 + 1 * q.val = q.val; omega

/-- The bias block at every point is the bias row. -/
theorem bias0_apply (c : Dev nD) (t : Fin cfg0.N) (q : Fin 128) :
    (iblk0 V c 2 t : Vec Ideal S128 .f32) (ix1 q) = (V c main_arg4 : Vec Ideal S128 .f32) (ix1 q) := by
  obtain ⟨-, -, -, -, e0, -⟩ := blocks0 t
  unfold iblk0
  rw [View.read_apply]
  show V c main_arg4 _ = V c main_arg4 _
  congr 1
  funext a
  apply Fin.ext
  match a with
  | ⟨0, _⟩ => show win0_2.index t (0 : Fin 1) * 128 + 1 * q.val = q.val; omega

/-- Entry `(p, q)` of the output block at point `t` sits at row `5000 t + p`, column `q` of the output array. -/
theorem outIdx0 (t : Fin cfg0.N) (p : Fin 5000) (q : Fin 128) (r : Fin 40000) (hr : r.val = t.val * 5000 + p.val) :
    ((cfg0.win 3).blk t).view.emb (ix2 p q : S5000x128.Idx) = (ix2 r q : S40000x128.Idx) := by
  obtain ⟨-, -, -, -, -, e0, e1⟩ := blocks0 t
  funext a
  apply Fin.ext
  match a with
  | ⟨0, _⟩ => show win0_3.index t (0 : Fin 2) * 5000 + 1 * p.val = r.val; omega
  | ⟨1, _⟩ => show win0_3.index t (1 : Fin 2) * 128 + 1 * q.val = q.val; omega

/-- What point `t` writes back is block `t` of `x · W + b` of the arrays the region finds. -/
theorem flushed0 (c : Dev nD) (t : Fin cfg0.N) :
    (dat0 (F := Ideal) V c).flushed 3 t
      = ((cfg0.win 3).blk t).view.read (Elt Ideal) (Cert.Spec.lin (V c main_arg0) (V c main_arg3) (V c main_arg4)) := by
  show (cfg0.win 3).cut (grid0.coords t) ((dat0 V c).after 3 t) = _
  rw [after0_3]
  unfold out0_3
  rw [View.canon_unit_zero zerosTwo]
  simp only [View.ld_unit_zero (S := S5000x2) zerosTwo, View.ld_unit_zero (S := S2x128) zerosTwo,
    View.ld_unit_zero (S := S128) zerosOne]
  refine funext fun (j : S5000x128.Idx) => ?_
  obtain ⟨p, q, rfl⟩ : ∃ (p : Fin 5000) (q : Fin 128), j = ix2 p q := ⟨j 0, j 1, eq_ix2 j⟩
  have ht : t.val < 8 := t.isLt
  have hr : t.val * 5000 + p.val < 40000 := by have := p.isLt; omega
  refine (pay0_apply (iblk0 V c 0 t) (iblk0 V c 1 t) (iblk0 V c 2 t) p q).trans ?_
  show _ = Cert.Spec.lin (V c main_arg0) (V c main_arg3) (V c main_arg4) (((cfg0.win 3).blk t).view.emb (ix2 p q : S5000x128.Idx))
  rw [outIdx0 t p q ⟨t.val * 5000 + p.val, hr⟩ rfl, Cert.Spec.lin_apply]
  unfold Cert.Spec.linE
  exact congrArg₂ (· + ·)
    (Finset.sum_congr rfl fun k _ => congrArg₂ (· * ·)
      (nodes0_apply V c t p k ⟨t.val * 5000 + p.val, hr⟩ rfl) (weights0_apply V c t k q))
    (bias0_apply V c t q)

/-- An entry of the output array is in point `t`'s block iff its row is one of `5000 t … 5000 t + 4999`. -/
theorem mem_blk0 (t : Fin cfg0.N) (i : S40000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14).slice (win0_3.rect t)).set ↔ _
  rw [View.set_slice_whole, Rect.mem_set_unit]
  exact Iff.rfl

/-- Every entry of the output array is in the block of the point its row's quotient by 5000 names. -/
theorem cover0 (i : S40000x128.Idx) : ∃ t : Fin cfg0.N, (cfg0.win 3).flush t = true ∧ i ∈ ((cfg0.win 3).blk t).view.set := by
  have hi0 : (i 0).val < 40000 := (i 0).isLt
  have hi1 : (i 1).val < 128 := (i 1).isLt
  have hN : cfg0.N = 8 := N_0
  obtain ⟨t, ht⟩ : ∃ t : Fin cfg0.N, t.val = (i 0).val / 5000 := ⟨⟨(i 0).val / 5000, by rw [hN]; omega⟩, rfl⟩
  obtain ⟨-, -, -, -, -, e0, e1⟩ := blocks0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY region 0 leaves: `x · W + b` of the node array, the weight matrix and the bias row it finds. -/
theorem val0 (c : Dev nD) :
    (dat0 (F := Ideal) V c).arrAt 3 cfg0.N = Cert.Spec.lin (V c main_arg0) (V c main_arg3) (V c main_arg4) :=
  (dat0 (F := Ideal) V c).arrAt_eq_of_cover 3 _ (fun t _ => flushed0 V c t) cover0

end Cert.KernelIdeal.KVal

end
-- ==== Proof.KVal13.lean ====
/-
  The value of the normalise-and-rectify region.

  The region reads a node array `x` in eight tiles of 5000 rows, and four feature vectors `μ`, `v`, `g`, `β` whole at
  every tile, and writes an output node array tile by tile. Each tile's body computes, entry by entry,
  `max ((x (p, q) - μ q) * rsqrt (v q + ε) * g q + β q) 0`. Every row of the output lies in exactly one tile (row `r`
  in tile `r / 5000`), so the output array after the region is `relu (bn x μ v g β)` of the arrays the region found.
-/
import proofs.«426021_j89885075570707_3_alg».proof.Proof.Gen.KernelIdeal.Frame
import proofs.«426021_j89885075570707_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-! ## The tile body at an entry -/

/-- A feature vector laid as one row and repeated down the 5000 rows of a tile reads, at `(p, q)`, the vector at `q`. -/
theorem row13_apply (v : FVec Ideal S128 .f32) (p : Fin 5000) (q : Fin 128) :
    broadcastTo S5000x128 (shapeCast S1x128 v shapeCasts_S128_S1x128) broadcasts_S1x128_S5000x128 (ix2 p q) = v (ix1 q) :=
  (broadcastTo_1b_ab_apply _ broadcasts_S1x128_S5000x128 p q).trans (shapeCast_a_1a_apply v shapeCasts_S128_S1x128 0 q)

/-- The tile body's result at `(p, q)`: the normalised entry, scaled, shifted, and cut off below at zero. -/
theorem pay13_apply (x0 : Vec Ideal S5000x128 .f32) (x1 x2 x3 x4 : Vec Ideal S128 .f32) (p : Fin 5000) (q : Fin 128) :
    k13_pay1 (F := Ideal) x0 x1 x2 x3 x4 (ix2 p q) = Cert.Spec.relu (Cert.Spec.bn x0 x1 x2 x3 x4) (ix2 p q) := by
  unfold k13_pay1
  simp only [shapeCast_self]
  rw [maximumf_apply, addf_apply, mulf_apply, mulf_apply, subf_apply, row13_apply, row13_apply, row13_apply, row13_apply]
  rfl

/-- The rectified normalisation of whole arrays at an index `i`, from a tile whose entry `(p, q)` is the node array's
    entry `i` and whose feature vectors at `q` are the whole vectors at `i`'s column. -/
theorem entry13 (X : FVec Ideal S40000x128 .f32) (μ v g β : FVec Ideal S128 .f32)
    (xb : Vec Ideal S5000x128 .f32) (μb vb gb βb : Vec Ideal S128 .f32) (p : Fin 5000) (q : Fin 128) (i : S40000x128.Idx)
    (hx : xb (ix2 p q) = X (ix2 (i 0) (i 1))) (h1 : μb (ix1 q) = μ (ix1 (i 1))) (h2 : vb (ix1 q) = v (ix1 (i 1)))
    (h3 : gb (ix1 q) = g (ix1 (i 1))) (h4 : βb (ix1 q) = β (ix1 (i 1))) :
    Cert.Spec.relu (Cert.Spec.bn xb μb vb gb βb) (ix2 p q) = Cert.Spec.relu (Cert.Spec.bn X μ v g β) i := by
  show max ((xb (ix2 p q) - μb (ix1 q)) * Ideal.rsqrt (vb (ix1 q) + Cert.Spec.eps) * gb (ix1 q) + βb (ix1 q)) Cert.Spec.zeroW
    = max ((X (ix2 (i 0) (i 1)) - μ (ix1 (i 1))) * Ideal.rsqrt (v (ix1 (i 1)) + Cert.Spec.eps) * g (ix1 (i 1)) + β (ix1 (i 1))) Cert.Spec.zeroW
  rw [hx, h1, h2, h3, h4]

/-! ## From tiles to the array -/

theorem zeros13_2 : (![0, 0] : Fin 2 → Nat) = fun _ => 0 := funext fun a => by fin_cases a <;> rfl
theorem zeros13_1 : (![0] : Fin 1 → Nat) = fun _ => 0 := funext fun a => by fin_cases a <;> rfl

/-- The region's output array as one function of the arrays the region found. -/
abbrev G13 (c : Dev nD) : FVec Ideal S40000x128 .f32 :=
  Cert.Spec.relu (Cert.Spec.bn (V c main_v232) (V c main_v235) (V c main_v236) (V c main_v238) (V c main_v240))

/-- The tile positions, decided over the eight tiles: the input node array's tile moves with the output's, the
    feature vectors stay whole, and the output's tile at point `t` is one of the eight tiles of rows, all 128 columns. -/
theorem tiles13 : ∀ t : Fin cfg13.N, win13_0.index t (0 : Fin 2) = win13_5.index t (0 : Fin 2)
    ∧ win13_0.index t (1 : Fin 2) = win13_5.index t (1 : Fin 2)
    ∧ win13_1.index t (0 : Fin 1) = 0
    ∧ win13_2.index t (0 : Fin 1) = 0
    ∧ win13_3.index t (0 : Fin 1) = 0
    ∧ win13_4.index t (0 : Fin 1) = 0
    ∧ win13_5.index t (0 : Fin 2) ≤ 7
    ∧ win13_5.index t (1 : Fin 2) = 0 :=
  (by decide +kernel : ∀ t : Fin grid13.N, _)

/-- Every tile of rows is some point's. -/
theorem tiles13_onto : ∀ (r : Fin 8), ∃ t : Fin cfg13.N, win13_5.index t = ![r.val, 0] :=
  (by decide +kernel : ∀ (r : Fin 8), ∃ t : Fin grid13.N, win13_5.index t = ![r.val, 0])

/-- What point `t` writes back is tile `t` of `G13`. -/
theorem flushed13_eq (c : Dev nD) (t : Fin cfg13.N) :
    (dat13 (F := Ideal) V c).flushed 5 t = ((cfg13.win 5).blk t).view.read (Elt Ideal) (G13 V c) := by
  show (cfg13.win 5).cut (grid13.coords t) ((dat13 V c).after 5 t) = _
  rw [after13_5]
  unfold out13_5
  rw [View.canon_unit_zero zeros13_2]
  simp only [View.ld_unit_zero (S := S5000x128) zeros13_2, View.ld_unit_zero (S := S128) zeros13_1]
  obtain ⟨e0, e1, e2, e3, e4, e5, e6, e7⟩ := tiles13 t
  funext j
  obtain ⟨p, q, rfl⟩ : ∃ (p : Fin 5000) (q : Fin 128), j = ix2 p q := ⟨j 0, j 1, eq_ix2 j⟩
  refine (pay13_apply (iblk13 V c 0 t) (iblk13 V c 1 t) (iblk13 V c 2 t) (iblk13 V c 3 t) (iblk13 V c 4 t) p q).trans ?_
  have h0 : ((cfg13.win 0).blk t).view.emb (ix2 p q) = ix2 (((cfg13.win 5).blk t).view.emb (ix2 p q) 0) (((cfg13.win 5).blk t).view.emb (ix2 p q) 1) := by
    funext a; apply Fin.ext
    match a with
    | ⟨0, _⟩ => show win13_0.index t (0 : Fin 2) * 5000 + 1 * p.val = win13_5.index t (0 : Fin 2) * 5000 + 1 * p.val; omega
    | ⟨1, _⟩ => show win13_0.index t (1 : Fin 2) * 128 + 1 * q.val = win13_5.index t (1 : Fin 2) * 128 + 1 * q.val; omega
  have h1 : ((cfg13.win 1).blk t).view.emb (ix1 q) = ix1 (((cfg13.win 5).blk t).view.emb (ix2 p q) 1) := by
    funext a; apply Fin.ext
    match a with
    | ⟨0, _⟩ => show win13_1.index t (0 : Fin 1) * 128 + 1 * q.val = win13_5.index t (1 : Fin 2) * 128 + 1 * q.val; omega
  have h2 : ((cfg13.win 2).blk t).view.emb (ix1 q) = ix1 (((cfg13.win 5).blk t).view.emb (ix2 p q) 1) := by
    funext a; apply Fin.ext
    match a with
    | ⟨0, _⟩ => show win13_2.index t (0 : Fin 1) * 128 + 1 * q.val = win13_5.index t (1 : Fin 2) * 128 + 1 * q.val; omega
  have h3 : ((cfg13.win 3).blk t).view.emb (ix1 q) = ix1 (((cfg13.win 5).blk t).view.emb (ix2 p q) 1) := by
    funext a; apply Fin.ext
    match a with
    | ⟨0, _⟩ => show win13_3.index t (0 : Fin 1) * 128 + 1 * q.val = win13_5.index t (1 : Fin 2) * 128 + 1 * q.val; omega
  have h4 : ((cfg13.win 4).blk t).view.emb (ix1 q) = ix1 (((cfg13.win 5).blk t).view.emb (ix2 p q) 1) := by
    funext a; apply Fin.ext
    match a with
    | ⟨0, _⟩ => show win13_4.index t (0 : Fin 1) * 128 + 1 * q.val = win13_5.index t (1 : Fin 2) * 128 + 1 * q.val; omega
  show Cert.Spec.relu (Cert.Spec.bn (iblk13 V c 0 t) (iblk13 V c 1 t) (iblk13 V c 2 t) (iblk13 V c 3 t) (iblk13 V c 4 t)) (ix2 p q)
    = G13 V c (((cfg13.win 5).blk t).view.emb (ix2 p q))
  refine entry13 (V c main_v232) (V c main_v235) (V c main_v236) (V c main_v238) (V c main_v240)
    (iblk13 V c 0 t) (iblk13 V c 1 t) (iblk13 V c 2 t) (iblk13 V c 3 t) (iblk13 V c 4 t) p q
    (((cfg13.win 5).blk t).view.emb (ix2 p q)) ?_ ?_ ?_ ?_ ?_
  · show V c main_v232 (((cfg13.win 0).blk t).view.emb (ix2 p q)) = V c main_v232 (ix2 (((cfg13.win 5).blk t).view.emb (ix2 p q) 0) (((cfg13.win 5).blk t).view.emb (ix2 p q) 1))
    exact congrArg (V c main_v232) h0
  · show V c main_v235 (((cfg13.win 1).blk t).view.emb (ix1 q)) = V c main_v235 (ix1 (((cfg13.win 5).blk t).view.emb (ix2 p q) 1))
    exact congrArg (V c main_v235) h1
  · show V c main_v236 (((cfg13.win 2).blk t).view.emb (ix1 q)) = V c main_v236 (ix1 (((cfg13.win 5).blk t).view.emb (ix2 p q) 1))
    exact congrArg (V c main_v236) h2
  · show V c main_v238 (((cfg13.win 3).blk t).view.emb (ix1 q)) = V c main_v238 (ix1 (((cfg13.win 5).blk t).view.emb (ix2 p q) 1))
    exact congrArg (V c main_v238) h3
  · show V c main_v240 (((cfg13.win 4).blk t).view.emb (ix1 q)) = V c main_v240 (ix1 (((cfg13.win 5).blk t).view.emb (ix2 p q) 1))
    exact congrArg (V c main_v240) h4

/-- An index of the output array is in point `t`'s tile iff each coordinate is in the tile's range on its axis. -/
theorem mem_tile13 (t : Fin cfg13.N) (i : S40000x128.Idx) :
    i ∈ ((cfg13.win 5).blk t).view.set ↔ ∀ a : Fin 2, win13_5.index t a * S5000x128.size a ≤ (i a).val ∧ (i a).val < win13_5.index t a * S5000x128.size a + S5000x128.size a := by
  show i ∈ ((View.whole main_v241).slice (win13_5.rect t)).set ↔ _
  rw [View.set_slice_whole, Rect.mem_set_unit]
  exact Iff.rfl

/-- Every index of the output array is in some point's tile: row `r` in tile `r / 5000`. -/
theorem cover13 (i : S40000x128.Idx) :
    ∃ t : Fin cfg13.N, (cfg13.win 5).flush t = true ∧ i ∈ ((cfg13.win 5).blk t).view.set := by
  have hi0 : (i 0).val < 40000 := (i 0).isLt
  have hi1 : (i 1).val < 128 := (i 1).isLt
  obtain ⟨t, ht⟩ := tiles13_onto ⟨(i 0).val / 5000, by omega⟩
  have q0 : win13_5.index t (0 : Fin 2) = (i 0).val / 5000 := congrFun ht 0
  have q1 : win13_5.index t (1 : Fin 2) = 0 := congrFun ht 1
  refine ⟨t, flush13_5 t, ?_⟩
  rw [mem_tile13]
  intro a
  match a with
  | ⟨0, _⟩ => show win13_5.index t (0 : Fin 2) * 5000 ≤ (i 0).val ∧ (i 0).val < win13_5.index t (0 : Fin 2) * 5000 + 5000; omega
  | ⟨1, _⟩ => show win13_5.index t (1 : Fin 2) * 128 ≤ (i 1).val ∧ (i 1).val < win13_5.index t (1 : Fin 2) * 128 + 128; omega

/-- The output array after the region is the rectified normalisation of the arrays the region found. -/
theorem val13 (c : Dev nD) : (dat13 (F := Ideal) V c).arrAt 5 cfg13.N
    = Cert.Spec.relu (Cert.Spec.bn (V c main_v232) (V c main_v235) (V c main_v236) (V c main_v238) (V c main_v240)) :=
  (dat13 V c).arrAt_eq_of_cover 5 (G13 V c) (fun t _ => flushed13_eq V c t) cover13

end Cert.KernelIdeal.KVal

end
-- ==== Proof.KFold.lean ====
/-
  The kernel program's result as the network function of the launch arguments.

  The first stretch of host operations leaves the two rows of the edge list and the per-node sums and counts of the
  edge attribute; the first region leaves the input's linear map. Each of the three layers then takes the previous
  linear output, its normalisation's scale and shift, and those four arrays, and leaves `Net.layerRaw` of the
  normalised input (`KFoldL0`, `KFoldL1`, `KFoldL2`); between two layers the scale and shift are the previous
  layer's slices of arguments 25 and 26. The last region normalises and clips the third layer's output with the last
  slices. Composed, that is `Net.netWith` with the kernel's edge array `Net.edgeK`.
-/
import proofs.«426021_j89885075570707_3_alg».proof.Proof.KFoldTac
import proofs.«426021_j89885075570707_3_alg».proof.Proof.KFoldL0
import proofs.«426021_j89885075570707_3_alg».proof.Proof.KFoldL1
import proofs.«426021_j89885075570707_3_alg».proof.Proof.KFoldL2
import proofs.«426021_j89885075570707_3_alg».proof.Proof.KVal0
import proofs.«426021_j89885075570707_3_alg».proof.Proof.KVal13

set_option maxRecDepth 16384
-- a variance stretch read back through its twenty-two operations is compared with `Chains.var` by unfolding
set_option maxHeartbeats 4000000
-- one theorem at a time: each side condition is decided by the kernel, and in parallel these pass the machine's memory
set_option Elab.async false

noncomputable section

namespace Cert.KernelIdeal.KFold

open Idealize.ShloMosaic Idealize.ShloMosaic.TcCoe Idealize.SL.Sem Cert.KernelIdeal Cert.KernelIdeal.Gen
open Cert.Chains Cert.Spec Cert.Net

variable (m : (ℓ : Loc nD τ sig) → Buf (Elt Ideal) ℓ) (ρ : Dev nD → PrngReg)

/-! ## The first stretch and the first region -/

/-- The edges' sources. -/
theorem src_1 (c : Dev nD) : W1 m ρ c (Proc.devRef .tc main_v1) = srcOf (A1 m c) := by
  have h1 : W0 m ρ c (Proc.devRef .tc main_arg1) = A1 m c := rfl
  show StableHlo.after hostOps0 (W0 m ρ c) (Proc.devRef .tc main_v1) = _
  generalize W0 m ρ c = V at h1 ⊢
  after_results_k
  rw [h1] <;> rfl

/-- The edges' targets. -/
theorem dst_1 (c : Dev nD) : W1 m ρ c (Proc.devRef .tc main_v3) = dstOf (A1 m c) := by
  have h1 : W0 m ρ c (Proc.devRef .tc main_arg1) = A1 m c := rfl
  show StableHlo.after hostOps0 (W0 m ρ c) (Proc.devRef .tc main_v3) = _
  generalize W0 m ρ c = V at h1 ⊢
  after_results_k
  rw [h1] <;> rfl

/-- Per node, the sum of its outgoing edges' attribute. -/
theorem s_1 (c : Dev nD) : W1 m ρ c (Proc.devRef .tc main_v12) = edgeSum (srcOf (A1 m c)) (A2 m c) := by
  have h1 : W0 m ρ c (Proc.devRef .tc main_arg1) = A1 m c := rfl
  have h2 : W0 m ρ c (Proc.devRef .tc main_arg2) = A2 m c := rfl
  show StableHlo.after hostOps0 (W0 m ρ c) (Proc.devRef .tc main_v12) = _
  generalize W0 m ρ c = V at h1 h2 ⊢
  after_results_k
  rw [h1, h2] <;> rfl

/-- Per node, the number of its outgoing edges. -/
theorem n_1 (c : Dev nD) : W1 m ρ c (Proc.devRef .tc main_v13) = edgeCount (F := Ideal) (srcOf (A1 m c)) := by
  have h1 : W0 m ρ c (Proc.devRef .tc main_arg1) = A1 m c := rfl
  show StableHlo.after hostOps0 (W0 m ρ c) (Proc.devRef .tc main_v13) = _
  generalize W0 m ρ c = V at h1 ⊢
  after_results_k
  rw [h1] <;> rfl

/-- The input's linear map. -/
theorem x_2 (c : Dev nD) : W2 m ρ c (Proc.devRef .tc main_v14) = Spec.lin (A0 m c) (A3 m c) (A4 m c) := by
  refine ((W2_arr m ρ c 3).trans (KVal.val0 (V1 m ρ) c)).trans ?_
  dsimp only [V1]
  rw [a0_W1 m ρ c, a3_W1 m ρ c, a4_W1 m ρ c] <;> rfl

/-! ## Layer 0 -/

/-- What layer 0 finds. -/
def in0 : In0 m ρ where
  X c := Spec.lin (A0 m c) (A3 m c) (A4 m c)
  G c := A5 m c
  Bt c := A6 m c
  s c := edgeSum (srcOf (A1 m c)) (A2 m c)
  n c := edgeCount (srcOf (A1 m c))
  src c := srcOf (A1 m c)
  dst c := dstOf (A1 m c)
  hX c := x_2 m ρ c
  hG c := a5_W5 m ρ c
  hBt c := a6_W5 m ρ c
  hs c := (v12_W5 m ρ c).trans (s_1 m ρ c)
  hn c := (v13_W5 m ρ c).trans (n_1 m ρ c)
  hsrc c := (k_v1_W12 m ρ c).trans (src_1 m ρ c)
  hdst c := (k_v3_W12 m ρ c).trans (dst_1 m ρ c)

theorem y0_net (c : Dev nD) :
    l0_y m ρ (in0 m ρ) c = Net.layerRaw (srcOf (A1 m c)) (dstOf (A1 m c)) (Net.P0 (A7 m c) (A8 m c) (A11 m c) (A12 m c) (A13 m c) (A14 m c) (A15 m c) (A16 m c) (A17 m c) (A18 m c) (A19 m c) (A20 m c) (A21 m c) (A22 m c) (A23 m c) (A24 m c))
      (Net.edgeK (A1 m c) (A2 m c) (row0 (A9 m c)) (vec0 (A10 m c))) (Net.norm (Spec.lin (A0 m c) (A3 m c) (A4 m c)) (A5 m c) (A6 m c)) :=
  l0_y_eq m ρ (in0 m ρ) c

/-! ## Layer 1 -/

theorem g1_23 (c : Dev nD) : W23 m ρ c (Proc.devRef .tc main_v90) = vec0 (A25 m c) := by
  have h1 := a25_W22 m ρ c
  show StableHlo.after hostOps5_2 (W22 m ρ c) (Proc.devRef .tc main_v90) = _
  generalize W22 m ρ c = V at h1 ⊢
  after_results_k
  rw [h1] <;> rfl

theorem bt1_23 (c : Dev nD) : W23 m ρ c (Proc.devRef .tc main_v92) = vec0 (A26 m c) := by
  have h1 := a26_W22 m ρ c
  show StableHlo.after hostOps5_2 (W22 m ρ c) (Proc.devRef .tc main_v92) = _
  generalize W22 m ρ c = V at h1 ⊢
  after_results_k
  rw [h1] <;> rfl

/-- What layer 1 finds. -/
def in1 : In1 m ρ where
  X c := l0_y m ρ (in0 m ρ) c
  G c := vec0 (A25 m c)
  Bt c := vec0 (A26 m c)
  s c := edgeSum (srcOf (A1 m c)) (A2 m c)
  n c := edgeCount (srcOf (A1 m c))
  src c := srcOf (A1 m c)
  dst c := dstOf (A1 m c)
  hX c := l0_out m ρ (in0 m ρ) c
  hG c := g1_23 m ρ c
  hBt c := bt1_23 m ρ c
  hs c := (v12_W23 m ρ c).trans (s_1 m ρ c)
  hn c := (v13_W23 m ρ c).trans (n_1 m ρ c)
  hsrc c := (k_v1_W30 m ρ c).trans (src_1 m ρ c)
  hdst c := (k_v3_W30 m ρ c).trans (dst_1 m ρ c)

theorem y1_net (c : Dev nD) :
    l1_y m ρ (in1 m ρ) c = Net.layerRaw (srcOf (A1 m c)) (dstOf (A1 m c)) (Net.P1 (A7 m c) (A8 m c) (A11 m c) (A12 m c) (A13 m c) (A14 m c) (A15 m c) (A16 m c) (A17 m c) (A18 m c) (A19 m c) (A20 m c) (A21 m c) (A22 m c) (A23 m c) (A24 m c))
      (Net.edgeK (A1 m c) (A2 m c) (row1 (A9 m c)) (vec1 (A10 m c))) (Net.norm (l0_y m ρ (in0 m ρ) c) (vec0 (A25 m c)) (vec0 (A26 m c))) :=
  l1_y_eq m ρ (in1 m ρ) c

/-! ## Layer 2 -/

theorem g2_41 (c : Dev nD) : W41 m ρ c (Proc.devRef .tc main_v164) = vec1 (A25 m c) := by
  have h1 := a25_W40 m ρ c
  show StableHlo.after hostOps9_2 (W40 m ρ c) (Proc.devRef .tc main_v164) = _
  generalize W40 m ρ c = V at h1 ⊢
  after_results_k
  rw [h1] <;> rfl

theorem bt2_41 (c : Dev nD) : W41 m ρ c (Proc.devRef .tc main_v166) = vec1 (A26 m c) := by
  have h1 := a26_W40 m ρ c
  show StableHlo.after hostOps9_2 (W40 m ρ c) (Proc.devRef .tc main_v166) = _
  generalize W40 m ρ c = V at h1 ⊢
  after_results_k
  rw [h1] <;> rfl

/-- What layer 2 finds. -/
def in2 : In2 m ρ where
  X c := l1_y m ρ (in1 m ρ) c
  G c := vec1 (A25 m c)
  Bt c := vec1 (A26 m c)
  s c := edgeSum (srcOf (A1 m c)) (A2 m c)
  n c := edgeCount (srcOf (A1 m c))
  src c := srcOf (A1 m c)
  dst c := dstOf (A1 m c)
  hX c := l1_out m ρ (in1 m ρ) c
  hG c := g2_41 m ρ c
  hBt c := bt2_41 m ρ c
  hs c := (v12_W41 m ρ c).trans (s_1 m ρ c)
  hn c := (v13_W41 m ρ c).trans (n_1 m ρ c)
  hsrc c := (k_v1_W48 m ρ c).trans (src_1 m ρ c)
  hdst c := (k_v3_W48 m ρ c).trans (dst_1 m ρ c)

theorem y2_net (c : Dev nD) :
    l2_y m ρ (in2 m ρ) c = Net.layerRaw (srcOf (A1 m c)) (dstOf (A1 m c)) (Net.P2 (A7 m c) (A8 m c) (A11 m c) (A12 m c) (A13 m c) (A14 m c) (A15 m c) (A16 m c) (A17 m c) (A18 m c) (A19 m c) (A20 m c) (A21 m c) (A22 m c) (A23 m c) (A24 m c))
      (Net.edgeK (A1 m c) (A2 m c) (row2 (A9 m c)) (vec2 (A10 m c))) (Net.norm (l1_y m ρ (in1 m ρ) c) (vec1 (A25 m c)) (vec1 (A26 m c))) :=
  l2_y_eq m ρ (in2 m ρ) c

/-! ## The last normalisation -/

theorem f_mu_57 (c : Dev nD) : W57 m ρ c (Proc.devRef .tc main_v235) = Chains.mean (l2_y m ρ (in2 m ρ) c) := by
  have h1 := l2_out m ρ (in2 m ρ) c
  show StableHlo.after hostOps13 (W56 m ρ c) (Proc.devRef .tc main_v235) = _
  generalize W56 m ρ c = V at h1 ⊢
  after_results_k
  rw [h1] <;> (generalize l2_y m ρ (in2 m ρ) c = X; rfl)

theorem f_c_57 (c : Dev nD) : W57 m ρ c (Proc.devRef .tc main_c_57) = constantI S_ 32 0#32 := by
  show StableHlo.after hostOps13 (W56 m ρ c) (Proc.devRef .tc main_c_57) = _
  generalize W56 m ρ c = V
  after_results_k <;> rfl

theorem f_y_57 (c : Dev nD) : W57 m ρ c (Proc.devRef .tc main_v232) = l2_y m ρ (in2 m ρ) c :=
  (hs13 m ρ c main_v232 (by decide +kernel)).trans (l2_out m ρ (in2 m ρ) c)
theorem f_var_58 (c : Dev nD) : W58 m ρ c (Proc.devRef .tc main_v236) = Chains.var (l2_y m ρ (in2 m ρ) c) := by
  have h1 := f_y_57 m ρ c
  have h2 := f_c_57 m ρ c
  show StableHlo.after hostOps13_1 (W57 m ρ c) (Proc.devRef .tc main_v236) = _
  generalize W57 m ρ c = V at h1 h2 ⊢
  after_results_k
  rw [h1, h2] <;> (generalize l2_y m ρ (in2 m ρ) c = X; rfl)

theorem f_g_59 (c : Dev nD) : W59 m ρ c (Proc.devRef .tc main_v238) = vec2 (A25 m c) := by
  have h1 := a25_W58 m ρ c
  show StableHlo.after hostOps13_2 (W58 m ρ c) (Proc.devRef .tc main_v238) = _
  generalize W58 m ρ c = V at h1 ⊢
  after_results_k
  rw [h1] <;> rfl

theorem f_bt_59 (c : Dev nD) : W59 m ρ c (Proc.devRef .tc main_v240) = vec2 (A26 m c) := by
  have h1 := a26_W58 m ρ c
  show StableHlo.after hostOps13_2 (W58 m ρ c) (Proc.devRef .tc main_v240) = _
  generalize W58 m ρ c = V at h1 ⊢
  after_results_k
  rw [h1] <;> rfl

theorem f_y_59 (c : Dev nD) : W59 m ρ c (Proc.devRef .tc main_v232) = l2_y m ρ (in2 m ρ) c :=
  (hs13_2 m ρ c main_v232 (by decide +kernel)).trans <| (hs13_1 m ρ c main_v232 (by decide +kernel)).trans (f_y_57 m ρ c)
theorem f_mu_59 (c : Dev nD) : W59 m ρ c (Proc.devRef .tc main_v235) = Chains.mean (l2_y m ρ (in2 m ρ) c) :=
  (hs13_2 m ρ c main_v235 (by decide +kernel)).trans <| (hs13_1 m ρ c main_v235 (by decide +kernel)).trans (f_mu_57 m ρ c)
theorem f_var_59 (c : Dev nD) : W59 m ρ c (Proc.devRef .tc main_v236) = Chains.var (l2_y m ρ (in2 m ρ) c) :=
  (hs13_2 m ρ c main_v236 (by decide +kernel)).trans (f_var_58 m ρ c)
/-- The last region leaves the third layer's output, normalised with the last slices and clipped. -/
theorem out_60 (c : Dev nD) :
    W60 m ρ c (Proc.devRef .tc main_v241) = Net.norm (l2_y m ρ (in2 m ρ) c) (vec2 (A25 m c)) (vec2 (A26 m c)) := by
  refine ((W60_arr m ρ c 5).trans (KVal.val13 (V59 m ρ) c)).trans ?_
  dsimp only [V59]
  rw [f_y_59 m ρ c, f_mu_59 m ρ c, f_var_59 m ρ c, f_g_59 m ρ c, f_bt_59 m ρ c] <;> rfl

/-! ## The result -/

/-- The result buffer after the run holds the network function, with the kernel's edge array, of the launch
    arguments. -/
theorem result_eq (c : Dev nD) :
    W60 m ρ c (Proc.devRef .tc main_v241)
      = Net.netWith (Net.edgeK (m ((c.tc : Thread nD τ).loc main_arg1)) (m ((c.tc : Thread nD τ).loc main_arg2)))
          (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
          (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) := by
  rw [out_60 m ρ c, y2_net m ρ c, y1_net m ρ c, y0_net m ρ c]
  rfl

end Cert.KernelIdeal.KFold

end
-- ==== Proof.ROps.lean ====
/- The reference program's @main as lists of host operations: one list per printed window `main_partK`, the
   operations in order, each call replaced by the callee's operations over the call's record of buffers (the
   callee's arguments the call's operands), `ops` their concatenation, and for each list the fact that every
   operation touches TensorCore references only. -/
import proofs.«426021_j89885075570707_3_alg».proof.Proof.Gen.ReferenceIdeal
import Idealize.ShloMosaic.Lib.StableHlo.Run

set_option Elab.async false

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part0`, calls inlined: operations 1 … 104 of @main's. -/
abbrev ops0 : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    binary main_arg0 main_arg3 main_v4 ((fun l r => Host.dotGeneral dot_S40000x2_S2x128_S40000x128_1_0_0_1_n_n none l r) : (⟨S40000x2, .f32⟩ : BufTy).Contents (Elt F) → (⟨S2x128, .f32⟩ : BufTy).Contents (Elt F) → (⟨S40000x128, .f32⟩ : BufTy).Contents (Elt F)),
    unary main_arg4 main_v5 (broadcastInDim S1x128 ![1] bcast_S128_S1x128_1 : (⟨S128, .f32⟩ : BufTy).Contents (Elt F) → (⟨S1x128, .f32⟩ : BufTy).Contents (Elt F)),
    unary main_v5 main_v6 (broadcastInDim S40000x128 ![0, 1] bcast_S1x128_S40000x128_0_1 : (⟨S1x128, .f32⟩ : BufTy).Contents (Elt F) → (⟨S40000x128, .f32⟩ : BufTy).Contents (Elt F)),
    binary main_v4 main_v6 main_v7 (addf : (⟨S40000x128, .f32⟩ : BufTy).Contents (Elt F) → (⟨S40000x128, .f32⟩ : BufTy).Contents (Elt F) → (⟨S40000x128, .f32⟩ : BufTy).Contents (Elt F)),
    nullary main_cst (constant S_ .f32 0x00000000#32),
    binary main_v7 main_cst main_v8 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    nullary main_cst_0 (constant S_ .f32 0x471C4000#32),
    unary main_cst_0 main_v9 (broadcastInDim S128 ![] bcast_S_S128 : (⟨S_, .f32⟩ : BufTy).Contents (Elt F) → (⟨S128, .f32⟩ : BufTy).Contents (Elt F)),
    binary main_v8 main_v9 main_v10 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call0.cst (constant S_ .f32 0x00000000#32),
    TRef.binary (.of main_v7) main_call0.cst main_call0.v0 (fun x v => Host.reduceAdd x v reducesTo_S40000x128_S128_d0 h_S_),
    TRef.unary main_call0.v0 main_call0.v1 (broadcastInDim S1x128 ![1] bcast_S128_S1x128_1),
    TRef.nullary main_call0.cst_0 (constant S_ .f32 0x471C4000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S40000x128 ![0, 1] bcast_S1x128_S40000x128_0_1),
    TRef.binary (.of main_v7) main_call0.v4 main_call0.v5 subf,
    TRef.binary main_call0.v5 main_call0.v5 main_call0.v6 mulf,
    TRef.unary (.of main_c) main_call0.v7 (sitofp .f32),
    TRef.nullary main_call0.cst_1 (constant S_ .f32 0x471C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S40000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v10 main_v12 (broadcastInDim S1x128 ![1] bcast_S128_S1x128_1 : (⟨S128, .f32⟩ : BufTy).Contents (Elt F) → (⟨S1x128, .f32⟩ : BufTy).Contents (Elt F)),
    unary main_v12 main_v13 (broadcastInDim S40000x128 ![0, 1] bcast_S1x128_S40000x128_0_1 : (⟨S1x128, .f32⟩ : BufTy).Contents (Elt F) → (⟨S40000x128, .f32⟩ : BufTy).Contents (Elt F)),
    binary main_v7 main_v13 main_v14 (subf : (⟨S40000x128, .f32⟩ : BufTy).Contents (Elt F) → (⟨S40000x128, .f32⟩ : BufTy).Contents (Elt F) → (⟨S40000x128, .f32⟩ : BufTy).Contents (Elt F)),
    nullary main_cst_1 (constant S_ .f32 0x3727C5AC#32),
    unary main_cst_1 main_v15 (broadcastInDim S128 ![] bcast_S_S128 : (⟨S_, .f32⟩ : BufTy).Contents (Elt F) → (⟨S128, .f32⟩ : BufTy).Contents (Elt F)),
    binary main_v11 main_v15 main_v16 (addf : (⟨S128, .f32⟩ : BufTy).Contents (Elt F) → (⟨S128, .f32⟩ : BufTy).Contents (Elt F) → (⟨S128, .f32⟩ : BufTy).Contents (Elt F)),
    unary main_v16 main_v17 (Host.rsqrt : (⟨S128, .f32⟩ : BufTy).Contents (Elt F) → (⟨S128, .f32⟩ : BufTy).Contents (Elt F)),
    unary main_v17 main_v18 (broadcastInDim S1x128 ![1] bcast_S128_S1x128_1 : (⟨S128, .f32⟩ : BufTy).Contents (Elt F) → (⟨S1x128, .f32⟩ : BufTy).Contents (Elt F)),
    unary main_v18 main_v19 (broadcastInDim S40000x128 ![0, 1] bcast_S1x128_S40000x128_0_1 : (⟨S1x128, .f32⟩ : BufTy).Contents (Elt F) → (⟨S40000x128, .f32⟩ : BufTy).Contents (Elt F)),
    binary main_v14 main_v19 main_v20 (mulf : (⟨S40000x128, .f32⟩ : BufTy).Contents (Elt F) → (⟨S40000x128, .f32⟩ : BufTy).Contents (Elt F) → (⟨S40000x128, .f32⟩ : BufTy).Contents (Elt F)),
    unary main_arg5 main_v21 (broadcastInDim S1x128 ![1] bcast_S128_S1x128_1 : (⟨S128, .f32⟩ : BufTy).Contents (Elt F) → (⟨S1x128, .f32⟩ : BufTy).Contents (Elt F)),
    unary main_v21 main_v22 (broadcastInDim S40000x128 ![0, 1] bcast_S1x128_S40000x128_0_1 : (⟨S1x128, .f32⟩ : BufTy).Contents (Elt F) → (⟨S40000x128, .f32⟩ : BufTy).Contents (Elt F)),
    binary main_v20 main_v22 main_v23 (mulf : (⟨S40000x128, .f32⟩ : BufTy).Contents (Elt F) → (⟨S40000x128, .f32⟩ : BufTy).Contents (Elt F) → (⟨S40000x128, .f32⟩ : BufTy).Contents (Elt F)),
    unary main_arg6 main_v24 (broadcastInDim S1x128 ![1] bcast_S128_S1x128_1 : (⟨S128, .f32⟩ : BufTy).Contents (Elt F) → (⟨S1x128, .f32⟩ : BufTy).Contents (Elt F)),
    unary main_v24 main_v25 (broadcastInDim S40000x128 ![0, 1] bcast_S1x128_S40000x128_0_1 : (⟨S1x128, .f32⟩ : BufTy).Contents (Elt F) → (⟨S40000x128, .f32⟩ : BufTy).Contents (Elt F)),
    binary main_v23 main_v25 main_v26 (addf : (⟨S40000x128, .f32⟩ : BufTy).Contents (Elt F) → (⟨S40000x128, .f32⟩ : BufTy).Contents (Elt F) → (⟨S40000x128, .f32⟩ : BufTy).Contents (Elt F)),
    TRef.nullary main_call1.cst (constant S_ .f32 0x00000000#32),
    TRef.unary main_call1.cst main_call1.v0 (broadcastInDim S40000x128 ![] bcast_S_S40000x128),
    TRef.binary (.of main_v26) main_call1.v0 main_call1.v1 maximumf,
    unary main_arg9 main_v28 ((extractStridedSlice S1x1x128 ![0, 0, 0] · slices_S3x1x128_S1x1x128_0_0_0) : (⟨S3x1x128, .f32⟩ : BufTy).Contents (Elt F) → (⟨S1x1x128, .f32⟩ : BufTy).Contents (Elt F)),
    reshape main_v28 main_v29 rfl shapeCasts_S1x1x128_S1x128,
    binary main_arg2 main_v29 main_v30 ((fun l r => Host.dotGeneral dot_S640000x1_S1x128_S640000x128_1_0_0_1_n_n none l r) : (⟨S640000x1, .f32⟩ : BufTy).Contents (Elt F) → (⟨S1x128, .f32⟩ : BufTy).Contents (Elt F) → (⟨S640000x128, .f32⟩ : BufTy).Contents (Elt F)),
    unary main_arg10 main_v31 ((extractStridedSlice S1x128 ![0, 0] · slices_S3x128_S1x128_0_0) : (⟨S3x128, .f32⟩ : BufTy).Contents (Elt F) → (⟨S1x128, .f32⟩ : BufTy).Contents (Elt F)),
    reshape main_v31 main_v32 rfl shapeCasts_S1x128_S128,
    unary main_v32 main_v33 (broadcastInDim S1x128 ![1] bcast_S128_S1x128_1 : (⟨S128, .f32⟩ : BufTy).Contents (Elt F) → (⟨S1x128, .f32⟩ : BufTy).Contents (Elt F)),
    unary main_v33 main_v34 (broadcastInDim S640000x128 ![0, 1] bcast_S1x128_S640000x128_0_1 : (⟨S1x128, .f32⟩ : BufTy).Contents (Elt F) → (⟨S640000x128, .f32⟩ : BufTy).Contents (Elt F)),
    binary main_v30 main_v34 main_v35 (addf : (⟨S640000x128, .f32⟩ : BufTy).Contents (Elt F) → (⟨S640000x128, .f32⟩ : BufTy).Contents (Elt F) → (⟨S640000x128, .f32⟩ : BufTy).Contents (Elt F)),
    nullary main_cst_2 (constant S_ .f32 0x00000000#32),
    unary main_cst_2 main_v36 (broadcastInDim S40000x128 ![] bcast_S_S40000x128 : (⟨S_, .f32⟩ : BufTy).Contents (Elt F) → (⟨S40000x128, .f32⟩ : BufTy).Contents (Elt F)),
    unary main_v1 main_v37 (broadcastInDim S640000x1 ![0] bcast_S640000_S640000x1_0 : (⟨S640000, .i32⟩ : BufTy).Contents (Elt F) → (⟨S640000x1, .i32⟩ : BufTy).Contents (Elt F)),
    ternary main_v36 main_v37 main_v35 main_v38 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    unary main_arg15 main_v39 ((extractStridedSlice S1x128 ![0, 0] · slices_S3x128_S1x128_0_0) : (⟨S3x128, .f32⟩ : BufTy).Contents (Elt F) → (⟨S1x128, .f32⟩ : BufTy).Contents (Elt F)),
    reshape main_v39 main_v40 rfl shapeCasts_S1x128_S128,
    unary main_arg16 main_v41 ((extractStridedSlice S1x128 ![0, 0] · slices_S3x128_S1x128_0_0) : (⟨S3x128, .f32⟩ : BufTy).Contents (Elt F) → (⟨S1x128, .f32⟩ : BufTy).Contents (Elt F)),
    reshape main_v41 main_v42 rfl shapeCasts_S1x128_S128,
    nullary main_cst_3 (constant S_ .f32 0x00000000#32),
    binary main_v38 main_cst_3 main_v43 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    nullary main_cst_4 (constant S_ .f32 0x471C4000#32),
    unary main_cst_4 main_v44 (broadcastInDim S128 ![] bcast_S_S128 : (⟨S_, .f32⟩ : BufTy).Contents (Elt F) → (⟨S128, .f32⟩ : BufTy).Contents (Elt F)),
    binary main_v43 main_v44 main_v45 (Host.divf : (⟨S128, .f32⟩ : BufTy).Contents (Elt F) → (⟨S128, .f32⟩ : BufTy).Contents (Elt F) → (⟨S128, .f32⟩ : BufTy).Contents (Elt F)),
    nullary main_c_5 (constantI S_ 32 0#32),
    TRef.nullary main_call2.cst (constant S_ .f32 0x00000000#32),
    TRef.binary (.of main_v38) main_call2.cst main_call2.v0 (fun x v => Host.reduceAdd x v reducesTo_S40000x128_S128_d0 h_S_),
    TRef.unary main_call2.v0 main_call2.v1 (broadcastInDim S1x128 ![1] bcast_S128_S1x128_1),
    TRef.nullary main_call2.cst_0 (constant S_ .f32 0x471C4000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S40000x128 ![0, 1] bcast_S1x128_S40000x128_0_1),
    TRef.binary (.of main_v38) main_call2.v4 main_call2.v5 subf,
    TRef.binary main_call2.v5 main_call2.v5 main_call2.v6 mulf,
    TRef.unary (.of main_c_5) main_call2.v7 (sitofp .f32),
    TRef.nullary main_call2.cst_1 (constant S_ .f32 0x471C4000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S40000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v45 main_v47 (broadcastInDim S1x128 ![1] bcast_S128_S1x128_1 : (⟨S128, .f32⟩ : BufTy).Contents (Elt F) → (⟨S1x128, .f32⟩ : BufTy).Contents (Elt F)),
    unary main_v47 main_v48 (broadcastInDim S40000x128 ![0, 1] bcast_S1x128_S40000x128_0_1 : (⟨S1x128, .f32⟩ : BufTy).Contents (Elt F) → (⟨S40000x128, .f32⟩ : BufTy).Contents (Elt F)),
    binary main_v38 main_v48 main_v49 (subf : (⟨S40000x128, .f32⟩ : BufTy).Contents (Elt F) → (⟨S40000x128, .f32⟩ : BufTy).Contents (Elt F) → (⟨S40000x128, .f32⟩ : BufTy).Contents (Elt F)),
    nullary main_cst_6 (constant S_ .f32 0x3727C5AC#32),
    unary main_cst_6 main_v50 (broadcastInDim S128 ![] bcast_S_S128 : (⟨S_, .f32⟩ : BufTy).Contents (Elt F) → (⟨S128, .f32⟩ : BufTy).Contents (Elt F)) ]

/-- The operations of window `main_part1`, calls inlined: operations 105 … 185 of @main's. -/
abbrev ops1 : List (HloOp τ sig (Elt F)) :=
  [ binary main_v46 main_v50 main_v51 (addf : (⟨S128, .f32⟩ : BufTy).Contents (Elt F) → (⟨S128, .f32⟩ : BufTy).Contents (Elt F) → (⟨S128, .f32⟩ : BufTy).Contents (Elt F)),
    unary main_v51 main_v52 (Host.rsqrt : (⟨S128, .f32⟩ : BufTy).Contents (Elt F) → (⟨S128, .f32⟩ : BufTy).Contents (Elt F)),
    unary main_v52 main_v53 (broadcastInDim S1x128 ![1] bcast_S128_S1x128_1 : (⟨S128, .f32⟩ : BufTy).Contents (Elt F) → (⟨S1x128, .f32⟩ : BufTy).Contents (Elt F)),
    unary main_v53 main_v54 (broadcastInDim S40000x128 ![0, 1] bcast_S1x128_S40000x128_0_1 : (⟨S1x128, .f32⟩ : BufTy).Contents (Elt F) → (⟨S40000x128, .f32⟩ : BufTy).Contents (Elt F)),
    binary main_v49 main_v54 main_v55 (mulf : (⟨S40000x128, .f32⟩ : BufTy).Contents (Elt F) → (⟨S40000x128, .f32⟩ : BufTy).Contents (Elt F) → (⟨S40000x128, .f32⟩ : BufTy).Contents (Elt F)),
    unary main_v40 main_v56 (broadcastInDim S1x128 ![1] bcast_S128_S1x128_1 : (⟨S128, .f32⟩ : BufTy).Contents (Elt F) → (⟨S1x128, .f32⟩ : BufTy).Contents (Elt F)),
    unary main_v56 main_v57 (broadcastInDim S40000x128 ![0, 1] bcast_S1x128_S40000x128_0_1 : (⟨S1x128, .f32⟩ : BufTy).Contents (Elt F) → (⟨S40000x128, .f32⟩ : BufTy).Contents (Elt F)),
    binary main_v55 main_v57 main_v58 (mulf : (⟨S40000x128, .f32⟩ : BufTy).Contents (Elt F) → (⟨S40000x128, .f32⟩ : BufTy).Contents (Elt F) → (⟨S40000x128, .f32⟩ : BufTy).Contents (Elt F)),
    unary main_v42 main_v59 (broadcastInDim S1x128 ![1] bcast_S128_S1x128_1 : (⟨S128, .f32⟩ : BufTy).Contents (Elt F) → (⟨S1x128, .f32⟩ : BufTy).Contents (Elt F)),
    unary main_v59 main_v60 (broadcastInDim S40000x128 ![0, 1] bcast_S1x128_S40000x128_0_1 : (⟨S1x128, .f32⟩ : BufTy).Contents (Elt F) → (⟨S40000x128, .f32⟩ : BufTy).Contents (Elt F)),
    binary main_v58 main_v60 main_v61 (addf : (⟨S40000x128, .f32⟩ : BufTy).Contents (Elt F) → (⟨S40000x128, .f32⟩ : BufTy).Contents (Elt F) → (⟨S40000x128, .f32⟩ : BufTy).Contents (Elt F)),
    unary main_arg11 main_v62 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v62 main_v63 rfl shapeCasts_S1x128x128_S128x128,
    binary main_v27 main_v63 main_v64 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg12 main_v65 ((extractStridedSlice S1x128 ![0, 0] · slices_S3x128_S1x128_0_0) : (⟨S3x128, .f32⟩ : BufTy).Contents (Elt F) → (⟨S1x128, .f32⟩ : BufTy).Contents (Elt F)),
    reshape main_v65 main_v66 rfl shapeCasts_S1x128_S128,
    unary main_v66 main_v67 (broadcastInDim S1x128 ![1] bcast_S128_S1x128_1 : (⟨S128, .f32⟩ : BufTy).Contents (Elt F) → (⟨S1x128, .f32⟩ : BufTy).Contents (Elt F)),
    unary main_v67 main_v68 (broadcastInDim S40000x128 ![0, 1] bcast_S1x128_S40000x128_0_1 : (⟨S1x128, .f32⟩ : BufTy).Contents (Elt F) → (⟨S40000x128, .f32⟩ : BufTy).Contents (Elt F)),
    binary main_v64 main_v68 main_v69 (addf : (⟨S40000x128, .f32⟩ : BufTy).Contents (Elt F) → (⟨S40000x128, .f32⟩ : BufTy).Contents (Elt F) → (⟨S40000x128, .f32⟩ : BufTy).Contents (Elt F)),
    nullary main_c_7 (constantI S_ 32 0#32),
    unary main_c_7 main_v70 (broadcastInDim S640000 ![] bcast_S_S640000 : (⟨S_, .i32⟩ : BufTy).Contents (Elt F) → (⟨S640000, .i32⟩ : BufTy).Contents (Elt F)),
    binary main_v1 main_v70 main_v71 (cmpi .slt : (⟨S640000, .i32⟩ : BufTy).Contents (Elt F) → (⟨S640000, .i32⟩ : BufTy).Contents (Elt F) → (⟨S640000, .i1⟩ : BufTy).Contents (Elt F)),
    nullary main_c_8 (constantI S_ 32 40000#32),
    unary main_c_8 main_v72 (broadcastInDim S640000 ![] bcast_S_S640000 : (⟨S_, .i32⟩ : BufTy).Contents (Elt F) → (⟨S640000, .i32⟩ : BufTy).Contents (Elt F)),
    binary main_v1 main_v72 main_v73 (addi : (⟨S640000, .i32⟩ : BufTy).Contents (Elt F) → (⟨S640000, .i32⟩ : BufTy).Contents (Elt F) → (⟨S640000, .i32⟩ : BufTy).Contents (Elt F)),
    ternary main_v71 main_v73 main_v1 main_v74 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v74 main_v75 (broadcastInDim S640000x1 ![0] bcast_S640000_S640000x1_0 : (⟨S640000, .i32⟩ : BufTy).Contents (Elt F) → (⟨S640000x1, .i32⟩ : BufTy).Contents (Elt F)),
    binary main_v69 main_v75 main_v76 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    nullary main_cst_9 (constant S_ .f32 0x00000000#32),
    unary main_cst_9 main_v77 (broadcastInDim S40000x128 ![] bcast_S_S40000x128 : (⟨S_, .f32⟩ : BufTy).Contents (Elt F) → (⟨S40000x128, .f32⟩ : BufTy).Contents (Elt F)),
    unary main_v3 main_v78 (broadcastInDim S640000x1 ![0] bcast_S640000_S640000x1_0 : (⟨S640000, .i32⟩ : BufTy).Contents (Elt F) → (⟨S640000x1, .i32⟩ : BufTy).Contents (Elt F)),
    ternary main_v77 main_v78 main_v76 main_v79 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    unary main_arg7 main_v80 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v80 main_v81 rfl shapeCasts_S1x128x128_S128x128,
    binary main_v27 main_v81 main_v82 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg8 main_v83 ((extractStridedSlice S1x128 ![0, 0] · slices_S3x128_S1x128_0_0) : (⟨S3x128, .f32⟩ : BufTy).Contents (Elt F) → (⟨S1x128, .f32⟩ : BufTy).Contents (Elt F)),
    reshape main_v83 main_v84 rfl shapeCasts_S1x128_S128,
    unary main_v84 main_v85 (broadcastInDim S1x128 ![1] bcast_S128_S1x128_1 : (⟨S128, .f32⟩ : BufTy).Contents (Elt F) → (⟨S1x128, .f32⟩ : BufTy).Contents (Elt F)),
    unary main_v85 main_v86 (broadcastInDim S40000x128 ![0, 1] bcast_S1x128_S40000x128_0_1 : (⟨S1x128, .f32⟩ : BufTy).Contents (Elt F) → (⟨S40000x128, .f32⟩ : BufTy).Contents (Elt F)),
    binary main_v82 main_v86 main_v87 (addf : (⟨S40000x128, .f32⟩ : BufTy).Contents (Elt F) → (⟨S40000x128, .f32⟩ : BufTy).Contents (Elt F) → (⟨S40000x128, .f32⟩ : BufTy).Contents (Elt F)),
    unary main_arg13 main_v88 ((extractStridedSlice S1x128 ![0, 0] · slices_S3x128_S1x128_0_0) : (⟨S3x128, .f32⟩ : BufTy).Contents (Elt F) → (⟨S1x128, .f32⟩ : BufTy).Contents (Elt F)),
    reshape main_v88 main_v89 rfl shapeCasts_S1x128_S128,
    unary main_arg14 main_v90 ((extractStridedSlice S1x128 ![0, 0] · slices_S3x128_S1x128_0_0) : (⟨S3x128, .f32⟩ : BufTy).Contents (Elt F) → (⟨S1x128, .f32⟩ : BufTy).Contents (Elt F)),
    reshape main_v90 main_v91 rfl shapeCasts_S1x128_S128,
    nullary main_cst_10 (constant S_ .f32 0x00000000#32),
    binary main_v87 main_cst_10 main_v92 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    nullary main_cst_11 (constant S_ .f32 0x471C4000#32),
    unary main_cst_11 main_v93 (broadcastInDim S128 ![] bcast_S_S128 : (⟨S_, .f32⟩ : BufTy).Contents (Elt F) → (⟨S128, .f32⟩ : BufTy).Contents (Elt F)),
    binary main_v92 main_v93 main_v94 (Host.divf : (⟨S128, .f32⟩ : BufTy).Contents (Elt F) → (⟨S128, .f32⟩ : BufTy).Contents (Elt F) → (⟨S128, .f32⟩ : BufTy).Contents (Elt F)),
    nullary main_c_12 (constantI S_ 32 0#32),
    TRef.nullary main_call3.cst (constant S_ .f32 0x00000000#32),
    TRef.binary (.of main_v87) main_call3.cst main_call3.v0 (fun x v => Host.reduceAdd x v reducesTo_S40000x128_S128_d0 h_S_),
    TRef.unary main_call3.v0 main_call3.v1 (broadcastInDim S1x128 ![1] bcast_S128_S1x128_1),
    TRef.nullary main_call3.cst_0 (constant S_ .f32 0x471C4000#32),
    TRef.unary main_call3.cst_0 main_call3.v2 (broadcastInDim S1x128 ![] bcast_S_S1x128),
    TRef.binary main_call3.v1 main_call3.v2 main_call3.v3 Host.divf,
    TRef.unary main_call3.v3 main_call3.v4 (broadcastInDim S40000x128 ![0, 1] bcast_S1x128_S40000x128_0_1),
    TRef.binary (.of main_v87) main_call3.v4 main_call3.v5 subf,
    TRef.binary main_call3.v5 main_call3.v5 main_call3.v6 mulf,
    TRef.unary (.of main_c_12) main_call3.v7 (sitofp .f32),
    TRef.nullary main_call3.cst_1 (constant S_ .f32 0x471C4000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S40000x128_S128_d0 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b),
    unary main_v94 main_v96 (broadcastInDim S1x128 ![1] bcast_S128_S1x128_1 : (⟨S128, .f32⟩ : BufTy).Contents (Elt F) → (⟨S1x128, .f32⟩ : BufTy).Contents (Elt F)),
    unary main_v96 main_v97 (broadcastInDim S40000x128 ![0, 1] bcast_S1x128_S40000x128_0_1 : (⟨S1x128, .f32⟩ : BufTy).Contents (Elt F) → (⟨S40000x128, .f32⟩ : BufTy).Contents (Elt F)),
    binary main_v87 main_v97 main_v98 (subf : (⟨S40000x128, .f32⟩ : BufTy).Contents (Elt F) → (⟨S40000x128, .f32⟩ : BufTy).Contents (Elt F) → (⟨S40000x128, .f32⟩ : BufTy).Contents (Elt F)),
    nullary main_cst_13 (constant S_ .f32 0x3727C5AC#32),
    unary main_cst_13 main_v99 (broadcastInDim S128 ![] bcast_S_S128 : (⟨S_, .f32⟩ : BufTy).Contents (Elt F) → (⟨S128, .f32⟩ : BufTy).Contents (Elt F)),
    binary main_v95 main_v99 main_v100 (addf : (⟨S128, .f32⟩ : BufTy).Contents (Elt F) → (⟨S128, .f32⟩ : BufTy).Contents (Elt F) → (⟨S128, .f32⟩ : BufTy).Contents (Elt F)),
    unary main_v100 main_v101 (Host.rsqrt : (⟨S128, .f32⟩ : BufTy).Contents (Elt F) → (⟨S128, .f32⟩ : BufTy).Contents (Elt F)),
    unary main_v101 main_v102 (broadcastInDim S1x128 ![1] bcast_S128_S1x128_1 : (⟨S128, .f32⟩ : BufTy).Contents (Elt F) → (⟨S1x128, .f32⟩ : BufTy).Contents (Elt F)),
    unary main_v102 main_v103 (broadcastInDim S40000x128 ![0, 1] bcast_S1x128_S40000x128_0_1 : (⟨S1x128, .f32⟩ : BufTy).Contents (Elt F) → (⟨S40000x128, .f32⟩ : BufTy).Contents (Elt F)) ]

/-- The operations of window `main_part2`, calls inlined: operations 186 … 289 of @main's. -/
abbrev ops2 : List (HloOp τ sig (Elt F)) :=
  [ binary main_v98 main_v103 main_v104 (mulf : (⟨S40000x128, .f32⟩ : BufTy).Contents (Elt F) → (⟨S40000x128, .f32⟩ : BufTy).Contents (Elt F) → (⟨S40000x128, .f32⟩ : BufTy).Contents (Elt F)),
    unary main_v89 main_v105 (broadcastInDim S1x128 ![1] bcast_S128_S1x128_1 : (⟨S128, .f32⟩ : BufTy).Contents (Elt F) → (⟨S1x128, .f32⟩ : BufTy).Contents (Elt F)),
    unary main_v105 main_v106 (broadcastInDim S40000x128 ![0, 1] bcast_S1x128_S40000x128_0_1 : (⟨S1x128, .f32⟩ : BufTy).Contents (Elt F) → (⟨S40000x128, .f32⟩ : BufTy).Contents (Elt F)),
    binary main_v104 main_v106 main_v107 (mulf : (⟨S40000x128, .f32⟩ : BufTy).Contents (Elt F) → (⟨S40000x128, .f32⟩ : BufTy).Contents (Elt F) → (⟨S40000x128, .f32⟩ : BufTy).Contents (Elt F)),
    unary main_v91 main_v108 (broadcastInDim S1x128 ![1] bcast_S128_S1x128_1 : (⟨S128, .f32⟩ : BufTy).Contents (Elt F) → (⟨S1x128, .f32⟩ : BufTy).Contents (Elt F)),
    unary main_v108 main_v109 (broadcastInDim S40000x128 ![0, 1] bcast_S1x128_S40000x128_0_1 : (⟨S1x128, .f32⟩ : BufTy).Contents (Elt F) → (⟨S40000x128, .f32⟩ : BufTy).Contents (Elt F)),
    binary main_v107 main_v109 main_v110 (addf : (⟨S40000x128, .f32⟩ : BufTy).Contents (Elt F) → (⟨S40000x128, .f32⟩ : BufTy).Contents (Elt F) → (⟨S40000x128, .f32⟩ : BufTy).Contents (Elt F)),
    unary main_arg17 main_v111 ((extractStridedSlice S1x128 ![0, 0] · slices_S3x128_S1x128_0_0) : (⟨S3x128, .f32⟩ : BufTy).Contents (Elt F) → (⟨S1x128, .f32⟩ : BufTy).Contents (Elt F)),
    reshape main_v111 main_v112 rfl shapeCasts_S1x128_S128,
    unary main_arg18 main_v113 ((extractStridedSlice S1x128 ![0, 0] · slices_S3x128_S1x128_0_0) : (⟨S3x128, .f32⟩ : BufTy).Contents (Elt F) → (⟨S1x128, .f32⟩ : BufTy).Contents (Elt F)),
    reshape main_v113 main_v114 rfl shapeCasts_S1x128_S128,
    nullary main_cst_14 (constant S_ .f32 0x00000000#32),
    binary main_v79 main_cst_14 main_v115 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    nullary main_cst_15 (constant S_ .f32 0x471C4000#32),
    unary main_cst_15 main_v116 (broadcastInDim S128 ![] bcast_S_S128 : (⟨S_, .f32⟩ : BufTy).Contents (Elt F) → (⟨S128, .f32⟩ : BufTy).Contents (Elt F)),
    binary main_v115 main_v116 main_v117 (Host.divf : (⟨S128, .f32⟩ : BufTy).Contents (Elt F) → (⟨S128, .f32⟩ : BufTy).Contents (Elt F) → (⟨S128, .f32⟩ : BufTy).Contents (Elt F)),
    nullary main_c_16 (constantI S_ 32 0#32),
    TRef.nullary main_call4.cst (constant S_ .f32 0x00000000#32),
    TRef.binary (.of main_v79) main_call4.cst main_call4.v0 (fun x v => Host.reduceAdd x v reducesTo_S40000x128_S128_d0 h_S_),
    TRef.unary main_call4.v0 main_call4.v1 (broadcastInDim S1x128 ![1] bcast_S128_S1x128_1),
    TRef.nullary main_call4.cst_0 (constant S_ .f32 0x471C4000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S40000x128 ![0, 1] bcast_S1x128_S40000x128_0_1),
    TRef.binary (.of main_v79) main_call4.v4 main_call4.v5 subf,
    TRef.binary main_call4.v5 main_call4.v5 main_call4.v6 mulf,
    TRef.unary (.of main_c_16) main_call4.v7 (sitofp .f32),
    TRef.nullary main_call4.cst_1 (constant S_ .f32 0x471C4000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S40000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v117 main_v119 (broadcastInDim S1x128 ![1] bcast_S128_S1x128_1 : (⟨S128, .f32⟩ : BufTy).Contents (Elt F) → (⟨S1x128, .f32⟩ : BufTy).Contents (Elt F)),
    unary main_v119 main_v120 (broadcastInDim S40000x128 ![0, 1] bcast_S1x128_S40000x128_0_1 : (⟨S1x128, .f32⟩ : BufTy).Contents (Elt F) → (⟨S40000x128, .f32⟩ : BufTy).Contents (Elt F)),
    binary main_v79 main_v120 main_v121 (subf : (⟨S40000x128, .f32⟩ : BufTy).Contents (Elt F) → (⟨S40000x128, .f32⟩ : BufTy).Contents (Elt F) → (⟨S40000x128, .f32⟩ : BufTy).Contents (Elt F)),
    nullary main_cst_17 (constant S_ .f32 0x3727C5AC#32),
    unary main_cst_17 main_v122 (broadcastInDim S128 ![] bcast_S_S128 : (⟨S_, .f32⟩ : BufTy).Contents (Elt F) → (⟨S128, .f32⟩ : BufTy).Contents (Elt F)),
    binary main_v118 main_v122 main_v123 (addf : (⟨S128, .f32⟩ : BufTy).Contents (Elt F) → (⟨S128, .f32⟩ : BufTy).Contents (Elt F) → (⟨S128, .f32⟩ : BufTy).Contents (Elt F)),
    unary main_v123 main_v124 (Host.rsqrt : (⟨S128, .f32⟩ : BufTy).Contents (Elt F) → (⟨S128, .f32⟩ : BufTy).Contents (Elt F)),
    unary main_v124 main_v125 (broadcastInDim S1x128 ![1] bcast_S128_S1x128_1 : (⟨S128, .f32⟩ : BufTy).Contents (Elt F) → (⟨S1x128, .f32⟩ : BufTy).Contents (Elt F)),
    unary main_v125 main_v126 (broadcastInDim S40000x128 ![0, 1] bcast_S1x128_S40000x128_0_1 : (⟨S1x128, .f32⟩ : BufTy).Contents (Elt F) → (⟨S40000x128, .f32⟩ : BufTy).Contents (Elt F)),
    binary main_v121 main_v126 main_v127 (mulf : (⟨S40000x128, .f32⟩ : BufTy).Contents (Elt F) → (⟨S40000x128, .f32⟩ : BufTy).Contents (Elt F) → (⟨S40000x128, .f32⟩ : BufTy).Contents (Elt F)),
    unary main_v112 main_v128 (broadcastInDim S1x128 ![1] bcast_S128_S1x128_1 : (⟨S128, .f32⟩ : BufTy).Contents (Elt F) → (⟨S1x128, .f32⟩ : BufTy).Contents (Elt F)),
    unary main_v128 main_v129 (broadcastInDim S40000x128 ![0, 1] bcast_S1x128_S40000x128_0_1 : (⟨S1x128, .f32⟩ : BufTy).Contents (Elt F) → (⟨S40000x128, .f32⟩ : BufTy).Contents (Elt F)),
    binary main_v127 main_v129 main_v130 (mulf : (⟨S40000x128, .f32⟩ : BufTy).Contents (Elt F) → (⟨S40000x128, .f32⟩ : BufTy).Contents (Elt F) → (⟨S40000x128, .f32⟩ : BufTy).Contents (Elt F)),
    unary main_v114 main_v131 (broadcastInDim S1x128 ![1] bcast_S128_S1x128_1 : (⟨S128, .f32⟩ : BufTy).Contents (Elt F) → (⟨S1x128, .f32⟩ : BufTy).Contents (Elt F)),
    unary main_v131 main_v132 (broadcastInDim S40000x128 ![0, 1] bcast_S1x128_S40000x128_0_1 : (⟨S1x128, .f32⟩ : BufTy).Contents (Elt F) → (⟨S40000x128, .f32⟩ : BufTy).Contents (Elt F)),
    binary main_v130 main_v132 main_v133 (addf : (⟨S40000x128, .f32⟩ : BufTy).Contents (Elt F) → (⟨S40000x128, .f32⟩ : BufTy).Contents (Elt F) → (⟨S40000x128, .f32⟩ : BufTy).Contents (Elt F)),
    binary main_v110 main_v133 main_v134 (addf : (⟨S40000x128, .f32⟩ : BufTy).Contents (Elt F) → (⟨S40000x128, .f32⟩ : BufTy).Contents (Elt F) → (⟨S40000x128, .f32⟩ : BufTy).Contents (Elt F)),
    binary main_v134 main_v61 main_v135 (addf : (⟨S40000x128, .f32⟩ : BufTy).Contents (Elt F) → (⟨S40000x128, .f32⟩ : BufTy).Contents (Elt F) → (⟨S40000x128, .f32⟩ : BufTy).Contents (Elt F)),
    TRef.nullary main_call5.cst (constant S_ .f32 0x00000000#32),
    TRef.unary main_call5.cst main_call5.v0 (broadcastInDim S40000x128 ![] bcast_S_S40000x128),
    TRef.binary (.of main_v135) main_call5.v0 main_call5.v1 maximumf,
    unary main_arg19 main_v137 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v137 main_v138 rfl shapeCasts_S1x128x128_S128x128,
    binary main_v136 main_v138 main_v139 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg20 main_v140 ((extractStridedSlice S1x128 ![0, 0] · slices_S3x128_S1x128_0_0) : (⟨S3x128, .f32⟩ : BufTy).Contents (Elt F) → (⟨S1x128, .f32⟩ : BufTy).Contents (Elt F)),
    reshape main_v140 main_v141 rfl shapeCasts_S1x128_S128,
    unary main_v141 main_v142 (broadcastInDim S1x128 ![1] bcast_S128_S1x128_1 : (⟨S128, .f32⟩ : BufTy).Contents (Elt F) → (⟨S1x128, .f32⟩ : BufTy).Contents (Elt F)),
    unary main_v142 main_v143 (broadcastInDim S40000x128 ![0, 1] bcast_S1x128_S40000x128_0_1 : (⟨S1x128, .f32⟩ : BufTy).Contents (Elt F) → (⟨S40000x128, .f32⟩ : BufTy).Contents (Elt F)),
    binary main_v139 main_v143 main_v144 (addf : (⟨S40000x128, .f32⟩ : BufTy).Contents (Elt F) → (⟨S40000x128, .f32⟩ : BufTy).Contents (Elt F) → (⟨S40000x128, .f32⟩ : BufTy).Contents (Elt F)),
    unary main_arg21 main_v145 ((extractStridedSlice S1x128 ![0, 0] · slices_S3x128_S1x128_0_0) : (⟨S3x128, .f32⟩ : BufTy).Contents (Elt F) → (⟨S1x128, .f32⟩ : BufTy).Contents (Elt F)),
    reshape main_v145 main_v146 rfl shapeCasts_S1x128_S128,
    unary main_arg22 main_v147 ((extractStridedSlice S1x128 ![0, 0] · slices_S3x128_S1x128_0_0) : (⟨S3x128, .f32⟩ : BufTy).Contents (Elt F) → (⟨S1x128, .f32⟩ : BufTy).Contents (Elt F)),
    reshape main_v147 main_v148 rfl shapeCasts_S1x128_S128,
    nullary main_cst_18 (constant S_ .f32 0x00000000#32),
    binary main_v144 main_cst_18 main_v149 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    nullary main_cst_19 (constant S_ .f32 0x471C4000#32),
    unary main_cst_19 main_v150 (broadcastInDim S128 ![] bcast_S_S128 : (⟨S_, .f32⟩ : BufTy).Contents (Elt F) → (⟨S128, .f32⟩ : BufTy).Contents (Elt F)),
    binary main_v149 main_v150 main_v151 (Host.divf : (⟨S128, .f32⟩ : BufTy).Contents (Elt F) → (⟨S128, .f32⟩ : BufTy).Contents (Elt F) → (⟨S128, .f32⟩ : BufTy).Contents (Elt F)),
    nullary main_c_20 (constantI S_ 32 0#32),
    TRef.nullary main_call6.cst (constant S_ .f32 0x00000000#32),
    TRef.binary (.of main_v144) main_call6.cst main_call6.v0 (fun x v => Host.reduceAdd x v reducesTo_S40000x128_S128_d0 h_S_),
    TRef.unary main_call6.v0 main_call6.v1 (broadcastInDim S1x128 ![1] bcast_S128_S1x128_1),
    TRef.nullary main_call6.cst_0 (constant S_ .f32 0x471C4000#32),
    TRef.unary main_call6.cst_0 main_call6.v2 (broadcastInDim S1x128 ![] bcast_S_S1x128),
    TRef.binary main_call6.v1 main_call6.v2 main_call6.v3 Host.divf,
    TRef.unary main_call6.v3 main_call6.v4 (broadcastInDim S40000x128 ![0, 1] bcast_S1x128_S40000x128_0_1),
    TRef.binary (.of main_v144) main_call6.v4 main_call6.v5 subf,
    TRef.binary main_call6.v5 main_call6.v5 main_call6.v6 mulf,
    TRef.unary (.of main_c_20) main_call6.v7 (sitofp .f32),
    TRef.nullary main_call6.cst_1 (constant S_ .f32 0x471C4000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S40000x128_S128_d0 h_S_),
    TRef.unary main_call6.v8 main_call6.v10 (broadcastInDim S128 ![] bcast_S_S128),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S128 ![] bcast_S_S128),
    TRef.ternary main_call6.v12 main_call6.v11 main_call6.call0.v1 main_call6.call0.v2 (fun p a b => select (broadcastInDim S128 ![] bcast_S_S128 p) a b),
    unary main_v151 main_v153 (broadcastInDim S1x128 ![1] bcast_S128_S1x128_1 : (⟨S128, .f32⟩ : BufTy).Contents (Elt F) → (⟨S1x128, .f32⟩ : BufTy).Contents (Elt F)),
    unary main_v153 main_v154 (broadcastInDim S40000x128 ![0, 1] bcast_S1x128_S40000x128_0_1 : (⟨S1x128, .f32⟩ : BufTy).Contents (Elt F) → (⟨S40000x128, .f32⟩ : BufTy).Contents (Elt F)),
    binary main_v144 main_v154 main_v155 (subf : (⟨S40000x128, .f32⟩ : BufTy).Contents (Elt F) → (⟨S40000x128, .f32⟩ : BufTy).Contents (Elt F) → (⟨S40000x128, .f32⟩ : BufTy).Contents (Elt F)),
    nullary main_cst_21 (constant S_ .f32 0x3727C5AC#32) ]

/-- The operations of window `main_part3`, calls inlined: operations 290 … 374 of @main's. -/
abbrev ops3 : List (HloOp τ sig (Elt F)) :=
  [ unary main_cst_21 main_v156 (broadcastInDim S128 ![] bcast_S_S128 : (⟨S_, .f32⟩ : BufTy).Contents (Elt F) → (⟨S128, .f32⟩ : BufTy).Contents (Elt F)),
    binary main_v152 main_v156 main_v157 (addf : (⟨S128, .f32⟩ : BufTy).Contents (Elt F) → (⟨S128, .f32⟩ : BufTy).Contents (Elt F) → (⟨S128, .f32⟩ : BufTy).Contents (Elt F)),
    unary main_v157 main_v158 (Host.rsqrt : (⟨S128, .f32⟩ : BufTy).Contents (Elt F) → (⟨S128, .f32⟩ : BufTy).Contents (Elt F)),
    unary main_v158 main_v159 (broadcastInDim S1x128 ![1] bcast_S128_S1x128_1 : (⟨S128, .f32⟩ : BufTy).Contents (Elt F) → (⟨S1x128, .f32⟩ : BufTy).Contents (Elt F)),
    unary main_v159 main_v160 (broadcastInDim S40000x128 ![0, 1] bcast_S1x128_S40000x128_0_1 : (⟨S1x128, .f32⟩ : BufTy).Contents (Elt F) → (⟨S40000x128, .f32⟩ : BufTy).Contents (Elt F)),
    binary main_v155 main_v160 main_v161 (mulf : (⟨S40000x128, .f32⟩ : BufTy).Contents (Elt F) → (⟨S40000x128, .f32⟩ : BufTy).Contents (Elt F) → (⟨S40000x128, .f32⟩ : BufTy).Contents (Elt F)),
    unary main_v146 main_v162 (broadcastInDim S1x128 ![1] bcast_S128_S1x128_1 : (⟨S128, .f32⟩ : BufTy).Contents (Elt F) → (⟨S1x128, .f32⟩ : BufTy).Contents (Elt F)),
    unary main_v162 main_v163 (broadcastInDim S40000x128 ![0, 1] bcast_S1x128_S40000x128_0_1 : (⟨S1x128, .f32⟩ : BufTy).Contents (Elt F) → (⟨S40000x128, .f32⟩ : BufTy).Contents (Elt F)),
    binary main_v161 main_v163 main_v164 (mulf : (⟨S40000x128, .f32⟩ : BufTy).Contents (Elt F) → (⟨S40000x128, .f32⟩ : BufTy).Contents (Elt F) → (⟨S40000x128, .f32⟩ : BufTy).Contents (Elt F)),
    unary main_v148 main_v165 (broadcastInDim S1x128 ![1] bcast_S128_S1x128_1 : (⟨S128, .f32⟩ : BufTy).Contents (Elt F) → (⟨S1x128, .f32⟩ : BufTy).Contents (Elt F)),
    unary main_v165 main_v166 (broadcastInDim S40000x128 ![0, 1] bcast_S1x128_S40000x128_0_1 : (⟨S1x128, .f32⟩ : BufTy).Contents (Elt F) → (⟨S40000x128, .f32⟩ : BufTy).Contents (Elt F)),
    binary main_v164 main_v166 main_v167 (addf : (⟨S40000x128, .f32⟩ : BufTy).Contents (Elt F) → (⟨S40000x128, .f32⟩ : BufTy).Contents (Elt F) → (⟨S40000x128, .f32⟩ : BufTy).Contents (Elt F)),
    TRef.nullary main_call7.cst (constant S_ .f32 0x00000000#32),
    TRef.unary main_call7.cst main_call7.v0 (broadcastInDim S40000x128 ![] bcast_S_S40000x128),
    TRef.binary (.of main_v167) main_call7.v0 main_call7.v1 maximumf,
    unary main_arg23 main_v169 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v169 main_v170 rfl shapeCasts_S1x128x128_S128x128,
    binary main_v168 main_v170 main_v171 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg24 main_v172 ((extractStridedSlice S1x128 ![0, 0] · slices_S3x128_S1x128_0_0) : (⟨S3x128, .f32⟩ : BufTy).Contents (Elt F) → (⟨S1x128, .f32⟩ : BufTy).Contents (Elt F)),
    reshape main_v172 main_v173 rfl shapeCasts_S1x128_S128,
    unary main_v173 main_v174 (broadcastInDim S1x128 ![1] bcast_S128_S1x128_1 : (⟨S128, .f32⟩ : BufTy).Contents (Elt F) → (⟨S1x128, .f32⟩ : BufTy).Contents (Elt F)),
    unary main_v174 main_v175 (broadcastInDim S40000x128 ![0, 1] bcast_S1x128_S40000x128_0_1 : (⟨S1x128, .f32⟩ : BufTy).Contents (Elt F) → (⟨S40000x128, .f32⟩ : BufTy).Contents (Elt F)),
    binary main_v171 main_v175 main_v176 (addf : (⟨S40000x128, .f32⟩ : BufTy).Contents (Elt F) → (⟨S40000x128, .f32⟩ : BufTy).Contents (Elt F) → (⟨S40000x128, .f32⟩ : BufTy).Contents (Elt F)),
    unary main_arg25 main_v177 ((extractStridedSlice S1x128 ![0, 0] · slices_S3x128_S1x128_0_0) : (⟨S3x128, .f32⟩ : BufTy).Contents (Elt F) → (⟨S1x128, .f32⟩ : BufTy).Contents (Elt F)),
    reshape main_v177 main_v178 rfl shapeCasts_S1x128_S128,
    unary main_arg26 main_v179 ((extractStridedSlice S1x128 ![0, 0] · slices_S3x128_S1x128_0_0) : (⟨S3x128, .f32⟩ : BufTy).Contents (Elt F) → (⟨S1x128, .f32⟩ : BufTy).Contents (Elt F)),
    reshape main_v179 main_v180 rfl shapeCasts_S1x128_S128,
    nullary main_cst_22 (constant S_ .f32 0x00000000#32),
    binary main_v176 main_cst_22 main_v181 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    nullary main_cst_23 (constant S_ .f32 0x471C4000#32),
    unary main_cst_23 main_v182 (broadcastInDim S128 ![] bcast_S_S128 : (⟨S_, .f32⟩ : BufTy).Contents (Elt F) → (⟨S128, .f32⟩ : BufTy).Contents (Elt F)),
    binary main_v181 main_v182 main_v183 (Host.divf : (⟨S128, .f32⟩ : BufTy).Contents (Elt F) → (⟨S128, .f32⟩ : BufTy).Contents (Elt F) → (⟨S128, .f32⟩ : BufTy).Contents (Elt F)),
    nullary main_c_24 (constantI S_ 32 0#32),
    TRef.nullary main_call8.cst (constant S_ .f32 0x00000000#32),
    TRef.binary (.of main_v176) main_call8.cst main_call8.v0 (fun x v => Host.reduceAdd x v reducesTo_S40000x128_S128_d0 h_S_),
    TRef.unary main_call8.v0 main_call8.v1 (broadcastInDim S1x128 ![1] bcast_S128_S1x128_1),
    TRef.nullary main_call8.cst_0 (constant S_ .f32 0x471C4000#32),
    TRef.unary main_call8.cst_0 main_call8.v2 (broadcastInDim S1x128 ![] bcast_S_S1x128),
    TRef.binary main_call8.v1 main_call8.v2 main_call8.v3 Host.divf,
    TRef.unary main_call8.v3 main_call8.v4 (broadcastInDim S40000x128 ![0, 1] bcast_S1x128_S40000x128_0_1),
    TRef.binary (.of main_v176) main_call8.v4 main_call8.v5 subf,
    TRef.binary main_call8.v5 main_call8.v5 main_call8.v6 mulf,
    TRef.unary (.of main_c_24) main_call8.v7 (sitofp .f32),
    TRef.nullary main_call8.cst_1 (constant S_ .f32 0x471C4000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S40000x128_S128_d0 h_S_),
    TRef.unary main_call8.v8 main_call8.v10 (broadcastInDim S128 ![] bcast_S_S128),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S128 ![] bcast_S_S128),
    TRef.ternary main_call8.v12 main_call8.v11 main_call8.call0.v1 main_call8.call0.v2 (fun p a b => select (broadcastInDim S128 ![] bcast_S_S128 p) a b),
    unary main_v183 main_v185 (broadcastInDim S1x128 ![1] bcast_S128_S1x128_1 : (⟨S128, .f32⟩ : BufTy).Contents (Elt F) → (⟨S1x128, .f32⟩ : BufTy).Contents (Elt F)),
    unary main_v185 main_v186 (broadcastInDim S40000x128 ![0, 1] bcast_S1x128_S40000x128_0_1 : (⟨S1x128, .f32⟩ : BufTy).Contents (Elt F) → (⟨S40000x128, .f32⟩ : BufTy).Contents (Elt F)),
    binary main_v176 main_v186 main_v187 (subf : (⟨S40000x128, .f32⟩ : BufTy).Contents (Elt F) → (⟨S40000x128, .f32⟩ : BufTy).Contents (Elt F) → (⟨S40000x128, .f32⟩ : BufTy).Contents (Elt F)),
    nullary main_cst_25 (constant S_ .f32 0x3727C5AC#32),
    unary main_cst_25 main_v188 (broadcastInDim S128 ![] bcast_S_S128 : (⟨S_, .f32⟩ : BufTy).Contents (Elt F) → (⟨S128, .f32⟩ : BufTy).Contents (Elt F)),
    binary main_v184 main_v188 main_v189 (addf : (⟨S128, .f32⟩ : BufTy).Contents (Elt F) → (⟨S128, .f32⟩ : BufTy).Contents (Elt F) → (⟨S128, .f32⟩ : BufTy).Contents (Elt F)),
    unary main_v189 main_v190 (Host.rsqrt : (⟨S128, .f32⟩ : BufTy).Contents (Elt F) → (⟨S128, .f32⟩ : BufTy).Contents (Elt F)),
    unary main_v190 main_v191 (broadcastInDim S1x128 ![1] bcast_S128_S1x128_1 : (⟨S128, .f32⟩ : BufTy).Contents (Elt F) → (⟨S1x128, .f32⟩ : BufTy).Contents (Elt F)),
    unary main_v191 main_v192 (broadcastInDim S40000x128 ![0, 1] bcast_S1x128_S40000x128_0_1 : (⟨S1x128, .f32⟩ : BufTy).Contents (Elt F) → (⟨S40000x128, .f32⟩ : BufTy).Contents (Elt F)),
    binary main_v187 main_v192 main_v193 (mulf : (⟨S40000x128, .f32⟩ : BufTy).Contents (Elt F) → (⟨S40000x128, .f32⟩ : BufTy).Contents (Elt F) → (⟨S40000x128, .f32⟩ : BufTy).Contents (Elt F)),
    unary main_v178 main_v194 (broadcastInDim S1x128 ![1] bcast_S128_S1x128_1 : (⟨S128, .f32⟩ : BufTy).Contents (Elt F) → (⟨S1x128, .f32⟩ : BufTy).Contents (Elt F)),
    unary main_v194 main_v195 (broadcastInDim S40000x128 ![0, 1] bcast_S1x128_S40000x128_0_1 : (⟨S1x128, .f32⟩ : BufTy).Contents (Elt F) → (⟨S40000x128, .f32⟩ : BufTy).Contents (Elt F)),
    binary main_v193 main_v195 main_v196 (mulf : (⟨S40000x128, .f32⟩ : BufTy).Contents (Elt F) → (⟨S40000x128, .f32⟩ : BufTy).Contents (Elt F) → (⟨S40000x128, .f32⟩ : BufTy).Contents (Elt F)),
    unary main_v180 main_v197 (broadcastInDim S1x128 ![1] bcast_S128_S1x128_1 : (⟨S128, .f32⟩ : BufTy).Contents (Elt F) → (⟨S1x128, .f32⟩ : BufTy).Contents (Elt F)),
    unary main_v197 main_v198 (broadcastInDim S40000x128 ![0, 1] bcast_S1x128_S40000x128_0_1 : (⟨S1x128, .f32⟩ : BufTy).Contents (Elt F) → (⟨S40000x128, .f32⟩ : BufTy).Contents (Elt F)),
    binary main_v196 main_v198 main_v199 (addf : (⟨S40000x128, .f32⟩ : BufTy).Contents (Elt F) → (⟨S40000x128, .f32⟩ : BufTy).Contents (Elt F) → (⟨S40000x128, .f32⟩ : BufTy).Contents (Elt F)),
    TRef.nullary main_call9.cst (constant S_ .f32 0x00000000#32),
    TRef.unary main_call9.cst main_call9.v0 (broadcastInDim S40000x128 ![] bcast_S_S40000x128),
    TRef.binary (.of main_v199) main_call9.v0 main_call9.v1 maximumf,
    unary main_arg9 main_v201 ((extractStridedSlice S1x1x128 ![1, 0, 0] · slices_S3x1x128_S1x1x128_1_0_0) : (⟨S3x1x128, .f32⟩ : BufTy).Contents (Elt F) → (⟨S1x1x128, .f32⟩ : BufTy).Contents (Elt F)),
    reshape main_v201 main_v202 rfl shapeCasts_S1x1x128_S1x128,
    binary main_arg2 main_v202 main_v203 ((fun l r => Host.dotGeneral dot_S640000x1_S1x128_S640000x128_1_0_0_1_n_n none l r) : (⟨S640000x1, .f32⟩ : BufTy).Contents (Elt F) → (⟨S1x128, .f32⟩ : BufTy).Contents (Elt F) → (⟨S640000x128, .f32⟩ : BufTy).Contents (Elt F)),
    unary main_arg10 main_v204 ((extractStridedSlice S1x128 ![1, 0] · slices_S3x128_S1x128_1_0) : (⟨S3x128, .f32⟩ : BufTy).Contents (Elt F) → (⟨S1x128, .f32⟩ : BufTy).Contents (Elt F)),
    reshape main_v204 main_v205 rfl shapeCasts_S1x128_S128,
    unary main_v205 main_v206 (broadcastInDim S1x128 ![1] bcast_S128_S1x128_1 : (⟨S128, .f32⟩ : BufTy).Contents (Elt F) → (⟨S1x128, .f32⟩ : BufTy).Contents (Elt F)),
    unary main_v206 main_v207 (broadcastInDim S640000x128 ![0, 1] bcast_S1x128_S640000x128_0_1 : (⟨S1x128, .f32⟩ : BufTy).Contents (Elt F) → (⟨S640000x128, .f32⟩ : BufTy).Contents (Elt F)),
    binary main_v203 main_v207 main_v208 (addf : (⟨S640000x128, .f32⟩ : BufTy).Contents (Elt F) → (⟨S640000x128, .f32⟩ : BufTy).Contents (Elt F) → (⟨S640000x128, .f32⟩ : BufTy).Contents (Elt F)),
    nullary main_cst_26 (constant S_ .f32 0x00000000#32),
    unary main_cst_26 main_v209 (broadcastInDim S40000x128 ![] bcast_S_S40000x128 : (⟨S_, .f32⟩ : BufTy).Contents (Elt F) → (⟨S40000x128, .f32⟩ : BufTy).Contents (Elt F)),
    unary main_v1 main_v210 (broadcastInDim S640000x1 ![0] bcast_S640000_S640000x1_0 : (⟨S640000, .i32⟩ : BufTy).Contents (Elt F) → (⟨S640000x1, .i32⟩ : BufTy).Contents (Elt F)) ]

/-- The operations of window `main_part4`, calls inlined: operations 375 … 455 of @main's. -/
abbrev ops4 : List (HloOp τ sig (Elt F)) :=
  [ ternary main_v209 main_v210 main_v208 main_v211 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    unary main_arg15 main_v212 ((extractStridedSlice S1x128 ![1, 0] · slices_S3x128_S1x128_1_0) : (⟨S3x128, .f32⟩ : BufTy).Contents (Elt F) → (⟨S1x128, .f32⟩ : BufTy).Contents (Elt F)),
    reshape main_v212 main_v213 rfl shapeCasts_S1x128_S128,
    unary main_arg16 main_v214 ((extractStridedSlice S1x128 ![1, 0] · slices_S3x128_S1x128_1_0) : (⟨S3x128, .f32⟩ : BufTy).Contents (Elt F) → (⟨S1x128, .f32⟩ : BufTy).Contents (Elt F)),
    reshape main_v214 main_v215 rfl shapeCasts_S1x128_S128,
    nullary main_cst_27 (constant S_ .f32 0x00000000#32),
    binary main_v211 main_cst_27 main_v216 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    nullary main_cst_28 (constant S_ .f32 0x471C4000#32),
    unary main_cst_28 main_v217 (broadcastInDim S128 ![] bcast_S_S128 : (⟨S_, .f32⟩ : BufTy).Contents (Elt F) → (⟨S128, .f32⟩ : BufTy).Contents (Elt F)),
    binary main_v216 main_v217 main_v218 (Host.divf : (⟨S128, .f32⟩ : BufTy).Contents (Elt F) → (⟨S128, .f32⟩ : BufTy).Contents (Elt F) → (⟨S128, .f32⟩ : BufTy).Contents (Elt F)),
    nullary main_c_29 (constantI S_ 32 0#32),
    TRef.nullary main_call10.cst (constant S_ .f32 0x00000000#32),
    TRef.binary (.of main_v211) main_call10.cst main_call10.v0 (fun x v => Host.reduceAdd x v reducesTo_S40000x128_S128_d0 h_S_),
    TRef.unary main_call10.v0 main_call10.v1 (broadcastInDim S1x128 ![1] bcast_S128_S1x128_1),
    TRef.nullary main_call10.cst_0 (constant S_ .f32 0x471C4000#32),
    TRef.unary main_call10.cst_0 main_call10.v2 (broadcastInDim S1x128 ![] bcast_S_S1x128),
    TRef.binary main_call10.v1 main_call10.v2 main_call10.v3 Host.divf,
    TRef.unary main_call10.v3 main_call10.v4 (broadcastInDim S40000x128 ![0, 1] bcast_S1x128_S40000x128_0_1),
    TRef.binary (.of main_v211) main_call10.v4 main_call10.v5 subf,
    TRef.binary main_call10.v5 main_call10.v5 main_call10.v6 mulf,
    TRef.unary (.of main_c_29) main_call10.v7 (sitofp .f32),
    TRef.nullary main_call10.cst_1 (constant S_ .f32 0x471C4000#32),
    TRef.binary main_call10.cst_1 main_call10.v7 main_call10.v8 subf,
    TRef.nullary main_call10.cst_2 (constant S_ .f32 0x00000000#32),
    TRef.binary main_call10.v6 main_call10.cst_2 main_call10.v9 (fun x v => Host.reduceAdd x v reducesTo_S40000x128_S128_d0 h_S_),
    TRef.unary main_call10.v8 main_call10.v10 (broadcastInDim S128 ![] bcast_S_S128),
    TRef.binary main_call10.v9 main_call10.v10 main_call10.v11 Host.divf,
    TRef.nullary main_call10.cst_3 (constant S_ .f32 0x00000000#32),
    TRef.binary main_call10.v8 main_call10.cst_3 main_call10.v12 (cmpf .ogt),
    TRef.nullary main_call10.cst_4 (constant S_ .f32 0x7FC00000#32),
    TRef.unary main_call10.cst_4 main_call10.call0.v0 id,
    TRef.unary main_call10.call0.v0 main_call10.call0.v1 (broadcastInDim S128 ![] bcast_S_S128),
    TRef.ternary main_call10.v12 main_call10.v11 main_call10.call0.v1 main_call10.call0.v2 (fun p a b => select (broadcastInDim S128 ![] bcast_S_S128 p) a b),
    unary main_v218 main_v220 (broadcastInDim S1x128 ![1] bcast_S128_S1x128_1 : (⟨S128, .f32⟩ : BufTy).Contents (Elt F) → (⟨S1x128, .f32⟩ : BufTy).Contents (Elt F)),
    unary main_v220 main_v221 (broadcastInDim S40000x128 ![0, 1] bcast_S1x128_S40000x128_0_1 : (⟨S1x128, .f32⟩ : BufTy).Contents (Elt F) → (⟨S40000x128, .f32⟩ : BufTy).Contents (Elt F)),
    binary main_v211 main_v221 main_v222 (subf : (⟨S40000x128, .f32⟩ : BufTy).Contents (Elt F) → (⟨S40000x128, .f32⟩ : BufTy).Contents (Elt F) → (⟨S40000x128, .f32⟩ : BufTy).Contents (Elt F)),
    nullary main_cst_30 (constant S_ .f32 0x3727C5AC#32),
    unary main_cst_30 main_v223 (broadcastInDim S128 ![] bcast_S_S128 : (⟨S_, .f32⟩ : BufTy).Contents (Elt F) → (⟨S128, .f32⟩ : BufTy).Contents (Elt F)),
    binary main_v219 main_v223 main_v224 (addf : (⟨S128, .f32⟩ : BufTy).Contents (Elt F) → (⟨S128, .f32⟩ : BufTy).Contents (Elt F) → (⟨S128, .f32⟩ : BufTy).Contents (Elt F)),
    unary main_v224 main_v225 (Host.rsqrt : (⟨S128, .f32⟩ : BufTy).Contents (Elt F) → (⟨S128, .f32⟩ : BufTy).Contents (Elt F)),
    unary main_v225 main_v226 (broadcastInDim S1x128 ![1] bcast_S128_S1x128_1 : (⟨S128, .f32⟩ : BufTy).Contents (Elt F) → (⟨S1x128, .f32⟩ : BufTy).Contents (Elt F)),
    unary main_v226 main_v227 (broadcastInDim S40000x128 ![0, 1] bcast_S1x128_S40000x128_0_1 : (⟨S1x128, .f32⟩ : BufTy).Contents (Elt F) → (⟨S40000x128, .f32⟩ : BufTy).Contents (Elt F)),
    binary main_v222 main_v227 main_v228 (mulf : (⟨S40000x128, .f32⟩ : BufTy).Contents (Elt F) → (⟨S40000x128, .f32⟩ : BufTy).Contents (Elt F) → (⟨S40000x128, .f32⟩ : BufTy).Contents (Elt F)),
    unary main_v213 main_v229 (broadcastInDim S1x128 ![1] bcast_S128_S1x128_1 : (⟨S128, .f32⟩ : BufTy).Contents (Elt F) → (⟨S1x128, .f32⟩ : BufTy).Contents (Elt F)),
    unary main_v229 main_v230 (broadcastInDim S40000x128 ![0, 1] bcast_S1x128_S40000x128_0_1 : (⟨S1x128, .f32⟩ : BufTy).Contents (Elt F) → (⟨S40000x128, .f32⟩ : BufTy).Contents (Elt F)),
    binary main_v228 main_v230 main_v231 (mulf : (⟨S40000x128, .f32⟩ : BufTy).Contents (Elt F) → (⟨S40000x128, .f32⟩ : BufTy).Contents (Elt F) → (⟨S40000x128, .f32⟩ : BufTy).Contents (Elt F)),
    unary main_v215 main_v232 (broadcastInDim S1x128 ![1] bcast_S128_S1x128_1 : (⟨S128, .f32⟩ : BufTy).Contents (Elt F) → (⟨S1x128, .f32⟩ : BufTy).Contents (Elt F)),
    unary main_v232 main_v233 (broadcastInDim S40000x128 ![0, 1] bcast_S1x128_S40000x128_0_1 : (⟨S1x128, .f32⟩ : BufTy).Contents (Elt F) → (⟨S40000x128, .f32⟩ : BufTy).Contents (Elt F)),
    binary main_v231 main_v233 main_v234 (addf : (⟨S40000x128, .f32⟩ : BufTy).Contents (Elt F) → (⟨S40000x128, .f32⟩ : BufTy).Contents (Elt F) → (⟨S40000x128, .f32⟩ : BufTy).Contents (Elt F)),
    unary main_arg11 main_v235 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v235 main_v236 rfl shapeCasts_S1x128x128_S128x128,
    binary main_v200 main_v236 main_v237 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg12 main_v238 ((extractStridedSlice S1x128 ![1, 0] · slices_S3x128_S1x128_1_0) : (⟨S3x128, .f32⟩ : BufTy).Contents (Elt F) → (⟨S1x128, .f32⟩ : BufTy).Contents (Elt F)),
    reshape main_v238 main_v239 rfl shapeCasts_S1x128_S128,
    unary main_v239 main_v240 (broadcastInDim S1x128 ![1] bcast_S128_S1x128_1 : (⟨S128, .f32⟩ : BufTy).Contents (Elt F) → (⟨S1x128, .f32⟩ : BufTy).Contents (Elt F)),
    unary main_v240 main_v241 (broadcastInDim S40000x128 ![0, 1] bcast_S1x128_S40000x128_0_1 : (⟨S1x128, .f32⟩ : BufTy).Contents (Elt F) → (⟨S40000x128, .f32⟩ : BufTy).Contents (Elt F)),
    binary main_v237 main_v241 main_v242 (addf : (⟨S40000x128, .f32⟩ : BufTy).Contents (Elt F) → (⟨S40000x128, .f32⟩ : BufTy).Contents (Elt F) → (⟨S40000x128, .f32⟩ : BufTy).Contents (Elt F)),
    nullary main_c_31 (constantI S_ 32 0#32),
    unary main_c_31 main_v243 (broadcastInDim S640000 ![] bcast_S_S640000 : (⟨S_, .i32⟩ : BufTy).Contents (Elt F) → (⟨S640000, .i32⟩ : BufTy).Contents (Elt F)),
    binary main_v1 main_v243 main_v244 (cmpi .slt : (⟨S640000, .i32⟩ : BufTy).Contents (Elt F) → (⟨S640000, .i32⟩ : BufTy).Contents (Elt F) → (⟨S640000, .i1⟩ : BufTy).Contents (Elt F)),
    nullary main_c_32 (constantI S_ 32 40000#32),
    unary main_c_32 main_v245 (broadcastInDim S640000 ![] bcast_S_S640000 : (⟨S_, .i32⟩ : BufTy).Contents (Elt F) → (⟨S640000, .i32⟩ : BufTy).Contents (Elt F)),
    binary main_v1 main_v245 main_v246 (addi : (⟨S640000, .i32⟩ : BufTy).Contents (Elt F) → (⟨S640000, .i32⟩ : BufTy).Contents (Elt F) → (⟨S640000, .i32⟩ : BufTy).Contents (Elt F)),
    ternary main_v244 main_v246 main_v1 main_v247 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v247 main_v248 (broadcastInDim S640000x1 ![0] bcast_S640000_S640000x1_0 : (⟨S640000, .i32⟩ : BufTy).Contents (Elt F) → (⟨S640000x1, .i32⟩ : BufTy).Contents (Elt F)),
    binary main_v242 main_v248 main_v249 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    nullary main_cst_33 (constant S_ .f32 0x00000000#32),
    unary main_cst_33 main_v250 (broadcastInDim S40000x128 ![] bcast_S_S40000x128 : (⟨S_, .f32⟩ : BufTy).Contents (Elt F) → (⟨S40000x128, .f32⟩ : BufTy).Contents (Elt F)),
    unary main_v3 main_v251 (broadcastInDim S640000x1 ![0] bcast_S640000_S640000x1_0 : (⟨S640000, .i32⟩ : BufTy).Contents (Elt F) → (⟨S640000x1, .i32⟩ : BufTy).Contents (Elt F)),
    ternary main_v250 main_v251 main_v249 main_v252 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    unary main_arg7 main_v253 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v253 main_v254 rfl shapeCasts_S1x128x128_S128x128,
    binary main_v200 main_v254 main_v255 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg8 main_v256 ((extractStridedSlice S1x128 ![1, 0] · slices_S3x128_S1x128_1_0) : (⟨S3x128, .f32⟩ : BufTy).Contents (Elt F) → (⟨S1x128, .f32⟩ : BufTy).Contents (Elt F)),
    reshape main_v256 main_v257 rfl shapeCasts_S1x128_S128,
    unary main_v257 main_v258 (broadcastInDim S1x128 ![1] bcast_S128_S1x128_1 : (⟨S128, .f32⟩ : BufTy).Contents (Elt F) → (⟨S1x128, .f32⟩ : BufTy).Contents (Elt F)),
    unary main_v258 main_v259 (broadcastInDim S40000x128 ![0, 1] bcast_S1x128_S40000x128_0_1 : (⟨S1x128, .f32⟩ : BufTy).Contents (Elt F) → (⟨S40000x128, .f32⟩ : BufTy).Contents (Elt F)),
    binary main_v255 main_v259 main_v260 (addf : (⟨S40000x128, .f32⟩ : BufTy).Contents (Elt F) → (⟨S40000x128, .f32⟩ : BufTy).Contents (Elt F) → (⟨S40000x128, .f32⟩ : BufTy).Contents (Elt F)),
    unary main_arg13 main_v261 ((extractStridedSlice S1x128 ![1, 0] · slices_S3x128_S1x128_1_0) : (⟨S3x128, .f32⟩ : BufTy).Contents (Elt F) → (⟨S1x128, .f32⟩ : BufTy).Contents (Elt F)),
    reshape main_v261 main_v262 rfl shapeCasts_S1x128_S128,
    unary main_arg14 main_v263 ((extractStridedSlice S1x128 ![1, 0] · slices_S3x128_S1x128_1_0) : (⟨S3x128, .f32⟩ : BufTy).Contents (Elt F) → (⟨S1x128, .f32⟩ : BufTy).Contents (Elt F)) ]

/-- The operations of window `main_part5`, calls inlined: operations 456 … 559 of @main's. -/
abbrev ops5 : List (HloOp τ sig (Elt F)) :=
  [ reshape main_v263 main_v264 rfl shapeCasts_S1x128_S128,
    nullary main_cst_34 (constant S_ .f32 0x00000000#32),
    binary main_v260 main_cst_34 main_v265 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    nullary main_cst_35 (constant S_ .f32 0x471C4000#32),
    unary main_cst_35 main_v266 (broadcastInDim S128 ![] bcast_S_S128 : (⟨S_, .f32⟩ : BufTy).Contents (Elt F) → (⟨S128, .f32⟩ : BufTy).Contents (Elt F)),
    binary main_v265 main_v266 main_v267 (Host.divf : (⟨S128, .f32⟩ : BufTy).Contents (Elt F) → (⟨S128, .f32⟩ : BufTy).Contents (Elt F) → (⟨S128, .f32⟩ : BufTy).Contents (Elt F)),
    nullary main_c_36 (constantI S_ 32 0#32),
    TRef.nullary main_call11.cst (constant S_ .f32 0x00000000#32),
    TRef.binary (.of main_v260) main_call11.cst main_call11.v0 (fun x v => Host.reduceAdd x v reducesTo_S40000x128_S128_d0 h_S_),
    TRef.unary main_call11.v0 main_call11.v1 (broadcastInDim S1x128 ![1] bcast_S128_S1x128_1),
    TRef.nullary main_call11.cst_0 (constant S_ .f32 0x471C4000#32),
    TRef.unary main_call11.cst_0 main_call11.v2 (broadcastInDim S1x128 ![] bcast_S_S1x128),
    TRef.binary main_call11.v1 main_call11.v2 main_call11.v3 Host.divf,
    TRef.unary main_call11.v3 main_call11.v4 (broadcastInDim S40000x128 ![0, 1] bcast_S1x128_S40000x128_0_1),
    TRef.binary (.of main_v260) main_call11.v4 main_call11.v5 subf,
    TRef.binary main_call11.v5 main_call11.v5 main_call11.v6 mulf,
    TRef.unary (.of main_c_36) main_call11.v7 (sitofp .f32),
    TRef.nullary main_call11.cst_1 (constant S_ .f32 0x471C4000#32),
    TRef.binary main_call11.cst_1 main_call11.v7 main_call11.v8 subf,
    TRef.nullary main_call11.cst_2 (constant S_ .f32 0x00000000#32),
    TRef.binary main_call11.v6 main_call11.cst_2 main_call11.v9 (fun x v => Host.reduceAdd x v reducesTo_S40000x128_S128_d0 h_S_),
    TRef.unary main_call11.v8 main_call11.v10 (broadcastInDim S128 ![] bcast_S_S128),
    TRef.binary main_call11.v9 main_call11.v10 main_call11.v11 Host.divf,
    TRef.nullary main_call11.cst_3 (constant S_ .f32 0x00000000#32),
    TRef.binary main_call11.v8 main_call11.cst_3 main_call11.v12 (cmpf .ogt),
    TRef.nullary main_call11.cst_4 (constant S_ .f32 0x7FC00000#32),
    TRef.unary main_call11.cst_4 main_call11.call0.v0 id,
    TRef.unary main_call11.call0.v0 main_call11.call0.v1 (broadcastInDim S128 ![] bcast_S_S128),
    TRef.ternary main_call11.v12 main_call11.v11 main_call11.call0.v1 main_call11.call0.v2 (fun p a b => select (broadcastInDim S128 ![] bcast_S_S128 p) a b),
    unary main_v267 main_v269 (broadcastInDim S1x128 ![1] bcast_S128_S1x128_1 : (⟨S128, .f32⟩ : BufTy).Contents (Elt F) → (⟨S1x128, .f32⟩ : BufTy).Contents (Elt F)),
    unary main_v269 main_v270 (broadcastInDim S40000x128 ![0, 1] bcast_S1x128_S40000x128_0_1 : (⟨S1x128, .f32⟩ : BufTy).Contents (Elt F) → (⟨S40000x128, .f32⟩ : BufTy).Contents (Elt F)),
    binary main_v260 main_v270 main_v271 (subf : (⟨S40000x128, .f32⟩ : BufTy).Contents (Elt F) → (⟨S40000x128, .f32⟩ : BufTy).Contents (Elt F) → (⟨S40000x128, .f32⟩ : BufTy).Contents (Elt F)),
    nullary main_cst_37 (constant S_ .f32 0x3727C5AC#32),
    unary main_cst_37 main_v272 (broadcastInDim S128 ![] bcast_S_S128 : (⟨S_, .f32⟩ : BufTy).Contents (Elt F) → (⟨S128, .f32⟩ : BufTy).Contents (Elt F)),
    binary main_v268 main_v272 main_v273 (addf : (⟨S128, .f32⟩ : BufTy).Contents (Elt F) → (⟨S128, .f32⟩ : BufTy).Contents (Elt F) → (⟨S128, .f32⟩ : BufTy).Contents (Elt F)),
    unary main_v273 main_v274 (Host.rsqrt : (⟨S128, .f32⟩ : BufTy).Contents (Elt F) → (⟨S128, .f32⟩ : BufTy).Contents (Elt F)),
    unary main_v274 main_v275 (broadcastInDim S1x128 ![1] bcast_S128_S1x128_1 : (⟨S128, .f32⟩ : BufTy).Contents (Elt F) → (⟨S1x128, .f32⟩ : BufTy).Contents (Elt F)),
    unary main_v275 main_v276 (broadcastInDim S40000x128 ![0, 1] bcast_S1x128_S40000x128_0_1 : (⟨S1x128, .f32⟩ : BufTy).Contents (Elt F) → (⟨S40000x128, .f32⟩ : BufTy).Contents (Elt F)),
    binary main_v271 main_v276 main_v277 (mulf : (⟨S40000x128, .f32⟩ : BufTy).Contents (Elt F) → (⟨S40000x128, .f32⟩ : BufTy).Contents (Elt F) → (⟨S40000x128, .f32⟩ : BufTy).Contents (Elt F)),
    unary main_v262 main_v278 (broadcastInDim S1x128 ![1] bcast_S128_S1x128_1 : (⟨S128, .f32⟩ : BufTy).Contents (Elt F) → (⟨S1x128, .f32⟩ : BufTy).Contents (Elt F)),
    unary main_v278 main_v279 (broadcastInDim S40000x128 ![0, 1] bcast_S1x128_S40000x128_0_1 : (⟨S1x128, .f32⟩ : BufTy).Contents (Elt F) → (⟨S40000x128, .f32⟩ : BufTy).Contents (Elt F)),
    binary main_v277 main_v279 main_v280 (mulf : (⟨S40000x128, .f32⟩ : BufTy).Contents (Elt F) → (⟨S40000x128, .f32⟩ : BufTy).Contents (Elt F) → (⟨S40000x128, .f32⟩ : BufTy).Contents (Elt F)),
    unary main_v264 main_v281 (broadcastInDim S1x128 ![1] bcast_S128_S1x128_1 : (⟨S128, .f32⟩ : BufTy).Contents (Elt F) → (⟨S1x128, .f32⟩ : BufTy).Contents (Elt F)),
    unary main_v281 main_v282 (broadcastInDim S40000x128 ![0, 1] bcast_S1x128_S40000x128_0_1 : (⟨S1x128, .f32⟩ : BufTy).Contents (Elt F) → (⟨S40000x128, .f32⟩ : BufTy).Contents (Elt F)),
    binary main_v280 main_v282 main_v283 (addf : (⟨S40000x128, .f32⟩ : BufTy).Contents (Elt F) → (⟨S40000x128, .f32⟩ : BufTy).Contents (Elt F) → (⟨S40000x128, .f32⟩ : BufTy).Contents (Elt F)),
    unary main_arg17 main_v284 ((extractStridedSlice S1x128 ![1, 0] · slices_S3x128_S1x128_1_0) : (⟨S3x128, .f32⟩ : BufTy).Contents (Elt F) → (⟨S1x128, .f32⟩ : BufTy).Contents (Elt F)),
    reshape main_v284 main_v285 rfl shapeCasts_S1x128_S128,
    unary main_arg18 main_v286 ((extractStridedSlice S1x128 ![1, 0] · slices_S3x128_S1x128_1_0) : (⟨S3x128, .f32⟩ : BufTy).Contents (Elt F) → (⟨S1x128, .f32⟩ : BufTy).Contents (Elt F)),
    reshape main_v286 main_v287 rfl shapeCasts_S1x128_S128,
    nullary main_cst_38 (constant S_ .f32 0x00000000#32),
    binary main_v252 main_cst_38 main_v288 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    nullary main_cst_39 (constant S_ .f32 0x471C4000#32),
    unary main_cst_39 main_v289 (broadcastInDim S128 ![] bcast_S_S128 : (⟨S_, .f32⟩ : BufTy).Contents (Elt F) → (⟨S128, .f32⟩ : BufTy).Contents (Elt F)),
    binary main_v288 main_v289 main_v290 (Host.divf : (⟨S128, .f32⟩ : BufTy).Contents (Elt F) → (⟨S128, .f32⟩ : BufTy).Contents (Elt F) → (⟨S128, .f32⟩ : BufTy).Contents (Elt F)),
    nullary main_c_40 (constantI S_ 32 0#32),
    TRef.nullary main_call12.cst (constant S_ .f32 0x00000000#32),
    TRef.binary (.of main_v252) main_call12.cst main_call12.v0 (fun x v => Host.reduceAdd x v reducesTo_S40000x128_S128_d0 h_S_),
    TRef.unary main_call12.v0 main_call12.v1 (broadcastInDim S1x128 ![1] bcast_S128_S1x128_1),
    TRef.nullary main_call12.cst_0 (constant S_ .f32 0x471C4000#32),
    TRef.unary main_call12.cst_0 main_call12.v2 (broadcastInDim S1x128 ![] bcast_S_S1x128),
    TRef.binary main_call12.v1 main_call12.v2 main_call12.v3 Host.divf,
    TRef.unary main_call12.v3 main_call12.v4 (broadcastInDim S40000x128 ![0, 1] bcast_S1x128_S40000x128_0_1),
    TRef.binary (.of main_v252) main_call12.v4 main_call12.v5 subf,
    TRef.binary main_call12.v5 main_call12.v5 main_call12.v6 mulf,
    TRef.unary (.of main_c_40) main_call12.v7 (sitofp .f32),
    TRef.nullary main_call12.cst_1 (constant S_ .f32 0x471C4000#32),
    TRef.binary main_call12.cst_1 main_call12.v7 main_call12.v8 subf,
    TRef.nullary main_call12.cst_2 (constant S_ .f32 0x00000000#32),
    TRef.binary main_call12.v6 main_call12.cst_2 main_call12.v9 (fun x v => Host.reduceAdd x v reducesTo_S40000x128_S128_d0 h_S_),
    TRef.unary main_call12.v8 main_call12.v10 (broadcastInDim S128 ![] bcast_S_S128),
    TRef.binary main_call12.v9 main_call12.v10 main_call12.v11 Host.divf,
    TRef.nullary main_call12.cst_3 (constant S_ .f32 0x00000000#32),
    TRef.binary main_call12.v8 main_call12.cst_3 main_call12.v12 (cmpf .ogt),
    TRef.nullary main_call12.cst_4 (constant S_ .f32 0x7FC00000#32),
    TRef.unary main_call12.cst_4 main_call12.call0.v0 id,
    TRef.unary main_call12.call0.v0 main_call12.call0.v1 (broadcastInDim S128 ![] bcast_S_S128),
    TRef.ternary main_call12.v12 main_call12.v11 main_call12.call0.v1 main_call12.call0.v2 (fun p a b => select (broadcastInDim S128 ![] bcast_S_S128 p) a b),
    unary main_v290 main_v292 (broadcastInDim S1x128 ![1] bcast_S128_S1x128_1 : (⟨S128, .f32⟩ : BufTy).Contents (Elt F) → (⟨S1x128, .f32⟩ : BufTy).Contents (Elt F)),
    unary main_v292 main_v293 (broadcastInDim S40000x128 ![0, 1] bcast_S1x128_S40000x128_0_1 : (⟨S1x128, .f32⟩ : BufTy).Contents (Elt F) → (⟨S40000x128, .f32⟩ : BufTy).Contents (Elt F)),
    binary main_v252 main_v293 main_v294 (subf : (⟨S40000x128, .f32⟩ : BufTy).Contents (Elt F) → (⟨S40000x128, .f32⟩ : BufTy).Contents (Elt F) → (⟨S40000x128, .f32⟩ : BufTy).Contents (Elt F)),
    nullary main_cst_41 (constant S_ .f32 0x3727C5AC#32),
    unary main_cst_41 main_v295 (broadcastInDim S128 ![] bcast_S_S128 : (⟨S_, .f32⟩ : BufTy).Contents (Elt F) → (⟨S128, .f32⟩ : BufTy).Contents (Elt F)),
    binary main_v291 main_v295 main_v296 (addf : (⟨S128, .f32⟩ : BufTy).Contents (Elt F) → (⟨S128, .f32⟩ : BufTy).Contents (Elt F) → (⟨S128, .f32⟩ : BufTy).Contents (Elt F)),
    unary main_v296 main_v297 (Host.rsqrt : (⟨S128, .f32⟩ : BufTy).Contents (Elt F) → (⟨S128, .f32⟩ : BufTy).Contents (Elt F)),
    unary main_v297 main_v298 (broadcastInDim S1x128 ![1] bcast_S128_S1x128_1 : (⟨S128, .f32⟩ : BufTy).Contents (Elt F) → (⟨S1x128, .f32⟩ : BufTy).Contents (Elt F)),
    unary main_v298 main_v299 (broadcastInDim S40000x128 ![0, 1] bcast_S1x128_S40000x128_0_1 : (⟨S1x128, .f32⟩ : BufTy).Contents (Elt F) → (⟨S40000x128, .f32⟩ : BufTy).Contents (Elt F)),
    binary main_v294 main_v299 main_v300 (mulf : (⟨S40000x128, .f32⟩ : BufTy).Contents (Elt F) → (⟨S40000x128, .f32⟩ : BufTy).Contents (Elt F) → (⟨S40000x128, .f32⟩ : BufTy).Contents (Elt F)),
    unary main_v285 main_v301 (broadcastInDim S1x128 ![1] bcast_S128_S1x128_1 : (⟨S128, .f32⟩ : BufTy).Contents (Elt F) → (⟨S1x128, .f32⟩ : BufTy).Contents (Elt F)),
    unary main_v301 main_v302 (broadcastInDim S40000x128 ![0, 1] bcast_S1x128_S40000x128_0_1 : (⟨S1x128, .f32⟩ : BufTy).Contents (Elt F) → (⟨S40000x128, .f32⟩ : BufTy).Contents (Elt F)),
    binary main_v300 main_v302 main_v303 (mulf : (⟨S40000x128, .f32⟩ : BufTy).Contents (Elt F) → (⟨S40000x128, .f32⟩ : BufTy).Contents (Elt F) → (⟨S40000x128, .f32⟩ : BufTy).Contents (Elt F)),
    unary main_v287 main_v304 (broadcastInDim S1x128 ![1] bcast_S128_S1x128_1 : (⟨S128, .f32⟩ : BufTy).Contents (Elt F) → (⟨S1x128, .f32⟩ : BufTy).Contents (Elt F)),
    unary main_v304 main_v305 (broadcastInDim S40000x128 ![0, 1] bcast_S1x128_S40000x128_0_1 : (⟨S1x128, .f32⟩ : BufTy).Contents (Elt F) → (⟨S40000x128, .f32⟩ : BufTy).Contents (Elt F)),
    binary main_v303 main_v305 main_v306 (addf : (⟨S40000x128, .f32⟩ : BufTy).Contents (Elt F) → (⟨S40000x128, .f32⟩ : BufTy).Contents (Elt F) → (⟨S40000x128, .f32⟩ : BufTy).Contents (Elt F)),
    binary main_v283 main_v306 main_v307 (addf : (⟨S40000x128, .f32⟩ : BufTy).Contents (Elt F) → (⟨S40000x128, .f32⟩ : BufTy).Contents (Elt F) → (⟨S40000x128, .f32⟩ : BufTy).Contents (Elt F)),
    binary main_v307 main_v234 main_v308 (addf : (⟨S40000x128, .f32⟩ : BufTy).Contents (Elt F) → (⟨S40000x128, .f32⟩ : BufTy).Contents (Elt F) → (⟨S40000x128, .f32⟩ : BufTy).Contents (Elt F)),
    TRef.nullary main_call13.cst (constant S_ .f32 0x00000000#32),
    TRef.unary main_call13.cst main_call13.v0 (broadcastInDim S40000x128 ![] bcast_S_S40000x128),
    TRef.binary (.of main_v308) main_call13.v0 main_call13.v1 maximumf,
    unary main_arg19 main_v310 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v310 main_v311 rfl shapeCasts_S1x128x128_S128x128,
    binary main_v309 main_v311 main_v312 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg20 main_v313 ((extractStridedSlice S1x128 ![1, 0] · slices_S3x128_S1x128_1_0) : (⟨S3x128, .f32⟩ : BufTy).Contents (Elt F) → (⟨S1x128, .f32⟩ : BufTy).Contents (Elt F)),
    reshape main_v313 main_v314 rfl shapeCasts_S1x128_S128,
    unary main_v314 main_v315 (broadcastInDim S1x128 ![1] bcast_S128_S1x128_1 : (⟨S128, .f32⟩ : BufTy).Contents (Elt F) → (⟨S1x128, .f32⟩ : BufTy).Contents (Elt F)) ]

/-- The operations of window `main_part6`, calls inlined: operations 560 … 663 of @main's. -/
abbrev ops6 : List (HloOp τ sig (Elt F)) :=
  [ unary main_v315 main_v316 (broadcastInDim S40000x128 ![0, 1] bcast_S1x128_S40000x128_0_1 : (⟨S1x128, .f32⟩ : BufTy).Contents (Elt F) → (⟨S40000x128, .f32⟩ : BufTy).Contents (Elt F)),
    binary main_v312 main_v316 main_v317 (addf : (⟨S40000x128, .f32⟩ : BufTy).Contents (Elt F) → (⟨S40000x128, .f32⟩ : BufTy).Contents (Elt F) → (⟨S40000x128, .f32⟩ : BufTy).Contents (Elt F)),
    unary main_arg21 main_v318 ((extractStridedSlice S1x128 ![1, 0] · slices_S3x128_S1x128_1_0) : (⟨S3x128, .f32⟩ : BufTy).Contents (Elt F) → (⟨S1x128, .f32⟩ : BufTy).Contents (Elt F)),
    reshape main_v318 main_v319 rfl shapeCasts_S1x128_S128,
    unary main_arg22 main_v320 ((extractStridedSlice S1x128 ![1, 0] · slices_S3x128_S1x128_1_0) : (⟨S3x128, .f32⟩ : BufTy).Contents (Elt F) → (⟨S1x128, .f32⟩ : BufTy).Contents (Elt F)),
    reshape main_v320 main_v321 rfl shapeCasts_S1x128_S128,
    nullary main_cst_42 (constant S_ .f32 0x00000000#32),
    binary main_v317 main_cst_42 main_v322 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    nullary main_cst_43 (constant S_ .f32 0x471C4000#32),
    unary main_cst_43 main_v323 (broadcastInDim S128 ![] bcast_S_S128 : (⟨S_, .f32⟩ : BufTy).Contents (Elt F) → (⟨S128, .f32⟩ : BufTy).Contents (Elt F)),
    binary main_v322 main_v323 main_v324 (Host.divf : (⟨S128, .f32⟩ : BufTy).Contents (Elt F) → (⟨S128, .f32⟩ : BufTy).Contents (Elt F) → (⟨S128, .f32⟩ : BufTy).Contents (Elt F)),
    nullary main_c_44 (constantI S_ 32 0#32),
    TRef.nullary main_call14.cst (constant S_ .f32 0x00000000#32),
    TRef.binary (.of main_v317) main_call14.cst main_call14.v0 (fun x v => Host.reduceAdd x v reducesTo_S40000x128_S128_d0 h_S_),
    TRef.unary main_call14.v0 main_call14.v1 (broadcastInDim S1x128 ![1] bcast_S128_S1x128_1),
    TRef.nullary main_call14.cst_0 (constant S_ .f32 0x471C4000#32),
    TRef.unary main_call14.cst_0 main_call14.v2 (broadcastInDim S1x128 ![] bcast_S_S1x128),
    TRef.binary main_call14.v1 main_call14.v2 main_call14.v3 Host.divf,
    TRef.unary main_call14.v3 main_call14.v4 (broadcastInDim S40000x128 ![0, 1] bcast_S1x128_S40000x128_0_1),
    TRef.binary (.of main_v317) main_call14.v4 main_call14.v5 subf,
    TRef.binary main_call14.v5 main_call14.v5 main_call14.v6 mulf,
    TRef.unary (.of main_c_44) main_call14.v7 (sitofp .f32),
    TRef.nullary main_call14.cst_1 (constant S_ .f32 0x471C4000#32),
    TRef.binary main_call14.cst_1 main_call14.v7 main_call14.v8 subf,
    TRef.nullary main_call14.cst_2 (constant S_ .f32 0x00000000#32),
    TRef.binary main_call14.v6 main_call14.cst_2 main_call14.v9 (fun x v => Host.reduceAdd x v reducesTo_S40000x128_S128_d0 h_S_),
    TRef.unary main_call14.v8 main_call14.v10 (broadcastInDim S128 ![] bcast_S_S128),
    TRef.binary main_call14.v9 main_call14.v10 main_call14.v11 Host.divf,
    TRef.nullary main_call14.cst_3 (constant S_ .f32 0x00000000#32),
    TRef.binary main_call14.v8 main_call14.cst_3 main_call14.v12 (cmpf .ogt),
    TRef.nullary main_call14.cst_4 (constant S_ .f32 0x7FC00000#32),
    TRef.unary main_call14.cst_4 main_call14.call0.v0 id,
    TRef.unary main_call14.call0.v0 main_call14.call0.v1 (broadcastInDim S128 ![] bcast_S_S128),
    TRef.ternary main_call14.v12 main_call14.v11 main_call14.call0.v1 main_call14.call0.v2 (fun p a b => select (broadcastInDim S128 ![] bcast_S_S128 p) a b),
    unary main_v324 main_v326 (broadcastInDim S1x128 ![1] bcast_S128_S1x128_1 : (⟨S128, .f32⟩ : BufTy).Contents (Elt F) → (⟨S1x128, .f32⟩ : BufTy).Contents (Elt F)),
    unary main_v326 main_v327 (broadcastInDim S40000x128 ![0, 1] bcast_S1x128_S40000x128_0_1 : (⟨S1x128, .f32⟩ : BufTy).Contents (Elt F) → (⟨S40000x128, .f32⟩ : BufTy).Contents (Elt F)),
    binary main_v317 main_v327 main_v328 (subf : (⟨S40000x128, .f32⟩ : BufTy).Contents (Elt F) → (⟨S40000x128, .f32⟩ : BufTy).Contents (Elt F) → (⟨S40000x128, .f32⟩ : BufTy).Contents (Elt F)),
    nullary main_cst_45 (constant S_ .f32 0x3727C5AC#32),
    unary main_cst_45 main_v329 (broadcastInDim S128 ![] bcast_S_S128 : (⟨S_, .f32⟩ : BufTy).Contents (Elt F) → (⟨S128, .f32⟩ : BufTy).Contents (Elt F)),
    binary main_v325 main_v329 main_v330 (addf : (⟨S128, .f32⟩ : BufTy).Contents (Elt F) → (⟨S128, .f32⟩ : BufTy).Contents (Elt F) → (⟨S128, .f32⟩ : BufTy).Contents (Elt F)),
    unary main_v330 main_v331 (Host.rsqrt : (⟨S128, .f32⟩ : BufTy).Contents (Elt F) → (⟨S128, .f32⟩ : BufTy).Contents (Elt F)),
    unary main_v331 main_v332 (broadcastInDim S1x128 ![1] bcast_S128_S1x128_1 : (⟨S128, .f32⟩ : BufTy).Contents (Elt F) → (⟨S1x128, .f32⟩ : BufTy).Contents (Elt F)),
    unary main_v332 main_v333 (broadcastInDim S40000x128 ![0, 1] bcast_S1x128_S40000x128_0_1 : (⟨S1x128, .f32⟩ : BufTy).Contents (Elt F) → (⟨S40000x128, .f32⟩ : BufTy).Contents (Elt F)),
    binary main_v328 main_v333 main_v334 (mulf : (⟨S40000x128, .f32⟩ : BufTy).Contents (Elt F) → (⟨S40000x128, .f32⟩ : BufTy).Contents (Elt F) → (⟨S40000x128, .f32⟩ : BufTy).Contents (Elt F)),
    unary main_v319 main_v335 (broadcastInDim S1x128 ![1] bcast_S128_S1x128_1 : (⟨S128, .f32⟩ : BufTy).Contents (Elt F) → (⟨S1x128, .f32⟩ : BufTy).Contents (Elt F)),
    unary main_v335 main_v336 (broadcastInDim S40000x128 ![0, 1] bcast_S1x128_S40000x128_0_1 : (⟨S1x128, .f32⟩ : BufTy).Contents (Elt F) → (⟨S40000x128, .f32⟩ : BufTy).Contents (Elt F)),
    binary main_v334 main_v336 main_v337 (mulf : (⟨S40000x128, .f32⟩ : BufTy).Contents (Elt F) → (⟨S40000x128, .f32⟩ : BufTy).Contents (Elt F) → (⟨S40000x128, .f32⟩ : BufTy).Contents (Elt F)),
    unary main_v321 main_v338 (broadcastInDim S1x128 ![1] bcast_S128_S1x128_1 : (⟨S128, .f32⟩ : BufTy).Contents (Elt F) → (⟨S1x128, .f32⟩ : BufTy).Contents (Elt F)),
    unary main_v338 main_v339 (broadcastInDim S40000x128 ![0, 1] bcast_S1x128_S40000x128_0_1 : (⟨S1x128, .f32⟩ : BufTy).Contents (Elt F) → (⟨S40000x128, .f32⟩ : BufTy).Contents (Elt F)),
    binary main_v337 main_v339 main_v340 (addf : (⟨S40000x128, .f32⟩ : BufTy).Contents (Elt F) → (⟨S40000x128, .f32⟩ : BufTy).Contents (Elt F) → (⟨S40000x128, .f32⟩ : BufTy).Contents (Elt F)),
    TRef.nullary main_call15.cst (constant S_ .f32 0x00000000#32),
    TRef.unary main_call15.cst main_call15.v0 (broadcastInDim S40000x128 ![] bcast_S_S40000x128),
    TRef.binary (.of main_v340) main_call15.v0 main_call15.v1 maximumf,
    unary main_arg23 main_v342 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v342 main_v343 rfl shapeCasts_S1x128x128_S128x128,
    binary main_v341 main_v343 main_v344 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg24 main_v345 ((extractStridedSlice S1x128 ![1, 0] · slices_S3x128_S1x128_1_0) : (⟨S3x128, .f32⟩ : BufTy).Contents (Elt F) → (⟨S1x128, .f32⟩ : BufTy).Contents (Elt F)),
    reshape main_v345 main_v346 rfl shapeCasts_S1x128_S128,
    unary main_v346 main_v347 (broadcastInDim S1x128 ![1] bcast_S128_S1x128_1 : (⟨S128, .f32⟩ : BufTy).Contents (Elt F) → (⟨S1x128, .f32⟩ : BufTy).Contents (Elt F)),
    unary main_v347 main_v348 (broadcastInDim S40000x128 ![0, 1] bcast_S1x128_S40000x128_0_1 : (⟨S1x128, .f32⟩ : BufTy).Contents (Elt F) → (⟨S40000x128, .f32⟩ : BufTy).Contents (Elt F)),
    binary main_v344 main_v348 main_v349 (addf : (⟨S40000x128, .f32⟩ : BufTy).Contents (Elt F) → (⟨S40000x128, .f32⟩ : BufTy).Contents (Elt F) → (⟨S40000x128, .f32⟩ : BufTy).Contents (Elt F)),
    unary main_arg25 main_v350 ((extractStridedSlice S1x128 ![1, 0] · slices_S3x128_S1x128_1_0) : (⟨S3x128, .f32⟩ : BufTy).Contents (Elt F) → (⟨S1x128, .f32⟩ : BufTy).Contents (Elt F)),
    reshape main_v350 main_v351 rfl shapeCasts_S1x128_S128,
    unary main_arg26 main_v352 ((extractStridedSlice S1x128 ![1, 0] · slices_S3x128_S1x128_1_0) : (⟨S3x128, .f32⟩ : BufTy).Contents (Elt F) → (⟨S1x128, .f32⟩ : BufTy).Contents (Elt F)),
    reshape main_v352 main_v353 rfl shapeCasts_S1x128_S128,
    nullary main_cst_46 (constant S_ .f32 0x00000000#32),
    binary main_v349 main_cst_46 main_v354 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    nullary main_cst_47 (constant S_ .f32 0x471C4000#32),
    unary main_cst_47 main_v355 (broadcastInDim S128 ![] bcast_S_S128 : (⟨S_, .f32⟩ : BufTy).Contents (Elt F) → (⟨S128, .f32⟩ : BufTy).Contents (Elt F)),
    binary main_v354 main_v355 main_v356 (Host.divf : (⟨S128, .f32⟩ : BufTy).Contents (Elt F) → (⟨S128, .f32⟩ : BufTy).Contents (Elt F) → (⟨S128, .f32⟩ : BufTy).Contents (Elt F)),
    nullary main_c_48 (constantI S_ 32 0#32),
    TRef.nullary main_call16.cst (constant S_ .f32 0x00000000#32),
    TRef.binary (.of main_v349) main_call16.cst main_call16.v0 (fun x v => Host.reduceAdd x v reducesTo_S40000x128_S128_d0 h_S_),
    TRef.unary main_call16.v0 main_call16.v1 (broadcastInDim S1x128 ![1] bcast_S128_S1x128_1),
    TRef.nullary main_call16.cst_0 (constant S_ .f32 0x471C4000#32),
    TRef.unary main_call16.cst_0 main_call16.v2 (broadcastInDim S1x128 ![] bcast_S_S1x128),
    TRef.binary main_call16.v1 main_call16.v2 main_call16.v3 Host.divf,
    TRef.unary main_call16.v3 main_call16.v4 (broadcastInDim S40000x128 ![0, 1] bcast_S1x128_S40000x128_0_1),
    TRef.binary (.of main_v349) main_call16.v4 main_call16.v5 subf,
    TRef.binary main_call16.v5 main_call16.v5 main_call16.v6 mulf,
    TRef.unary (.of main_c_48) main_call16.v7 (sitofp .f32),
    TRef.nullary main_call16.cst_1 (constant S_ .f32 0x471C4000#32),
    TRef.binary main_call16.cst_1 main_call16.v7 main_call16.v8 subf,
    TRef.nullary main_call16.cst_2 (constant S_ .f32 0x00000000#32),
    TRef.binary main_call16.v6 main_call16.cst_2 main_call16.v9 (fun x v => Host.reduceAdd x v reducesTo_S40000x128_S128_d0 h_S_),
    TRef.unary main_call16.v8 main_call16.v10 (broadcastInDim S128 ![] bcast_S_S128),
    TRef.binary main_call16.v9 main_call16.v10 main_call16.v11 Host.divf,
    TRef.nullary main_call16.cst_3 (constant S_ .f32 0x00000000#32),
    TRef.binary main_call16.v8 main_call16.cst_3 main_call16.v12 (cmpf .ogt),
    TRef.nullary main_call16.cst_4 (constant S_ .f32 0x7FC00000#32),
    TRef.unary main_call16.cst_4 main_call16.call0.v0 id,
    TRef.unary main_call16.call0.v0 main_call16.call0.v1 (broadcastInDim S128 ![] bcast_S_S128),
    TRef.ternary main_call16.v12 main_call16.v11 main_call16.call0.v1 main_call16.call0.v2 (fun p a b => select (broadcastInDim S128 ![] bcast_S_S128 p) a b),
    unary main_v356 main_v358 (broadcastInDim S1x128 ![1] bcast_S128_S1x128_1 : (⟨S128, .f32⟩ : BufTy).Contents (Elt F) → (⟨S1x128, .f32⟩ : BufTy).Contents (Elt F)),
    unary main_v358 main_v359 (broadcastInDim S40000x128 ![0, 1] bcast_S1x128_S40000x128_0_1 : (⟨S1x128, .f32⟩ : BufTy).Contents (Elt F) → (⟨S40000x128, .f32⟩ : BufTy).Contents (Elt F)),
    binary main_v349 main_v359 main_v360 (subf : (⟨S40000x128, .f32⟩ : BufTy).Contents (Elt F) → (⟨S40000x128, .f32⟩ : BufTy).Contents (Elt F) → (⟨S40000x128, .f32⟩ : BufTy).Contents (Elt F)),
    nullary main_cst_49 (constant S_ .f32 0x3727C5AC#32),
    unary main_cst_49 main_v361 (broadcastInDim S128 ![] bcast_S_S128 : (⟨S_, .f32⟩ : BufTy).Contents (Elt F) → (⟨S128, .f32⟩ : BufTy).Contents (Elt F)),
    binary main_v357 main_v361 main_v362 (addf : (⟨S128, .f32⟩ : BufTy).Contents (Elt F) → (⟨S128, .f32⟩ : BufTy).Contents (Elt F) → (⟨S128, .f32⟩ : BufTy).Contents (Elt F)),
    unary main_v362 main_v363 (Host.rsqrt : (⟨S128, .f32⟩ : BufTy).Contents (Elt F) → (⟨S128, .f32⟩ : BufTy).Contents (Elt F)),
    unary main_v363 main_v364 (broadcastInDim S1x128 ![1] bcast_S128_S1x128_1 : (⟨S128, .f32⟩ : BufTy).Contents (Elt F) → (⟨S1x128, .f32⟩ : BufTy).Contents (Elt F)),
    unary main_v364 main_v365 (broadcastInDim S40000x128 ![0, 1] bcast_S1x128_S40000x128_0_1 : (⟨S1x128, .f32⟩ : BufTy).Contents (Elt F) → (⟨S40000x128, .f32⟩ : BufTy).Contents (Elt F)),
    binary main_v360 main_v365 main_v366 (mulf : (⟨S40000x128, .f32⟩ : BufTy).Contents (Elt F) → (⟨S40000x128, .f32⟩ : BufTy).Contents (Elt F) → (⟨S40000x128, .f32⟩ : BufTy).Contents (Elt F)),
    unary main_v351 main_v367 (broadcastInDim S1x128 ![1] bcast_S128_S1x128_1 : (⟨S128, .f32⟩ : BufTy).Contents (Elt F) → (⟨S1x128, .f32⟩ : BufTy).Contents (Elt F)) ]

/-- The operations of window `main_part7`, calls inlined: operations 664 … 746 of @main's. -/
abbrev ops7 : List (HloOp τ sig (Elt F)) :=
  [ unary main_v367 main_v368 (broadcastInDim S40000x128 ![0, 1] bcast_S1x128_S40000x128_0_1 : (⟨S1x128, .f32⟩ : BufTy).Contents (Elt F) → (⟨S40000x128, .f32⟩ : BufTy).Contents (Elt F)),
    binary main_v366 main_v368 main_v369 (mulf : (⟨S40000x128, .f32⟩ : BufTy).Contents (Elt F) → (⟨S40000x128, .f32⟩ : BufTy).Contents (Elt F) → (⟨S40000x128, .f32⟩ : BufTy).Contents (Elt F)),
    unary main_v353 main_v370 (broadcastInDim S1x128 ![1] bcast_S128_S1x128_1 : (⟨S128, .f32⟩ : BufTy).Contents (Elt F) → (⟨S1x128, .f32⟩ : BufTy).Contents (Elt F)),
    unary main_v370 main_v371 (broadcastInDim S40000x128 ![0, 1] bcast_S1x128_S40000x128_0_1 : (⟨S1x128, .f32⟩ : BufTy).Contents (Elt F) → (⟨S40000x128, .f32⟩ : BufTy).Contents (Elt F)),
    binary main_v369 main_v371 main_v372 (addf : (⟨S40000x128, .f32⟩ : BufTy).Contents (Elt F) → (⟨S40000x128, .f32⟩ : BufTy).Contents (Elt F) → (⟨S40000x128, .f32⟩ : BufTy).Contents (Elt F)),
    TRef.nullary main_call17.cst (constant S_ .f32 0x00000000#32),
    TRef.unary main_call17.cst main_call17.v0 (broadcastInDim S40000x128 ![] bcast_S_S40000x128),
    TRef.binary (.of main_v372) main_call17.v0 main_call17.v1 maximumf,
    unary main_arg9 main_v374 ((extractStridedSlice S1x1x128 ![2, 0, 0] · slices_S3x1x128_S1x1x128_2_0_0) : (⟨S3x1x128, .f32⟩ : BufTy).Contents (Elt F) → (⟨S1x1x128, .f32⟩ : BufTy).Contents (Elt F)),
    reshape main_v374 main_v375 rfl shapeCasts_S1x1x128_S1x128,
    binary main_arg2 main_v375 main_v376 ((fun l r => Host.dotGeneral dot_S640000x1_S1x128_S640000x128_1_0_0_1_n_n none l r) : (⟨S640000x1, .f32⟩ : BufTy).Contents (Elt F) → (⟨S1x128, .f32⟩ : BufTy).Contents (Elt F) → (⟨S640000x128, .f32⟩ : BufTy).Contents (Elt F)),
    unary main_arg10 main_v377 ((extractStridedSlice S1x128 ![2, 0] · slices_S3x128_S1x128_2_0) : (⟨S3x128, .f32⟩ : BufTy).Contents (Elt F) → (⟨S1x128, .f32⟩ : BufTy).Contents (Elt F)),
    reshape main_v377 main_v378 rfl shapeCasts_S1x128_S128,
    unary main_v378 main_v379 (broadcastInDim S1x128 ![1] bcast_S128_S1x128_1 : (⟨S128, .f32⟩ : BufTy).Contents (Elt F) → (⟨S1x128, .f32⟩ : BufTy).Contents (Elt F)),
    unary main_v379 main_v380 (broadcastInDim S640000x128 ![0, 1] bcast_S1x128_S640000x128_0_1 : (⟨S1x128, .f32⟩ : BufTy).Contents (Elt F) → (⟨S640000x128, .f32⟩ : BufTy).Contents (Elt F)),
    binary main_v376 main_v380 main_v381 (addf : (⟨S640000x128, .f32⟩ : BufTy).Contents (Elt F) → (⟨S640000x128, .f32⟩ : BufTy).Contents (Elt F) → (⟨S640000x128, .f32⟩ : BufTy).Contents (Elt F)),
    nullary main_cst_50 (constant S_ .f32 0x00000000#32),
    unary main_cst_50 main_v382 (broadcastInDim S40000x128 ![] bcast_S_S40000x128 : (⟨S_, .f32⟩ : BufTy).Contents (Elt F) → (⟨S40000x128, .f32⟩ : BufTy).Contents (Elt F)),
    unary main_v1 main_v383 (broadcastInDim S640000x1 ![0] bcast_S640000_S640000x1_0 : (⟨S640000, .i32⟩ : BufTy).Contents (Elt F) → (⟨S640000x1, .i32⟩ : BufTy).Contents (Elt F)),
    ternary main_v382 main_v383 main_v381 main_v384 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    unary main_arg15 main_v385 ((extractStridedSlice S1x128 ![2, 0] · slices_S3x128_S1x128_2_0) : (⟨S3x128, .f32⟩ : BufTy).Contents (Elt F) → (⟨S1x128, .f32⟩ : BufTy).Contents (Elt F)),
    reshape main_v385 main_v386 rfl shapeCasts_S1x128_S128,
    unary main_arg16 main_v387 ((extractStridedSlice S1x128 ![2, 0] · slices_S3x128_S1x128_2_0) : (⟨S3x128, .f32⟩ : BufTy).Contents (Elt F) → (⟨S1x128, .f32⟩ : BufTy).Contents (Elt F)),
    reshape main_v387 main_v388 rfl shapeCasts_S1x128_S128,
    nullary main_cst_51 (constant S_ .f32 0x00000000#32),
    binary main_v384 main_cst_51 main_v389 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    nullary main_cst_52 (constant S_ .f32 0x471C4000#32),
    unary main_cst_52 main_v390 (broadcastInDim S128 ![] bcast_S_S128 : (⟨S_, .f32⟩ : BufTy).Contents (Elt F) → (⟨S128, .f32⟩ : BufTy).Contents (Elt F)),
    binary main_v389 main_v390 main_v391 (Host.divf : (⟨S128, .f32⟩ : BufTy).Contents (Elt F) → (⟨S128, .f32⟩ : BufTy).Contents (Elt F) → (⟨S128, .f32⟩ : BufTy).Contents (Elt F)),
    nullary main_c_53 (constantI S_ 32 0#32),
    TRef.nullary main_call18.cst (constant S_ .f32 0x00000000#32),
    TRef.binary (.of main_v384) main_call18.cst main_call18.v0 (fun x v => Host.reduceAdd x v reducesTo_S40000x128_S128_d0 h_S_),
    TRef.unary main_call18.v0 main_call18.v1 (broadcastInDim S1x128 ![1] bcast_S128_S1x128_1),
    TRef.nullary main_call18.cst_0 (constant S_ .f32 0x471C4000#32),
    TRef.unary main_call18.cst_0 main_call18.v2 (broadcastInDim S1x128 ![] bcast_S_S1x128),
    TRef.binary main_call18.v1 main_call18.v2 main_call18.v3 Host.divf,
    TRef.unary main_call18.v3 main_call18.v4 (broadcastInDim S40000x128 ![0, 1] bcast_S1x128_S40000x128_0_1),
    TRef.binary (.of main_v384) main_call18.v4 main_call18.v5 subf,
    TRef.binary main_call18.v5 main_call18.v5 main_call18.v6 mulf,
    TRef.unary (.of main_c_53) main_call18.v7 (sitofp .f32),
    TRef.nullary main_call18.cst_1 (constant S_ .f32 0x471C4000#32),
    TRef.binary main_call18.cst_1 main_call18.v7 main_call18.v8 subf,
    TRef.nullary main_call18.cst_2 (constant S_ .f32 0x00000000#32),
    TRef.binary main_call18.v6 main_call18.cst_2 main_call18.v9 (fun x v => Host.reduceAdd x v reducesTo_S40000x128_S128_d0 h_S_),
    TRef.unary main_call18.v8 main_call18.v10 (broadcastInDim S128 ![] bcast_S_S128),
    TRef.binary main_call18.v9 main_call18.v10 main_call18.v11 Host.divf,
    TRef.nullary main_call18.cst_3 (constant S_ .f32 0x00000000#32),
    TRef.binary main_call18.v8 main_call18.cst_3 main_call18.v12 (cmpf .ogt),
    TRef.nullary main_call18.cst_4 (constant S_ .f32 0x7FC00000#32),
    TRef.unary main_call18.cst_4 main_call18.call0.v0 id,
    TRef.unary main_call18.call0.v0 main_call18.call0.v1 (broadcastInDim S128 ![] bcast_S_S128),
    TRef.ternary main_call18.v12 main_call18.v11 main_call18.call0.v1 main_call18.call0.v2 (fun p a b => select (broadcastInDim S128 ![] bcast_S_S128 p) a b),
    unary main_v391 main_v393 (broadcastInDim S1x128 ![1] bcast_S128_S1x128_1 : (⟨S128, .f32⟩ : BufTy).Contents (Elt F) → (⟨S1x128, .f32⟩ : BufTy).Contents (Elt F)),
    unary main_v393 main_v394 (broadcastInDim S40000x128 ![0, 1] bcast_S1x128_S40000x128_0_1 : (⟨S1x128, .f32⟩ : BufTy).Contents (Elt F) → (⟨S40000x128, .f32⟩ : BufTy).Contents (Elt F)),
    binary main_v384 main_v394 main_v395 (subf : (⟨S40000x128, .f32⟩ : BufTy).Contents (Elt F) → (⟨S40000x128, .f32⟩ : BufTy).Contents (Elt F) → (⟨S40000x128, .f32⟩ : BufTy).Contents (Elt F)),
    nullary main_cst_54 (constant S_ .f32 0x3727C5AC#32),
    unary main_cst_54 main_v396 (broadcastInDim S128 ![] bcast_S_S128 : (⟨S_, .f32⟩ : BufTy).Contents (Elt F) → (⟨S128, .f32⟩ : BufTy).Contents (Elt F)),
    binary main_v392 main_v396 main_v397 (addf : (⟨S128, .f32⟩ : BufTy).Contents (Elt F) → (⟨S128, .f32⟩ : BufTy).Contents (Elt F) → (⟨S128, .f32⟩ : BufTy).Contents (Elt F)),
    unary main_v397 main_v398 (Host.rsqrt : (⟨S128, .f32⟩ : BufTy).Contents (Elt F) → (⟨S128, .f32⟩ : BufTy).Contents (Elt F)),
    unary main_v398 main_v399 (broadcastInDim S1x128 ![1] bcast_S128_S1x128_1 : (⟨S128, .f32⟩ : BufTy).Contents (Elt F) → (⟨S1x128, .f32⟩ : BufTy).Contents (Elt F)),
    unary main_v399 main_v400 (broadcastInDim S40000x128 ![0, 1] bcast_S1x128_S40000x128_0_1 : (⟨S1x128, .f32⟩ : BufTy).Contents (Elt F) → (⟨S40000x128, .f32⟩ : BufTy).Contents (Elt F)),
    binary main_v395 main_v400 main_v401 (mulf : (⟨S40000x128, .f32⟩ : BufTy).Contents (Elt F) → (⟨S40000x128, .f32⟩ : BufTy).Contents (Elt F) → (⟨S40000x128, .f32⟩ : BufTy).Contents (Elt F)),
    unary main_v386 main_v402 (broadcastInDim S1x128 ![1] bcast_S128_S1x128_1 : (⟨S128, .f32⟩ : BufTy).Contents (Elt F) → (⟨S1x128, .f32⟩ : BufTy).Contents (Elt F)),
    unary main_v402 main_v403 (broadcastInDim S40000x128 ![0, 1] bcast_S1x128_S40000x128_0_1 : (⟨S1x128, .f32⟩ : BufTy).Contents (Elt F) → (⟨S40000x128, .f32⟩ : BufTy).Contents (Elt F)),
    binary main_v401 main_v403 main_v404 (mulf : (⟨S40000x128, .f32⟩ : BufTy).Contents (Elt F) → (⟨S40000x128, .f32⟩ : BufTy).Contents (Elt F) → (⟨S40000x128, .f32⟩ : BufTy).Contents (Elt F)),
    unary main_v388 main_v405 (broadcastInDim S1x128 ![1] bcast_S128_S1x128_1 : (⟨S128, .f32⟩ : BufTy).Contents (Elt F) → (⟨S1x128, .f32⟩ : BufTy).Contents (Elt F)),
    unary main_v405 main_v406 (broadcastInDim S40000x128 ![0, 1] bcast_S1x128_S40000x128_0_1 : (⟨S1x128, .f32⟩ : BufTy).Contents (Elt F) → (⟨S40000x128, .f32⟩ : BufTy).Contents (Elt F)),
    binary main_v404 main_v406 main_v407 (addf : (⟨S40000x128, .f32⟩ : BufTy).Contents (Elt F) → (⟨S40000x128, .f32⟩ : BufTy).Contents (Elt F) → (⟨S40000x128, .f32⟩ : BufTy).Contents (Elt F)),
    unary main_arg11 main_v408 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v408 main_v409 rfl shapeCasts_S1x128x128_S128x128,
    binary main_v373 main_v409 main_v410 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg12 main_v411 ((extractStridedSlice S1x128 ![2, 0] · slices_S3x128_S1x128_2_0) : (⟨S3x128, .f32⟩ : BufTy).Contents (Elt F) → (⟨S1x128, .f32⟩ : BufTy).Contents (Elt F)),
    reshape main_v411 main_v412 rfl shapeCasts_S1x128_S128,
    unary main_v412 main_v413 (broadcastInDim S1x128 ![1] bcast_S128_S1x128_1 : (⟨S128, .f32⟩ : BufTy).Contents (Elt F) → (⟨S1x128, .f32⟩ : BufTy).Contents (Elt F)),
    unary main_v413 main_v414 (broadcastInDim S40000x128 ![0, 1] bcast_S1x128_S40000x128_0_1 : (⟨S1x128, .f32⟩ : BufTy).Contents (Elt F) → (⟨S40000x128, .f32⟩ : BufTy).Contents (Elt F)),
    binary main_v410 main_v414 main_v415 (addf : (⟨S40000x128, .f32⟩ : BufTy).Contents (Elt F) → (⟨S40000x128, .f32⟩ : BufTy).Contents (Elt F) → (⟨S40000x128, .f32⟩ : BufTy).Contents (Elt F)),
    nullary main_c_55 (constantI S_ 32 0#32),
    unary main_c_55 main_v416 (broadcastInDim S640000 ![] bcast_S_S640000 : (⟨S_, .i32⟩ : BufTy).Contents (Elt F) → (⟨S640000, .i32⟩ : BufTy).Contents (Elt F)),
    binary main_v1 main_v416 main_v417 (cmpi .slt : (⟨S640000, .i32⟩ : BufTy).Contents (Elt F) → (⟨S640000, .i32⟩ : BufTy).Contents (Elt F) → (⟨S640000, .i1⟩ : BufTy).Contents (Elt F)),
    nullary main_c_56 (constantI S_ 32 40000#32),
    unary main_c_56 main_v418 (broadcastInDim S640000 ![] bcast_S_S640000 : (⟨S_, .i32⟩ : BufTy).Contents (Elt F) → (⟨S640000, .i32⟩ : BufTy).Contents (Elt F)),
    binary main_v1 main_v418 main_v419 (addi : (⟨S640000, .i32⟩ : BufTy).Contents (Elt F) → (⟨S640000, .i32⟩ : BufTy).Contents (Elt F) → (⟨S640000, .i32⟩ : BufTy).Contents (Elt F)),
    ternary main_v417 main_v419 main_v1 main_v420 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)) ]

/-- The operations of window `main_part8`, calls inlined: operations 747 … 848 of @main's. -/
abbrev ops8 : List (HloOp τ sig (Elt F)) :=
  [ unary main_v420 main_v421 (broadcastInDim S640000x1 ![0] bcast_S640000_S640000x1_0 : (⟨S640000, .i32⟩ : BufTy).Contents (Elt F) → (⟨S640000x1, .i32⟩ : BufTy).Contents (Elt F)),
    binary main_v415 main_v421 main_v422 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    nullary main_cst_57 (constant S_ .f32 0x00000000#32),
    unary main_cst_57 main_v423 (broadcastInDim S40000x128 ![] bcast_S_S40000x128 : (⟨S_, .f32⟩ : BufTy).Contents (Elt F) → (⟨S40000x128, .f32⟩ : BufTy).Contents (Elt F)),
    unary main_v3 main_v424 (broadcastInDim S640000x1 ![0] bcast_S640000_S640000x1_0 : (⟨S640000, .i32⟩ : BufTy).Contents (Elt F) → (⟨S640000x1, .i32⟩ : BufTy).Contents (Elt F)),
    ternary main_v423 main_v424 main_v422 main_v425 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    unary main_arg7 main_v426 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v426 main_v427 rfl shapeCasts_S1x128x128_S128x128,
    binary main_v373 main_v427 main_v428 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg8 main_v429 ((extractStridedSlice S1x128 ![2, 0] · slices_S3x128_S1x128_2_0) : (⟨S3x128, .f32⟩ : BufTy).Contents (Elt F) → (⟨S1x128, .f32⟩ : BufTy).Contents (Elt F)),
    reshape main_v429 main_v430 rfl shapeCasts_S1x128_S128,
    unary main_v430 main_v431 (broadcastInDim S1x128 ![1] bcast_S128_S1x128_1 : (⟨S128, .f32⟩ : BufTy).Contents (Elt F) → (⟨S1x128, .f32⟩ : BufTy).Contents (Elt F)),
    unary main_v431 main_v432 (broadcastInDim S40000x128 ![0, 1] bcast_S1x128_S40000x128_0_1 : (⟨S1x128, .f32⟩ : BufTy).Contents (Elt F) → (⟨S40000x128, .f32⟩ : BufTy).Contents (Elt F)),
    binary main_v428 main_v432 main_v433 (addf : (⟨S40000x128, .f32⟩ : BufTy).Contents (Elt F) → (⟨S40000x128, .f32⟩ : BufTy).Contents (Elt F) → (⟨S40000x128, .f32⟩ : BufTy).Contents (Elt F)),
    unary main_arg13 main_v434 ((extractStridedSlice S1x128 ![2, 0] · slices_S3x128_S1x128_2_0) : (⟨S3x128, .f32⟩ : BufTy).Contents (Elt F) → (⟨S1x128, .f32⟩ : BufTy).Contents (Elt F)),
    reshape main_v434 main_v435 rfl shapeCasts_S1x128_S128,
    unary main_arg14 main_v436 ((extractStridedSlice S1x128 ![2, 0] · slices_S3x128_S1x128_2_0) : (⟨S3x128, .f32⟩ : BufTy).Contents (Elt F) → (⟨S1x128, .f32⟩ : BufTy).Contents (Elt F)),
    reshape main_v436 main_v437 rfl shapeCasts_S1x128_S128,
    nullary main_cst_58 (constant S_ .f32 0x00000000#32),
    binary main_v433 main_cst_58 main_v438 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    nullary main_cst_59 (constant S_ .f32 0x471C4000#32),
    unary main_cst_59 main_v439 (broadcastInDim S128 ![] bcast_S_S128 : (⟨S_, .f32⟩ : BufTy).Contents (Elt F) → (⟨S128, .f32⟩ : BufTy).Contents (Elt F)),
    binary main_v438 main_v439 main_v440 (Host.divf : (⟨S128, .f32⟩ : BufTy).Contents (Elt F) → (⟨S128, .f32⟩ : BufTy).Contents (Elt F) → (⟨S128, .f32⟩ : BufTy).Contents (Elt F)),
    nullary main_c_60 (constantI S_ 32 0#32),
    TRef.nullary main_call19.cst (constant S_ .f32 0x00000000#32),
    TRef.binary (.of main_v433) main_call19.cst main_call19.v0 (fun x v => Host.reduceAdd x v reducesTo_S40000x128_S128_d0 h_S_),
    TRef.unary main_call19.v0 main_call19.v1 (broadcastInDim S1x128 ![1] bcast_S128_S1x128_1),
    TRef.nullary main_call19.cst_0 (constant S_ .f32 0x471C4000#32),
    TRef.unary main_call19.cst_0 main_call19.v2 (broadcastInDim S1x128 ![] bcast_S_S1x128),
    TRef.binary main_call19.v1 main_call19.v2 main_call19.v3 Host.divf,
    TRef.unary main_call19.v3 main_call19.v4 (broadcastInDim S40000x128 ![0, 1] bcast_S1x128_S40000x128_0_1),
    TRef.binary (.of main_v433) main_call19.v4 main_call19.v5 subf,
    TRef.binary main_call19.v5 main_call19.v5 main_call19.v6 mulf,
    TRef.unary (.of main_c_60) main_call19.v7 (sitofp .f32),
    TRef.nullary main_call19.cst_1 (constant S_ .f32 0x471C4000#32),
    TRef.binary main_call19.cst_1 main_call19.v7 main_call19.v8 subf,
    TRef.nullary main_call19.cst_2 (constant S_ .f32 0x00000000#32),
    TRef.binary main_call19.v6 main_call19.cst_2 main_call19.v9 (fun x v => Host.reduceAdd x v reducesTo_S40000x128_S128_d0 h_S_),
    TRef.unary main_call19.v8 main_call19.v10 (broadcastInDim S128 ![] bcast_S_S128),
    TRef.binary main_call19.v9 main_call19.v10 main_call19.v11 Host.divf,
    TRef.nullary main_call19.cst_3 (constant S_ .f32 0x00000000#32),
    TRef.binary main_call19.v8 main_call19.cst_3 main_call19.v12 (cmpf .ogt),
    TRef.nullary main_call19.cst_4 (constant S_ .f32 0x7FC00000#32),
    TRef.unary main_call19.cst_4 main_call19.call0.v0 id,
    TRef.unary main_call19.call0.v0 main_call19.call0.v1 (broadcastInDim S128 ![] bcast_S_S128),
    TRef.ternary main_call19.v12 main_call19.v11 main_call19.call0.v1 main_call19.call0.v2 (fun p a b => select (broadcastInDim S128 ![] bcast_S_S128 p) a b),
    unary main_v440 main_v442 (broadcastInDim S1x128 ![1] bcast_S128_S1x128_1 : (⟨S128, .f32⟩ : BufTy).Contents (Elt F) → (⟨S1x128, .f32⟩ : BufTy).Contents (Elt F)),
    unary main_v442 main_v443 (broadcastInDim S40000x128 ![0, 1] bcast_S1x128_S40000x128_0_1 : (⟨S1x128, .f32⟩ : BufTy).Contents (Elt F) → (⟨S40000x128, .f32⟩ : BufTy).Contents (Elt F)),
    binary main_v433 main_v443 main_v444 (subf : (⟨S40000x128, .f32⟩ : BufTy).Contents (Elt F) → (⟨S40000x128, .f32⟩ : BufTy).Contents (Elt F) → (⟨S40000x128, .f32⟩ : BufTy).Contents (Elt F)),
    nullary main_cst_61 (constant S_ .f32 0x3727C5AC#32),
    unary main_cst_61 main_v445 (broadcastInDim S128 ![] bcast_S_S128 : (⟨S_, .f32⟩ : BufTy).Contents (Elt F) → (⟨S128, .f32⟩ : BufTy).Contents (Elt F)),
    binary main_v441 main_v445 main_v446 (addf : (⟨S128, .f32⟩ : BufTy).Contents (Elt F) → (⟨S128, .f32⟩ : BufTy).Contents (Elt F) → (⟨S128, .f32⟩ : BufTy).Contents (Elt F)),
    unary main_v446 main_v447 (Host.rsqrt : (⟨S128, .f32⟩ : BufTy).Contents (Elt F) → (⟨S128, .f32⟩ : BufTy).Contents (Elt F)),
    unary main_v447 main_v448 (broadcastInDim S1x128 ![1] bcast_S128_S1x128_1 : (⟨S128, .f32⟩ : BufTy).Contents (Elt F) → (⟨S1x128, .f32⟩ : BufTy).Contents (Elt F)),
    unary main_v448 main_v449 (broadcastInDim S40000x128 ![0, 1] bcast_S1x128_S40000x128_0_1 : (⟨S1x128, .f32⟩ : BufTy).Contents (Elt F) → (⟨S40000x128, .f32⟩ : BufTy).Contents (Elt F)),
    binary main_v444 main_v449 main_v450 (mulf : (⟨S40000x128, .f32⟩ : BufTy).Contents (Elt F) → (⟨S40000x128, .f32⟩ : BufTy).Contents (Elt F) → (⟨S40000x128, .f32⟩ : BufTy).Contents (Elt F)),
    unary main_v435 main_v451 (broadcastInDim S1x128 ![1] bcast_S128_S1x128_1 : (⟨S128, .f32⟩ : BufTy).Contents (Elt F) → (⟨S1x128, .f32⟩ : BufTy).Contents (Elt F)),
    unary main_v451 main_v452 (broadcastInDim S40000x128 ![0, 1] bcast_S1x128_S40000x128_0_1 : (⟨S1x128, .f32⟩ : BufTy).Contents (Elt F) → (⟨S40000x128, .f32⟩ : BufTy).Contents (Elt F)),
    binary main_v450 main_v452 main_v453 (mulf : (⟨S40000x128, .f32⟩ : BufTy).Contents (Elt F) → (⟨S40000x128, .f32⟩ : BufTy).Contents (Elt F) → (⟨S40000x128, .f32⟩ : BufTy).Contents (Elt F)),
    unary main_v437 main_v454 (broadcastInDim S1x128 ![1] bcast_S128_S1x128_1 : (⟨S128, .f32⟩ : BufTy).Contents (Elt F) → (⟨S1x128, .f32⟩ : BufTy).Contents (Elt F)),
    unary main_v454 main_v455 (broadcastInDim S40000x128 ![0, 1] bcast_S1x128_S40000x128_0_1 : (⟨S1x128, .f32⟩ : BufTy).Contents (Elt F) → (⟨S40000x128, .f32⟩ : BufTy).Contents (Elt F)),
    binary main_v453 main_v455 main_v456 (addf : (⟨S40000x128, .f32⟩ : BufTy).Contents (Elt F) → (⟨S40000x128, .f32⟩ : BufTy).Contents (Elt F) → (⟨S40000x128, .f32⟩ : BufTy).Contents (Elt F)),
    unary main_arg17 main_v457 ((extractStridedSlice S1x128 ![2, 0] · slices_S3x128_S1x128_2_0) : (⟨S3x128, .f32⟩ : BufTy).Contents (Elt F) → (⟨S1x128, .f32⟩ : BufTy).Contents (Elt F)),
    reshape main_v457 main_v458 rfl shapeCasts_S1x128_S128,
    unary main_arg18 main_v459 ((extractStridedSlice S1x128 ![2, 0] · slices_S3x128_S1x128_2_0) : (⟨S3x128, .f32⟩ : BufTy).Contents (Elt F) → (⟨S1x128, .f32⟩ : BufTy).Contents (Elt F)),
    reshape main_v459 main_v460 rfl shapeCasts_S1x128_S128,
    nullary main_cst_62 (constant S_ .f32 0x00000000#32),
    binary main_v425 main_cst_62 main_v461 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    nullary main_cst_63 (constant S_ .f32 0x471C4000#32),
    unary main_cst_63 main_v462 (broadcastInDim S128 ![] bcast_S_S128 : (⟨S_, .f32⟩ : BufTy).Contents (Elt F) → (⟨S128, .f32⟩ : BufTy).Contents (Elt F)),
    binary main_v461 main_v462 main_v463 (Host.divf : (⟨S128, .f32⟩ : BufTy).Contents (Elt F) → (⟨S128, .f32⟩ : BufTy).Contents (Elt F) → (⟨S128, .f32⟩ : BufTy).Contents (Elt F)),
    nullary main_c_64 (constantI S_ 32 0#32),
    TRef.nullary main_call20.cst (constant S_ .f32 0x00000000#32),
    TRef.binary (.of main_v425) main_call20.cst main_call20.v0 (fun x v => Host.reduceAdd x v reducesTo_S40000x128_S128_d0 h_S_),
    TRef.unary main_call20.v0 main_call20.v1 (broadcastInDim S1x128 ![1] bcast_S128_S1x128_1),
    TRef.nullary main_call20.cst_0 (constant S_ .f32 0x471C4000#32),
    TRef.unary main_call20.cst_0 main_call20.v2 (broadcastInDim S1x128 ![] bcast_S_S1x128),
    TRef.binary main_call20.v1 main_call20.v2 main_call20.v3 Host.divf,
    TRef.unary main_call20.v3 main_call20.v4 (broadcastInDim S40000x128 ![0, 1] bcast_S1x128_S40000x128_0_1),
    TRef.binary (.of main_v425) main_call20.v4 main_call20.v5 subf,
    TRef.binary main_call20.v5 main_call20.v5 main_call20.v6 mulf,
    TRef.unary (.of main_c_64) main_call20.v7 (sitofp .f32),
    TRef.nullary main_call20.cst_1 (constant S_ .f32 0x471C4000#32),
    TRef.binary main_call20.cst_1 main_call20.v7 main_call20.v8 subf,
    TRef.nullary main_call20.cst_2 (constant S_ .f32 0x00000000#32),
    TRef.binary main_call20.v6 main_call20.cst_2 main_call20.v9 (fun x v => Host.reduceAdd x v reducesTo_S40000x128_S128_d0 h_S_),
    TRef.unary main_call20.v8 main_call20.v10 (broadcastInDim S128 ![] bcast_S_S128),
    TRef.binary main_call20.v9 main_call20.v10 main_call20.v11 Host.divf,
    TRef.nullary main_call20.cst_3 (constant S_ .f32 0x00000000#32),
    TRef.binary main_call20.v8 main_call20.cst_3 main_call20.v12 (cmpf .ogt),
    TRef.nullary main_call20.cst_4 (constant S_ .f32 0x7FC00000#32),
    TRef.unary main_call20.cst_4 main_call20.call0.v0 id,
    TRef.unary main_call20.call0.v0 main_call20.call0.v1 (broadcastInDim S128 ![] bcast_S_S128),
    TRef.ternary main_call20.v12 main_call20.v11 main_call20.call0.v1 main_call20.call0.v2 (fun p a b => select (broadcastInDim S128 ![] bcast_S_S128 p) a b),
    unary main_v463 main_v465 (broadcastInDim S1x128 ![1] bcast_S128_S1x128_1 : (⟨S128, .f32⟩ : BufTy).Contents (Elt F) → (⟨S1x128, .f32⟩ : BufTy).Contents (Elt F)),
    unary main_v465 main_v466 (broadcastInDim S40000x128 ![0, 1] bcast_S1x128_S40000x128_0_1 : (⟨S1x128, .f32⟩ : BufTy).Contents (Elt F) → (⟨S40000x128, .f32⟩ : BufTy).Contents (Elt F)),
    binary main_v425 main_v466 main_v467 (subf : (⟨S40000x128, .f32⟩ : BufTy).Contents (Elt F) → (⟨S40000x128, .f32⟩ : BufTy).Contents (Elt F) → (⟨S40000x128, .f32⟩ : BufTy).Contents (Elt F)),
    nullary main_cst_65 (constant S_ .f32 0x3727C5AC#32),
    unary main_cst_65 main_v468 (broadcastInDim S128 ![] bcast_S_S128 : (⟨S_, .f32⟩ : BufTy).Contents (Elt F) → (⟨S128, .f32⟩ : BufTy).Contents (Elt F)),
    binary main_v464 main_v468 main_v469 (addf : (⟨S128, .f32⟩ : BufTy).Contents (Elt F) → (⟨S128, .f32⟩ : BufTy).Contents (Elt F) → (⟨S128, .f32⟩ : BufTy).Contents (Elt F)),
    unary main_v469 main_v470 (Host.rsqrt : (⟨S128, .f32⟩ : BufTy).Contents (Elt F) → (⟨S128, .f32⟩ : BufTy).Contents (Elt F)),
    unary main_v470 main_v471 (broadcastInDim S1x128 ![1] bcast_S128_S1x128_1 : (⟨S128, .f32⟩ : BufTy).Contents (Elt F) → (⟨S1x128, .f32⟩ : BufTy).Contents (Elt F)) ]

/-- The operations of window `main_part9`, calls inlined: operations 849 … 933 of @main's. -/
abbrev ops9 : List (HloOp τ sig (Elt F)) :=
  [ unary main_v471 main_v472 (broadcastInDim S40000x128 ![0, 1] bcast_S1x128_S40000x128_0_1 : (⟨S1x128, .f32⟩ : BufTy).Contents (Elt F) → (⟨S40000x128, .f32⟩ : BufTy).Contents (Elt F)),
    binary main_v467 main_v472 main_v473 (mulf : (⟨S40000x128, .f32⟩ : BufTy).Contents (Elt F) → (⟨S40000x128, .f32⟩ : BufTy).Contents (Elt F) → (⟨S40000x128, .f32⟩ : BufTy).Contents (Elt F)),
    unary main_v458 main_v474 (broadcastInDim S1x128 ![1] bcast_S128_S1x128_1 : (⟨S128, .f32⟩ : BufTy).Contents (Elt F) → (⟨S1x128, .f32⟩ : BufTy).Contents (Elt F)),
    unary main_v474 main_v475 (broadcastInDim S40000x128 ![0, 1] bcast_S1x128_S40000x128_0_1 : (⟨S1x128, .f32⟩ : BufTy).Contents (Elt F) → (⟨S40000x128, .f32⟩ : BufTy).Contents (Elt F)),
    binary main_v473 main_v475 main_v476 (mulf : (⟨S40000x128, .f32⟩ : BufTy).Contents (Elt F) → (⟨S40000x128, .f32⟩ : BufTy).Contents (Elt F) → (⟨S40000x128, .f32⟩ : BufTy).Contents (Elt F)),
    unary main_v460 main_v477 (broadcastInDim S1x128 ![1] bcast_S128_S1x128_1 : (⟨S128, .f32⟩ : BufTy).Contents (Elt F) → (⟨S1x128, .f32⟩ : BufTy).Contents (Elt F)),
    unary main_v477 main_v478 (broadcastInDim S40000x128 ![0, 1] bcast_S1x128_S40000x128_0_1 : (⟨S1x128, .f32⟩ : BufTy).Contents (Elt F) → (⟨S40000x128, .f32⟩ : BufTy).Contents (Elt F)),
    binary main_v476 main_v478 main_v479 (addf : (⟨S40000x128, .f32⟩ : BufTy).Contents (Elt F) → (⟨S40000x128, .f32⟩ : BufTy).Contents (Elt F) → (⟨S40000x128, .f32⟩ : BufTy).Contents (Elt F)),
    binary main_v456 main_v479 main_v480 (addf : (⟨S40000x128, .f32⟩ : BufTy).Contents (Elt F) → (⟨S40000x128, .f32⟩ : BufTy).Contents (Elt F) → (⟨S40000x128, .f32⟩ : BufTy).Contents (Elt F)),
    binary main_v480 main_v407 main_v481 (addf : (⟨S40000x128, .f32⟩ : BufTy).Contents (Elt F) → (⟨S40000x128, .f32⟩ : BufTy).Contents (Elt F) → (⟨S40000x128, .f32⟩ : BufTy).Contents (Elt F)),
    TRef.nullary main_call21.cst (constant S_ .f32 0x00000000#32),
    TRef.unary main_call21.cst main_call21.v0 (broadcastInDim S40000x128 ![] bcast_S_S40000x128),
    TRef.binary (.of main_v481) main_call21.v0 main_call21.v1 maximumf,
    unary main_arg19 main_v483 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v483 main_v484 rfl shapeCasts_S1x128x128_S128x128,
    binary main_v482 main_v484 main_v485 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg20 main_v486 ((extractStridedSlice S1x128 ![2, 0] · slices_S3x128_S1x128_2_0) : (⟨S3x128, .f32⟩ : BufTy).Contents (Elt F) → (⟨S1x128, .f32⟩ : BufTy).Contents (Elt F)),
    reshape main_v486 main_v487 rfl shapeCasts_S1x128_S128,
    unary main_v487 main_v488 (broadcastInDim S1x128 ![1] bcast_S128_S1x128_1 : (⟨S128, .f32⟩ : BufTy).Contents (Elt F) → (⟨S1x128, .f32⟩ : BufTy).Contents (Elt F)),
    unary main_v488 main_v489 (broadcastInDim S40000x128 ![0, 1] bcast_S1x128_S40000x128_0_1 : (⟨S1x128, .f32⟩ : BufTy).Contents (Elt F) → (⟨S40000x128, .f32⟩ : BufTy).Contents (Elt F)),
    binary main_v485 main_v489 main_v490 (addf : (⟨S40000x128, .f32⟩ : BufTy).Contents (Elt F) → (⟨S40000x128, .f32⟩ : BufTy).Contents (Elt F) → (⟨S40000x128, .f32⟩ : BufTy).Contents (Elt F)),
    unary main_arg21 main_v491 ((extractStridedSlice S1x128 ![2, 0] · slices_S3x128_S1x128_2_0) : (⟨S3x128, .f32⟩ : BufTy).Contents (Elt F) → (⟨S1x128, .f32⟩ : BufTy).Contents (Elt F)),
    reshape main_v491 main_v492 rfl shapeCasts_S1x128_S128,
    unary main_arg22 main_v493 ((extractStridedSlice S1x128 ![2, 0] · slices_S3x128_S1x128_2_0) : (⟨S3x128, .f32⟩ : BufTy).Contents (Elt F) → (⟨S1x128, .f32⟩ : BufTy).Contents (Elt F)),
    reshape main_v493 main_v494 rfl shapeCasts_S1x128_S128,
    nullary main_cst_66 (constant S_ .f32 0x00000000#32),
    binary main_v490 main_cst_66 main_v495 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    nullary main_cst_67 (constant S_ .f32 0x471C4000#32),
    unary main_cst_67 main_v496 (broadcastInDim S128 ![] bcast_S_S128 : (⟨S_, .f32⟩ : BufTy).Contents (Elt F) → (⟨S128, .f32⟩ : BufTy).Contents (Elt F)),
    binary main_v495 main_v496 main_v497 (Host.divf : (⟨S128, .f32⟩ : BufTy).Contents (Elt F) → (⟨S128, .f32⟩ : BufTy).Contents (Elt F) → (⟨S128, .f32⟩ : BufTy).Contents (Elt F)),
    nullary main_c_68 (constantI S_ 32 0#32),
    TRef.nullary main_call22.cst (constant S_ .f32 0x00000000#32),
    TRef.binary (.of main_v490) main_call22.cst main_call22.v0 (fun x v => Host.reduceAdd x v reducesTo_S40000x128_S128_d0 h_S_),
    TRef.unary main_call22.v0 main_call22.v1 (broadcastInDim S1x128 ![1] bcast_S128_S1x128_1),
    TRef.nullary main_call22.cst_0 (constant S_ .f32 0x471C4000#32),
    TRef.unary main_call22.cst_0 main_call22.v2 (broadcastInDim S1x128 ![] bcast_S_S1x128),
    TRef.binary main_call22.v1 main_call22.v2 main_call22.v3 Host.divf,
    TRef.unary main_call22.v3 main_call22.v4 (broadcastInDim S40000x128 ![0, 1] bcast_S1x128_S40000x128_0_1),
    TRef.binary (.of main_v490) main_call22.v4 main_call22.v5 subf,
    TRef.binary main_call22.v5 main_call22.v5 main_call22.v6 mulf,
    TRef.unary (.of main_c_68) main_call22.v7 (sitofp .f32),
    TRef.nullary main_call22.cst_1 (constant S_ .f32 0x471C4000#32),
    TRef.binary main_call22.cst_1 main_call22.v7 main_call22.v8 subf,
    TRef.nullary main_call22.cst_2 (constant S_ .f32 0x00000000#32),
    TRef.binary main_call22.v6 main_call22.cst_2 main_call22.v9 (fun x v => Host.reduceAdd x v reducesTo_S40000x128_S128_d0 h_S_),
    TRef.unary main_call22.v8 main_call22.v10 (broadcastInDim S128 ![] bcast_S_S128),
    TRef.binary main_call22.v9 main_call22.v10 main_call22.v11 Host.divf,
    TRef.nullary main_call22.cst_3 (constant S_ .f32 0x00000000#32),
    TRef.binary main_call22.v8 main_call22.cst_3 main_call22.v12 (cmpf .ogt),
    TRef.nullary main_call22.cst_4 (constant S_ .f32 0x7FC00000#32),
    TRef.unary main_call22.cst_4 main_call22.call0.v0 id,
    TRef.unary main_call22.call0.v0 main_call22.call0.v1 (broadcastInDim S128 ![] bcast_S_S128),
    TRef.ternary main_call22.v12 main_call22.v11 main_call22.call0.v1 main_call22.call0.v2 (fun p a b => select (broadcastInDim S128 ![] bcast_S_S128 p) a b),
    unary main_v497 main_v499 (broadcastInDim S1x128 ![1] bcast_S128_S1x128_1 : (⟨S128, .f32⟩ : BufTy).Contents (Elt F) → (⟨S1x128, .f32⟩ : BufTy).Contents (Elt F)),
    unary main_v499 main_v500 (broadcastInDim S40000x128 ![0, 1] bcast_S1x128_S40000x128_0_1 : (⟨S1x128, .f32⟩ : BufTy).Contents (Elt F) → (⟨S40000x128, .f32⟩ : BufTy).Contents (Elt F)),
    binary main_v490 main_v500 main_v501 (subf : (⟨S40000x128, .f32⟩ : BufTy).Contents (Elt F) → (⟨S40000x128, .f32⟩ : BufTy).Contents (Elt F) → (⟨S40000x128, .f32⟩ : BufTy).Contents (Elt F)),
    nullary main_cst_69 (constant S_ .f32 0x3727C5AC#32),
    unary main_cst_69 main_v502 (broadcastInDim S128 ![] bcast_S_S128 : (⟨S_, .f32⟩ : BufTy).Contents (Elt F) → (⟨S128, .f32⟩ : BufTy).Contents (Elt F)),
    binary main_v498 main_v502 main_v503 (addf : (⟨S128, .f32⟩ : BufTy).Contents (Elt F) → (⟨S128, .f32⟩ : BufTy).Contents (Elt F) → (⟨S128, .f32⟩ : BufTy).Contents (Elt F)),
    unary main_v503 main_v504 (Host.rsqrt : (⟨S128, .f32⟩ : BufTy).Contents (Elt F) → (⟨S128, .f32⟩ : BufTy).Contents (Elt F)),
    unary main_v504 main_v505 (broadcastInDim S1x128 ![1] bcast_S128_S1x128_1 : (⟨S128, .f32⟩ : BufTy).Contents (Elt F) → (⟨S1x128, .f32⟩ : BufTy).Contents (Elt F)),
    unary main_v505 main_v506 (broadcastInDim S40000x128 ![0, 1] bcast_S1x128_S40000x128_0_1 : (⟨S1x128, .f32⟩ : BufTy).Contents (Elt F) → (⟨S40000x128, .f32⟩ : BufTy).Contents (Elt F)),
    binary main_v501 main_v506 main_v507 (mulf : (⟨S40000x128, .f32⟩ : BufTy).Contents (Elt F) → (⟨S40000x128, .f32⟩ : BufTy).Contents (Elt F) → (⟨S40000x128, .f32⟩ : BufTy).Contents (Elt F)),
    unary main_v492 main_v508 (broadcastInDim S1x128 ![1] bcast_S128_S1x128_1 : (⟨S128, .f32⟩ : BufTy).Contents (Elt F) → (⟨S1x128, .f32⟩ : BufTy).Contents (Elt F)),
    unary main_v508 main_v509 (broadcastInDim S40000x128 ![0, 1] bcast_S1x128_S40000x128_0_1 : (⟨S1x128, .f32⟩ : BufTy).Contents (Elt F) → (⟨S40000x128, .f32⟩ : BufTy).Contents (Elt F)),
    binary main_v507 main_v509 main_v510 (mulf : (⟨S40000x128, .f32⟩ : BufTy).Contents (Elt F) → (⟨S40000x128, .f32⟩ : BufTy).Contents (Elt F) → (⟨S40000x128, .f32⟩ : BufTy).Contents (Elt F)),
    unary main_v494 main_v511 (broadcastInDim S1x128 ![1] bcast_S128_S1x128_1 : (⟨S128, .f32⟩ : BufTy).Contents (Elt F) → (⟨S1x128, .f32⟩ : BufTy).Contents (Elt F)),
    unary main_v511 main_v512 (broadcastInDim S40000x128 ![0, 1] bcast_S1x128_S40000x128_0_1 : (⟨S1x128, .f32⟩ : BufTy).Contents (Elt F) → (⟨S40000x128, .f32⟩ : BufTy).Contents (Elt F)),
    binary main_v510 main_v512 main_v513 (addf : (⟨S40000x128, .f32⟩ : BufTy).Contents (Elt F) → (⟨S40000x128, .f32⟩ : BufTy).Contents (Elt F) → (⟨S40000x128, .f32⟩ : BufTy).Contents (Elt F)),
    TRef.nullary main_call23.cst (constant S_ .f32 0x00000000#32),
    TRef.unary main_call23.cst main_call23.v0 (broadcastInDim S40000x128 ![] bcast_S_S40000x128),
    TRef.binary (.of main_v513) main_call23.v0 main_call23.v1 maximumf,
    unary main_arg23 main_v515 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v515 main_v516 rfl shapeCasts_S1x128x128_S128x128,
    binary main_v514 main_v516 main_v517 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    unary main_arg24 main_v518 ((extractStridedSlice S1x128 ![2, 0] · slices_S3x128_S1x128_2_0) : (⟨S3x128, .f32⟩ : BufTy).Contents (Elt F) → (⟨S1x128, .f32⟩ : BufTy).Contents (Elt F)),
    reshape main_v518 main_v519 rfl shapeCasts_S1x128_S128,
    unary main_v519 main_v520 (broadcastInDim S1x128 ![1] bcast_S128_S1x128_1 : (⟨S128, .f32⟩ : BufTy).Contents (Elt F) → (⟨S1x128, .f32⟩ : BufTy).Contents (Elt F)),
    unary main_v520 main_v521 (broadcastInDim S40000x128 ![0, 1] bcast_S1x128_S40000x128_0_1 : (⟨S1x128, .f32⟩ : BufTy).Contents (Elt F) → (⟨S40000x128, .f32⟩ : BufTy).Contents (Elt F)),
    binary main_v517 main_v521 main_v522 (addf : (⟨S40000x128, .f32⟩ : BufTy).Contents (Elt F) → (⟨S40000x128, .f32⟩ : BufTy).Contents (Elt F) → (⟨S40000x128, .f32⟩ : BufTy).Contents (Elt F)),
    unary main_arg25 main_v523 ((extractStridedSlice S1x128 ![2, 0] · slices_S3x128_S1x128_2_0) : (⟨S3x128, .f32⟩ : BufTy).Contents (Elt F) → (⟨S1x128, .f32⟩ : BufTy).Contents (Elt F)),
    reshape main_v523 main_v524 rfl shapeCasts_S1x128_S128,
    unary main_arg26 main_v525 ((extractStridedSlice S1x128 ![2, 0] · slices_S3x128_S1x128_2_0) : (⟨S3x128, .f32⟩ : BufTy).Contents (Elt F) → (⟨S1x128, .f32⟩ : BufTy).Contents (Elt F)),
    reshape main_v525 main_v526 rfl shapeCasts_S1x128_S128,
    nullary main_cst_70 (constant S_ .f32 0x00000000#32) ]

/-- The operations of window `main_part10`, calls inlined: operations 934 … 979 of @main's. -/
abbrev ops10 : List (HloOp τ sig (Elt F)) :=
  [ binary main_v522 main_cst_70 main_v527 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    nullary main_cst_71 (constant S_ .f32 0x471C4000#32),
    unary main_cst_71 main_v528 (broadcastInDim S128 ![] bcast_S_S128 : (⟨S_, .f32⟩ : BufTy).Contents (Elt F) → (⟨S128, .f32⟩ : BufTy).Contents (Elt F)),
    binary main_v527 main_v528 main_v529 (Host.divf : (⟨S128, .f32⟩ : BufTy).Contents (Elt F) → (⟨S128, .f32⟩ : BufTy).Contents (Elt F) → (⟨S128, .f32⟩ : BufTy).Contents (Elt F)),
    nullary main_c_72 (constantI S_ 32 0#32),
    TRef.nullary main_call24.cst (constant S_ .f32 0x00000000#32),
    TRef.binary (.of main_v522) main_call24.cst main_call24.v0 (fun x v => Host.reduceAdd x v reducesTo_S40000x128_S128_d0 h_S_),
    TRef.unary main_call24.v0 main_call24.v1 (broadcastInDim S1x128 ![1] bcast_S128_S1x128_1),
    TRef.nullary main_call24.cst_0 (constant S_ .f32 0x471C4000#32),
    TRef.unary main_call24.cst_0 main_call24.v2 (broadcastInDim S1x128 ![] bcast_S_S1x128),
    TRef.binary main_call24.v1 main_call24.v2 main_call24.v3 Host.divf,
    TRef.unary main_call24.v3 main_call24.v4 (broadcastInDim S40000x128 ![0, 1] bcast_S1x128_S40000x128_0_1),
    TRef.binary (.of main_v522) main_call24.v4 main_call24.v5 subf,
    TRef.binary main_call24.v5 main_call24.v5 main_call24.v6 mulf,
    TRef.unary (.of main_c_72) main_call24.v7 (sitofp .f32),
    TRef.nullary main_call24.cst_1 (constant S_ .f32 0x471C4000#32),
    TRef.binary main_call24.cst_1 main_call24.v7 main_call24.v8 subf,
    TRef.nullary main_call24.cst_2 (constant S_ .f32 0x00000000#32),
    TRef.binary main_call24.v6 main_call24.cst_2 main_call24.v9 (fun x v => Host.reduceAdd x v reducesTo_S40000x128_S128_d0 h_S_),
    TRef.unary main_call24.v8 main_call24.v10 (broadcastInDim S128 ![] bcast_S_S128),
    TRef.binary main_call24.v9 main_call24.v10 main_call24.v11 Host.divf,
    TRef.nullary main_call24.cst_3 (constant S_ .f32 0x00000000#32),
    TRef.binary main_call24.v8 main_call24.cst_3 main_call24.v12 (cmpf .ogt),
    TRef.nullary main_call24.cst_4 (constant S_ .f32 0x7FC00000#32),
    TRef.unary main_call24.cst_4 main_call24.call0.v0 id,
    TRef.unary main_call24.call0.v0 main_call24.call0.v1 (broadcastInDim S128 ![] bcast_S_S128),
    TRef.ternary main_call24.v12 main_call24.v11 main_call24.call0.v1 main_call24.call0.v2 (fun p a b => select (broadcastInDim S128 ![] bcast_S_S128 p) a b),
    unary main_v529 main_v531 (broadcastInDim S1x128 ![1] bcast_S128_S1x128_1 : (⟨S128, .f32⟩ : BufTy).Contents (Elt F) → (⟨S1x128, .f32⟩ : BufTy).Contents (Elt F)),
    unary main_v531 main_v532 (broadcastInDim S40000x128 ![0, 1] bcast_S1x128_S40000x128_0_1 : (⟨S1x128, .f32⟩ : BufTy).Contents (Elt F) → (⟨S40000x128, .f32⟩ : BufTy).Contents (Elt F)),
    binary main_v522 main_v532 main_v533 (subf : (⟨S40000x128, .f32⟩ : BufTy).Contents (Elt F) → (⟨S40000x128, .f32⟩ : BufTy).Contents (Elt F) → (⟨S40000x128, .f32⟩ : BufTy).Contents (Elt F)),
    nullary main_cst_73 (constant S_ .f32 0x3727C5AC#32),
    unary main_cst_73 main_v534 (broadcastInDim S128 ![] bcast_S_S128 : (⟨S_, .f32⟩ : BufTy).Contents (Elt F) → (⟨S128, .f32⟩ : BufTy).Contents (Elt F)),
    binary main_v530 main_v534 main_v535 (addf : (⟨S128, .f32⟩ : BufTy).Contents (Elt F) → (⟨S128, .f32⟩ : BufTy).Contents (Elt F) → (⟨S128, .f32⟩ : BufTy).Contents (Elt F)),
    unary main_v535 main_v536 (Host.rsqrt : (⟨S128, .f32⟩ : BufTy).Contents (Elt F) → (⟨S128, .f32⟩ : BufTy).Contents (Elt F)),
    unary main_v536 main_v537 (broadcastInDim S1x128 ![1] bcast_S128_S1x128_1 : (⟨S128, .f32⟩ : BufTy).Contents (Elt F) → (⟨S1x128, .f32⟩ : BufTy).Contents (Elt F)),
    unary main_v537 main_v538 (broadcastInDim S40000x128 ![0, 1] bcast_S1x128_S40000x128_0_1 : (⟨S1x128, .f32⟩ : BufTy).Contents (Elt F) → (⟨S40000x128, .f32⟩ : BufTy).Contents (Elt F)),
    binary main_v533 main_v538 main_v539 (mulf : (⟨S40000x128, .f32⟩ : BufTy).Contents (Elt F) → (⟨S40000x128, .f32⟩ : BufTy).Contents (Elt F) → (⟨S40000x128, .f32⟩ : BufTy).Contents (Elt F)),
    unary main_v524 main_v540 (broadcastInDim S1x128 ![1] bcast_S128_S1x128_1 : (⟨S128, .f32⟩ : BufTy).Contents (Elt F) → (⟨S1x128, .f32⟩ : BufTy).Contents (Elt F)),
    unary main_v540 main_v541 (broadcastInDim S40000x128 ![0, 1] bcast_S1x128_S40000x128_0_1 : (⟨S1x128, .f32⟩ : BufTy).Contents (Elt F) → (⟨S40000x128, .f32⟩ : BufTy).Contents (Elt F)),
    binary main_v539 main_v541 main_v542 (mulf : (⟨S40000x128, .f32⟩ : BufTy).Contents (Elt F) → (⟨S40000x128, .f32⟩ : BufTy).Contents (Elt F) → (⟨S40000x128, .f32⟩ : BufTy).Contents (Elt F)),
    unary main_v526 main_v543 (broadcastInDim S1x128 ![1] bcast_S128_S1x128_1 : (⟨S128, .f32⟩ : BufTy).Contents (Elt F) → (⟨S1x128, .f32⟩ : BufTy).Contents (Elt F)),
    unary main_v543 main_v544 (broadcastInDim S40000x128 ![0, 1] bcast_S1x128_S40000x128_0_1 : (⟨S1x128, .f32⟩ : BufTy).Contents (Elt F) → (⟨S40000x128, .f32⟩ : BufTy).Contents (Elt F)),
    binary main_v542 main_v544 main_v545 (addf : (⟨S40000x128, .f32⟩ : BufTy).Contents (Elt F) → (⟨S40000x128, .f32⟩ : BufTy).Contents (Elt F) → (⟨S40000x128, .f32⟩ : BufTy).Contents (Elt F)),
    TRef.nullary main_call25.cst (constant S_ .f32 0x00000000#32),
    TRef.unary main_call25.cst main_call25.v0 (broadcastInDim S40000x128 ![] bcast_S_S40000x128),
    TRef.binary (.of main_v545) main_call25.v0 main_call25.v1 maximumf ]

/-- @main's 979 operations, in order (a called function's operations stand in its call's place). -/
abbrev ops : List (HloOp τ sig (Elt F)) :=
  ops0 ++ (ops1 ++ (ops2 ++ (ops3 ++ (ops4 ++ (ops5 ++ (ops6 ++ (ops7 ++ (ops8 ++ (ops9 ++ (ops10))))))))))

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub ..⟩

set_option maxRecDepth 8192 in
theorem ops1_sub : (ops1 : List (HloOp τ sig (Elt F))).Forall fun op => op.bufs ⊆ tcRefs τ sig :=
  ⟨binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub ..⟩

set_option maxRecDepth 8192 in
theorem ops2_sub : (ops2 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub ..⟩

set_option maxRecDepth 8192 in
theorem ops3_sub : (ops3 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub ..⟩

set_option maxRecDepth 8192 in
theorem ops4_sub : (ops4 : List (HloOp τ sig (Elt F))).Forall fun op => op.bufs ⊆ tcRefs τ sig :=
  ⟨ternary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub ..⟩

set_option maxRecDepth 8192 in
theorem ops5_sub : (ops5 : List (HloOp τ sig (Elt F))).Forall fun op => op.bufs ⊆ tcRefs τ sig :=
  ⟨reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., binary_bufs_sub .., nullary_bufs_sub .., unary_bufs_sub .., binary_bufs_sub .., unary_bufs_sub .., reshape_bufs_sub .., binary_bufs_sub .., unary_bufs_sub .., reshape_bufs_sub .., unary_bufs_sub ..⟩

set_option maxRecDepth 8192 in
theorem ops6_sub : (ops6 : List (HloOp τ sig (Elt F))).Forall fun op => op.bufs ⊆ tcRefs τ sig :=
  ⟨unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub ..⟩

set_option maxRecDepth 8192 in
theorem ops7_sub : (ops7 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

set_option maxRecDepth 8192 in
theorem ops8_sub : (ops8 : List (HloOp τ sig (Elt F))).Forall fun op => op.bufs ⊆ tcRefs τ sig :=
  ⟨unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub ..⟩

set_option maxRecDepth 8192 in
theorem ops9_sub : (ops9 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub .., binary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub ..⟩

set_option maxRecDepth 8192 in
theorem ops10_sub : (ops10 : List (HloOp τ sig (Elt F))).Forall fun op => op.bufs ⊆ tcRefs τ sig :=
  ⟨binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h, List.forall_iff_forall_mem.mp ops10_sub op h]

end Cert.ReferenceIdeal.RRun

end
-- ==== Proof.RRun.lean ====
import proofs.«426021_j89885075570707_3_alg».proof.Proof.ROps

set_option Elab.async false

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-! The reference program's run. Each printed window `main_partK` of @main is the straight line of its operation
    list `opsK`: with the called functions' bodies unfolded at their calls (`_var`, which itself calls `_where`, and
    `relu`) and sequencing reassociated (`bind_assoc`, `pure_bind`), both sides are one chain of `hlo` steps, equal by
    computation. @main runs its windows in order, and a concatenation of lines runs as the lines one after the other
    (`seq_append`), so @main is the straight line of `ops`; a straight line's run is the fold `after` of its operations'
    results over the launch contents (`run_seq`). -/

set_option maxRecDepth 4096 in
theorem main_part0_eq (c : Dev nD) : main_part0 (F := F) c = seq ops0 := by
  simp only [main_part0, fn_var.body, fn_where.body, fn_relu.body, seq, bind_assoc, pure_bind]
  rfl

set_option maxRecDepth 4096 in
theorem main_part1_eq (c : Dev nD) : main_part1 (F := F) c = seq ops1 := by
  simp only [main_part1, fn_var.body, fn_where.body, fn_relu.body, seq, bind_assoc, pure_bind]
  rfl

set_option maxRecDepth 4096 in
theorem main_part2_eq (c : Dev nD) : main_part2 (F := F) c = seq ops2 := by
  simp only [main_part2, fn_var.body, fn_where.body, fn_relu.body, seq, bind_assoc, pure_bind]
  rfl

set_option maxRecDepth 4096 in
theorem main_part3_eq (c : Dev nD) : main_part3 (F := F) c = seq ops3 := by
  simp only [main_part3, fn_var.body, fn_where.body, fn_relu.body, seq, bind_assoc, pure_bind]
  rfl

set_option maxRecDepth 4096 in
theorem main_part4_eq (c : Dev nD) : main_part4 (F := F) c = seq ops4 := by
  simp only [main_part4, fn_var.body, fn_where.body, fn_relu.body, seq, bind_assoc, pure_bind]
  rfl

set_option maxRecDepth 4096 in
theorem main_part5_eq (c : Dev nD) : main_part5 (F := F) c = seq ops5 := by
  simp only [main_part5, fn_var.body, fn_where.body, fn_relu.body, seq, bind_assoc, pure_bind]
  rfl

set_option maxRecDepth 4096 in
theorem main_part6_eq (c : Dev nD) : main_part6 (F := F) c = seq ops6 := by
  simp only [main_part6, fn_var.body, fn_where.body, fn_relu.body, seq, bind_assoc, pure_bind]
  rfl

set_option maxRecDepth 4096 in
theorem main_part7_eq (c : Dev nD) : main_part7 (F := F) c = seq ops7 := by
  simp only [main_part7, fn_var.body, fn_where.body, fn_relu.body, seq, bind_assoc, pure_bind]
  rfl

set_option maxRecDepth 4096 in
theorem main_part8_eq (c : Dev nD) : main_part8 (F := F) c = seq ops8 := by
  simp only [main_part8, fn_var.body, fn_where.body, fn_relu.body, seq, bind_assoc, pure_bind]
  rfl

set_option maxRecDepth 4096 in
theorem main_part9_eq (c : Dev nD) : main_part9 (F := F) c = seq ops9 := by
  simp only [main_part9, fn_var.body, fn_where.body, fn_relu.body, seq, bind_assoc, pure_bind]
  rfl

set_option maxRecDepth 4096 in
theorem main_part10_eq (c : Dev nD) : main_part10 (F := F) c = seq ops10 := by
  simp only [main_part10, fn_var.body, fn_where.body, fn_relu.body, seq, bind_assoc, pure_bind]

/-- @main is the straight line of all its operations. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c]
  rfl

theorem scopedRefs_eq : (Finset.univ.filter fun b : Ref sig .tc => b.isScoped) = ∅ := by decide
theorem scopedSems_eq : (Finset.univ.filter fun sm : SemLoc sig => sm.isScoped .tc) = ∅ := by decide

/-! Every operation determines its results (none leaves a buffer's contents unspecified): list by list, each
    operation by computation. -/

theorem ops0_fresh : (ops0 : List (HloOp τ sig (Elt F))).Forall fun op => op.fresh = ∅ := by
  simp only [List.Forall]; repeat' constructor

theorem ops1_fresh : (ops1 : List (HloOp τ sig (Elt F))).Forall fun op => op.fresh = ∅ := by
  simp only [List.Forall]; repeat' constructor

theorem ops2_fresh : (ops2 : List (HloOp τ sig (Elt F))).Forall fun op => op.fresh = ∅ := by
  simp only [List.Forall]; repeat' constructor

theorem ops3_fresh : (ops3 : List (HloOp τ sig (Elt F))).Forall fun op => op.fresh = ∅ := by
  simp only [List.Forall]; repeat' constructor

theorem ops4_fresh : (ops4 : List (HloOp τ sig (Elt F))).Forall fun op => op.fresh = ∅ := by
  simp only [List.Forall]; repeat' constructor

theorem ops5_fresh : (ops5 : List (HloOp τ sig (Elt F))).Forall fun op => op.fresh = ∅ := by
  simp only [List.Forall]; repeat' constructor

theorem ops6_fresh : (ops6 : List (HloOp τ sig (Elt F))).Forall fun op => op.fresh = ∅ := by
  simp only [List.Forall]; repeat' constructor

theorem ops7_fresh : (ops7 : List (HloOp τ sig (Elt F))).Forall fun op => op.fresh = ∅ := by
  simp only [List.Forall]; repeat' constructor

theorem ops8_fresh : (ops8 : List (HloOp τ sig (Elt F))).Forall fun op => op.fresh = ∅ := by
  simp only [List.Forall]; repeat' constructor

theorem ops9_fresh : (ops9 : List (HloOp τ sig (Elt F))).Forall fun op => op.fresh = ∅ := by
  simp only [List.Forall]; repeat' constructor

theorem ops10_fresh : (ops10 : List (HloOp τ sig (Elt F))).Forall fun op => op.fresh = ∅ := by
  simp only [List.Forall]; repeat' constructor

theorem ops_fresh : ∀ op ∈ (ops : List (HloOp τ sig (Elt F))), op.fresh = ∅ := fun op h => by
  simp only [ops, List.mem_append] at h
  rcases h with h | h | h | h | h | h | h | h | h | h | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h, List.forall_iff_forall_mem.mp ops8_fresh op h, List.forall_iff_forall_mem.mp ops9_fresh op h, List.forall_iff_forall_mem.mp ops10_fresh op h]

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RRun

end
-- ==== Proof.HostForms.lean ====
import proofs.«426021_j89885075570707_3_alg».proof.Proof.Spec
import proofs.«426021_j89885075570707_3_alg».proof.Proof.Chains
import proofs.«426021_j89885075570707_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

/-
  The reference program's host terms, read entry by entry, are the layer functions.

  Over the extended reals every host operation of a layer is an entrywise function of its operands: a sum, a
  difference, a product and a maximum act entry by entry; a 128-vector broadcast first to a row and then to all rows
  is read at `(p, q)` as its entry `q`; a scalar word broadcast to any shape is that word's value at every entry; and
  the plain matrix product's entry `(p, q)` is `∑ k, x (p, k) * W (k, q)`. So the composed term of each layer is,
  at every index, the layer's entry formula: the linear layer `x · W + b`, the batch normalisation with given column
  statistics, the maximum with zero, and the left-associated sum of three arrays.
-/
namespace Cert.HostForms

open Idealize.ShloMosaic Idealize.ShloMosaic.ValueIdx Cert.Chains

/-! ## The three matrix products' dimension numbers -/

/-- The input layer's product: `40000×2` by `2×128`. -/
def dotIn : DotDims ⟨2, ![40000, 2]⟩ ⟨2, ![2, 128]⟩ SN where
  lhsContracting := [1]
  rhsContracting := [0]
  lhsNonContracting := [0]
  rhsNonContracting := [1]
  lhsBatch := []
  rhsBatch := []
  wf := by decide

/-- A node layer's product: `40000×128` by `128×128`. -/
def dotNode : DotDims SN SFF SN where
  lhsContracting := [1]
  rhsContracting := [0]
  lhsNonContracting := [0]
  rhsNonContracting := [1]
  lhsBatch := []
  rhsBatch := []
  wf := by decide

/-- The edge layer's product: `640000×1` by `1×128`. -/
def dotEdge : DotDims SE1 S1F SE where
  lhsContracting := [1]
  rhsContracting := [0]
  lhsNonContracting := [0]
  rhsNonContracting := [1]
  lhsBatch := []
  rhsBatch := []
  wf := by decide

theorem dotIn_eq : dotIn = DotDims.plain 40000 2 128 := rfl
theorem dotNode_eq : dotNode = DotDims.plain 40000 128 128 := rfl
theorem dotEdge_eq : dotEdge = DotDims.plain 640000 1 128 := rfl

/-! ## Broadcasts read at an entry -/

/-- A 128-vector broadcast to a `1×128` row and then to `n` rows, read at `(p, q)`, is its entry `q`. -/
theorem bcRows_apply {α : Type} {n : Nat} (h1 : SF.BroadcastsInDim S1F ![1])
    (h2 : S1F.BroadcastsInDim ⟨2, ![n, 128]⟩ ![0, 1]) (b : SF.Idx → α) (p : Fin n) (q : Fin 128) :
    broadcastInDim ⟨2, ![n, 128]⟩ ![0, 1] h2 (broadcastInDim S1F ![1] h1 b) (ix2 p q) = b (ix1 q) := by
  rw [broadcastInDim_apply ![0, 1] h2 _ (ix2 p q) (ix2 (0 : Fin 1) q) (fun a => by
        match a with
        | ⟨0, _⟩ => rfl
        | ⟨1, _⟩ => rfl),
    broadcastInDim_apply ![1] h1 b (ix2 (0 : Fin 1) q) (ix1 q) (fun a => by
        match a with
        | ⟨0, _⟩ => rfl)]

/-- A scalar word broadcast to any shape is, at every entry, the word's value. -/
theorem bcScalar_apply {t : Shape} (h : S_.BroadcastsInDim t ![]) (w : BitVec FTy.f32.bits) (j : t.Idx) :
    broadcastInDim t ![] h (constant (F := Ideal) S_ .f32 w) j = Ideal.ofBits .f32 w := rfl

/-! ## The layers -/

/-- The linear layer: the plain product plus the bias vector broadcast to all rows is `x · W + b`. -/
theorem lin_host {M K : Nat} (d : DotDims ⟨2, ![M, K]⟩ ⟨2, ![K, 128]⟩ ⟨2, ![M, 128]⟩) (hd : d = DotDims.plain M K 128)
    (x : FVec Ideal ⟨2, ![M, K]⟩ .f32) (W : FVec Ideal ⟨2, ![K, 128]⟩ .f32) (b : FVec Ideal SF .f32)
    (h1 : SF.BroadcastsInDim S1F ![1]) (h2 : S1F.BroadcastsInDim ⟨2, ![M, 128]⟩ ![0, 1]) :
    addf (Host.dotGeneral d none x W) (broadcastInDim ⟨2, ![M, 128]⟩ ![0, 1] h2 (broadcastInDim S1F ![1] h1 b))
      = Cert.Spec.lin x W b := by
  subst hd
  funext i
  obtain ⟨p, q, rfl⟩ : ∃ (p : Fin M) (q : Fin 128), i = ix2 p q := ⟨i 0, i 1, eq_ix2 i⟩
  simp only [addf, Ideal.addf_def, Cert.Lib.PlainDot.dotGeneral_apply, Cert.Spec.lin_apply, Cert.Spec.linE]
  rw [bcRows_apply h1 h2 b p q]

/-- The input layer's linear map. -/
theorem lin_host_in (x : FVec Ideal ⟨2, ![40000, 2]⟩ .f32) (W : FVec Ideal ⟨2, ![2, 128]⟩ .f32) (b : FVec Ideal SF .f32)
    (h1 : SF.BroadcastsInDim S1F ![1]) (h2 : S1F.BroadcastsInDim SN ![0, 1]) :
    addf (Host.dotGeneral dotIn none x W) (broadcastInDim SN ![0, 1] h2 (broadcastInDim S1F ![1] h1 b))
      = Cert.Spec.lin x W b :=
  lin_host dotIn dotIn_eq x W b h1 h2

/-- A node layer's linear map. -/
theorem lin_host_node (x : FVec Ideal SN .f32) (W : FVec Ideal SFF .f32) (b : FVec Ideal SF .f32)
    (h1 : SF.BroadcastsInDim S1F ![1]) (h2 : S1F.BroadcastsInDim SN ![0, 1]) :
    addf (Host.dotGeneral dotNode none x W) (broadcastInDim SN ![0, 1] h2 (broadcastInDim S1F ![1] h1 b))
      = Cert.Spec.lin x W b :=
  lin_host dotNode dotNode_eq x W b h1 h2

/-- The edge layer's linear map. -/
theorem lin_host_edge (x : FVec Ideal SE1 .f32) (W : FVec Ideal S1F .f32) (b : FVec Ideal SF .f32)
    (h1 : SF.BroadcastsInDim S1F ![1]) (h2 : S1F.BroadcastsInDim SE ![0, 1]) :
    addf (Host.dotGeneral dotEdge none x W) (broadcastInDim SE ![0, 1] h2 (broadcastInDim S1F ![1] h1 b))
      = Cert.Spec.lin x W b :=
  lin_host dotEdge dotEdge_eq x W b h1 h2

/-- The batch normalisation with given column statistics:
    `((x - μ) * rsqrt (v + ε)) * g + β` with every 128-vector broadcast to all rows. -/
theorem bn_host {n : Nat} (x : FVec Ideal ⟨2, ![n, 128]⟩ .f32) (μ v g β : FVec Ideal SF .f32)
    (h0 : S_.BroadcastsInDim SF ![]) (h1 : SF.BroadcastsInDim S1F ![1])
    (h2 : S1F.BroadcastsInDim ⟨2, ![n, 128]⟩ ![0, 1]) :
    addf
      (mulf
        (mulf (subf x (broadcastInDim ⟨2, ![n, 128]⟩ ![0, 1] h2 (broadcastInDim S1F ![1] h1 μ)))
          (broadcastInDim ⟨2, ![n, 128]⟩ ![0, 1] h2 (broadcastInDim S1F ![1] h1
            (Host.rsqrt (addf v (broadcastInDim SF ![] h0 (constant (F := Ideal) S_ .f32 0x3727C5AC#32)))))))
        (broadcastInDim ⟨2, ![n, 128]⟩ ![0, 1] h2 (broadcastInDim S1F ![1] h1 g)))
      (broadcastInDim ⟨2, ![n, 128]⟩ ![0, 1] h2 (broadcastInDim S1F ![1] h1 β))
      = Cert.Spec.bn x μ v g β := by
  funext i
  obtain ⟨p, q, rfl⟩ : ∃ (p : Fin n) (q : Fin 128), i = ix2 p q := ⟨i 0, i 1, eq_ix2 i⟩
  simp only [addf, mulf, subf, Ideal.addf_def, Ideal.mulf_def, Ideal.subf_def, Cert.Spec.bn_apply, Cert.Spec.bnE]
  rw [bcRows_apply h1 h2 μ p q, bcRows_apply h1 h2 g p q, bcRows_apply h1 h2 β p q, bcRows_apply h1 h2 _ p q]
  simp only [Host.rsqrt, addf, Ideal.addf_def, Ideal.hostUnary_rsqrt_def]
  rw [bcScalar_apply h0 _ (ix1 q)]

/-- The maximum with the zero word broadcast to the array's shape is the entrywise maximum with zero. -/
theorem relu_host {t : Shape} (x : FVec Ideal t .f32) (h : S_.BroadcastsInDim t ![]) :
    maximumf x (broadcastInDim t ![] h (constant (F := Ideal) S_ .f32 0x00000000#32)) = Cert.Spec.relu x := by
  funext i
  simp only [maximumf, bcScalar_apply, Ideal.maximumf_def, Cert.Spec.relu_apply]

/-- Two sums in a row are the left-associated sum of three arrays. -/
theorem add3_host {t : Shape} (a b c : FVec Ideal t .f32) : addf (addf a b) c = Cert.Spec.add3 a b c := by
  funext i
  simp only [addf, Ideal.addf_def, Cert.Spec.add3_apply]

end Cert.HostForms

end
-- ==== Proof.RFoldCut.lean ====
/-
  The reference's list of host operations cut into pieces: the `n` operations from position `a`, the contents
  after a piece of `m + n` operations as those after its last `n` from those after its first `m`, and two
  tactics, one spelling a piece as its literal list, one showing that a buffer outside a piece's results keeps
  its contents (the operation at position `k` of the list writes the buffer of index `27 + k` and no other).
-/
import proofs.«426021_j89885075570707_3_alg».proof.Proof.ROps
import proofs.«426021_j89885075570707_3_alg».proof.Proof.HostForms
import proofs.«426021_j89885075570707_3_alg».proof.Proof.Net

noncomputable section

namespace Cert.ReferenceIdeal.RFold

open Cert Cert.ReferenceIdeal Cert.ReferenceIdeal.Gen Cert.ReferenceIdeal.RRun Idealize.ShloMosaic Idealize.ShloMosaic.TcCoe Idealize.SL.Sem Idealize.ShloMosaic.StableHlo
open Cert.Chains (SN SE SF S1F SFF S3FF S3F S31F SE1 SEs S2E)

/-- A list of the reference's host operations, at the ideal instance. -/
abbrev Ops : Type := List (HloOp τ sig (Elt Ideal))
/-- Contents for every buffer of the device, at the ideal instance. -/
abbrev Val : Type := Valuation τ sig (Elt Ideal)

/-- The `n` operations from position `a` of the reference's list. -/
def seg (a n : Nat) : Ops := ((ops (F := Ideal)).drop a).take n

/-- The contents after two lists run in a row are the second's after the first's. -/
theorem after_app (l₁ l₂ : Ops) (V : Val) : after (l₁ ++ l₂) V = after l₂ (after l₁ V) := by
  induction l₁ generalizing V with
  | nil => rfl
  | cons op l ih => simp only [List.cons_append, after_cons, ih]

/-- A piece of `m + n` operations is its first `m` followed by the next `n`. -/
theorem seg_add (a m n : Nat) : seg a (m + n) = seg a m ++ seg (a + m) n := by
  unfold seg
  rw [List.take_add, List.drop_drop]

theorem after_seg_add (a m n : Nat) (V : Val) :
    after (seg a (m + n)) V = after (seg (a + m) n) (after (seg a m) V) := by
  rw [seg_add, after_app]

/-- Spells a piece as the literal list of its operations. -/
macro "seg_lit" : tactic =>
  `(tactic| simp only [seg, ops, ops0, ops1, ops2, ops3, ops4, ops5, ops6, ops7, ops8, ops9, ops10, List.cons_append,
      List.nil_append, List.drop_succ_cons, List.drop_zero, List.take_succ_cons, List.take_zero])

/-- Closes `after (seg a n) W r = W r` for a reference `r` whose index `h` puts outside the piece's results:
    every operation of the piece writes one buffer, the one whose index is the operation's position plus 27. -/
macro "seg_keep" h:ident : tactic =>
  `(tactic| (refine after_of_forall_not_mem _ _ ?_
             seg_lit
             simp only [List.forall_mem_cons, List.not_mem_nil, false_imp_iff, implies_true, and_true]
             and_intros <;>
               (intro hmem
                have e := Proc.devRef_injective _ (Finset.mem_singleton.mp hmem)
                subst e
                exact absurd $h (by decide))))

end Cert.ReferenceIdeal.RFold

end
-- ==== Proof.RFoldInit.lean ====
/-
  The reference's first 55 host operations, read as the network's input stage: the two rows of the edge list,
  the first linear map, its batch normalisation by its own column statistics, and the clip at zero. Each of the
  four pieces is read from ANY contents `W` of the device's buffers; the four readings in a row give the three
  arrays the layers read — the edges' sources, their targets, the normalised input features.
-/
import proofs.«426021_j89885075570707_3_alg».proof.Proof.RFoldCut

noncomputable section

namespace Cert.ReferenceIdeal.RFold

open Cert Cert.ReferenceIdeal Cert.ReferenceIdeal.Gen Cert.ReferenceIdeal.RRun Idealize.ShloMosaic Idealize.ShloMosaic.TcCoe Idealize.SL.Sem Idealize.ShloMosaic.StableHlo
open Cert.Chains (SN SE SF S1F SFF S3FF S3F S31F SE1 SEs S2E)

namespace Init

/-! ## The pieces before the first layer, each read from ANY contents `W` of the device's buffers -/

theorem keep_idx (W : Val) (r : Ref sig .tc) (h : r.idx.val < 27 ∨ 31 ≤ r.idx.val) :
    after (seg 0 4) W (no_index (Proc.devRef .tc r)) = W (Proc.devRef .tc r) := by
  seg_keep h

/-- Row 0 of the edge list: the edges' sources. -/
theorem st_src (W : Val) :
    after (seg 0 4) W (no_index (Proc.devRef .tc main_v1)) = Chains.srcOf (W main_arg1) := by
  seg_lit
  after_results_simp
  rfl

/-- Row 1 of the edge list: the edges' targets. -/
theorem st_dst (W : Val) :
    after (seg 0 4) W (no_index (Proc.devRef .tc main_v3)) = Chains.dstOf (W main_arg1) := by
  seg_lit
  after_results_simp
  rfl

theorem keep_lin (W : Val) (r : Ref sig .tc) (h : r.idx.val < 31 ∨ 35 ≤ r.idx.val) :
    after (seg 4 4) W (no_index (Proc.devRef .tc r)) = W (Proc.devRef .tc r) := by
  seg_keep h

/-- The first linear map: the node attributes times the input weights, the input bias added to every row. -/
theorem st_lin (W : Val) :
    after (seg 4 4) W (no_index (Proc.devRef .tc main_v7))
      = Spec.lin (W main_arg0 : FVec Ideal Net.SA0 .f32) (W main_arg3) (W main_arg4) := by
  seg_lit
  after_results_simp
  exact HostForms.lin_host dot_S40000x2_S2x128_S40000x128_1_0_0_1_n_n rfl (W main_arg0) (W main_arg3) (W main_arg4) _ _

set_option maxRecDepth 16384 in
theorem keep_bn (W : Val) (r : Ref sig .tc) (h : r.idx.val < 35 ∨ 79 ≤ r.idx.val) :
    after (seg 8 44) W (no_index (Proc.devRef .tc r)) = W (Proc.devRef .tc r) := by
  seg_keep h

set_option maxRecDepth 16384 in
/-- The column mean and variance of the input, the normalisation with the first scale and shift. -/
theorem st_bn (W : Val) :
    after (seg 8 44) W (no_index (Proc.devRef .tc main_v26)) = Net.bnS (W main_v7) (W main_arg5) (W main_arg6) := by
  seg_lit
  after_results_simp
  exact HostForms.bn_host (W main_v7) (Chains.mean (W main_v7)) (Chains.var (W main_v7)) (W main_arg5) (W main_arg6) _ _ _

theorem keep_relu (W : Val) (r : Ref sig .tc) (h : r.idx.val < 79 ∨ 82 ≤ r.idx.val) :
    after (seg 52 3) W (no_index (Proc.devRef .tc r)) = W (Proc.devRef .tc r) := by
  seg_keep h

/-- The entrywise maximum with zero. -/
theorem st_relu (W : Val) :
    after (seg 52 3) W (no_index (Proc.devRef .tc main_v27)) = Spec.relu (W main_v26 : FVec Ideal SN .f32) := by
  seg_lit
  after_results_simp
  exact HostForms.relu_host (t := S40000x128) (W main_v26) bcast_S_S40000x128

/-! ## The pieces in a row -/

/-- The first 55 operations are the four pieces, in order. -/
theorem split (W : Val) :
    after (seg 0 55) W = after (seg 52 3) (after (seg 8 44) (after (seg 4 4) (after (seg 0 4) W))) := by
  rw [show (55 : Nat) = 4 + (4 + (44 + 3)) from rfl]
  simp only [after_seg_add]

set_option maxRecDepth 16384 in
/-- A buffer that the first 55 operations do not write keeps its contents through them. -/
theorem keep (W : Val) (r : Ref sig .tc) (h : r.idx.val < 27 ∨ 82 ≤ r.idx.val) :
    after (seg 0 55) W (no_index (Proc.devRef .tc r)) = W (Proc.devRef .tc r) := by
  seg_keep h

/-- After the first 55 operations: the edges' sources. -/
theorem src (W : Val) :
    after (seg 0 55) W (no_index (Proc.devRef .tc main_v1)) = Chains.srcOf (W main_arg1) := by
  rw [split]
  simp (disch := decide) only [st_src, keep_lin, keep_bn, keep_relu]

/-- After the first 55 operations: the edges' targets. -/
theorem dst (W : Val) :
    after (seg 0 55) W (no_index (Proc.devRef .tc main_v3)) = Chains.dstOf (W main_arg1) := by
  rw [split]
  simp (disch := decide) only [st_dst, keep_lin, keep_bn, keep_relu]

/-- After the first 55 operations: the first linear map's output, normalised and clipped at zero. -/
theorem x0 (W : Val) :
    after (seg 0 55) W (no_index (Proc.devRef .tc main_v27))
      = Net.norm (Spec.lin (W main_arg0 : FVec Ideal Net.SA0 .f32) (W main_arg3) (W main_arg4)) (W main_arg5) (W main_arg6) := by
  rw [split]
  simp (disch := decide) only [st_relu, st_bn, st_lin, keep_idx, keep_lin, keep_bn, keep_relu]
  rfl

end Init

end Cert.ReferenceIdeal.RFold

end
-- ==== Proof.RFold0.lean ====
/-
  Layer 0 of the reference, read as the network's layer function.

  The layer's 308 host operations (positions 55 … 362 of the reference's list) fall into fourteen pieces, each
  computing one array of the layer from arrays computed before it: the edge branch's sum over edges, a batch
  normalisation (five times), a linear map (four times), the neighbour gather and sum, the sum of the three
  normalised branches clipped at zero, and a clip at zero (twice). Each piece is read from ANY contents `W` of the
  device's buffers — its result as the layer function of the piece applied to `W` at the buffers the piece reads,
  and every buffer it does not write unchanged —; the fourteen readings in a row are the layer.
-/
import proofs.«426021_j89885075570707_3_alg».proof.Proof.RFoldCut

noncomputable section

namespace Cert.ReferenceIdeal.RFold

open Cert Cert.ReferenceIdeal Cert.ReferenceIdeal.Gen Cert.ReferenceIdeal.RRun Idealize.ShloMosaic Idealize.ShloMosaic.TcCoe Idealize.SL.Sem Idealize.ShloMosaic.StableHlo
open Cert.Chains (SN SE SF S1F SFF S3FF S3F S31F SE1 SEs S2E)

namespace L0

/-! ## Layer 0: the pieces, each read from ANY contents `W` of the device's buffers -/

set_option maxRecDepth 16384 in
theorem keep_edge (W : Val) (r : Ref sig .tc) (h : r.idx.val < 82 ∨ 94 ≤ r.idx.val) :
    after (seg 55 12) W (no_index (Proc.devRef .tc r)) = W (Proc.devRef .tc r) := by
  seg_keep h

/-- The edge branch: the edge attribute times row 0 of the edge weights plus slice 0 of the edge bias, per edge,
    summed into the rows of the edges' source nodes. -/
theorem st_edge (W : Val) :
    after (seg 55 12) W (no_index (Proc.devRef .tc main_v38))
      = Chains.segSum (W main_v1) (Spec.lin (W main_arg2 : FVec Ideal SE1 .f32) (Chains.row0 (W main_arg9)) (Chains.vec0 (W main_arg10))) := by
  seg_lit
  after_results_simp
  exact congrArg (Chains.segSum (W main_v1))
    (HostForms.lin_host dot_S640000x1_S1x128_S640000x128_1_0_0_1_n_n rfl (W main_arg2) (Chains.row0 (W main_arg9)) (Chains.vec0 (W main_arg10)) _ _)

set_option maxRecDepth 16384 in
theorem keep_bn_e (W : Val) (r : Ref sig .tc) (h : r.idx.val < 94 ∨ 142 ≤ r.idx.val) :
    after (seg 67 48) W (no_index (Proc.devRef .tc r)) = W (Proc.devRef .tc r) := by
  seg_keep h

set_option maxRecDepth 16384 in
/-- Slice 0 of the stacked scale and shift, the column mean and variance of the input, the normalisation. -/
theorem st_bn_e (W : Val) :
    after (seg 67 48) W (no_index (Proc.devRef .tc main_v61))
      = Net.bnS (W main_v38) (Chains.vec0 (W main_arg15)) (Chains.vec0 (W main_arg16)) := by
  seg_lit
  after_results_simp
  exact HostForms.bn_host (W main_v38) (Chains.mean (W main_v38)) (Chains.var (W main_v38)) (Chains.vec0 (W main_arg15)) (Chains.vec0 (W main_arg16)) _ _ _

set_option maxRecDepth 16384 in
theorem keep_lin_nb (W : Val) (r : Ref sig .tc) (h : r.idx.val < 142 ∨ 150 ≤ r.idx.val) :
    after (seg 115 8) W (no_index (Proc.devRef .tc r)) = W (Proc.devRef .tc r) := by
  seg_keep h

/-- Slice 0 of a stacked matrix and of a stacked bias, the product, the bias added to every row. -/
theorem st_lin_nb (W : Val) :
    after (seg 115 8) W (no_index (Proc.devRef .tc main_v69))
      = Spec.lin (W main_v27 : FVec Ideal SN .f32) (Chains.mat0 (W main_arg11)) (Chains.vec0 (W main_arg12)) := by
  seg_lit
  after_results_simp
  exact HostForms.lin_host dot_S40000x128_S128x128_S40000x128_1_0_0_1_n_n rfl (W main_v27) (Chains.mat0 (W main_arg11)) (Chains.vec0 (W main_arg12)) _ _

set_option maxRecDepth 16384 in
theorem keep_agg (W : Val) (r : Ref sig .tc) (h : r.idx.val < 150 ∨ 163 ≤ r.idx.val) :
    after (seg 123 13) W (no_index (Proc.devRef .tc r)) = W (Proc.devRef .tc r) := by
  seg_keep h

/-- The neighbour aggregate: rows gathered at the edges' sources (a negative index wrapped), summed at their targets. -/
theorem st_agg (W : Val) :
    after (seg 123 13) W (no_index (Proc.devRef .tc main_v79)) = Net.aggregate (W main_v1) (W main_v3) (W main_v69) := by
  seg_lit
  after_results_simp
  rfl

set_option maxRecDepth 16384 in
theorem keep_lin_nd (W : Val) (r : Ref sig .tc) (h : r.idx.val < 163 ∨ 171 ≤ r.idx.val) :
    after (seg 136 8) W (no_index (Proc.devRef .tc r)) = W (Proc.devRef .tc r) := by
  seg_keep h

/-- Slice 0 of a stacked matrix and of a stacked bias, the product, the bias added to every row. -/
theorem st_lin_nd (W : Val) :
    after (seg 136 8) W (no_index (Proc.devRef .tc main_v87))
      = Spec.lin (W main_v27 : FVec Ideal SN .f32) (Chains.mat0 (W main_arg7)) (Chains.vec0 (W main_arg8)) := by
  seg_lit
  after_results_simp
  exact HostForms.lin_host dot_S40000x128_S128x128_S40000x128_1_0_0_1_n_n rfl (W main_v27) (Chains.mat0 (W main_arg7)) (Chains.vec0 (W main_arg8)) _ _

set_option maxRecDepth 16384 in
theorem keep_bn_nd (W : Val) (r : Ref sig .tc) (h : r.idx.val < 171 ∨ 219 ≤ r.idx.val) :
    after (seg 144 48) W (no_index (Proc.devRef .tc r)) = W (Proc.devRef .tc r) := by
  seg_keep h

set_option maxRecDepth 16384 in
/-- Slice 0 of the stacked scale and shift, the column mean and variance of the input, the normalisation. -/
theorem st_bn_nd (W : Val) :
    after (seg 144 48) W (no_index (Proc.devRef .tc main_v110))
      = Net.bnS (W main_v87) (Chains.vec0 (W main_arg13)) (Chains.vec0 (W main_arg14)) := by
  seg_lit
  after_results_simp
  exact HostForms.bn_host (W main_v87) (Chains.mean (W main_v87)) (Chains.var (W main_v87)) (Chains.vec0 (W main_arg13)) (Chains.vec0 (W main_arg14)) _ _ _

set_option maxRecDepth 16384 in
theorem keep_bn_nb (W : Val) (r : Ref sig .tc) (h : r.idx.val < 219 ∨ 267 ≤ r.idx.val) :
    after (seg 192 48) W (no_index (Proc.devRef .tc r)) = W (Proc.devRef .tc r) := by
  seg_keep h

set_option maxRecDepth 16384 in
/-- Slice 0 of the stacked scale and shift, the column mean and variance of the input, the normalisation. -/
theorem st_bn_nb (W : Val) :
    after (seg 192 48) W (no_index (Proc.devRef .tc main_v133))
      = Net.bnS (W main_v79) (Chains.vec0 (W main_arg17)) (Chains.vec0 (W main_arg18)) := by
  seg_lit
  after_results_simp
  exact HostForms.bn_host (W main_v79) (Chains.mean (W main_v79)) (Chains.var (W main_v79)) (Chains.vec0 (W main_arg17)) (Chains.vec0 (W main_arg18)) _ _ _

set_option maxRecDepth 16384 in
theorem keep_add3 (W : Val) (r : Ref sig .tc) (h : r.idx.val < 267 ∨ 272 ≤ r.idx.val) :
    after (seg 240 5) W (no_index (Proc.devRef .tc r)) = W (Proc.devRef .tc r) := by
  seg_keep h

/-- The three normalised branches added, left to right, and clipped at zero. -/
theorem st_add3 (W : Val) :
    after (seg 240 5) W (no_index (Proc.devRef .tc main_v136))
      = Spec.relu (Spec.add3 (W main_v110 : FVec Ideal SN .f32) (W main_v133) (W main_v61)) := by
  seg_lit
  after_results_simp
  refine Eq.trans ?_ ((HostForms.relu_host (t := S40000x128) _ bcast_S_S40000x128).trans
    (congrArg Spec.relu (HostForms.add3_host (W main_v110) (W main_v133) (W main_v61))))
  rfl

set_option maxRecDepth 16384 in
theorem keep_lin_m1 (W : Val) (r : Ref sig .tc) (h : r.idx.val < 272 ∨ 280 ≤ r.idx.val) :
    after (seg 245 8) W (no_index (Proc.devRef .tc r)) = W (Proc.devRef .tc r) := by
  seg_keep h

/-- Slice 0 of a stacked matrix and of a stacked bias, the product, the bias added to every row. -/
theorem st_lin_m1 (W : Val) :
    after (seg 245 8) W (no_index (Proc.devRef .tc main_v144))
      = Spec.lin (W main_v136 : FVec Ideal SN .f32) (Chains.mat0 (W main_arg19)) (Chains.vec0 (W main_arg20)) := by
  seg_lit
  after_results_simp
  exact HostForms.lin_host dot_S40000x128_S128x128_S40000x128_1_0_0_1_n_n rfl (W main_v136) (Chains.mat0 (W main_arg19)) (Chains.vec0 (W main_arg20)) _ _

set_option maxRecDepth 16384 in
theorem keep_bn_m1 (W : Val) (r : Ref sig .tc) (h : r.idx.val < 280 ∨ 328 ≤ r.idx.val) :
    after (seg 253 48) W (no_index (Proc.devRef .tc r)) = W (Proc.devRef .tc r) := by
  seg_keep h

set_option maxRecDepth 16384 in
/-- Slice 0 of the stacked scale and shift, the column mean and variance of the input, the normalisation. -/
theorem st_bn_m1 (W : Val) :
    after (seg 253 48) W (no_index (Proc.devRef .tc main_v167))
      = Net.bnS (W main_v144) (Chains.vec0 (W main_arg21)) (Chains.vec0 (W main_arg22)) := by
  seg_lit
  after_results_simp
  exact HostForms.bn_host (W main_v144) (Chains.mean (W main_v144)) (Chains.var (W main_v144)) (Chains.vec0 (W main_arg21)) (Chains.vec0 (W main_arg22)) _ _ _

set_option maxRecDepth 16384 in
theorem keep_relu1 (W : Val) (r : Ref sig .tc) (h : r.idx.val < 328 ∨ 331 ≤ r.idx.val) :
    after (seg 301 3) W (no_index (Proc.devRef .tc r)) = W (Proc.devRef .tc r) := by
  seg_keep h

/-- The entrywise maximum with zero. -/
theorem st_relu1 (W : Val) :
    after (seg 301 3) W (no_index (Proc.devRef .tc main_v168)) = Spec.relu (W main_v167 : FVec Ideal SN .f32) := by
  seg_lit
  after_results_simp
  exact HostForms.relu_host (t := S40000x128) (W main_v167) bcast_S_S40000x128

set_option maxRecDepth 16384 in
theorem keep_lin_m2 (W : Val) (r : Ref sig .tc) (h : r.idx.val < 331 ∨ 339 ≤ r.idx.val) :
    after (seg 304 8) W (no_index (Proc.devRef .tc r)) = W (Proc.devRef .tc r) := by
  seg_keep h

/-- Slice 0 of a stacked matrix and of a stacked bias, the product, the bias added to every row. -/
theorem st_lin_m2 (W : Val) :
    after (seg 304 8) W (no_index (Proc.devRef .tc main_v176))
      = Spec.lin (W main_v168 : FVec Ideal SN .f32) (Chains.mat0 (W main_arg23)) (Chains.vec0 (W main_arg24)) := by
  seg_lit
  after_results_simp
  exact HostForms.lin_host dot_S40000x128_S128x128_S40000x128_1_0_0_1_n_n rfl (W main_v168) (Chains.mat0 (W main_arg23)) (Chains.vec0 (W main_arg24)) _ _

set_option maxRecDepth 16384 in
theorem keep_bn_m2 (W : Val) (r : Ref sig .tc) (h : r.idx.val < 339 ∨ 387 ≤ r.idx.val) :
    after (seg 312 48) W (no_index (Proc.devRef .tc r)) = W (Proc.devRef .tc r) := by
  seg_keep h

set_option maxRecDepth 16384 in
/-- Slice 0 of the stacked scale and shift, the column mean and variance of the input, the normalisation. -/
theorem st_bn_m2 (W : Val) :
    after (seg 312 48) W (no_index (Proc.devRef .tc main_v199))
      = Net.bnS (W main_v176) (Chains.vec0 (W main_arg25)) (Chains.vec0 (W main_arg26)) := by
  seg_lit
  after_results_simp
  exact HostForms.bn_host (W main_v176) (Chains.mean (W main_v176)) (Chains.var (W main_v176)) (Chains.vec0 (W main_arg25)) (Chains.vec0 (W main_arg26)) _ _ _

set_option maxRecDepth 16384 in
theorem keep_relu2 (W : Val) (r : Ref sig .tc) (h : r.idx.val < 387 ∨ 390 ≤ r.idx.val) :
    after (seg 360 3) W (no_index (Proc.devRef .tc r)) = W (Proc.devRef .tc r) := by
  seg_keep h

/-- The entrywise maximum with zero. -/
theorem st_relu2 (W : Val) :
    after (seg 360 3) W (no_index (Proc.devRef .tc main_v200)) = Spec.relu (W main_v199 : FVec Ideal SN .f32) := by
  seg_lit
  after_results_simp
  exact HostForms.relu_host (t := S40000x128) (W main_v199) bcast_S_S40000x128

/-! ## Layer 0: the pieces in a row -/

/-- The layer's 308 operations are its fourteen pieces, in order. -/
theorem split (W : Val) :
    after (seg 55 308) W
      = after (seg 360 3) (after (seg 312 48) (after (seg 304 8) (after (seg 301 3) (after (seg 253 48) (after (seg 245 8) (after (seg 240 5) (after (seg 192 48) (after (seg 144 48) (after (seg 136 8) (after (seg 123 13) (after (seg 115 8) (after (seg 67 48) (after (seg 55 12) W))))))))))))) := by
  rw [show (308 : Nat) = 12 + (48 + (8 + (13 + (8 + (48 + (48 + (5 + (8 + (48 + (3 + (8 + (48 + (3))))))))))))) from rfl]
  simp only [after_seg_add]

set_option maxRecDepth 65536 in
/-- A buffer that the layer's operations do not write keeps its contents through the layer. -/
theorem keep (W : Val) (r : Ref sig .tc) (h : r.idx.val < 82 ∨ 390 ≤ r.idx.val) :
    after (seg 55 308) W (no_index (Proc.devRef .tc r)) = W (Proc.devRef .tc r) := by
  seg_keep h

/-- The layer: from the contents `W` before it — the edges' sources and targets, the normalised features `x`, the
    arguments — the next normalised features. -/
theorem layer (W : Val) :
    after (seg 55 308) W (no_index (Proc.devRef .tc main_v200))
      = Net.norm
          (Net.layerRaw (W main_v1) (W main_v3)
            (Net.P0 (W main_arg7) (W main_arg8) (W main_arg11) (W main_arg12) (W main_arg13) (W main_arg14) (W main_arg15) (W main_arg16) (W main_arg17) (W main_arg18) (W main_arg19) (W main_arg20) (W main_arg21) (W main_arg22) (W main_arg23) (W main_arg24))
            (Chains.segSum (W main_v1) (Spec.lin (W main_arg2 : FVec Ideal SE1 .f32) (Chains.row0 (W main_arg9)) (Chains.vec0 (W main_arg10))))
            (W main_v27))
          (Chains.vec0 (W main_arg25)) (Chains.vec0 (W main_arg26)) := by
  rw [split]
  simp (disch := decide) only [st_edge, st_bn_e, st_lin_nb, st_agg, st_lin_nd, st_bn_nd, st_bn_nb, st_add3, st_lin_m1, st_bn_m1, st_relu1, st_lin_m2, st_bn_m2, st_relu2,
    keep_edge, keep_bn_e, keep_lin_nb, keep_agg, keep_lin_nd, keep_bn_nd, keep_bn_nb, keep_add3, keep_lin_m1, keep_bn_m1, keep_relu1, keep_lin_m2, keep_bn_m2, keep_relu2]
  rfl

end L0

end Cert.ReferenceIdeal.RFold

end
-- ==== Proof.RFold1.lean ====
/-
  Layer 1 of the reference, read as the network's layer function.

  The layer's 308 host operations (positions 363 … 670 of the reference's list) fall into fourteen pieces, each
  computing one array of the layer from arrays computed before it: the edge branch's sum over edges, a batch
  normalisation (five times), a linear map (four times), the neighbour gather and sum, the sum of the three
  normalised branches clipped at zero, and a clip at zero (twice). Each piece is read from ANY contents `W` of the
  device's buffers — its result as the layer function of the piece applied to `W` at the buffers the piece reads,
  and every buffer it does not write unchanged —; the fourteen readings in a row are the layer.
-/
import proofs.«426021_j89885075570707_3_alg».proof.Proof.RFoldCut

noncomputable section

namespace Cert.ReferenceIdeal.RFold

open Cert Cert.ReferenceIdeal Cert.ReferenceIdeal.Gen Cert.ReferenceIdeal.RRun Idealize.ShloMosaic Idealize.ShloMosaic.TcCoe Idealize.SL.Sem Idealize.ShloMosaic.StableHlo
open Cert.Chains (SN SE SF S1F SFF S3FF S3F S31F SE1 SEs S2E)

namespace L1

/-! ## Layer 1: the pieces, each read from ANY contents `W` of the device's buffers -/

set_option maxRecDepth 16384 in
theorem keep_edge (W : Val) (r : Ref sig .tc) (h : r.idx.val < 390 ∨ 402 ≤ r.idx.val) :
    after (seg 363 12) W (no_index (Proc.devRef .tc r)) = W (Proc.devRef .tc r) := by
  seg_keep h

/-- The edge branch: the edge attribute times row 1 of the edge weights plus slice 1 of the edge bias, per edge,
    summed into the rows of the edges' source nodes. -/
theorem st_edge (W : Val) :
    after (seg 363 12) W (no_index (Proc.devRef .tc main_v211))
      = Chains.segSum (W main_v1) (Spec.lin (W main_arg2 : FVec Ideal SE1 .f32) (Chains.row1 (W main_arg9)) (Chains.vec1 (W main_arg10))) := by
  seg_lit
  after_results_simp
  exact congrArg (Chains.segSum (W main_v1))
    (HostForms.lin_host dot_S640000x1_S1x128_S640000x128_1_0_0_1_n_n rfl (W main_arg2) (Chains.row1 (W main_arg9)) (Chains.vec1 (W main_arg10)) _ _)

set_option maxRecDepth 16384 in
theorem keep_bn_e (W : Val) (r : Ref sig .tc) (h : r.idx.val < 402 ∨ 450 ≤ r.idx.val) :
    after (seg 375 48) W (no_index (Proc.devRef .tc r)) = W (Proc.devRef .tc r) := by
  seg_keep h

set_option maxRecDepth 16384 in
/-- Slice 1 of the stacked scale and shift, the column mean and variance of the input, the normalisation. -/
theorem st_bn_e (W : Val) :
    after (seg 375 48) W (no_index (Proc.devRef .tc main_v234))
      = Net.bnS (W main_v211) (Chains.vec1 (W main_arg15)) (Chains.vec1 (W main_arg16)) := by
  seg_lit
  after_results_simp
  exact HostForms.bn_host (W main_v211) (Chains.mean (W main_v211)) (Chains.var (W main_v211)) (Chains.vec1 (W main_arg15)) (Chains.vec1 (W main_arg16)) _ _ _

set_option maxRecDepth 16384 in
theorem keep_lin_nb (W : Val) (r : Ref sig .tc) (h : r.idx.val < 450 ∨ 458 ≤ r.idx.val) :
    after (seg 423 8) W (no_index (Proc.devRef .tc r)) = W (Proc.devRef .tc r) := by
  seg_keep h

/-- Slice 1 of a stacked matrix and of a stacked bias, the product, the bias added to every row. -/
theorem st_lin_nb (W : Val) :
    after (seg 423 8) W (no_index (Proc.devRef .tc main_v242))
      = Spec.lin (W main_v200 : FVec Ideal SN .f32) (Chains.mat1 (W main_arg11)) (Chains.vec1 (W main_arg12)) := by
  seg_lit
  after_results_simp
  exact HostForms.lin_host dot_S40000x128_S128x128_S40000x128_1_0_0_1_n_n rfl (W main_v200) (Chains.mat1 (W main_arg11)) (Chains.vec1 (W main_arg12)) _ _

set_option maxRecDepth 16384 in
theorem keep_agg (W : Val) (r : Ref sig .tc) (h : r.idx.val < 458 ∨ 471 ≤ r.idx.val) :
    after (seg 431 13) W (no_index (Proc.devRef .tc r)) = W (Proc.devRef .tc r) := by
  seg_keep h

/-- The neighbour aggregate: rows gathered at the edges' sources (a negative index wrapped), summed at their targets. -/
theorem st_agg (W : Val) :
    after (seg 431 13) W (no_index (Proc.devRef .tc main_v252)) = Net.aggregate (W main_v1) (W main_v3) (W main_v242) := by
  seg_lit
  after_results_simp
  rfl

set_option maxRecDepth 16384 in
theorem keep_lin_nd (W : Val) (r : Ref sig .tc) (h : r.idx.val < 471 ∨ 479 ≤ r.idx.val) :
    after (seg 444 8) W (no_index (Proc.devRef .tc r)) = W (Proc.devRef .tc r) := by
  seg_keep h

/-- Slice 1 of a stacked matrix and of a stacked bias, the product, the bias added to every row. -/
theorem st_lin_nd (W : Val) :
    after (seg 444 8) W (no_index (Proc.devRef .tc main_v260))
      = Spec.lin (W main_v200 : FVec Ideal SN .f32) (Chains.mat1 (W main_arg7)) (Chains.vec1 (W main_arg8)) := by
  seg_lit
  after_results_simp
  exact HostForms.lin_host dot_S40000x128_S128x128_S40000x128_1_0_0_1_n_n rfl (W main_v200) (Chains.mat1 (W main_arg7)) (Chains.vec1 (W main_arg8)) _ _

set_option maxRecDepth 16384 in
theorem keep_bn_nd (W : Val) (r : Ref sig .tc) (h : r.idx.val < 479 ∨ 527 ≤ r.idx.val) :
    after (seg 452 48) W (no_index (Proc.devRef .tc r)) = W (Proc.devRef .tc r) := by
  seg_keep h

set_option maxRecDepth 16384 in
/-- Slice 1 of the stacked scale and shift, the column mean and variance of the input, the normalisation. -/
theorem st_bn_nd (W : Val) :
    after (seg 452 48) W (no_index (Proc.devRef .tc main_v283))
      = Net.bnS (W main_v260) (Chains.vec1 (W main_arg13)) (Chains.vec1 (W main_arg14)) := by
  seg_lit
  after_results_simp
  exact HostForms.bn_host (W main_v260) (Chains.mean (W main_v260)) (Chains.var (W main_v260)) (Chains.vec1 (W main_arg13)) (Chains.vec1 (W main_arg14)) _ _ _

set_option maxRecDepth 16384 in
theorem keep_bn_nb (W : Val) (r : Ref sig .tc) (h : r.idx.val < 527 ∨ 575 ≤ r.idx.val) :
    after (seg 500 48) W (no_index (Proc.devRef .tc r)) = W (Proc.devRef .tc r) := by
  seg_keep h

set_option maxRecDepth 16384 in
/-- Slice 1 of the stacked scale and shift, the column mean and variance of the input, the normalisation. -/
theorem st_bn_nb (W : Val) :
    after (seg 500 48) W (no_index (Proc.devRef .tc main_v306))
      = Net.bnS (W main_v252) (Chains.vec1 (W main_arg17)) (Chains.vec1 (W main_arg18)) := by
  seg_lit
  after_results_simp
  exact HostForms.bn_host (W main_v252) (Chains.mean (W main_v252)) (Chains.var (W main_v252)) (Chains.vec1 (W main_arg17)) (Chains.vec1 (W main_arg18)) _ _ _

set_option maxRecDepth 16384 in
theorem keep_add3 (W : Val) (r : Ref sig .tc) (h : r.idx.val < 575 ∨ 580 ≤ r.idx.val) :
    after (seg 548 5) W (no_index (Proc.devRef .tc r)) = W (Proc.devRef .tc r) := by
  seg_keep h

/-- The three normalised branches added, left to right, and clipped at zero. -/
theorem st_add3 (W : Val) :
    after (seg 548 5) W (no_index (Proc.devRef .tc main_v309))
      = Spec.relu (Spec.add3 (W main_v283 : FVec Ideal SN .f32) (W main_v306) (W main_v234)) := by
  seg_lit
  after_results_simp
  refine Eq.trans ?_ ((HostForms.relu_host (t := S40000x128) _ bcast_S_S40000x128).trans
    (congrArg Spec.relu (HostForms.add3_host (W main_v283) (W main_v306) (W main_v234))))
  rfl

set_option maxRecDepth 16384 in
theorem keep_lin_m1 (W : Val) (r : Ref sig .tc) (h : r.idx.val < 580 ∨ 588 ≤ r.idx.val) :
    after (seg 553 8) W (no_index (Proc.devRef .tc r)) = W (Proc.devRef .tc r) := by
  seg_keep h

/-- Slice 1 of a stacked matrix and of a stacked bias, the product, the bias added to every row. -/
theorem st_lin_m1 (W : Val) :
    after (seg 553 8) W (no_index (Proc.devRef .tc main_v317))
      = Spec.lin (W main_v309 : FVec Ideal SN .f32) (Chains.mat1 (W main_arg19)) (Chains.vec1 (W main_arg20)) := by
  seg_lit
  after_results_simp
  exact HostForms.lin_host dot_S40000x128_S128x128_S40000x128_1_0_0_1_n_n rfl (W main_v309) (Chains.mat1 (W main_arg19)) (Chains.vec1 (W main_arg20)) _ _

set_option maxRecDepth 16384 in
theorem keep_bn_m1 (W : Val) (r : Ref sig .tc) (h : r.idx.val < 588 ∨ 636 ≤ r.idx.val) :
    after (seg 561 48) W (no_index (Proc.devRef .tc r)) = W (Proc.devRef .tc r) := by
  seg_keep h

set_option maxRecDepth 16384 in
/-- Slice 1 of the stacked scale and shift, the column mean and variance of the input, the normalisation. -/
theorem st_bn_m1 (W : Val) :
    after (seg 561 48) W (no_index (Proc.devRef .tc main_v340))
      = Net.bnS (W main_v317) (Chains.vec1 (W main_arg21)) (Chains.vec1 (W main_arg22)) := by
  seg_lit
  after_results_simp
  exact HostForms.bn_host (W main_v317) (Chains.mean (W main_v317)) (Chains.var (W main_v317)) (Chains.vec1 (W main_arg21)) (Chains.vec1 (W main_arg22)) _ _ _

set_option maxRecDepth 16384 in
theorem keep_relu1 (W : Val) (r : Ref sig .tc) (h : r.idx.val < 636 ∨ 639 ≤ r.idx.val) :
    after (seg 609 3) W (no_index (Proc.devRef .tc r)) = W (Proc.devRef .tc r) := by
  seg_keep h

/-- The entrywise maximum with zero. -/
theorem st_relu1 (W : Val) :
    after (seg 609 3) W (no_index (Proc.devRef .tc main_v341)) = Spec.relu (W main_v340 : FVec Ideal SN .f32) := by
  seg_lit
  after_results_simp
  exact HostForms.relu_host (t := S40000x128) (W main_v340) bcast_S_S40000x128

set_option maxRecDepth 16384 in
theorem keep_lin_m2 (W : Val) (r : Ref sig .tc) (h : r.idx.val < 639 ∨ 647 ≤ r.idx.val) :
    after (seg 612 8) W (no_index (Proc.devRef .tc r)) = W (Proc.devRef .tc r) := by
  seg_keep h

/-- Slice 1 of a stacked matrix and of a stacked bias, the product, the bias added to every row. -/
theorem st_lin_m2 (W : Val) :
    after (seg 612 8) W (no_index (Proc.devRef .tc main_v349))
      = Spec.lin (W main_v341 : FVec Ideal SN .f32) (Chains.mat1 (W main_arg23)) (Chains.vec1 (W main_arg24)) := by
  seg_lit
  after_results_simp
  exact HostForms.lin_host dot_S40000x128_S128x128_S40000x128_1_0_0_1_n_n rfl (W main_v341) (Chains.mat1 (W main_arg23)) (Chains.vec1 (W main_arg24)) _ _

set_option maxRecDepth 16384 in
theorem keep_bn_m2 (W : Val) (r : Ref sig .tc) (h : r.idx.val < 647 ∨ 695 ≤ r.idx.val) :
    after (seg 620 48) W (no_index (Proc.devRef .tc r)) = W (Proc.devRef .tc r) := by
  seg_keep h

set_option maxRecDepth 16384 in
/-- Slice 1 of the stacked scale and shift, the column mean and variance of the input, the normalisation. -/
theorem st_bn_m2 (W : Val) :
    after (seg 620 48) W (no_index (Proc.devRef .tc main_v372))
      = Net.bnS (W main_v349) (Chains.vec1 (W main_arg25)) (Chains.vec1 (W main_arg26)) := by
  seg_lit
  after_results_simp
  exact HostForms.bn_host (W main_v349) (Chains.mean (W main_v349)) (Chains.var (W main_v349)) (Chains.vec1 (W main_arg25)) (Chains.vec1 (W main_arg26)) _ _ _

set_option maxRecDepth 16384 in
theorem keep_relu2 (W : Val) (r : Ref sig .tc) (h : r.idx.val < 695 ∨ 698 ≤ r.idx.val) :
    after (seg 668 3) W (no_index (Proc.devRef .tc r)) = W (Proc.devRef .tc r) := by
  seg_keep h

/-- The entrywise maximum with zero. -/
theorem st_relu2 (W : Val) :
    after (seg 668 3) W (no_index (Proc.devRef .tc main_v373)) = Spec.relu (W main_v372 : FVec Ideal SN .f32) := by
  seg_lit
  after_results_simp
  exact HostForms.relu_host (t := S40000x128) (W main_v372) bcast_S_S40000x128

/-! ## Layer 1: the pieces in a row -/

/-- The layer's 308 operations are its fourteen pieces, in order. -/
theorem split (W : Val) :
    after (seg 363 308) W
      = after (seg 668 3) (after (seg 620 48) (after (seg 612 8) (after (seg 609 3) (after (seg 561 48) (after (seg 553 8) (after (seg 548 5) (after (seg 500 48) (after (seg 452 48) (after (seg 444 8) (after (seg 431 13) (after (seg 423 8) (after (seg 375 48) (after (seg 363 12) W))))))))))))) := by
  rw [show (308 : Nat) = 12 + (48 + (8 + (13 + (8 + (48 + (48 + (5 + (8 + (48 + (3 + (8 + (48 + (3))))))))))))) from rfl]
  simp only [after_seg_add]

set_option maxRecDepth 65536 in
/-- A buffer that the layer's operations do not write keeps its contents through the layer. -/
theorem keep (W : Val) (r : Ref sig .tc) (h : r.idx.val < 390 ∨ 698 ≤ r.idx.val) :
    after (seg 363 308) W (no_index (Proc.devRef .tc r)) = W (Proc.devRef .tc r) := by
  seg_keep h

/-- The layer: from the contents `W` before it — the edges' sources and targets, the normalised features `x`, the
    arguments — the next normalised features. -/
theorem layer (W : Val) :
    after (seg 363 308) W (no_index (Proc.devRef .tc main_v373))
      = Net.norm
          (Net.layerRaw (W main_v1) (W main_v3)
            (Net.P1 (W main_arg7) (W main_arg8) (W main_arg11) (W main_arg12) (W main_arg13) (W main_arg14) (W main_arg15) (W main_arg16) (W main_arg17) (W main_arg18) (W main_arg19) (W main_arg20) (W main_arg21) (W main_arg22) (W main_arg23) (W main_arg24))
            (Chains.segSum (W main_v1) (Spec.lin (W main_arg2 : FVec Ideal SE1 .f32) (Chains.row1 (W main_arg9)) (Chains.vec1 (W main_arg10))))
            (W main_v200))
          (Chains.vec1 (W main_arg25)) (Chains.vec1 (W main_arg26)) := by
  rw [split]
  simp (disch := decide) only [st_edge, st_bn_e, st_lin_nb, st_agg, st_lin_nd, st_bn_nd, st_bn_nb, st_add3, st_lin_m1, st_bn_m1, st_relu1, st_lin_m2, st_bn_m2, st_relu2,
    keep_edge, keep_bn_e, keep_lin_nb, keep_agg, keep_lin_nd, keep_bn_nd, keep_bn_nb, keep_add3, keep_lin_m1, keep_bn_m1, keep_relu1, keep_lin_m2, keep_bn_m2, keep_relu2]
  rfl

end L1

end Cert.ReferenceIdeal.RFold

end
-- ==== Proof.RFold2.lean ====
/-
  Layer 2 of the reference, read as the network's layer function.

  The layer's 308 host operations (positions 671 … 978 of the reference's list) fall into fourteen pieces, each
  computing one array of the layer from arrays computed before it: the edge branch's sum over edges, a batch
  normalisation (five times), a linear map (four times), the neighbour gather and sum, the sum of the three
  normalised branches clipped at zero, and a clip at zero (twice). Each piece is read from ANY contents `W` of the
  device's buffers — its result as the layer function of the piece applied to `W` at the buffers the piece reads,
  and every buffer it does not write unchanged —; the fourteen readings in a row are the layer.
-/
import proofs.«426021_j89885075570707_3_alg».proof.Proof.RFoldCut

noncomputable section

namespace Cert.ReferenceIdeal.RFold

open Cert Cert.ReferenceIdeal Cert.ReferenceIdeal.Gen Cert.ReferenceIdeal.RRun Idealize.ShloMosaic Idealize.ShloMosaic.TcCoe Idealize.SL.Sem Idealize.ShloMosaic.StableHlo
open Cert.Chains (SN SE SF S1F SFF S3FF S3F S31F SE1 SEs S2E)

namespace L2

/-! ## Layer 2: the pieces, each read from ANY contents `W` of the device's buffers -/

set_option maxRecDepth 16384 in
theorem keep_edge (W : Val) (r : Ref sig .tc) (h : r.idx.val < 698 ∨ 710 ≤ r.idx.val) :
    after (seg 671 12) W (no_index (Proc.devRef .tc r)) = W (Proc.devRef .tc r) := by
  seg_keep h

/-- The edge branch: the edge attribute times row 2 of the edge weights plus slice 2 of the edge bias, per edge,
    summed into the rows of the edges' source nodes. -/
theorem st_edge (W : Val) :
    after (seg 671 12) W (no_index (Proc.devRef .tc main_v384))
      = Chains.segSum (W main_v1) (Spec.lin (W main_arg2 : FVec Ideal SE1 .f32) (Chains.row2 (W main_arg9)) (Chains.vec2 (W main_arg10))) := by
  seg_lit
  after_results_simp
  exact congrArg (Chains.segSum (W main_v1))
    (HostForms.lin_host dot_S640000x1_S1x128_S640000x128_1_0_0_1_n_n rfl (W main_arg2) (Chains.row2 (W main_arg9)) (Chains.vec2 (W main_arg10)) _ _)

set_option maxRecDepth 16384 in
theorem keep_bn_e (W : Val) (r : Ref sig .tc) (h : r.idx.val < 710 ∨ 758 ≤ r.idx.val) :
    after (seg 683 48) W (no_index (Proc.devRef .tc r)) = W (Proc.devRef .tc r) := by
  seg_keep h

set_option maxRecDepth 16384 in
/-- Slice 2 of the stacked scale and shift, the column mean and variance of the input, the normalisation. -/
theorem st_bn_e (W : Val) :
    after (seg 683 48) W (no_index (Proc.devRef .tc main_v407))
      = Net.bnS (W main_v384) (Chains.vec2 (W main_arg15)) (Chains.vec2 (W main_arg16)) := by
  seg_lit
  after_results_simp
  exact HostForms.bn_host (W main_v384) (Chains.mean (W main_v384)) (Chains.var (W main_v384)) (Chains.vec2 (W main_arg15)) (Chains.vec2 (W main_arg16)) _ _ _

set_option maxRecDepth 16384 in
theorem keep_lin_nb (W : Val) (r : Ref sig .tc) (h : r.idx.val < 758 ∨ 766 ≤ r.idx.val) :
    after (seg 731 8) W (no_index (Proc.devRef .tc r)) = W (Proc.devRef .tc r) := by
  seg_keep h

/-- Slice 2 of a stacked matrix and of a stacked bias, the product, the bias added to every row. -/
theorem st_lin_nb (W : Val) :
    after (seg 731 8) W (no_index (Proc.devRef .tc main_v415))
      = Spec.lin (W main_v373 : FVec Ideal SN .f32) (Chains.mat2 (W main_arg11)) (Chains.vec2 (W main_arg12)) := by
  seg_lit
  after_results_simp
  exact HostForms.lin_host dot_S40000x128_S128x128_S40000x128_1_0_0_1_n_n rfl (W main_v373) (Chains.mat2 (W main_arg11)) (Chains.vec2 (W main_arg12)) _ _

set_option maxRecDepth 16384 in
theorem keep_agg (W : Val) (r : Ref sig .tc) (h : r.idx.val < 766 ∨ 779 ≤ r.idx.val) :
    after (seg 739 13) W (no_index (Proc.devRef .tc r)) = W (Proc.devRef .tc r) := by
  seg_keep h

/-- The neighbour aggregate: rows gathered at the edges' sources (a negative index wrapped), summed at their targets. -/
theorem st_agg (W : Val) :
    after (seg 739 13) W (no_index (Proc.devRef .tc main_v425)) = Net.aggregate (W main_v1) (W main_v3) (W main_v415) := by
  seg_lit
  after_results_simp
  rfl

set_option maxRecDepth 16384 in
theorem keep_lin_nd (W : Val) (r : Ref sig .tc) (h : r.idx.val < 779 ∨ 787 ≤ r.idx.val) :
    after (seg 752 8) W (no_index (Proc.devRef .tc r)) = W (Proc.devRef .tc r) := by
  seg_keep h

/-- Slice 2 of a stacked matrix and of a stacked bias, the product, the bias added to every row. -/
theorem st_lin_nd (W : Val) :
    after (seg 752 8) W (no_index (Proc.devRef .tc main_v433))
      = Spec.lin (W main_v373 : FVec Ideal SN .f32) (Chains.mat2 (W main_arg7)) (Chains.vec2 (W main_arg8)) := by
  seg_lit
  after_results_simp
  exact HostForms.lin_host dot_S40000x128_S128x128_S40000x128_1_0_0_1_n_n rfl (W main_v373) (Chains.mat2 (W main_arg7)) (Chains.vec2 (W main_arg8)) _ _

set_option maxRecDepth 16384 in
theorem keep_bn_nd (W : Val) (r : Ref sig .tc) (h : r.idx.val < 787 ∨ 835 ≤ r.idx.val) :
    after (seg 760 48) W (no_index (Proc.devRef .tc r)) = W (Proc.devRef .tc r) := by
  seg_keep h

set_option maxRecDepth 16384 in
/-- Slice 2 of the stacked scale and shift, the column mean and variance of the input, the normalisation. -/
theorem st_bn_nd (W : Val) :
    after (seg 760 48) W (no_index (Proc.devRef .tc main_v456))
      = Net.bnS (W main_v433) (Chains.vec2 (W main_arg13)) (Chains.vec2 (W main_arg14)) := by
  seg_lit
  after_results_simp
  exact HostForms.bn_host (W main_v433) (Chains.mean (W main_v433)) (Chains.var (W main_v433)) (Chains.vec2 (W main_arg13)) (Chains.vec2 (W main_arg14)) _ _ _

set_option maxRecDepth 16384 in
theorem keep_bn_nb (W : Val) (r : Ref sig .tc) (h : r.idx.val < 835 ∨ 883 ≤ r.idx.val) :
    after (seg 808 48) W (no_index (Proc.devRef .tc r)) = W (Proc.devRef .tc r) := by
  seg_keep h

set_option maxRecDepth 16384 in
/-- Slice 2 of the stacked scale and shift, the column mean and variance of the input, the normalisation. -/
theorem st_bn_nb (W : Val) :
    after (seg 808 48) W (no_index (Proc.devRef .tc main_v479))
      = Net.bnS (W main_v425) (Chains.vec2 (W main_arg17)) (Chains.vec2 (W main_arg18)) := by
  seg_lit
  after_results_simp
  exact HostForms.bn_host (W main_v425) (Chains.mean (W main_v425)) (Chains.var (W main_v425)) (Chains.vec2 (W main_arg17)) (Chains.vec2 (W main_arg18)) _ _ _

set_option maxRecDepth 16384 in
theorem keep_add3 (W : Val) (r : Ref sig .tc) (h : r.idx.val < 883 ∨ 888 ≤ r.idx.val) :
    after (seg 856 5) W (no_index (Proc.devRef .tc r)) = W (Proc.devRef .tc r) := by
  seg_keep h

/-- The three normalised branches added, left to right, and clipped at zero. -/
theorem st_add3 (W : Val) :
    after (seg 856 5) W (no_index (Proc.devRef .tc main_v482))
      = Spec.relu (Spec.add3 (W main_v456 : FVec Ideal SN .f32) (W main_v479) (W main_v407)) := by
  seg_lit
  after_results_simp
  refine Eq.trans ?_ ((HostForms.relu_host (t := S40000x128) _ bcast_S_S40000x128).trans
    (congrArg Spec.relu (HostForms.add3_host (W main_v456) (W main_v479) (W main_v407))))
  rfl

set_option maxRecDepth 16384 in
theorem keep_lin_m1 (W : Val) (r : Ref sig .tc) (h : r.idx.val < 888 ∨ 896 ≤ r.idx.val) :
    after (seg 861 8) W (no_index (Proc.devRef .tc r)) = W (Proc.devRef .tc r) := by
  seg_keep h

/-- Slice 2 of a stacked matrix and of a stacked bias, the product, the bias added to every row. -/
theorem st_lin_m1 (W : Val) :
    after (seg 861 8) W (no_index (Proc.devRef .tc main_v490))
      = Spec.lin (W main_v482 : FVec Ideal SN .f32) (Chains.mat2 (W main_arg19)) (Chains.vec2 (W main_arg20)) := by
  seg_lit
  after_results_simp
  exact HostForms.lin_host dot_S40000x128_S128x128_S40000x128_1_0_0_1_n_n rfl (W main_v482) (Chains.mat2 (W main_arg19)) (Chains.vec2 (W main_arg20)) _ _

set_option maxRecDepth 16384 in
theorem keep_bn_m1 (W : Val) (r : Ref sig .tc) (h : r.idx.val < 896 ∨ 944 ≤ r.idx.val) :
    after (seg 869 48) W (no_index (Proc.devRef .tc r)) = W (Proc.devRef .tc r) := by
  seg_keep h

set_option maxRecDepth 16384 in
/-- Slice 2 of the stacked scale and shift, the column mean and variance of the input, the normalisation. -/
theorem st_bn_m1 (W : Val) :
    after (seg 869 48) W (no_index (Proc.devRef .tc main_v513))
      = Net.bnS (W main_v490) (Chains.vec2 (W main_arg21)) (Chains.vec2 (W main_arg22)) := by
  seg_lit
  after_results_simp
  exact HostForms.bn_host (W main_v490) (Chains.mean (W main_v490)) (Chains.var (W main_v490)) (Chains.vec2 (W main_arg21)) (Chains.vec2 (W main_arg22)) _ _ _

set_option maxRecDepth 16384 in
theorem keep_relu1 (W : Val) (r : Ref sig .tc) (h : r.idx.val < 944 ∨ 947 ≤ r.idx.val) :
    after (seg 917 3) W (no_index (Proc.devRef .tc r)) = W (Proc.devRef .tc r) := by
  seg_keep h

/-- The entrywise maximum with zero. -/
theorem st_relu1 (W : Val) :
    after (seg 917 3) W (no_index (Proc.devRef .tc main_v514)) = Spec.relu (W main_v513 : FVec Ideal SN .f32) := by
  seg_lit
  after_results_simp
  exact HostForms.relu_host (t := S40000x128) (W main_v513) bcast_S_S40000x128

set_option maxRecDepth 16384 in
theorem keep_lin_m2 (W : Val) (r : Ref sig .tc) (h : r.idx.val < 947 ∨ 955 ≤ r.idx.val) :
    after (seg 920 8) W (no_index (Proc.devRef .tc r)) = W (Proc.devRef .tc r) := by
  seg_keep h

/-- Slice 2 of a stacked matrix and of a stacked bias, the product, the bias added to every row. -/
theorem st_lin_m2 (W : Val) :
    after (seg 920 8) W (no_index (Proc.devRef .tc main_v522))
      = Spec.lin (W main_v514 : FVec Ideal SN .f32) (Chains.mat2 (W main_arg23)) (Chains.vec2 (W main_arg24)) := by
  seg_lit
  after_results_simp
  exact HostForms.lin_host dot_S40000x128_S128x128_S40000x128_1_0_0_1_n_n rfl (W main_v514) (Chains.mat2 (W main_arg23)) (Chains.vec2 (W main_arg24)) _ _

set_option maxRecDepth 16384 in
theorem keep_bn_m2 (W : Val) (r : Ref sig .tc) (h : r.idx.val < 955 ∨ 1003 ≤ r.idx.val) :
    after (seg 928 48) W (no_index (Proc.devRef .tc r)) = W (Proc.devRef .tc r) := by
  seg_keep h

set_option maxRecDepth 16384 in
/-- Slice 2 of the stacked scale and shift, the column mean and variance of the input, the normalisation. -/
theorem st_bn_m2 (W : Val) :
    after (seg 928 48) W (no_index (Proc.devRef .tc main_v545))
      = Net.bnS (W main_v522) (Chains.vec2 (W main_arg25)) (Chains.vec2 (W main_arg26)) := by
  seg_lit
  after_results_simp
  exact HostForms.bn_host (W main_v522) (Chains.mean (W main_v522)) (Chains.var (W main_v522)) (Chains.vec2 (W main_arg25)) (Chains.vec2 (W main_arg26)) _ _ _

set_option maxRecDepth 16384 in
theorem keep_relu2 (W : Val) (r : Ref sig .tc) (h : r.idx.val < 1003 ∨ 1006 ≤ r.idx.val) :
    after (seg 976 3) W (no_index (Proc.devRef .tc r)) = W (Proc.devRef .tc r) := by
  seg_keep h

/-- The entrywise maximum with zero. -/
theorem st_relu2 (W : Val) :
    after (seg 976 3) W (no_index (Proc.devRef .tc main_v546)) = Spec.relu (W main_v545 : FVec Ideal SN .f32) := by
  seg_lit
  after_results_simp
  exact HostForms.relu_host (t := S40000x128) (W main_v545) bcast_S_S40000x128

/-! ## Layer 2: the pieces in a row -/

/-- The layer's 308 operations are its fourteen pieces, in order. -/
theorem split (W : Val) :
    after (seg 671 308) W
      = after (seg 976 3) (after (seg 928 48) (after (seg 920 8) (after (seg 917 3) (after (seg 869 48) (after (seg 861 8) (after (seg 856 5) (after (seg 808 48) (after (seg 760 48) (after (seg 752 8) (after (seg 739 13) (after (seg 731 8) (after (seg 683 48) (after (seg 671 12) W))))))))))))) := by
  rw [show (308 : Nat) = 12 + (48 + (8 + (13 + (8 + (48 + (48 + (5 + (8 + (48 + (3 + (8 + (48 + (3))))))))))))) from rfl]
  simp only [after_seg_add]

set_option maxRecDepth 65536 in
/-- A buffer that the layer's operations do not write keeps its contents through the layer. -/
theorem keep (W : Val) (r : Ref sig .tc) (h : r.idx.val < 698 ∨ 1006 ≤ r.idx.val) :
    after (seg 671 308) W (no_index (Proc.devRef .tc r)) = W (Proc.devRef .tc r) := by
  seg_keep h

/-- The layer: from the contents `W` before it — the edges' sources and targets, the normalised features `x`, the
    arguments — the next normalised features. -/
theorem layer (W : Val) :
    after (seg 671 308) W (no_index (Proc.devRef .tc main_v546))
      = Net.norm
          (Net.layerRaw (W main_v1) (W main_v3)
            (Net.P2 (W main_arg7) (W main_arg8) (W main_arg11) (W main_arg12) (W main_arg13) (W main_arg14) (W main_arg15) (W main_arg16) (W main_arg17) (W main_arg18) (W main_arg19) (W main_arg20) (W main_arg21) (W main_arg22) (W main_arg23) (W main_arg24))
            (Chains.segSum (W main_v1) (Spec.lin (W main_arg2 : FVec Ideal SE1 .f32) (Chains.row2 (W main_arg9)) (Chains.vec2 (W main_arg10))))
            (W main_v373))
          (Chains.vec2 (W main_arg25)) (Chains.vec2 (W main_arg26)) := by
  rw [split]
  simp (disch := decide) only [st_edge, st_bn_e, st_lin_nb, st_agg, st_lin_nd, st_bn_nd, st_bn_nb, st_add3, st_lin_m1, st_bn_m1, st_relu1, st_lin_m2, st_bn_m2, st_relu2,
    keep_edge, keep_bn_e, keep_lin_nb, keep_agg, keep_lin_nd, keep_bn_nd, keep_bn_nb, keep_add3, keep_lin_m1, keep_bn_m1, keep_relu1, keep_lin_m2, keep_bn_m2, keep_relu2]
  rfl

end L2

end Cert.ReferenceIdeal.RFold

end
-- ==== Proof.RFold.lean ====
/-
  The reference's run read as the network function: after its 979 host operations the result buffer holds
  `Net.netWith` of the arguments with the edge branch as the reference computes it, and every argument's buffer
  holds what it held. The operations are the input stage's 55 and three layers' 308 each; each part is read from
  any contents before it (RFoldInit, RFold0, RFold1, RFold2) and the four readings in a row are the network.
-/
import proofs.«426021_j89885075570707_3_alg».proof.Proof.RFoldCut
import proofs.«426021_j89885075570707_3_alg».proof.Proof.RFoldInit
import proofs.«426021_j89885075570707_3_alg».proof.Proof.RFold0
import proofs.«426021_j89885075570707_3_alg».proof.Proof.RFold1
import proofs.«426021_j89885075570707_3_alg».proof.Proof.RFold2

noncomputable section

namespace Cert.ReferenceIdeal.RFold

open Cert Cert.ReferenceIdeal Cert.ReferenceIdeal.Gen Cert.ReferenceIdeal.RRun Idealize.ShloMosaic Idealize.ShloMosaic.TcCoe Idealize.SL.Sem Idealize.ShloMosaic.StableHlo
open Cert.Chains (SN SE SF S1F SFF S3FF S3F S31F SE1 SEs S2E)

/-- The 979 operations are the input stage's 55 followed by the three layers' 308 each. -/
theorem ops_split (V : Val) :
    after (ops (F := Ideal)) V = after (seg 671 308) (after (seg 363 308) (after (seg 55 308) (after (seg 0 55) V))) := by
  have h : (ops (F := Ideal)) = seg 0 (55 + (308 + (308 + 308))) := by
    unfold seg
    rw [List.drop_zero]
    exact (List.take_of_length_le (by decide +kernel)).symm
  rw [h]
  simp only [after_seg_add]

/-- A buffer of index below 27 — an argument's — keeps its contents through all the operations. -/
theorem kept (V : Val) (r : Ref sig .tc) (h : r.idx.val < 27) :
    after (ops (F := Ideal)) V (Proc.devRef .tc r) = V (Proc.devRef .tc r) := by
  rw [ops_split]
  exact (L2.keep _ r (Or.inl (by omega))).trans ((L1.keep _ r (Or.inl (by omega))).trans
    ((L0.keep _ r (Or.inl (by omega))).trans (Init.keep _ r (Or.inl h))))

/-- The reference's result buffer after its operations holds the network function of the arguments, the edge
    branch's array of a layer being the sum over each node's outgoing edges of `edge_attr · W + b`. -/
theorem result_eq (V : Valuation τ sig (Elt Ideal)) :
    after ops V (main_v546 : DevRef τ sig)
      = Net.netWith (Net.edgeR (V main_arg1) (V main_arg2)) (V main_arg0) (V main_arg1) (V main_arg3) (V main_arg4) (V main_arg5) (V main_arg6) (V main_arg7) (V main_arg8) (V main_arg9) (V main_arg10) (V main_arg11) (V main_arg12) (V main_arg13) (V main_arg14) (V main_arg15) (V main_arg16) (V main_arg17) (V main_arg18) (V main_arg19) (V main_arg20) (V main_arg21) (V main_arg22) (V main_arg23) (V main_arg24) (V main_arg25) (V main_arg26) := by
  rw [ops_split]
  simp (disch := decide) only [L2.layer, L1.layer, L0.layer, L2.keep, L1.keep, L0.keep, Init.keep, Init.src, Init.dst, Init.x0]
  rfl

/-! Every argument's buffer holds after the operations what it held before. -/

theorem arg_kept0 (V : Valuation τ sig (Elt Ideal)) :
    after ops V (main_arg0 : DevRef τ sig) = V (main_arg0 : DevRef τ sig) := kept V main_arg0 (by decide)

theorem arg_kept1 (V : Valuation τ sig (Elt Ideal)) :
    after ops V (main_arg1 : DevRef τ sig) = V (main_arg1 : DevRef τ sig) := kept V main_arg1 (by decide)

theorem arg_kept2 (V : Valuation τ sig (Elt Ideal)) :
    after ops V (main_arg2 : DevRef τ sig) = V (main_arg2 : DevRef τ sig) := kept V main_arg2 (by decide)

theorem arg_kept3 (V : Valuation τ sig (Elt Ideal)) :
    after ops V (main_arg3 : DevRef τ sig) = V (main_arg3 : DevRef τ sig) := kept V main_arg3 (by decide)

theorem arg_kept4 (V : Valuation τ sig (Elt Ideal)) :
    after ops V (main_arg4 : DevRef τ sig) = V (main_arg4 : DevRef τ sig) := kept V main_arg4 (by decide)

theorem arg_kept5 (V : Valuation τ sig (Elt Ideal)) :
    after ops V (main_arg5 : DevRef τ sig) = V (main_arg5 : DevRef τ sig) := kept V main_arg5 (by decide)

theorem arg_kept6 (V : Valuation τ sig (Elt Ideal)) :
    after ops V (main_arg6 : DevRef τ sig) = V (main_arg6 : DevRef τ sig) := kept V main_arg6 (by decide)

theorem arg_kept7 (V : Valuation τ sig (Elt Ideal)) :
    after ops V (main_arg7 : DevRef τ sig) = V (main_arg7 : DevRef τ sig) := kept V main_arg7 (by decide)

theorem arg_kept8 (V : Valuation τ sig (Elt Ideal)) :
    after ops V (main_arg8 : DevRef τ sig) = V (main_arg8 : DevRef τ sig) := kept V main_arg8 (by decide)

theorem arg_kept9 (V : Valuation τ sig (Elt Ideal)) :
    after ops V (main_arg9 : DevRef τ sig) = V (main_arg9 : DevRef τ sig) := kept V main_arg9 (by decide)

theorem arg_kept10 (V : Valuation τ sig (Elt Ideal)) :
    after ops V (main_arg10 : DevRef τ sig) = V (main_arg10 : DevRef τ sig) := kept V main_arg10 (by decide)

theorem arg_kept11 (V : Valuation τ sig (Elt Ideal)) :
    after ops V (main_arg11 : DevRef τ sig) = V (main_arg11 : DevRef τ sig) := kept V main_arg11 (by decide)

theorem arg_kept12 (V : Valuation τ sig (Elt Ideal)) :
    after ops V (main_arg12 : DevRef τ sig) = V (main_arg12 : DevRef τ sig) := kept V main_arg12 (by decide)

theorem arg_kept13 (V : Valuation τ sig (Elt Ideal)) :
    after ops V (main_arg13 : DevRef τ sig) = V (main_arg13 : DevRef τ sig) := kept V main_arg13 (by decide)

theorem arg_kept14 (V : Valuation τ sig (Elt Ideal)) :
    after ops V (main_arg14 : DevRef τ sig) = V (main_arg14 : DevRef τ sig) := kept V main_arg14 (by decide)

theorem arg_kept15 (V : Valuation τ sig (Elt Ideal)) :
    after ops V (main_arg15 : DevRef τ sig) = V (main_arg15 : DevRef τ sig) := kept V main_arg15 (by decide)

theorem arg_kept16 (V : Valuation τ sig (Elt Ideal)) :
    after ops V (main_arg16 : DevRef τ sig) = V (main_arg16 : DevRef τ sig) := kept V main_arg16 (by decide)

theorem arg_kept17 (V : Valuation τ sig (Elt Ideal)) :
    after ops V (main_arg17 : DevRef τ sig) = V (main_arg17 : DevRef τ sig) := kept V main_arg17 (by decide)

theorem arg_kept18 (V : Valuation τ sig (Elt Ideal)) :
    after ops V (main_arg18 : DevRef τ sig) = V (main_arg18 : DevRef τ sig) := kept V main_arg18 (by decide)

theorem arg_kept19 (V : Valuation τ sig (Elt Ideal)) :
    after ops V (main_arg19 : DevRef τ sig) = V (main_arg19 : DevRef τ sig) := kept V main_arg19 (by decide)

theorem arg_kept20 (V : Valuation τ sig (Elt Ideal)) :
    after ops V (main_arg20 : DevRef τ sig) = V (main_arg20 : DevRef τ sig) := kept V main_arg20 (by decide)

theorem arg_kept21 (V : Valuation τ sig (Elt Ideal)) :
    after ops V (main_arg21 : DevRef τ sig) = V (main_arg21 : DevRef τ sig) := kept V main_arg21 (by decide)

theorem arg_kept22 (V : Valuation τ sig (Elt Ideal)) :
    after ops V (main_arg22 : DevRef τ sig) = V (main_arg22 : DevRef τ sig) := kept V main_arg22 (by decide)

theorem arg_kept23 (V : Valuation τ sig (Elt Ideal)) :
    after ops V (main_arg23 : DevRef τ sig) = V (main_arg23 : DevRef τ sig) := kept V main_arg23 (by decide)

theorem arg_kept24 (V : Valuation τ sig (Elt Ideal)) :
    after ops V (main_arg24 : DevRef τ sig) = V (main_arg24 : DevRef τ sig) := kept V main_arg24 (by decide)

theorem arg_kept25 (V : Valuation τ sig (Elt Ideal)) :
    after ops V (main_arg25 : DevRef τ sig) = V (main_arg25 : DevRef τ sig) := kept V main_arg25 (by decide)

theorem arg_kept26 (V : Valuation τ sig (Elt Ideal)) :
    after ops V (main_arg26 : DevRef τ sig) = V (main_arg26 : DevRef τ sig) := kept V main_arg26 (by decide)

end Cert.ReferenceIdeal.RFold

end
-- ==== Proof.EdgeLinear.lean ====
/-
  The one algebraic law of the edge layer: summing an affine function of the edge attribute over a node's
  outgoing edges is the affine function of the two sums.

  For every node v and feature q,
      (∑_{e : start e = v} a_e) · w_q + (∑_{e : start e = v} 1) · b_q  =  ∑_{e : start e = v} (a_e · w_q + b_q),
  which is distributivity of the product over a finite sum. On the extended reals it needs the entries of a, w, b
  to be real numbers, and is proved through ℝ.

  The two sides are stated with the shared host chains: the left with the scalar segment sums (the edge attribute's,
  and the constant one's, each reshaped to a column), the right with the row segment sum of the 1-column matrix
  product a · W + b. Both segment sums are scatters with an exact-sum body, so each entry of the result is the sum
  over the update indices that land on it. An edge e (with any feature q') lands on (v, q) exactly when the signed
  start of e is v and q' = q; the scalar of edge e lands on v exactly when the signed start of e is v. Hence both
  sides are sums over the same set of edges.
-/
import proofs.«426021_j89885075570707_3_alg».proof.Proof.Spec
import proofs.«426021_j89885075570707_3_alg».proof.Proof.Chains
import Idealize.ShloMosaic.Lib.ValueIdx
import Idealize.ShloMosaic.Lib.ValueLayout
import Idealize.ShloMosaic.Lib.IdealHost
import Idealize.ShloMosaic.PureOps.Ideal.Laws
import Mathlib.Data.EReal.Basic
import Mathlib.Algebra.BigOperators.Ring.Finset
import Mathlib.Algebra.BigOperators.Fin

noncomputable section

namespace Cert.EdgeLinear
open Idealize.ShloMosaic Idealize.ShloMosaic.ValueIdx Cert.Chains

/-- A scattered update lands on index i exactly when, on every axis, start plus window coordinate is i's coordinate. -/
theorem resultIdx?_eq_some_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  split
  · rename_i h
    constructor
    · intro heq a
      have h1 := congrFun (Option.some.inj heq) a
      have h2 := congrArg Fin.val h1
      have h3 : (d.start j idx a + d.window j a).toNat = (i a).val := h2
      have := (h a).1
      omega
    · intro hall
      congr 1
      funext a
      apply Fin.ext
      show (d.start j idx a + d.window j a).toNat = (i a).val
      have := hall a
      omega
  · rename_i h
    constructor
    · intro heq
      exact absurd heq (by simp)
    · intro hall
      exfalso
      apply h
      intro a
      have := hall a
      have := (i a).isLt
      constructor
      · omega
      · rw [hall a]; exact_mod_cast (i a).isLt

abbrev bidx (idx : IVec SEs 32) : IVec SE1 32 := broadcastInDim SE1 ![0] bc_SEs_SE1 idx

theorem start1 (idx : IVec SEs 32) (e : Fin 640000) (a : Fin SNs.rank) :
    scatterDims1.start (ix1 e) (bidx idx) a = (idx (ix1 e)).toInt := by
  obtain rfl : a = ⟨0, by decide⟩ := Subsingleton.elim (α := Fin 1) _ _
  unfold ScatterDims.start
  rw [dif_pos (by decide)]
  refine congrArg (fun x => (idx x).toInt) ?_
  funext c
  match c with
  | ⟨0, _⟩ => rfl

theorem window1 (j : SEs.Idx) (a : Fin SNs.rank) : scatterDims1.window j a = 0 := by
  obtain rfl : a = ⟨0, by decide⟩ := Subsingleton.elim (α := Fin 1) _ _
  rfl

theorem start2_0 (idx : IVec SEs 32) (e : Fin 640000) (q : Fin 128) :
    scatterDims.start (ix2 e q) (bidx idx) ⟨0, by decide⟩ = (idx (ix1 e)).toInt := by
  unfold ScatterDims.start
  rw [dif_pos (by decide)]
  refine congrArg (fun x => (idx x).toInt) ?_
  funext c
  match c with
  | ⟨0, _⟩ => rfl

theorem start2_1 (idx : IVec SEs 32) (j : SE.Idx) :
    scatterDims.start j (bidx idx) ⟨1, by decide⟩ = 0 := rfl

theorem window2_0 (j : SE.Idx) : scatterDims.window j ⟨0, by decide⟩ = 0 := rfl
theorem window2_1 (j : SE.Idx) : scatterDims.window j ⟨1, by decide⟩ = (j 1).val := rfl

/-- An edge scalar lands on node v exactly when the edge's (signed) start is v. -/
theorem res1 (idx : IVec SEs 32) (j : SEs.Idx) (v : Fin 40000) :
    scatterDims1.resultIdx? j (bidx idx) = some (ix1 v) ↔ (idx j).toInt = (v.val : Int) := by
  obtain ⟨e, rfl⟩ : ∃ e : Fin 640000, j = ix1 e := ⟨j 0, eq_ix1 j⟩
  rw [resultIdx?_eq_some_iff]
  constructor
  · intro h
    have h0 : (idx (ix1 e)).toInt + ((0 : Nat) : Int) = ((v.val : Nat) : Int) := by
      have := h ⟨0, by decide⟩
      rwa [start1, window1] at this
    omega
  · intro h a
    rw [start1, window1]
    obtain rfl : a = ⟨0, by decide⟩ := Subsingleton.elim (α := Fin 1) _ _
    show (idx (ix1 e)).toInt + ((0 : Nat) : Int) = ((v.val : Nat) : Int)
    omega

/-- An edge row's entry q' lands on (v, q) exactly when the edge's start is v and q' = q. -/
theorem res2 (idx : IVec SEs 32) (j : SE.Idx) (v : Fin 40000) (q : Fin 128) :
    scatterDims.resultIdx? j (bidx idx) = some (ix2 v q) ↔ (idx (ix1 (j 0))).toInt = (v.val : Int) ∧ j 1 = q := by
  obtain ⟨e, q', rfl⟩ : ∃ (e : Fin 640000) (q' : Fin 128), j = ix2 e q' := ⟨j 0, j 1, eq_ix2 j⟩
  rw [resultIdx?_eq_some_iff]
  constructor
  · intro h
    have h0 : (idx (ix1 e)).toInt + ((0 : Nat) : Int) = ((v.val : Nat) : Int) := by
      have := h ⟨0, by decide⟩
      rwa [start2_0, window2_0] at this
    have h1 : (0 : Int) + ((q'.val : Nat) : Int) = ((q.val : Nat) : Int) := by
      have := h ⟨1, by decide⟩
      rwa [start2_1, window2_1] at this
    refine ⟨?_, Fin.ext ?_⟩
    · show (idx (ix1 e)).toInt = _
      omega
    · show q'.val = q.val
      omega
  · rintro ⟨h1, h2⟩ a
    have h1' : (idx (ix1 e)).toInt = (v.val : Int) := h1
    have h2' : q' = q := h2
    match a with
    | ⟨0, _⟩ =>
      show scatterDims.start (ix2 e q') (bidx idx) ⟨0, by decide⟩ + (scatterDims.window (ix2 e q') ⟨0, by decide⟩ : Nat) = ((v.val : Nat) : Int)
      rw [start2_0, window2_0]
      omega
    | ⟨1, _⟩ =>
      show scatterDims.start (ix2 e q') (bidx idx) ⟨1, by decide⟩ + (scatterDims.window (ix2 e q') ⟨1, by decide⟩ : Nat) = ((q.val : Nat) : Int)
      rw [start2_1, window2_1, h2']
      show (0 : Int) + ((q.val : Nat) : Int) = _
      omega

/-- The edges whose (signed) start is node v. -/
abbrev edgesOf (idx : IVec SEs 32) (v : Fin 40000) : Finset SEs.Idx :=
  Finset.univ.filter (fun j : SEs.Idx => (idx j).toInt = (v.val : Int))

/-- A broadcast scalar constant reads, at every index, the constant's word. -/
theorem bconst_apply {S : Shape} (h : S_.BroadcastsInDim S (![] : Fin 0 → Fin S.rank)) (w : BitVec 32) (i : S.Idx) :
    broadcastInDim S ![] h (constant (F := Ideal) S_ .f32 w) i = Ideal.ofBits .f32 w := rfl

/-- The exact-sum scatter at an index: the operand's entry plus the sum of the updates landing there. Stated over
    arbitrary operands, so that nothing of a particular operand is ever opened. -/
theorem scatterAdd_apply {s si su : Shape} (d : ScatterDims s si su) {w : Nat} (X : FVec Ideal s .f32) (I : IVec si w)
    (u : FVec Ideal su .f32) (i : s.Idx) :
    Host.scatterAdd (F := Ideal) d X I u i
      = X i + ∑ j ∈ Finset.univ.filter (fun j => d.resultIdx? j I = some i), u j := rfl

/-- The scalar segment sum at node v is the sum over the edges starting at v. -/
theorem segSum1_apply (idx : IVec SEs 32) (u : FVec Ideal SEs .f32) (v : Fin 40000) :
    segSum1 (F := Ideal) idx u (ix1 v) = ∑ j ∈ edgesOf idx v, u j := by
  delta segSum1
  rw [scatterAdd_apply, bconst_apply, Ideal.ofBits_zero_f32, zero_add]
  refine Finset.sum_congr ?_ (fun _ _ => rfl)
  ext j
  rw [Finset.mem_filter, Finset.mem_filter]
  exact and_congr_right (fun _ => res1 idx j v)

/-- The row segment sum at (v, q) is the sum, over the edges starting at v, of entry q of the edge's row. -/
theorem segSum_apply (idx : IVec SEs 32) (u : FVec Ideal SE .f32) (v : Fin 40000) (q : Fin 128) :
    segSum (F := Ideal) idx u (ix2 v q) = ∑ j ∈ edgesOf idx v, u (ix2 (j 0) q) := by
  delta segSum
  rw [scatterAdd_apply, bconst_apply, Ideal.ofBits_zero_f32, zero_add]
  refine Finset.sum_bij' (fun (j : SE.Idx) _ => (ix1 (j 0) : SEs.Idx)) (fun (e : SEs.Idx) _ => (ix2 (e 0) q : SE.Idx)) ?_ ?_ ?_ ?_ ?_
  · intro j hj
    rw [Finset.mem_filter] at hj ⊢
    exact ⟨Finset.mem_univ _, ((res2 idx j v q).1 hj.2).1⟩
  · intro e he
    rw [Finset.mem_filter] at he ⊢
    refine ⟨Finset.mem_univ _, (res2 idx (ix2 (e 0) q) v q).2 ⟨?_, rfl⟩⟩
    exact (congrArg (fun x => (idx x).toInt) (eq_ix1 e)).symm.trans he.2
  · intro j hj
    rw [Finset.mem_filter] at hj
    have h2 : j 1 = q := ((res2 idx j v q).1 hj.2).2
    subst h2
    exact (eq_ix2 j).symm
  · intro e _
    exact (eq_ix1 e).symm
  · intro j hj
    rw [Finset.mem_filter] at hj
    have h2 : j 1 = q := ((res2 idx j v q).1 hj.2).2
    subst h2
    exact congrArg u (eq_ix2 j)

/-- The edge attribute's column of segment sums, at node v. -/
theorem edgeSum_apply (idx : IVec SEs 32) (a : FVec Ideal SE1 .f32) (v : Fin 40000) (z : Fin 1) :
    edgeSum (F := Ideal) idx a (ix2 v z) = ∑ j ∈ edgesOf idx v, a (ix2 (j 0) 0) := by
  delta edgeSum
  rw [shapeCast_apply _ sc_SNs_SN1 (ix2 v z) (ix1 v) (by
    rw [Shape.rowMajor_val_one, Shape.rowMajor_val_two]
    show v.val = v.val * 1 + z.val
    have := z.isLt; omega)]
  rw [segSum1_apply]
  refine Finset.sum_congr rfl (fun j _ => ?_)
  exact shapeCast_apply a sc_SE1_SEs j (ix2 (j 0) 0) (by
    rw [Shape.rowMajor_val_one, Shape.rowMajor_val_two]
    show (j 0).val * 1 + 0 = (j 0).val
    omega)

/-- The column of out-degrees, at node v: one per edge starting at v. -/
theorem edgeCount_apply (idx : IVec SEs 32) (v : Fin 40000) (z : Fin 1) :
    edgeCount (F := Ideal) idx (ix2 v z) = ∑ _j ∈ edgesOf idx v, (1 : EReal) := by
  delta edgeCount
  rw [shapeCast_apply _ sc_SNs_SN1 (ix2 v z) (ix1 v) (by
    rw [Shape.rowMajor_val_one, Shape.rowMajor_val_two]
    show v.val = v.val * 1 + z.val
    have := z.isLt; omega)]
  rw [segSum1_apply]
  refine Finset.sum_congr rfl (fun j _ => ?_)
  rw [bconst_apply]
  exact Ideal.ofBits_one_f32

/-- Distributivity over a finite sum, for real entries read as extended reals. -/
theorem sum_law {ι : Type} (S : Finset ι) (f : ι → EReal) (w c : EReal)
    (hf : ∀ i, ∃ r : ℝ, f i = (r : EReal)) (hw : ∃ r : ℝ, w = (r : EReal)) (hc : ∃ r : ℝ, c = (r : EReal)) :
    (∑ j ∈ S, f j) * w + (∑ _j ∈ S, (1 : EReal)) * c = ∑ j ∈ S, (f j * w + c) := by
  obtain ⟨w', rfl⟩ := hw
  obtain ⟨c', rfl⟩ := hc
  choose g hg using hf
  obtain rfl : f = fun i => (g i : EReal) := funext hg
  have hs : ∀ h : ι → ℝ, ∑ j ∈ S, ((h j : ℝ) : EReal) = ((∑ j ∈ S, h j : ℝ) : EReal) := fun h =>
    (map_sum (⟨⟨fun r : ℝ => (r : EReal), EReal.coe_zero⟩, EReal.coe_add⟩ : ℝ →+ EReal) h S).symm
  have h1 : ∑ _j ∈ S, (1 : EReal) = ((∑ _j ∈ S, (1 : ℝ) : ℝ) : EReal) := hs (fun _ => (1 : ℝ))
  calc (∑ j ∈ S, (g j : EReal)) * (w' : EReal) + (∑ _j ∈ S, (1 : EReal)) * (c' : EReal)
      = ((∑ j ∈ S, g j : ℝ) : EReal) * (w' : EReal) + ((∑ _j ∈ S, (1 : ℝ) : ℝ) : EReal) * (c' : EReal) := by
        rw [hs g, h1]
    _ = (((∑ j ∈ S, g j) * w' + (∑ _j ∈ S, (1 : ℝ)) * c' : ℝ) : EReal) := by
        rw [EReal.coe_add, EReal.coe_mul, EReal.coe_mul]
    _ = ((∑ j ∈ S, (g j * w' + c') : ℝ) : EReal) := by
        congr 1
        rw [Finset.sum_add_distrib, ← Finset.sum_mul]
        simp [Finset.sum_const, nsmul_eq_mul]
    _ = ∑ j ∈ S, ((g j : EReal) * (w' : EReal) + (c' : EReal)) := by
        rw [← hs]
        exact Finset.sum_congr rfl (fun j _ => by rw [EReal.coe_add, EReal.coe_mul])

/-- The rank-one combination of a node's edge-attribute sum and out-degree is the segment sum of the edges' affine
    images, for real entries. -/
theorem edge_linear (idx : IVec Cert.Chains.SEs 32) (a : FVec Ideal Cert.Chains.SE1 .f32) (W : FVec Ideal Cert.Chains.S1F .f32)
    (b : FVec Ideal Cert.Chains.SF .f32)
    (ha : ∀ i, ∃ r : ℝ, a i = (r : EReal)) (hW : ∀ i, ∃ r : ℝ, W i = (r : EReal)) (hb : ∀ i, ∃ r : ℝ, b i = (r : EReal)) :
    Cert.Spec.outer (Cert.Chains.edgeSum (F := Ideal) idx a) (Cert.Chains.edgeCount (F := Ideal) idx) W b
      = Cert.Chains.segSum (F := Ideal) idx (Cert.Spec.lin a W b) := by
  funext i
  obtain ⟨v, q, rfl⟩ : ∃ (v : Fin 40000) (q : Fin 128), i = ix2 v q := ⟨i 0, i 1, eq_ix2 i⟩
  rw [Cert.Spec.outer_apply, segSum_apply]
  delta Cert.Spec.outerE
  rw [edgeSum_apply, edgeCount_apply]
  rw [sum_law (edgesOf idx v) (fun j => a (ix2 (j 0) 0)) (W (ix2 0 q)) (b (ix1 q)) (fun j => ha _) (hW _) (hb _)]
  refine Finset.sum_congr rfl (fun j _ => ?_)
  refine (Eq.trans (Cert.Spec.lin_apply a W b (j 0) q) ?_).symm
  delta Cert.Spec.linE
  rw [Fin.sum_univ_one]

end Cert.EdgeLinear

end
-- ==== Proof.Finite.lean ====
/-
  Every entry of three float inputs is a real number, from the precondition.

  The precondition says of each float input `x` that `|x| < +∞` holds at every entry (an `and` over all entries, and an
  `and` of these over the inputs). Over the extended reals an entry with `max x (-x) < ⊤` is neither `⊤` nor `⊥`: it is a
  real number. This is read off here for the edge attributes `f32[640000, 1]`, the stacked edge weights `f32[3, 1, 128]`
  and the stacked edge biases `f32[3, 128]`, and carried to the layers of the two stacks.
-/
import proofs.«426021_j89885075570707_3_alg».proof.Defs
import proofs.«426021_j89885075570707_3_alg».proof.Proof.Gen.Pre_finite_inputs
import proofs.«426021_j89885075570707_3_alg».proof.Proof.Chains
import Idealize.ShloMosaic.Lib.ReduceAll
import Idealize.ShloMosaic.Lib.ValueIdx
import Idealize.ShloMosaic.PureOps.Ideal.Laws

noncomputable section

namespace Cert.Finite

open Idealize.ShloMosaic

/-- Every entry is a real number (neither infinity nor the junk value). -/
def AllReal {S : Shape} (x : FVec Ideal S .f32) : Prop := ∀ i, ∃ r : ℝ, x i = (r : EReal)

/-- The shape with no axes has one index. -/
instance : Subsingleton (⟨0, ![]⟩ : Shape).Idx := ⟨fun a b => funext fun d => d.elim0⟩

/-- The word `0x7F800000` denotes `+∞`. -/
theorem inf_eq_top : Ideal.ofBits .f32 0x7F800000#32 = (⊤ : EReal) := by
  simp [Ideal.ofBits, Ideal.ieee]

/-- An extended real whose absolute value lies strictly below `+∞` is a real number. -/
theorem real_of_abs_lt (x : EReal) (h : Ideal.cmp .olt (max x (-x)) (Ideal.ofBits .f32 0x7F800000#32) = 1#1) :
    ∃ r : ℝ, x = (r : EReal) := by
  rw [inf_eq_top] at h
  induction x using EReal.rec with
  | bot => simp [Ideal.cmp] at h
  | top => simp [Ideal.cmp] at h
  | coe r => exact ⟨r, rfl⟩

/-- If the `and` over all entries of `|x| < +∞` is one, every entry of `x` is a real number. -/
theorem allReal_of_all {S : Shape} {axes : List (Fin S.rank)} (x : FVec Ideal S .f32)
    (hb : (⟨0, ![]⟩ : Shape).BroadcastsInDim S (![] : Fin 0 → Fin S.rank)) (hr : S.ReducesTo axes ⟨0, ![]⟩)
    (hu : 0 < (⟨0, ![]⟩ : Shape).numel) (init : IVec ⟨0, ![]⟩ 1) (j : (⟨0, ![]⟩ : Shape).Idx)
    (e : Host.reduce IntOp.andi (cmpf .olt (Host.absf x) (broadcastInDim S ![] hb (constant (F := Ideal) ⟨0, ![]⟩ .f32 0x7F800000#32))) init hr hu j = 1#1) :
    AllReal x := by
  intro i
  have h := Host.reduce_andi_all _ _ hr hu j e i
  exact real_of_abs_lt (x i) h

open Cert.Pre_finite_inputs in
/-- The finiteness predicate, all ones, makes every entry of its third, tenth and eleventh array a real number: the
    predicate is the `and` of one conjunct per float array, and each conjunct is the `and` over that array's entries. -/
theorem fn_real [Cert.Pre_finite_inputs.Facts]
    (a0 : FVec Ideal S40000x2 .f32) (a1 : IVec S2x640000 32) (a2 : FVec Ideal S640000x1 .f32) (a3 : FVec Ideal S2x128 .f32)
    (a4 a5 a6 : FVec Ideal S128 .f32) (a7 : FVec Ideal S3x128x128 .f32) (a8 : FVec Ideal S3x128 .f32) (a9 : FVec Ideal S3x1x128 .f32)
    (a10 : FVec Ideal S3x128 .f32) (a11 : FVec Ideal S3x128x128 .f32) (a12 a13 a14 a15 a16 a17 a18 : FVec Ideal S3x128 .f32)
    (a19 : FVec Ideal S3x128x128 .f32) (a20 a21 a22 : FVec Ideal S3x128 .f32) (a23 : FVec Ideal S3x128x128 .f32)
    (a24 a25 a26 : FVec Ideal S3x128 .f32)
    (h : fn (F := Ideal) a0 a1 a2 a3 a4 a5 a6 a7 a8 a9 a10 a11 a12 a13 a14 a15 a16 a17 a18 a19 a20 a21 a22 a23 a24 a25 a26 = fun _ => 1#1) :
    AllReal a2 ∧ AllReal a9 ∧ AllReal a10 := by
  have h0 := congrFun h ValueIdx.ix0
  simp only [fn, fn_part1, fn_part2, fn_part3, fn_part4, fn_part5, fn_part6, fn_part7, andi, IntOp.andi_eq_one, and_assoc] at h0
  obtain ⟨-, e2, -, -, -, -, -, -, e9, e10, -⟩ := h0
  exact ⟨allReal_of_all a2 _ _ _ _ _ e2, allReal_of_all a9 _ _ _ _ _ e9, allReal_of_all a10 _ _ _ _ _ e10⟩

open Idealize.SL.Sem in
/-- At a launch memory of which the precondition holds, the edge attributes, the stacked edge weights and the stacked edge
    biases are arrays of real numbers, on every device. -/
theorem of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (S := Cert.Chains.SE1) (m ((c.tc : Thread Cert.KernelIdeal.nD Cert.KernelIdeal.τ).loc Cert.KernelIdeal.main_arg2))
    ∧ AllReal (S := Cert.Chains.S31F) (m ((c.tc : Thread Cert.KernelIdeal.nD Cert.KernelIdeal.τ).loc Cert.KernelIdeal.main_arg9))
    ∧ AllReal (S := Cert.Chains.S3F) (m ((c.tc : Thread Cert.KernelIdeal.nD Cert.KernelIdeal.τ).loc Cert.KernelIdeal.main_arg10)) :=
  fn_real _ _ _ _ _ _ _ _ _ _ _ _ _ _ _ _ _ _ _ _ _ _ _ _ _ _ _ (h c)

/-! ### Carried through the layout operations

A slice and a reshape only re-index: each entry of the result is an entry of the operand. -/

theorem shapeCast_real {s t : Shape} (x : FVec Ideal s .f32) (hc : s.ShapeCasts t) (h : AllReal x) :
    AllReal (shapeCast t x hc) := fun _ => h _

theorem extractStridedSlice_real {s t : Shape} (off : Fin s.rank → Nat) (x : FVec Ideal s .f32) (hs : s.Slices off t)
    (h : AllReal x) : AllReal (extractStridedSlice t off x hs) := fun _ => h _

/-- Layer 0, 1, 2 of a stack of three 1×128 rows of real numbers. -/
theorem row0_real (W : FVec Ideal Cert.Chains.S31F .f32) (h : AllReal W) : AllReal (Cert.Chains.row0 (F := Ideal) W) := fun _ => h _
theorem row1_real (W : FVec Ideal Cert.Chains.S31F .f32) (h : AllReal W) : AllReal (Cert.Chains.row1 (F := Ideal) W) := fun _ => h _
theorem row2_real (W : FVec Ideal Cert.Chains.S31F .f32) (h : AllReal W) : AllReal (Cert.Chains.row2 (F := Ideal) W) := fun _ => h _

/-- Layer 0, 1, 2 of a stack of three 128-vectors of real numbers. -/
theorem vec0_real (b : FVec Ideal Cert.Chains.S3F .f32) (h : AllReal b) : AllReal (Cert.Chains.vec0 (F := Ideal) b) := fun _ => h _
theorem vec1_real (b : FVec Ideal Cert.Chains.S3F .f32) (h : AllReal b) : AllReal (Cert.Chains.vec1 (F := Ideal) b) := fun _ => h _
theorem vec2_real (b : FVec Ideal Cert.Chains.S3F .f32) (h : AllReal b) : AllReal (Cert.Chains.vec2 (F := Ideal) b) := fun _ => h _

end Cert.Finite

end
-- ==== Proof.Bridge.lean ====
/-
  The two forms of the network agree on real inputs.

  They differ only in the edge branch's array: per node, `(∑ a_e) · w + (number of edges) · b` against
  `∑ (a_e · w + b)`, both sums over the node's outgoing edges. Where the edge attributes, the edge row and the edge
  bias are real numbers the two are equal (distributivity over a finite sum), at each of the three layers.
-/
import proofs.«426021_j89885075570707_3_alg».proof.Proof.Net
import proofs.«426021_j89885075570707_3_alg».proof.Proof.EdgeLinear
import proofs.«426021_j89885075570707_3_alg».proof.Proof.Finite

noncomputable section

namespace Cert.Bridge

open Idealize.ShloMosaic Cert.Spec Cert.Chains Cert.Net Cert.Finite

/-- The kernel's edge array is the reference's, for a real edge row and edge bias over real edge attributes. -/
theorem edge_eq (a1 : IVec S2E 32) (a2 : FVec Ideal SE1 .f32) (W : FVec Ideal S1F .f32) (b : FVec Ideal SF .f32)
    (h2 : AllReal a2) (hW : AllReal W) (hb : AllReal b) : edgeK a1 a2 W b = edgeR a1 a2 W b :=
  Cert.EdgeLinear.edge_linear (srcOf a1) a2 W b h2 hW hb

/-- The network with the kernel's edge branch is the network with the reference's. -/
theorem net_eq (a0 : FVec Ideal SA0 .f32) (a1 : IVec S2E 32) (a2 : FVec Ideal SE1 .f32) (a3 : FVec Ideal SW0 .f32) (a4 a5 a6 : FVec Ideal SF .f32)
    (a7 : FVec Ideal S3FF .f32) (a8 : FVec Ideal S3F .f32) (a9 : FVec Ideal S31F .f32) (a10 : FVec Ideal S3F .f32)
    (a11 : FVec Ideal S3FF .f32) (a12 a13 a14 a15 a16 a17 a18 : FVec Ideal S3F .f32)
    (a19 : FVec Ideal S3FF .f32) (a20 a21 a22 : FVec Ideal S3F .f32)
    (a23 : FVec Ideal S3FF .f32) (a24 a25 a26 : FVec Ideal S3F .f32)
    (h2 : AllReal a2) (h9 : AllReal a9) (h10 : AllReal a10) :
    netWith (edgeK a1 a2) a0 a1 a3 a4 a5 a6 a7 a8 a9 a10 a11 a12 a13 a14 a15 a16 a17 a18 a19 a20 a21 a22 a23 a24 a25 a26
      = netWith (edgeR a1 a2) a0 a1 a3 a4 a5 a6 a7 a8 a9 a10 a11 a12 a13 a14 a15 a16 a17 a18 a19 a20 a21 a22 a23 a24 a25 a26 :=
  netWith_congr (edgeK a1 a2) (edgeR a1 a2) a0 a1 a3 a4 a5 a6 a7 a8 a9 a10 a11 a12 a13 a14 a15 a16 a17 a18 a19 a20 a21 a22 a23 a24 a25 a26
    (edge_eq a1 a2 _ _ h2 (row0_real a9 h9) (vec0_real a10 h10))
    (edge_eq a1 a2 _ _ h2 (row1_real a9 h9) (vec1_real a10 h10))
    (edge_eq a1 a2 _ _ h2 (row2_real a9 h9) (vec2_real a10 h10))

end Cert.Bridge

end
-- ==== Proof.lean ====
/-
  The certificate: the two idealized programs compute one function of their arguments.

  Both are a small graph network on 40000 nodes and 640000 edges: a first linear map of the node attributes, then three
  layers, every linear map followed by a batch normalisation over the nodes (by the column's own mean and biased
  variance) and a clip at zero. In a layer the node features go through a node map and a neighbour map; the
  neighbour map's rows are gathered at the edges' sources and summed at their targets; an edge branch turns the
  edge attributes into one row per node; the three normalised arrays are added, clipped, and pass two update maps.

  The kernel program computes every linear map, normalisation and clip tile by tile (5000 nodes at a time); over the
  extended reals a tile of a matrix product is the product's rows, a change of float format is the identity and a
  product accumulated from zero is the plain sum, so each kernel region leaves exactly the layer function of the
  arrays it found. Reading the run's boundary contents from the launch to the return gives the network function
  `Net.netWith` with the edge branch in the kernel's form; reading the fold of the reference's host operations gives the
  same function with the edge branch in the reference's form.

  The two forms differ in one place. The reference sums `a_e · w + b` over a node's outgoing edges `e`; the kernel
  multiplies the node's sum of `a_e` by `w` and its number of edges by `b`. These agree by distributivity over a
  finite sum, which holds on the extended reals where `a`, `w`, `b` are real numbers — and the precondition says
  every float input is finite. Nothing else of the precondition is used.

  The kernel programs' frames are the generated ones; the reference's frame is its run with the result dropped; the
  statement records no rewritten operation between the kernel and its idealization (that conjunct is stated as `True`).
-/
import proofs.«426021_j89885075570707_3_alg».proof.Defs
import proofs.«426021_j89885075570707_3_alg».proof.Proof.Gen.Kernel
import proofs.«426021_j89885075570707_3_alg».proof.Proof.Gen.Kernel.Frame
import proofs.«426021_j89885075570707_3_alg».proof.Proof.Gen.KernelIdeal
import proofs.«426021_j89885075570707_3_alg».proof.Proof.Gen.KernelIdeal.Frame
import proofs.«426021_j89885075570707_3_alg».proof.Proof.Gen.ReferenceIdeal
import proofs.«426021_j89885075570707_3_alg».proof.Proof.Gen.Pre_finite_inputs
import proofs.«426021_j89885075570707_3_alg».proof.Proof.KRun
import proofs.«426021_j89885075570707_3_alg».proof.Proof.KFold
import proofs.«426021_j89885075570707_3_alg».proof.Proof.RRun
import proofs.«426021_j89885075570707_3_alg».proof.Proof.RFold
import proofs.«426021_j89885075570707_3_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs, and every argument, read back through the fold of its operations, is as launched. -/
theorem frame_ri : Cert.frame_ReferenceIdeal := fun m ρ _ =>
  (θ_run (Cert.ReferenceIdeal.defs (F := Ideal)) _ _).mono (fun _ h c =>
    ⟨(h c Cert.ReferenceIdeal.main_arg0).trans (Cert.ReferenceIdeal.RFold.arg_kept0 _),
     (h c Cert.ReferenceIdeal.main_arg1).trans (Cert.ReferenceIdeal.RFold.arg_kept1 _),
     (h c Cert.ReferenceIdeal.main_arg2).trans (Cert.ReferenceIdeal.RFold.arg_kept2 _),
     (h c Cert.ReferenceIdeal.main_arg3).trans (Cert.ReferenceIdeal.RFold.arg_kept3 _),
     (h c Cert.ReferenceIdeal.main_arg4).trans (Cert.ReferenceIdeal.RFold.arg_kept4 _),
     (h c Cert.ReferenceIdeal.main_arg5).trans (Cert.ReferenceIdeal.RFold.arg_kept5 _),
     (h c Cert.ReferenceIdeal.main_arg6).trans (Cert.ReferenceIdeal.RFold.arg_kept6 _),
     (h c Cert.ReferenceIdeal.main_arg7).trans (Cert.ReferenceIdeal.RFold.arg_kept7 _),
     (h c Cert.ReferenceIdeal.main_arg8).trans (Cert.ReferenceIdeal.RFold.arg_kept8 _),
     (h c Cert.ReferenceIdeal.main_arg9).trans (Cert.ReferenceIdeal.RFold.arg_kept9 _),
     (h c Cert.ReferenceIdeal.main_arg10).trans (Cert.ReferenceIdeal.RFold.arg_kept10 _),
     (h c Cert.ReferenceIdeal.main_arg11).trans (Cert.ReferenceIdeal.RFold.arg_kept11 _),
     (h c Cert.ReferenceIdeal.main_arg12).trans (Cert.ReferenceIdeal.RFold.arg_kept12 _),
     (h c Cert.ReferenceIdeal.main_arg13).trans (Cert.ReferenceIdeal.RFold.arg_kept13 _),
     (h c Cert.ReferenceIdeal.main_arg14).trans (Cert.ReferenceIdeal.RFold.arg_kept14 _),
     (h c Cert.ReferenceIdeal.main_arg15).trans (Cert.ReferenceIdeal.RFold.arg_kept15 _),
     (h c Cert.ReferenceIdeal.main_arg16).trans (Cert.ReferenceIdeal.RFold.arg_kept16 _),
     (h c Cert.ReferenceIdeal.main_arg17).trans (Cert.ReferenceIdeal.RFold.arg_kept17 _),
     (h c Cert.ReferenceIdeal.main_arg18).trans (Cert.ReferenceIdeal.RFold.arg_kept18 _),
     (h c Cert.ReferenceIdeal.main_arg19).trans (Cert.ReferenceIdeal.RFold.arg_kept19 _),
     (h c Cert.ReferenceIdeal.main_arg20).trans (Cert.ReferenceIdeal.RFold.arg_kept20 _),
     (h c Cert.ReferenceIdeal.main_arg21).trans (Cert.ReferenceIdeal.RFold.arg_kept21 _),
     (h c Cert.ReferenceIdeal.main_arg22).trans (Cert.ReferenceIdeal.RFold.arg_kept22 _),
     (h c Cert.ReferenceIdeal.main_arg23).trans (Cert.ReferenceIdeal.RFold.arg_kept23 _),
     (h c Cert.ReferenceIdeal.main_arg24).trans (Cert.ReferenceIdeal.RFold.arg_kept24 _),
     (h c Cert.ReferenceIdeal.main_arg25).trans (Cert.ReferenceIdeal.RFold.arg_kept25 _),
     (h c Cert.ReferenceIdeal.main_arg26).trans (Cert.ReferenceIdeal.RFold.arg_kept26 _)⟩)
    (Cert.ReferenceIdeal.RRun.run_main (F := Ideal) m ρ)

/-- The conjunct relating the kernel to its idealization is stated as `True`: no rewritten operation is recorded. -/
theorem preserves : Cert.preserves_Kernel_KernelIdeal := trivial

/-- From memories agreeing on the arguments both programs end with the network function of those arguments at
    their result: the kernel's run gives it with the kernel's edge array, the reference's with the reference's, and
    on finite edge attributes, edge rows and edge biases the two edge arrays are one. -/
theorem algebraic : Cert.algebraic_KernelIdeal_ReferenceIdeal := by
  intro m ρ m' ρ' hpre hagree
  refine ⟨fun c => Cert.Net.netWith (Cert.Net.edgeK (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)), ?_, ?_⟩
  · exact (θ_run (Cert.KernelIdeal.defs (F := Ideal)) _ _).mono
      (fun _ h c => ⟨(h c).1.trans (Cert.KernelIdeal.KFold.result_eq m ρ c), (h c).2⟩) (Cert.KernelIdeal.KRun.run_value (F := Ideal) m ρ)
  · refine (θ_run (Cert.ReferenceIdeal.defs (F := Ideal)) _ _).mono (fun _ h c => ⟨?_,
      (h c Cert.ReferenceIdeal.main_arg0).trans (Cert.ReferenceIdeal.RFold.arg_kept0 _),
      (h c Cert.ReferenceIdeal.main_arg1).trans (Cert.ReferenceIdeal.RFold.arg_kept1 _),
      (h c Cert.ReferenceIdeal.main_arg2).trans (Cert.ReferenceIdeal.RFold.arg_kept2 _),
      (h c Cert.ReferenceIdeal.main_arg3).trans (Cert.ReferenceIdeal.RFold.arg_kept3 _),
      (h c Cert.ReferenceIdeal.main_arg4).trans (Cert.ReferenceIdeal.RFold.arg_kept4 _),
      (h c Cert.ReferenceIdeal.main_arg5).trans (Cert.ReferenceIdeal.RFold.arg_kept5 _),
      (h c Cert.ReferenceIdeal.main_arg6).trans (Cert.ReferenceIdeal.RFold.arg_kept6 _),
      (h c Cert.ReferenceIdeal.main_arg7).trans (Cert.ReferenceIdeal.RFold.arg_kept7 _),
      (h c Cert.ReferenceIdeal.main_arg8).trans (Cert.ReferenceIdeal.RFold.arg_kept8 _),
      (h c Cert.ReferenceIdeal.main_arg9).trans (Cert.ReferenceIdeal.RFold.arg_kept9 _),
      (h c Cert.ReferenceIdeal.main_arg10).trans (Cert.ReferenceIdeal.RFold.arg_kept10 _),
      (h c Cert.ReferenceIdeal.main_arg11).trans (Cert.ReferenceIdeal.RFold.arg_kept11 _),
      (h c Cert.ReferenceIdeal.main_arg12).trans (Cert.ReferenceIdeal.RFold.arg_kept12 _),
      (h c Cert.ReferenceIdeal.main_arg13).trans (Cert.ReferenceIdeal.RFold.arg_kept13 _),
      (h c Cert.ReferenceIdeal.main_arg14).trans (Cert.ReferenceIdeal.RFold.arg_kept14 _),
      (h c Cert.ReferenceIdeal.main_arg15).trans (Cert.ReferenceIdeal.RFold.arg_kept15 _),
      (h c Cert.ReferenceIdeal.main_arg16).trans (Cert.ReferenceIdeal.RFold.arg_kept16 _),
      (h c Cert.ReferenceIdeal.main_arg17).trans (Cert.ReferenceIdeal.RFold.arg_kept17 _),
      (h c Cert.ReferenceIdeal.main_arg18).trans (Cert.ReferenceIdeal.RFold.arg_kept18 _),
      (h c Cert.ReferenceIdeal.main_arg19).trans (Cert.ReferenceIdeal.RFold.arg_kept19 _),
      (h c Cert.ReferenceIdeal.main_arg20).trans (Cert.ReferenceIdeal.RFold.arg_kept20 _),
      (h c Cert.ReferenceIdeal.main_arg21).trans (Cert.ReferenceIdeal.RFold.arg_kept21 _),
      (h c Cert.ReferenceIdeal.main_arg22).trans (Cert.ReferenceIdeal.RFold.arg_kept22 _),
      (h c Cert.ReferenceIdeal.main_arg23).trans (Cert.ReferenceIdeal.RFold.arg_kept23 _),
      (h c Cert.ReferenceIdeal.main_arg24).trans (Cert.ReferenceIdeal.RFold.arg_kept24 _),
      (h c Cert.ReferenceIdeal.main_arg25).trans (Cert.ReferenceIdeal.RFold.arg_kept25 _),
      (h c Cert.ReferenceIdeal.main_arg26).trans (Cert.ReferenceIdeal.RFold.arg_kept26 _)⟩)
      (Cert.ReferenceIdeal.RRun.run_main (F := Ideal) m' ρ')
    obtain ⟨e0, e1, e2, e3, e4, e5, e6, e7, e8, e9, e10, e11, e12, e13, e14, e15, e16, e17, e18, e19, e20, e21, e22, e23, e24, e25, e26⟩ := hagree c
    obtain ⟨h2, h9, h10⟩ := Cert.Finite.of_pre m hpre c
    refine (h c Cert.ReferenceIdeal.main_v546).trans ((Cert.ReferenceIdeal.RFold.result_eq _).trans ?_)
    show Cert.Net.netWith (Cert.Net.edgeR (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)))
        (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26))
      = Cert.Net.netWith (Cert.Net.edgeK (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))
    rw [e0, e1, e2, e3, e4, e5, e6, e7, e8, e9, e10, e11, e12, e13, e14, e15, e16, e17, e18, e19, e20, e21, e22, e23, e24, e25, e26]
    exact (Cert.Bridge.net_eq _ _ _ _ _ _ _ _ _ _ _ _ _ _ _ _ _ _ _ _ _ _ _ _ _ _ _ h2 h9 h10).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
